-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v194)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v194) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v478) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S3x800000 : Shape := ⟨2, ![3, 800000]⟩
abbrev S3x64x64 : Shape := ⟨3, ![3, 64, 64]⟩
abbrev S3x64 : Shape := ⟨2, ![3, 64]⟩
abbrev S3x64x2 : Shape := ⟨3, ![3, 64, 2]⟩
abbrev S3x2 : Shape := ⟨2, ![3, 2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S3x64x2 : S_.BroadcastsInDim S3x64x2 (![] : Fin 0 → Fin S3x64x2.rank)
  reducesTo_S3x64x2_S_d0_1_2 : S3x64x2.ReducesTo [0, 1, 2] S_
  bcast_S_S3x2 : S_.BroadcastsInDim S3x2 (![] : Fin 0 → Fin S3x2.rank)
  reducesTo_S3x2_S_d0_1 : S3x2.ReducesTo [0, 1] S_
  bcast_S_S3x800000 : S_.BroadcastsInDim S3x800000 (![] : Fin 0 → Fin S3x800000.rank)
  reducesTo_S3x800000_S_d0_1 : S3x800000.ReducesTo [0, 1] S_

variable [Facts]

def fn_part2 {F : FTy → Type} [FloatOps F] (main_arg1 : IVec S3x800000 32) (main_arg9 : FVec F S3x64x2 .f32) (main_arg10 : FVec F S3x2 .f32) (main_v33 : IVec S_ 1) : IVec S_ 1 :=
  let main_v34 : FVec F S3x64x2 .f32 := Host.absf main_arg9
  let main_cst_12 : FVec F S_ .f32 := constant S_ .f32 0x7F800000#32
  let main_v35 : FVec F S3x64x2 .f32 := broadcastInDim S3x64x2 ![] bcast_S_S3x64x2 main_cst_12
  let main_v36 : IVec S3x64x2 1 := cmpf .olt main_v34 main_v35
  let main_c_13 : IVec S_ 1 := constantI S_ 1 1#1
  let main_v37 : IVec S_ 1 := (fun x v => Host.reduce IntOp.andi x v reducesTo_S3x64x2_S_d0_1_2 h_S_) main_v36 main_c_13
  let main_v38 : IVec S_ 1 := andi main_v33 main_v37
  let main_v39 : FVec F S3x2 .f32 := Host.absf main_arg10
  let main_cst_14 : FVec F S_ .f32 := constant S_ .f32 0x7F800000#32
  let main_v40 : FVec F S3x2 .f32 := broadcastInDim S3x2 ![] bcast_S_S3x2 main_cst_14
  let main_v41 : IVec S3x2 1 := cmpf .olt main_v39 main_v40
  let main_c_15 : IVec S_ 1 := constantI S_ 1 1#1
  let main_v42 : IVec S_ 1 := (fun x v => Host.reduce IntOp.andi x v reducesTo_S3x2_S_d0_1 h_S_) main_v41 main_c_15
  let main_v43 : IVec S_ 1 := andi main_v38 main_v42
  let main_c_16 : IVec S_ 32 := constantI S_ 32 0#32
  let main_v44 : IVec S3x800000 32 := broadcastInDim S3x800000 ![] bcast_S_S3x800000 main_c_16
  let main_v45 : IVec S3x800000 1 := cmpi .sge main_arg1 main_v44
  let main_c_17 : IVec S_ 32 := constantI S_ 32 100000#32
  let main_v46 : IVec S3x800000 32 := broadcastInDim S3x800000 ![] bcast_S_S3x800000 main_c_17
  let main_v47 : IVec S3x800000 1 := cmpi .slt main_arg1 main_v46
  let main_v48 : IVec S3x800000 1 := andi main_v45 main_v47
  let main_c_18 : IVec S_ 1 := constantI S_ 1 1#1
  let main_v49 : IVec S_ 1 := (fun x v => Host.reduce IntOp.andi x v reducesTo_S3x800000_S_d0_1 h_S_) main_v48 main_c_18
  let main_v50 : IVec S_ 1 := andi main_v43 main_v49
  main_v50

def fn_part1 {F : FTy → Type} [FloatOps F] (main_arg1 : IVec S3x800000 32) (main_arg6 : FVec F S3x64 .f32) (main_arg7 : FVec F S3x64x64 .f32) (main_arg8 : FVec F S3x64 .f32) (main_arg9 : FVec F S3x64x2 .f32) (main_arg10 : FVec F S3x2 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64x64 .f32 := Host.absf main_arg7
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg1 main_arg9 main_arg10 main_v33

def fn {F : FTy → Type} [FloatOps F] (main_arg0 : FVec F S100000x64 .f32) (main_arg1 : IVec S3x800000 32) (main_arg2 : IVec S3x800000 32) (main_arg3 : FVec F S3x64x64 .f32) (main_arg4 : FVec F S3x64 .f32) (main_arg5 : FVec F S3x64x64 .f32) (main_arg6 : FVec F S3x64 .f32) (main_arg7 : FVec F S3x64x64 .f32) (main_arg8 : FVec F S3x64 .f32) (main_arg9 : FVec F S3x64x2 .f32) (main_arg10 : FVec F S3x2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg3
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg4
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64x64 .f32 := Host.absf main_arg5
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg1 main_arg6 main_arg7 main_arg8 main_arg9 main_arg10 main_v13 main_v16
-- ==== Kernel.lean ====
abbrev S100000x64 : Shape := ⟨2, ![100000, 64]⟩
abbrev S3x800000 : Shape := ⟨2, ![3, 800000]⟩
abbrev S3x64x64 : Shape := ⟨3, ![3, 64, 64]⟩
abbrev S3x64 : Shape := ⟨2, ![3, 64]⟩
abbrev S3x64x2 : Shape := ⟨3, ![3, 64, 2]⟩
abbrev S3x2 : Shape := ⟨2, ![3, 2]⟩
abbrev S_ : Shape := ⟨0, ![]⟩
abbrev S800000 : Shape := ⟨1, ![800000]⟩
abbrev S1x800000 : Shape := ⟨2, ![1, 800000]⟩
abbrev S100000 : Shape := ⟨1, ![100000]⟩
abbrev S800000x1 : Shape := ⟨2, ![800000, 1]⟩
abbrev S100000x1 : Shape := ⟨2, ![100000, 1]⟩
abbrev S100000x3 : Shape := ⟨2, ![100000, 3]⟩
abbrev S3x100000x64 : Shape := ⟨3, ![3, 100000, 64]⟩
abbrev S5000x64 : Shape := ⟨2, ![5000, 64]⟩
abbrev S5000x3 : Shape := ⟨2, ![5000, 3]⟩
abbrev S3x5000x64 : Shape := ⟨3, ![3, 5000, 64]⟩
abbrev S5000x1 : Shape := ⟨2, ![5000, 1]⟩
abbrev S1x64x64 : Shape := ⟨3, ![1, 64, 64]⟩
abbrev S64x64 : Shape := ⟨2, ![64, 64]⟩
abbrev S1x5000x64 : Shape := ⟨3, ![1, 5000, 64]⟩
abbrev S1x100000x64 : Shape := ⟨3, ![1, 100000, 64]⟩
abbrev S1 : Shape := ⟨1, ![1]⟩
abbrev S1x1 : Shape := ⟨2, ![1, 1]⟩
abbrev S800000x64 : Shape := ⟨2, ![800000, 64]⟩
abbrev S1x64 : Shape := ⟨2, ![1, 64]⟩
abbrev S64 : Shape := ⟨1, ![64]⟩
abbrev S3x100000x2 : Shape := ⟨3, ![3, 100000, 2]⟩
abbrev S3x5000x2 : Shape := ⟨3, ![3, 5000, 2]⟩
abbrev S1x64x2 : Shape := ⟨3, ![1, 64, 2]⟩
abbrev S64x2 : Shape := ⟨2, ![64, 2]⟩
abbrev S5000x2 : Shape := ⟨2, ![5000, 2]⟩
abbrev S1x5000x2 : Shape := ⟨3, ![1, 5000, 2]⟩
abbrev S1x100000x2 : Shape := ⟨3, ![1, 100000, 2]⟩
abbrev S100000x2 : Shape := ⟨2, ![100000, 2]⟩
abbrev S800000x2 : Shape := ⟨2, ![800000, 2]⟩
abbrev S1x2 : Shape := ⟨2, ![1, 2]⟩
abbrev S2 : Shape := ⟨1, ![2]⟩

abbrev nBuf : Space → Nat
  | .hbm => 507
  | .vmem => 56
  | .smem => 0
  | _ => 0

abbrev hbmTy0_0 (i : Nat) : BufTy := match i % 128 with
  | 0 => ⟨S100000x64, .f32⟩
  | 1 => ⟨S3x800000, .i32⟩
  | 2 => ⟨S3x800000, .i32⟩
  | 3 => ⟨S3x64x64, .f32⟩
  | 4 => ⟨S3x64, .f32⟩
  | 5 => ⟨S3x64x64, .f32⟩
  | 6 => ⟨S3x64, .f32⟩
  | 7 => ⟨S3x64x64, .f32⟩
  | 8 => ⟨S3x64, .f32⟩
  | 9 => ⟨S3x64x2, .f32⟩
  | 10 => ⟨S3x2, .f32⟩
  | 11 => ⟨S_, .f32⟩
  | 12 => ⟨S800000, .f32⟩
  | 13 => ⟨S1x800000, .i32⟩
  | 14 => ⟨S800000, .i32⟩
  | 15 => ⟨S_, .f32⟩
  | 16 => ⟨S100000, .f32⟩
  | 17 => ⟨S800000x1, .i32⟩
  | 18 => ⟨S100000, .f32⟩
  | 19 => ⟨S_, .f32⟩
  | 20 => ⟨S_, .f32⟩
  | 21 => ⟨S100000, .f32⟩
  | 22 => ⟨S100000, .f32⟩
  | 23 => ⟨S1x800000, .i32⟩
  | 24 => ⟨S800000, .i32⟩
  | 25 => ⟨S_, .f32⟩
  | 26 => ⟨S100000, .f32⟩
  | 27 => ⟨S800000x1, .i32⟩
  | 28 => ⟨S100000, .f32⟩
  | 29 => ⟨S_, .f32⟩
  | 30 => ⟨S_, .f32⟩
  | 31 => ⟨S100000, .f32⟩
  | 32 => ⟨S100000, .f32⟩
  | 33 => ⟨S100000, .f32⟩
  | 34 => ⟨S100000, .f32⟩
  | 35 => ⟨S1x800000, .i32⟩
  | 36 => ⟨S800000, .i32⟩
  | 37 => ⟨S_, .f32⟩
  | 38 => ⟨S100000, .f32⟩
  | 39 => ⟨S800000x1, .i32⟩
  | 40 => ⟨S100000, .f32⟩
  | 41 => ⟨S_, .f32⟩
  | 42 => ⟨S_, .f32⟩
  | 43 => ⟨S100000, .f32⟩
  | 44 => ⟨S100000, .f32⟩
  | 45 => ⟨S1x800000, .i32⟩
  | 46 => ⟨S800000, .i32⟩
  | 47 => ⟨S_, .f32⟩
  | 48 => ⟨S100000, .f32⟩
  | 49 => ⟨S800000x1, .i32⟩
  | 50 => ⟨S100000, .f32⟩
  | 51 => ⟨S_, .f32⟩
  | 52 => ⟨S_, .f32⟩
  | 53 => ⟨S100000, .f32⟩
  | 54 => ⟨S100000, .f32⟩
  | 55 => ⟨S100000, .f32⟩
  | 56 => ⟨S100000, .f32⟩
  | 57 => ⟨S1x800000, .i32⟩
  | 58 => ⟨S800000, .i32⟩
  | 59 => ⟨S_, .f32⟩
  | 60 => ⟨S100000, .f32⟩
  | 61 => ⟨S800000x1, .i32⟩
  | 62 => ⟨S100000, .f32⟩
  | 63 => ⟨S_, .f32⟩
  | 64 => ⟨S_, .f32⟩
  | 65 => ⟨S100000, .f32⟩
  | 66 => ⟨S100000, .f32⟩
  | 67 => ⟨S1x800000, .i32⟩
  | 68 => ⟨S800000, .i32⟩
  | 69 => ⟨S_, .f32⟩
  | 70 => ⟨S100000, .f32⟩
  | 71 => ⟨S800000x1, .i32⟩
  | 72 => ⟨S100000, .f32⟩
  | 73 => ⟨S_, .f32⟩
  | 74 => ⟨S_, .f32⟩
  | 75 => ⟨S100000, .f32⟩
  | 76 => ⟨S100000, .f32⟩
  | 77 => ⟨S100000, .f32⟩
  | 78 => ⟨S100000, .f32⟩
  | 79 => ⟨S100000x1, .f32⟩
  | 80 => ⟨S100000x1, .f32⟩
  | 81 => ⟨S100000x1, .f32⟩
  | 82 => ⟨S100000x3, .f32⟩
  | 83 => ⟨S100000x1, .f32⟩
  | 84 => ⟨S100000x1, .f32⟩
  | 85 => ⟨S100000x1, .f32⟩
  | 86 => ⟨S100000x3, .f32⟩
  | 87 => ⟨S3x100000x64, .f32⟩
  | 88 => ⟨S1x100000x64, .f32⟩
  | 89 => ⟨S100000x64, .f32⟩
  | 90 => ⟨S1x800000, .i32⟩
  | 91 => ⟨S800000, .i32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S1, .i32⟩
  | 101 => ⟨S_, .i32⟩
  | 102 => ⟨S800000x1, .i32⟩
  | 103 => ⟨S800000x1, .i1⟩
  | 104 => ⟨S1x1, .i32⟩
  | 105 => ⟨S800000x1, .i32⟩
  | 106 => ⟨S800000x1, .i1⟩
  | 107 => ⟨S800000x1, .i1⟩
  | 108 => ⟨S_, .i1⟩
  | 109 => ⟨S800000, .i1⟩
  | 110 => ⟨S800000x64, .f32⟩
  | 111 => ⟨S800000x64, .i1⟩
  | 112 => ⟨S_, .f32⟩
  | 113 => ⟨S800000x64, .f32⟩
  | 114 => ⟨S800000x64, .f32⟩
  | 115 => ⟨S1x800000, .i32⟩
  | 116 => ⟨S800000, .i32⟩
  | 117 => ⟨S_, .f32⟩
  | 118 => ⟨S100000x64, .f32⟩
  | 119 => ⟨S800000x1, .i32⟩
  | 120 => ⟨S100000x64, .f32⟩
  | 121 => ⟨S1x100000x64, .f32⟩
  | 122 => ⟨S100000x64, .f32⟩
  | 123 => ⟨S1x800000, .i32⟩
  | 124 => ⟨S800000, .i32⟩
  | 125 => ⟨S_, .i32⟩
  | 126 => ⟨S800000, .i32⟩
  | 127 => ⟨S800000, .i1⟩
  | _ => ⟨S100000x64, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S1, .i32⟩
  | 6 => ⟨S_, .i32⟩
  | 7 => ⟨S800000x1, .i32⟩
  | 8 => ⟨S800000x1, .i1⟩
  | 9 => ⟨S1x1, .i32⟩
  | 10 => ⟨S800000x1, .i32⟩
  | 11 => ⟨S800000x1, .i1⟩
  | 12 => ⟨S800000x1, .i1⟩
  | 13 => ⟨S_, .i1⟩
  | 14 => ⟨S800000, .i1⟩
  | 15 => ⟨S800000x64, .f32⟩
  | 16 => ⟨S800000x64, .i1⟩
  | 17 => ⟨S_, .f32⟩
  | 18 => ⟨S800000x64, .f32⟩
  | 19 => ⟨S800000x64, .f32⟩
  | 20 => ⟨S1x800000, .i32⟩
  | 21 => ⟨S800000, .i32⟩
  | 22 => ⟨S_, .f32⟩
  | 23 => ⟨S100000x64, .f32⟩
  | 24 => ⟨S800000x1, .i32⟩
  | 25 => ⟨S100000x64, .f32⟩
  | 26 => ⟨S1x100000x64, .f32⟩
  | 27 => ⟨S100000x64, .f32⟩
  | 28 => ⟨S1x800000, .i32⟩
  | 29 => ⟨S800000, .i32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S1, .i32⟩
  | 39 => ⟨S_, .i32⟩
  | 40 => ⟨S800000x1, .i32⟩
  | 41 => ⟨S800000x1, .i1⟩
  | 42 => ⟨S1x1, .i32⟩
  | 43 => ⟨S800000x1, .i32⟩
  | 44 => ⟨S800000x1, .i1⟩
  | 45 => ⟨S800000x1, .i1⟩
  | 46 => ⟨S_, .i1⟩
  | 47 => ⟨S800000, .i1⟩
  | 48 => ⟨S800000x64, .f32⟩
  | 49 => ⟨S800000x64, .i1⟩
  | 50 => ⟨S_, .f32⟩
  | 51 => ⟨S800000x64, .f32⟩
  | 52 => ⟨S800000x64, .f32⟩
  | 53 => ⟨S1x800000, .i32⟩
  | 54 => ⟨S800000, .i32⟩
  | 55 => ⟨S_, .f32⟩
  | 56 => ⟨S100000x64, .f32⟩
  | 57 => ⟨S800000x1, .i32⟩
  | 58 => ⟨S100000x64, .f32⟩
  | 59 => ⟨S1x100000x64, .f32⟩
  | 60 => ⟨S1x100000x64, .f32⟩
  | 61 => ⟨S1x100000x64, .f32⟩
  | 62 => ⟨S3x100000x64, .f32⟩
  | 63 => ⟨S100000x64, .f32⟩
  | 64 => ⟨S3x100000x64, .f32⟩
  | 65 => ⟨S1x100000x64, .f32⟩
  | 66 => ⟨S100000x64, .f32⟩
  | 67 => ⟨S1x800000, .i32⟩
  | 68 => ⟨S800000, .i32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S1, .i32⟩
  | 78 => ⟨S_, .i32⟩
  | 79 => ⟨S800000x1, .i32⟩
  | 80 => ⟨S800000x1, .i1⟩
  | 81 => ⟨S1x1, .i32⟩
  | 82 => ⟨S800000x1, .i32⟩
  | 83 => ⟨S800000x1, .i1⟩
  | 84 => ⟨S800000x1, .i1⟩
  | 85 => ⟨S_, .i1⟩
  | 86 => ⟨S800000, .i1⟩
  | 87 => ⟨S800000x64, .f32⟩
  | 88 => ⟨S800000x64, .i1⟩
  | 89 => ⟨S_, .f32⟩
  | 90 => ⟨S800000x64, .f32⟩
  | 91 => ⟨S800000x64, .f32⟩
  | 92 => ⟨S1x800000, .i32⟩
  | 93 => ⟨S800000, .i32⟩
  | 94 => ⟨S_, .f32⟩
  | 95 => ⟨S100000x64, .f32⟩
  | 96 => ⟨S800000x1, .i32⟩
  | 97 => ⟨S100000x64, .f32⟩
  | 98 => ⟨S1x100000x64, .f32⟩
  | 99 => ⟨S100000x64, .f32⟩
  | 100 => ⟨S1x800000, .i32⟩
  | 101 => ⟨S800000, .i32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S1, .i32⟩
  | 111 => ⟨S_, .i32⟩
  | 112 => ⟨S800000x1, .i32⟩
  | 113 => ⟨S800000x1, .i1⟩
  | 114 => ⟨S1x1, .i32⟩
  | 115 => ⟨S800000x1, .i32⟩
  | 116 => ⟨S800000x1, .i1⟩
  | 117 => ⟨S800000x1, .i1⟩
  | 118 => ⟨S_, .i1⟩
  | 119 => ⟨S800000, .i1⟩
  | 120 => ⟨S800000x64, .f32⟩
  | 121 => ⟨S800000x64, .i1⟩
  | 122 => ⟨S_, .f32⟩
  | 123 => ⟨S800000x64, .f32⟩
  | 124 => ⟨S800000x64, .f32⟩
  | 125 => ⟨S1x800000, .i32⟩
  | 126 => ⟨S800000, .i32⟩
  | 127 => ⟨S_, .f32⟩
  | _ => ⟨S100000x64, .f32⟩

abbrev hbmTy0_2 (i : Nat) : BufTy := match i % 128 with
  | 0 => ⟨S100000x64, .f32⟩
  | 1 => ⟨S800000x1, .i32⟩
  | 2 => ⟨S100000x64, .f32⟩
  | 3 => ⟨S1x100000x64, .f32⟩
  | 4 => ⟨S100000x64, .f32⟩
  | 5 => ⟨S1x800000, .i32⟩
  | 6 => ⟨S800000, .i32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S1, .i32⟩
  | 16 => ⟨S_, .i32⟩
  | 17 => ⟨S800000x1, .i32⟩
  | 18 => ⟨S800000x1, .i1⟩
  | 19 => ⟨S1x1, .i32⟩
  | 20 => ⟨S800000x1, .i32⟩
  | 21 => ⟨S800000x1, .i1⟩
  | 22 => ⟨S800000x1, .i1⟩
  | 23 => ⟨S_, .i1⟩
  | 24 => ⟨S800000, .i1⟩
  | 25 => ⟨S800000x64, .f32⟩
  | 26 => ⟨S800000x64, .i1⟩
  | 27 => ⟨S_, .f32⟩
  | 28 => ⟨S800000x64, .f32⟩
  | 29 => ⟨S800000x64, .f32⟩
  | 30 => ⟨S1x800000, .i32⟩
  | 31 => ⟨S800000, .i32⟩
  | 32 => ⟨S_, .f32⟩
  | 33 => ⟨S100000x64, .f32⟩
  | 34 => ⟨S800000x1, .i32⟩
  | 35 => ⟨S100000x64, .f32⟩
  | 36 => ⟨S1x100000x64, .f32⟩
  | 37 => ⟨S1x100000x64, .f32⟩
  | 38 => ⟨S1x100000x64, .f32⟩
  | 39 => ⟨S3x100000x64, .f32⟩
  | 40 => ⟨S100000x64, .f32⟩
  | 41 => ⟨S3x100000x64, .f32⟩
  | 42 => ⟨S1x100000x64, .f32⟩
  | 43 => ⟨S100000x64, .f32⟩
  | 44 => ⟨S1x800000, .i32⟩
  | 45 => ⟨S800000, .i32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S1, .i32⟩
  | 55 => ⟨S_, .i32⟩
  | 56 => ⟨S800000x1, .i32⟩
  | 57 => ⟨S800000x1, .i1⟩
  | 58 => ⟨S1x1, .i32⟩
  | 59 => ⟨S800000x1, .i32⟩
  | 60 => ⟨S800000x1, .i1⟩
  | 61 => ⟨S800000x1, .i1⟩
  | 62 => ⟨S_, .i1⟩
  | 63 => ⟨S800000, .i1⟩
  | 64 => ⟨S800000x64, .f32⟩
  | 65 => ⟨S800000x64, .i1⟩
  | 66 => ⟨S_, .f32⟩
  | 67 => ⟨S800000x64, .f32⟩
  | 68 => ⟨S800000x64, .f32⟩
  | 69 => ⟨S1x800000, .i32⟩
  | 70 => ⟨S800000, .i32⟩
  | 71 => ⟨S_, .f32⟩
  | 72 => ⟨S100000x64, .f32⟩
  | 73 => ⟨S800000x1, .i32⟩
  | 74 => ⟨S100000x64, .f32⟩
  | 75 => ⟨S1x100000x64, .f32⟩
  | 76 => ⟨S100000x64, .f32⟩
  | 77 => ⟨S1x800000, .i32⟩
  | 78 => ⟨S800000, .i32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S1, .i32⟩
  | 88 => ⟨S_, .i32⟩
  | 89 => ⟨S800000x1, .i32⟩
  | 90 => ⟨S800000x1, .i1⟩
  | 91 => ⟨S1x1, .i32⟩
  | 92 => ⟨S800000x1, .i32⟩
  | 93 => ⟨S800000x1, .i1⟩
  | 94 => ⟨S800000x1, .i1⟩
  | 95 => ⟨S_, .i1⟩
  | 96 => ⟨S800000, .i1⟩
  | 97 => ⟨S800000x64, .f32⟩
  | 98 => ⟨S800000x64, .i1⟩
  | 99 => ⟨S_, .f32⟩
  | 100 => ⟨S800000x64, .f32⟩
  | 101 => ⟨S800000x64, .f32⟩
  | 102 => ⟨S1x800000, .i32⟩
  | 103 => ⟨S800000, .i32⟩
  | 104 => ⟨S_, .f32⟩
  | 105 => ⟨S100000x64, .f32⟩
  | 106 => ⟨S800000x1, .i32⟩
  | 107 => ⟨S100000x64, .f32⟩
  | 108 => ⟨S1x100000x64, .f32⟩
  | 109 => ⟨S100000x64, .f32⟩
  | 110 => ⟨S1x800000, .i32⟩
  | 111 => ⟨S800000, .i32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S1, .i32⟩
  | 121 => ⟨S_, .i32⟩
  | 122 => ⟨S800000x1, .i32⟩
  | 123 => ⟨S800000x1, .i1⟩
  | 124 => ⟨S1x1, .i32⟩
  | 125 => ⟨S800000x1, .i32⟩
  | 126 => ⟨S800000x1, .i1⟩
  | 127 => ⟨S800000x1, .i1⟩
  | _ => ⟨S100000x64, .f32⟩

abbrev hbmTy0_3 (i : Nat) : BufTy := match i % 128 with
  | 0 => ⟨S_, .i1⟩
  | 1 => ⟨S800000, .i1⟩
  | 2 => ⟨S800000x64, .f32⟩
  | 3 => ⟨S800000x64, .i1⟩
  | 4 => ⟨S_, .f32⟩
  | 5 => ⟨S800000x64, .f32⟩
  | 6 => ⟨S800000x64, .f32⟩
  | 7 => ⟨S1x800000, .i32⟩
  | 8 => ⟨S800000, .i32⟩
  | 9 => ⟨S_, .f32⟩
  | 10 => ⟨S100000x64, .f32⟩
  | 11 => ⟨S800000x1, .i32⟩
  | 12 => ⟨S100000x64, .f32⟩
  | 13 => ⟨S1x100000x64, .f32⟩
  | 14 => ⟨S1x100000x64, .f32⟩
  | 15 => ⟨S1x100000x64, .f32⟩
  | 16 => ⟨S3x100000x64, .f32⟩
  | 17 => ⟨S100000x64, .f32⟩
  | 18 => ⟨S3x100000x2, .f32⟩
  | 19 => ⟨S1x100000x2, .f32⟩
  | 20 => ⟨S100000x2, .f32⟩
  | 21 => ⟨S1x800000, .i32⟩
  | 22 => ⟨S800000, .i32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S1, .i32⟩
  | 32 => ⟨S_, .i32⟩
  | 33 => ⟨S800000x1, .i32⟩
  | 34 => ⟨S800000x1, .i1⟩
  | 35 => ⟨S1x1, .i32⟩
  | 36 => ⟨S800000x1, .i32⟩
  | 37 => ⟨S800000x1, .i1⟩
  | 38 => ⟨S800000x1, .i1⟩
  | 39 => ⟨S_, .i1⟩
  | 40 => ⟨S800000, .i1⟩
  | 41 => ⟨S800000x2, .f32⟩
  | 42 => ⟨S800000x2, .i1⟩
  | 43 => ⟨S_, .f32⟩
  | 44 => ⟨S800000x2, .f32⟩
  | 45 => ⟨S800000x2, .f32⟩
  | 46 => ⟨S1x800000, .i32⟩
  | 47 => ⟨S800000, .i32⟩
  | 48 => ⟨S_, .f32⟩
  | 49 => ⟨S100000x2, .f32⟩
  | 50 => ⟨S800000x1, .i32⟩
  | 51 => ⟨S100000x2, .f32⟩
  | 52 => ⟨S1x100000x2, .f32⟩
  | 53 => ⟨S100000x2, .f32⟩
  | 54 => ⟨S1x800000, .i32⟩
  | 55 => ⟨S800000, .i32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S1, .i32⟩
  | 65 => ⟨S_, .i32⟩
  | 66 => ⟨S800000x1, .i32⟩
  | 67 => ⟨S800000x1, .i1⟩
  | 68 => ⟨S1x1, .i32⟩
  | 69 => ⟨S800000x1, .i32⟩
  | 70 => ⟨S800000x1, .i1⟩
  | 71 => ⟨S800000x1, .i1⟩
  | 72 => ⟨S_, .i1⟩
  | 73 => ⟨S800000, .i1⟩
  | 74 => ⟨S800000x2, .f32⟩
  | 75 => ⟨S800000x2, .i1⟩
  | 76 => ⟨S_, .f32⟩
  | 77 => ⟨S800000x2, .f32⟩
  | 78 => ⟨S800000x2, .f32⟩
  | 79 => ⟨S1x800000, .i32⟩
  | 80 => ⟨S800000, .i32⟩
  | 81 => ⟨S_, .f32⟩
  | 82 => ⟨S100000x2, .f32⟩
  | 83 => ⟨S800000x1, .i32⟩
  | 84 => ⟨S100000x2, .f32⟩
  | 85 => ⟨S1x100000x2, .f32⟩
  | 86 => ⟨S100000x2, .f32⟩
  | 87 => ⟨S1x800000, .i32⟩
  | 88 => ⟨S800000, .i32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S1, .i32⟩
  | 98 => ⟨S_, .i32⟩
  | 99 => ⟨S800000x1, .i32⟩
  | 100 => ⟨S800000x1, .i1⟩
  | 101 => ⟨S1x1, .i32⟩
  | 102 => ⟨S800000x1, .i32⟩
  | 103 => ⟨S800000x1, .i1⟩
  | 104 => ⟨S800000x1, .i1⟩
  | 105 => ⟨S_, .i1⟩
  | 106 => ⟨S800000, .i1⟩
  | 107 => ⟨S800000x2, .f32⟩
  | 108 => ⟨S800000x2, .i1⟩
  | 109 => ⟨S_, .f32⟩
  | 110 => ⟨S800000x2, .f32⟩
  | 111 => ⟨S800000x2, .f32⟩
  | 112 => ⟨S1x800000, .i32⟩
  | 113 => ⟨S800000, .i32⟩
  | 114 => ⟨S_, .f32⟩
  | 115 => ⟨S100000x2, .f32⟩
  | 116 => ⟨S800000x1, .i32⟩
  | 117 => ⟨S100000x2, .f32⟩
  | 118 => ⟨S1x100000x2, .f32⟩
  | 119 => ⟨S1x100000x2, .f32⟩
  | 120 => ⟨S1x100000x2, .f32⟩
  | 121 => ⟨S3x100000x2, .f32⟩
  | 122 => ⟨S100000x2, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x3, .f32⟩
  | .local _ .vmem, ⟨3, _⟩ => ⟨S5000x3, .f32⟩
  | .local _ .vmem, ⟨4, _⟩ => ⟨S3x64x64, .f32⟩
  | .local _ .vmem, ⟨5, _⟩ => ⟨S3x5000x64, .f32⟩
  | .local _ .vmem, ⟨6, _⟩ => ⟨S3x5000x64, .f32⟩
  | .local _ .vmem, ⟨7, _⟩ => ⟨S3x5000x64, .f32⟩
  | .local _ .vmem, ⟨8, _⟩ => ⟨S3x5000x64, .f32⟩
  | .local _ .vmem, ⟨9, _⟩ => ⟨S5000x3, .f32⟩
  | .local _ .vmem, ⟨10, _⟩ => ⟨S5000x3, .f32⟩
  | .local _ .vmem, ⟨11, _⟩ => ⟨S3x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x3, .f32⟩
  | .local _ .vmem, ⟨17, _⟩ => ⟨S5000x3, .f32⟩
  | .local _ .vmem, ⟨18, _⟩ => ⟨S3x64x64, .f32⟩
  | .local _ .vmem, ⟨19, _⟩ => ⟨S3x5000x64, .f32⟩
  | .local _ .vmem, ⟨20, _⟩ => ⟨S3x5000x64, .f32⟩
  | .local _ .vmem, ⟨21, _⟩ => ⟨S3x5000x64, .f32⟩
  | .local _ .vmem, ⟨22, _⟩ => ⟨S3x5000x64, .f32⟩
  | .local _ .vmem, ⟨23, _⟩ => ⟨S5000x3, .f32⟩
  | .local _ .vmem, ⟨24, _⟩ => ⟨S5000x3, .f32⟩
  | .local _ .vmem, ⟨25, _⟩ => ⟨S3x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x3, .f32⟩
  | .local _ .vmem, ⟨31, _⟩ => ⟨S5000x3, .f32⟩
  | .local _ .vmem, ⟨32, _⟩ => ⟨S3x64x64, .f32⟩
  | .local _ .vmem, ⟨33, _⟩ => ⟨S3x5000x64, .f32⟩
  | .local _ .vmem, ⟨34, _⟩ => ⟨S3x5000x64, .f32⟩
  | .local _ .vmem, ⟨35, _⟩ => ⟨S3x5000x64, .f32⟩
  | .local _ .vmem, ⟨36, _⟩ => ⟨S3x5000x64, .f32⟩
  | .local _ .vmem, ⟨37, _⟩ => ⟨S5000x3, .f32⟩
  | .local _ .vmem, ⟨38, _⟩ => ⟨S5000x3, .f32⟩
  | .local _ .vmem, ⟨39, _⟩ => ⟨S3x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x3, .f32⟩
  | .local _ .vmem, ⟨45, _⟩ => ⟨S5000x3, .f32⟩
  | .local _ .vmem, ⟨46, _⟩ => ⟨S3x64x2, .f32⟩
  | .local _ .vmem, ⟨47, _⟩ => ⟨S3x5000x2, .f32⟩
  | .local _ .vmem, ⟨48, _⟩ => ⟨S3x5000x2, .f32⟩
  | .local _ .vmem, ⟨49, _⟩ => ⟨S3x5000x2, .f32⟩
  | .local _ .vmem, ⟨50, _⟩ => ⟨S3x5000x2, .f32⟩
  | .local _ .vmem, ⟨51, _⟩ => ⟨S5000x3, .f32⟩
  | .local _ .vmem, ⟨52, _⟩ => ⟨S5000x3, .f32⟩
  | .local _ .vmem, ⟨53, _⟩ => ⟨S3x2, .f32⟩
  | .local _ .vmem, ⟨54, _⟩ => ⟨S5000x2, .f32⟩
  | .local _ .vmem, ⟨55, _⟩ => ⟨S5000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_4 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_5 : Ref sig .tc := ⟨.hbm, 41, rfl⟩
abbrev main_call2_v0 : Ref sig .tc := ⟨.hbm, 42, rfl⟩
abbrev main_call2_v1 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_6 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_7 : Ref sig .tc := ⟨.hbm, 51, rfl⟩
abbrev main_call3_v0 : Ref sig .tc := ⟨.hbm, 52, rfl⟩
abbrev main_call3_v1 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_8 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_9 : Ref sig .tc := ⟨.hbm, 63, rfl⟩
abbrev main_call4_v0 : Ref sig .tc := ⟨.hbm, 64, rfl⟩
abbrev main_call4_v1 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_10 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_11 : Ref sig .tc := ⟨.hbm, 73, rfl⟩
abbrev main_call5_v0 : Ref sig .tc := ⟨.hbm, 74, rfl⟩
abbrev main_call5_v1 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_call6_c : Ref sig .tc := ⟨.hbm, 92, rfl⟩
abbrev main_call6_v0 : Ref sig .tc := ⟨.hbm, 93, rfl⟩
abbrev main_call6_v1 : Ref sig .tc := ⟨.hbm, 94, rfl⟩
abbrev main_call6_c_0 : Ref sig .tc := ⟨.hbm, 95, rfl⟩
abbrev main_call6_v2 : Ref sig .tc := ⟨.hbm, 96, rfl⟩
abbrev main_call6_v3 : Ref sig .tc := ⟨.hbm, 97, rfl⟩
abbrev main_call6_v4 : Ref sig .tc := ⟨.hbm, 98, rfl⟩
abbrev main_call6_v5 : Ref sig .tc := ⟨.hbm, 99, rfl⟩
abbrev main_call6_c_1 : Ref sig .tc := ⟨.hbm, 100, rfl⟩
abbrev main_call6_c_2 : Ref sig .tc := ⟨.hbm, 101, rfl⟩
abbrev main_call6_v6 : Ref sig .tc := ⟨.hbm, 102, rfl⟩
abbrev main_call6_v7 : Ref sig .tc := ⟨.hbm, 103, rfl⟩
abbrev main_call6_v8 : Ref sig .tc := ⟨.hbm, 104, rfl⟩
abbrev main_call6_v9 : Ref sig .tc := ⟨.hbm, 105, rfl⟩
abbrev main_call6_v10 : Ref sig .tc := ⟨.hbm, 106, rfl⟩
abbrev main_call6_v11 : Ref sig .tc := ⟨.hbm, 107, rfl⟩
abbrev main_call6_c_3 : Ref sig .tc := ⟨.hbm, 108, rfl⟩
abbrev main_call6_v12 : Ref sig .tc := ⟨.hbm, 109, rfl⟩
abbrev main_call6_v13 : Ref sig .tc := ⟨.hbm, 110, rfl⟩
abbrev main_call6_v14 : Ref sig .tc := ⟨.hbm, 111, rfl⟩
abbrev main_call6_cst : Ref sig .tc := ⟨.hbm, 112, rfl⟩
abbrev main_call6_v15 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_cst_12 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_call7_c : Ref sig .tc := ⟨.hbm, 125, rfl⟩
abbrev main_call7_v0 : Ref sig .tc := ⟨.hbm, 126, rfl⟩
abbrev main_call7_v1 : Ref sig .tc := ⟨.hbm, 127, rfl⟩
abbrev main_call7_c_0 : Ref sig .tc := ⟨.hbm, 128, rfl⟩
abbrev main_call7_v2 : Ref sig .tc := ⟨.hbm, 129, rfl⟩
abbrev main_call7_v3 : Ref sig .tc := ⟨.hbm, 130, rfl⟩
abbrev main_call7_v4 : Ref sig .tc := ⟨.hbm, 131, rfl⟩
abbrev main_call7_v5 : Ref sig .tc := ⟨.hbm, 132, rfl⟩
abbrev main_call7_c_1 : Ref sig .tc := ⟨.hbm, 133, rfl⟩
abbrev main_call7_c_2 : Ref sig .tc := ⟨.hbm, 134, rfl⟩
abbrev main_call7_v6 : Ref sig .tc := ⟨.hbm, 135, rfl⟩
abbrev main_call7_v7 : Ref sig .tc := ⟨.hbm, 136, rfl⟩
abbrev main_call7_v8 : Ref sig .tc := ⟨.hbm, 137, rfl⟩
abbrev main_call7_v9 : Ref sig .tc := ⟨.hbm, 138, rfl⟩
abbrev main_call7_v10 : Ref sig .tc := ⟨.hbm, 139, rfl⟩
abbrev main_call7_v11 : Ref sig .tc := ⟨.hbm, 140, rfl⟩
abbrev main_call7_c_3 : Ref sig .tc := ⟨.hbm, 141, rfl⟩
abbrev main_call7_v12 : Ref sig .tc := ⟨.hbm, 142, rfl⟩
abbrev main_call7_v13 : Ref sig .tc := ⟨.hbm, 143, rfl⟩
abbrev main_call7_v14 : Ref sig .tc := ⟨.hbm, 144, rfl⟩
abbrev main_call7_cst : Ref sig .tc := ⟨.hbm, 145, rfl⟩
abbrev main_call7_v15 : Ref sig .tc := ⟨.hbm, 146, rfl⟩
abbrev main_v66 : Ref sig .tc := ⟨.hbm, 147, rfl⟩
abbrev main_v67 : Ref sig .tc := ⟨.hbm, 148, rfl⟩
abbrev main_v68 : Ref sig .tc := ⟨.hbm, 149, rfl⟩
abbrev main_cst_13 : Ref sig .tc := ⟨.hbm, 150, rfl⟩
abbrev main_v69 : Ref sig .tc := ⟨.hbm, 151, rfl⟩
abbrev main_v70 : Ref sig .tc := ⟨.hbm, 152, rfl⟩
abbrev main_v71 : Ref sig .tc := ⟨.hbm, 153, rfl⟩
abbrev main_v72 : Ref sig .tc := ⟨.hbm, 154, rfl⟩
abbrev main_v73 : Ref sig .tc := ⟨.hbm, 155, rfl⟩
abbrev main_v74 : Ref sig .tc := ⟨.hbm, 156, rfl⟩
abbrev main_v75 : Ref sig .tc := ⟨.hbm, 157, rfl⟩
abbrev main_call8_c : Ref sig .tc := ⟨.hbm, 158, rfl⟩
abbrev main_call8_v0 : Ref sig .tc := ⟨.hbm, 159, rfl⟩
abbrev main_call8_v1 : Ref sig .tc := ⟨.hbm, 160, rfl⟩
abbrev main_call8_c_0 : Ref sig .tc := ⟨.hbm, 161, rfl⟩
abbrev main_call8_v2 : Ref sig .tc := ⟨.hbm, 162, rfl⟩
abbrev main_call8_v3 : Ref sig .tc := ⟨.hbm, 163, rfl⟩
abbrev main_call8_v4 : Ref sig .tc := ⟨.hbm, 164, rfl⟩
abbrev main_call8_v5 : Ref sig .tc := ⟨.hbm, 165, rfl⟩
abbrev main_call8_c_1 : Ref sig .tc := ⟨.hbm, 166, rfl⟩
abbrev main_call8_c_2 : Ref sig .tc := ⟨.hbm, 167, rfl⟩
abbrev main_call8_v6 : Ref sig .tc := ⟨.hbm, 168, rfl⟩
abbrev main_call8_v7 : Ref sig .tc := ⟨.hbm, 169, rfl⟩
abbrev main_call8_v8 : Ref sig .tc := ⟨.hbm, 170, rfl⟩
abbrev main_call8_v9 : Ref sig .tc := ⟨.hbm, 171, rfl⟩
abbrev main_call8_v10 : Ref sig .tc := ⟨.hbm, 172, rfl⟩
abbrev main_call8_v11 : Ref sig .tc := ⟨.hbm, 173, rfl⟩
abbrev main_call8_c_3 : Ref sig .tc := ⟨.hbm, 174, rfl⟩
abbrev main_call8_v12 : Ref sig .tc := ⟨.hbm, 175, rfl⟩
abbrev main_call8_v13 : Ref sig .tc := ⟨.hbm, 176, rfl⟩
abbrev main_call8_v14 : Ref sig .tc := ⟨.hbm, 177, rfl⟩
abbrev main_call8_cst : Ref sig .tc := ⟨.hbm, 178, rfl⟩
abbrev main_call8_v15 : Ref sig .tc := ⟨.hbm, 179, rfl⟩
abbrev main_v76 : Ref sig .tc := ⟨.hbm, 180, rfl⟩
abbrev main_v77 : Ref sig .tc := ⟨.hbm, 181, rfl⟩
abbrev main_v78 : Ref sig .tc := ⟨.hbm, 182, rfl⟩
abbrev main_cst_14 : Ref sig .tc := ⟨.hbm, 183, rfl⟩
abbrev main_v79 : Ref sig .tc := ⟨.hbm, 184, rfl⟩
abbrev main_v80 : Ref sig .tc := ⟨.hbm, 185, rfl⟩
abbrev main_v81 : Ref sig .tc := ⟨.hbm, 186, rfl⟩
abbrev main_v82 : Ref sig .tc := ⟨.hbm, 187, rfl⟩
abbrev main_v83 : Ref sig .tc := ⟨.hbm, 188, rfl⟩
abbrev main_v84 : Ref sig .tc := ⟨.hbm, 189, rfl⟩
abbrev main_v85 : Ref sig .tc := ⟨.hbm, 190, rfl⟩
abbrev main_v86 : Ref sig .tc := ⟨.hbm, 191, rfl⟩
abbrev main_v87 : Ref sig .tc := ⟨.hbm, 192, rfl⟩
abbrev main_v88 : Ref sig .tc := ⟨.hbm, 193, rfl⟩
abbrev main_v89 : Ref sig .tc := ⟨.hbm, 194, rfl⟩
abbrev main_v90 : Ref sig .tc := ⟨.hbm, 195, rfl⟩
abbrev main_v91 : Ref sig .tc := ⟨.hbm, 196, rfl⟩
abbrev main_call9_c : Ref sig .tc := ⟨.hbm, 197, rfl⟩
abbrev main_call9_v0 : Ref sig .tc := ⟨.hbm, 198, rfl⟩
abbrev main_call9_v1 : Ref sig .tc := ⟨.hbm, 199, rfl⟩
abbrev main_call9_c_0 : Ref sig .tc := ⟨.hbm, 200, rfl⟩
abbrev main_call9_v2 : Ref sig .tc := ⟨.hbm, 201, rfl⟩
abbrev main_call9_v3 : Ref sig .tc := ⟨.hbm, 202, rfl⟩
abbrev main_call9_v4 : Ref sig .tc := ⟨.hbm, 203, rfl⟩
abbrev main_call9_v5 : Ref sig .tc := ⟨.hbm, 204, rfl⟩
abbrev main_call9_c_1 : Ref sig .tc := ⟨.hbm, 205, rfl⟩
abbrev main_call9_c_2 : Ref sig .tc := ⟨.hbm, 206, rfl⟩
abbrev main_call9_v6 : Ref sig .tc := ⟨.hbm, 207, rfl⟩
abbrev main_call9_v7 : Ref sig .tc := ⟨.hbm, 208, rfl⟩
abbrev main_call9_v8 : Ref sig .tc := ⟨.hbm, 209, rfl⟩
abbrev main_call9_v9 : Ref sig .tc := ⟨.hbm, 210, rfl⟩
abbrev main_call9_v10 : Ref sig .tc := ⟨.hbm, 211, rfl⟩
abbrev main_call9_v11 : Ref sig .tc := ⟨.hbm, 212, rfl⟩
abbrev main_call9_c_3 : Ref sig .tc := ⟨.hbm, 213, rfl⟩
abbrev main_call9_v12 : Ref sig .tc := ⟨.hbm, 214, rfl⟩
abbrev main_call9_v13 : Ref sig .tc := ⟨.hbm, 215, rfl⟩
abbrev main_call9_v14 : Ref sig .tc := ⟨.hbm, 216, rfl⟩
abbrev main_call9_cst : Ref sig .tc := ⟨.hbm, 217, rfl⟩
abbrev main_call9_v15 : Ref sig .tc := ⟨.hbm, 218, rfl⟩
abbrev main_v92 : Ref sig .tc := ⟨.hbm, 219, rfl⟩
abbrev main_v93 : Ref sig .tc := ⟨.hbm, 220, rfl⟩
abbrev main_v94 : Ref sig .tc := ⟨.hbm, 221, rfl⟩
abbrev main_cst_15 : Ref sig .tc := ⟨.hbm, 222, rfl⟩
abbrev main_v95 : Ref sig .tc := ⟨.hbm, 223, rfl⟩
abbrev main_v96 : Ref sig .tc := ⟨.hbm, 224, rfl⟩
abbrev main_v97 : Ref sig .tc := ⟨.hbm, 225, rfl⟩
abbrev main_v98 : Ref sig .tc := ⟨.hbm, 226, rfl⟩
abbrev main_v99 : Ref sig .tc := ⟨.hbm, 227, rfl⟩
abbrev main_v100 : Ref sig .tc := ⟨.hbm, 228, rfl⟩
abbrev main_v101 : Ref sig .tc := ⟨.hbm, 229, rfl⟩
abbrev main_call10_c : Ref sig .tc := ⟨.hbm, 230, rfl⟩
abbrev main_call10_v0 : Ref sig .tc := ⟨.hbm, 231, rfl⟩
abbrev main_call10_v1 : Ref sig .tc := ⟨.hbm, 232, rfl⟩
abbrev main_call10_c_0 : Ref sig .tc := ⟨.hbm, 233, rfl⟩
abbrev main_call10_v2 : Ref sig .tc := ⟨.hbm, 234, rfl⟩
abbrev main_call10_v3 : Ref sig .tc := ⟨.hbm, 235, rfl⟩
abbrev main_call10_v4 : Ref sig .tc := ⟨.hbm, 236, rfl⟩
abbrev main_call10_v5 : Ref sig .tc := ⟨.hbm, 237, rfl⟩
abbrev main_call10_c_1 : Ref sig .tc := ⟨.hbm, 238, rfl⟩
abbrev main_call10_c_2 : Ref sig .tc := ⟨.hbm, 239, rfl⟩
abbrev main_call10_v6 : Ref sig .tc := ⟨.hbm, 240, rfl⟩
abbrev main_call10_v7 : Ref sig .tc := ⟨.hbm, 241, rfl⟩
abbrev main_call10_v8 : Ref sig .tc := ⟨.hbm, 242, rfl⟩
abbrev main_call10_v9 : Ref sig .tc := ⟨.hbm, 243, rfl⟩
abbrev main_call10_v10 : Ref sig .tc := ⟨.hbm, 244, rfl⟩
abbrev main_call10_v11 : Ref sig .tc := ⟨.hbm, 245, rfl⟩
abbrev main_call10_c_3 : Ref sig .tc := ⟨.hbm, 246, rfl⟩
abbrev main_call10_v12 : Ref sig .tc := ⟨.hbm, 247, rfl⟩
abbrev main_call10_v13 : Ref sig .tc := ⟨.hbm, 248, rfl⟩
abbrev main_call10_v14 : Ref sig .tc := ⟨.hbm, 249, rfl⟩
abbrev main_call10_cst : Ref sig .tc := ⟨.hbm, 250, rfl⟩
abbrev main_call10_v15 : Ref sig .tc := ⟨.hbm, 251, rfl⟩
abbrev main_v102 : Ref sig .tc := ⟨.hbm, 252, rfl⟩
abbrev main_v103 : Ref sig .tc := ⟨.hbm, 253, rfl⟩
abbrev main_v104 : Ref sig .tc := ⟨.hbm, 254, rfl⟩
abbrev main_cst_16 : Ref sig .tc := ⟨.hbm, 255, rfl⟩
abbrev main_v105 : Ref sig .tc := ⟨.hbm, 256, rfl⟩
abbrev main_v106 : Ref sig .tc := ⟨.hbm, 257, rfl⟩
abbrev main_v107 : Ref sig .tc := ⟨.hbm, 258, rfl⟩
abbrev main_v108 : Ref sig .tc := ⟨.hbm, 259, rfl⟩
abbrev main_v109 : Ref sig .tc := ⟨.hbm, 260, rfl⟩
abbrev main_v110 : Ref sig .tc := ⟨.hbm, 261, rfl⟩
abbrev main_v111 : Ref sig .tc := ⟨.hbm, 262, rfl⟩
abbrev main_call11_c : Ref sig .tc := ⟨.hbm, 263, rfl⟩
abbrev main_call11_v0 : Ref sig .tc := ⟨.hbm, 264, rfl⟩
abbrev main_call11_v1 : Ref sig .tc := ⟨.hbm, 265, rfl⟩
abbrev main_call11_c_0 : Ref sig .tc := ⟨.hbm, 266, rfl⟩
abbrev main_call11_v2 : Ref sig .tc := ⟨.hbm, 267, rfl⟩
abbrev main_call11_v3 : Ref sig .tc := ⟨.hbm, 268, rfl⟩
abbrev main_call11_v4 : Ref sig .tc := ⟨.hbm, 269, rfl⟩
abbrev main_call11_v5 : Ref sig .tc := ⟨.hbm, 270, rfl⟩
abbrev main_call11_c_1 : Ref sig .tc := ⟨.hbm, 271, rfl⟩
abbrev main_call11_c_2 : Ref sig .tc := ⟨.hbm, 272, rfl⟩
abbrev main_call11_v6 : Ref sig .tc := ⟨.hbm, 273, rfl⟩
abbrev main_call11_v7 : Ref sig .tc := ⟨.hbm, 274, rfl⟩
abbrev main_call11_v8 : Ref sig .tc := ⟨.hbm, 275, rfl⟩
abbrev main_call11_v9 : Ref sig .tc := ⟨.hbm, 276, rfl⟩
abbrev main_call11_v10 : Ref sig .tc := ⟨.hbm, 277, rfl⟩
abbrev main_call11_v11 : Ref sig .tc := ⟨.hbm, 278, rfl⟩
abbrev main_call11_c_3 : Ref sig .tc := ⟨.hbm, 279, rfl⟩
abbrev main_call11_v12 : Ref sig .tc := ⟨.hbm, 280, rfl⟩
abbrev main_call11_v13 : Ref sig .tc := ⟨.hbm, 281, rfl⟩
abbrev main_call11_v14 : Ref sig .tc := ⟨.hbm, 282, rfl⟩
abbrev main_call11_cst : Ref sig .tc := ⟨.hbm, 283, rfl⟩
abbrev main_call11_v15 : Ref sig .tc := ⟨.hbm, 284, rfl⟩
abbrev main_v112 : Ref sig .tc := ⟨.hbm, 285, rfl⟩
abbrev main_v113 : Ref sig .tc := ⟨.hbm, 286, rfl⟩
abbrev main_v114 : Ref sig .tc := ⟨.hbm, 287, rfl⟩
abbrev main_cst_17 : Ref sig .tc := ⟨.hbm, 288, rfl⟩
abbrev main_v115 : Ref sig .tc := ⟨.hbm, 289, rfl⟩
abbrev main_v116 : Ref sig .tc := ⟨.hbm, 290, rfl⟩
abbrev main_v117 : Ref sig .tc := ⟨.hbm, 291, rfl⟩
abbrev main_v118 : Ref sig .tc := ⟨.hbm, 292, rfl⟩
abbrev main_v119 : Ref sig .tc := ⟨.hbm, 293, rfl⟩
abbrev main_v120 : Ref sig .tc := ⟨.hbm, 294, rfl⟩
abbrev main_v121 : Ref sig .tc := ⟨.hbm, 295, rfl⟩
abbrev main_v122 : Ref sig .tc := ⟨.hbm, 296, rfl⟩
abbrev main_v123 : Ref sig .tc := ⟨.hbm, 297, rfl⟩
abbrev main_v124 : Ref sig .tc := ⟨.hbm, 298, rfl⟩
abbrev main_v125 : Ref sig .tc := ⟨.hbm, 299, rfl⟩
abbrev main_v126 : Ref sig .tc := ⟨.hbm, 300, rfl⟩
abbrev main_v127 : Ref sig .tc := ⟨.hbm, 301, rfl⟩
abbrev main_call12_c : Ref sig .tc := ⟨.hbm, 302, rfl⟩
abbrev main_call12_v0 : Ref sig .tc := ⟨.hbm, 303, rfl⟩
abbrev main_call12_v1 : Ref sig .tc := ⟨.hbm, 304, rfl⟩
abbrev main_call12_c_0 : Ref sig .tc := ⟨.hbm, 305, rfl⟩
abbrev main_call12_v2 : Ref sig .tc := ⟨.hbm, 306, rfl⟩
abbrev main_call12_v3 : Ref sig .tc := ⟨.hbm, 307, rfl⟩
abbrev main_call12_v4 : Ref sig .tc := ⟨.hbm, 308, rfl⟩
abbrev main_call12_v5 : Ref sig .tc := ⟨.hbm, 309, rfl⟩
abbrev main_call12_c_1 : Ref sig .tc := ⟨.hbm, 310, rfl⟩
abbrev main_call12_c_2 : Ref sig .tc := ⟨.hbm, 311, rfl⟩
abbrev main_call12_v6 : Ref sig .tc := ⟨.hbm, 312, rfl⟩
abbrev main_call12_v7 : Ref sig .tc := ⟨.hbm, 313, rfl⟩
abbrev main_call12_v8 : Ref sig .tc := ⟨.hbm, 314, rfl⟩
abbrev main_call12_v9 : Ref sig .tc := ⟨.hbm, 315, rfl⟩
abbrev main_call12_v10 : Ref sig .tc := ⟨.hbm, 316, rfl⟩
abbrev main_call12_v11 : Ref sig .tc := ⟨.hbm, 317, rfl⟩
abbrev main_call12_c_3 : Ref sig .tc := ⟨.hbm, 318, rfl⟩
abbrev main_call12_v12 : Ref sig .tc := ⟨.hbm, 319, rfl⟩
abbrev main_call12_v13 : Ref sig .tc := ⟨.hbm, 320, rfl⟩
abbrev main_call12_v14 : Ref sig .tc := ⟨.hbm, 321, rfl⟩
abbrev main_call12_cst : Ref sig .tc := ⟨.hbm, 322, rfl⟩
abbrev main_call12_v15 : Ref sig .tc := ⟨.hbm, 323, rfl⟩
abbrev main_v128 : Ref sig .tc := ⟨.hbm, 324, rfl⟩
abbrev main_v129 : Ref sig .tc := ⟨.hbm, 325, rfl⟩
abbrev main_v130 : Ref sig .tc := ⟨.hbm, 326, rfl⟩
abbrev main_cst_18 : Ref sig .tc := ⟨.hbm, 327, rfl⟩
abbrev main_v131 : Ref sig .tc := ⟨.hbm, 328, rfl⟩
abbrev main_v132 : Ref sig .tc := ⟨.hbm, 329, rfl⟩
abbrev main_v133 : Ref sig .tc := ⟨.hbm, 330, rfl⟩
abbrev main_v134 : Ref sig .tc := ⟨.hbm, 331, rfl⟩
abbrev main_v135 : Ref sig .tc := ⟨.hbm, 332, rfl⟩
abbrev main_v136 : Ref sig .tc := ⟨.hbm, 333, rfl⟩
abbrev main_v137 : Ref sig .tc := ⟨.hbm, 334, rfl⟩
abbrev main_call13_c : Ref sig .tc := ⟨.hbm, 335, rfl⟩
abbrev main_call13_v0 : Ref sig .tc := ⟨.hbm, 336, rfl⟩
abbrev main_call13_v1 : Ref sig .tc := ⟨.hbm, 337, rfl⟩
abbrev main_call13_c_0 : Ref sig .tc := ⟨.hbm, 338, rfl⟩
abbrev main_call13_v2 : Ref sig .tc := ⟨.hbm, 339, rfl⟩
abbrev main_call13_v3 : Ref sig .tc := ⟨.hbm, 340, rfl⟩
abbrev main_call13_v4 : Ref sig .tc := ⟨.hbm, 341, rfl⟩
abbrev main_call13_v5 : Ref sig .tc := ⟨.hbm, 342, rfl⟩
abbrev main_call13_c_1 : Ref sig .tc := ⟨.hbm, 343, rfl⟩
abbrev main_call13_c_2 : Ref sig .tc := ⟨.hbm, 344, rfl⟩
abbrev main_call13_v6 : Ref sig .tc := ⟨.hbm, 345, rfl⟩
abbrev main_call13_v7 : Ref sig .tc := ⟨.hbm, 346, rfl⟩
abbrev main_call13_v8 : Ref sig .tc := ⟨.hbm, 347, rfl⟩
abbrev main_call13_v9 : Ref sig .tc := ⟨.hbm, 348, rfl⟩
abbrev main_call13_v10 : Ref sig .tc := ⟨.hbm, 349, rfl⟩
abbrev main_call13_v11 : Ref sig .tc := ⟨.hbm, 350, rfl⟩
abbrev main_call13_c_3 : Ref sig .tc := ⟨.hbm, 351, rfl⟩
abbrev main_call13_v12 : Ref sig .tc := ⟨.hbm, 352, rfl⟩
abbrev main_call13_v13 : Ref sig .tc := ⟨.hbm, 353, rfl⟩
abbrev main_call13_v14 : Ref sig .tc := ⟨.hbm, 354, rfl⟩
abbrev main_call13_cst : Ref sig .tc := ⟨.hbm, 355, rfl⟩
abbrev main_call13_v15 : Ref sig .tc := ⟨.hbm, 356, rfl⟩
abbrev main_v138 : Ref sig .tc := ⟨.hbm, 357, rfl⟩
abbrev main_v139 : Ref sig .tc := ⟨.hbm, 358, rfl⟩
abbrev main_v140 : Ref sig .tc := ⟨.hbm, 359, rfl⟩
abbrev main_cst_19 : Ref sig .tc := ⟨.hbm, 360, rfl⟩
abbrev main_v141 : Ref sig .tc := ⟨.hbm, 361, rfl⟩
abbrev main_v142 : Ref sig .tc := ⟨.hbm, 362, rfl⟩
abbrev main_v143 : Ref sig .tc := ⟨.hbm, 363, rfl⟩
abbrev main_v144 : Ref sig .tc := ⟨.hbm, 364, rfl⟩
abbrev main_v145 : Ref sig .tc := ⟨.hbm, 365, rfl⟩
abbrev main_v146 : Ref sig .tc := ⟨.hbm, 366, rfl⟩
abbrev main_v147 : Ref sig .tc := ⟨.hbm, 367, rfl⟩
abbrev main_call14_c : Ref sig .tc := ⟨.hbm, 368, rfl⟩
abbrev main_call14_v0 : Ref sig .tc := ⟨.hbm, 369, rfl⟩
abbrev main_call14_v1 : Ref sig .tc := ⟨.hbm, 370, rfl⟩
abbrev main_call14_c_0 : Ref sig .tc := ⟨.hbm, 371, rfl⟩
abbrev main_call14_v2 : Ref sig .tc := ⟨.hbm, 372, rfl⟩
abbrev main_call14_v3 : Ref sig .tc := ⟨.hbm, 373, rfl⟩
abbrev main_call14_v4 : Ref sig .tc := ⟨.hbm, 374, rfl⟩
abbrev main_call14_v5 : Ref sig .tc := ⟨.hbm, 375, rfl⟩
abbrev main_call14_c_1 : Ref sig .tc := ⟨.hbm, 376, rfl⟩
abbrev main_call14_c_2 : Ref sig .tc := ⟨.hbm, 377, rfl⟩
abbrev main_call14_v6 : Ref sig .tc := ⟨.hbm, 378, rfl⟩
abbrev main_call14_v7 : Ref sig .tc := ⟨.hbm, 379, rfl⟩
abbrev main_call14_v8 : Ref sig .tc := ⟨.hbm, 380, rfl⟩
abbrev main_call14_v9 : Ref sig .tc := ⟨.hbm, 381, rfl⟩
abbrev main_call14_v10 : Ref sig .tc := ⟨.hbm, 382, rfl⟩
abbrev main_call14_v11 : Ref sig .tc := ⟨.hbm, 383, rfl⟩
abbrev main_call14_c_3 : Ref sig .tc := ⟨.hbm, 384, rfl⟩
abbrev main_call14_v12 : Ref sig .tc := ⟨.hbm, 385, rfl⟩
abbrev main_call14_v13 : Ref sig .tc := ⟨.hbm, 386, rfl⟩
abbrev main_call14_v14 : Ref sig .tc := ⟨.hbm, 387, rfl⟩
abbrev main_call14_cst : Ref sig .tc := ⟨.hbm, 388, rfl⟩
abbrev main_call14_v15 : Ref sig .tc := ⟨.hbm, 389, rfl⟩
abbrev main_v148 : Ref sig .tc := ⟨.hbm, 390, rfl⟩
abbrev main_v149 : Ref sig .tc := ⟨.hbm, 391, rfl⟩
abbrev main_v150 : Ref sig .tc := ⟨.hbm, 392, rfl⟩
abbrev main_cst_20 : Ref sig .tc := ⟨.hbm, 393, rfl⟩
abbrev main_v151 : Ref sig .tc := ⟨.hbm, 394, rfl⟩
abbrev main_v152 : Ref sig .tc := ⟨.hbm, 395, rfl⟩
abbrev main_v153 : Ref sig .tc := ⟨.hbm, 396, rfl⟩
abbrev main_v154 : Ref sig .tc := ⟨.hbm, 397, rfl⟩
abbrev main_v155 : Ref sig .tc := ⟨.hbm, 398, rfl⟩
abbrev main_v156 : Ref sig .tc := ⟨.hbm, 399, rfl⟩
abbrev main_v157 : Ref sig .tc := ⟨.hbm, 400, rfl⟩
abbrev main_v158 : Ref sig .tc := ⟨.hbm, 401, rfl⟩
abbrev main_v159 : Ref sig .tc := ⟨.hbm, 402, rfl⟩
abbrev main_v160 : Ref sig .tc := ⟨.hbm, 403, rfl⟩
abbrev main_v161 : Ref sig .tc := ⟨.hbm, 404, rfl⟩
abbrev main_v162 : Ref sig .tc := ⟨.hbm, 405, rfl⟩
abbrev main_v163 : Ref sig .tc := ⟨.hbm, 406, rfl⟩
abbrev main_call15_c : Ref sig .tc := ⟨.hbm, 407, rfl⟩
abbrev main_call15_v0 : Ref sig .tc := ⟨.hbm, 408, rfl⟩
abbrev main_call15_v1 : Ref sig .tc := ⟨.hbm, 409, rfl⟩
abbrev main_call15_c_0 : Ref sig .tc := ⟨.hbm, 410, rfl⟩
abbrev main_call15_v2 : Ref sig .tc := ⟨.hbm, 411, rfl⟩
abbrev main_call15_v3 : Ref sig .tc := ⟨.hbm, 412, rfl⟩
abbrev main_call15_v4 : Ref sig .tc := ⟨.hbm, 413, rfl⟩
abbrev main_call15_v5 : Ref sig .tc := ⟨.hbm, 414, rfl⟩
abbrev main_call15_c_1 : Ref sig .tc := ⟨.hbm, 415, rfl⟩
abbrev main_call15_c_2 : Ref sig .tc := ⟨.hbm, 416, rfl⟩
abbrev main_call15_v6 : Ref sig .tc := ⟨.hbm, 417, rfl⟩
abbrev main_call15_v7 : Ref sig .tc := ⟨.hbm, 418, rfl⟩
abbrev main_call15_v8 : Ref sig .tc := ⟨.hbm, 419, rfl⟩
abbrev main_call15_v9 : Ref sig .tc := ⟨.hbm, 420, rfl⟩
abbrev main_call15_v10 : Ref sig .tc := ⟨.hbm, 421, rfl⟩
abbrev main_call15_v11 : Ref sig .tc := ⟨.hbm, 422, rfl⟩
abbrev main_call15_c_3 : Ref sig .tc := ⟨.hbm, 423, rfl⟩
abbrev main_call15_v12 : Ref sig .tc := ⟨.hbm, 424, rfl⟩
abbrev main_call15_v13 : Ref sig .tc := ⟨.hbm, 425, rfl⟩
abbrev main_call15_v14 : Ref sig .tc := ⟨.hbm, 426, rfl⟩
abbrev main_call15_cst : Ref sig .tc := ⟨.hbm, 427, rfl⟩
abbrev main_call15_v15 : Ref sig .tc := ⟨.hbm, 428, rfl⟩
abbrev main_v164 : Ref sig .tc := ⟨.hbm, 429, rfl⟩
abbrev main_v165 : Ref sig .tc := ⟨.hbm, 430, rfl⟩
abbrev main_v166 : Ref sig .tc := ⟨.hbm, 431, rfl⟩
abbrev main_cst_21 : Ref sig .tc := ⟨.hbm, 432, rfl⟩
abbrev main_v167 : Ref sig .tc := ⟨.hbm, 433, rfl⟩
abbrev main_v168 : Ref sig .tc := ⟨.hbm, 434, rfl⟩
abbrev main_v169 : Ref sig .tc := ⟨.hbm, 435, rfl⟩
abbrev main_v170 : Ref sig .tc := ⟨.hbm, 436, rfl⟩
abbrev main_v171 : Ref sig .tc := ⟨.hbm, 437, rfl⟩
abbrev main_v172 : Ref sig .tc := ⟨.hbm, 438, rfl⟩
abbrev main_v173 : Ref sig .tc := ⟨.hbm, 439, rfl⟩
abbrev main_call16_c : Ref sig .tc := ⟨.hbm, 440, rfl⟩
abbrev main_call16_v0 : Ref sig .tc := ⟨.hbm, 441, rfl⟩
abbrev main_call16_v1 : Ref sig .tc := ⟨.hbm, 442, rfl⟩
abbrev main_call16_c_0 : Ref sig .tc := ⟨.hbm, 443, rfl⟩
abbrev main_call16_v2 : Ref sig .tc := ⟨.hbm, 444, rfl⟩
abbrev main_call16_v3 : Ref sig .tc := ⟨.hbm, 445, rfl⟩
abbrev main_call16_v4 : Ref sig .tc := ⟨.hbm, 446, rfl⟩
abbrev main_call16_v5 : Ref sig .tc := ⟨.hbm, 447, rfl⟩
abbrev main_call16_c_1 : Ref sig .tc := ⟨.hbm, 448, rfl⟩
abbrev main_call16_c_2 : Ref sig .tc := ⟨.hbm, 449, rfl⟩
abbrev main_call16_v6 : Ref sig .tc := ⟨.hbm, 450, rfl⟩
abbrev main_call16_v7 : Ref sig .tc := ⟨.hbm, 451, rfl⟩
abbrev main_call16_v8 : Ref sig .tc := ⟨.hbm, 452, rfl⟩
abbrev main_call16_v9 : Ref sig .tc := ⟨.hbm, 453, rfl⟩
abbrev main_call16_v10 : Ref sig .tc := ⟨.hbm, 454, rfl⟩
abbrev main_call16_v11 : Ref sig .tc := ⟨.hbm, 455, rfl⟩
abbrev main_call16_c_3 : Ref sig .tc := ⟨.hbm, 456, rfl⟩
abbrev main_call16_v12 : Ref sig .tc := ⟨.hbm, 457, rfl⟩
abbrev main_call16_v13 : Ref sig .tc := ⟨.hbm, 458, rfl⟩
abbrev main_call16_v14 : Ref sig .tc := ⟨.hbm, 459, rfl⟩
abbrev main_call16_cst : Ref sig .tc := ⟨.hbm, 460, rfl⟩
abbrev main_call16_v15 : Ref sig .tc := ⟨.hbm, 461, rfl⟩
abbrev main_v174 : Ref sig .tc := ⟨.hbm, 462, rfl⟩
abbrev main_v175 : Ref sig .tc := ⟨.hbm, 463, rfl⟩
abbrev main_v176 : Ref sig .tc := ⟨.hbm, 464, rfl⟩
abbrev main_cst_22 : Ref sig .tc := ⟨.hbm, 465, rfl⟩
abbrev main_v177 : Ref sig .tc := ⟨.hbm, 466, rfl⟩
abbrev main_v178 : Ref sig .tc := ⟨.hbm, 467, rfl⟩
abbrev main_v179 : Ref sig .tc := ⟨.hbm, 468, rfl⟩
abbrev main_v180 : Ref sig .tc := ⟨.hbm, 469, rfl⟩
abbrev main_v181 : Ref sig .tc := ⟨.hbm, 470, rfl⟩
abbrev main_v182 : Ref sig .tc := ⟨.hbm, 471, rfl⟩
abbrev main_v183 : Ref sig .tc := ⟨.hbm, 472, rfl⟩
abbrev main_call17_c : Ref sig .tc := ⟨.hbm, 473, rfl⟩
abbrev main_call17_v0 : Ref sig .tc := ⟨.hbm, 474, rfl⟩
abbrev main_call17_v1 : Ref sig .tc := ⟨.hbm, 475, rfl⟩
abbrev main_call17_c_0 : Ref sig .tc := ⟨.hbm, 476, rfl⟩
abbrev main_call17_v2 : Ref sig .tc := ⟨.hbm, 477, rfl⟩
abbrev main_call17_v3 : Ref sig .tc := ⟨.hbm, 478, rfl⟩
abbrev main_call17_v4 : Ref sig .tc := ⟨.hbm, 479, rfl⟩
abbrev main_call17_v5 : Ref sig .tc := ⟨.hbm, 480, rfl⟩
abbrev main_call17_c_1 : Ref sig .tc := ⟨.hbm, 481, rfl⟩
abbrev main_call17_c_2 : Ref sig .tc := ⟨.hbm, 482, rfl⟩
abbrev main_call17_v6 : Ref sig .tc := ⟨.hbm, 483, rfl⟩
abbrev main_call17_v7 : Ref sig .tc := ⟨.hbm, 484, rfl⟩
abbrev main_call17_v8 : Ref sig .tc := ⟨.hbm, 485, rfl⟩
abbrev main_call17_v9 : Ref sig .tc := ⟨.hbm, 486, rfl⟩
abbrev main_call17_v10 : Ref sig .tc := ⟨.hbm, 487, rfl⟩
abbrev main_call17_v11 : Ref sig .tc := ⟨.hbm, 488, rfl⟩
abbrev main_call17_c_3 : Ref sig .tc := ⟨.hbm, 489, rfl⟩
abbrev main_call17_v12 : Ref sig .tc := ⟨.hbm, 490, rfl⟩
abbrev main_call17_v13 : Ref sig .tc := ⟨.hbm, 491, rfl⟩
abbrev main_call17_v14 : Ref sig .tc := ⟨.hbm, 492, rfl⟩
abbrev main_call17_cst : Ref sig .tc := ⟨.hbm, 493, rfl⟩
abbrev main_call17_v15 : Ref sig .tc := ⟨.hbm, 494, rfl⟩
abbrev main_v184 : Ref sig .tc := ⟨.hbm, 495, rfl⟩
abbrev main_v185 : Ref sig .tc := ⟨.hbm, 496, rfl⟩
abbrev main_v186 : Ref sig .tc := ⟨.hbm, 497, rfl⟩
abbrev main_cst_23 : Ref sig .tc := ⟨.hbm, 498, rfl⟩
abbrev main_v187 : Ref sig .tc := ⟨.hbm, 499, rfl⟩
abbrev main_v188 : Ref sig .tc := ⟨.hbm, 500, rfl⟩
abbrev main_v189 : Ref sig .tc := ⟨.hbm, 501, rfl⟩
abbrev main_v190 : Ref sig .tc := ⟨.hbm, 502, rfl⟩
abbrev main_v191 : Ref sig .tc := ⟨.hbm, 503, rfl⟩
abbrev main_v192 : Ref sig .tc := ⟨.hbm, 504, rfl⟩
abbrev main_v193 : Ref sig .tc := ⟨.hbm, 505, rfl⟩
abbrev main_v194 : Ref sig .tc := ⟨.hbm, 506, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg3_0 : Ref sig .tc := ⟨.vmem, 47, rfl⟩
abbrev cc6_stg3_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg1_1 : Ref sig .tc := ⟨.vmem, 52, rfl⟩
abbrev cc7_stg2_0 : Ref sig .tc := ⟨.vmem, 53, rfl⟩
abbrev cc7_stg3_0 : Ref sig .tc := ⟨.vmem, 54, rfl⟩
abbrev cc7_stg3_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47
abbrev cc6_sem3_1 : DmaSem sig := 48
abbrev cc7_sem0_0 : DmaSem sig := 49
abbrev cc7_sem0_1 : DmaSem sig := 50
abbrev cc7_sem1_0 : DmaSem sig := 51
abbrev cc7_sem1_1 : DmaSem sig := 52
abbrev cc7_sem2_0 : DmaSem sig := 53
abbrev cc7_sem3_0 : DmaSem sig := 54
abbrev cc7_sem3_1 : DmaSem sig := 55

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3x5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3x5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S3x64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S3x5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S3x5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x3 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S3x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x3 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S3x64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S3x5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S3x5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x3 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S3x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_3 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x3 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S3x64x2 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S3x5000x2 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![20], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S3x5000x2 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x3 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S3x2 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x2 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  bcast_S_S800000 : S_.BroadcastsInDim S800000 (![] : Fin 0 → Fin S800000.rank)
  slices_S3x800000_S1x800000_0_0 : S3x800000.Slices ![0, 0] S1x800000
  shapeCasts_S1x800000_S800000 : S1x800000.ShapeCasts S800000
  bcast_S_S100000 : S_.BroadcastsInDim S100000 (![] : Fin 0 → Fin S100000.rank)
  bcast_S800000_S800000x1_0 : S800000.BroadcastsInDim S800000x1 (![0] : Fin 1 → Fin S800000x1.rank)
  slices_S3x800000_S1x800000_1_0 : S3x800000.Slices ![1, 0] S1x800000
  slices_S3x800000_S1x800000_2_0 : S3x800000.Slices ![2, 0] S1x800000
  bcast_S100000_S100000x1_0 : S100000.BroadcastsInDim S100000x1 (![0] : Fin 1 → Fin S100000x1.rank)
  concatenates_S100000x1_S100000x1_S100000x1_S100000x3_d1 : Shape.Concatenates [S100000x1, S100000x1, S100000x1] S100000x3 1
  inb_S5000x64_S5000x64_0_0 : ∀ a, (![0, 0] : Fin 2 → Nat) a + S5000x64.size a ≤ S5000x64.size a
  h_S5000x64 : 0 < S5000x64.numel
  inb_S5000x3_S5000x1_0_0 : ∀ a, (![0, 0] : Fin 2 → Nat) a + S5000x1.size a ≤ S5000x3.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  inb_S3x5000x64_S1x5000x64_0_0_0 : ∀ a, (![0, 0, 0] : Fin 3 → Nat) a + S1x5000x64.size a ≤ S3x5000x64.size a
  h_S1x5000x64 : 0 < S1x5000x64.numel
  shapeCasts_S1x5000x64_S5000x64 : S1x5000x64.ShapeCasts S5000x64
  shapeCasts_S5000x64_S1x5000x64 : S5000x64.ShapeCasts S1x5000x64
  inb_S5000x3_S5000x1_0_1 : ∀ a, (![0, 1] : Fin 2 → Nat) a + S5000x1.size a ≤ S5000x3.size a
  inb_S3x64x64_S1x64x64_1_0_0 : ∀ a, (![1, 0, 0] : Fin 3 → Nat) a + S1x64x64.size a ≤ S3x64x64.size a
  inb_S3x5000x64_S1x5000x64_1_0_0 : ∀ a, (![1, 0, 0] : Fin 3 → Nat) a + S1x5000x64.size a ≤ S3x5000x64.size a
  inb_S5000x3_S5000x1_0_2 : ∀ a, (![0, 2] : Fin 2 → Nat) a + S5000x1.size a ≤ S5000x3.size a
  inb_S3x64x64_S1x64x64_2_0_0 : ∀ a, (![2, 0, 0] : Fin 3 → Nat) a + S1x64x64.size a ≤ S3x64x64.size a
  inb_S3x5000x64_S1x5000x64_2_0_0 : ∀ a, (![2, 0, 0] : Fin 3 → Nat) a + S1x5000x64.size a ≤ S3x5000x64.size a
  slices_S3x100000x64_S1x100000x64_0_0_0 : S3x100000x64.Slices ![0, 0, 0] S1x100000x64
  shapeCasts_S1x100000x64_S100000x64 : S1x100000x64.ShapeCasts S100000x64
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S_S100000x64 : S_.BroadcastsInDim S100000x64 (![] : Fin 0 → Fin S100000x64.rank)
  slices_S3x100000x64_S1x100000x64_1_0_0 : S3x100000x64.Slices ![1, 0, 0] S1x100000x64
  slices_S3x100000x64_S1x100000x64_2_0_0 : S3x100000x64.Slices ![2, 0, 0] S1x100000x64
  bcast_S100000x64_S1x100000x64_1_2 : S100000x64.BroadcastsInDim S1x100000x64 (![1, 2] : Fin 2 → Fin S1x100000x64.rank)
  concatenates_S1x100000x64_S1x100000x64_S1x100000x64_S3x100000x64_d0 : Shape.Concatenates [S1x100000x64, S1x100000x64, S1x100000x64] S3x100000x64 0
  inb_S3x64_S1x64_0_0 : ∀ a, (![0, 0] : Fin 2 → Nat) a + S1x64.size a ≤ S3x64.size a
  h_S1x64 : 0 < S1x64.numel
  shapeCasts_S1x64_S64 : S1x64.ShapeCasts S64
  shapeCasts_S64_S1x64 : S64.ShapeCasts S1x64
  broadcasts_S1x64_S5000x64 : S1x64.Broadcasts S5000x64
  inb_S3x64_S1x64_1_0 : ∀ a, (![1, 0] : Fin 2 → Nat) a + S1x64.size a ≤ S3x64.size a
  inb_S3x64_S1x64_2_0 : ∀ a, (![2, 0] : Fin 2 → Nat) a + S1x64.size a ≤ S3x64.size a
  shapeCasts_S5000x64_S5000x64 : S5000x64.ShapeCasts S5000x64
  inb_S3x64x2_S1x64x2_0_0_0 : ∀ a, (![0, 0, 0] : Fin 3 → Nat) a + S1x64x2.size a ≤ S3x64x2.size a
  h_S1x64x2 : 0 < S1x64x2.numel
  shapeCasts_S1x64x2_S64x2 : S1x64x2.ShapeCasts S64x2
  inb_S3x5000x2_S1x5000x2_0_0_0 : ∀ a, (![0, 0, 0] : Fin 3 → Nat) a + S1x5000x2.size a ≤ S3x5000x2.size a
  h_S1x5000x2 : 0 < S1x5000x2.numel
  shapeCasts_S1x5000x2_S5000x2 : S1x5000x2.ShapeCasts S5000x2
  shapeCasts_S5000x2_S1x5000x2 : S5000x2.ShapeCasts S1x5000x2
  inb_S3x64x2_S1x64x2_1_0_0 : ∀ a, (![1, 0, 0] : Fin 3 → Nat) a + S1x64x2.size a ≤ S3x64x2.size a
  inb_S3x5000x2_S1x5000x2_1_0_0 : ∀ a, (![1, 0, 0] : Fin 3 → Nat) a + S1x5000x2.size a ≤ S3x5000x2.size a
  inb_S3x64x2_S1x64x2_2_0_0 : ∀ a, (![2, 0, 0] : Fin 3 → Nat) a + S1x64x2.size a ≤ S3x64x2.size a
  inb_S3x5000x2_S1x5000x2_2_0_0 : ∀ a, (![2, 0, 0] : Fin 3 → Nat) a + S1x5000x2.size a ≤ S3x5000x2.size a
  slices_S3x100000x2_S1x100000x2_0_0_0 : S3x100000x2.Slices ![0, 0, 0] S1x100000x2
  shapeCasts_S1x100000x2_S100000x2 : S1x100000x2.ShapeCasts S100000x2
  bcast_S800000_S800000x2_0 : S800000.BroadcastsInDim S800000x2 (![0] : Fin 1 → Fin S800000x2.rank)
  bcast_S_S800000x2 : S_.BroadcastsInDim S800000x2 (![] : Fin 0 → Fin S800000x2.rank)
  bcast_S_S100000x2 : S_.BroadcastsInDim S100000x2 (![] : Fin 0 → Fin S100000x2.rank)
  slices_S3x100000x2_S1x100000x2_1_0_0 : S3x100000x2.Slices ![1, 0, 0] S1x100000x2
  slices_S3x100000x2_S1x100000x2_2_0_0 : S3x100000x2.Slices ![2, 0, 0] S1x100000x2
  bcast_S100000x2_S1x100000x2_1_2 : S100000x2.BroadcastsInDim S1x100000x2 (![1, 2] : Fin 2 → Fin S1x100000x2.rank)
  concatenates_S1x100000x2_S1x100000x2_S1x100000x2_S3x100000x2_d0 : Shape.Concatenates [S1x100000x2, S1x100000x2, S1x100000x2] S3x100000x2 0
  broadcasts_S5000x1_S5000x2 : S5000x1.Broadcasts S5000x2
  inb_S3x2_S1x2_0_0 : ∀ a, (![0, 0] : Fin 2 → Nat) a + S1x2.size a ≤ S3x2.size a
  h_S1x2 : 0 < S1x2.numel
  shapeCasts_S1x2_S2 : S1x2.ShapeCasts S2
  shapeCasts_S2_S1x2 : S2.ShapeCasts S1x2
  broadcasts_S1x2_S5000x2 : S1x2.Broadcasts S5000x2
  inb_S3x2_S1x2_1_0 : ∀ a, (![1, 0] : Fin 2 → Nat) a + S1x2.size a ≤ S3x2.size a
  inb_S3x2_S1x2_2_0 : ∀ a, (![2, 0] : Fin 2 → Nat) a + S1x2.size a ≤ S3x2.size a
  inb_S5000x2_S5000x2_0_0 : ∀ a, (![0, 0] : Fin 2 → Nat) a + S5000x2.size a ≤ S5000x2.size a
  h_S5000x2 : 0 < S5000x2.numel
  scatter_S100000_S800000x1_S800000_n_0_0_1_wf : ScatterDims.WF S100000 S800000x1 S800000 [] [0] [0] 1
  dot_S5000x64_S64x64_S5000x64_1_0_0_1_n_n_wf : DotDims.WF S5000x64 S64x64 S5000x64 [1] [0] [0] [1] [] []
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S5000x64_S64x2_S5000x2_1_0_0_1_n_n_wf : DotDims.WF S5000x64 S64x2 S5000x2 [1] [0] [0] [1] [] []
  gather_S100000x2_S800000x1_S800000x2_1_0_n_n_0_1_12_wf : GatherDims.WF S100000x2 S800000x1 S800000x2 [1] [0] [] [0] [] 1 ![1, 2]
  scatter_S100000x2_S800000x1_S800000x2_1_0_0_1_wf : ScatterDims.WF S100000x2 S800000x1 S800000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x3.size a ≤ S100000x3.size a
  hwx0_1 : ∀ i : grid0.Coords, EltTy.bits .f32 = 32 ∨ (Rect.block (s := S100000x3) S5000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x64x64.size a ≤ S3x64x64.size a
  hwx0_2 : ∀ i : grid0.Coords, EltTy.bits .f32 = 32 ∨ (Rect.block (s := S3x64x64) S3x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x5000x64.size a ≤ S3x100000x64.size a
  hwx0_3 : ∀ i : grid0.Coords, EltTy.bits .f32 = 32 ∨ (Rect.block (s := S3x100000x64) S3x5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3x5000x64.size a ≤ S3x100000x64.size a
  hwx1_0 : ∀ i : grid1.Coords, EltTy.bits .f32 = 32 ∨ (Rect.block (s := S3x100000x64) S3x5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x3.size a ≤ S100000x3.size a
  hwx1_1 : ∀ i : grid1.Coords, EltTy.bits .f32 = 32 ∨ (Rect.block (s := S100000x3) S5000x3.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x64.size a ≤ S3x64.size a
  hwx1_2 : ∀ i : grid1.Coords, EltTy.bits .f32 = 32 ∨ (Rect.block (s := S3x64) S3x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x3.size a ≤ S100000x3.size a
  hwx2_1 : ∀ i : grid2.Coords, EltTy.bits .f32 = 32 ∨ (Rect.block (s := S100000x3) S5000x3.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S3x64x64.size a ≤ S3x64x64.size a
  hwx2_2 : ∀ i : grid2.Coords, EltTy.bits .f32 = 32 ∨ (Rect.block (s := S3x64x64) S3x64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S3x5000x64.size a ≤ S3x100000x64.size a
  hwx2_3 : ∀ i : grid2.Coords, EltTy.bits .f32 = 32 ∨ (Rect.block (s := S3x100000x64) S3x5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S3x5000x64.size a ≤ S3x100000x64.size a
  hwx3_0 : ∀ i : grid3.Coords, EltTy.bits .f32 = 32 ∨ (Rect.block (s := S3x100000x64) S3x5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x3.size a ≤ S100000x3.size a
  hwx3_1 : ∀ i : grid3.Coords, EltTy.bits .f32 = 32 ∨ (Rect.block (s := S100000x3) S5000x3.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S3x64.size a ≤ S3x64.size a
  hwx3_2 : ∀ i : grid3.Coords, EltTy.bits .f32 = 32 ∨ (Rect.block (s := S3x64) S3x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x3.size a ≤ S100000x3.size a
  hwx4_1 : ∀ i : grid4.Coords, EltTy.bits .f32 = 32 ∨ (Rect.block (s := S100000x3) S5000x3.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S3x64x64.size a ≤ S3x64x64.size a
  hwx4_2 : ∀ i : grid4.Coords, EltTy.bits .f32 = 32 ∨ (Rect.block (s := S3x64x64) S3x64x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S3x5000x64.size a ≤ S3x100000x64.size a
  hwx4_3 : ∀ i : grid4.Coords, EltTy.bits .f32 = 32 ∨ (Rect.block (s := S3x100000x64) S3x5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S3x5000x64.size a ≤ S3x100000x64.size a
  hwx5_0 : ∀ i : grid5.Coords, EltTy.bits .f32 = 32 ∨ (Rect.block (s := S3x100000x64) S3x5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x3.size a ≤ S100000x3.size a
  hwx5_1 : ∀ i : grid5.Coords, EltTy.bits .f32 = 32 ∨ (Rect.block (s := S100000x3) S5000x3.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S3x64.size a ≤ S3x64.size a
  hwx5_2 : ∀ i : grid5.Coords, EltTy.bits .f32 = 32 ∨ (Rect.block (s := S3x64) S3x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S100000x64.size a
  hwx5_3 : ∀ i : grid5.Coords, EltTy.bits .f32 = 32 ∨ (Rect.block (s := S100000x64) S5000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x3.size a ≤ S100000x3.size a
  hwx6_1 : ∀ i : grid6.Coords, EltTy.bits .f32 = 32 ∨ (Rect.block (s := S100000x3) S5000x3.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S3x64x2.size a ≤ S3x64x2.size a
  hwx6_2 : ∀ i : grid6.Coords, EltTy.bits .f32 = 32 ∨ (Rect.block (s := S3x64x2) S3x64x2.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S3x5000x2.size a ≤ S3x100000x2.size a
  hwx6_3 : ∀ i : grid6.Coords, EltTy.bits .f32 = 32 ∨ (Rect.block (s := S3x100000x2) S3x5000x2.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S3x5000x2.size a ≤ S3x100000x2.size a
  hwx7_0 : ∀ i : grid7.Coords, EltTy.bits .f32 = 32 ∨ (Rect.block (s := S3x100000x2) S3x5000x2.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x3.size a ≤ S100000x3.size a
  hwx7_1 : ∀ i : grid7.Coords, EltTy.bits .f32 = 32 ∨ (Rect.block (s := S100000x3) S5000x3.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S3x2.size a ≤ S3x2.size a
  hwx7_2 : ∀ i : grid7.Coords, EltTy.bits .f32 = 32 ∨ (Rect.block (s := S3x2) S3x2.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x2.size a ≤ S100000x2.size a
  hwx7_3 : ∀ i : grid7.Coords, EltTy.bits .f32 = 32 ∨ (Rect.block (s := S100000x2) S5000x2.size (cc7_transform_3 i) (hinb7_3 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf
def gather_S100000x2_S800000x1_S800000x2_1_0_n_n_0_1_12 : GatherDims S100000x2 S800000x1 S800000x2 where
  offsetDims := [1]
  collapsedSliceDims := [0]
  operandBatchingDims := []
  startIndicesBatchingDims := []
  startIndexMap := [0]
  indexVectorDim := 1
  sliceSizes := ![1, 2]
  wf := gather_S100000x2_S800000x1_S800000x2_1_0_n_n_0_1_12_wf
def scatter_S100000x2_S800000x1_S800000x2_1_0_0_1 : ScatterDims S100000x2 S800000x1 S800000x2 where
  updateWindowDims := [1]
  insertedWindowDims := [0]
  scatterDimsToOperandDims := [0]
  indexVectorDim := 1
  wf := scatter_S100000x2_S800000x1_S800000x2_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S5000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S3x64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v51) S3x5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v85) S3x5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S5000x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S3x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v86) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v86) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S5000x3.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S3x64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v87) S3x5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v121) S3x5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S5000x3.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S3x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v122) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v122) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v46) S5000x3.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S3x64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v123) S3x5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v157) S3x5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v50) S5000x3.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg8) S3x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v158) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v158) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v46) S5000x3.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg9) S3x64x2.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v159) S3x5000x2.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v193) S3x5000x2.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v50) S5000x3.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg10) S3x2.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v194) S5000x2.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x64 : Shape := ⟨2, ![100000, 64]⟩
abbrev S3x800000 : Shape := ⟨2, ![3, 800000]⟩
abbrev S3x64x64 : Shape := ⟨3, ![3, 64, 64]⟩
abbrev S3x64 : Shape := ⟨2, ![3, 64]⟩
abbrev S3x64x2 : Shape := ⟨3, ![3, 64, 2]⟩
abbrev S3x2 : Shape := ⟨2, ![3, 2]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S1x64x64 : Shape := ⟨3, ![1, 64, 64]⟩
abbrev S64x64 : Shape := ⟨2, ![64, 64]⟩
abbrev S800000x64 : Shape := ⟨2, ![800000, 64]⟩
abbrev S1x64 : Shape := ⟨2, ![1, 64]⟩
abbrev S64 : Shape := ⟨1, ![64]⟩
abbrev S1x64x2 : Shape := ⟨3, ![1, 64, 2]⟩
abbrev S64x2 : Shape := ⟨2, ![64, 2]⟩
abbrev S100000x2 : Shape := ⟨2, ![100000, 2]⟩
abbrev S800000x2 : Shape := ⟨2, ![800000, 2]⟩
abbrev S1x2 : Shape := ⟨2, ![1, 2]⟩
abbrev S2 : Shape := ⟨1, ![2]⟩

abbrev nBuf : Space → Nat
  | .hbm => 640
  | .vmem => 0
  | .smem => 0
  | _ => 0

abbrev hbmTy0_0 (i : Nat) : BufTy := match i % 128 with
  | 0 => ⟨S100000x64, .f32⟩
  | 1 => ⟨S3x800000, .i32⟩
  | 2 => ⟨S3x800000, .i32⟩
  | 3 => ⟨S3x64x64, .f32⟩
  | 4 => ⟨S3x64, .f32⟩
  | 5 => ⟨S3x64x64, .f32⟩
  | 6 => ⟨S3x64, .f32⟩
  | 7 => ⟨S3x64x64, .f32⟩
  | 8 => ⟨S3x64, .f32⟩
  | 9 => ⟨S3x64x2, .f32⟩
  | 10 => ⟨S3x2, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000, .f32⟩
  | 17 => ⟨S_, .f32⟩
  | 18 => ⟨S100000, .f32⟩
  | 19 => ⟨S800000x1, .i32⟩
  | 20 => ⟨S100000, .f32⟩
  | 21 => ⟨S_, .f32⟩
  | 22 => ⟨S_, .f32⟩
  | 23 => ⟨S100000, .f32⟩
  | 24 => ⟨S100000, .f32⟩
  | 25 => ⟨S100000, .f32⟩
  | 26 => ⟨S100000x1, .f32⟩
  | 27 => ⟨S100000x64, .f32⟩
  | 28 => ⟨S100000x64, .f32⟩
  | 29 => ⟨S1x64x64, .f32⟩
  | 30 => ⟨S64x64, .f32⟩
  | 31 => ⟨S100000x64, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x64, .f32⟩
  | 41 => ⟨S_, .f32⟩
  | 42 => ⟨S100000x64, .f32⟩
  | 43 => ⟨S800000x1, .i32⟩
  | 44 => ⟨S100000x64, .f32⟩
  | 45 => ⟨S_, .f32⟩
  | 46 => ⟨S100000, .f32⟩
  | 47 => ⟨S800000x1, .i32⟩
  | 48 => ⟨S100000, .f32⟩
  | 49 => ⟨S_, .f32⟩
  | 50 => ⟨S_, .f32⟩
  | 51 => ⟨S100000, .f32⟩
  | 52 => ⟨S100000, .f32⟩
  | 53 => ⟨S100000, .f32⟩
  | 54 => ⟨S100000x1, .f32⟩
  | 55 => ⟨S100000x64, .f32⟩
  | 56 => ⟨S100000x64, .f32⟩
  | 57 => ⟨S1x64, .f32⟩
  | 58 => ⟨S64, .f32⟩
  | 59 => ⟨S1x64, .f32⟩
  | 60 => ⟨S100000x64, .f32⟩
  | 61 => ⟨S100000x64, .f32⟩
  | 62 => ⟨S1x800000, .i32⟩
  | 63 => ⟨S800000, .i32⟩
  | 64 => ⟨S1x800000, .i32⟩
  | 65 => ⟨S800000, .i32⟩
  | 66 => ⟨S_, .f32⟩
  | 67 => ⟨S800000, .f32⟩
  | 68 => ⟨S_, .f32⟩
  | 69 => ⟨S100000, .f32⟩
  | 70 => ⟨S800000x1, .i32⟩
  | 71 => ⟨S100000, .f32⟩
  | 72 => ⟨S_, .f32⟩
  | 73 => ⟨S_, .f32⟩
  | 74 => ⟨S100000, .f32⟩
  | 75 => ⟨S100000, .f32⟩
  | 76 => ⟨S100000, .f32⟩
  | 77 => ⟨S100000x1, .f32⟩
  | 78 => ⟨S100000x64, .f32⟩
  | 79 => ⟨S100000x64, .f32⟩
  | 80 => ⟨S1x64x64, .f32⟩
  | 81 => ⟨S64x64, .f32⟩
  | 82 => ⟨S100000x64, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x64, .f32⟩
  | 92 => ⟨S_, .f32⟩
  | 93 => ⟨S100000x64, .f32⟩
  | 94 => ⟨S800000x1, .i32⟩
  | 95 => ⟨S100000x64, .f32⟩
  | 96 => ⟨S_, .f32⟩
  | 97 => ⟨S100000, .f32⟩
  | 98 => ⟨S800000x1, .i32⟩
  | 99 => ⟨S100000, .f32⟩
  | 100 => ⟨S_, .f32⟩
  | 101 => ⟨S_, .f32⟩
  | 102 => ⟨S100000, .f32⟩
  | 103 => ⟨S100000, .f32⟩
  | 104 => ⟨S100000, .f32⟩
  | 105 => ⟨S100000x1, .f32⟩
  | 106 => ⟨S100000x64, .f32⟩
  | 107 => ⟨S100000x64, .f32⟩
  | 108 => ⟨S1x64, .f32⟩
  | 109 => ⟨S64, .f32⟩
  | 110 => ⟨S1x64, .f32⟩
  | 111 => ⟨S100000x64, .f32⟩
  | 112 => ⟨S100000x64, .f32⟩
  | 113 => ⟨S100000x64, .f32⟩
  | 114 => ⟨S1x800000, .i32⟩
  | 115 => ⟨S800000, .i32⟩
  | 116 => ⟨S1x800000, .i32⟩
  | 117 => ⟨S800000, .i32⟩
  | 118 => ⟨S_, .f32⟩
  | 119 => ⟨S800000, .f32⟩
  | 120 => ⟨S_, .f32⟩
  | 121 => ⟨S100000, .f32⟩
  | 122 => ⟨S800000x1, .i32⟩
  | 123 => ⟨S100000, .f32⟩
  | 124 => ⟨S_, .f32⟩
  | 125 => ⟨S_, .f32⟩
  | 126 => ⟨S100000, .f32⟩
  | 127 => ⟨S100000, .f32⟩
  | _ => ⟨S100000x64, .f32⟩

abbrev hbmTy0_1 (i : Nat) : BufTy := match i % 128 with
  | 0 => ⟨S100000, .f32⟩
  | 1 => ⟨S100000x1, .f32⟩
  | 2 => ⟨S100000x64, .f32⟩
  | 3 => ⟨S100000x64, .f32⟩
  | 4 => ⟨S1x64x64, .f32⟩
  | 5 => ⟨S64x64, .f32⟩
  | 6 => ⟨S100000x64, .f32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000x64, .f32⟩
  | 16 => ⟨S_, .f32⟩
  | 17 => ⟨S100000x64, .f32⟩
  | 18 => ⟨S800000x1, .i32⟩
  | 19 => ⟨S100000x64, .f32⟩
  | 20 => ⟨S_, .f32⟩
  | 21 => ⟨S100000, .f32⟩
  | 22 => ⟨S800000x1, .i32⟩
  | 23 => ⟨S100000, .f32⟩
  | 24 => ⟨S_, .f32⟩
  | 25 => ⟨S_, .f32⟩
  | 26 => ⟨S100000, .f32⟩
  | 27 => ⟨S100000, .f32⟩
  | 28 => ⟨S100000, .f32⟩
  | 29 => ⟨S100000x1, .f32⟩
  | 30 => ⟨S100000x64, .f32⟩
  | 31 => ⟨S100000x64, .f32⟩
  | 32 => ⟨S1x64, .f32⟩
  | 33 => ⟨S64, .f32⟩
  | 34 => ⟨S1x64, .f32⟩
  | 35 => ⟨S100000x64, .f32⟩
  | 36 => ⟨S100000x64, .f32⟩
  | 37 => ⟨S100000x64, .f32⟩
  | 38 => ⟨S_, .f32⟩
  | 39 => ⟨S100000x64, .f32⟩
  | 40 => ⟨S100000x64, .f32⟩
  | 41 => ⟨S1x800000, .i32⟩
  | 42 => ⟨S800000, .i32⟩
  | 43 => ⟨S1x800000, .i32⟩
  | 44 => ⟨S800000, .i32⟩
  | 45 => ⟨S_, .f32⟩
  | 46 => ⟨S800000, .f32⟩
  | 47 => ⟨S_, .f32⟩
  | 48 => ⟨S100000, .f32⟩
  | 49 => ⟨S800000x1, .i32⟩
  | 50 => ⟨S100000, .f32⟩
  | 51 => ⟨S_, .f32⟩
  | 52 => ⟨S_, .f32⟩
  | 53 => ⟨S100000, .f32⟩
  | 54 => ⟨S100000, .f32⟩
  | 55 => ⟨S100000, .f32⟩
  | 56 => ⟨S100000x1, .f32⟩
  | 57 => ⟨S100000x64, .f32⟩
  | 58 => ⟨S100000x64, .f32⟩
  | 59 => ⟨S1x64x64, .f32⟩
  | 60 => ⟨S64x64, .f32⟩
  | 61 => ⟨S100000x64, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x64, .f32⟩
  | 71 => ⟨S_, .f32⟩
  | 72 => ⟨S100000x64, .f32⟩
  | 73 => ⟨S800000x1, .i32⟩
  | 74 => ⟨S100000x64, .f32⟩
  | 75 => ⟨S_, .f32⟩
  | 76 => ⟨S100000, .f32⟩
  | 77 => ⟨S800000x1, .i32⟩
  | 78 => ⟨S100000, .f32⟩
  | 79 => ⟨S_, .f32⟩
  | 80 => ⟨S_, .f32⟩
  | 81 => ⟨S100000, .f32⟩
  | 82 => ⟨S100000, .f32⟩
  | 83 => ⟨S100000, .f32⟩
  | 84 => ⟨S100000x1, .f32⟩
  | 85 => ⟨S100000x64, .f32⟩
  | 86 => ⟨S100000x64, .f32⟩
  | 87 => ⟨S1x64, .f32⟩
  | 88 => ⟨S64, .f32⟩
  | 89 => ⟨S1x64, .f32⟩
  | 90 => ⟨S100000x64, .f32⟩
  | 91 => ⟨S100000x64, .f32⟩
  | 92 => ⟨S1x800000, .i32⟩
  | 93 => ⟨S800000, .i32⟩
  | 94 => ⟨S1x800000, .i32⟩
  | 95 => ⟨S800000, .i32⟩
  | 96 => ⟨S_, .f32⟩
  | 97 => ⟨S800000, .f32⟩
  | 98 => ⟨S_, .f32⟩
  | 99 => ⟨S100000, .f32⟩
  | 100 => ⟨S800000x1, .i32⟩
  | 101 => ⟨S100000, .f32⟩
  | 102 => ⟨S_, .f32⟩
  | 103 => ⟨S_, .f32⟩
  | 104 => ⟨S100000, .f32⟩
  | 105 => ⟨S100000, .f32⟩
  | 106 => ⟨S100000, .f32⟩
  | 107 => ⟨S100000x1, .f32⟩
  | 108 => ⟨S100000x64, .f32⟩
  | 109 => ⟨S100000x64, .f32⟩
  | 110 => ⟨S1x64x64, .f32⟩
  | 111 => ⟨S64x64, .f32⟩
  | 112 => ⟨S100000x64, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x64, .f32⟩
  | 122 => ⟨S_, .f32⟩
  | 123 => ⟨S100000x64, .f32⟩
  | 124 => ⟨S800000x1, .i32⟩
  | 125 => ⟨S100000x64, .f32⟩
  | 126 => ⟨S_, .f32⟩
  | 127 => ⟨S100000, .f32⟩
  | _ => ⟨S100000x64, .f32⟩

abbrev hbmTy0_2 (i : Nat) : BufTy := match i % 128 with
  | 0 => ⟨S800000x1, .i32⟩
  | 1 => ⟨S100000, .f32⟩
  | 2 => ⟨S_, .f32⟩
  | 3 => ⟨S_, .f32⟩
  | 4 => ⟨S100000, .f32⟩
  | 5 => ⟨S100000, .f32⟩
  | 6 => ⟨S100000, .f32⟩
  | 7 => ⟨S100000x1, .f32⟩
  | 8 => ⟨S100000x64, .f32⟩
  | 9 => ⟨S100000x64, .f32⟩
  | 10 => ⟨S1x64, .f32⟩
  | 11 => ⟨S64, .f32⟩
  | 12 => ⟨S1x64, .f32⟩
  | 13 => ⟨S100000x64, .f32⟩
  | 14 => ⟨S100000x64, .f32⟩
  | 15 => ⟨S100000x64, .f32⟩
  | 16 => ⟨S1x800000, .i32⟩
  | 17 => ⟨S800000, .i32⟩
  | 18 => ⟨S1x800000, .i32⟩
  | 19 => ⟨S800000, .i32⟩
  | 20 => ⟨S_, .f32⟩
  | 21 => ⟨S800000, .f32⟩
  | 22 => ⟨S_, .f32⟩
  | 23 => ⟨S100000, .f32⟩
  | 24 => ⟨S800000x1, .i32⟩
  | 25 => ⟨S100000, .f32⟩
  | 26 => ⟨S_, .f32⟩
  | 27 => ⟨S_, .f32⟩
  | 28 => ⟨S100000, .f32⟩
  | 29 => ⟨S100000, .f32⟩
  | 30 => ⟨S100000, .f32⟩
  | 31 => ⟨S100000x1, .f32⟩
  | 32 => ⟨S100000x64, .f32⟩
  | 33 => ⟨S100000x64, .f32⟩
  | 34 => ⟨S1x64x64, .f32⟩
  | 35 => ⟨S64x64, .f32⟩
  | 36 => ⟨S100000x64, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x64, .f32⟩
  | 46 => ⟨S_, .f32⟩
  | 47 => ⟨S100000x64, .f32⟩
  | 48 => ⟨S800000x1, .i32⟩
  | 49 => ⟨S100000x64, .f32⟩
  | 50 => ⟨S_, .f32⟩
  | 51 => ⟨S100000, .f32⟩
  | 52 => ⟨S800000x1, .i32⟩
  | 53 => ⟨S100000, .f32⟩
  | 54 => ⟨S_, .f32⟩
  | 55 => ⟨S_, .f32⟩
  | 56 => ⟨S100000, .f32⟩
  | 57 => ⟨S100000, .f32⟩
  | 58 => ⟨S100000, .f32⟩
  | 59 => ⟨S100000x1, .f32⟩
  | 60 => ⟨S100000x64, .f32⟩
  | 61 => ⟨S100000x64, .f32⟩
  | 62 => ⟨S1x64, .f32⟩
  | 63 => ⟨S64, .f32⟩
  | 64 => ⟨S1x64, .f32⟩
  | 65 => ⟨S100000x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S1x800000, .i32⟩
  | 72 => ⟨S800000, .i32⟩
  | 73 => ⟨S1x800000, .i32⟩
  | 74 => ⟨S800000, .i32⟩
  | 75 => ⟨S_, .f32⟩
  | 76 => ⟨S800000, .f32⟩
  | 77 => ⟨S_, .f32⟩
  | 78 => ⟨S100000, .f32⟩
  | 79 => ⟨S800000x1, .i32⟩
  | 80 => ⟨S100000, .f32⟩
  | 81 => ⟨S_, .f32⟩
  | 82 => ⟨S_, .f32⟩
  | 83 => ⟨S100000, .f32⟩
  | 84 => ⟨S100000, .f32⟩
  | 85 => ⟨S100000, .f32⟩
  | 86 => ⟨S100000x1, .f32⟩
  | 87 => ⟨S100000x64, .f32⟩
  | 88 => ⟨S100000x64, .f32⟩
  | 89 => ⟨S1x64x64, .f32⟩
  | 90 => ⟨S64x64, .f32⟩
  | 91 => ⟨S100000x64, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x64, .f32⟩
  | 101 => ⟨S_, .f32⟩
  | 102 => ⟨S100000x64, .f32⟩
  | 103 => ⟨S800000x1, .i32⟩
  | 104 => ⟨S100000x64, .f32⟩
  | 105 => ⟨S_, .f32⟩
  | 106 => ⟨S100000, .f32⟩
  | 107 => ⟨S800000x1, .i32⟩
  | 108 => ⟨S100000, .f32⟩
  | 109 => ⟨S_, .f32⟩
  | 110 => ⟨S_, .f32⟩
  | 111 => ⟨S100000, .f32⟩
  | 112 => ⟨S100000, .f32⟩
  | 113 => ⟨S100000, .f32⟩
  | 114 => ⟨S100000x1, .f32⟩
  | 115 => ⟨S100000x64, .f32⟩
  | 116 => ⟨S100000x64, .f32⟩
  | 117 => ⟨S1x64, .f32⟩
  | 118 => ⟨S64, .f32⟩
  | 119 => ⟨S1x64, .f32⟩
  | 120 => ⟨S100000x64, .f32⟩
  | 121 => ⟨S100000x64, .f32⟩
  | 122 => ⟨S1x800000, .i32⟩
  | 123 => ⟨S800000, .i32⟩
  | 124 => ⟨S1x800000, .i32⟩
  | 125 => ⟨S800000, .i32⟩
  | 126 => ⟨S_, .f32⟩
  | 127 => ⟨S800000, .f32⟩
  | _ => ⟨S100000x64, .f32⟩

abbrev hbmTy0_3 (i : Nat) : BufTy := match i % 128 with
  | 0 => ⟨S_, .f32⟩
  | 1 => ⟨S100000, .f32⟩
  | 2 => ⟨S800000x1, .i32⟩
  | 3 => ⟨S100000, .f32⟩
  | 4 => ⟨S_, .f32⟩
  | 5 => ⟨S_, .f32⟩
  | 6 => ⟨S100000, .f32⟩
  | 7 => ⟨S100000, .f32⟩
  | 8 => ⟨S100000, .f32⟩
  | 9 => ⟨S100000x1, .f32⟩
  | 10 => ⟨S100000x64, .f32⟩
  | 11 => ⟨S100000x64, .f32⟩
  | 12 => ⟨S1x64x64, .f32⟩
  | 13 => ⟨S64x64, .f32⟩
  | 14 => ⟨S100000x64, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x64, .f32⟩
  | 24 => ⟨S_, .f32⟩
  | 25 => ⟨S100000x64, .f32⟩
  | 26 => ⟨S800000x1, .i32⟩
  | 27 => ⟨S100000x64, .f32⟩
  | 28 => ⟨S_, .f32⟩
  | 29 => ⟨S100000, .f32⟩
  | 30 => ⟨S800000x1, .i32⟩
  | 31 => ⟨S100000, .f32⟩
  | 32 => ⟨S_, .f32⟩
  | 33 => ⟨S_, .f32⟩
  | 34 => ⟨S100000, .f32⟩
  | 35 => ⟨S100000, .f32⟩
  | 36 => ⟨S100000, .f32⟩
  | 37 => ⟨S100000x1, .f32⟩
  | 38 => ⟨S100000x64, .f32⟩
  | 39 => ⟨S100000x64, .f32⟩
  | 40 => ⟨S1x64, .f32⟩
  | 41 => ⟨S64, .f32⟩
  | 42 => ⟨S1x64, .f32⟩
  | 43 => ⟨S100000x64, .f32⟩
  | 44 => ⟨S100000x64, .f32⟩
  | 45 => ⟨S100000x64, .f32⟩
  | 46 => ⟨S1x800000, .i32⟩
  | 47 => ⟨S800000, .i32⟩
  | 48 => ⟨S1x800000, .i32⟩
  | 49 => ⟨S800000, .i32⟩
  | 50 => ⟨S_, .f32⟩
  | 51 => ⟨S800000, .f32⟩
  | 52 => ⟨S_, .f32⟩
  | 53 => ⟨S100000, .f32⟩
  | 54 => ⟨S800000x1, .i32⟩
  | 55 => ⟨S100000, .f32⟩
  | 56 => ⟨S_, .f32⟩
  | 57 => ⟨S_, .f32⟩
  | 58 => ⟨S100000, .f32⟩
  | 59 => ⟨S100000, .f32⟩
  | 60 => ⟨S100000, .f32⟩
  | 61 => ⟨S100000x1, .f32⟩
  | 62 => ⟨S100000x64, .f32⟩
  | 63 => ⟨S100000x64, .f32⟩
  | 64 => ⟨S1x64x64, .f32⟩
  | 65 => ⟨S64x64, .f32⟩
  | 66 => ⟨S100000x64, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000x64, .f32⟩
  | 76 => ⟨S_, .f32⟩
  | 77 => ⟨S100000x64, .f32⟩
  | 78 => ⟨S800000x1, .i32⟩
  | 79 => ⟨S100000x64, .f32⟩
  | 80 => ⟨S_, .f32⟩
  | 81 => ⟨S100000, .f32⟩
  | 82 => ⟨S800000x1, .i32⟩
  | 83 => ⟨S100000, .f32⟩
  | 84 => ⟨S_, .f32⟩
  | 85 => ⟨S_, .f32⟩
  | 86 => ⟨S100000, .f32⟩
  | 87 => ⟨S100000, .f32⟩
  | 88 => ⟨S100000, .f32⟩
  | 89 => ⟨S100000x1, .f32⟩
  | 90 => ⟨S100000x64, .f32⟩
  | 91 => ⟨S100000x64, .f32⟩
  | 92 => ⟨S1x64, .f32⟩
  | 93 => ⟨S64, .f32⟩
  | 94 => ⟨S1x64, .f32⟩
  | 95 => ⟨S100000x64, .f32⟩
  | 96 => ⟨S100000x64, .f32⟩
  | 97 => ⟨S100000x64, .f32⟩
  | 98 => ⟨S_, .f32⟩
  | 99 => ⟨S100000x64, .f32⟩
  | 100 => ⟨S100000x64, .f32⟩
  | 101 => ⟨S1x800000, .i32⟩
  | 102 => ⟨S800000, .i32⟩
  | 103 => ⟨S1x800000, .i32⟩
  | 104 => ⟨S800000, .i32⟩
  | 105 => ⟨S_, .f32⟩
  | 106 => ⟨S800000, .f32⟩
  | 107 => ⟨S_, .f32⟩
  | 108 => ⟨S100000, .f32⟩
  | 109 => ⟨S800000x1, .i32⟩
  | 110 => ⟨S100000, .f32⟩
  | 111 => ⟨S_, .f32⟩
  | 112 => ⟨S_, .f32⟩
  | 113 => ⟨S100000, .f32⟩
  | 114 => ⟨S100000, .f32⟩
  | 115 => ⟨S100000, .f32⟩
  | 116 => ⟨S100000x1, .f32⟩
  | 117 => ⟨S100000x64, .f32⟩
  | 118 => ⟨S100000x64, .f32⟩
  | 119 => ⟨S1x64x2, .f32⟩
  | 120 => ⟨S64x2, .f32⟩
  | 121 => ⟨S100000x2, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S100000x64, .f32⟩

abbrev hbmTy0_4 (i : Nat) : BufTy := match i % 128 with
  | 0 => ⟨S800000, .i32⟩
  | 1 => ⟨S800000x1, .i32⟩
  | 2 => ⟨S800000x2, .f32⟩
  | 3 => ⟨S_, .f32⟩
  | 4 => ⟨S100000x2, .f32⟩
  | 5 => ⟨S800000x1, .i32⟩
  | 6 => ⟨S100000x2, .f32⟩
  | 7 => ⟨S_, .f32⟩
  | 8 => ⟨S100000, .f32⟩
  | 9 => ⟨S800000x1, .i32⟩
  | 10 => ⟨S100000, .f32⟩
  | 11 => ⟨S_, .f32⟩
  | 12 => ⟨S_, .f32⟩
  | 13 => ⟨S100000, .f32⟩
  | 14 => ⟨S100000, .f32⟩
  | 15 => ⟨S100000, .f32⟩
  | 16 => ⟨S100000x1, .f32⟩
  | 17 => ⟨S100000x2, .f32⟩
  | 18 => ⟨S100000x2, .f32⟩
  | 19 => ⟨S1x2, .f32⟩
  | 20 => ⟨S2, .f32⟩
  | 21 => ⟨S1x2, .f32⟩
  | 22 => ⟨S100000x2, .f32⟩
  | 23 => ⟨S100000x2, .f32⟩
  | 24 => ⟨S1x800000, .i32⟩
  | 25 => ⟨S800000, .i32⟩
  | 26 => ⟨S1x800000, .i32⟩
  | 27 => ⟨S800000, .i32⟩
  | 28 => ⟨S_, .f32⟩
  | 29 => ⟨S800000, .f32⟩
  | 30 => ⟨S_, .f32⟩
  | 31 => ⟨S100000, .f32⟩
  | 32 => ⟨S800000x1, .i32⟩
  | 33 => ⟨S100000, .f32⟩
  | 34 => ⟨S_, .f32⟩
  | 35 => ⟨S_, .f32⟩
  | 36 => ⟨S100000, .f32⟩
  | 37 => ⟨S100000, .f32⟩
  | 38 => ⟨S100000, .f32⟩
  | 39 => ⟨S100000x1, .f32⟩
  | 40 => ⟨S100000x64, .f32⟩
  | 41 => ⟨S100000x64, .f32⟩
  | 42 => ⟨S1x64x2, .f32⟩
  | 43 => ⟨S64x2, .f32⟩
  | 44 => ⟨S100000x2, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x2, .f32⟩
  | 54 => ⟨S_, .f32⟩
  | 55 => ⟨S100000x2, .f32⟩
  | 56 => ⟨S800000x1, .i32⟩
  | 57 => ⟨S100000x2, .f32⟩
  | 58 => ⟨S_, .f32⟩
  | 59 => ⟨S100000, .f32⟩
  | 60 => ⟨S800000x1, .i32⟩
  | 61 => ⟨S100000, .f32⟩
  | 62 => ⟨S_, .f32⟩
  | 63 => ⟨S_, .f32⟩
  | 64 => ⟨S100000, .f32⟩
  | 65 => ⟨S100000, .f32⟩
  | 66 => ⟨S100000, .f32⟩
  | 67 => ⟨S100000x1, .f32⟩
  | 68 => ⟨S100000x2, .f32⟩
  | 69 => ⟨S100000x2, .f32⟩
  | 70 => ⟨S1x2, .f32⟩
  | 71 => ⟨S2, .f32⟩
  | 72 => ⟨S1x2, .f32⟩
  | 73 => ⟨S100000x2, .f32⟩
  | 74 => ⟨S100000x2, .f32⟩
  | 75 => ⟨S100000x2, .f32⟩
  | 76 => ⟨S1x800000, .i32⟩
  | 77 => ⟨S800000, .i32⟩
  | 78 => ⟨S1x800000, .i32⟩
  | 79 => ⟨S800000, .i32⟩
  | 80 => ⟨S_, .f32⟩
  | 81 => ⟨S800000, .f32⟩
  | 82 => ⟨S_, .f32⟩
  | 83 => ⟨S100000, .f32⟩
  | 84 => ⟨S800000x1, .i32⟩
  | 85 => ⟨S100000, .f32⟩
  | 86 => ⟨S_, .f32⟩
  | 87 => ⟨S_, .f32⟩
  | 88 => ⟨S100000, .f32⟩
  | 89 => ⟨S100000, .f32⟩
  | 90 => ⟨S100000, .f32⟩
  | 91 => ⟨S100000x1, .f32⟩
  | 92 => ⟨S100000x64, .f32⟩
  | 93 => ⟨S100000x64, .f32⟩
  | 94 => ⟨S1x64x2, .f32⟩
  | 95 => ⟨S64x2, .f32⟩
  | 96 => ⟨S100000x2, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x2, .f32⟩
  | 106 => ⟨S_, .f32⟩
  | 107 => ⟨S100000x2, .f32⟩
  | 108 => ⟨S800000x1, .i32⟩
  | 109 => ⟨S100000x2, .f32⟩
  | 110 => ⟨S_, .f32⟩
  | 111 => ⟨S100000, .f32⟩
  | 112 => ⟨S800000x1, .i32⟩
  | 113 => ⟨S100000, .f32⟩
  | 114 => ⟨S_, .f32⟩
  | 115 => ⟨S_, .f32⟩
  | 116 => ⟨S100000, .f32⟩
  | 117 => ⟨S100000, .f32⟩
  | 118 => ⟨S100000, .f32⟩
  | 119 => ⟨S100000x1, .f32⟩
  | 120 => ⟨S100000x2, .f32⟩
  | 121 => ⟨S100000x2, .f32⟩
  | 122 => ⟨S1x2, .f32⟩
  | 123 => ⟨S2, .f32⟩
  | 124 => ⟨S1x2, .f32⟩
  | 125 => ⟨S100000x2, .f32⟩
  | 126 => ⟨S100000x2, .f32⟩
  | 127 => ⟨S100000x2, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_call1_v0 : Ref sig .tc := ⟨.hbm, 50, rfl⟩
abbrev main_call1_v1 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_cst_7 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_8 : Ref sig .tc := ⟨.hbm, 72, rfl⟩
abbrev main_call2_v0 : Ref sig .tc := ⟨.hbm, 73, rfl⟩
abbrev main_call2_v1 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_c_9 : Ref sig .tc := ⟨.hbm, 83, rfl⟩
abbrev main_v55 : Ref sig .tc := ⟨.hbm, 84, rfl⟩
abbrev main_v56 : Ref sig .tc := ⟨.hbm, 85, rfl⟩
abbrev main_c_10 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_11 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_12 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_13 : Ref sig .tc := ⟨.hbm, 100, rfl⟩
abbrev main_call3_v0 : Ref sig .tc := ⟨.hbm, 101, rfl⟩
abbrev main_call3_v1 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_14 : Ref sig .tc := ⟨.hbm, 118, rfl⟩
abbrev main_v83 : Ref sig .tc := ⟨.hbm, 119, rfl⟩
abbrev main_cst_15 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_16 : Ref sig .tc := ⟨.hbm, 124, rfl⟩
abbrev main_call4_v0 : Ref sig .tc := ⟨.hbm, 125, rfl⟩
abbrev main_call4_v1 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_c_17 : Ref sig .tc := ⟨.hbm, 135, rfl⟩
abbrev main_v95 : Ref sig .tc := ⟨.hbm, 136, rfl⟩
abbrev main_v96 : Ref sig .tc := ⟨.hbm, 137, rfl⟩
abbrev main_c_18 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_19 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_20 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_21 : Ref sig .tc := ⟨.hbm, 152, rfl⟩
abbrev main_call5_v0 : Ref sig .tc := ⟨.hbm, 153, rfl⟩
abbrev main_call5_v1 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_call6_cst : Ref sig .tc := ⟨.hbm, 166, rfl⟩
abbrev main_call6_v0 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_cst_22 : Ref sig .tc := ⟨.hbm, 173, rfl⟩
abbrev main_v124 : Ref sig .tc := ⟨.hbm, 174, rfl⟩
abbrev main_cst_23 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_cst_24 : Ref sig .tc := ⟨.hbm, 179, rfl⟩
abbrev main_call7_v0 : Ref sig .tc := ⟨.hbm, 180, rfl⟩
abbrev main_call7_v1 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_c_25 : Ref sig .tc := ⟨.hbm, 190, rfl⟩
abbrev main_v136 : Ref sig .tc := ⟨.hbm, 191, rfl⟩
abbrev main_v137 : Ref sig .tc := ⟨.hbm, 192, rfl⟩
abbrev main_c_26 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_cst_27 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_cst_28 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_cst_29 : Ref sig .tc := ⟨.hbm, 207, rfl⟩
abbrev main_call8_v0 : Ref sig .tc := ⟨.hbm, 208, rfl⟩
abbrev main_call8_v1 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_cst_30 : Ref sig .tc := ⟨.hbm, 224, rfl⟩
abbrev main_v163 : Ref sig .tc := ⟨.hbm, 225, rfl⟩
abbrev main_cst_31 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_cst_32 : Ref sig .tc := ⟨.hbm, 230, rfl⟩
abbrev main_call9_v0 : Ref sig .tc := ⟨.hbm, 231, rfl⟩
abbrev main_call9_v1 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_c_33 : Ref sig .tc := ⟨.hbm, 241, rfl⟩
abbrev main_v175 : Ref sig .tc := ⟨.hbm, 242, rfl⟩
abbrev main_v176 : Ref sig .tc := ⟨.hbm, 243, rfl⟩
abbrev main_c_34 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_cst_35 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_cst_36 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_cst_37 : Ref sig .tc := ⟨.hbm, 258, rfl⟩
abbrev main_call10_v0 : Ref sig .tc := ⟨.hbm, 259, rfl⟩
abbrev main_call10_v1 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_cst_38 : Ref sig .tc := ⟨.hbm, 276, rfl⟩
abbrev main_v203 : Ref sig .tc := ⟨.hbm, 277, rfl⟩
abbrev main_cst_39 : Ref sig .tc := ⟨.hbm, 278, rfl⟩
abbrev main_v204 : Ref sig .tc := ⟨.hbm, 279, rfl⟩
abbrev main_v205 : Ref sig .tc := ⟨.hbm, 280, rfl⟩
abbrev main_v206 : Ref sig .tc := ⟨.hbm, 281, rfl⟩
abbrev main_cst_40 : Ref sig .tc := ⟨.hbm, 282, rfl⟩
abbrev main_call11_v0 : Ref sig .tc := ⟨.hbm, 283, rfl⟩
abbrev main_call11_v1 : Ref sig .tc := ⟨.hbm, 284, rfl⟩
abbrev main_v207 : Ref sig .tc := ⟨.hbm, 285, rfl⟩
abbrev main_v208 : Ref sig .tc := ⟨.hbm, 286, rfl⟩
abbrev main_v209 : Ref sig .tc := ⟨.hbm, 287, rfl⟩
abbrev main_v210 : Ref sig .tc := ⟨.hbm, 288, rfl⟩
abbrev main_v211 : Ref sig .tc := ⟨.hbm, 289, rfl⟩
abbrev main_v212 : Ref sig .tc := ⟨.hbm, 290, rfl⟩
abbrev main_v213 : Ref sig .tc := ⟨.hbm, 291, rfl⟩
abbrev main_v214 : Ref sig .tc := ⟨.hbm, 292, rfl⟩
abbrev main_c_41 : Ref sig .tc := ⟨.hbm, 293, rfl⟩
abbrev main_v215 : Ref sig .tc := ⟨.hbm, 294, rfl⟩
abbrev main_v216 : Ref sig .tc := ⟨.hbm, 295, rfl⟩
abbrev main_c_42 : Ref sig .tc := ⟨.hbm, 296, rfl⟩
abbrev main_v217 : Ref sig .tc := ⟨.hbm, 297, rfl⟩
abbrev main_v218 : Ref sig .tc := ⟨.hbm, 298, rfl⟩
abbrev main_v219 : Ref sig .tc := ⟨.hbm, 299, rfl⟩
abbrev main_v220 : Ref sig .tc := ⟨.hbm, 300, rfl⟩
abbrev main_v221 : Ref sig .tc := ⟨.hbm, 301, rfl⟩
abbrev main_cst_43 : Ref sig .tc := ⟨.hbm, 302, rfl⟩
abbrev main_v222 : Ref sig .tc := ⟨.hbm, 303, rfl⟩
abbrev main_v223 : Ref sig .tc := ⟨.hbm, 304, rfl⟩
abbrev main_v224 : Ref sig .tc := ⟨.hbm, 305, rfl⟩
abbrev main_cst_44 : Ref sig .tc := ⟨.hbm, 306, rfl⟩
abbrev main_v225 : Ref sig .tc := ⟨.hbm, 307, rfl⟩
abbrev main_v226 : Ref sig .tc := ⟨.hbm, 308, rfl⟩
abbrev main_v227 : Ref sig .tc := ⟨.hbm, 309, rfl⟩
abbrev main_cst_45 : Ref sig .tc := ⟨.hbm, 310, rfl⟩
abbrev main_call12_v0 : Ref sig .tc := ⟨.hbm, 311, rfl⟩
abbrev main_call12_v1 : Ref sig .tc := ⟨.hbm, 312, rfl⟩
abbrev main_v228 : Ref sig .tc := ⟨.hbm, 313, rfl⟩
abbrev main_v229 : Ref sig .tc := ⟨.hbm, 314, rfl⟩
abbrev main_v230 : Ref sig .tc := ⟨.hbm, 315, rfl⟩
abbrev main_v231 : Ref sig .tc := ⟨.hbm, 316, rfl⟩
abbrev main_v232 : Ref sig .tc := ⟨.hbm, 317, rfl⟩
abbrev main_v233 : Ref sig .tc := ⟨.hbm, 318, rfl⟩
abbrev main_v234 : Ref sig .tc := ⟨.hbm, 319, rfl⟩
abbrev main_v235 : Ref sig .tc := ⟨.hbm, 320, rfl⟩
abbrev main_v236 : Ref sig .tc := ⟨.hbm, 321, rfl⟩
abbrev main_v237 : Ref sig .tc := ⟨.hbm, 322, rfl⟩
abbrev main_v238 : Ref sig .tc := ⟨.hbm, 323, rfl⟩
abbrev main_call13_cst : Ref sig .tc := ⟨.hbm, 324, rfl⟩
abbrev main_call13_v0 : Ref sig .tc := ⟨.hbm, 325, rfl⟩
abbrev main_v239 : Ref sig .tc := ⟨.hbm, 326, rfl⟩
abbrev main_v240 : Ref sig .tc := ⟨.hbm, 327, rfl⟩
abbrev main_v241 : Ref sig .tc := ⟨.hbm, 328, rfl⟩
abbrev main_v242 : Ref sig .tc := ⟨.hbm, 329, rfl⟩
abbrev main_v243 : Ref sig .tc := ⟨.hbm, 330, rfl⟩
abbrev main_cst_46 : Ref sig .tc := ⟨.hbm, 331, rfl⟩
abbrev main_v244 : Ref sig .tc := ⟨.hbm, 332, rfl⟩
abbrev main_cst_47 : Ref sig .tc := ⟨.hbm, 333, rfl⟩
abbrev main_v245 : Ref sig .tc := ⟨.hbm, 334, rfl⟩
abbrev main_v246 : Ref sig .tc := ⟨.hbm, 335, rfl⟩
abbrev main_v247 : Ref sig .tc := ⟨.hbm, 336, rfl⟩
abbrev main_cst_48 : Ref sig .tc := ⟨.hbm, 337, rfl⟩
abbrev main_call14_v0 : Ref sig .tc := ⟨.hbm, 338, rfl⟩
abbrev main_call14_v1 : Ref sig .tc := ⟨.hbm, 339, rfl⟩
abbrev main_v248 : Ref sig .tc := ⟨.hbm, 340, rfl⟩
abbrev main_v249 : Ref sig .tc := ⟨.hbm, 341, rfl⟩
abbrev main_v250 : Ref sig .tc := ⟨.hbm, 342, rfl⟩
abbrev main_v251 : Ref sig .tc := ⟨.hbm, 343, rfl⟩
abbrev main_v252 : Ref sig .tc := ⟨.hbm, 344, rfl⟩
abbrev main_v253 : Ref sig .tc := ⟨.hbm, 345, rfl⟩
abbrev main_v254 : Ref sig .tc := ⟨.hbm, 346, rfl⟩
abbrev main_v255 : Ref sig .tc := ⟨.hbm, 347, rfl⟩
abbrev main_c_49 : Ref sig .tc := ⟨.hbm, 348, rfl⟩
abbrev main_v256 : Ref sig .tc := ⟨.hbm, 349, rfl⟩
abbrev main_v257 : Ref sig .tc := ⟨.hbm, 350, rfl⟩
abbrev main_c_50 : Ref sig .tc := ⟨.hbm, 351, rfl⟩
abbrev main_v258 : Ref sig .tc := ⟨.hbm, 352, rfl⟩
abbrev main_v259 : Ref sig .tc := ⟨.hbm, 353, rfl⟩
abbrev main_v260 : Ref sig .tc := ⟨.hbm, 354, rfl⟩
abbrev main_v261 : Ref sig .tc := ⟨.hbm, 355, rfl⟩
abbrev main_v262 : Ref sig .tc := ⟨.hbm, 356, rfl⟩
abbrev main_cst_51 : Ref sig .tc := ⟨.hbm, 357, rfl⟩
abbrev main_v263 : Ref sig .tc := ⟨.hbm, 358, rfl⟩
abbrev main_v264 : Ref sig .tc := ⟨.hbm, 359, rfl⟩
abbrev main_v265 : Ref sig .tc := ⟨.hbm, 360, rfl⟩
abbrev main_cst_52 : Ref sig .tc := ⟨.hbm, 361, rfl⟩
abbrev main_v266 : Ref sig .tc := ⟨.hbm, 362, rfl⟩
abbrev main_v267 : Ref sig .tc := ⟨.hbm, 363, rfl⟩
abbrev main_v268 : Ref sig .tc := ⟨.hbm, 364, rfl⟩
abbrev main_cst_53 : Ref sig .tc := ⟨.hbm, 365, rfl⟩
abbrev main_call15_v0 : Ref sig .tc := ⟨.hbm, 366, rfl⟩
abbrev main_call15_v1 : Ref sig .tc := ⟨.hbm, 367, rfl⟩
abbrev main_v269 : Ref sig .tc := ⟨.hbm, 368, rfl⟩
abbrev main_v270 : Ref sig .tc := ⟨.hbm, 369, rfl⟩
abbrev main_v271 : Ref sig .tc := ⟨.hbm, 370, rfl⟩
abbrev main_v272 : Ref sig .tc := ⟨.hbm, 371, rfl⟩
abbrev main_v273 : Ref sig .tc := ⟨.hbm, 372, rfl⟩
abbrev main_v274 : Ref sig .tc := ⟨.hbm, 373, rfl⟩
abbrev main_v275 : Ref sig .tc := ⟨.hbm, 374, rfl⟩
abbrev main_v276 : Ref sig .tc := ⟨.hbm, 375, rfl⟩
abbrev main_v277 : Ref sig .tc := ⟨.hbm, 376, rfl⟩
abbrev main_v278 : Ref sig .tc := ⟨.hbm, 377, rfl⟩
abbrev main_v279 : Ref sig .tc := ⟨.hbm, 378, rfl⟩
abbrev main_v280 : Ref sig .tc := ⟨.hbm, 379, rfl⟩
abbrev main_v281 : Ref sig .tc := ⟨.hbm, 380, rfl⟩
abbrev main_v282 : Ref sig .tc := ⟨.hbm, 381, rfl⟩
abbrev main_cst_54 : Ref sig .tc := ⟨.hbm, 382, rfl⟩
abbrev main_v283 : Ref sig .tc := ⟨.hbm, 383, rfl⟩
abbrev main_cst_55 : Ref sig .tc := ⟨.hbm, 384, rfl⟩
abbrev main_v284 : Ref sig .tc := ⟨.hbm, 385, rfl⟩
abbrev main_v285 : Ref sig .tc := ⟨.hbm, 386, rfl⟩
abbrev main_v286 : Ref sig .tc := ⟨.hbm, 387, rfl⟩
abbrev main_cst_56 : Ref sig .tc := ⟨.hbm, 388, rfl⟩
abbrev main_call16_v0 : Ref sig .tc := ⟨.hbm, 389, rfl⟩
abbrev main_call16_v1 : Ref sig .tc := ⟨.hbm, 390, rfl⟩
abbrev main_v287 : Ref sig .tc := ⟨.hbm, 391, rfl⟩
abbrev main_v288 : Ref sig .tc := ⟨.hbm, 392, rfl⟩
abbrev main_v289 : Ref sig .tc := ⟨.hbm, 393, rfl⟩
abbrev main_v290 : Ref sig .tc := ⟨.hbm, 394, rfl⟩
abbrev main_v291 : Ref sig .tc := ⟨.hbm, 395, rfl⟩
abbrev main_v292 : Ref sig .tc := ⟨.hbm, 396, rfl⟩
abbrev main_v293 : Ref sig .tc := ⟨.hbm, 397, rfl⟩
abbrev main_v294 : Ref sig .tc := ⟨.hbm, 398, rfl⟩
abbrev main_c_57 : Ref sig .tc := ⟨.hbm, 399, rfl⟩
abbrev main_v295 : Ref sig .tc := ⟨.hbm, 400, rfl⟩
abbrev main_v296 : Ref sig .tc := ⟨.hbm, 401, rfl⟩
abbrev main_c_58 : Ref sig .tc := ⟨.hbm, 402, rfl⟩
abbrev main_v297 : Ref sig .tc := ⟨.hbm, 403, rfl⟩
abbrev main_v298 : Ref sig .tc := ⟨.hbm, 404, rfl⟩
abbrev main_v299 : Ref sig .tc := ⟨.hbm, 405, rfl⟩
abbrev main_v300 : Ref sig .tc := ⟨.hbm, 406, rfl⟩
abbrev main_v301 : Ref sig .tc := ⟨.hbm, 407, rfl⟩
abbrev main_cst_59 : Ref sig .tc := ⟨.hbm, 408, rfl⟩
abbrev main_v302 : Ref sig .tc := ⟨.hbm, 409, rfl⟩
abbrev main_v303 : Ref sig .tc := ⟨.hbm, 410, rfl⟩
abbrev main_v304 : Ref sig .tc := ⟨.hbm, 411, rfl⟩
abbrev main_cst_60 : Ref sig .tc := ⟨.hbm, 412, rfl⟩
abbrev main_v305 : Ref sig .tc := ⟨.hbm, 413, rfl⟩
abbrev main_v306 : Ref sig .tc := ⟨.hbm, 414, rfl⟩
abbrev main_v307 : Ref sig .tc := ⟨.hbm, 415, rfl⟩
abbrev main_cst_61 : Ref sig .tc := ⟨.hbm, 416, rfl⟩
abbrev main_call17_v0 : Ref sig .tc := ⟨.hbm, 417, rfl⟩
abbrev main_call17_v1 : Ref sig .tc := ⟨.hbm, 418, rfl⟩
abbrev main_v308 : Ref sig .tc := ⟨.hbm, 419, rfl⟩
abbrev main_v309 : Ref sig .tc := ⟨.hbm, 420, rfl⟩
abbrev main_v310 : Ref sig .tc := ⟨.hbm, 421, rfl⟩
abbrev main_v311 : Ref sig .tc := ⟨.hbm, 422, rfl⟩
abbrev main_v312 : Ref sig .tc := ⟨.hbm, 423, rfl⟩
abbrev main_v313 : Ref sig .tc := ⟨.hbm, 424, rfl⟩
abbrev main_v314 : Ref sig .tc := ⟨.hbm, 425, rfl⟩
abbrev main_v315 : Ref sig .tc := ⟨.hbm, 426, rfl⟩
abbrev main_v316 : Ref sig .tc := ⟨.hbm, 427, rfl⟩
abbrev main_v317 : Ref sig .tc := ⟨.hbm, 428, rfl⟩
abbrev main_v318 : Ref sig .tc := ⟨.hbm, 429, rfl⟩
abbrev main_v319 : Ref sig .tc := ⟨.hbm, 430, rfl⟩
abbrev main_v320 : Ref sig .tc := ⟨.hbm, 431, rfl⟩
abbrev main_v321 : Ref sig .tc := ⟨.hbm, 432, rfl⟩
abbrev main_v322 : Ref sig .tc := ⟨.hbm, 433, rfl⟩
abbrev main_cst_62 : Ref sig .tc := ⟨.hbm, 434, rfl⟩
abbrev main_v323 : Ref sig .tc := ⟨.hbm, 435, rfl⟩
abbrev main_cst_63 : Ref sig .tc := ⟨.hbm, 436, rfl⟩
abbrev main_v324 : Ref sig .tc := ⟨.hbm, 437, rfl⟩
abbrev main_v325 : Ref sig .tc := ⟨.hbm, 438, rfl⟩
abbrev main_v326 : Ref sig .tc := ⟨.hbm, 439, rfl⟩
abbrev main_cst_64 : Ref sig .tc := ⟨.hbm, 440, rfl⟩
abbrev main_call18_v0 : Ref sig .tc := ⟨.hbm, 441, rfl⟩
abbrev main_call18_v1 : Ref sig .tc := ⟨.hbm, 442, rfl⟩
abbrev main_v327 : Ref sig .tc := ⟨.hbm, 443, rfl⟩
abbrev main_v328 : Ref sig .tc := ⟨.hbm, 444, rfl⟩
abbrev main_v329 : Ref sig .tc := ⟨.hbm, 445, rfl⟩
abbrev main_v330 : Ref sig .tc := ⟨.hbm, 446, rfl⟩
abbrev main_v331 : Ref sig .tc := ⟨.hbm, 447, rfl⟩
abbrev main_v332 : Ref sig .tc := ⟨.hbm, 448, rfl⟩
abbrev main_v333 : Ref sig .tc := ⟨.hbm, 449, rfl⟩
abbrev main_v334 : Ref sig .tc := ⟨.hbm, 450, rfl⟩
abbrev main_c_65 : Ref sig .tc := ⟨.hbm, 451, rfl⟩
abbrev main_v335 : Ref sig .tc := ⟨.hbm, 452, rfl⟩
abbrev main_v336 : Ref sig .tc := ⟨.hbm, 453, rfl⟩
abbrev main_c_66 : Ref sig .tc := ⟨.hbm, 454, rfl⟩
abbrev main_v337 : Ref sig .tc := ⟨.hbm, 455, rfl⟩
abbrev main_v338 : Ref sig .tc := ⟨.hbm, 456, rfl⟩
abbrev main_v339 : Ref sig .tc := ⟨.hbm, 457, rfl⟩
abbrev main_v340 : Ref sig .tc := ⟨.hbm, 458, rfl⟩
abbrev main_v341 : Ref sig .tc := ⟨.hbm, 459, rfl⟩
abbrev main_cst_67 : Ref sig .tc := ⟨.hbm, 460, rfl⟩
abbrev main_v342 : Ref sig .tc := ⟨.hbm, 461, rfl⟩
abbrev main_v343 : Ref sig .tc := ⟨.hbm, 462, rfl⟩
abbrev main_v344 : Ref sig .tc := ⟨.hbm, 463, rfl⟩
abbrev main_cst_68 : Ref sig .tc := ⟨.hbm, 464, rfl⟩
abbrev main_v345 : Ref sig .tc := ⟨.hbm, 465, rfl⟩
abbrev main_v346 : Ref sig .tc := ⟨.hbm, 466, rfl⟩
abbrev main_v347 : Ref sig .tc := ⟨.hbm, 467, rfl⟩
abbrev main_cst_69 : Ref sig .tc := ⟨.hbm, 468, rfl⟩
abbrev main_call19_v0 : Ref sig .tc := ⟨.hbm, 469, rfl⟩
abbrev main_call19_v1 : Ref sig .tc := ⟨.hbm, 470, rfl⟩
abbrev main_v348 : Ref sig .tc := ⟨.hbm, 471, rfl⟩
abbrev main_v349 : Ref sig .tc := ⟨.hbm, 472, rfl⟩
abbrev main_v350 : Ref sig .tc := ⟨.hbm, 473, rfl⟩
abbrev main_v351 : Ref sig .tc := ⟨.hbm, 474, rfl⟩
abbrev main_v352 : Ref sig .tc := ⟨.hbm, 475, rfl⟩
abbrev main_v353 : Ref sig .tc := ⟨.hbm, 476, rfl⟩
abbrev main_v354 : Ref sig .tc := ⟨.hbm, 477, rfl⟩
abbrev main_v355 : Ref sig .tc := ⟨.hbm, 478, rfl⟩
abbrev main_v356 : Ref sig .tc := ⟨.hbm, 479, rfl⟩
abbrev main_v357 : Ref sig .tc := ⟨.hbm, 480, rfl⟩
abbrev main_v358 : Ref sig .tc := ⟨.hbm, 481, rfl⟩
abbrev main_call20_cst : Ref sig .tc := ⟨.hbm, 482, rfl⟩
abbrev main_call20_v0 : Ref sig .tc := ⟨.hbm, 483, rfl⟩
abbrev main_v359 : Ref sig .tc := ⟨.hbm, 484, rfl⟩
abbrev main_v360 : Ref sig .tc := ⟨.hbm, 485, rfl⟩
abbrev main_v361 : Ref sig .tc := ⟨.hbm, 486, rfl⟩
abbrev main_v362 : Ref sig .tc := ⟨.hbm, 487, rfl⟩
abbrev main_v363 : Ref sig .tc := ⟨.hbm, 488, rfl⟩
abbrev main_cst_70 : Ref sig .tc := ⟨.hbm, 489, rfl⟩
abbrev main_v364 : Ref sig .tc := ⟨.hbm, 490, rfl⟩
abbrev main_cst_71 : Ref sig .tc := ⟨.hbm, 491, rfl⟩
abbrev main_v365 : Ref sig .tc := ⟨.hbm, 492, rfl⟩
abbrev main_v366 : Ref sig .tc := ⟨.hbm, 493, rfl⟩
abbrev main_v367 : Ref sig .tc := ⟨.hbm, 494, rfl⟩
abbrev main_cst_72 : Ref sig .tc := ⟨.hbm, 495, rfl⟩
abbrev main_call21_v0 : Ref sig .tc := ⟨.hbm, 496, rfl⟩
abbrev main_call21_v1 : Ref sig .tc := ⟨.hbm, 497, rfl⟩
abbrev main_v368 : Ref sig .tc := ⟨.hbm, 498, rfl⟩
abbrev main_v369 : Ref sig .tc := ⟨.hbm, 499, rfl⟩
abbrev main_v370 : Ref sig .tc := ⟨.hbm, 500, rfl⟩
abbrev main_v371 : Ref sig .tc := ⟨.hbm, 501, rfl⟩
abbrev main_v372 : Ref sig .tc := ⟨.hbm, 502, rfl⟩
abbrev main_v373 : Ref sig .tc := ⟨.hbm, 503, rfl⟩
abbrev main_v374 : Ref sig .tc := ⟨.hbm, 504, rfl⟩
abbrev main_v375 : Ref sig .tc := ⟨.hbm, 505, rfl⟩
abbrev main_c_73 : Ref sig .tc := ⟨.hbm, 506, rfl⟩
abbrev main_v376 : Ref sig .tc := ⟨.hbm, 507, rfl⟩
abbrev main_v377 : Ref sig .tc := ⟨.hbm, 508, rfl⟩
abbrev main_c_74 : Ref sig .tc := ⟨.hbm, 509, rfl⟩
abbrev main_v378 : Ref sig .tc := ⟨.hbm, 510, rfl⟩
abbrev main_v379 : Ref sig .tc := ⟨.hbm, 511, rfl⟩
abbrev main_v380 : Ref sig .tc := ⟨.hbm, 512, rfl⟩
abbrev main_v381 : Ref sig .tc := ⟨.hbm, 513, rfl⟩
abbrev main_v382 : Ref sig .tc := ⟨.hbm, 514, rfl⟩
abbrev main_cst_75 : Ref sig .tc := ⟨.hbm, 515, rfl⟩
abbrev main_v383 : Ref sig .tc := ⟨.hbm, 516, rfl⟩
abbrev main_v384 : Ref sig .tc := ⟨.hbm, 517, rfl⟩
abbrev main_v385 : Ref sig .tc := ⟨.hbm, 518, rfl⟩
abbrev main_cst_76 : Ref sig .tc := ⟨.hbm, 519, rfl⟩
abbrev main_v386 : Ref sig .tc := ⟨.hbm, 520, rfl⟩
abbrev main_v387 : Ref sig .tc := ⟨.hbm, 521, rfl⟩
abbrev main_v388 : Ref sig .tc := ⟨.hbm, 522, rfl⟩
abbrev main_cst_77 : Ref sig .tc := ⟨.hbm, 523, rfl⟩
abbrev main_call22_v0 : Ref sig .tc := ⟨.hbm, 524, rfl⟩
abbrev main_call22_v1 : Ref sig .tc := ⟨.hbm, 525, rfl⟩
abbrev main_v389 : Ref sig .tc := ⟨.hbm, 526, rfl⟩
abbrev main_v390 : Ref sig .tc := ⟨.hbm, 527, rfl⟩
abbrev main_v391 : Ref sig .tc := ⟨.hbm, 528, rfl⟩
abbrev main_v392 : Ref sig .tc := ⟨.hbm, 529, rfl⟩
abbrev main_v393 : Ref sig .tc := ⟨.hbm, 530, rfl⟩
abbrev main_v394 : Ref sig .tc := ⟨.hbm, 531, rfl⟩
abbrev main_v395 : Ref sig .tc := ⟨.hbm, 532, rfl⟩
abbrev main_v396 : Ref sig .tc := ⟨.hbm, 533, rfl⟩
abbrev main_v397 : Ref sig .tc := ⟨.hbm, 534, rfl⟩
abbrev main_v398 : Ref sig .tc := ⟨.hbm, 535, rfl⟩
abbrev main_v399 : Ref sig .tc := ⟨.hbm, 536, rfl⟩
abbrev main_v400 : Ref sig .tc := ⟨.hbm, 537, rfl⟩
abbrev main_v401 : Ref sig .tc := ⟨.hbm, 538, rfl⟩
abbrev main_v402 : Ref sig .tc := ⟨.hbm, 539, rfl⟩
abbrev main_cst_78 : Ref sig .tc := ⟨.hbm, 540, rfl⟩
abbrev main_v403 : Ref sig .tc := ⟨.hbm, 541, rfl⟩
abbrev main_cst_79 : Ref sig .tc := ⟨.hbm, 542, rfl⟩
abbrev main_v404 : Ref sig .tc := ⟨.hbm, 543, rfl⟩
abbrev main_v405 : Ref sig .tc := ⟨.hbm, 544, rfl⟩
abbrev main_v406 : Ref sig .tc := ⟨.hbm, 545, rfl⟩
abbrev main_cst_80 : Ref sig .tc := ⟨.hbm, 546, rfl⟩
abbrev main_call23_v0 : Ref sig .tc := ⟨.hbm, 547, rfl⟩
abbrev main_call23_v1 : Ref sig .tc := ⟨.hbm, 548, rfl⟩
abbrev main_v407 : Ref sig .tc := ⟨.hbm, 549, rfl⟩
abbrev main_v408 : Ref sig .tc := ⟨.hbm, 550, rfl⟩
abbrev main_v409 : Ref sig .tc := ⟨.hbm, 551, rfl⟩
abbrev main_v410 : Ref sig .tc := ⟨.hbm, 552, rfl⟩
abbrev main_v411 : Ref sig .tc := ⟨.hbm, 553, rfl⟩
abbrev main_v412 : Ref sig .tc := ⟨.hbm, 554, rfl⟩
abbrev main_v413 : Ref sig .tc := ⟨.hbm, 555, rfl⟩
abbrev main_v414 : Ref sig .tc := ⟨.hbm, 556, rfl⟩
abbrev main_c_81 : Ref sig .tc := ⟨.hbm, 557, rfl⟩
abbrev main_v415 : Ref sig .tc := ⟨.hbm, 558, rfl⟩
abbrev main_v416 : Ref sig .tc := ⟨.hbm, 559, rfl⟩
abbrev main_c_82 : Ref sig .tc := ⟨.hbm, 560, rfl⟩
abbrev main_v417 : Ref sig .tc := ⟨.hbm, 561, rfl⟩
abbrev main_v418 : Ref sig .tc := ⟨.hbm, 562, rfl⟩
abbrev main_v419 : Ref sig .tc := ⟨.hbm, 563, rfl⟩
abbrev main_v420 : Ref sig .tc := ⟨.hbm, 564, rfl⟩
abbrev main_v421 : Ref sig .tc := ⟨.hbm, 565, rfl⟩
abbrev main_cst_83 : Ref sig .tc := ⟨.hbm, 566, rfl⟩
abbrev main_v422 : Ref sig .tc := ⟨.hbm, 567, rfl⟩
abbrev main_v423 : Ref sig .tc := ⟨.hbm, 568, rfl⟩
abbrev main_v424 : Ref sig .tc := ⟨.hbm, 569, rfl⟩
abbrev main_cst_84 : Ref sig .tc := ⟨.hbm, 570, rfl⟩
abbrev main_v425 : Ref sig .tc := ⟨.hbm, 571, rfl⟩
abbrev main_v426 : Ref sig .tc := ⟨.hbm, 572, rfl⟩
abbrev main_v427 : Ref sig .tc := ⟨.hbm, 573, rfl⟩
abbrev main_cst_85 : Ref sig .tc := ⟨.hbm, 574, rfl⟩
abbrev main_call24_v0 : Ref sig .tc := ⟨.hbm, 575, rfl⟩
abbrev main_call24_v1 : Ref sig .tc := ⟨.hbm, 576, rfl⟩
abbrev main_v428 : Ref sig .tc := ⟨.hbm, 577, rfl⟩
abbrev main_v429 : Ref sig .tc := ⟨.hbm, 578, rfl⟩
abbrev main_v430 : Ref sig .tc := ⟨.hbm, 579, rfl⟩
abbrev main_v431 : Ref sig .tc := ⟨.hbm, 580, rfl⟩
abbrev main_v432 : Ref sig .tc := ⟨.hbm, 581, rfl⟩
abbrev main_v433 : Ref sig .tc := ⟨.hbm, 582, rfl⟩
abbrev main_v434 : Ref sig .tc := ⟨.hbm, 583, rfl⟩
abbrev main_v435 : Ref sig .tc := ⟨.hbm, 584, rfl⟩
abbrev main_v436 : Ref sig .tc := ⟨.hbm, 585, rfl⟩
abbrev main_v437 : Ref sig .tc := ⟨.hbm, 586, rfl⟩
abbrev main_v438 : Ref sig .tc := ⟨.hbm, 587, rfl⟩
abbrev main_v439 : Ref sig .tc := ⟨.hbm, 588, rfl⟩
abbrev main_v440 : Ref sig .tc := ⟨.hbm, 589, rfl⟩
abbrev main_v441 : Ref sig .tc := ⟨.hbm, 590, rfl⟩
abbrev main_v442 : Ref sig .tc := ⟨.hbm, 591, rfl⟩
abbrev main_cst_86 : Ref sig .tc := ⟨.hbm, 592, rfl⟩
abbrev main_v443 : Ref sig .tc := ⟨.hbm, 593, rfl⟩
abbrev main_cst_87 : Ref sig .tc := ⟨.hbm, 594, rfl⟩
abbrev main_v444 : Ref sig .tc := ⟨.hbm, 595, rfl⟩
abbrev main_v445 : Ref sig .tc := ⟨.hbm, 596, rfl⟩
abbrev main_v446 : Ref sig .tc := ⟨.hbm, 597, rfl⟩
abbrev main_cst_88 : Ref sig .tc := ⟨.hbm, 598, rfl⟩
abbrev main_call25_v0 : Ref sig .tc := ⟨.hbm, 599, rfl⟩
abbrev main_call25_v1 : Ref sig .tc := ⟨.hbm, 600, rfl⟩
abbrev main_v447 : Ref sig .tc := ⟨.hbm, 601, rfl⟩
abbrev main_v448 : Ref sig .tc := ⟨.hbm, 602, rfl⟩
abbrev main_v449 : Ref sig .tc := ⟨.hbm, 603, rfl⟩
abbrev main_v450 : Ref sig .tc := ⟨.hbm, 604, rfl⟩
abbrev main_v451 : Ref sig .tc := ⟨.hbm, 605, rfl⟩
abbrev main_v452 : Ref sig .tc := ⟨.hbm, 606, rfl⟩
abbrev main_v453 : Ref sig .tc := ⟨.hbm, 607, rfl⟩
abbrev main_v454 : Ref sig .tc := ⟨.hbm, 608, rfl⟩
abbrev main_c_89 : Ref sig .tc := ⟨.hbm, 609, rfl⟩
abbrev main_v455 : Ref sig .tc := ⟨.hbm, 610, rfl⟩
abbrev main_v456 : Ref sig .tc := ⟨.hbm, 611, rfl⟩
abbrev main_c_90 : Ref sig .tc := ⟨.hbm, 612, rfl⟩
abbrev main_v457 : Ref sig .tc := ⟨.hbm, 613, rfl⟩
abbrev main_v458 : Ref sig .tc := ⟨.hbm, 614, rfl⟩
abbrev main_v459 : Ref sig .tc := ⟨.hbm, 615, rfl⟩
abbrev main_v460 : Ref sig .tc := ⟨.hbm, 616, rfl⟩
abbrev main_v461 : Ref sig .tc := ⟨.hbm, 617, rfl⟩
abbrev main_cst_91 : Ref sig .tc := ⟨.hbm, 618, rfl⟩
abbrev main_v462 : Ref sig .tc := ⟨.hbm, 619, rfl⟩
abbrev main_v463 : Ref sig .tc := ⟨.hbm, 620, rfl⟩
abbrev main_v464 : Ref sig .tc := ⟨.hbm, 621, rfl⟩
abbrev main_cst_92 : Ref sig .tc := ⟨.hbm, 622, rfl⟩
abbrev main_v465 : Ref sig .tc := ⟨.hbm, 623, rfl⟩
abbrev main_v466 : Ref sig .tc := ⟨.hbm, 624, rfl⟩
abbrev main_v467 : Ref sig .tc := ⟨.hbm, 625, rfl⟩
abbrev main_cst_93 : Ref sig .tc := ⟨.hbm, 626, rfl⟩
abbrev main_call26_v0 : Ref sig .tc := ⟨.hbm, 627, rfl⟩
abbrev main_call26_v1 : Ref sig .tc := ⟨.hbm, 628, rfl⟩
abbrev main_v468 : Ref sig .tc := ⟨.hbm, 629, rfl⟩
abbrev main_v469 : Ref sig .tc := ⟨.hbm, 630, rfl⟩
abbrev main_v470 : Ref sig .tc := ⟨.hbm, 631, rfl⟩
abbrev main_v471 : Ref sig .tc := ⟨.hbm, 632, rfl⟩
abbrev main_v472 : Ref sig .tc := ⟨.hbm, 633, rfl⟩
abbrev main_v473 : Ref sig .tc := ⟨.hbm, 634, rfl⟩
abbrev main_v474 : Ref sig .tc := ⟨.hbm, 635, rfl⟩
abbrev main_v475 : Ref sig .tc := ⟨.hbm, 636, rfl⟩
abbrev main_v476 : Ref sig .tc := ⟨.hbm, 637, rfl⟩
abbrev main_v477 : Ref sig .tc := ⟨.hbm, 638, rfl⟩
abbrev main_v478 : Ref sig .tc := ⟨.hbm, 639, rfl⟩

abbrev nD : Nat := 1
abbrev τ : Topo := Topo.v7x

variable {F : FTy → Type} [FloatOps F]

class Facts₀ : Prop where
  slices_S3x800000_S1x800000_0_0 : S3x800000.Slices ![0, 0] S1x800000
  shapeCasts_S1x800000_S800000 : S1x800000.ShapeCasts S800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S3x64x64_S1x64x64_0_0_0 : S3x64x64.Slices ![0, 0, 0] S1x64x64
  shapeCasts_S1x64x64_S64x64 : S1x64x64.ShapeCasts S64x64
  bcast_S_S100000x64 : S_.BroadcastsInDim S100000x64 (![] : Fin 0 → Fin S100000x64.rank)
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x800000_S1x800000_1_0 : S3x800000.Slices ![1, 0] S1x800000
  slices_S3x64x64_S1x64x64_1_0_0 : S3x64x64.Slices ![1, 0, 0] S1x64x64
  slices_S3x64_S1x64_1_0 : S3x64.Slices ![1, 0] S1x64
  slices_S3x800000_S1x800000_2_0 : S3x800000.Slices ![2, 0] S1x800000
  slices_S3x64x64_S1x64x64_2_0_0 : S3x64x64.Slices ![2, 0, 0] S1x64x64
  slices_S3x64_S1x64_2_0 : S3x64.Slices ![2, 0] S1x64
  slices_S3x64x2_S1x64x2_0_0_0 : S3x64x2.Slices ![0, 0, 0] S1x64x2
  shapeCasts_S1x64x2_S64x2 : S1x64x2.ShapeCasts S64x2
  bcast_S_S100000x2 : S_.BroadcastsInDim S100000x2 (![] : Fin 0 → Fin S100000x2.rank)
  bcast_S100000x1_S100000x2_0_1 : S100000x1.BroadcastsInDim S100000x2 (![0, 1] : Fin 2 → Fin S100000x2.rank)
  slices_S3x2_S1x2_0_0 : S3x2.Slices ![0, 0] S1x2
  shapeCasts_S1x2_S2 : S1x2.ShapeCasts S2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  slices_S3x64x2_S1x64x2_1_0_0 : S3x64x2.Slices ![1, 0, 0] S1x64x2
  slices_S3x2_S1x2_1_0 : S3x2.Slices ![1, 0] S1x2
  slices_S3x64x2_S1x64x2_2_0_0 : S3x64x2.Slices ![2, 0, 0] S1x64x2
  slices_S3x2_S1x2_2_0 : S3x2.Slices ![2, 0] S1x2
  scatter_S100000_S800000x1_S800000_n_0_0_1_wf : ScatterDims.WF S100000 S800000x1 S800000 [] [0] [0] 1
  dot_S100000x64_S64x64_S100000x64_1_0_0_1_n_n_wf : DotDims.WF S100000x64 S64x64 S100000x64 [1] [0] [0] [1] [] []
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S100000x64_S64x2_S100000x2_1_0_0_1_n_n_wf : DotDims.WF S100000x64 S64x2 S100000x2 [1] [0] [0] [1] [] []
  gather_S100000x2_S800000x1_S800000x2_1_0_n_n_0_1_12_wf : GatherDims.WF S100000x2 S800000x1 S800000x2 [1] [0] [] [0] [] 1 ![1, 2]
  scatter_S100000x2_S800000x1_S800000x2_1_0_0_1_wf : ScatterDims.WF S100000x2 S800000x1 S800000x2 [1] [0] [0] 1

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf
def gather_S100000x2_S800000x1_S800000x2_1_0_n_n_0_1_12 : GatherDims S100000x2 S800000x1 S800000x2 where
  offsetDims := [1]
  collapsedSliceDims := [0]
  operandBatchingDims := []
  startIndicesBatchingDims := []
  startIndexMap := [0]
  indexVectorDim := 1
  sliceSizes := ![1, 2]
  wf := gather_S100000x2_S800000x1_S800000x2_1_0_n_n_0_1_12_wf
def scatter_S100000x2_S800000x1_S800000x2_1_0_0_1 : ScatterDims S100000x2 S800000x1 S800000x2 where
  updateWindowDims := [1]
  insertedWindowDims := [0]
  scatterDimsToOperandDims := [0]
  indexVectorDim := 1
  wf := scatter_S100000x2_S800000x1_S800000x2_1_0_0_1_wf

class Facts : Prop extends Facts₀ where

variable [Facts]
-- ==== Proof.K.Reg0.lean ====
/- The per-region half of the frame for pipeline 0 of @main (the pretransform kernel, out[r,n,:] = (h[n,:] * invdeg[n,r]) @ W[r],
   output width 64), at a PARAMETER `V`: the TensorCore's buffer contents when the region is entered. Each window's block at
   a point (`iblk0`), what the body leaves in the output window's buffer (`out0_3`: its three stores, one [1,5000,64]
   slab per relation, which tile the block), the body's triple (`sound_kernel0`), the proof data (`dat0`) and the
   body obligation (`body_obligation0`). Generic in the float instance. The body also loads each slab of the output
   buffer before storing it; the loaded values are never used, and the triple asks of that buffer only that it is owned. -/
import proofs.«408287_j3659312136510_1_alg».proof.Proof.Gen.Kernel.Launch
import proofs.«408287_j3659312136510_1_alg».proof.Proof.Gen.Kernel.Skeleton
import proofs.«408287_j3659312136510_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extent 5000: the elaborator's structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile of `h` (window 0) is in its current staging buffer at every point, for ANY proof data whose array is
    `V`'s (`hA`) and whose body leaves the block in place (`hafter`): the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The row tile of the inverse out-degrees (window 1), likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The three weight matrices (window 2: the whole array, fetched at the first point only, its block index never
    moving), likewise: unfetched, the buffer still holds the block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- the whole row tile of `h`; -/
abbrev r0_h : Rect S5000x64 := Rect.unit (s := S5000x64) ![0, 0] S5000x64.size inb_S5000x64_S5000x64_0_0
/-- column `r` of the inverse out-degrees' tile; -/
abbrev r0_deg0 : Rect S5000x3 := Rect.unit (s := S5000x3) ![0, 0] S5000x1.size inb_S5000x3_S5000x1_0_0
abbrev r0_deg1 : Rect S5000x3 := Rect.unit (s := S5000x3) ![0, 1] S5000x1.size inb_S5000x3_S5000x1_0_1
abbrev r0_deg2 : Rect S5000x3 := Rect.unit (s := S5000x3) ![0, 2] S5000x1.size inb_S5000x3_S5000x1_0_2
/-- relation `r`'s weight matrix; -/
abbrev r0_w0 : Rect S3x64x64 := Rect.unit (s := S3x64x64) ![0, 0, 0] S1x64x64.size inb_S3x64x64_S1x64x64_0_0_0
abbrev r0_w1 : Rect S3x64x64 := Rect.unit (s := S3x64x64) ![1, 0, 0] S1x64x64.size inb_S3x64x64_S1x64x64_1_0_0
abbrev r0_w2 : Rect S3x64x64 := Rect.unit (s := S3x64x64) ![2, 0, 0] S1x64x64.size inb_S3x64x64_S1x64x64_2_0_0
/-- relation `r`'s slab of the output block. -/
abbrev r0_out0 : Rect S3x5000x64 := Rect.unit (s := S3x5000x64) ![0, 0, 0] S1x5000x64.size inb_S3x5000x64_S1x5000x64_0_0_0
abbrev r0_out1 : Rect S3x5000x64 := Rect.unit (s := S3x5000x64) ![1, 0, 0] S1x5000x64.size inb_S3x5000x64_S1x5000x64_1_0_0
abbrev r0_out2 : Rect S3x5000x64 := Rect.unit (s := S3x5000x64) ![2, 0, 0] S1x5000x64.size inb_S3x5000x64_S1x5000x64_2_0_0

/-! ## What the body leaves in the output window's buffer -/

/-- The output window's staging buffer after the body, from the input windows' blocks (`x0` the tile of `h`, `x1` the
    tile of the inverse out-degrees, `x2` the weights): its 3 stores as pieces, LAST FIRST — relation 2's slab, then
    relation 1's, then relation 0's; the payloads are the skeleton's. -/
def out0_3 (x0 : Vec F S5000x64 .f32) (x1 : Vec F S5000x3 .f32) (x2 : Vec F S3x64x64 .f32) : Vec F S3x5000x64 .f32 :=
  View.canon [⟨r0_out2, k0_pay1 (k0_pay4 (View.ld x0 r0_h) (View.ld x1 r0_deg2)) (k0_pay5 (View.ld x2 r0_w2))⟩,
    ⟨r0_out1, k0_pay3 (View.ld x0 r0_h) (View.ld x1 r0_deg1) (View.ld x2 r0_w1)⟩,
    ⟨r0_out0, k0_pay2 (View.ld x0 r0_h) (View.ld x1 r0_deg0) (View.ld x2 r0_w0)⟩]

/-- Its stores tile the buffer (checked by evaluation), so they cover it. -/
theorem cover0_3 (p0 : Vec F S1x5000x64 .f32) (p1 : Vec F S1x5000x64 .f32) (p2 : Vec F S1x5000x64 .f32) (y : S3x5000x64.Idx) :
    ∃ pc ∈ ([⟨r0_out2, p0⟩, ⟨r0_out1, p1⟩, ⟨r0_out0, p2⟩] : List (View.Piece (Elt F) S3x5000x64 .f32)), y ∈ pc.1.set :=
  View.cover_of_tiled [⟨r0_out2, p0⟩, ⟨r0_out1, p1⟩, ⟨r0_out0, p2⟩] S1x5000x64.size (by rfl) y

/-! ## The body's triple -/

set_option maxHeartbeats 4000000 in
/-- The kernel body on whole staging memrefs, the inputs' at read contents `xW` and the output's at anything, runs to
    the continuation holding the inputs' as they were and the output's at `out0_3` of the inputs': the printed
    functions are their skeletons, which are run statement by statement, through the part call. The loads of the
    output buffer read whatever it holds and bind values no store's payload mentions. -/
theorem sound_kernel0 (c : Dev nD) (E : Set ℕ) (i : grid0.Coords) (arg1 : Memref sig .tc .vmem S5000x64 .f32) (harg1 : arg1.IsWhole) (arg2 : Memref sig .tc .vmem S5000x3 .f32) (harg2 : arg2.IsWhole) (arg3 : Memref sig .tc .vmem S3x64x64 .f32) (harg3 : arg3.IsWhole) (arg4 : Memref sig .tc .vmem S3x5000x64 .f32) (harg4 : arg4.IsWhole)
    (x0 : Vec F S5000x64 .f32) (x1 : Vec F S5000x3 .f32) (x2 : Vec F S3x64x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__pretransform_kernel i arg1 harg1 arg2 harg2 arg3 harg3 arg4 harg4) K := by
  simp only [cc0__pretransform_kernel_eq_skeleton]; unfold cc0__pretransform_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _ _ _)

/-! ## The pipeline's proof data -/

/-- The proof data of pipeline 0 on core `c`: the arrays as the region finds them (`V`); after the body at point `t`
    each input's buffer at its block and the output's at `out0_3` of the input blocks; the invariant: the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
import proofs.«408287_j3659312136510_1_alg».proof.Proof.Gen.Kernel.Launch
import proofs.«408287_j3659312136510_1_alg».proof.Proof.Gen.Kernel.Skeleton
import proofs.«408287_j3659312136510_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Pipeline 1: the aggregation kernel's half of the frame, at any entry contents

The kernel of pipeline 1 reads, at each of the 20 row tiles, a block of three slabs of aggregated messages
(`[3,5000,64]`), a block of inverse in-degrees (`[5000,3]`) and the whole bias table (`[3,64]`), and writes one
block `[5000,64]`: the sum over the three relations of slab times degree column plus bias row, cut below at zero. This module states, for ANY
contents `V` of the TensorCore's buffers at the region's entry: each window's block at a grid point; what the
body leaves in the output window's buffer as a function of the three input blocks; the body's triple; the
pipeline's proof data and its body obligation. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- Slab `r` of the aggregated block, `[1,5000,64]` at `[r,0,0]`. -/
abbrev slab1_0 : Rect S3x5000x64 := Rect.unit (s := S3x5000x64) ![0, 0, 0] S1x5000x64.size inb_S3x5000x64_S1x5000x64_0_0_0
abbrev slab1_1 : Rect S3x5000x64 := Rect.unit (s := S3x5000x64) ![1, 0, 0] S1x5000x64.size inb_S3x5000x64_S1x5000x64_1_0_0
abbrev slab1_2 : Rect S3x5000x64 := Rect.unit (s := S3x5000x64) ![2, 0, 0] S1x5000x64.size inb_S3x5000x64_S1x5000x64_2_0_0
/-- Column `r` of the degree block, `[5000,1]` at `[0,r]`. -/
abbrev col1_0 : Rect S5000x3 := Rect.unit (s := S5000x3) ![0, 0] S5000x1.size inb_S5000x3_S5000x1_0_0
abbrev col1_1 : Rect S5000x3 := Rect.unit (s := S5000x3) ![0, 1] S5000x1.size inb_S5000x3_S5000x1_0_1
abbrev col1_2 : Rect S5000x3 := Rect.unit (s := S5000x3) ![0, 2] S5000x1.size inb_S5000x3_S5000x1_0_2
/-- Row `r` of the bias table, `[1,64]` at `[r,0]`. -/
abbrev row1_0 : Rect S3x64 := Rect.unit (s := S3x64) ![0, 0] S1x64.size inb_S3x64_S1x64_0_0
abbrev row1_1 : Rect S3x64 := Rect.unit (s := S3x64) ![1, 0] S1x64.size inb_S3x64_S1x64_1_0
abbrev row1_2 : Rect S3x64 := Rect.unit (s := S3x64) ![2, 0] S1x64.size inb_S3x64_S1x64_2_0
/-- The whole output block. -/
abbrev whole1 : Rect S5000x64 := Rect.unit (s := S5000x64) ![0, 0] S5000x64.size inb_S5000x64_S5000x64_0_0

/-! ## What the body leaves in the output window's buffer -/

/-- The value the body stores, from the three input blocks: the accumulated sum over the three relations of
    slab times degree column plus bias row, then the maximum with zero. -/
def val1 (x0 : Vec F S3x5000x64 .f32) (x1 : Vec F S5000x3 .f32) (x2 : Vec F S3x64 .f32) : FVec F S5000x64 .f32 :=
  k1_pay1 (k1_pay2 (View.ld x1 col1_0) (View.ld x0 slab1_0) (View.ld x2 row1_0)
    (View.ld x1 col1_1) (View.ld x0 slab1_1) (View.ld x2 row1_1)
    (View.ld x1 col1_2) (View.ld x0 slab1_2) (View.ld x2 row1_2))

/-- Window 3's staging buffer after the body, from the input windows' blocks: its one store, of the whole block. -/
def out1_3 (x0 : Vec F S3x5000x64 .f32) (x1 : Vec F S5000x3 .f32) (x2 : Vec F S3x64 .f32) : Vec F S5000x64 .f32 :=
  View.canon [⟨whole1, val1 x0 x1 x2⟩]

/-- The one store is of the whole block, so it covers the buffer. -/
theorem cover1_3 (p0 : Vec F S5000x64 .f32) (y : S5000x64.Idx) :
    ∃ pc ∈ ([⟨whole1, p0⟩] : List (View.Piece (Elt F) S5000x64 .f32)), y ∈ pc.1.set :=
  View.cover_of_tiled [⟨whole1, p0⟩] S5000x64.size (by rfl) y

/-! ## The body's triple -/

set_option maxHeartbeats 4000000 in
/-- The kernel body on whole staging memrefs, the three inputs' at read contents `x0 x1 x2` and the output's at
    anything, runs to the continuation holding the inputs' as they were and the output's at `out1_3` of the inputs'. -/
theorem sound_kernel1 (c : Dev nD) (E : Set ℕ) (i : grid1.Coords)
    (arg0 : Memref sig .tc .vmem S3x5000x64 .f32) (harg0 : arg0.IsWhole) (arg1 : Memref sig .tc .vmem S5000x3 .f32) (harg1 : arg1.IsWhole)
    (arg2 : Memref sig .tc .vmem S3x64 .f32) (harg2 : arg2.IsWhole) (arg3 : Memref sig .tc .vmem S5000x64 .f32) (harg3 : arg3.IsWhole)
    (x0 : Vec F S3x5000x64 .f32) (x1 : Vec F S5000x3 .f32) (x2 : Vec F S3x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__postagg_kernel i arg0 harg0 arg1 harg1 arg2 harg2 arg3 harg3) K := by
  simp only [cc1__postagg_kernel_eq_skeleton]; unfold cc1__postagg_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point
    `t` each input's buffer at its block and the output's at `out1_3` of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand
-- ==== Proof.K.Reg2.lean ====
/- The per-region half of the frame for pipeline 2 of @main (the pretransform kernel, out[r,n,:] = (h[n,:] * invdeg[n,r]) @ W[r],
   output width 64), at a PARAMETER `V`: the TensorCore's buffer contents when the region is entered. Each window's block at
   a point (`iblk2`), what the body leaves in the output window's buffer (`out2_3`: its three stores, one [1,5000,64]
   slab per relation, which tile the block), the body's triple (`sound_kernel2`), the proof data (`dat2`) and the
   body obligation (`body_obligation2`). Generic in the float instance. The body also loads each slab of the output
   buffer before storing it; the loaded values are never used, and the triple asks of that buffer only that it is owned. -/
import proofs.«408287_j3659312136510_1_alg».proof.Proof.Gen.Kernel.Launch
import proofs.«408287_j3659312136510_1_alg».proof.Proof.Gen.Kernel.Skeleton
import proofs.«408287_j3659312136510_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extent 5000: the elaborator's structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row tile of `h` (window 0) is in its current staging buffer at every point, for ANY proof data whose array is
    `V`'s (`hA`) and whose body leaves the block in place (`hafter`): the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The row tile of the inverse out-degrees (window 1), likewise. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The three weight matrices (window 2: the whole array, fetched at the first point only, its block index never
    moving), likewise: unfetched, the buffer still holds the block. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- the whole row tile of `h`; -/
abbrev r2_h : Rect S5000x64 := Rect.unit (s := S5000x64) ![0, 0] S5000x64.size inb_S5000x64_S5000x64_0_0
/-- column `r` of the inverse out-degrees' tile; -/
abbrev r2_deg0 : Rect S5000x3 := Rect.unit (s := S5000x3) ![0, 0] S5000x1.size inb_S5000x3_S5000x1_0_0
abbrev r2_deg1 : Rect S5000x3 := Rect.unit (s := S5000x3) ![0, 1] S5000x1.size inb_S5000x3_S5000x1_0_1
abbrev r2_deg2 : Rect S5000x3 := Rect.unit (s := S5000x3) ![0, 2] S5000x1.size inb_S5000x3_S5000x1_0_2
/-- relation `r`'s weight matrix; -/
abbrev r2_w0 : Rect S3x64x64 := Rect.unit (s := S3x64x64) ![0, 0, 0] S1x64x64.size inb_S3x64x64_S1x64x64_0_0_0
abbrev r2_w1 : Rect S3x64x64 := Rect.unit (s := S3x64x64) ![1, 0, 0] S1x64x64.size inb_S3x64x64_S1x64x64_1_0_0
abbrev r2_w2 : Rect S3x64x64 := Rect.unit (s := S3x64x64) ![2, 0, 0] S1x64x64.size inb_S3x64x64_S1x64x64_2_0_0
/-- relation `r`'s slab of the output block. -/
abbrev r2_out0 : Rect S3x5000x64 := Rect.unit (s := S3x5000x64) ![0, 0, 0] S1x5000x64.size inb_S3x5000x64_S1x5000x64_0_0_0
abbrev r2_out1 : Rect S3x5000x64 := Rect.unit (s := S3x5000x64) ![1, 0, 0] S1x5000x64.size inb_S3x5000x64_S1x5000x64_1_0_0
abbrev r2_out2 : Rect S3x5000x64 := Rect.unit (s := S3x5000x64) ![2, 0, 0] S1x5000x64.size inb_S3x5000x64_S1x5000x64_2_0_0

/-! ## What the body leaves in the output window's buffer -/

/-- The output window's staging buffer after the body, from the input windows' blocks (`x0` the tile of `h`, `x1` the
    tile of the inverse out-degrees, `x2` the weights): its 3 stores as pieces, LAST FIRST — relation 2's slab, then
    relation 1's, then relation 0's; the payloads are the skeleton's. -/
def out2_3 (x0 : Vec F S5000x64 .f32) (x1 : Vec F S5000x3 .f32) (x2 : Vec F S3x64x64 .f32) : Vec F S3x5000x64 .f32 :=
  View.canon [⟨r2_out2, k2_pay1 (k2_pay5 (View.ld x0 r2_h) (View.ld x1 r2_deg2)) (View.ld x2 r2_w2)⟩,
    ⟨r2_out1, k2_pay4 (View.ld x0 r2_h) (View.ld x1 r2_deg1) (View.ld x2 r2_w1)⟩,
    ⟨r2_out0, k2_pay3 (View.ld x0 r2_h) (View.ld x1 r2_deg0) (View.ld x2 r2_w0)⟩]

/-- Its stores tile the buffer (checked by evaluation), so they cover it. -/
theorem cover2_3 (p0 : Vec F S1x5000x64 .f32) (p1 : Vec F S1x5000x64 .f32) (p2 : Vec F S1x5000x64 .f32) (y : S3x5000x64.Idx) :
    ∃ pc ∈ ([⟨r2_out2, p0⟩, ⟨r2_out1, p1⟩, ⟨r2_out0, p2⟩] : List (View.Piece (Elt F) S3x5000x64 .f32)), y ∈ pc.1.set :=
  View.cover_of_tiled [⟨r2_out2, p0⟩, ⟨r2_out1, p1⟩, ⟨r2_out0, p2⟩] S1x5000x64.size (by rfl) y

/-! ## The body's triple -/

set_option maxHeartbeats 4000000 in
/-- The kernel body on whole staging memrefs, the inputs' at read contents `xW` and the output's at anything, runs to
    the continuation holding the inputs' as they were and the output's at `out2_3` of the inputs': the printed
    functions are their skeletons, which are run statement by statement, through the part call. The loads of the
    output buffer read whatever it holds and bind values no store's payload mentions. -/
theorem sound_kernel2 (c : Dev nD) (E : Set ℕ) (i : grid2.Coords) (arg1 : Memref sig .tc .vmem S5000x64 .f32) (harg1 : arg1.IsWhole) (arg2 : Memref sig .tc .vmem S5000x3 .f32) (harg2 : arg2.IsWhole) (arg3 : Memref sig .tc .vmem S3x64x64 .f32) (harg3 : arg3.IsWhole) (arg4 : Memref sig .tc .vmem S3x5000x64 .f32) (harg4 : arg4.IsWhole)
    (x0 : Vec F S5000x64 .f32) (x1 : Vec F S5000x3 .f32) (x2 : Vec F S3x64x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__pretransform_kernel i arg1 harg1 arg2 harg2 arg3 harg3 arg4 harg4) K := by
  simp only [cc2__pretransform_kernel_eq_skeleton]; unfold cc2__pretransform_kernel_skel
  simp only [k2_part1_eq_skeleton]; unfold k2_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover2_3 _ _ _)

/-! ## The pipeline's proof data -/

/-- The proof data of pipeline 2 on core `c`: the arrays as the region finds them (`V`); after the body at point `t`
    each input's buffer at its block and the output's at `out2_3` of the input blocks; the invariant: the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
import proofs.«408287_j3659312136510_1_alg».proof.Proof.Gen.Kernel.Launch
import proofs.«408287_j3659312136510_1_alg».proof.Proof.Gen.Kernel.Skeleton
import proofs.«408287_j3659312136510_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Pipeline 3: the aggregation kernel's half of the frame, at any entry contents

The kernel of pipeline 3 reads, at each of the 20 row tiles, a block of three slabs of aggregated messages
(`[3,5000,64]`), a block of inverse in-degrees (`[5000,3]`) and the whole bias table (`[3,64]`), and writes one
block `[5000,64]`: the sum over the three relations of slab times degree column plus bias row, cut below at zero. This module states, for ANY
contents `V` of the TensorCore's buffers at the region's entry: each window's block at a grid point; what the
body leaves in the output window's buffer as a function of the three input blocks; the body's triple; the
pipeline's proof data and its body obligation. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof
    data whose array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- Slab `r` of the aggregated block, `[1,5000,64]` at `[r,0,0]`. -/
abbrev slab3_0 : Rect S3x5000x64 := Rect.unit (s := S3x5000x64) ![0, 0, 0] S1x5000x64.size inb_S3x5000x64_S1x5000x64_0_0_0
abbrev slab3_1 : Rect S3x5000x64 := Rect.unit (s := S3x5000x64) ![1, 0, 0] S1x5000x64.size inb_S3x5000x64_S1x5000x64_1_0_0
abbrev slab3_2 : Rect S3x5000x64 := Rect.unit (s := S3x5000x64) ![2, 0, 0] S1x5000x64.size inb_S3x5000x64_S1x5000x64_2_0_0
/-- Column `r` of the degree block, `[5000,1]` at `[0,r]`. -/
abbrev col3_0 : Rect S5000x3 := Rect.unit (s := S5000x3) ![0, 0] S5000x1.size inb_S5000x3_S5000x1_0_0
abbrev col3_1 : Rect S5000x3 := Rect.unit (s := S5000x3) ![0, 1] S5000x1.size inb_S5000x3_S5000x1_0_1
abbrev col3_2 : Rect S5000x3 := Rect.unit (s := S5000x3) ![0, 2] S5000x1.size inb_S5000x3_S5000x1_0_2
/-- Row `r` of the bias table, `[1,64]` at `[r,0]`. -/
abbrev row3_0 : Rect S3x64 := Rect.unit (s := S3x64) ![0, 0] S1x64.size inb_S3x64_S1x64_0_0
abbrev row3_1 : Rect S3x64 := Rect.unit (s := S3x64) ![1, 0] S1x64.size inb_S3x64_S1x64_1_0
abbrev row3_2 : Rect S3x64 := Rect.unit (s := S3x64) ![2, 0] S1x64.size inb_S3x64_S1x64_2_0
/-- The whole output block. -/
abbrev whole3 : Rect S5000x64 := Rect.unit (s := S5000x64) ![0, 0] S5000x64.size inb_S5000x64_S5000x64_0_0

/-! ## What the body leaves in the output window's buffer -/

/-- The value the body stores, from the three input blocks: the accumulated sum over the three relations of
    slab times degree column plus bias row, then the maximum with zero. -/
def val3 (x0 : Vec F S3x5000x64 .f32) (x1 : Vec F S5000x3 .f32) (x2 : Vec F S3x64 .f32) : FVec F S5000x64 .f32 :=
  k3_pay1 (k3_pay2 (View.ld x1 col3_0) (View.ld x0 slab3_0) (View.ld x2 row3_0)
    (View.ld x1 col3_1) (View.ld x0 slab3_1) (View.ld x2 row3_1)
    (View.ld x1 col3_2) (View.ld x0 slab3_2) (View.ld x2 row3_2))

/-- Window 3's staging buffer after the body, from the input windows' blocks: its one store, of the whole block. -/
def out3_3 (x0 : Vec F S3x5000x64 .f32) (x1 : Vec F S5000x3 .f32) (x2 : Vec F S3x64 .f32) : Vec F S5000x64 .f32 :=
  View.canon [⟨whole3, val3 x0 x1 x2⟩]

/-- The one store is of the whole block, so it covers the buffer. -/
theorem cover3_3 (p0 : Vec F S5000x64 .f32) (y : S5000x64.Idx) :
    ∃ pc ∈ ([⟨whole3, p0⟩] : List (View.Piece (Elt F) S5000x64 .f32)), y ∈ pc.1.set :=
  View.cover_of_tiled [⟨whole3, p0⟩] S5000x64.size (by rfl) y

/-! ## The body's triple -/

set_option maxHeartbeats 4000000 in
/-- The kernel body on whole staging memrefs, the three inputs' at read contents `x0 x1 x2` and the output's at
    anything, runs to the continuation holding the inputs' as they were and the output's at `out3_3` of the inputs'. -/
theorem sound_kernel3 (c : Dev nD) (E : Set ℕ) (i : grid3.Coords)
    (arg0 : Memref sig .tc .vmem S3x5000x64 .f32) (harg0 : arg0.IsWhole) (arg1 : Memref sig .tc .vmem S5000x3 .f32) (harg1 : arg1.IsWhole)
    (arg2 : Memref sig .tc .vmem S3x64 .f32) (harg2 : arg2.IsWhole) (arg3 : Memref sig .tc .vmem S5000x64 .f32) (harg3 : arg3.IsWhole)
    (x0 : Vec F S3x5000x64 .f32) (x1 : Vec F S5000x3 .f32) (x2 : Vec F S3x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out3_3 x0 x1 x2)) -∗ K ⟨⟩))
      ⊢ wp frame (wpE (defs₀ (F := F)) Variants.none c none) E (cc3__postagg_kernel i arg0 harg0 arg1 harg1 arg2 harg2 arg3 harg3) K := by
  simp only [cc3__postagg_kernel_eq_skeleton]; unfold cc3__postagg_kernel_skel
  simp only [k3_part1_eq_skeleton]; unfold k3_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at point
    `t` each input's buffer at its block and the output's at `out3_3` of the input blocks; the invariant is the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand
-- ==== Proof.K.Reg4.lean ====
/- The per-region half of the frame for pipeline 4 of @main (the pretransform kernel, out[r,n,:] = (h[n,:] * invdeg[n,r]) @ W[r],
   output width 64), at a PARAMETER `V`: the TensorCore's buffer contents when the region is entered. Each window's block at
   a point (`iblk4`), what the body leaves in the output window's buffer (`out4_3`: its three stores, one [1,5000,64]
   slab per relation, which tile the block), the body's triple (`sound_kernel4`), the proof data (`dat4`) and the
   body obligation (`body_obligation4`). Generic in the float instance. The body also loads each slab of the output
   buffer before storing it; the loaded values are never used, and the triple asks of that buffer only that it is owned. -/
import proofs.«408287_j3659312136510_1_alg».proof.Proof.Gen.Kernel.Launch
import proofs.«408287_j3659312136510_1_alg».proof.Proof.Gen.Kernel.Skeleton
import proofs.«408287_j3659312136510_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extent 5000: the elaborator's structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The row tile of `h` (window 0) is in its current staging buffer at every point, for ANY proof data whose array is
    `V`'s (`hA`) and whose body leaves the block in place (`hafter`): the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The row tile of the inverse out-degrees (window 1), likewise. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- The three weight matrices (window 2: the whole array, fetched at the first point only, its block index never
    moving), likewise: unfetched, the buffer still holds the block. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- the whole row tile of `h`; -/
abbrev r4_h : Rect S5000x64 := Rect.unit (s := S5000x64) ![0, 0] S5000x64.size inb_S5000x64_S5000x64_0_0
/-- column `r` of the inverse out-degrees' tile; -/
abbrev r4_deg0 : Rect S5000x3 := Rect.unit (s := S5000x3) ![0, 0] S5000x1.size inb_S5000x3_S5000x1_0_0
abbrev r4_deg1 : Rect S5000x3 := Rect.unit (s := S5000x3) ![0, 1] S5000x1.size inb_S5000x3_S5000x1_0_1
abbrev r4_deg2 : Rect S5000x3 := Rect.unit (s := S5000x3) ![0, 2] S5000x1.size inb_S5000x3_S5000x1_0_2
/-- relation `r`'s weight matrix; -/
abbrev r4_w0 : Rect S3x64x64 := Rect.unit (s := S3x64x64) ![0, 0, 0] S1x64x64.size inb_S3x64x64_S1x64x64_0_0_0
abbrev r4_w1 : Rect S3x64x64 := Rect.unit (s := S3x64x64) ![1, 0, 0] S1x64x64.size inb_S3x64x64_S1x64x64_1_0_0
abbrev r4_w2 : Rect S3x64x64 := Rect.unit (s := S3x64x64) ![2, 0, 0] S1x64x64.size inb_S3x64x64_S1x64x64_2_0_0
/-- relation `r`'s slab of the output block. -/
abbrev r4_out0 : Rect S3x5000x64 := Rect.unit (s := S3x5000x64) ![0, 0, 0] S1x5000x64.size inb_S3x5000x64_S1x5000x64_0_0_0
abbrev r4_out1 : Rect S3x5000x64 := Rect.unit (s := S3x5000x64) ![1, 0, 0] S1x5000x64.size inb_S3x5000x64_S1x5000x64_1_0_0
abbrev r4_out2 : Rect S3x5000x64 := Rect.unit (s := S3x5000x64) ![2, 0, 0] S1x5000x64.size inb_S3x5000x64_S1x5000x64_2_0_0

/-! ## What the body leaves in the output window's buffer -/

/-- The output window's staging buffer after the body, from the input windows' blocks (`x0` the tile of `h`, `x1` the
    tile of the inverse out-degrees, `x2` the weights): its 3 stores as pieces, LAST FIRST — relation 2's slab, then
    relation 1's, then relation 0's; the payloads are the skeleton's. -/
def out4_3 (x0 : Vec F S5000x64 .f32) (x1 : Vec F S5000x3 .f32) (x2 : Vec F S3x64x64 .f32) : Vec F S3x5000x64 .f32 :=
  View.canon [⟨r4_out2, k4_pay1 (k4_pay5 (View.ld x0 r4_h) (View.ld x1 r4_deg2)) (View.ld x2 r4_w2)⟩,
    ⟨r4_out1, k4_pay4 (View.ld x0 r4_h) (View.ld x1 r4_deg1) (View.ld x2 r4_w1)⟩,
    ⟨r4_out0, k4_pay3 (View.ld x0 r4_h) (View.ld x1 r4_deg0) (View.ld x2 r4_w0)⟩]

/-- Its stores tile the buffer (checked by evaluation), so they cover it. -/
theorem cover4_3 (p0 : Vec F S1x5000x64 .f32) (p1 : Vec F S1x5000x64 .f32) (p2 : Vec F S1x5000x64 .f32) (y : S3x5000x64.Idx) :
    ∃ pc ∈ ([⟨r4_out2, p0⟩, ⟨r4_out1, p1⟩, ⟨r4_out0, p2⟩] : List (View.Piece (Elt F) S3x5000x64 .f32)), y ∈ pc.1.set :=
  View.cover_of_tiled [⟨r4_out2, p0⟩, ⟨r4_out1, p1⟩, ⟨r4_out0, p2⟩] S1x5000x64.size (by rfl) y

/-! ## The body's triple -/

set_option maxHeartbeats 4000000 in
/-- The kernel body on whole staging memrefs, the inputs' at read contents `xW` and the output's at anything, runs to
    the continuation holding the inputs' as they were and the output's at `out4_3` of the inputs': the printed
    functions are their skeletons, which are run statement by statement, through the part call. The loads of the
    output buffer read whatever it holds and bind values no store's payload mentions. -/
theorem sound_kernel4 (c : Dev nD) (E : Set ℕ) (i : grid4.Coords) (arg1 : Memref sig .tc .vmem S5000x64 .f32) (harg1 : arg1.IsWhole) (arg2 : Memref sig .tc .vmem S5000x3 .f32) (harg2 : arg2.IsWhole) (arg3 : Memref sig .tc .vmem S3x64x64 .f32) (harg3 : arg3.IsWhole) (arg4 : Memref sig .tc .vmem S3x5000x64 .f32) (harg4 : arg4.IsWhole)
    (x0 : Vec F S5000x64 .f32) (x1 : Vec F S5000x3 .f32) (x2 : Vec F S3x64x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__pretransform_kernel i arg1 harg1 arg2 harg2 arg3 harg3 arg4 harg4) K := by
  simp only [cc4__pretransform_kernel_eq_skeleton]; unfold cc4__pretransform_kernel_skel
  simp only [k4_part1_eq_skeleton]; unfold k4_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover4_3 _ _ _)

/-! ## The pipeline's proof data -/

/-- The proof data of pipeline 4 on core `c`: the arrays as the region finds them (`V`); after the body at point `t`
    each input's buffer at its block and the output's at `out4_3` of the input blocks; the invariant: the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents (the definition projected). -/
theorem A_eq4 (c : Dev nD) (w : Fin cfg4.W) : (dat4 V c).A w = V c (Pipeline.arrRef spec4 w) := by
  dsimp only [dat4]

/-- What the body leaves, window by window (the proof data's `match` reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Reg5.lean ====
import proofs.«408287_j3659312136510_1_alg».proof.Proof.Gen.Kernel.Launch
import proofs.«408287_j3659312136510_1_alg».proof.Proof.Gen.Kernel.Skeleton
import proofs.«408287_j3659312136510_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Pipeline 5: the aggregation kernel's half of the frame, at any entry contents

The kernel of pipeline 5 reads, at each of the 20 row tiles, a block of three slabs of aggregated messages
(`[3,5000,64]`), a block of inverse in-degrees (`[5000,3]`) and the whole bias table (`[3,64]`), and writes one
block `[5000,64]`: the sum over the three relations of slab times degree column plus bias row, cut below at zero. This module states, for ANY
contents `V` of the TensorCore's buffers at the region's entry: each window's block at a grid point; what the
body leaves in the output window's buffer as a function of the three input blocks; the body's triple; the
pipeline's proof data and its body obligation. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not, for any proof
    data whose array is `V`'s and whose body leaves the block in place: unfetched, the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- Slab `r` of the aggregated block, `[1,5000,64]` at `[r,0,0]`. -/
abbrev slab5_0 : Rect S3x5000x64 := Rect.unit (s := S3x5000x64) ![0, 0, 0] S1x5000x64.size inb_S3x5000x64_S1x5000x64_0_0_0
abbrev slab5_1 : Rect S3x5000x64 := Rect.unit (s := S3x5000x64) ![1, 0, 0] S1x5000x64.size inb_S3x5000x64_S1x5000x64_1_0_0
abbrev slab5_2 : Rect S3x5000x64 := Rect.unit (s := S3x5000x64) ![2, 0, 0] S1x5000x64.size inb_S3x5000x64_S1x5000x64_2_0_0
/-- Column `r` of the degree block, `[5000,1]` at `[0,r]`. -/
abbrev col5_0 : Rect S5000x3 := Rect.unit (s := S5000x3) ![0, 0] S5000x1.size inb_S5000x3_S5000x1_0_0
abbrev col5_1 : Rect S5000x3 := Rect.unit (s := S5000x3) ![0, 1] S5000x1.size inb_S5000x3_S5000x1_0_1
abbrev col5_2 : Rect S5000x3 := Rect.unit (s := S5000x3) ![0, 2] S5000x1.size inb_S5000x3_S5000x1_0_2
/-- Row `r` of the bias table, `[1,64]` at `[r,0]`. -/
abbrev row5_0 : Rect S3x64 := Rect.unit (s := S3x64) ![0, 0] S1x64.size inb_S3x64_S1x64_0_0
abbrev row5_1 : Rect S3x64 := Rect.unit (s := S3x64) ![1, 0] S1x64.size inb_S3x64_S1x64_1_0
abbrev row5_2 : Rect S3x64 := Rect.unit (s := S3x64) ![2, 0] S1x64.size inb_S3x64_S1x64_2_0
/-- The whole output block. -/
abbrev whole5 : Rect S5000x64 := Rect.unit (s := S5000x64) ![0, 0] S5000x64.size inb_S5000x64_S5000x64_0_0

/-! ## What the body leaves in the output window's buffer -/

/-- The value the body stores, from the three input blocks: the accumulated sum over the three relations of
    slab times degree column plus bias row, then the maximum with zero. -/
def val5 (x0 : Vec F S3x5000x64 .f32) (x1 : Vec F S5000x3 .f32) (x2 : Vec F S3x64 .f32) : FVec F S5000x64 .f32 :=
  k5_pay1 (k5_pay2 (View.ld x1 col5_0) (View.ld x0 slab5_0) (View.ld x2 row5_0)
    (View.ld x1 col5_1) (View.ld x0 slab5_1) (View.ld x2 row5_1)
    (View.ld x1 col5_2) (View.ld x0 slab5_2) (View.ld x2 row5_2))

/-- Window 3's staging buffer after the body, from the input windows' blocks: its one store, of the whole block. -/
def out5_3 (x0 : Vec F S3x5000x64 .f32) (x1 : Vec F S5000x3 .f32) (x2 : Vec F S3x64 .f32) : Vec F S5000x64 .f32 :=
  View.canon [⟨whole5, val5 x0 x1 x2⟩]

/-- The one store is of the whole block, so it covers the buffer. -/
theorem cover5_3 (p0 : Vec F S5000x64 .f32) (y : S5000x64.Idx) :
    ∃ pc ∈ ([⟨whole5, p0⟩] : List (View.Piece (Elt F) S5000x64 .f32)), y ∈ pc.1.set :=
  View.cover_of_tiled [⟨whole5, p0⟩] S5000x64.size (by rfl) y

/-! ## The body's triple -/

set_option maxHeartbeats 4000000 in
/-- The kernel body on whole staging memrefs, the three inputs' at read contents `x0 x1 x2` and the output's at
    anything, runs to the continuation holding the inputs' as they were and the output's at `out5_3` of the inputs'. -/
theorem sound_kernel5 (c : Dev nD) (E : Set ℕ) (i : grid5.Coords)
    (arg0 : Memref sig .tc .vmem S3x5000x64 .f32) (harg0 : arg0.IsWhole) (arg1 : Memref sig .tc .vmem S5000x3 .f32) (harg1 : arg1.IsWhole)
    (arg2 : Memref sig .tc .vmem S3x64 .f32) (harg2 : arg2.IsWhole) (arg3 : Memref sig .tc .vmem S5000x64 .f32) (harg3 : arg3.IsWhole)
    (x0 : Vec F S3x5000x64 .f32) (x1 : Vec F S5000x3 .f32) (x2 : Vec F S3x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out5_3 x0 x1 x2)) -∗ K ⟨⟩))
      ⊢ wp frame (wpE (defs₀ (F := F)) Variants.none c none) E (cc5__postagg_kernel i arg0 harg0 arg1 harg1 arg2 harg2 arg3 harg3) K := by
  simp only [cc5__postagg_kernel_eq_skeleton]; unfold cc5__postagg_kernel_skel
  simp only [k5_part1_eq_skeleton]; unfold k5_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of pipeline 5 on core `c`: the arrays as the region finds them (`V`); after the body at point
    `t` each input's buffer at its block and the output's at `out5_3` of the input blocks; the invariant is the
    scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so the body's triple applies; the invariant and
    the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand
-- ==== Proof.K.Reg6.lean ====
/- The per-region half of the frame for pipeline 6 of @main (the pretransform kernel, out[r,n,:] = (h[n,:] * invdeg[n,r]) @ W[r],
   output width 2), at a PARAMETER `V`: the TensorCore's buffer contents when the region is entered. Each window's block at
   a point (`iblk6`), what the body leaves in the output window's buffer (`out6_3`: its three stores, one [1,5000,2]
   slab per relation, which tile the block), the body's triple (`sound_kernel6`), the proof data (`dat6`) and the
   body obligation (`body_obligation6`). Generic in the float instance. The body also loads each slab of the output
   buffer before storing it; the loaded values are never used, and the triple asks of that buffer only that it is owned. -/
import proofs.«408287_j3659312136510_1_alg».proof.Proof.Gen.Kernel.Launch
import proofs.«408287_j3659312136510_1_alg».proof.Proof.Gen.Kernel.Skeleton
import proofs.«408287_j3659312136510_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extent 5000: the elaborator's structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The row tile of `h` (window 0) is in its current staging buffer at every point, for ANY proof data whose array is
    `V`'s (`hA`) and whose body leaves the block in place (`hafter`): the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- The row tile of the inverse out-degrees (window 1), likewise. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- The three weight matrices (window 2: the whole array, fetched at the first point only, its block index never
    moving), likewise: unfetched, the buffer still holds the block. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- the whole row tile of `h`; -/
abbrev r6_h : Rect S5000x64 := Rect.unit (s := S5000x64) ![0, 0] S5000x64.size inb_S5000x64_S5000x64_0_0
/-- column `r` of the inverse out-degrees' tile; -/
abbrev r6_deg0 : Rect S5000x3 := Rect.unit (s := S5000x3) ![0, 0] S5000x1.size inb_S5000x3_S5000x1_0_0
abbrev r6_deg1 : Rect S5000x3 := Rect.unit (s := S5000x3) ![0, 1] S5000x1.size inb_S5000x3_S5000x1_0_1
abbrev r6_deg2 : Rect S5000x3 := Rect.unit (s := S5000x3) ![0, 2] S5000x1.size inb_S5000x3_S5000x1_0_2
/-- relation `r`'s weight matrix; -/
abbrev r6_w0 : Rect S3x64x2 := Rect.unit (s := S3x64x2) ![0, 0, 0] S1x64x2.size inb_S3x64x2_S1x64x2_0_0_0
abbrev r6_w1 : Rect S3x64x2 := Rect.unit (s := S3x64x2) ![1, 0, 0] S1x64x2.size inb_S3x64x2_S1x64x2_1_0_0
abbrev r6_w2 : Rect S3x64x2 := Rect.unit (s := S3x64x2) ![2, 0, 0] S1x64x2.size inb_S3x64x2_S1x64x2_2_0_0
/-- relation `r`'s slab of the output block. -/
abbrev r6_out0 : Rect S3x5000x2 := Rect.unit (s := S3x5000x2) ![0, 0, 0] S1x5000x2.size inb_S3x5000x2_S1x5000x2_0_0_0
abbrev r6_out1 : Rect S3x5000x2 := Rect.unit (s := S3x5000x2) ![1, 0, 0] S1x5000x2.size inb_S3x5000x2_S1x5000x2_1_0_0
abbrev r6_out2 : Rect S3x5000x2 := Rect.unit (s := S3x5000x2) ![2, 0, 0] S1x5000x2.size inb_S3x5000x2_S1x5000x2_2_0_0

/-! ## What the body leaves in the output window's buffer -/

/-- The output window's staging buffer after the body, from the input windows' blocks (`x0` the tile of `h`, `x1` the
    tile of the inverse out-degrees, `x2` the weights): its 3 stores as pieces, LAST FIRST — relation 2's slab, then
    relation 1's, then relation 0's; the payloads are the skeleton's. -/
def out6_3 (x0 : Vec F S5000x64 .f32) (x1 : Vec F S5000x3 .f32) (x2 : Vec F S3x64x2 .f32) : Vec F S3x5000x2 .f32 :=
  View.canon [⟨r6_out2, k6_pay1 (k6_pay5 (View.ld x0 r6_h) (View.ld x1 r6_deg2)) (View.ld x2 r6_w2)⟩,
    ⟨r6_out1, k6_pay4 (View.ld x0 r6_h) (View.ld x1 r6_deg1) (View.ld x2 r6_w1)⟩,
    ⟨r6_out0, k6_pay3 (View.ld x0 r6_h) (View.ld x1 r6_deg0) (View.ld x2 r6_w0)⟩]

/-- Its stores tile the buffer (checked by evaluation), so they cover it. -/
theorem cover6_3 (p0 : Vec F S1x5000x2 .f32) (p1 : Vec F S1x5000x2 .f32) (p2 : Vec F S1x5000x2 .f32) (y : S3x5000x2.Idx) :
    ∃ pc ∈ ([⟨r6_out2, p0⟩, ⟨r6_out1, p1⟩, ⟨r6_out0, p2⟩] : List (View.Piece (Elt F) S3x5000x2 .f32)), y ∈ pc.1.set :=
  View.cover_of_tiled [⟨r6_out2, p0⟩, ⟨r6_out1, p1⟩, ⟨r6_out0, p2⟩] S1x5000x2.size (by rfl) y

/-! ## The body's triple -/

set_option maxHeartbeats 4000000 in
/-- The kernel body on whole staging memrefs, the inputs' at read contents `xW` and the output's at anything, runs to
    the continuation holding the inputs' as they were and the output's at `out6_3` of the inputs': the printed
    functions are their skeletons, which are run statement by statement, through the part call. The loads of the
    output buffer read whatever it holds and bind values no store's payload mentions. -/
theorem sound_kernel6 (c : Dev nD) (E : Set ℕ) (i : grid6.Coords) (arg1 : Memref sig .tc .vmem S5000x64 .f32) (harg1 : arg1.IsWhole) (arg2 : Memref sig .tc .vmem S5000x3 .f32) (harg2 : arg2.IsWhole) (arg3 : Memref sig .tc .vmem S3x64x2 .f32) (harg3 : arg3.IsWhole) (arg4 : Memref sig .tc .vmem S3x5000x2 .f32) (harg4 : arg4.IsWhole)
    (x0 : Vec F S5000x64 .f32) (x1 : Vec F S5000x3 .f32) (x2 : Vec F S3x64x2 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__pretransform_kernel i arg1 harg1 arg2 harg2 arg3 harg3 arg4 harg4) K := by
  simp only [cc6__pretransform_kernel_eq_skeleton]; unfold cc6__pretransform_kernel_skel
  simp only [k6_part1_eq_skeleton]; unfold k6_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover6_3 _ _ _)

/-! ## The pipeline's proof data -/

/-- The proof data of pipeline 6 on core `c`: the arrays as the region finds them (`V`); after the body at point `t`
    each input's buffer at its block and the output's at `out6_3` of the input blocks; the invariant: the scoped rest
    and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the region-entry contents (the definition projected). -/
theorem A_eq6 (c : Dev nD) (w : Fin cfg6.W) : (dat6 V c).A w = V c (Pipeline.arrRef spec6 w) := by
  dsimp only [dat6]

/-- What the body leaves, window by window (the proof data's `match` reduced). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t` (the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks (`before6_W`), so `sound_kernel6` applies; the
    invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Reg7.lean ====
import proofs.«408287_j3659312136510_1_alg».proof.Proof.Gen.Kernel.Launch
import proofs.«408287_j3659312136510_1_alg».proof.Proof.Gen.Kernel.Skeleton
import proofs.«408287_j3659312136510_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Pipeline 7: the aggregation kernel's half of the frame, at any entry contents

The kernel of pipeline 7 reads, at each of the 20 row tiles, a block of three slabs of aggregated messages
(`[3,5000,2]`), a block of inverse in-degrees (`[5000,3]`) and the whole bias table (`[3,2]`), and writes one
block `[5000,2]`: the sum over the three relations of slab times degree column plus bias row. This module states, for ANY
contents `V` of the TensorCore's buffers at the region's entry: each window's block at a grid point; what the
body leaves in the output window's buffer as a function of the three input blocks; the body's triple; the
pipeline's proof data and its body obligation. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not, for any proof
    data whose array is `V`'s and whose body leaves the block in place: unfetched, the block index has not moved. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

/-- Slab `r` of the aggregated block, `[1,5000,2]` at `[r,0,0]`. -/
abbrev slab7_0 : Rect S3x5000x2 := Rect.unit (s := S3x5000x2) ![0, 0, 0] S1x5000x2.size inb_S3x5000x2_S1x5000x2_0_0_0
abbrev slab7_1 : Rect S3x5000x2 := Rect.unit (s := S3x5000x2) ![1, 0, 0] S1x5000x2.size inb_S3x5000x2_S1x5000x2_1_0_0
abbrev slab7_2 : Rect S3x5000x2 := Rect.unit (s := S3x5000x2) ![2, 0, 0] S1x5000x2.size inb_S3x5000x2_S1x5000x2_2_0_0
/-- Column `r` of the degree block, `[5000,1]` at `[0,r]`. -/
abbrev col7_0 : Rect S5000x3 := Rect.unit (s := S5000x3) ![0, 0] S5000x1.size inb_S5000x3_S5000x1_0_0
abbrev col7_1 : Rect S5000x3 := Rect.unit (s := S5000x3) ![0, 1] S5000x1.size inb_S5000x3_S5000x1_0_1
abbrev col7_2 : Rect S5000x3 := Rect.unit (s := S5000x3) ![0, 2] S5000x1.size inb_S5000x3_S5000x1_0_2
/-- Row `r` of the bias table, `[1,2]` at `[r,0]`. -/
abbrev row7_0 : Rect S3x2 := Rect.unit (s := S3x2) ![0, 0] S1x2.size inb_S3x2_S1x2_0_0
abbrev row7_1 : Rect S3x2 := Rect.unit (s := S3x2) ![1, 0] S1x2.size inb_S3x2_S1x2_1_0
abbrev row7_2 : Rect S3x2 := Rect.unit (s := S3x2) ![2, 0] S1x2.size inb_S3x2_S1x2_2_0
/-- The whole output block. -/
abbrev whole7 : Rect S5000x2 := Rect.unit (s := S5000x2) ![0, 0] S5000x2.size inb_S5000x2_S5000x2_0_0

/-! ## What the body leaves in the output window's buffer -/

/-- The value the body stores, from the three input blocks: the accumulated sum over the three relations of
    slab times degree column plus bias row. -/
def val7 (x0 : Vec F S3x5000x2 .f32) (x1 : Vec F S5000x3 .f32) (x2 : Vec F S3x2 .f32) : FVec F S5000x2 .f32 :=
  k7_pay1 (View.ld x1 col7_0) (View.ld x0 slab7_0) (View.ld x2 row7_0)
    (View.ld x1 col7_1) (View.ld x0 slab7_1) (View.ld x2 row7_1)
    (View.ld x1 col7_2) (View.ld x0 slab7_2) (View.ld x2 row7_2)

/-- Window 3's staging buffer after the body, from the input windows' blocks: its one store, of the whole block. -/
def out7_3 (x0 : Vec F S3x5000x2 .f32) (x1 : Vec F S5000x3 .f32) (x2 : Vec F S3x2 .f32) : Vec F S5000x2 .f32 :=
  View.canon [⟨whole7, val7 x0 x1 x2⟩]

/-- The one store is of the whole block, so it covers the buffer. -/
theorem cover7_3 (p0 : Vec F S5000x2 .f32) (y : S5000x2.Idx) :
    ∃ pc ∈ ([⟨whole7, p0⟩] : List (View.Piece (Elt F) S5000x2 .f32)), y ∈ pc.1.set :=
  View.cover_of_tiled [⟨whole7, p0⟩] S5000x2.size (by rfl) y

/-! ## The body's triple -/

set_option maxHeartbeats 4000000 in
/-- The kernel body on whole staging memrefs, the three inputs' at read contents `x0 x1 x2` and the output's at
    anything, runs to the continuation holding the inputs' as they were and the output's at `out7_3` of the inputs'. -/
theorem sound_kernel7 (c : Dev nD) (E : Set ℕ) (i : grid7.Coords)
    (arg0 : Memref sig .tc .vmem S3x5000x2 .f32) (harg0 : arg0.IsWhole) (arg1 : Memref sig .tc .vmem S5000x3 .f32) (harg1 : arg1.IsWhole)
    (arg2 : Memref sig .tc .vmem S3x2 .f32) (harg2 : arg2.IsWhole) (arg3 : Memref sig .tc .vmem S5000x2 .f32) (harg3 : arg3.IsWhole)
    (x0 : Vec F S3x5000x2 .f32) (x1 : Vec F S5000x3 .f32) (x2 : Vec F S3x2 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out7_3 x0 x1 x2)) -∗ K ⟨⟩))
      ⊢ wp frame (wpE (defs₀ (F := F)) Variants.none c none) E (cc7__postagg_kernel i arg0 harg0 arg1 harg1 arg2 harg2 arg3 harg3) K := by
  simp only [cc7__postagg_kernel_eq_skeleton]; unfold cc7__postagg_kernel_skel
  simp only [k7_part1_eq_skeleton]; unfold k7_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-! ## The pipeline's proof data -/

/-- The proof data of pipeline 7 on core `c`: the arrays as the region finds them (`V`); after the body at point
    `t` each input's buffer at its block and the output's at `out7_3` of the input blocks; the invariant is the
    scoped rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' memrefs hold their blocks, so the body's triple applies; the invariant and
    the core's debts pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand
-- ==== Proof.K.RunMain.lean ====
/- THE RUN of @main over its 8 kernel regions. The buffer contents between @main's 50 items are a fold from the launch
   memory: a host stretch's `StableHlo.after`; a region's one output array (its window 3) at what the pipeline's write-backs
   leave (`Dat.arrAt … N` of the region's proof data at its entry contents), every other buffer as entered. With these the
   conditional frame's unknowns are named (`outsOf`, the read-back equations `outs_J`), every region's segment record is
   built from its launch facts, proof data and body obligation over the thread state "every unscoped buffer at the
   boundary's contents, the generator register at some state, nothing owed", and the run (`run_main`: termination, the
   result array at the fold's last valuation, every argument as launched) and the frame follow. Generic in the float instance. -/
import proofs.«408287_j3659312136510_1_alg».proof.Proof.KernelRegions
import proofs.«408287_j3659312136510_1_alg».proof.Proof.K.Reg0
import proofs.«408287_j3659312136510_1_alg».proof.Proof.K.Reg1
import proofs.«408287_j3659312136510_1_alg».proof.Proof.K.Reg2
import proofs.«408287_j3659312136510_1_alg».proof.Proof.K.Reg3
import proofs.«408287_j3659312136510_1_alg».proof.Proof.K.Reg4
import proofs.«408287_j3659312136510_1_alg».proof.Proof.K.Reg5
import proofs.«408287_j3659312136510_1_alg».proof.Proof.K.Reg6
import proofs.«408287_j3659312136510_1_alg».proof.Proof.K.Reg7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- decided memberships and enumerations over the program's 563 references recurse past the default depth
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## The conditional run -/

-- the launch theorem's implicit arguments are found by unifying its conclusion with this one, which takes unfolding
-- plain definitions in a metavariable's type; the depth is the one the conditional frame is checked at
set_option maxRecDepth 2764 in
set_option backward.isDefEq.respectTransparency.types false in
/-- THE CONDITIONAL RUN. The conditional frame with one more reading at the end: GIVEN, per region K, a segment record
    entered from the thread state before it and left at the one after it, every weakly fair execution of @main from memory
    `m` with zero counters terminates, and every final memory holds in `main_v194` (the array @main returns) the last
    valuation's contents there, and each argument as launched. The last thread state holds every unscoped buffer at the
    last valuation, so the result's buffer is read off it exactly as each argument's is. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 8) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 9 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE8 : ∀ c : Dev nD, E 8 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V13 m c) ∗ E 0 c) ⊢ R0.pre c)
    (hpost0 : ∀ c : Dev nD, R0.post c ⊢ iprop(StableHlo.held (c : Thread nD τ) (Pipeline.ucRefs τ sig) (V14 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V21 m outs c) ∗ E 1 c) ⊢ R1.pre c)
    (hpost1 : ∀ c : Dev nD, R1.post c ⊢ iprop(StableHlo.held (c : Thread nD τ) (Pipeline.ucRefs τ sig) (V22 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V22 m outs c) ∗ E 2 c) ⊢ R2.pre c)
    (hpost2 : ∀ c : Dev nD, R2.post c ⊢ iprop(StableHlo.held (c : Thread nD τ) (Pipeline.ucRefs τ sig) (V23 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V30 m outs c) ∗ E 3 c) ⊢ R3.pre c)
    (hpost3 : ∀ c : Dev nD, R3.post c ⊢ iprop(StableHlo.held (c : Thread nD τ) (Pipeline.ucRefs τ sig) (V31 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V31 m outs c) ∗ E 4 c) ⊢ R4.pre c)
    (hpost4 : ∀ c : Dev nD, R4.post c ⊢ iprop(StableHlo.held (c : Thread nD τ) (Pipeline.ucRefs τ sig) (V32 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V39 m outs c) ∗ E 5 c) ⊢ R5.pre c)
    (hpost5 : ∀ c : Dev nD, R5.post c ⊢ iprop(StableHlo.held (c : Thread nD τ) (Pipeline.ucRefs τ sig) (V40 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V40 m outs c) ∗ E 6 c) ⊢ R6.pre c)
    (hpost6 : ∀ c : Dev nD, R6.post c ⊢ iprop(StableHlo.held (c : Thread nD τ) (Pipeline.ucRefs τ sig) (V41 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V48 m outs c) ∗ E 7 c) ⊢ R7.pre c)
    (hpost7 : ∀ c : Dev nD, R7.post c ⊢ iprop(StableHlo.held (c : Thread nD τ) (Pipeline.ucRefs τ sig) (V49 m outs c) ∗ E 8 c)) :
    θ_run defs (onTc (τ := τ) (main (F := F))) ⟨m, fun _ => 0, ρ⟩ (fun r => ∀ c : Dev nD,
      r.2.mem ((c.tc : Thread nD τ).loc main_v194) = V49 m outs c main_v194
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) adm pdats ι cellOf_inj EP defs₀ 𝒱₀ L lv m ρ main
    (segs m outs 𝒱₀ L lv E ι pdats R0 R1 R2 R3 R4 R5 R6 R7)
    (fun c Q => by
      rewrite [main_chain c, Seg.run_eq_chain,
        show (segs m outs 𝒱₀ L lv E ι pdats R0 R1 R2 R3 R4 R5 R6 R7 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()),
          Prog.lift (.customCall (Pipeline.entry 2) ()),
          StableHlo.seq hostOps3,
          StableHlo.seq hostOps3_1,
          StableHlo.seq hostOps3_2,
          StableHlo.seq hostOps3_3,
          StableHlo.seq hostOps3_4,
          StableHlo.seq hostOps3_5,
          StableHlo.seq hostOps3_6,
          Prog.lift (.customCall (Pipeline.entry 3) ()),
          Prog.lift (.customCall (Pipeline.entry 4) ()),
          StableHlo.seq hostOps5,
          StableHlo.seq hostOps5_1,
          StableHlo.seq hostOps5_2,
          StableHlo.seq hostOps5_3,
          StableHlo.seq hostOps5_4,
          StableHlo.seq hostOps5_5,
          StableHlo.seq hostOps5_6,
          Prog.lift (.customCall (Pipeline.entry 5) ()),
          Prog.lift (.customCall (Pipeline.entry 6) ()),
          StableHlo.seq hostOps7,
          StableHlo.seq hostOps7_1,
          StableHlo.seq hostOps7_2,
          StableHlo.seq hostOps7_3,
          StableHlo.seq hostOps7_4,
          StableHlo.seq hostOps7_5,
          StableHlo.seq hostOps7_6,
          Prog.lift (.customCall (Pipeline.entry 7) ()) ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V49 m outs c))
    (hch := fun c => ⟨.rfl, .rfl, .rfl, .rfl, .rfl, .rfl, .rfl, .rfl, .rfl, .rfl, .rfl, .rfl, .rfl, hpre0 c, hpost0 c, .rfl, .rfl, .rfl, .rfl, .rfl, .rfl, hpre1 c, (hpost1 c).trans (hpre2 c), hpost2 c, .rfl, .rfl, .rfl, .rfl, .rfl, .rfl, hpre3 c, (hpost3 c).trans (hpre4 c), hpost4 c, .rfl, .rfl, .rfl, .rfl, .rfl, .rfl, hpre5 c, (hpost5 c).trans (hpre6 c), hpost6 c, .rfl, .rfl, .rfl, .rfl, .rfl, .rfl, hpre7 c, (hpost7 c).trans (sep_mono .rfl (hE8 c))⟩)
    (hinit := ?_) (QY := fun c s => s.mem ((c.tc : Thread nD τ).loc main_v194) = V49 m outs c main_v194 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V49 m outs c) s') $$ [Hh HSI]
    · isplitl [Hh] <;> iassumption
    icases Hr with ⟨%h, HSI⟩
    imodintro
    isplitr
    · ipureintro
      exact ⟨h (Proc.devRef .tc main_v194) (Finset.mem_filter.mpr ⟨StableHlo.devRef_mem_tcRefs main_v194, by decide⟩),
        (h (Proc.devRef .tc main_arg0) (Finset.mem_filter.mpr ⟨StableHlo.devRef_mem_tcRefs main_arg0, by decide⟩)).trans (V49_main_arg0 m outs c),
        (h (Proc.devRef .tc main_arg1) (Finset.mem_filter.mpr ⟨StableHlo.devRef_mem_tcRefs main_arg1, by decide⟩)).trans (V49_main_arg1 m outs c),
        (h (Proc.devRef .tc main_arg2) (Finset.mem_filter.mpr ⟨StableHlo.devRef_mem_tcRefs main_arg2, by decide⟩)).trans (V49_main_arg2 m outs c),
        (h (Proc.devRef .tc main_arg3) (Finset.mem_filter.mpr ⟨StableHlo.devRef_mem_tcRefs main_arg3, by decide⟩)).trans (V49_main_arg3 m outs c),
        (h (Proc.devRef .tc main_arg4) (Finset.mem_filter.mpr ⟨StableHlo.devRef_mem_tcRefs main_arg4, by decide⟩)).trans (V49_main_arg4 m outs c),
        (h (Proc.devRef .tc main_arg5) (Finset.mem_filter.mpr ⟨StableHlo.devRef_mem_tcRefs main_arg5, by decide⟩)).trans (V49_main_arg5 m outs c),
        (h (Proc.devRef .tc main_arg6) (Finset.mem_filter.mpr ⟨StableHlo.devRef_mem_tcRefs main_arg6, by decide⟩)).trans (V49_main_arg6 m outs c),
        (h (Proc.devRef .tc main_arg7) (Finset.mem_filter.mpr ⟨StableHlo.devRef_mem_tcRefs main_arg7, by decide⟩)).trans (V49_main_arg7 m outs c),
        (h (Proc.devRef .tc main_arg8) (Finset.mem_filter.mpr ⟨StableHlo.devRef_mem_tcRefs main_arg8, by decide⟩)).trans (V49_main_arg8 m outs c),
        (h (Proc.devRef .tc main_arg9) (Finset.mem_filter.mpr ⟨StableHlo.devRef_mem_tcRefs main_arg9, by decide⟩)).trans (V49_main_arg9 m outs c),
        (h (Proc.devRef .tc main_arg10) (Finset.mem_filter.mpr ⟨StableHlo.devRef_mem_tcRefs main_arg10, by decide⟩)).trans (V49_main_arg10 m outs c)⟩
    · iexact HSI

/-! ## The buffer contents between @main's items, each region's output at what its pipeline leaves

The same fold as the conditional frame's valuations, with nothing unknown: a host stretch's `StableHlo.after`; a region's
output array at the write-backs of its window 3 folded over the region's entry contents (`Dat.arrAt … N`), every other
buffer as entered. Each boundary's contents are read at the TensorCore's references too (`tcJ`: what proof data take). -/

/-- Core `c`'s buffers when region 0 is entered: the launch memory after the first thirteen host stretches. -/
abbrev W13 (c : Dev nD) : Valuation τ sig (Elt F) := Gen.V13 m c
abbrev tc13 : (c : Dev nD) → (b : Ref sig .tc) → Buf (Elt F) ((c : Thread nD τ).loc b) := fun c b => W13 m c b
/-- What region 0 leaves in `main_v51`, its one output array. -/
def o14 (c : Dev nD) : Buf (Elt F) ((c : Thread nD τ).loc main_v51) := (dat0 (tc13 m) c).arrAt 3 cfg0.N
/-- Core `c`'s buffers when region 0 is left: `main_v51` at what the pipeline leaves, every other buffer as entered. -/
def W14 (c : Dev nD) : Valuation τ sig (Elt F) := Function.update (W13 m c) main_v51 (o14 m c)
theorem W14_arr (c : Dev nD) : W14 m c main_v51 = o14 m c := by unfold W14; exact Function.update_self _ _ _
theorem W14_of_ne (c : Dev nD) (b : Ref sig .tc) (h : b ≠ main_v51) : W14 m c b = W13 m c b := by
  unfold W14; exact Function.update_of_ne (StableHlo.devRef_ne_of_ne h) _ _
abbrev tc14 : (c : Dev nD) → (b : Ref sig .tc) → Buf (Elt F) ((c : Thread nD τ).loc b) := fun c b => W14 m c b
/-- After the host stretch `hostOps1`. -/
abbrev W15 (c : Dev nD) : Valuation τ sig (Elt F) := StableHlo.after hostOps1 (W14 m c)
abbrev tc15 : (c : Dev nD) → (b : Ref sig .tc) → Buf (Elt F) ((c : Thread nD τ).loc b) := fun c b => W15 m c b
/-- After the host stretch `hostOps1_1`. -/
abbrev W16 (c : Dev nD) : Valuation τ sig (Elt F) := StableHlo.after hostOps1_1 (W15 m c)
abbrev tc16 : (c : Dev nD) → (b : Ref sig .tc) → Buf (Elt F) ((c : Thread nD τ).loc b) := fun c b => W16 m c b
/-- After the host stretch `hostOps1_2`. -/
abbrev W17 (c : Dev nD) : Valuation τ sig (Elt F) := StableHlo.after hostOps1_2 (W16 m c)
abbrev tc17 : (c : Dev nD) → (b : Ref sig .tc) → Buf (Elt F) ((c : Thread nD τ).loc b) := fun c b => W17 m c b
/-- After the host stretch `hostOps1_3`. -/
abbrev W18 (c : Dev nD) : Valuation τ sig (Elt F) := StableHlo.after hostOps1_3 (W17 m c)
abbrev tc18 : (c : Dev nD) → (b : Ref sig .tc) → Buf (Elt F) ((c : Thread nD τ).loc b) := fun c b => W18 m c b
/-- After the host stretch `hostOps1_4`. -/
abbrev W19 (c : Dev nD) : Valuation τ sig (Elt F) := StableHlo.after hostOps1_4 (W18 m c)
abbrev tc19 : (c : Dev nD) → (b : Ref sig .tc) → Buf (Elt F) ((c : Thread nD τ).loc b) := fun c b => W19 m c b
/-- After the host stretch `hostOps1_5`. -/
abbrev W20 (c : Dev nD) : Valuation τ sig (Elt F) := StableHlo.after hostOps1_5 (W19 m c)
abbrev tc20 : (c : Dev nD) → (b : Ref sig .tc) → Buf (Elt F) ((c : Thread nD τ).loc b) := fun c b => W20 m c b
/-- After the host stretch `hostOps1_6`. -/
abbrev W21 (c : Dev nD) : Valuation τ sig (Elt F) := StableHlo.after hostOps1_6 (W20 m c)
abbrev tc21 : (c : Dev nD) → (b : Ref sig .tc) → Buf (Elt F) ((c : Thread nD τ).loc b) := fun c b => W21 m c b
/-- What region 1 leaves in `main_v86`, its one output array. -/
def o22 (c : Dev nD) : Buf (Elt F) ((c : Thread nD τ).loc main_v86) := (dat1 (tc21 m) c).arrAt 3 cfg1.N
/-- Core `c`'s buffers when region 1 is left: `main_v86` at what the pipeline leaves, every other buffer as entered. -/
def W22 (c : Dev nD) : Valuation τ sig (Elt F) := Function.update (W21 m c) main_v86 (o22 m c)
theorem W22_arr (c : Dev nD) : W22 m c main_v86 = o22 m c := by unfold W22; exact Function.update_self _ _ _
theorem W22_of_ne (c : Dev nD) (b : Ref sig .tc) (h : b ≠ main_v86) : W22 m c b = W21 m c b := by
  unfold W22; exact Function.update_of_ne (StableHlo.devRef_ne_of_ne h) _ _
abbrev tc22 : (c : Dev nD) → (b : Ref sig .tc) → Buf (Elt F) ((c : Thread nD τ).loc b) := fun c b => W22 m c b
/-- What region 2 leaves in `main_v87`, its one output array. -/
def o23 (c : Dev nD) : Buf (Elt F) ((c : Thread nD τ).loc main_v87) := (dat2 (tc22 m) c).arrAt 3 cfg2.N
/-- Core `c`'s buffers when region 2 is left: `main_v87` at what the pipeline leaves, every other buffer as entered. -/
def W23 (c : Dev nD) : Valuation τ sig (Elt F) := Function.update (W22 m c) main_v87 (o23 m c)
theorem W23_arr (c : Dev nD) : W23 m c main_v87 = o23 m c := by unfold W23; exact Function.update_self _ _ _
theorem W23_of_ne (c : Dev nD) (b : Ref sig .tc) (h : b ≠ main_v87) : W23 m c b = W22 m c b := by
  unfold W23; exact Function.update_of_ne (StableHlo.devRef_ne_of_ne h) _ _
abbrev tc23 : (c : Dev nD) → (b : Ref sig .tc) → Buf (Elt F) ((c : Thread nD τ).loc b) := fun c b => W23 m c b
/-- After the host stretch `hostOps3`. -/
abbrev W24 (c : Dev nD) : Valuation τ sig (Elt F) := StableHlo.after hostOps3 (W23 m c)
abbrev tc24 : (c : Dev nD) → (b : Ref sig .tc) → Buf (Elt F) ((c : Thread nD τ).loc b) := fun c b => W24 m c b
/-- After the host stretch `hostOps3_1`. -/
abbrev W25 (c : Dev nD) : Valuation τ sig (Elt F) := StableHlo.after hostOps3_1 (W24 m c)
abbrev tc25 : (c : Dev nD) → (b : Ref sig .tc) → Buf (Elt F) ((c : Thread nD τ).loc b) := fun c b => W25 m c b
/-- After the host stretch `hostOps3_2`. -/
abbrev W26 (c : Dev nD) : Valuation τ sig (Elt F) := StableHlo.after hostOps3_2 (W25 m c)
abbrev tc26 : (c : Dev nD) → (b : Ref sig .tc) → Buf (Elt F) ((c : Thread nD τ).loc b) := fun c b => W26 m c b
/-- After the host stretch `hostOps3_3`. -/
abbrev W27 (c : Dev nD) : Valuation τ sig (Elt F) := StableHlo.after hostOps3_3 (W26 m c)
abbrev tc27 : (c : Dev nD) → (b : Ref sig .tc) → Buf (Elt F) ((c : Thread nD τ).loc b) := fun c b => W27 m c b
/-- After the host stretch `hostOps3_4`. -/
abbrev W28 (c : Dev nD) : Valuation τ sig (Elt F) := StableHlo.after hostOps3_4 (W27 m c)
abbrev tc28 : (c : Dev nD) → (b : Ref sig .tc) → Buf (Elt F) ((c : Thread nD τ).loc b) := fun c b => W28 m c b
/-- After the host stretch `hostOps3_5`. -/
abbrev W29 (c : Dev nD) : Valuation τ sig (Elt F) := StableHlo.after hostOps3_5 (W28 m c)
abbrev tc29 : (c : Dev nD) → (b : Ref sig .tc) → Buf (Elt F) ((c : Thread nD τ).loc b) := fun c b => W29 m c b
/-- After the host stretch `hostOps3_6`. -/
abbrev W30 (c : Dev nD) : Valuation τ sig (Elt F) := StableHlo.after hostOps3_6 (W29 m c)
abbrev tc30 : (c : Dev nD) → (b : Ref sig .tc) → Buf (Elt F) ((c : Thread nD τ).loc b) := fun c b => W30 m c b
/-- What region 3 leaves in `main_v122`, its one output array. -/
def o31 (c : Dev nD) : Buf (Elt F) ((c : Thread nD τ).loc main_v122) := (dat3 (tc30 m) c).arrAt 3 cfg3.N
/-- Core `c`'s buffers when region 3 is left: `main_v122` at what the pipeline leaves, every other buffer as entered. -/
def W31 (c : Dev nD) : Valuation τ sig (Elt F) := Function.update (W30 m c) main_v122 (o31 m c)
theorem W31_arr (c : Dev nD) : W31 m c main_v122 = o31 m c := by unfold W31; exact Function.update_self _ _ _
theorem W31_of_ne (c : Dev nD) (b : Ref sig .tc) (h : b ≠ main_v122) : W31 m c b = W30 m c b := by
  unfold W31; exact Function.update_of_ne (StableHlo.devRef_ne_of_ne h) _ _
abbrev tc31 : (c : Dev nD) → (b : Ref sig .tc) → Buf (Elt F) ((c : Thread nD τ).loc b) := fun c b => W31 m c b
/-- What region 4 leaves in `main_v123`, its one output array. -/
def o32 (c : Dev nD) : Buf (Elt F) ((c : Thread nD τ).loc main_v123) := (dat4 (tc31 m) c).arrAt 3 cfg4.N
/-- Core `c`'s buffers when region 4 is left: `main_v123` at what the pipeline leaves, every other buffer as entered. -/
def W32 (c : Dev nD) : Valuation τ sig (Elt F) := Function.update (W31 m c) main_v123 (o32 m c)
theorem W32_arr (c : Dev nD) : W32 m c main_v123 = o32 m c := by unfold W32; exact Function.update_self _ _ _
theorem W32_of_ne (c : Dev nD) (b : Ref sig .tc) (h : b ≠ main_v123) : W32 m c b = W31 m c b := by
  unfold W32; exact Function.update_of_ne (StableHlo.devRef_ne_of_ne h) _ _
abbrev tc32 : (c : Dev nD) → (b : Ref sig .tc) → Buf (Elt F) ((c : Thread nD τ).loc b) := fun c b => W32 m c b
/-- After the host stretch `hostOps5`. -/
abbrev W33 (c : Dev nD) : Valuation τ sig (Elt F) := StableHlo.after hostOps5 (W32 m c)
abbrev tc33 : (c : Dev nD) → (b : Ref sig .tc) → Buf (Elt F) ((c : Thread nD τ).loc b) := fun c b => W33 m c b
/-- After the host stretch `hostOps5_1`. -/
abbrev W34 (c : Dev nD) : Valuation τ sig (Elt F) := StableHlo.after hostOps5_1 (W33 m c)
abbrev tc34 : (c : Dev nD) → (b : Ref sig .tc) → Buf (Elt F) ((c : Thread nD τ).loc b) := fun c b => W34 m c b
/-- After the host stretch `hostOps5_2`. -/
abbrev W35 (c : Dev nD) : Valuation τ sig (Elt F) := StableHlo.after hostOps5_2 (W34 m c)
abbrev tc35 : (c : Dev nD) → (b : Ref sig .tc) → Buf (Elt F) ((c : Thread nD τ).loc b) := fun c b => W35 m c b
/-- After the host stretch `hostOps5_3`. -/
abbrev W36 (c : Dev nD) : Valuation τ sig (Elt F) := StableHlo.after hostOps5_3 (W35 m c)
abbrev tc36 : (c : Dev nD) → (b : Ref sig .tc) → Buf (Elt F) ((c : Thread nD τ).loc b) := fun c b => W36 m c b
/-- After the host stretch `hostOps5_4`. -/
abbrev W37 (c : Dev nD) : Valuation τ sig (Elt F) := StableHlo.after hostOps5_4 (W36 m c)
abbrev tc37 : (c : Dev nD) → (b : Ref sig .tc) → Buf (Elt F) ((c : Thread nD τ).loc b) := fun c b => W37 m c b
/-- After the host stretch `hostOps5_5`. -/
abbrev W38 (c : Dev nD) : Valuation τ sig (Elt F) := StableHlo.after hostOps5_5 (W37 m c)
abbrev tc38 : (c : Dev nD) → (b : Ref sig .tc) → Buf (Elt F) ((c : Thread nD τ).loc b) := fun c b => W38 m c b
/-- After the host stretch `hostOps5_6`. -/
abbrev W39 (c : Dev nD) : Valuation τ sig (Elt F) := StableHlo.after hostOps5_6 (W38 m c)
abbrev tc39 : (c : Dev nD) → (b : Ref sig .tc) → Buf (Elt F) ((c : Thread nD τ).loc b) := fun c b => W39 m c b
/-- What region 5 leaves in `main_v158`, its one output array. -/
def o40 (c : Dev nD) : Buf (Elt F) ((c : Thread nD τ).loc main_v158) := (dat5 (tc39 m) c).arrAt 3 cfg5.N
/-- Core `c`'s buffers when region 5 is left: `main_v158` at what the pipeline leaves, every other buffer as entered. -/
def W40 (c : Dev nD) : Valuation τ sig (Elt F) := Function.update (W39 m c) main_v158 (o40 m c)
theorem W40_arr (c : Dev nD) : W40 m c main_v158 = o40 m c := by unfold W40; exact Function.update_self _ _ _
theorem W40_of_ne (c : Dev nD) (b : Ref sig .tc) (h : b ≠ main_v158) : W40 m c b = W39 m c b := by
  unfold W40; exact Function.update_of_ne (StableHlo.devRef_ne_of_ne h) _ _
abbrev tc40 : (c : Dev nD) → (b : Ref sig .tc) → Buf (Elt F) ((c : Thread nD τ).loc b) := fun c b => W40 m c b
/-- What region 6 leaves in `main_v159`, its one output array. -/
def o41 (c : Dev nD) : Buf (Elt F) ((c : Thread nD τ).loc main_v159) := (dat6 (tc40 m) c).arrAt 3 cfg6.N
/-- Core `c`'s buffers when region 6 is left: `main_v159` at what the pipeline leaves, every other buffer as entered. -/
def W41 (c : Dev nD) : Valuation τ sig (Elt F) := Function.update (W40 m c) main_v159 (o41 m c)
theorem W41_arr (c : Dev nD) : W41 m c main_v159 = o41 m c := by unfold W41; exact Function.update_self _ _ _
theorem W41_of_ne (c : Dev nD) (b : Ref sig .tc) (h : b ≠ main_v159) : W41 m c b = W40 m c b := by
  unfold W41; exact Function.update_of_ne (StableHlo.devRef_ne_of_ne h) _ _
abbrev tc41 : (c : Dev nD) → (b : Ref sig .tc) → Buf (Elt F) ((c : Thread nD τ).loc b) := fun c b => W41 m c b
/-- After the host stretch `hostOps7`. -/
abbrev W42 (c : Dev nD) : Valuation τ sig (Elt F) := StableHlo.after hostOps7 (W41 m c)
abbrev tc42 : (c : Dev nD) → (b : Ref sig .tc) → Buf (Elt F) ((c : Thread nD τ).loc b) := fun c b => W42 m c b
/-- After the host stretch `hostOps7_1`. -/
abbrev W43 (c : Dev nD) : Valuation τ sig (Elt F) := StableHlo.after hostOps7_1 (W42 m c)
abbrev tc43 : (c : Dev nD) → (b : Ref sig .tc) → Buf (Elt F) ((c : Thread nD τ).loc b) := fun c b => W43 m c b
/-- After the host stretch `hostOps7_2`. -/
abbrev W44 (c : Dev nD) : Valuation τ sig (Elt F) := StableHlo.after hostOps7_2 (W43 m c)
abbrev tc44 : (c : Dev nD) → (b : Ref sig .tc) → Buf (Elt F) ((c : Thread nD τ).loc b) := fun c b => W44 m c b
/-- After the host stretch `hostOps7_3`. -/
abbrev W45 (c : Dev nD) : Valuation τ sig (Elt F) := StableHlo.after hostOps7_3 (W44 m c)
abbrev tc45 : (c : Dev nD) → (b : Ref sig .tc) → Buf (Elt F) ((c : Thread nD τ).loc b) := fun c b => W45 m c b
/-- After the host stretch `hostOps7_4`. -/
abbrev W46 (c : Dev nD) : Valuation τ sig (Elt F) := StableHlo.after hostOps7_4 (W45 m c)
abbrev tc46 : (c : Dev nD) → (b : Ref sig .tc) → Buf (Elt F) ((c : Thread nD τ).loc b) := fun c b => W46 m c b
/-- After the host stretch `hostOps7_5`. -/
abbrev W47 (c : Dev nD) : Valuation τ sig (Elt F) := StableHlo.after hostOps7_5 (W46 m c)
abbrev tc47 : (c : Dev nD) → (b : Ref sig .tc) → Buf (Elt F) ((c : Thread nD τ).loc b) := fun c b => W47 m c b
/-- After the host stretch `hostOps7_6`. -/
abbrev W48 (c : Dev nD) : Valuation τ sig (Elt F) := StableHlo.after hostOps7_6 (W47 m c)
abbrev tc48 : (c : Dev nD) → (b : Ref sig .tc) → Buf (Elt F) ((c : Thread nD τ).loc b) := fun c b => W48 m c b
/-- What region 7 leaves in `main_v194`, its one output array. -/
def o49 (c : Dev nD) : Buf (Elt F) ((c : Thread nD τ).loc main_v194) := (dat7 (tc48 m) c).arrAt 3 cfg7.N
/-- Core `c`'s buffers when region 7 is left: `main_v194` at what the pipeline leaves, every other buffer as entered. -/
def W49 (c : Dev nD) : Valuation τ sig (Elt F) := Function.update (W48 m c) main_v194 (o49 m c)
theorem W49_arr (c : Dev nD) : W49 m c main_v194 = o49 m c := by unfold W49; exact Function.update_self _ _ _
theorem W49_of_ne (c : Dev nD) (b : Ref sig .tc) (h : b ≠ main_v194) : W49 m c b = W48 m c b := by
  unfold W49; exact Function.update_of_ne (StableHlo.devRef_ne_of_ne h) _ _
abbrev tc49 : (c : Dev nD) → (b : Ref sig .tc) → Buf (Elt F) ((c : Thread nD τ).loc b) := fun c b => W49 m c b

/-! ## The regions' outputs as the conditional frame's unknowns, and its valuations at them -/

/-- The contents the regions leave: asked after item J−1 for a reference, the contents of that boundary there (the
    conditional frame reads it only after a region, at the region's output array). -/
def outsOf : Gen.Outs (F := F) := fun J r c => match J with
  | 14 => W14 m c r
  | 22 => W22 m c r
  | 23 => W23 m c r
  | 31 => W31 m c r
  | 32 => W32 m c r
  | 40 => W40 m c r
  | 41 => W41 m c r
  | 49 => W49 m c r
  | _ => m ((c : Thread nD τ).loc r)

/-- The program's result on core `c`: the last valuation at `main_v194`. -/
def result (c : Dev nD) : Buf (Elt F) ((c.tc : Thread nD τ).loc main_v194) := Gen.V49 m (outsOf m) c main_v194

/-! Each valuation of the conditional frame at `outsOf` is this module's: by induction along the fold, a host stretch
by congruence, a region's exit by reading the update back. -/

theorem V13_eq (c : Dev nD) : Gen.V13 m c = W13 m c := rfl
theorem V14_eq (c : Dev nD) : Gen.V14 m (outsOf m) c = W14 m c := by
  show Function.update (Gen.V13 m c) main_v51 (W14 m c main_v51) = W14 m c
  rw [V13_eq, W14_arr]; rfl
theorem V15_eq (c : Dev nD) : Gen.V15 m (outsOf m) c = W15 m c := congrArg (StableHlo.after hostOps1) (V14_eq m c)
theorem V16_eq (c : Dev nD) : Gen.V16 m (outsOf m) c = W16 m c := congrArg (StableHlo.after hostOps1_1) (V15_eq m c)
theorem V17_eq (c : Dev nD) : Gen.V17 m (outsOf m) c = W17 m c := congrArg (StableHlo.after hostOps1_2) (V16_eq m c)
theorem V18_eq (c : Dev nD) : Gen.V18 m (outsOf m) c = W18 m c := congrArg (StableHlo.after hostOps1_3) (V17_eq m c)
theorem V19_eq (c : Dev nD) : Gen.V19 m (outsOf m) c = W19 m c := congrArg (StableHlo.after hostOps1_4) (V18_eq m c)
theorem V20_eq (c : Dev nD) : Gen.V20 m (outsOf m) c = W20 m c := congrArg (StableHlo.after hostOps1_5) (V19_eq m c)
theorem V21_eq (c : Dev nD) : Gen.V21 m (outsOf m) c = W21 m c := congrArg (StableHlo.after hostOps1_6) (V20_eq m c)
theorem V22_eq (c : Dev nD) : Gen.V22 m (outsOf m) c = W22 m c := by
  show Function.update (Gen.V21 m (outsOf m) c) main_v86 (W22 m c main_v86) = W22 m c
  rw [V21_eq, W22_arr]; rfl
theorem V23_eq (c : Dev nD) : Gen.V23 m (outsOf m) c = W23 m c := by
  show Function.update (Gen.V22 m (outsOf m) c) main_v87 (W23 m c main_v87) = W23 m c
  rw [V22_eq, W23_arr]; rfl
theorem V24_eq (c : Dev nD) : Gen.V24 m (outsOf m) c = W24 m c := congrArg (StableHlo.after hostOps3) (V23_eq m c)
theorem V25_eq (c : Dev nD) : Gen.V25 m (outsOf m) c = W25 m c := congrArg (StableHlo.after hostOps3_1) (V24_eq m c)
theorem V26_eq (c : Dev nD) : Gen.V26 m (outsOf m) c = W26 m c := congrArg (StableHlo.after hostOps3_2) (V25_eq m c)
theorem V27_eq (c : Dev nD) : Gen.V27 m (outsOf m) c = W27 m c := congrArg (StableHlo.after hostOps3_3) (V26_eq m c)
theorem V28_eq (c : Dev nD) : Gen.V28 m (outsOf m) c = W28 m c := congrArg (StableHlo.after hostOps3_4) (V27_eq m c)
theorem V29_eq (c : Dev nD) : Gen.V29 m (outsOf m) c = W29 m c := congrArg (StableHlo.after hostOps3_5) (V28_eq m c)
theorem V30_eq (c : Dev nD) : Gen.V30 m (outsOf m) c = W30 m c := congrArg (StableHlo.after hostOps3_6) (V29_eq m c)
theorem V31_eq (c : Dev nD) : Gen.V31 m (outsOf m) c = W31 m c := by
  show Function.update (Gen.V30 m (outsOf m) c) main_v122 (W31 m c main_v122) = W31 m c
  rw [V30_eq, W31_arr]; rfl
theorem V32_eq (c : Dev nD) : Gen.V32 m (outsOf m) c = W32 m c := by
  show Function.update (Gen.V31 m (outsOf m) c) main_v123 (W32 m c main_v123) = W32 m c
  rw [V31_eq, W32_arr]; rfl
theorem V33_eq (c : Dev nD) : Gen.V33 m (outsOf m) c = W33 m c := congrArg (StableHlo.after hostOps5) (V32_eq m c)
theorem V34_eq (c : Dev nD) : Gen.V34 m (outsOf m) c = W34 m c := congrArg (StableHlo.after hostOps5_1) (V33_eq m c)
theorem V35_eq (c : Dev nD) : Gen.V35 m (outsOf m) c = W35 m c := congrArg (StableHlo.after hostOps5_2) (V34_eq m c)
theorem V36_eq (c : Dev nD) : Gen.V36 m (outsOf m) c = W36 m c := congrArg (StableHlo.after hostOps5_3) (V35_eq m c)
theorem V37_eq (c : Dev nD) : Gen.V37 m (outsOf m) c = W37 m c := congrArg (StableHlo.after hostOps5_4) (V36_eq m c)
theorem V38_eq (c : Dev nD) : Gen.V38 m (outsOf m) c = W38 m c := congrArg (StableHlo.after hostOps5_5) (V37_eq m c)
theorem V39_eq (c : Dev nD) : Gen.V39 m (outsOf m) c = W39 m c := congrArg (StableHlo.after hostOps5_6) (V38_eq m c)
theorem V40_eq (c : Dev nD) : Gen.V40 m (outsOf m) c = W40 m c := by
  show Function.update (Gen.V39 m (outsOf m) c) main_v158 (W40 m c main_v158) = W40 m c
  rw [V39_eq, W40_arr]; rfl
theorem V41_eq (c : Dev nD) : Gen.V41 m (outsOf m) c = W41 m c := by
  show Function.update (Gen.V40 m (outsOf m) c) main_v159 (W41 m c main_v159) = W41 m c
  rw [V40_eq, W41_arr]; rfl
theorem V42_eq (c : Dev nD) : Gen.V42 m (outsOf m) c = W42 m c := congrArg (StableHlo.after hostOps7) (V41_eq m c)
theorem V43_eq (c : Dev nD) : Gen.V43 m (outsOf m) c = W43 m c := congrArg (StableHlo.after hostOps7_1) (V42_eq m c)
theorem V44_eq (c : Dev nD) : Gen.V44 m (outsOf m) c = W44 m c := congrArg (StableHlo.after hostOps7_2) (V43_eq m c)
theorem V45_eq (c : Dev nD) : Gen.V45 m (outsOf m) c = W45 m c := congrArg (StableHlo.after hostOps7_3) (V44_eq m c)
theorem V46_eq (c : Dev nD) : Gen.V46 m (outsOf m) c = W46 m c := congrArg (StableHlo.after hostOps7_4) (V45_eq m c)
theorem V47_eq (c : Dev nD) : Gen.V47 m (outsOf m) c = W47 m c := congrArg (StableHlo.after hostOps7_5) (V46_eq m c)
theorem V48_eq (c : Dev nD) : Gen.V48 m (outsOf m) c = W48 m c := congrArg (StableHlo.after hostOps7_6) (V47_eq m c)
theorem V49_eq (c : Dev nD) : Gen.V49 m (outsOf m) c = W49 m c := by
  show Function.update (Gen.V48 m (outsOf m) c) main_v194 (W49 m c main_v194) = W49 m c
  rw [V48_eq, W49_arr]; rfl

/-! ## The read-back equations: what the conditional frame's unknowns are -/

theorem tc13_eq : (fun (c : Dev nD) (b : Ref sig .tc) => Gen.V13 m c b) = tc13 m :=
  funext fun c => funext fun b => congrFun (V13_eq m c) (Proc.devRef .tc b)
/-- After region 0 the unknown at `main_v51` is what pipeline 0 leaves there from the contents it is entered at. -/
theorem outs_14 (c : Dev nD) : outsOf m 14 main_v51 c = (dat0 (fun c b => Gen.V13 m c b) c).arrAt 3 cfg0.N := by
  rw [tc13_eq]; exact W14_arr m c
theorem tc21_eq : (fun (c : Dev nD) (b : Ref sig .tc) => Gen.V21 m (outsOf m) c b) = tc21 m :=
  funext fun c => funext fun b => congrFun (V21_eq m c) (Proc.devRef .tc b)
/-- After region 1 the unknown at `main_v86` is what pipeline 1 leaves there from the contents it is entered at. -/
theorem outs_22 (c : Dev nD) : outsOf m 22 main_v86 c = (dat1 (fun c b => Gen.V21 m (outsOf m) c b) c).arrAt 3 cfg1.N := by
  rw [tc21_eq]; exact W22_arr m c
theorem tc22_eq : (fun (c : Dev nD) (b : Ref sig .tc) => Gen.V22 m (outsOf m) c b) = tc22 m :=
  funext fun c => funext fun b => congrFun (V22_eq m c) (Proc.devRef .tc b)
/-- After region 2 the unknown at `main_v87` is what pipeline 2 leaves there from the contents it is entered at. -/
theorem outs_23 (c : Dev nD) : outsOf m 23 main_v87 c = (dat2 (fun c b => Gen.V22 m (outsOf m) c b) c).arrAt 3 cfg2.N := by
  rw [tc22_eq]; exact W23_arr m c
theorem tc30_eq : (fun (c : Dev nD) (b : Ref sig .tc) => Gen.V30 m (outsOf m) c b) = tc30 m :=
  funext fun c => funext fun b => congrFun (V30_eq m c) (Proc.devRef .tc b)
/-- After region 3 the unknown at `main_v122` is what pipeline 3 leaves there from the contents it is entered at. -/
theorem outs_31 (c : Dev nD) : outsOf m 31 main_v122 c = (dat3 (fun c b => Gen.V30 m (outsOf m) c b) c).arrAt 3 cfg3.N := by
  rw [tc30_eq]; exact W31_arr m c
theorem tc31_eq : (fun (c : Dev nD) (b : Ref sig .tc) => Gen.V31 m (outsOf m) c b) = tc31 m :=
  funext fun c => funext fun b => congrFun (V31_eq m c) (Proc.devRef .tc b)
/-- After region 4 the unknown at `main_v123` is what pipeline 4 leaves there from the contents it is entered at. -/
theorem outs_32 (c : Dev nD) : outsOf m 32 main_v123 c = (dat4 (fun c b => Gen.V31 m (outsOf m) c b) c).arrAt 3 cfg4.N := by
  rw [tc31_eq]; exact W32_arr m c
theorem tc39_eq : (fun (c : Dev nD) (b : Ref sig .tc) => Gen.V39 m (outsOf m) c b) = tc39 m :=
  funext fun c => funext fun b => congrFun (V39_eq m c) (Proc.devRef .tc b)
/-- After region 5 the unknown at `main_v158` is what pipeline 5 leaves there from the contents it is entered at. -/
theorem outs_40 (c : Dev nD) : outsOf m 40 main_v158 c = (dat5 (fun c b => Gen.V39 m (outsOf m) c b) c).arrAt 3 cfg5.N := by
  rw [tc39_eq]; exact W40_arr m c
theorem tc40_eq : (fun (c : Dev nD) (b : Ref sig .tc) => Gen.V40 m (outsOf m) c b) = tc40 m :=
  funext fun c => funext fun b => congrFun (V40_eq m c) (Proc.devRef .tc b)
/-- After region 6 the unknown at `main_v159` is what pipeline 6 leaves there from the contents it is entered at. -/
theorem outs_41 (c : Dev nD) : outsOf m 41 main_v159 c = (dat6 (fun c b => Gen.V40 m (outsOf m) c b) c).arrAt 3 cfg6.N := by
  rw [tc40_eq]; exact W41_arr m c
theorem tc48_eq : (fun (c : Dev nD) (b : Ref sig .tc) => Gen.V48 m (outsOf m) c b) = tc48 m :=
  funext fun c => funext fun b => congrFun (V48_eq m c) (Proc.devRef .tc b)
/-- After region 7 the unknown at `main_v194` is what pipeline 7 leaves there from the contents it is entered at. -/
theorem outs_49 (c : Dev nD) : outsOf m 49 main_v194 c = (dat7 (fun c b => Gen.V48 m (outsOf m) c b) c).arrAt 3 cfg7.N := by
  rw [tc48_eq]; exact W49_arr m c

/-! ## At a region's exit: its arrays at what the pipeline leaves, every other buffer as entered -/

/-- Region 0's arrays at its exit: an input array as entered (never written), the output array at the write-backs' fold. -/
theorem hF0 (c : Dev nD) : ∀ w : Fin cfg0.W, (dat0 (tc13 m) c).arrAt w cfg0.N = tc14 m c (Pipeline.arrRef spec0 w)
  | ⟨0, _⟩ => ((dat0 (tc13 m) c).arrAt_in 0 rfl _).trans ((A_eq0 (tc13 m) c 0).trans (W14_of_ne m c _ (by decide)).symm)
  | ⟨1, _⟩ => ((dat0 (tc13 m) c).arrAt_in 1 rfl _).trans ((A_eq0 (tc13 m) c 1).trans (W14_of_ne m c _ (by decide)).symm)
  | ⟨2, _⟩ => ((dat0 (tc13 m) c).arrAt_in 2 rfl _).trans ((A_eq0 (tc13 m) c 2).trans (W14_of_ne m c _ (by decide)).symm)
  | ⟨3, _⟩ => (W14_arr m c).symm
theorem hrest0 (c : Dev nD) : ∀ b, b ∉ Finset.univ.image (Pipeline.arrRef spec0) → tc14 m c b = tc13 m c b :=
  fun b hb => W14_of_ne m c b fun e => hb (Finset.mem_image.mpr ⟨3, Finset.mem_univ _, e.symm⟩)
/-- Region 1's arrays at its exit: an input array as entered (never written), the output array at the write-backs' fold. -/
theorem hF1 (c : Dev nD) : ∀ w : Fin cfg1.W, (dat1 (tc21 m) c).arrAt w cfg1.N = tc22 m c (Pipeline.arrRef spec1 w)
  | ⟨0, _⟩ => ((dat1 (tc21 m) c).arrAt_in 0 rfl _).trans ((A_eq1 (tc21 m) c 0).trans (W22_of_ne m c _ (by decide)).symm)
  | ⟨1, _⟩ => ((dat1 (tc21 m) c).arrAt_in 1 rfl _).trans ((A_eq1 (tc21 m) c 1).trans (W22_of_ne m c _ (by decide)).symm)
  | ⟨2, _⟩ => ((dat1 (tc21 m) c).arrAt_in 2 rfl _).trans ((A_eq1 (tc21 m) c 2).trans (W22_of_ne m c _ (by decide)).symm)
  | ⟨3, _⟩ => (W22_arr m c).symm
theorem hrest1 (c : Dev nD) : ∀ b, b ∉ Finset.univ.image (Pipeline.arrRef spec1) → tc22 m c b = tc21 m c b :=
  fun b hb => W22_of_ne m c b fun e => hb (Finset.mem_image.mpr ⟨3, Finset.mem_univ _, e.symm⟩)
/-- Region 2's arrays at its exit: an input array as entered (never written), the output array at the write-backs' fold. -/
theorem hF2 (c : Dev nD) : ∀ w : Fin cfg2.W, (dat2 (tc22 m) c).arrAt w cfg2.N = tc23 m c (Pipeline.arrRef spec2 w)
  | ⟨0, _⟩ => ((dat2 (tc22 m) c).arrAt_in 0 rfl _).trans ((A_eq2 (tc22 m) c 0).trans (W23_of_ne m c _ (by decide)).symm)
  | ⟨1, _⟩ => ((dat2 (tc22 m) c).arrAt_in 1 rfl _).trans ((A_eq2 (tc22 m) c 1).trans (W23_of_ne m c _ (by decide)).symm)
  | ⟨2, _⟩ => ((dat2 (tc22 m) c).arrAt_in 2 rfl _).trans ((A_eq2 (tc22 m) c 2).trans (W23_of_ne m c _ (by decide)).symm)
  | ⟨3, _⟩ => (W23_arr m c).symm
theorem hrest2 (c : Dev nD) : ∀ b, b ∉ Finset.univ.image (Pipeline.arrRef spec2) → tc23 m c b = tc22 m c b :=
  fun b hb => W23_of_ne m c b fun e => hb (Finset.mem_image.mpr ⟨3, Finset.mem_univ _, e.symm⟩)
/-- Region 3's arrays at its exit: an input array as entered (never written), the output array at the write-backs' fold. -/
theorem hF3 (c : Dev nD) : ∀ w : Fin cfg3.W, (dat3 (tc30 m) c).arrAt w cfg3.N = tc31 m c (Pipeline.arrRef spec3 w)
  | ⟨0, _⟩ => ((dat3 (tc30 m) c).arrAt_in 0 rfl _).trans ((A_eq3 (tc30 m) c 0).trans (W31_of_ne m c _ (by decide)).symm)
  | ⟨1, _⟩ => ((dat3 (tc30 m) c).arrAt_in 1 rfl _).trans ((A_eq3 (tc30 m) c 1).trans (W31_of_ne m c _ (by decide)).symm)
  | ⟨2, _⟩ => ((dat3 (tc30 m) c).arrAt_in 2 rfl _).trans ((A_eq3 (tc30 m) c 2).trans (W31_of_ne m c _ (by decide)).symm)
  | ⟨3, _⟩ => (W31_arr m c).symm
theorem hrest3 (c : Dev nD) : ∀ b, b ∉ Finset.univ.image (Pipeline.arrRef spec3) → tc31 m c b = tc30 m c b :=
  fun b hb => W31_of_ne m c b fun e => hb (Finset.mem_image.mpr ⟨3, Finset.mem_univ _, e.symm⟩)
/-- Region 4's arrays at its exit: an input array as entered (never written), the output array at the write-backs' fold. -/
theorem hF4 (c : Dev nD) : ∀ w : Fin cfg4.W, (dat4 (tc31 m) c).arrAt w cfg4.N = tc32 m c (Pipeline.arrRef spec4 w)
  | ⟨0, _⟩ => ((dat4 (tc31 m) c).arrAt_in 0 rfl _).trans ((A_eq4 (tc31 m) c 0).trans (W32_of_ne m c _ (by decide)).symm)
  | ⟨1, _⟩ => ((dat4 (tc31 m) c).arrAt_in 1 rfl _).trans ((A_eq4 (tc31 m) c 1).trans (W32_of_ne m c _ (by decide)).symm)
  | ⟨2, _⟩ => ((dat4 (tc31 m) c).arrAt_in 2 rfl _).trans ((A_eq4 (tc31 m) c 2).trans (W32_of_ne m c _ (by decide)).symm)
  | ⟨3, _⟩ => (W32_arr m c).symm
theorem hrest4 (c : Dev nD) : ∀ b, b ∉ Finset.univ.image (Pipeline.arrRef spec4) → tc32 m c b = tc31 m c b :=
  fun b hb => W32_of_ne m c b fun e => hb (Finset.mem_image.mpr ⟨3, Finset.mem_univ _, e.symm⟩)
/-- Region 5's arrays at its exit: an input array as entered (never written), the output array at the write-backs' fold. -/
theorem hF5 (c : Dev nD) : ∀ w : Fin cfg5.W, (dat5 (tc39 m) c).arrAt w cfg5.N = tc40 m c (Pipeline.arrRef spec5 w)
  | ⟨0, _⟩ => ((dat5 (tc39 m) c).arrAt_in 0 rfl _).trans ((A_eq5 (tc39 m) c 0).trans (W40_of_ne m c _ (by decide)).symm)
  | ⟨1, _⟩ => ((dat5 (tc39 m) c).arrAt_in 1 rfl _).trans ((A_eq5 (tc39 m) c 1).trans (W40_of_ne m c _ (by decide)).symm)
  | ⟨2, _⟩ => ((dat5 (tc39 m) c).arrAt_in 2 rfl _).trans ((A_eq5 (tc39 m) c 2).trans (W40_of_ne m c _ (by decide)).symm)
  | ⟨3, _⟩ => (W40_arr m c).symm
theorem hrest5 (c : Dev nD) : ∀ b, b ∉ Finset.univ.image (Pipeline.arrRef spec5) → tc40 m c b = tc39 m c b :=
  fun b hb => W40_of_ne m c b fun e => hb (Finset.mem_image.mpr ⟨3, Finset.mem_univ _, e.symm⟩)
/-- Region 6's arrays at its exit: an input array as entered (never written), the output array at the write-backs' fold. -/
theorem hF6 (c : Dev nD) : ∀ w : Fin cfg6.W, (dat6 (tc40 m) c).arrAt w cfg6.N = tc41 m c (Pipeline.arrRef spec6 w)
  | ⟨0, _⟩ => ((dat6 (tc40 m) c).arrAt_in 0 rfl _).trans ((A_eq6 (tc40 m) c 0).trans (W41_of_ne m c _ (by decide)).symm)
  | ⟨1, _⟩ => ((dat6 (tc40 m) c).arrAt_in 1 rfl _).trans ((A_eq6 (tc40 m) c 1).trans (W41_of_ne m c _ (by decide)).symm)
  | ⟨2, _⟩ => ((dat6 (tc40 m) c).arrAt_in 2 rfl _).trans ((A_eq6 (tc40 m) c 2).trans (W41_of_ne m c _ (by decide)).symm)
  | ⟨3, _⟩ => (W41_arr m c).symm
theorem hrest6 (c : Dev nD) : ∀ b, b ∉ Finset.univ.image (Pipeline.arrRef spec6) → tc41 m c b = tc40 m c b :=
  fun b hb => W41_of_ne m c b fun e => hb (Finset.mem_image.mpr ⟨3, Finset.mem_univ _, e.symm⟩)
/-- Region 7's arrays at its exit: an input array as entered (never written), the output array at the write-backs' fold. -/
theorem hF7 (c : Dev nD) : ∀ w : Fin cfg7.W, (dat7 (tc48 m) c).arrAt w cfg7.N = tc49 m c (Pipeline.arrRef spec7 w)
  | ⟨0, _⟩ => ((dat7 (tc48 m) c).arrAt_in 0 rfl _).trans ((A_eq7 (tc48 m) c 0).trans (W49_of_ne m c _ (by decide)).symm)
  | ⟨1, _⟩ => ((dat7 (tc48 m) c).arrAt_in 1 rfl _).trans ((A_eq7 (tc48 m) c 1).trans (W49_of_ne m c _ (by decide)).symm)
  | ⟨2, _⟩ => ((dat7 (tc48 m) c).arrAt_in 2 rfl _).trans ((A_eq7 (tc48 m) c 2).trans (W49_of_ne m c _ (by decide)).symm)
  | ⟨3, _⟩ => (W49_arr m c).symm
theorem hrest7 (c : Dev nD) : ∀ b, b ∉ Finset.univ.image (Pipeline.arrRef spec7) → tc49 m c b = tc48 m c b :=
  fun b hb => W49_of_ne m c b fun e => hb (Finset.mem_image.mpr ⟨3, Finset.mem_univ _, e.symm⟩)

/-! ## The proof data family and the thread state -/

/-- Every pipeline's proof data, each at its region's entry contents: a literal match, so that the family at a numeral
    reduces to that region's data. -/
def pdats : (p : Fin 8) → (c : Dev nD) → Dat τ (Elt F) Unit ℕ (UR sig nD τ) ℕ (cfgs p) c
  | ⟨0, _⟩ => fun c => dat0 (tc13 m) c
  | ⟨1, _⟩ => fun c => dat1 (tc21 m) c
  | ⟨2, _⟩ => fun c => dat2 (tc22 m) c
  | ⟨3, _⟩ => fun c => dat3 (tc30 m) c
  | ⟨4, _⟩ => fun c => dat4 (tc31 m) c
  | ⟨5, _⟩ => fun c => dat5 (tc39 m) c
  | ⟨6, _⟩ => fun c => dat6 (tc40 m) c
  | ⟨7, _⟩ => fun c => dat7 (tc48 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (the regions' invariant
    takes it in and gives it back) and its `owes`, at nothing. -/
abbrev R (c : Dev nD) : sProp 𝕄 := iprop((∃ r, prngReg c r) ∗ ∃ W, owes (c : Thread nD τ) (0 : CellTallies nD τ sig Unit) W)
/-- The rest beside the buffers between any two items: always `R`. -/
abbrev E : Fin 9 → Dev nD → sProp 𝕄 := fun _ c => R c

/-! ## The regions as segments -/

-- a library lemma stated over the pinned configuration unifies with the printed one only when unification may unfold
-- plain definitions in a metavariable's type
set_option backward.isDefEq.respectTransparency.types false in
/-- REGION 0 over the thread state: entered from every unscoped buffer at `W13`, left at `W14`. Its arrays are split out
    of the unscoped buffers and put back at the exit contents; the generator register goes into the region's invariant
    and comes out; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (tc13 m) c).loose
  hwaits := Pipeline.hwaits_of_owed_zero _ _ _ _ L lv 0 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec0 c (tc13 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (tc13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (tc13 m c) (tc14 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- Region 0 is entered from the conditional frame's thread state before it and left at the one after it. -/
theorem hpre0 (c : Dev nD) : iprop(StableHlo.held (c : Thread nD τ) (Pipeline.ucRefs τ sig) (Gen.V13 m c) ∗ E (F := F) 0 c) ⊢ (reg0 m).pre c := by
  rw [V13_eq]; exact .rfl
theorem hpost0 (c : Dev nD) : (reg0 m).post c ⊢ iprop(StableHlo.held (c : Thread nD τ) (Pipeline.ucRefs τ sig) (Gen.V14 m (outsOf m) c) ∗ E (F := F) 1 c) := by
  rw [V14_eq]; exact .rfl

-- a library lemma stated over the pinned configuration unifies with the printed one only when unification may unfold
-- plain definitions in a metavariable's type
set_option backward.isDefEq.respectTransparency.types false in
/-- REGION 1 over the thread state: entered from every unscoped buffer at `W21`, left at `W22`. Its arrays are split out
    of the unscoped buffers and put back at the exit contents; the generator register goes into the region's invariant
    and comes out; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (tc21 m) c).loose
  hwaits := Pipeline.hwaits_of_owed_zero _ _ _ _ L lv 1 fun _ _ => rfl
  pre c := iprop(StableHlo.held (c : Thread nD τ) (Pipeline.ucRefs τ sig) (W21 m c) ∗ R c)
  post c := iprop(StableHlo.held (c : Thread nD τ) (Pipeline.ucRefs τ sig) (W22 m c) ∗ R c)
  X c := iprop(∃ r, prngReg c r)
  Y c := iprop(∃ r, prngReg c r)
  Z c := Pipeline.unscopedRest (Ix := Unit) (Name := ℕ) (U := UR sig nD τ) (Lvl := ℕ) spec1 c (tc21 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (tc21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (tc21 m c) (tc22 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- Region 1 is entered from the conditional frame's thread state before it and left at the one after it. -/
theorem hpre1 (c : Dev nD) : iprop(StableHlo.held (c : Thread nD τ) (Pipeline.ucRefs τ sig) (Gen.V21 m (outsOf m) c) ∗ E (F := F) 1 c) ⊢ (reg1 m).pre c := by
  rw [V21_eq]; exact .rfl
theorem hpost1 (c : Dev nD) : (reg1 m).post c ⊢ iprop(StableHlo.held (c : Thread nD τ) (Pipeline.ucRefs τ sig) (Gen.V22 m (outsOf m) c) ∗ E (F := F) 2 c) := by
  rw [V22_eq]; exact .rfl

-- a library lemma stated over the pinned configuration unifies with the printed one only when unification may unfold
-- plain definitions in a metavariable's type
set_option backward.isDefEq.respectTransparency.types false in
/-- REGION 2 over the thread state: entered from every unscoped buffer at `W22`, left at `W23`. Its arrays are split out
    of the unscoped buffers and put back at the exit contents; the generator register goes into the region's invariant
    and comes out; nothing is owed; the kernel has no semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (tc22 m) c).loose
  hwaits := Pipeline.hwaits_of_owed_zero _ _ _ _ L lv 2 fun _ _ => rfl
  pre c := iprop(StableHlo.held (c : Thread nD τ) (Pipeline.ucRefs τ sig) (W22 m c) ∗ R c)
  post c := iprop(StableHlo.held (c : Thread nD τ) (Pipeline.ucRefs τ sig) (W23 m c) ∗ R c)
  X c := iprop(∃ r, prngReg c r)
  Y c := iprop(∃ r, prngReg c r)
  Z c := Pipeline.unscopedRest (Ix := Unit) (Name := ℕ) (U := UR sig nD τ) (Lvl := ℕ) spec2 c (tc22 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (tc22 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (tc22 m c) (tc23 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- Region 2 is entered from the conditional frame's thread state before it and left at the one after it. -/
theorem hpre2 (c : Dev nD) : iprop(StableHlo.held (c : Thread nD τ) (Pipeline.ucRefs τ sig) (Gen.V22 m (outsOf m) c) ∗ E (F := F) 2 c) ⊢ (reg2 m).pre c := by
  rw [V22_eq]; exact .rfl
theorem hpost2 (c : Dev nD) : (reg2 m).post c ⊢ iprop(StableHlo.held (c : Thread nD τ) (Pipeline.ucRefs τ sig) (Gen.V23 m (outsOf m) c) ∗ E (F := F) 3 c) := by
  rw [V23_eq]; exact .rfl

-- a library lemma stated over the pinned configuration unifies with the printed one only when unification may unfold
-- plain definitions in a metavariable's type
set_option backward.isDefEq.respectTransparency.types false in
/-- REGION 3 over the thread state: entered from every unscoped buffer at `W30`, left at `W31`. Its arrays are split out
    of the unscoped buffers and put back at the exit contents; the generator register goes into the region's invariant
    and comes out; nothing is owed; the kernel has no semaphore of its own. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (tc30 m) c).loose
  hwaits := Pipeline.hwaits_of_owed_zero _ _ _ _ L lv 3 fun _ _ => rfl
  pre c := iprop(StableHlo.held (c : Thread nD τ) (Pipeline.ucRefs τ sig) (W30 m c) ∗ R c)
  post c := iprop(StableHlo.held (c : Thread nD τ) (Pipeline.ucRefs τ sig) (W31 m c) ∗ R c)
  X c := iprop(∃ r, prngReg c r)
  Y c := iprop(∃ r, prngReg c r)
  Z c := Pipeline.unscopedRest (Ix := Unit) (Name := ℕ) (U := UR sig nD τ) (Lvl := ℕ) spec3 c (tc30 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (tc30 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (tc30 m c) (tc31 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- Region 3 is entered from the conditional frame's thread state before it and left at the one after it. -/
theorem hpre3 (c : Dev nD) : iprop(StableHlo.held (c : Thread nD τ) (Pipeline.ucRefs τ sig) (Gen.V30 m (outsOf m) c) ∗ E (F := F) 3 c) ⊢ (reg3 m).pre c := by
  rw [V30_eq]; exact .rfl
theorem hpost3 (c : Dev nD) : (reg3 m).post c ⊢ iprop(StableHlo.held (c : Thread nD τ) (Pipeline.ucRefs τ sig) (Gen.V31 m (outsOf m) c) ∗ E (F := F) 4 c) := by
  rw [V31_eq]; exact .rfl

-- a library lemma stated over the pinned configuration unifies with the printed one only when unification may unfold
-- plain definitions in a metavariable's type
set_option backward.isDefEq.respectTransparency.types false in
/-- REGION 4 over the thread state: entered from every unscoped buffer at `W31`, left at `W32`. Its arrays are split out
    of the unscoped buffers and put back at the exit contents; the generator register goes into the region's invariant
    and comes out; nothing is owed; the kernel has no semaphore of its own. -/
def reg4 : Pipeline.RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (tc31 m) c).loose
  hwaits := Pipeline.hwaits_of_owed_zero _ _ _ _ L lv 4 fun _ _ => rfl
  pre c := iprop(StableHlo.held (c : Thread nD τ) (Pipeline.ucRefs τ sig) (W31 m c) ∗ R c)
  post c := iprop(StableHlo.held (c : Thread nD τ) (Pipeline.ucRefs τ sig) (W32 m c) ∗ R c)
  X c := iprop(∃ r, prngReg c r)
  Y c := iprop(∃ r, prngReg c r)
  Z c := Pipeline.unscopedRest (Ix := Unit) (Name := ℕ) (U := UR sig nD τ) (Lvl := ℕ) spec4 c (tc31 m c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (tc31 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (tc31 m c) (tc32 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- Region 4 is entered from the conditional frame's thread state before it and left at the one after it. -/
theorem hpre4 (c : Dev nD) : iprop(StableHlo.held (c : Thread nD τ) (Pipeline.ucRefs τ sig) (Gen.V31 m (outsOf m) c) ∗ E (F := F) 4 c) ⊢ (reg4 m).pre c := by
  rw [V31_eq]; exact .rfl
theorem hpost4 (c : Dev nD) : (reg4 m).post c ⊢ iprop(StableHlo.held (c : Thread nD τ) (Pipeline.ucRefs τ sig) (Gen.V32 m (outsOf m) c) ∗ E (F := F) 5 c) := by
  rw [V32_eq]; exact .rfl

-- a library lemma stated over the pinned configuration unifies with the printed one only when unification may unfold
-- plain definitions in a metavariable's type
set_option backward.isDefEq.respectTransparency.types false in
/-- REGION 5 over the thread state: entered from every unscoped buffer at `W39`, left at `W40`. Its arrays are split out
    of the unscoped buffers and put back at the exit contents; the generator register goes into the region's invariant
    and comes out; nothing is owed; the kernel has no semaphore of its own. -/
def reg5 : Pipeline.RegionSeg (pcfgs (F := F)) Gen.adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (tc39 m) c).loose
  hwaits := Pipeline.hwaits_of_owed_zero _ _ _ _ L lv 5 fun _ _ => rfl
  pre c := iprop(StableHlo.held (c : Thread nD τ) (Pipeline.ucRefs τ sig) (W39 m c) ∗ R c)
  post c := iprop(StableHlo.held (c : Thread nD τ) (Pipeline.ucRefs τ sig) (W40 m c) ∗ R c)
  X c := iprop(∃ r, prngReg c r)
  Y c := iprop(∃ r, prngReg c r)
  Z c := Pipeline.unscopedRest (Ix := Unit) (Name := ℕ) (U := UR sig nD τ) (Lvl := ℕ) spec5 c (tc39 m c)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (tc39 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun _ => rfl)
      (tc39 m c) (tc40 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- Region 5 is entered from the conditional frame's thread state before it and left at the one after it. -/
theorem hpre5 (c : Dev nD) : iprop(StableHlo.held (c : Thread nD τ) (Pipeline.ucRefs τ sig) (Gen.V39 m (outsOf m) c) ∗ E (F := F) 5 c) ⊢ (reg5 m).pre c := by
  rw [V39_eq]; exact .rfl
theorem hpost5 (c : Dev nD) : (reg5 m).post c ⊢ iprop(StableHlo.held (c : Thread nD τ) (Pipeline.ucRefs τ sig) (Gen.V40 m (outsOf m) c) ∗ E (F := F) 6 c) := by
  rw [V40_eq]; exact .rfl

-- a library lemma stated over the pinned configuration unifies with the printed one only when unification may unfold
-- plain definitions in a metavariable's type
set_option backward.isDefEq.respectTransparency.types false in
/-- REGION 6 over the thread state: entered from every unscoped buffer at `W40`, left at `W41`. Its arrays are split out
    of the unscoped buffers and put back at the exit contents; the generator register goes into the region's invariant
    and comes out; nothing is owed; the kernel has no semaphore of its own. -/
def reg6 : Pipeline.RegionSeg (pcfgs (F := F)) Gen.adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (tc40 m) c).loose
  hwaits := Pipeline.hwaits_of_owed_zero _ _ _ _ L lv 6 fun _ _ => rfl
  pre c := iprop(StableHlo.held (c : Thread nD τ) (Pipeline.ucRefs τ sig) (W40 m c) ∗ R c)
  post c := iprop(StableHlo.held (c : Thread nD τ) (Pipeline.ucRefs τ sig) (W41 m c) ∗ R c)
  X c := iprop(∃ r, prngReg c r)
  Y c := iprop(∃ r, prngReg c r)
  Z c := Pipeline.unscopedRest (Ix := Unit) (Name := ℕ) (U := UR sig nD τ) (Lvl := ℕ) spec6 c (tc40 m c)
  hentry c := by
    rw [Pipeline.ownSems0_none]
    have hsplit := Pipeline.arrays_of_unscopedBufs (p := 6) (pcfgs (F := F)) Gen.adm (pdats m) launch6.win launch6.arr_whole c
      ((pdats m 6 c).share_full fun _ => rfl) (tc40 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) Gen.adm (Ix := Unit) (Name := ℕ) (U := UR sig nD τ) (Lvl := ℕ)
      launch6.win launch6.arr_whole c (pdats m) ((pdats m 6 c).share_full fun _ => rfl)
      (tc40 m c) (tc41 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- Region 6 is entered from the conditional frame's thread state before it and left at the one after it. -/
theorem hpre6 (c : Dev nD) : iprop(StableHlo.held (c : Thread nD τ) (Pipeline.ucRefs τ sig) (Gen.V40 m (outsOf m) c) ∗ E (F := F) 6 c) ⊢ (reg6 m).pre c := by
  rw [V40_eq]; exact .rfl
theorem hpost6 (c : Dev nD) : (reg6 m).post c ⊢ iprop(StableHlo.held (c : Thread nD τ) (Pipeline.ucRefs τ sig) (Gen.V41 m (outsOf m) c) ∗ E (F := F) 7 c) := by
  rw [V41_eq]; exact .rfl

-- a library lemma stated over the pinned configuration unifies with the printed one only when unification may unfold
-- plain definitions in a metavariable's type
set_option backward.isDefEq.respectTransparency.types false in
/-- REGION 7 over the thread state: entered from every unscoped buffer at `W48`, left at `W49`. Its arrays are split out
    of the unscoped buffers and put back at the exit contents; the generator register goes into the region's invariant
    and comes out; nothing is owed; the kernel has no semaphore of its own. -/
def reg7 : Pipeline.RegionSeg (pcfgs (F := F)) Gen.adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (tc48 m) c).loose
  hwaits := Pipeline.hwaits_of_owed_zero _ _ _ _ L lv 7 fun _ _ => rfl
  pre c := iprop(StableHlo.held (c : Thread nD τ) (Pipeline.ucRefs τ sig) (W48 m c) ∗ R c)
  post c := iprop(StableHlo.held (c : Thread nD τ) (Pipeline.ucRefs τ sig) (W49 m c) ∗ R c)
  X c := iprop(∃ r, prngReg c r)
  Y c := iprop(∃ r, prngReg c r)
  Z c := Pipeline.unscopedRest (Ix := Unit) (Name := ℕ) (U := UR sig nD τ) (Lvl := ℕ) spec7 c (tc48 m c)
  hentry c := by
    rw [Pipeline.ownSems0_none]
    have hsplit := Pipeline.arrays_of_unscopedBufs (p := 7) (pcfgs (F := F)) Gen.adm (pdats m) launch7.win launch7.arr_whole c
      ((pdats m 7 c).share_full fun _ => rfl) (tc48 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) Gen.adm (Ix := Unit) (Name := ℕ) (U := UR sig nD τ) (Lvl := ℕ)
      launch7.win launch7.arr_whole c (pdats m) ((pdats m 7 c).share_full fun _ => rfl)
      (tc48 m c) (tc49 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- Region 7 is entered from the conditional frame's thread state before it and left at the one after it. -/
theorem hpre7 (c : Dev nD) : iprop(StableHlo.held (c : Thread nD τ) (Pipeline.ucRefs τ sig) (Gen.V48 m (outsOf m) c) ∗ E (F := F) 7 c) ⊢ (reg7 m).pre c := by
  rw [V48_eq]; exact .rfl
theorem hpost7 (c : Dev nD) : (reg7 m).post c ⊢ iprop(StableHlo.held (c : Thread nD τ) (Pipeline.ucRefs τ sig) (Gen.V49 m (outsOf m) c) ∗ E (F := F) 8 c) := by
  rw [V49_eq]; exact .rfl

/-! ## The run -/

-- the conditional run's implicit arguments are found by unifying its conclusion with this one, which takes unfolding
-- plain definitions in a metavariable's type
set_option backward.isDefEq.respectTransparency.types false in
/-- THE RUN of @main: from any memory with zero counters every weakly fair execution on the TensorCores terminates, and every
    final memory holds the program's result (`result`: the fold's last valuation at the returned array) and each argument
    as launched. The conditional run at the eight regions' records, with no user algebra beyond the pipelines' rounds, no
    level, nothing owed at launch and no ghost resource. -/
theorem run_main (ρ : Dev nD → PrngReg) : θ_run defs (onTc (τ := τ) (main (F := F))) ⟨m, fun _ => 0, ρ⟩ (fun r => ∀ c : Dev nD,
      r.2.mem ((c.tc : Thread nD τ).loc main_v194) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  run_cond m (EP := emb₁) (ι := ()) (𝒱₀ := 𝒱₀) (L := L) (lv := lv) (hL := fun _ _ => rfl) (ρ := ρ) (outs := outsOf m) (pdats := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := E)
    (hE0 := by
      refine Pipeline.initEach L lv fun c => ?_
      iintro ⟨⟨-, HO, -, Hp, -⟩, -⟩
      imodintro
      isplitl [Hp]; · iexists _; iexact Hp
      iexists ∅; iexact HO)
    (hE8 := fun c => by iintro ⟨-, HO⟩; iexact HO)
    (R0 := reg0 m) (hpre0 := hpre0 m) (hpost0 := hpost0 m)
    (R1 := reg1 m) (hpre1 := hpre1 m) (hpost1 := hpost1 m)
    (R2 := reg2 m) (hpre2 := hpre2 m) (hpost2 := hpost2 m)
    (R3 := reg3 m) (hpre3 := hpre3 m) (hpost3 := hpost3 m)
    (R4 := reg4 m) (hpre4 := hpre4 m) (hpost4 := hpost4 m)
    (R5 := reg5 m) (hpre5 := hpre5 m) (hpost5 := hpost5 m)
    (R6 := reg6 m) (hpre6 := hpre6 m) (hpost6 := hpost6 m)
    (R7 := reg7 m) (hpre7 := hpre7 m) (hpost7 := hpost7 m)

/-- THE FRAME: every argument array ends holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run_main m ρ)

end Cert.Kernel.Hand

end
-- ==== Proof.KI.Reg0.lean ====
/- The per-region half of the frame for pipeline 0 of @main (the pretransform kernel, out[r,n,:] = (h[n,:] * invdeg[n,r]) @ W[r],
   output width 64), at a PARAMETER `V`: the TensorCore's buffer contents when the region is entered. Each window's block at
   a point (`iblk0`), what the body leaves in the output window's buffer (`out0_3`: its three stores, one [1,5000,64]
   slab per relation, which tile the block), the body's triple (`sound_kernel0`), the proof data (`dat0`) and the
   body obligation (`body_obligation0`). Generic in the float instance. The body also loads each slab of the output
   buffer before storing it; the loaded values are never used, and the triple asks of that buffer only that it is owned. -/
import proofs.«408287_j3659312136510_1_alg».proof.Proof.Gen.KernelIdeal.Launch
import proofs.«408287_j3659312136510_1_alg».proof.Proof.Gen.KernelIdeal.Skeleton
import proofs.«408287_j3659312136510_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extent 5000: the elaborator's structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile of `h` (window 0) is in its current staging buffer at every point, for ANY proof data whose array is
    `V`'s (`hA`) and whose body leaves the block in place (`hafter`): the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The row tile of the inverse out-degrees (window 1), likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The three weight matrices (window 2: the whole array, fetched at the first point only, its block index never
    moving), likewise: unfetched, the buffer still holds the block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- the whole row tile of `h`; -/
abbrev r0_h : Rect S5000x64 := Rect.unit (s := S5000x64) ![0, 0] S5000x64.size inb_S5000x64_S5000x64_0_0
/-- column `r` of the inverse out-degrees' tile; -/
abbrev r0_deg0 : Rect S5000x3 := Rect.unit (s := S5000x3) ![0, 0] S5000x1.size inb_S5000x3_S5000x1_0_0
abbrev r0_deg1 : Rect S5000x3 := Rect.unit (s := S5000x3) ![0, 1] S5000x1.size inb_S5000x3_S5000x1_0_1
abbrev r0_deg2 : Rect S5000x3 := Rect.unit (s := S5000x3) ![0, 2] S5000x1.size inb_S5000x3_S5000x1_0_2
/-- relation `r`'s weight matrix; -/
abbrev r0_w0 : Rect S3x64x64 := Rect.unit (s := S3x64x64) ![0, 0, 0] S1x64x64.size inb_S3x64x64_S1x64x64_0_0_0
abbrev r0_w1 : Rect S3x64x64 := Rect.unit (s := S3x64x64) ![1, 0, 0] S1x64x64.size inb_S3x64x64_S1x64x64_1_0_0
abbrev r0_w2 : Rect S3x64x64 := Rect.unit (s := S3x64x64) ![2, 0, 0] S1x64x64.size inb_S3x64x64_S1x64x64_2_0_0
/-- relation `r`'s slab of the output block. -/
abbrev r0_out0 : Rect S3x5000x64 := Rect.unit (s := S3x5000x64) ![0, 0, 0] S1x5000x64.size inb_S3x5000x64_S1x5000x64_0_0_0
abbrev r0_out1 : Rect S3x5000x64 := Rect.unit (s := S3x5000x64) ![1, 0, 0] S1x5000x64.size inb_S3x5000x64_S1x5000x64_1_0_0
abbrev r0_out2 : Rect S3x5000x64 := Rect.unit (s := S3x5000x64) ![2, 0, 0] S1x5000x64.size inb_S3x5000x64_S1x5000x64_2_0_0

/-! ## What the body leaves in the output window's buffer -/

/-- The output window's staging buffer after the body, from the input windows' blocks (`x0` the tile of `h`, `x1` the
    tile of the inverse out-degrees, `x2` the weights): its 3 stores as pieces, LAST FIRST — relation 2's slab, then
    relation 1's, then relation 0's; the payloads are the skeleton's. -/
def out0_3 (x0 : Vec F S5000x64 .f32) (x1 : Vec F S5000x3 .f32) (x2 : Vec F S3x64x64 .f32) : Vec F S3x5000x64 .f32 :=
  View.canon [⟨r0_out2, k0_pay1 (k0_pay4 (View.ld x0 r0_h) (View.ld x1 r0_deg2)) (k0_pay5 (View.ld x2 r0_w2))⟩,
    ⟨r0_out1, k0_pay3 (View.ld x0 r0_h) (View.ld x1 r0_deg1) (View.ld x2 r0_w1)⟩,
    ⟨r0_out0, k0_pay2 (View.ld x0 r0_h) (View.ld x1 r0_deg0) (View.ld x2 r0_w0)⟩]

/-- Its stores tile the buffer (checked by evaluation), so they cover it. -/
theorem cover0_3 (p0 : Vec F S1x5000x64 .f32) (p1 : Vec F S1x5000x64 .f32) (p2 : Vec F S1x5000x64 .f32) (y : S3x5000x64.Idx) :
    ∃ pc ∈ ([⟨r0_out2, p0⟩, ⟨r0_out1, p1⟩, ⟨r0_out0, p2⟩] : List (View.Piece (Elt F) S3x5000x64 .f32)), y ∈ pc.1.set :=
  View.cover_of_tiled [⟨r0_out2, p0⟩, ⟨r0_out1, p1⟩, ⟨r0_out0, p2⟩] S1x5000x64.size (by rfl) y

/-! ## The body's triple -/

set_option maxHeartbeats 4000000 in
/-- The kernel body on whole staging memrefs, the inputs' at read contents `xW` and the output's at anything, runs to
    the continuation holding the inputs' as they were and the output's at `out0_3` of the inputs': the printed
    functions are their skeletons, which are run statement by statement, through the part call. The loads of the
    output buffer read whatever it holds and bind values no store's payload mentions. -/
theorem sound_kernel0 (c : Dev nD) (E : Set ℕ) (i : grid0.Coords) (arg1 : Memref sig .tc .vmem S5000x64 .f32) (harg1 : arg1.IsWhole) (arg2 : Memref sig .tc .vmem S5000x3 .f32) (harg2 : arg2.IsWhole) (arg3 : Memref sig .tc .vmem S3x64x64 .f32) (harg3 : arg3.IsWhole) (arg4 : Memref sig .tc .vmem S3x5000x64 .f32) (harg4 : arg4.IsWhole)
    (x0 : Vec F S5000x64 .f32) (x1 : Vec F S5000x3 .f32) (x2 : Vec F S3x64x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__pretransform_kernel i arg1 harg1 arg2 harg2 arg3 harg3 arg4 harg4) K := by
  simp only [cc0__pretransform_kernel_eq_skeleton]; unfold cc0__pretransform_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _ _ _)

/-! ## The pipeline's proof data -/

/-- The proof data of pipeline 0 on core `c`: the arrays as the region finds them (`V`); after the body at point `t`
    each input's buffer at its block and the output's at `out0_3` of the input blocks; the invariant: the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«408287_j3659312136510_1_alg».proof.Proof.Gen.KernelIdeal.Launch
import proofs.«408287_j3659312136510_1_alg».proof.Proof.Gen.KernelIdeal.Skeleton
import proofs.«408287_j3659312136510_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Pipeline 1: the aggregation kernel's half of the frame, at any entry contents

The kernel of pipeline 1 reads, at each of the 20 row tiles, a block of three slabs of aggregated messages
(`[3,5000,64]`), a block of inverse in-degrees (`[5000,3]`) and the whole bias table (`[3,64]`), and writes one
block `[5000,64]`: the sum over the three relations of slab times degree column plus bias row, cut below at zero. This module states, for ANY
contents `V` of the TensorCore's buffers at the region's entry: each window's block at a grid point; what the
body leaves in the output window's buffer as a function of the three input blocks; the body's triple; the
pipeline's proof data and its body obligation. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- Slab `r` of the aggregated block, `[1,5000,64]` at `[r,0,0]`. -/
abbrev slab1_0 : Rect S3x5000x64 := Rect.unit (s := S3x5000x64) ![0, 0, 0] S1x5000x64.size inb_S3x5000x64_S1x5000x64_0_0_0
abbrev slab1_1 : Rect S3x5000x64 := Rect.unit (s := S3x5000x64) ![1, 0, 0] S1x5000x64.size inb_S3x5000x64_S1x5000x64_1_0_0
abbrev slab1_2 : Rect S3x5000x64 := Rect.unit (s := S3x5000x64) ![2, 0, 0] S1x5000x64.size inb_S3x5000x64_S1x5000x64_2_0_0
/-- Column `r` of the degree block, `[5000,1]` at `[0,r]`. -/
abbrev col1_0 : Rect S5000x3 := Rect.unit (s := S5000x3) ![0, 0] S5000x1.size inb_S5000x3_S5000x1_0_0
abbrev col1_1 : Rect S5000x3 := Rect.unit (s := S5000x3) ![0, 1] S5000x1.size inb_S5000x3_S5000x1_0_1
abbrev col1_2 : Rect S5000x3 := Rect.unit (s := S5000x3) ![0, 2] S5000x1.size inb_S5000x3_S5000x1_0_2
/-- Row `r` of the bias table, `[1,64]` at `[r,0]`. -/
abbrev row1_0 : Rect S3x64 := Rect.unit (s := S3x64) ![0, 0] S1x64.size inb_S3x64_S1x64_0_0
abbrev row1_1 : Rect S3x64 := Rect.unit (s := S3x64) ![1, 0] S1x64.size inb_S3x64_S1x64_1_0
abbrev row1_2 : Rect S3x64 := Rect.unit (s := S3x64) ![2, 0] S1x64.size inb_S3x64_S1x64_2_0
/-- The whole output block. -/
abbrev whole1 : Rect S5000x64 := Rect.unit (s := S5000x64) ![0, 0] S5000x64.size inb_S5000x64_S5000x64_0_0

/-! ## What the body leaves in the output window's buffer -/

/-- The value the body stores, from the three input blocks: the accumulated sum over the three relations of
    slab times degree column plus bias row, then the maximum with zero. -/
def val1 (x0 : Vec F S3x5000x64 .f32) (x1 : Vec F S5000x3 .f32) (x2 : Vec F S3x64 .f32) : FVec F S5000x64 .f32 :=
  k1_pay1 (k1_pay2 (View.ld x1 col1_0) (View.ld x0 slab1_0) (View.ld x2 row1_0)
    (View.ld x1 col1_1) (View.ld x0 slab1_1) (View.ld x2 row1_1)
    (View.ld x1 col1_2) (View.ld x0 slab1_2) (View.ld x2 row1_2))

/-- Window 3's staging buffer after the body, from the input windows' blocks: its one store, of the whole block. -/
def out1_3 (x0 : Vec F S3x5000x64 .f32) (x1 : Vec F S5000x3 .f32) (x2 : Vec F S3x64 .f32) : Vec F S5000x64 .f32 :=
  View.canon [⟨whole1, val1 x0 x1 x2⟩]

/-- The one store is of the whole block, so it covers the buffer. -/
theorem cover1_3 (p0 : Vec F S5000x64 .f32) (y : S5000x64.Idx) :
    ∃ pc ∈ ([⟨whole1, p0⟩] : List (View.Piece (Elt F) S5000x64 .f32)), y ∈ pc.1.set :=
  View.cover_of_tiled [⟨whole1, p0⟩] S5000x64.size (by rfl) y

/-! ## The body's triple -/

set_option maxHeartbeats 4000000 in
/-- The kernel body on whole staging memrefs, the three inputs' at read contents `x0 x1 x2` and the output's at
    anything, runs to the continuation holding the inputs' as they were and the output's at `out1_3` of the inputs'. -/
theorem sound_kernel1 (c : Dev nD) (E : Set ℕ) (i : grid1.Coords)
    (arg0 : Memref sig .tc .vmem S3x5000x64 .f32) (harg0 : arg0.IsWhole) (arg1 : Memref sig .tc .vmem S5000x3 .f32) (harg1 : arg1.IsWhole)
    (arg2 : Memref sig .tc .vmem S3x64 .f32) (harg2 : arg2.IsWhole) (arg3 : Memref sig .tc .vmem S5000x64 .f32) (harg3 : arg3.IsWhole)
    (x0 : Vec F S3x5000x64 .f32) (x1 : Vec F S5000x3 .f32) (x2 : Vec F S3x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__postagg_kernel i arg0 harg0 arg1 harg1 arg2 harg2 arg3 harg3) K := by
  simp only [cc1__postagg_kernel_eq_skeleton]; unfold cc1__postagg_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point
    `t` each input's buffer at its block and the output's at `out1_3` of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand
-- ==== Proof.KI.Reg2.lean ====
/- The per-region half of the frame for pipeline 2 of @main (the pretransform kernel, out[r,n,:] = (h[n,:] * invdeg[n,r]) @ W[r],
   output width 64), at a PARAMETER `V`: the TensorCore's buffer contents when the region is entered. Each window's block at
   a point (`iblk2`), what the body leaves in the output window's buffer (`out2_3`: its three stores, one [1,5000,64]
   slab per relation, which tile the block), the body's triple (`sound_kernel2`), the proof data (`dat2`) and the
   body obligation (`body_obligation2`). Generic in the float instance. The body also loads each slab of the output
   buffer before storing it; the loaded values are never used, and the triple asks of that buffer only that it is owned. -/
import proofs.«408287_j3659312136510_1_alg».proof.Proof.Gen.KernelIdeal.Launch
import proofs.«408287_j3659312136510_1_alg».proof.Proof.Gen.KernelIdeal.Skeleton
import proofs.«408287_j3659312136510_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extent 5000: the elaborator's structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row tile of `h` (window 0) is in its current staging buffer at every point, for ANY proof data whose array is
    `V`'s (`hA`) and whose body leaves the block in place (`hafter`): the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The row tile of the inverse out-degrees (window 1), likewise. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The three weight matrices (window 2: the whole array, fetched at the first point only, its block index never
    moving), likewise: unfetched, the buffer still holds the block. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- the whole row tile of `h`; -/
abbrev r2_h : Rect S5000x64 := Rect.unit (s := S5000x64) ![0, 0] S5000x64.size inb_S5000x64_S5000x64_0_0
/-- column `r` of the inverse out-degrees' tile; -/
abbrev r2_deg0 : Rect S5000x3 := Rect.unit (s := S5000x3) ![0, 0] S5000x1.size inb_S5000x3_S5000x1_0_0
abbrev r2_deg1 : Rect S5000x3 := Rect.unit (s := S5000x3) ![0, 1] S5000x1.size inb_S5000x3_S5000x1_0_1
abbrev r2_deg2 : Rect S5000x3 := Rect.unit (s := S5000x3) ![0, 2] S5000x1.size inb_S5000x3_S5000x1_0_2
/-- relation `r`'s weight matrix; -/
abbrev r2_w0 : Rect S3x64x64 := Rect.unit (s := S3x64x64) ![0, 0, 0] S1x64x64.size inb_S3x64x64_S1x64x64_0_0_0
abbrev r2_w1 : Rect S3x64x64 := Rect.unit (s := S3x64x64) ![1, 0, 0] S1x64x64.size inb_S3x64x64_S1x64x64_1_0_0
abbrev r2_w2 : Rect S3x64x64 := Rect.unit (s := S3x64x64) ![2, 0, 0] S1x64x64.size inb_S3x64x64_S1x64x64_2_0_0
/-- relation `r`'s slab of the output block. -/
abbrev r2_out0 : Rect S3x5000x64 := Rect.unit (s := S3x5000x64) ![0, 0, 0] S1x5000x64.size inb_S3x5000x64_S1x5000x64_0_0_0
abbrev r2_out1 : Rect S3x5000x64 := Rect.unit (s := S3x5000x64) ![1, 0, 0] S1x5000x64.size inb_S3x5000x64_S1x5000x64_1_0_0
abbrev r2_out2 : Rect S3x5000x64 := Rect.unit (s := S3x5000x64) ![2, 0, 0] S1x5000x64.size inb_S3x5000x64_S1x5000x64_2_0_0

/-! ## What the body leaves in the output window's buffer -/

/-- The output window's staging buffer after the body, from the input windows' blocks (`x0` the tile of `h`, `x1` the
    tile of the inverse out-degrees, `x2` the weights): its 3 stores as pieces, LAST FIRST — relation 2's slab, then
    relation 1's, then relation 0's; the payloads are the skeleton's. -/
def out2_3 (x0 : Vec F S5000x64 .f32) (x1 : Vec F S5000x3 .f32) (x2 : Vec F S3x64x64 .f32) : Vec F S3x5000x64 .f32 :=
  View.canon [⟨r2_out2, k2_pay1 (k2_pay5 (View.ld x0 r2_h) (View.ld x1 r2_deg2)) (View.ld x2 r2_w2)⟩,
    ⟨r2_out1, k2_pay4 (View.ld x0 r2_h) (View.ld x1 r2_deg1) (View.ld x2 r2_w1)⟩,
    ⟨r2_out0, k2_pay3 (View.ld x0 r2_h) (View.ld x1 r2_deg0) (View.ld x2 r2_w0)⟩]

/-- Its stores tile the buffer (checked by evaluation), so they cover it. -/
theorem cover2_3 (p0 : Vec F S1x5000x64 .f32) (p1 : Vec F S1x5000x64 .f32) (p2 : Vec F S1x5000x64 .f32) (y : S3x5000x64.Idx) :
    ∃ pc ∈ ([⟨r2_out2, p0⟩, ⟨r2_out1, p1⟩, ⟨r2_out0, p2⟩] : List (View.Piece (Elt F) S3x5000x64 .f32)), y ∈ pc.1.set :=
  View.cover_of_tiled [⟨r2_out2, p0⟩, ⟨r2_out1, p1⟩, ⟨r2_out0, p2⟩] S1x5000x64.size (by rfl) y

/-! ## The body's triple -/

set_option maxHeartbeats 4000000 in
/-- The kernel body on whole staging memrefs, the inputs' at read contents `xW` and the output's at anything, runs to
    the continuation holding the inputs' as they were and the output's at `out2_3` of the inputs': the printed
    functions are their skeletons, which are run statement by statement, through the part call. The loads of the
    output buffer read whatever it holds and bind values no store's payload mentions. -/
theorem sound_kernel2 (c : Dev nD) (E : Set ℕ) (i : grid2.Coords) (arg1 : Memref sig .tc .vmem S5000x64 .f32) (harg1 : arg1.IsWhole) (arg2 : Memref sig .tc .vmem S5000x3 .f32) (harg2 : arg2.IsWhole) (arg3 : Memref sig .tc .vmem S3x64x64 .f32) (harg3 : arg3.IsWhole) (arg4 : Memref sig .tc .vmem S3x5000x64 .f32) (harg4 : arg4.IsWhole)
    (x0 : Vec F S5000x64 .f32) (x1 : Vec F S5000x3 .f32) (x2 : Vec F S3x64x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__pretransform_kernel i arg1 harg1 arg2 harg2 arg3 harg3 arg4 harg4) K := by
  simp only [cc2__pretransform_kernel_eq_skeleton]; unfold cc2__pretransform_kernel_skel
  simp only [k2_part1_eq_skeleton]; unfold k2_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover2_3 _ _ _)

/-! ## The pipeline's proof data -/

/-- The proof data of pipeline 2 on core `c`: the arrays as the region finds them (`V`); after the body at point `t`
    each input's buffer at its block and the output's at `out2_3` of the input blocks; the invariant: the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
import proofs.«408287_j3659312136510_1_alg».proof.Proof.Gen.KernelIdeal.Launch
import proofs.«408287_j3659312136510_1_alg».proof.Proof.Gen.KernelIdeal.Skeleton
import proofs.«408287_j3659312136510_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Pipeline 3: the aggregation kernel's half of the frame, at any entry contents

The kernel of pipeline 3 reads, at each of the 20 row tiles, a block of three slabs of aggregated messages
(`[3,5000,64]`), a block of inverse in-degrees (`[5000,3]`) and the whole bias table (`[3,64]`), and writes one
block `[5000,64]`: the sum over the three relations of slab times degree column plus bias row, cut below at zero. This module states, for ANY
contents `V` of the TensorCore's buffers at the region's entry: each window's block at a grid point; what the
body leaves in the output window's buffer as a function of the three input blocks; the body's triple; the
pipeline's proof data and its body obligation. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof
    data whose array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- Slab `r` of the aggregated block, `[1,5000,64]` at `[r,0,0]`. -/
abbrev slab3_0 : Rect S3x5000x64 := Rect.unit (s := S3x5000x64) ![0, 0, 0] S1x5000x64.size inb_S3x5000x64_S1x5000x64_0_0_0
abbrev slab3_1 : Rect S3x5000x64 := Rect.unit (s := S3x5000x64) ![1, 0, 0] S1x5000x64.size inb_S3x5000x64_S1x5000x64_1_0_0
abbrev slab3_2 : Rect S3x5000x64 := Rect.unit (s := S3x5000x64) ![2, 0, 0] S1x5000x64.size inb_S3x5000x64_S1x5000x64_2_0_0
/-- Column `r` of the degree block, `[5000,1]` at `[0,r]`. -/
abbrev col3_0 : Rect S5000x3 := Rect.unit (s := S5000x3) ![0, 0] S5000x1.size inb_S5000x3_S5000x1_0_0
abbrev col3_1 : Rect S5000x3 := Rect.unit (s := S5000x3) ![0, 1] S5000x1.size inb_S5000x3_S5000x1_0_1
abbrev col3_2 : Rect S5000x3 := Rect.unit (s := S5000x3) ![0, 2] S5000x1.size inb_S5000x3_S5000x1_0_2
/-- Row `r` of the bias table, `[1,64]` at `[r,0]`. -/
abbrev row3_0 : Rect S3x64 := Rect.unit (s := S3x64) ![0, 0] S1x64.size inb_S3x64_S1x64_0_0
abbrev row3_1 : Rect S3x64 := Rect.unit (s := S3x64) ![1, 0] S1x64.size inb_S3x64_S1x64_1_0
abbrev row3_2 : Rect S3x64 := Rect.unit (s := S3x64) ![2, 0] S1x64.size inb_S3x64_S1x64_2_0
/-- The whole output block. -/
abbrev whole3 : Rect S5000x64 := Rect.unit (s := S5000x64) ![0, 0] S5000x64.size inb_S5000x64_S5000x64_0_0

/-! ## What the body leaves in the output window's buffer -/

/-- The value the body stores, from the three input blocks: the accumulated sum over the three relations of
    slab times degree column plus bias row, then the maximum with zero. -/
def val3 (x0 : Vec F S3x5000x64 .f32) (x1 : Vec F S5000x3 .f32) (x2 : Vec F S3x64 .f32) : FVec F S5000x64 .f32 :=
  k3_pay1 (k3_pay2 (View.ld x1 col3_0) (View.ld x0 slab3_0) (View.ld x2 row3_0)
    (View.ld x1 col3_1) (View.ld x0 slab3_1) (View.ld x2 row3_1)
    (View.ld x1 col3_2) (View.ld x0 slab3_2) (View.ld x2 row3_2))

/-- Window 3's staging buffer after the body, from the input windows' blocks: its one store, of the whole block. -/
def out3_3 (x0 : Vec F S3x5000x64 .f32) (x1 : Vec F S5000x3 .f32) (x2 : Vec F S3x64 .f32) : Vec F S5000x64 .f32 :=
  View.canon [⟨whole3, val3 x0 x1 x2⟩]

/-- The one store is of the whole block, so it covers the buffer. -/
theorem cover3_3 (p0 : Vec F S5000x64 .f32) (y : S5000x64.Idx) :
    ∃ pc ∈ ([⟨whole3, p0⟩] : List (View.Piece (Elt F) S5000x64 .f32)), y ∈ pc.1.set :=
  View.cover_of_tiled [⟨whole3, p0⟩] S5000x64.size (by rfl) y

/-! ## The body's triple -/

set_option maxHeartbeats 4000000 in
/-- The kernel body on whole staging memrefs, the three inputs' at read contents `x0 x1 x2` and the output's at
    anything, runs to the continuation holding the inputs' as they were and the output's at `out3_3` of the inputs'. -/
theorem sound_kernel3 (c : Dev nD) (E : Set ℕ) (i : grid3.Coords)
    (arg0 : Memref sig .tc .vmem S3x5000x64 .f32) (harg0 : arg0.IsWhole) (arg1 : Memref sig .tc .vmem S5000x3 .f32) (harg1 : arg1.IsWhole)
    (arg2 : Memref sig .tc .vmem S3x64 .f32) (harg2 : arg2.IsWhole) (arg3 : Memref sig .tc .vmem S5000x64 .f32) (harg3 : arg3.IsWhole)
    (x0 : Vec F S3x5000x64 .f32) (x1 : Vec F S5000x3 .f32) (x2 : Vec F S3x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out3_3 x0 x1 x2)) -∗ K ⟨⟩))
      ⊢ wp frame (wpE (defs₀ (F := F)) Variants.none c none) E (cc3__postagg_kernel i arg0 harg0 arg1 harg1 arg2 harg2 arg3 harg3) K := by
  simp only [cc3__postagg_kernel_eq_skeleton]; unfold cc3__postagg_kernel_skel
  simp only [k3_part1_eq_skeleton]; unfold k3_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at point
    `t` each input's buffer at its block and the output's at `out3_3` of the input blocks; the invariant is the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.KI.Reg4.lean ====
/- The per-region half of the frame for pipeline 4 of @main (the pretransform kernel, out[r,n,:] = (h[n,:] * invdeg[n,r]) @ W[r],
   output width 64), at a PARAMETER `V`: the TensorCore's buffer contents when the region is entered. Each window's block at
   a point (`iblk4`), what the body leaves in the output window's buffer (`out4_3`: its three stores, one [1,5000,64]
   slab per relation, which tile the block), the body's triple (`sound_kernel4`), the proof data (`dat4`) and the
   body obligation (`body_obligation4`). Generic in the float instance. The body also loads each slab of the output
   buffer before storing it; the loaded values are never used, and the triple asks of that buffer only that it is owned. -/
import proofs.«408287_j3659312136510_1_alg».proof.Proof.Gen.KernelIdeal.Launch
import proofs.«408287_j3659312136510_1_alg».proof.Proof.Gen.KernelIdeal.Skeleton
import proofs.«408287_j3659312136510_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extent 5000: the elaborator's structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The row tile of `h` (window 0) is in its current staging buffer at every point, for ANY proof data whose array is
    `V`'s (`hA`) and whose body leaves the block in place (`hafter`): the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The row tile of the inverse out-degrees (window 1), likewise. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- The three weight matrices (window 2: the whole array, fetched at the first point only, its block index never
    moving), likewise: unfetched, the buffer still holds the block. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- the whole row tile of `h`; -/
abbrev r4_h : Rect S5000x64 := Rect.unit (s := S5000x64) ![0, 0] S5000x64.size inb_S5000x64_S5000x64_0_0
/-- column `r` of the inverse out-degrees' tile; -/
abbrev r4_deg0 : Rect S5000x3 := Rect.unit (s := S5000x3) ![0, 0] S5000x1.size inb_S5000x3_S5000x1_0_0
abbrev r4_deg1 : Rect S5000x3 := Rect.unit (s := S5000x3) ![0, 1] S5000x1.size inb_S5000x3_S5000x1_0_1
abbrev r4_deg2 : Rect S5000x3 := Rect.unit (s := S5000x3) ![0, 2] S5000x1.size inb_S5000x3_S5000x1_0_2
/-- relation `r`'s weight matrix; -/
abbrev r4_w0 : Rect S3x64x64 := Rect.unit (s := S3x64x64) ![0, 0, 0] S1x64x64.size inb_S3x64x64_S1x64x64_0_0_0
abbrev r4_w1 : Rect S3x64x64 := Rect.unit (s := S3x64x64) ![1, 0, 0] S1x64x64.size inb_S3x64x64_S1x64x64_1_0_0
abbrev r4_w2 : Rect S3x64x64 := Rect.unit (s := S3x64x64) ![2, 0, 0] S1x64x64.size inb_S3x64x64_S1x64x64_2_0_0
/-- relation `r`'s slab of the output block. -/
abbrev r4_out0 : Rect S3x5000x64 := Rect.unit (s := S3x5000x64) ![0, 0, 0] S1x5000x64.size inb_S3x5000x64_S1x5000x64_0_0_0
abbrev r4_out1 : Rect S3x5000x64 := Rect.unit (s := S3x5000x64) ![1, 0, 0] S1x5000x64.size inb_S3x5000x64_S1x5000x64_1_0_0
abbrev r4_out2 : Rect S3x5000x64 := Rect.unit (s := S3x5000x64) ![2, 0, 0] S1x5000x64.size inb_S3x5000x64_S1x5000x64_2_0_0

/-! ## What the body leaves in the output window's buffer -/

/-- The output window's staging buffer after the body, from the input windows' blocks (`x0` the tile of `h`, `x1` the
    tile of the inverse out-degrees, `x2` the weights): its 3 stores as pieces, LAST FIRST — relation 2's slab, then
    relation 1's, then relation 0's; the payloads are the skeleton's. -/
def out4_3 (x0 : Vec F S5000x64 .f32) (x1 : Vec F S5000x3 .f32) (x2 : Vec F S3x64x64 .f32) : Vec F S3x5000x64 .f32 :=
  View.canon [⟨r4_out2, k4_pay1 (k4_pay5 (View.ld x0 r4_h) (View.ld x1 r4_deg2)) (View.ld x2 r4_w2)⟩,
    ⟨r4_out1, k4_pay4 (View.ld x0 r4_h) (View.ld x1 r4_deg1) (View.ld x2 r4_w1)⟩,
    ⟨r4_out0, k4_pay3 (View.ld x0 r4_h) (View.ld x1 r4_deg0) (View.ld x2 r4_w0)⟩]

/-- Its stores tile the buffer (checked by evaluation), so they cover it. -/
theorem cover4_3 (p0 : Vec F S1x5000x64 .f32) (p1 : Vec F S1x5000x64 .f32) (p2 : Vec F S1x5000x64 .f32) (y : S3x5000x64.Idx) :
    ∃ pc ∈ ([⟨r4_out2, p0⟩, ⟨r4_out1, p1⟩, ⟨r4_out0, p2⟩] : List (View.Piece (Elt F) S3x5000x64 .f32)), y ∈ pc.1.set :=
  View.cover_of_tiled [⟨r4_out2, p0⟩, ⟨r4_out1, p1⟩, ⟨r4_out0, p2⟩] S1x5000x64.size (by rfl) y

/-! ## The body's triple -/

set_option maxHeartbeats 4000000 in
/-- The kernel body on whole staging memrefs, the inputs' at read contents `xW` and the output's at anything, runs to
    the continuation holding the inputs' as they were and the output's at `out4_3` of the inputs': the printed
    functions are their skeletons, which are run statement by statement, through the part call. The loads of the
    output buffer read whatever it holds and bind values no store's payload mentions. -/
theorem sound_kernel4 (c : Dev nD) (E : Set ℕ) (i : grid4.Coords) (arg1 : Memref sig .tc .vmem S5000x64 .f32) (harg1 : arg1.IsWhole) (arg2 : Memref sig .tc .vmem S5000x3 .f32) (harg2 : arg2.IsWhole) (arg3 : Memref sig .tc .vmem S3x64x64 .f32) (harg3 : arg3.IsWhole) (arg4 : Memref sig .tc .vmem S3x5000x64 .f32) (harg4 : arg4.IsWhole)
    (x0 : Vec F S5000x64 .f32) (x1 : Vec F S5000x3 .f32) (x2 : Vec F S3x64x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__pretransform_kernel i arg1 harg1 arg2 harg2 arg3 harg3 arg4 harg4) K := by
  simp only [cc4__pretransform_kernel_eq_skeleton]; unfold cc4__pretransform_kernel_skel
  simp only [k4_part1_eq_skeleton]; unfold k4_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover4_3 _ _ _)

/-! ## The pipeline's proof data -/

/-- The proof data of pipeline 4 on core `c`: the arrays as the region finds them (`V`); after the body at point `t`
    each input's buffer at its block and the output's at `out4_3` of the input blocks; the invariant: the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents (the definition projected). -/
theorem A_eq4 (c : Dev nD) (w : Fin cfg4.W) : (dat4 V c).A w = V c (Pipeline.arrRef spec4 w) := by
  dsimp only [dat4]

/-- What the body leaves, window by window (the proof data's `match` reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Reg5.lean ====
import proofs.«408287_j3659312136510_1_alg».proof.Proof.Gen.KernelIdeal.Launch
import proofs.«408287_j3659312136510_1_alg».proof.Proof.Gen.KernelIdeal.Skeleton
import proofs.«408287_j3659312136510_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Pipeline 5: the aggregation kernel's half of the frame, at any entry contents

The kernel of pipeline 5 reads, at each of the 20 row tiles, a block of three slabs of aggregated messages
(`[3,5000,64]`), a block of inverse in-degrees (`[5000,3]`) and the whole bias table (`[3,64]`), and writes one
block `[5000,64]`: the sum over the three relations of slab times degree column plus bias row, cut below at zero. This module states, for ANY
contents `V` of the TensorCore's buffers at the region's entry: each window's block at a grid point; what the
body leaves in the output window's buffer as a function of the three input blocks; the body's triple; the
pipeline's proof data and its body obligation. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not, for any proof
    data whose array is `V`'s and whose body leaves the block in place: unfetched, the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- Slab `r` of the aggregated block, `[1,5000,64]` at `[r,0,0]`. -/
abbrev slab5_0 : Rect S3x5000x64 := Rect.unit (s := S3x5000x64) ![0, 0, 0] S1x5000x64.size inb_S3x5000x64_S1x5000x64_0_0_0
abbrev slab5_1 : Rect S3x5000x64 := Rect.unit (s := S3x5000x64) ![1, 0, 0] S1x5000x64.size inb_S3x5000x64_S1x5000x64_1_0_0
abbrev slab5_2 : Rect S3x5000x64 := Rect.unit (s := S3x5000x64) ![2, 0, 0] S1x5000x64.size inb_S3x5000x64_S1x5000x64_2_0_0
/-- Column `r` of the degree block, `[5000,1]` at `[0,r]`. -/
abbrev col5_0 : Rect S5000x3 := Rect.unit (s := S5000x3) ![0, 0] S5000x1.size inb_S5000x3_S5000x1_0_0
abbrev col5_1 : Rect S5000x3 := Rect.unit (s := S5000x3) ![0, 1] S5000x1.size inb_S5000x3_S5000x1_0_1
abbrev col5_2 : Rect S5000x3 := Rect.unit (s := S5000x3) ![0, 2] S5000x1.size inb_S5000x3_S5000x1_0_2
/-- Row `r` of the bias table, `[1,64]` at `[r,0]`. -/
abbrev row5_0 : Rect S3x64 := Rect.unit (s := S3x64) ![0, 0] S1x64.size inb_S3x64_S1x64_0_0
abbrev row5_1 : Rect S3x64 := Rect.unit (s := S3x64) ![1, 0] S1x64.size inb_S3x64_S1x64_1_0
abbrev row5_2 : Rect S3x64 := Rect.unit (s := S3x64) ![2, 0] S1x64.size inb_S3x64_S1x64_2_0
/-- The whole output block. -/
abbrev whole5 : Rect S5000x64 := Rect.unit (s := S5000x64) ![0, 0] S5000x64.size inb_S5000x64_S5000x64_0_0

/-! ## What the body leaves in the output window's buffer -/

/-- The value the body stores, from the three input blocks: the accumulated sum over the three relations of
    slab times degree column plus bias row, then the maximum with zero. -/
def val5 (x0 : Vec F S3x5000x64 .f32) (x1 : Vec F S5000x3 .f32) (x2 : Vec F S3x64 .f32) : FVec F S5000x64 .f32 :=
  k5_pay1 (k5_pay2 (View.ld x1 col5_0) (View.ld x0 slab5_0) (View.ld x2 row5_0)
    (View.ld x1 col5_1) (View.ld x0 slab5_1) (View.ld x2 row5_1)
    (View.ld x1 col5_2) (View.ld x0 slab5_2) (View.ld x2 row5_2))

/-- Window 3's staging buffer after the body, from the input windows' blocks: its one store, of the whole block. -/
def out5_3 (x0 : Vec F S3x5000x64 .f32) (x1 : Vec F S5000x3 .f32) (x2 : Vec F S3x64 .f32) : Vec F S5000x64 .f32 :=
  View.canon [⟨whole5, val5 x0 x1 x2⟩]

/-- The one store is of the whole block, so it covers the buffer. -/
theorem cover5_3 (p0 : Vec F S5000x64 .f32) (y : S5000x64.Idx) :
    ∃ pc ∈ ([⟨whole5, p0⟩] : List (View.Piece (Elt F) S5000x64 .f32)), y ∈ pc.1.set :=
  View.cover_of_tiled [⟨whole5, p0⟩] S5000x64.size (by rfl) y

/-! ## The body's triple -/

set_option maxHeartbeats 4000000 in
/-- The kernel body on whole staging memrefs, the three inputs' at read contents `x0 x1 x2` and the output's at
    anything, runs to the continuation holding the inputs' as they were and the output's at `out5_3` of the inputs'. -/
theorem sound_kernel5 (c : Dev nD) (E : Set ℕ) (i : grid5.Coords)
    (arg0 : Memref sig .tc .vmem S3x5000x64 .f32) (harg0 : arg0.IsWhole) (arg1 : Memref sig .tc .vmem S5000x3 .f32) (harg1 : arg1.IsWhole)
    (arg2 : Memref sig .tc .vmem S3x64 .f32) (harg2 : arg2.IsWhole) (arg3 : Memref sig .tc .vmem S5000x64 .f32) (harg3 : arg3.IsWhole)
    (x0 : Vec F S3x5000x64 .f32) (x1 : Vec F S5000x3 .f32) (x2 : Vec F S3x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out5_3 x0 x1 x2)) -∗ K ⟨⟩))
      ⊢ wp frame (wpE (defs₀ (F := F)) Variants.none c none) E (cc5__postagg_kernel i arg0 harg0 arg1 harg1 arg2 harg2 arg3 harg3) K := by
  simp only [cc5__postagg_kernel_eq_skeleton]; unfold cc5__postagg_kernel_skel
  simp only [k5_part1_eq_skeleton]; unfold k5_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of pipeline 5 on core `c`: the arrays as the region finds them (`V`); after the body at point
    `t` each input's buffer at its block and the output's at `out5_3` of the input blocks; the invariant is the
    scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks, so the body's triple applies; the invariant and
    the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand
-- ==== Proof.KI.Reg6.lean ====
/- The per-region half of the frame for pipeline 6 of @main (the pretransform kernel, out[r,n,:] = (h[n,:] * invdeg[n,r]) @ W[r],
   output width 2), at a PARAMETER `V`: the TensorCore's buffer contents when the region is entered. Each window's block at
   a point (`iblk6`), what the body leaves in the output window's buffer (`out6_3`: its three stores, one [1,5000,2]
   slab per relation, which tile the block), the body's triple (`sound_kernel6`), the proof data (`dat6`) and the
   body obligation (`body_obligation6`). Generic in the float instance. The body also loads each slab of the output
   buffer before storing it; the loaded values are never used, and the triple asks of that buffer only that it is owned. -/
import proofs.«408287_j3659312136510_1_alg».proof.Proof.Gen.KernelIdeal.Launch
import proofs.«408287_j3659312136510_1_alg».proof.Proof.Gen.KernelIdeal.Skeleton
import proofs.«408287_j3659312136510_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extent 5000: the elaborator's structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The row tile of `h` (window 0) is in its current staging buffer at every point, for ANY proof data whose array is
    `V`'s (`hA`) and whose body leaves the block in place (`hafter`): the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- The row tile of the inverse out-degrees (window 1), likewise. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- The three weight matrices (window 2: the whole array, fetched at the first point only, its block index never
    moving), likewise: unfetched, the buffer still holds the block. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- the whole row tile of `h`; -/
abbrev r6_h : Rect S5000x64 := Rect.unit (s := S5000x64) ![0, 0] S5000x64.size inb_S5000x64_S5000x64_0_0
/-- column `r` of the inverse out-degrees' tile; -/
abbrev r6_deg0 : Rect S5000x3 := Rect.unit (s := S5000x3) ![0, 0] S5000x1.size inb_S5000x3_S5000x1_0_0
abbrev r6_deg1 : Rect S5000x3 := Rect.unit (s := S5000x3) ![0, 1] S5000x1.size inb_S5000x3_S5000x1_0_1
abbrev r6_deg2 : Rect S5000x3 := Rect.unit (s := S5000x3) ![0, 2] S5000x1.size inb_S5000x3_S5000x1_0_2
/-- relation `r`'s weight matrix; -/
abbrev r6_w0 : Rect S3x64x2 := Rect.unit (s := S3x64x2) ![0, 0, 0] S1x64x2.size inb_S3x64x2_S1x64x2_0_0_0
abbrev r6_w1 : Rect S3x64x2 := Rect.unit (s := S3x64x2) ![1, 0, 0] S1x64x2.size inb_S3x64x2_S1x64x2_1_0_0
abbrev r6_w2 : Rect S3x64x2 := Rect.unit (s := S3x64x2) ![2, 0, 0] S1x64x2.size inb_S3x64x2_S1x64x2_2_0_0
/-- relation `r`'s slab of the output block. -/
abbrev r6_out0 : Rect S3x5000x2 := Rect.unit (s := S3x5000x2) ![0, 0, 0] S1x5000x2.size inb_S3x5000x2_S1x5000x2_0_0_0
abbrev r6_out1 : Rect S3x5000x2 := Rect.unit (s := S3x5000x2) ![1, 0, 0] S1x5000x2.size inb_S3x5000x2_S1x5000x2_1_0_0
abbrev r6_out2 : Rect S3x5000x2 := Rect.unit (s := S3x5000x2) ![2, 0, 0] S1x5000x2.size inb_S3x5000x2_S1x5000x2_2_0_0

/-! ## What the body leaves in the output window's buffer -/

/-- The output window's staging buffer after the body, from the input windows' blocks (`x0` the tile of `h`, `x1` the
    tile of the inverse out-degrees, `x2` the weights): its 3 stores as pieces, LAST FIRST — relation 2's slab, then
    relation 1's, then relation 0's; the payloads are the skeleton's. -/
def out6_3 (x0 : Vec F S5000x64 .f32) (x1 : Vec F S5000x3 .f32) (x2 : Vec F S3x64x2 .f32) : Vec F S3x5000x2 .f32 :=
  View.canon [⟨r6_out2, k6_pay1 (k6_pay5 (View.ld x0 r6_h) (View.ld x1 r6_deg2)) (View.ld x2 r6_w2)⟩,
    ⟨r6_out1, k6_pay4 (View.ld x0 r6_h) (View.ld x1 r6_deg1) (View.ld x2 r6_w1)⟩,
    ⟨r6_out0, k6_pay3 (View.ld x0 r6_h) (View.ld x1 r6_deg0) (View.ld x2 r6_w0)⟩]

/-- Its stores tile the buffer (checked by evaluation), so they cover it. -/
theorem cover6_3 (p0 : Vec F S1x5000x2 .f32) (p1 : Vec F S1x5000x2 .f32) (p2 : Vec F S1x5000x2 .f32) (y : S3x5000x2.Idx) :
    ∃ pc ∈ ([⟨r6_out2, p0⟩, ⟨r6_out1, p1⟩, ⟨r6_out0, p2⟩] : List (View.Piece (Elt F) S3x5000x2 .f32)), y ∈ pc.1.set :=
  View.cover_of_tiled [⟨r6_out2, p0⟩, ⟨r6_out1, p1⟩, ⟨r6_out0, p2⟩] S1x5000x2.size (by rfl) y

/-! ## The body's triple -/

set_option maxHeartbeats 4000000 in
/-- The kernel body on whole staging memrefs, the inputs' at read contents `xW` and the output's at anything, runs to
    the continuation holding the inputs' as they were and the output's at `out6_3` of the inputs': the printed
    functions are their skeletons, which are run statement by statement, through the part call. The loads of the
    output buffer read whatever it holds and bind values no store's payload mentions. -/
theorem sound_kernel6 (c : Dev nD) (E : Set ℕ) (i : grid6.Coords) (arg1 : Memref sig .tc .vmem S5000x64 .f32) (harg1 : arg1.IsWhole) (arg2 : Memref sig .tc .vmem S5000x3 .f32) (harg2 : arg2.IsWhole) (arg3 : Memref sig .tc .vmem S3x64x2 .f32) (harg3 : arg3.IsWhole) (arg4 : Memref sig .tc .vmem S3x5000x2 .f32) (harg4 : arg4.IsWhole)
    (x0 : Vec F S5000x64 .f32) (x1 : Vec F S5000x3 .f32) (x2 : Vec F S3x64x2 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__pretransform_kernel i arg1 harg1 arg2 harg2 arg3 harg3 arg4 harg4) K := by
  simp only [cc6__pretransform_kernel_eq_skeleton]; unfold cc6__pretransform_kernel_skel
  simp only [k6_part1_eq_skeleton]; unfold k6_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover6_3 _ _ _)

/-! ## The pipeline's proof data -/

/-- The proof data of pipeline 6 on core `c`: the arrays as the region finds them (`V`); after the body at point `t`
    each input's buffer at its block and the output's at `out6_3` of the input blocks; the invariant: the scoped rest
    and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the region-entry contents (the definition projected). -/
theorem A_eq6 (c : Dev nD) (w : Fin cfg6.W) : (dat6 V c).A w = V c (Pipeline.arrRef spec6 w) := by
  dsimp only [dat6]

/-- What the body leaves, window by window (the proof data's `match` reduced). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t` (the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks (`before6_W`), so `sound_kernel6` applies; the
    invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Reg7.lean ====
import proofs.«408287_j3659312136510_1_alg».proof.Proof.Gen.KernelIdeal.Launch
import proofs.«408287_j3659312136510_1_alg».proof.Proof.Gen.KernelIdeal.Skeleton
import proofs.«408287_j3659312136510_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Pipeline 7: the aggregation kernel's half of the frame, at any entry contents

The kernel of pipeline 7 reads, at each of the 20 row tiles, a block of three slabs of aggregated messages
(`[3,5000,2]`), a block of inverse in-degrees (`[5000,3]`) and the whole bias table (`[3,2]`), and writes one
block `[5000,2]`: the sum over the three relations of slab times degree column plus bias row. This module states, for ANY
contents `V` of the TensorCore's buffers at the region's entry: each window's block at a grid point; what the
body leaves in the output window's buffer as a function of the three input blocks; the body's triple; the
pipeline's proof data and its body obligation. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not, for any proof
    data whose array is `V`'s and whose body leaves the block in place: unfetched, the block index has not moved. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

/-- Slab `r` of the aggregated block, `[1,5000,2]` at `[r,0,0]`. -/
abbrev slab7_0 : Rect S3x5000x2 := Rect.unit (s := S3x5000x2) ![0, 0, 0] S1x5000x2.size inb_S3x5000x2_S1x5000x2_0_0_0
abbrev slab7_1 : Rect S3x5000x2 := Rect.unit (s := S3x5000x2) ![1, 0, 0] S1x5000x2.size inb_S3x5000x2_S1x5000x2_1_0_0
abbrev slab7_2 : Rect S3x5000x2 := Rect.unit (s := S3x5000x2) ![2, 0, 0] S1x5000x2.size inb_S3x5000x2_S1x5000x2_2_0_0
/-- Column `r` of the degree block, `[5000,1]` at `[0,r]`. -/
abbrev col7_0 : Rect S5000x3 := Rect.unit (s := S5000x3) ![0, 0] S5000x1.size inb_S5000x3_S5000x1_0_0
abbrev col7_1 : Rect S5000x3 := Rect.unit (s := S5000x3) ![0, 1] S5000x1.size inb_S5000x3_S5000x1_0_1
abbrev col7_2 : Rect S5000x3 := Rect.unit (s := S5000x3) ![0, 2] S5000x1.size inb_S5000x3_S5000x1_0_2
/-- Row `r` of the bias table, `[1,2]` at `[r,0]`. -/
abbrev row7_0 : Rect S3x2 := Rect.unit (s := S3x2) ![0, 0] S1x2.size inb_S3x2_S1x2_0_0
abbrev row7_1 : Rect S3x2 := Rect.unit (s := S3x2) ![1, 0] S1x2.size inb_S3x2_S1x2_1_0
abbrev row7_2 : Rect S3x2 := Rect.unit (s := S3x2) ![2, 0] S1x2.size inb_S3x2_S1x2_2_0
/-- The whole output block. -/
abbrev whole7 : Rect S5000x2 := Rect.unit (s := S5000x2) ![0, 0] S5000x2.size inb_S5000x2_S5000x2_0_0

/-! ## What the body leaves in the output window's buffer -/

/-- The value the body stores, from the three input blocks: the accumulated sum over the three relations of
    slab times degree column plus bias row. -/
def val7 (x0 : Vec F S3x5000x2 .f32) (x1 : Vec F S5000x3 .f32) (x2 : Vec F S3x2 .f32) : FVec F S5000x2 .f32 :=
  k7_pay1 (View.ld x1 col7_0) (View.ld x0 slab7_0) (View.ld x2 row7_0)
    (View.ld x1 col7_1) (View.ld x0 slab7_1) (View.ld x2 row7_1)
    (View.ld x1 col7_2) (View.ld x0 slab7_2) (View.ld x2 row7_2)

/-- Window 3's staging buffer after the body, from the input windows' blocks: its one store, of the whole block. -/
def out7_3 (x0 : Vec F S3x5000x2 .f32) (x1 : Vec F S5000x3 .f32) (x2 : Vec F S3x2 .f32) : Vec F S5000x2 .f32 :=
  View.canon [⟨whole7, val7 x0 x1 x2⟩]

/-- The one store is of the whole block, so it covers the buffer. -/
theorem cover7_3 (p0 : Vec F S5000x2 .f32) (y : S5000x2.Idx) :
    ∃ pc ∈ ([⟨whole7, p0⟩] : List (View.Piece (Elt F) S5000x2 .f32)), y ∈ pc.1.set :=
  View.cover_of_tiled [⟨whole7, p0⟩] S5000x2.size (by rfl) y

/-! ## The body's triple -/

set_option maxHeartbeats 4000000 in
/-- The kernel body on whole staging memrefs, the three inputs' at read contents `x0 x1 x2` and the output's at
    anything, runs to the continuation holding the inputs' as they were and the output's at `out7_3` of the inputs'. -/
theorem sound_kernel7 (c : Dev nD) (E : Set ℕ) (i : grid7.Coords)
    (arg0 : Memref sig .tc .vmem S3x5000x2 .f32) (harg0 : arg0.IsWhole) (arg1 : Memref sig .tc .vmem S5000x3 .f32) (harg1 : arg1.IsWhole)
    (arg2 : Memref sig .tc .vmem S3x2 .f32) (harg2 : arg2.IsWhole) (arg3 : Memref sig .tc .vmem S5000x2 .f32) (harg3 : arg3.IsWhole)
    (x0 : Vec F S3x5000x2 .f32) (x1 : Vec F S5000x3 .f32) (x2 : Vec F S3x2 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out7_3 x0 x1 x2)) -∗ K ⟨⟩))
      ⊢ wp frame (wpE (defs₀ (F := F)) Variants.none c none) E (cc7__postagg_kernel i arg0 harg0 arg1 harg1 arg2 harg2 arg3 harg3) K := by
  simp only [cc7__postagg_kernel_eq_skeleton]; unfold cc7__postagg_kernel_skel
  simp only [k7_part1_eq_skeleton]; unfold k7_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-! ## The pipeline's proof data -/

/-- The proof data of pipeline 7 on core `c`: the arrays as the region finds them (`V`); after the body at point
    `t` each input's buffer at its block and the output's at `out7_3` of the input blocks; the invariant is the
    scoped rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' memrefs hold their blocks, so the body's triple applies; the invariant and
    the core's debts pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand
-- ==== Proof.KI.RunMain.lean ====
/- THE RUN of @main over its 8 kernel regions. The buffer contents between @main's 50 items are a fold from the launch
   memory: a host stretch's `StableHlo.after`; a region's one output array (its window 3) at what the pipeline's write-backs
   leave (`Dat.arrAt … N` of the region's proof data at its entry contents), every other buffer as entered. With these the
   conditional frame's unknowns are named (`outsOf`, the read-back equations `outs_J`), every region's segment record is
   built from its launch facts, proof data and body obligation over the thread state "every unscoped buffer at the
   boundary's contents, the generator register at some state, nothing owed", and the run (`run_main`: termination, the
   result array at the fold's last valuation, every argument as launched) and the frame follow. Generic in the float instance. -/
import proofs.«408287_j3659312136510_1_alg».proof.Proof.KernelIdealRegions
import proofs.«408287_j3659312136510_1_alg».proof.Proof.KI.Reg0
import proofs.«408287_j3659312136510_1_alg».proof.Proof.KI.Reg1
import proofs.«408287_j3659312136510_1_alg».proof.Proof.KI.Reg2
import proofs.«408287_j3659312136510_1_alg».proof.Proof.KI.Reg3
import proofs.«408287_j3659312136510_1_alg».proof.Proof.KI.Reg4
import proofs.«408287_j3659312136510_1_alg».proof.Proof.KI.Reg5
import proofs.«408287_j3659312136510_1_alg».proof.Proof.KI.Reg6
import proofs.«408287_j3659312136510_1_alg».proof.Proof.KI.Reg7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- decided memberships and enumerations over the program's 563 references recurse past the default depth
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## The conditional run -/

-- the launch theorem's implicit arguments are found by unifying its conclusion with this one, which takes unfolding
-- plain definitions in a metavariable's type; the depth is the one the conditional frame is checked at
set_option maxRecDepth 2764 in
set_option backward.isDefEq.respectTransparency.types false in
/-- THE CONDITIONAL RUN. The conditional frame with one more reading at the end: GIVEN, per region K, a segment record
    entered from the thread state before it and left at the one after it, every weakly fair execution of @main from memory
    `m` with zero counters terminates, and every final memory holds in `main_v194` (the array @main returns) the last
    valuation's contents there, and each argument as launched. The last thread state holds every unscoped buffer at the
    last valuation, so the result's buffer is read off it exactly as each argument's is. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 8) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 9 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE8 : ∀ c : Dev nD, E 8 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V13 m c) ∗ E 0 c) ⊢ R0.pre c)
    (hpost0 : ∀ c : Dev nD, R0.post c ⊢ iprop(StableHlo.held (c : Thread nD τ) (Pipeline.ucRefs τ sig) (V14 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V21 m outs c) ∗ E 1 c) ⊢ R1.pre c)
    (hpost1 : ∀ c : Dev nD, R1.post c ⊢ iprop(StableHlo.held (c : Thread nD τ) (Pipeline.ucRefs τ sig) (V22 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V22 m outs c) ∗ E 2 c) ⊢ R2.pre c)
    (hpost2 : ∀ c : Dev nD, R2.post c ⊢ iprop(StableHlo.held (c : Thread nD τ) (Pipeline.ucRefs τ sig) (V23 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V30 m outs c) ∗ E 3 c) ⊢ R3.pre c)
    (hpost3 : ∀ c : Dev nD, R3.post c ⊢ iprop(StableHlo.held (c : Thread nD τ) (Pipeline.ucRefs τ sig) (V31 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V31 m outs c) ∗ E 4 c) ⊢ R4.pre c)
    (hpost4 : ∀ c : Dev nD, R4.post c ⊢ iprop(StableHlo.held (c : Thread nD τ) (Pipeline.ucRefs τ sig) (V32 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V39 m outs c) ∗ E 5 c) ⊢ R5.pre c)
    (hpost5 : ∀ c : Dev nD, R5.post c ⊢ iprop(StableHlo.held (c : Thread nD τ) (Pipeline.ucRefs τ sig) (V40 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V40 m outs c) ∗ E 6 c) ⊢ R6.pre c)
    (hpost6 : ∀ c : Dev nD, R6.post c ⊢ iprop(StableHlo.held (c : Thread nD τ) (Pipeline.ucRefs τ sig) (V41 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V48 m outs c) ∗ E 7 c) ⊢ R7.pre c)
    (hpost7 : ∀ c : Dev nD, R7.post c ⊢ iprop(StableHlo.held (c : Thread nD τ) (Pipeline.ucRefs τ sig) (V49 m outs c) ∗ E 8 c)) :
    θ_run defs (onTc (τ := τ) (main (F := F))) ⟨m, fun _ => 0, ρ⟩ (fun r => ∀ c : Dev nD,
      r.2.mem ((c.tc : Thread nD τ).loc main_v194) = V49 m outs c main_v194
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) adm pdats ι cellOf_inj EP defs₀ 𝒱₀ L lv m ρ main
    (segs m outs 𝒱₀ L lv E ι pdats R0 R1 R2 R3 R4 R5 R6 R7)
    (fun c Q => by
      rewrite [main_chain c, Seg.run_eq_chain,
        show (segs m outs 𝒱₀ L lv E ι pdats R0 R1 R2 R3 R4 R5 R6 R7 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()),
          Prog.lift (.customCall (Pipeline.entry 2) ()),
          StableHlo.seq hostOps3,
          StableHlo.seq hostOps3_1,
          StableHlo.seq hostOps3_2,
          StableHlo.seq hostOps3_3,
          StableHlo.seq hostOps3_4,
          StableHlo.seq hostOps3_5,
          StableHlo.seq hostOps3_6,
          Prog.lift (.customCall (Pipeline.entry 3) ()),
          Prog.lift (.customCall (Pipeline.entry 4) ()),
          StableHlo.seq hostOps5,
          StableHlo.seq hostOps5_1,
          StableHlo.seq hostOps5_2,
          StableHlo.seq hostOps5_3,
          StableHlo.seq hostOps5_4,
          StableHlo.seq hostOps5_5,
          StableHlo.seq hostOps5_6,
          Prog.lift (.customCall (Pipeline.entry 5) ()),
          Prog.lift (.customCall (Pipeline.entry 6) ()),
          StableHlo.seq hostOps7,
          StableHlo.seq hostOps7_1,
          StableHlo.seq hostOps7_2,
          StableHlo.seq hostOps7_3,
          StableHlo.seq hostOps7_4,
          StableHlo.seq hostOps7_5,
          StableHlo.seq hostOps7_6,
          Prog.lift (.customCall (Pipeline.entry 7) ()) ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V49 m outs c))
    (hch := fun c => ⟨.rfl, .rfl, .rfl, .rfl, .rfl, .rfl, .rfl, .rfl, .rfl, .rfl, .rfl, .rfl, .rfl, hpre0 c, hpost0 c, .rfl, .rfl, .rfl, .rfl, .rfl, .rfl, hpre1 c, (hpost1 c).trans (hpre2 c), hpost2 c, .rfl, .rfl, .rfl, .rfl, .rfl, .rfl, hpre3 c, (hpost3 c).trans (hpre4 c), hpost4 c, .rfl, .rfl, .rfl, .rfl, .rfl, .rfl, hpre5 c, (hpost5 c).trans (hpre6 c), hpost6 c, .rfl, .rfl, .rfl, .rfl, .rfl, .rfl, hpre7 c, (hpost7 c).trans (sep_mono .rfl (hE8 c))⟩)
    (hinit := ?_) (QY := fun c s => s.mem ((c.tc : Thread nD τ).loc main_v194) = V49 m outs c main_v194 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V49 m outs c) s') $$ [Hh HSI]
    · isplitl [Hh] <;> iassumption
    icases Hr with ⟨%h, HSI⟩
    imodintro
    isplitr
    · ipureintro
      exact ⟨h (Proc.devRef .tc main_v194) (Finset.mem_filter.mpr ⟨StableHlo.devRef_mem_tcRefs main_v194, by decide⟩),
        (h (Proc.devRef .tc main_arg0) (Finset.mem_filter.mpr ⟨StableHlo.devRef_mem_tcRefs main_arg0, by decide⟩)).trans (V49_main_arg0 m outs c),
        (h (Proc.devRef .tc main_arg1) (Finset.mem_filter.mpr ⟨StableHlo.devRef_mem_tcRefs main_arg1, by decide⟩)).trans (V49_main_arg1 m outs c),
        (h (Proc.devRef .tc main_arg2) (Finset.mem_filter.mpr ⟨StableHlo.devRef_mem_tcRefs main_arg2, by decide⟩)).trans (V49_main_arg2 m outs c),
        (h (Proc.devRef .tc main_arg3) (Finset.mem_filter.mpr ⟨StableHlo.devRef_mem_tcRefs main_arg3, by decide⟩)).trans (V49_main_arg3 m outs c),
        (h (Proc.devRef .tc main_arg4) (Finset.mem_filter.mpr ⟨StableHlo.devRef_mem_tcRefs main_arg4, by decide⟩)).trans (V49_main_arg4 m outs c),
        (h (Proc.devRef .tc main_arg5) (Finset.mem_filter.mpr ⟨StableHlo.devRef_mem_tcRefs main_arg5, by decide⟩)).trans (V49_main_arg5 m outs c),
        (h (Proc.devRef .tc main_arg6) (Finset.mem_filter.mpr ⟨StableHlo.devRef_mem_tcRefs main_arg6, by decide⟩)).trans (V49_main_arg6 m outs c),
        (h (Proc.devRef .tc main_arg7) (Finset.mem_filter.mpr ⟨StableHlo.devRef_mem_tcRefs main_arg7, by decide⟩)).trans (V49_main_arg7 m outs c),
        (h (Proc.devRef .tc main_arg8) (Finset.mem_filter.mpr ⟨StableHlo.devRef_mem_tcRefs main_arg8, by decide⟩)).trans (V49_main_arg8 m outs c),
        (h (Proc.devRef .tc main_arg9) (Finset.mem_filter.mpr ⟨StableHlo.devRef_mem_tcRefs main_arg9, by decide⟩)).trans (V49_main_arg9 m outs c),
        (h (Proc.devRef .tc main_arg10) (Finset.mem_filter.mpr ⟨StableHlo.devRef_mem_tcRefs main_arg10, by decide⟩)).trans (V49_main_arg10 m outs c)⟩
    · iexact HSI

/-! ## The buffer contents between @main's items, each region's output at what its pipeline leaves

The same fold as the conditional frame's valuations, with nothing unknown: a host stretch's `StableHlo.after`; a region's
output array at the write-backs of its window 3 folded over the region's entry contents (`Dat.arrAt … N`), every other
buffer as entered. Each boundary's contents are read at the TensorCore's references too (`tcJ`: what proof data take). -/

/-- Core `c`'s buffers when region 0 is entered: the launch memory after the first thirteen host stretches. -/
abbrev W13 (c : Dev nD) : Valuation τ sig (Elt F) := Gen.V13 m c
abbrev tc13 : (c : Dev nD) → (b : Ref sig .tc) → Buf (Elt F) ((c : Thread nD τ).loc b) := fun c b => W13 m c b
/-- What region 0 leaves in `main_v51`, its one output array. -/
def o14 (c : Dev nD) : Buf (Elt F) ((c : Thread nD τ).loc main_v51) := (dat0 (tc13 m) c).arrAt 3 cfg0.N
/-- Core `c`'s buffers when region 0 is left: `main_v51` at what the pipeline leaves, every other buffer as entered. -/
def W14 (c : Dev nD) : Valuation τ sig (Elt F) := Function.update (W13 m c) main_v51 (o14 m c)
theorem W14_arr (c : Dev nD) : W14 m c main_v51 = o14 m c := by unfold W14; exact Function.update_self _ _ _
theorem W14_of_ne (c : Dev nD) (b : Ref sig .tc) (h : b ≠ main_v51) : W14 m c b = W13 m c b := by
  unfold W14; exact Function.update_of_ne (StableHlo.devRef_ne_of_ne h) _ _
abbrev tc14 : (c : Dev nD) → (b : Ref sig .tc) → Buf (Elt F) ((c : Thread nD τ).loc b) := fun c b => W14 m c b
/-- After the host stretch `hostOps1`. -/
abbrev W15 (c : Dev nD) : Valuation τ sig (Elt F) := StableHlo.after hostOps1 (W14 m c)
abbrev tc15 : (c : Dev nD) → (b : Ref sig .tc) → Buf (Elt F) ((c : Thread nD τ).loc b) := fun c b => W15 m c b
/-- After the host stretch `hostOps1_1`. -/
abbrev W16 (c : Dev nD) : Valuation τ sig (Elt F) := StableHlo.after hostOps1_1 (W15 m c)
abbrev tc16 : (c : Dev nD) → (b : Ref sig .tc) → Buf (Elt F) ((c : Thread nD τ).loc b) := fun c b => W16 m c b
/-- After the host stretch `hostOps1_2`. -/
abbrev W17 (c : Dev nD) : Valuation τ sig (Elt F) := StableHlo.after hostOps1_2 (W16 m c)
abbrev tc17 : (c : Dev nD) → (b : Ref sig .tc) → Buf (Elt F) ((c : Thread nD τ).loc b) := fun c b => W17 m c b
/-- After the host stretch `hostOps1_3`. -/
abbrev W18 (c : Dev nD) : Valuation τ sig (Elt F) := StableHlo.after hostOps1_3 (W17 m c)
abbrev tc18 : (c : Dev nD) → (b : Ref sig .tc) → Buf (Elt F) ((c : Thread nD τ).loc b) := fun c b => W18 m c b
/-- After the host stretch `hostOps1_4`. -/
abbrev W19 (c : Dev nD) : Valuation τ sig (Elt F) := StableHlo.after hostOps1_4 (W18 m c)
abbrev tc19 : (c : Dev nD) → (b : Ref sig .tc) → Buf (Elt F) ((c : Thread nD τ).loc b) := fun c b => W19 m c b
/-- After the host stretch `hostOps1_5`. -/
abbrev W20 (c : Dev nD) : Valuation τ sig (Elt F) := StableHlo.after hostOps1_5 (W19 m c)
abbrev tc20 : (c : Dev nD) → (b : Ref sig .tc) → Buf (Elt F) ((c : Thread nD τ).loc b) := fun c b => W20 m c b
/-- After the host stretch `hostOps1_6`. -/
abbrev W21 (c : Dev nD) : Valuation τ sig (Elt F) := StableHlo.after hostOps1_6 (W20 m c)
abbrev tc21 : (c : Dev nD) → (b : Ref sig .tc) → Buf (Elt F) ((c : Thread nD τ).loc b) := fun c b => W21 m c b
/-- What region 1 leaves in `main_v86`, its one output array. -/
def o22 (c : Dev nD) : Buf (Elt F) ((c : Thread nD τ).loc main_v86) := (dat1 (tc21 m) c).arrAt 3 cfg1.N
/-- Core `c`'s buffers when region 1 is left: `main_v86` at what the pipeline leaves, every other buffer as entered. -/
def W22 (c : Dev nD) : Valuation τ sig (Elt F) := Function.update (W21 m c) main_v86 (o22 m c)
theorem W22_arr (c : Dev nD) : W22 m c main_v86 = o22 m c := by unfold W22; exact Function.update_self _ _ _
theorem W22_of_ne (c : Dev nD) (b : Ref sig .tc) (h : b ≠ main_v86) : W22 m c b = W21 m c b := by
  unfold W22; exact Function.update_of_ne (StableHlo.devRef_ne_of_ne h) _ _
abbrev tc22 : (c : Dev nD) → (b : Ref sig .tc) → Buf (Elt F) ((c : Thread nD τ).loc b) := fun c b => W22 m c b
/-- What region 2 leaves in `main_v87`, its one output array. -/
def o23 (c : Dev nD) : Buf (Elt F) ((c : Thread nD τ).loc main_v87) := (dat2 (tc22 m) c).arrAt 3 cfg2.N
/-- Core `c`'s buffers when region 2 is left: `main_v87` at what the pipeline leaves, every other buffer as entered. -/
def W23 (c : Dev nD) : Valuation τ sig (Elt F) := Function.update (W22 m c) main_v87 (o23 m c)
theorem W23_arr (c : Dev nD) : W23 m c main_v87 = o23 m c := by unfold W23; exact Function.update_self _ _ _
theorem W23_of_ne (c : Dev nD) (b : Ref sig .tc) (h : b ≠ main_v87) : W23 m c b = W22 m c b := by
  unfold W23; exact Function.update_of_ne (StableHlo.devRef_ne_of_ne h) _ _
abbrev tc23 : (c : Dev nD) → (b : Ref sig .tc) → Buf (Elt F) ((c : Thread nD τ).loc b) := fun c b => W23 m c b
/-- After the host stretch `hostOps3`. -/
abbrev W24 (c : Dev nD) : Valuation τ sig (Elt F) := StableHlo.after hostOps3 (W23 m c)
abbrev tc24 : (c : Dev nD) → (b : Ref sig .tc) → Buf (Elt F) ((c : Thread nD τ).loc b) := fun c b => W24 m c b
/-- After the host stretch `hostOps3_1`. -/
abbrev W25 (c : Dev nD) : Valuation τ sig (Elt F) := StableHlo.after hostOps3_1 (W24 m c)
abbrev tc25 : (c : Dev nD) → (b : Ref sig .tc) → Buf (Elt F) ((c : Thread nD τ).loc b) := fun c b => W25 m c b
/-- After the host stretch `hostOps3_2`. -/
abbrev W26 (c : Dev nD) : Valuation τ sig (Elt F) := StableHlo.after hostOps3_2 (W25 m c)
abbrev tc26 : (c : Dev nD) → (b : Ref sig .tc) → Buf (Elt F) ((c : Thread nD τ).loc b) := fun c b => W26 m c b
/-- After the host stretch `hostOps3_3`. -/
abbrev W27 (c : Dev nD) : Valuation τ sig (Elt F) := StableHlo.after hostOps3_3 (W26 m c)
abbrev tc27 : (c : Dev nD) → (b : Ref sig .tc) → Buf (Elt F) ((c : Thread nD τ).loc b) := fun c b => W27 m c b
/-- After the host stretch `hostOps3_4`. -/
abbrev W28 (c : Dev nD) : Valuation τ sig (Elt F) := StableHlo.after hostOps3_4 (W27 m c)
abbrev tc28 : (c : Dev nD) → (b : Ref sig .tc) → Buf (Elt F) ((c : Thread nD τ).loc b) := fun c b => W28 m c b
/-- After the host stretch `hostOps3_5`. -/
abbrev W29 (c : Dev nD) : Valuation τ sig (Elt F) := StableHlo.after hostOps3_5 (W28 m c)
abbrev tc29 : (c : Dev nD) → (b : Ref sig .tc) → Buf (Elt F) ((c : Thread nD τ).loc b) := fun c b => W29 m c b
/-- After the host stretch `hostOps3_6`. -/
abbrev W30 (c : Dev nD) : Valuation τ sig (Elt F) := StableHlo.after hostOps3_6 (W29 m c)
abbrev tc30 : (c : Dev nD) → (b : Ref sig .tc) → Buf (Elt F) ((c : Thread nD τ).loc b) := fun c b => W30 m c b
/-- What region 3 leaves in `main_v122`, its one output array. -/
def o31 (c : Dev nD) : Buf (Elt F) ((c : Thread nD τ).loc main_v122) := (dat3 (tc30 m) c).arrAt 3 cfg3.N
/-- Core `c`'s buffers when region 3 is left: `main_v122` at what the pipeline leaves, every other buffer as entered. -/
def W31 (c : Dev nD) : Valuation τ sig (Elt F) := Function.update (W30 m c) main_v122 (o31 m c)
theorem W31_arr (c : Dev nD) : W31 m c main_v122 = o31 m c := by unfold W31; exact Function.update_self _ _ _
theorem W31_of_ne (c : Dev nD) (b : Ref sig .tc) (h : b ≠ main_v122) : W31 m c b = W30 m c b := by
  unfold W31; exact Function.update_of_ne (StableHlo.devRef_ne_of_ne h) _ _
abbrev tc31 : (c : Dev nD) → (b : Ref sig .tc) → Buf (Elt F) ((c : Thread nD τ).loc b) := fun c b => W31 m c b
/-- What region 4 leaves in `main_v123`, its one output array. -/
def o32 (c : Dev nD) : Buf (Elt F) ((c : Thread nD τ).loc main_v123) := (dat4 (tc31 m) c).arrAt 3 cfg4.N
/-- Core `c`'s buffers when region 4 is left: `main_v123` at what the pipeline leaves, every other buffer as entered. -/
def W32 (c : Dev nD) : Valuation τ sig (Elt F) := Function.update (W31 m c) main_v123 (o32 m c)
theorem W32_arr (c : Dev nD) : W32 m c main_v123 = o32 m c := by unfold W32; exact Function.update_self _ _ _
theorem W32_of_ne (c : Dev nD) (b : Ref sig .tc) (h : b ≠ main_v123) : W32 m c b = W31 m c b := by
  unfold W32; exact Function.update_of_ne (StableHlo.devRef_ne_of_ne h) _ _
abbrev tc32 : (c : Dev nD) → (b : Ref sig .tc) → Buf (Elt F) ((c : Thread nD τ).loc b) := fun c b => W32 m c b
/-- After the host stretch `hostOps5`. -/
abbrev W33 (c : Dev nD) : Valuation τ sig (Elt F) := StableHlo.after hostOps5 (W32 m c)
abbrev tc33 : (c : Dev nD) → (b : Ref sig .tc) → Buf (Elt F) ((c : Thread nD τ).loc b) := fun c b => W33 m c b
/-- After the host stretch `hostOps5_1`. -/
abbrev W34 (c : Dev nD) : Valuation τ sig (Elt F) := StableHlo.after hostOps5_1 (W33 m c)
abbrev tc34 : (c : Dev nD) → (b : Ref sig .tc) → Buf (Elt F) ((c : Thread nD τ).loc b) := fun c b => W34 m c b
/-- After the host stretch `hostOps5_2`. -/
abbrev W35 (c : Dev nD) : Valuation τ sig (Elt F) := StableHlo.after hostOps5_2 (W34 m c)
abbrev tc35 : (c : Dev nD) → (b : Ref sig .tc) → Buf (Elt F) ((c : Thread nD τ).loc b) := fun c b => W35 m c b
/-- After the host stretch `hostOps5_3`. -/
abbrev W36 (c : Dev nD) : Valuation τ sig (Elt F) := StableHlo.after hostOps5_3 (W35 m c)
abbrev tc36 : (c : Dev nD) → (b : Ref sig .tc) → Buf (Elt F) ((c : Thread nD τ).loc b) := fun c b => W36 m c b
/-- After the host stretch `hostOps5_4`. -/
abbrev W37 (c : Dev nD) : Valuation τ sig (Elt F) := StableHlo.after hostOps5_4 (W36 m c)
abbrev tc37 : (c : Dev nD) → (b : Ref sig .tc) → Buf (Elt F) ((c : Thread nD τ).loc b) := fun c b => W37 m c b
/-- After the host stretch `hostOps5_5`. -/
abbrev W38 (c : Dev nD) : Valuation τ sig (Elt F) := StableHlo.after hostOps5_5 (W37 m c)
abbrev tc38 : (c : Dev nD) → (b : Ref sig .tc) → Buf (Elt F) ((c : Thread nD τ).loc b) := fun c b => W38 m c b
/-- After the host stretch `hostOps5_6`. -/
abbrev W39 (c : Dev nD) : Valuation τ sig (Elt F) := StableHlo.after hostOps5_6 (W38 m c)
abbrev tc39 : (c : Dev nD) → (b : Ref sig .tc) → Buf (Elt F) ((c : Thread nD τ).loc b) := fun c b => W39 m c b
/-- What region 5 leaves in `main_v158`, its one output array. -/
def o40 (c : Dev nD) : Buf (Elt F) ((c : Thread nD τ).loc main_v158) := (dat5 (tc39 m) c).arrAt 3 cfg5.N
/-- Core `c`'s buffers when region 5 is left: `main_v158` at what the pipeline leaves, every other buffer as entered. -/
def W40 (c : Dev nD) : Valuation τ sig (Elt F) := Function.update (W39 m c) main_v158 (o40 m c)
theorem W40_arr (c : Dev nD) : W40 m c main_v158 = o40 m c := by unfold W40; exact Function.update_self _ _ _
theorem W40_of_ne (c : Dev nD) (b : Ref sig .tc) (h : b ≠ main_v158) : W40 m c b = W39 m c b := by
  unfold W40; exact Function.update_of_ne (StableHlo.devRef_ne_of_ne h) _ _
abbrev tc40 : (c : Dev nD) → (b : Ref sig .tc) → Buf (Elt F) ((c : Thread nD τ).loc b) := fun c b => W40 m c b
/-- What region 6 leaves in `main_v159`, its one output array. -/
def o41 (c : Dev nD) : Buf (Elt F) ((c : Thread nD τ).loc main_v159) := (dat6 (tc40 m) c).arrAt 3 cfg6.N
/-- Core `c`'s buffers when region 6 is left: `main_v159` at what the pipeline leaves, every other buffer as entered. -/
def W41 (c : Dev nD) : Valuation τ sig (Elt F) := Function.update (W40 m c) main_v159 (o41 m c)
theorem W41_arr (c : Dev nD) : W41 m c main_v159 = o41 m c := by unfold W41; exact Function.update_self _ _ _
theorem W41_of_ne (c : Dev nD) (b : Ref sig .tc) (h : b ≠ main_v159) : W41 m c b = W40 m c b := by
  unfold W41; exact Function.update_of_ne (StableHlo.devRef_ne_of_ne h) _ _
abbrev tc41 : (c : Dev nD) → (b : Ref sig .tc) → Buf (Elt F) ((c : Thread nD τ).loc b) := fun c b => W41 m c b
/-- After the host stretch `hostOps7`. -/
abbrev W42 (c : Dev nD) : Valuation τ sig (Elt F) := StableHlo.after hostOps7 (W41 m c)
abbrev tc42 : (c : Dev nD) → (b : Ref sig .tc) → Buf (Elt F) ((c : Thread nD τ).loc b) := fun c b => W42 m c b
/-- After the host stretch `hostOps7_1`. -/
abbrev W43 (c : Dev nD) : Valuation τ sig (Elt F) := StableHlo.after hostOps7_1 (W42 m c)
abbrev tc43 : (c : Dev nD) → (b : Ref sig .tc) → Buf (Elt F) ((c : Thread nD τ).loc b) := fun c b => W43 m c b
/-- After the host stretch `hostOps7_2`. -/
abbrev W44 (c : Dev nD) : Valuation τ sig (Elt F) := StableHlo.after hostOps7_2 (W43 m c)
abbrev tc44 : (c : Dev nD) → (b : Ref sig .tc) → Buf (Elt F) ((c : Thread nD τ).loc b) := fun c b => W44 m c b
/-- After the host stretch `hostOps7_3`. -/
abbrev W45 (c : Dev nD) : Valuation τ sig (Elt F) := StableHlo.after hostOps7_3 (W44 m c)
abbrev tc45 : (c : Dev nD) → (b : Ref sig .tc) → Buf (Elt F) ((c : Thread nD τ).loc b) := fun c b => W45 m c b
/-- After the host stretch `hostOps7_4`. -/
abbrev W46 (c : Dev nD) : Valuation τ sig (Elt F) := StableHlo.after hostOps7_4 (W45 m c)
abbrev tc46 : (c : Dev nD) → (b : Ref sig .tc) → Buf (Elt F) ((c : Thread nD τ).loc b) := fun c b => W46 m c b
/-- After the host stretch `hostOps7_5`. -/
abbrev W47 (c : Dev nD) : Valuation τ sig (Elt F) := StableHlo.after hostOps7_5 (W46 m c)
abbrev tc47 : (c : Dev nD) → (b : Ref sig .tc) → Buf (Elt F) ((c : Thread nD τ).loc b) := fun c b => W47 m c b
/-- After the host stretch `hostOps7_6`. -/
abbrev W48 (c : Dev nD) : Valuation τ sig (Elt F) := StableHlo.after hostOps7_6 (W47 m c)
abbrev tc48 : (c : Dev nD) → (b : Ref sig .tc) → Buf (Elt F) ((c : Thread nD τ).loc b) := fun c b => W48 m c b
/-- What region 7 leaves in `main_v194`, its one output array. -/
def o49 (c : Dev nD) : Buf (Elt F) ((c : Thread nD τ).loc main_v194) := (dat7 (tc48 m) c).arrAt 3 cfg7.N
/-- Core `c`'s buffers when region 7 is left: `main_v194` at what the pipeline leaves, every other buffer as entered. -/
def W49 (c : Dev nD) : Valuation τ sig (Elt F) := Function.update (W48 m c) main_v194 (o49 m c)
theorem W49_arr (c : Dev nD) : W49 m c main_v194 = o49 m c := by unfold W49; exact Function.update_self _ _ _
theorem W49_of_ne (c : Dev nD) (b : Ref sig .tc) (h : b ≠ main_v194) : W49 m c b = W48 m c b := by
  unfold W49; exact Function.update_of_ne (StableHlo.devRef_ne_of_ne h) _ _
abbrev tc49 : (c : Dev nD) → (b : Ref sig .tc) → Buf (Elt F) ((c : Thread nD τ).loc b) := fun c b => W49 m c b

/-! ## The regions' outputs as the conditional frame's unknowns, and its valuations at them -/

/-- The contents the regions leave: asked after item J−1 for a reference, the contents of that boundary there (the
    conditional frame reads it only after a region, at the region's output array). -/
def outsOf : Gen.Outs (F := F) := fun J r c => match J with
  | 14 => W14 m c r
  | 22 => W22 m c r
  | 23 => W23 m c r
  | 31 => W31 m c r
  | 32 => W32 m c r
  | 40 => W40 m c r
  | 41 => W41 m c r
  | 49 => W49 m c r
  | _ => m ((c : Thread nD τ).loc r)

/-- The program's result on core `c`: the last valuation at `main_v194`. -/
def result (c : Dev nD) : Buf (Elt F) ((c.tc : Thread nD τ).loc main_v194) := Gen.V49 m (outsOf m) c main_v194

/-! Each valuation of the conditional frame at `outsOf` is this module's: by induction along the fold, a host stretch
by congruence, a region's exit by reading the update back. -/

theorem V13_eq (c : Dev nD) : Gen.V13 m c = W13 m c := rfl
theorem V14_eq (c : Dev nD) : Gen.V14 m (outsOf m) c = W14 m c := by
  show Function.update (Gen.V13 m c) main_v51 (W14 m c main_v51) = W14 m c
  rw [V13_eq, W14_arr]; rfl
theorem V15_eq (c : Dev nD) : Gen.V15 m (outsOf m) c = W15 m c := congrArg (StableHlo.after hostOps1) (V14_eq m c)
theorem V16_eq (c : Dev nD) : Gen.V16 m (outsOf m) c = W16 m c := congrArg (StableHlo.after hostOps1_1) (V15_eq m c)
theorem V17_eq (c : Dev nD) : Gen.V17 m (outsOf m) c = W17 m c := congrArg (StableHlo.after hostOps1_2) (V16_eq m c)
theorem V18_eq (c : Dev nD) : Gen.V18 m (outsOf m) c = W18 m c := congrArg (StableHlo.after hostOps1_3) (V17_eq m c)
theorem V19_eq (c : Dev nD) : Gen.V19 m (outsOf m) c = W19 m c := congrArg (StableHlo.after hostOps1_4) (V18_eq m c)
theorem V20_eq (c : Dev nD) : Gen.V20 m (outsOf m) c = W20 m c := congrArg (StableHlo.after hostOps1_5) (V19_eq m c)
theorem V21_eq (c : Dev nD) : Gen.V21 m (outsOf m) c = W21 m c := congrArg (StableHlo.after hostOps1_6) (V20_eq m c)
theorem V22_eq (c : Dev nD) : Gen.V22 m (outsOf m) c = W22 m c := by
  show Function.update (Gen.V21 m (outsOf m) c) main_v86 (W22 m c main_v86) = W22 m c
  rw [V21_eq, W22_arr]; rfl
theorem V23_eq (c : Dev nD) : Gen.V23 m (outsOf m) c = W23 m c := by
  show Function.update (Gen.V22 m (outsOf m) c) main_v87 (W23 m c main_v87) = W23 m c
  rw [V22_eq, W23_arr]; rfl
theorem V24_eq (c : Dev nD) : Gen.V24 m (outsOf m) c = W24 m c := congrArg (StableHlo.after hostOps3) (V23_eq m c)
theorem V25_eq (c : Dev nD) : Gen.V25 m (outsOf m) c = W25 m c := congrArg (StableHlo.after hostOps3_1) (V24_eq m c)
theorem V26_eq (c : Dev nD) : Gen.V26 m (outsOf m) c = W26 m c := congrArg (StableHlo.after hostOps3_2) (V25_eq m c)
theorem V27_eq (c : Dev nD) : Gen.V27 m (outsOf m) c = W27 m c := congrArg (StableHlo.after hostOps3_3) (V26_eq m c)
theorem V28_eq (c : Dev nD) : Gen.V28 m (outsOf m) c = W28 m c := congrArg (StableHlo.after hostOps3_4) (V27_eq m c)
theorem V29_eq (c : Dev nD) : Gen.V29 m (outsOf m) c = W29 m c := congrArg (StableHlo.after hostOps3_5) (V28_eq m c)
theorem V30_eq (c : Dev nD) : Gen.V30 m (outsOf m) c = W30 m c := congrArg (StableHlo.after hostOps3_6) (V29_eq m c)
theorem V31_eq (c : Dev nD) : Gen.V31 m (outsOf m) c = W31 m c := by
  show Function.update (Gen.V30 m (outsOf m) c) main_v122 (W31 m c main_v122) = W31 m c
  rw [V30_eq, W31_arr]; rfl
theorem V32_eq (c : Dev nD) : Gen.V32 m (outsOf m) c = W32 m c := by
  show Function.update (Gen.V31 m (outsOf m) c) main_v123 (W32 m c main_v123) = W32 m c
  rw [V31_eq, W32_arr]; rfl
theorem V33_eq (c : Dev nD) : Gen.V33 m (outsOf m) c = W33 m c := congrArg (StableHlo.after hostOps5) (V32_eq m c)
theorem V34_eq (c : Dev nD) : Gen.V34 m (outsOf m) c = W34 m c := congrArg (StableHlo.after hostOps5_1) (V33_eq m c)
theorem V35_eq (c : Dev nD) : Gen.V35 m (outsOf m) c = W35 m c := congrArg (StableHlo.after hostOps5_2) (V34_eq m c)
theorem V36_eq (c : Dev nD) : Gen.V36 m (outsOf m) c = W36 m c := congrArg (StableHlo.after hostOps5_3) (V35_eq m c)
theorem V37_eq (c : Dev nD) : Gen.V37 m (outsOf m) c = W37 m c := congrArg (StableHlo.after hostOps5_4) (V36_eq m c)
theorem V38_eq (c : Dev nD) : Gen.V38 m (outsOf m) c = W38 m c := congrArg (StableHlo.after hostOps5_5) (V37_eq m c)
theorem V39_eq (c : Dev nD) : Gen.V39 m (outsOf m) c = W39 m c := congrArg (StableHlo.after hostOps5_6) (V38_eq m c)
theorem V40_eq (c : Dev nD) : Gen.V40 m (outsOf m) c = W40 m c := by
  show Function.update (Gen.V39 m (outsOf m) c) main_v158 (W40 m c main_v158) = W40 m c
  rw [V39_eq, W40_arr]; rfl
theorem V41_eq (c : Dev nD) : Gen.V41 m (outsOf m) c = W41 m c := by
  show Function.update (Gen.V40 m (outsOf m) c) main_v159 (W41 m c main_v159) = W41 m c
  rw [V40_eq, W41_arr]; rfl
theorem V42_eq (c : Dev nD) : Gen.V42 m (outsOf m) c = W42 m c := congrArg (StableHlo.after hostOps7) (V41_eq m c)
theorem V43_eq (c : Dev nD) : Gen.V43 m (outsOf m) c = W43 m c := congrArg (StableHlo.after hostOps7_1) (V42_eq m c)
theorem V44_eq (c : Dev nD) : Gen.V44 m (outsOf m) c = W44 m c := congrArg (StableHlo.after hostOps7_2) (V43_eq m c)
theorem V45_eq (c : Dev nD) : Gen.V45 m (outsOf m) c = W45 m c := congrArg (StableHlo.after hostOps7_3) (V44_eq m c)
theorem V46_eq (c : Dev nD) : Gen.V46 m (outsOf m) c = W46 m c := congrArg (StableHlo.after hostOps7_4) (V45_eq m c)
theorem V47_eq (c : Dev nD) : Gen.V47 m (outsOf m) c = W47 m c := congrArg (StableHlo.after hostOps7_5) (V46_eq m c)
theorem V48_eq (c : Dev nD) : Gen.V48 m (outsOf m) c = W48 m c := congrArg (StableHlo.after hostOps7_6) (V47_eq m c)
theorem V49_eq (c : Dev nD) : Gen.V49 m (outsOf m) c = W49 m c := by
  show Function.update (Gen.V48 m (outsOf m) c) main_v194 (W49 m c main_v194) = W49 m c
  rw [V48_eq, W49_arr]; rfl

/-! ## The read-back equations: what the conditional frame's unknowns are -/

theorem tc13_eq : (fun (c : Dev nD) (b : Ref sig .tc) => Gen.V13 m c b) = tc13 m :=
  funext fun c => funext fun b => congrFun (V13_eq m c) (Proc.devRef .tc b)
/-- After region 0 the unknown at `main_v51` is what pipeline 0 leaves there from the contents it is entered at. -/
theorem outs_14 (c : Dev nD) : outsOf m 14 main_v51 c = (dat0 (fun c b => Gen.V13 m c b) c).arrAt 3 cfg0.N := by
  rw [tc13_eq]; exact W14_arr m c
theorem tc21_eq : (fun (c : Dev nD) (b : Ref sig .tc) => Gen.V21 m (outsOf m) c b) = tc21 m :=
  funext fun c => funext fun b => congrFun (V21_eq m c) (Proc.devRef .tc b)
/-- After region 1 the unknown at `main_v86` is what pipeline 1 leaves there from the contents it is entered at. -/
theorem outs_22 (c : Dev nD) : outsOf m 22 main_v86 c = (dat1 (fun c b => Gen.V21 m (outsOf m) c b) c).arrAt 3 cfg1.N := by
  rw [tc21_eq]; exact W22_arr m c
theorem tc22_eq : (fun (c : Dev nD) (b : Ref sig .tc) => Gen.V22 m (outsOf m) c b) = tc22 m :=
  funext fun c => funext fun b => congrFun (V22_eq m c) (Proc.devRef .tc b)
/-- After region 2 the unknown at `main_v87` is what pipeline 2 leaves there from the contents it is entered at. -/
theorem outs_23 (c : Dev nD) : outsOf m 23 main_v87 c = (dat2 (fun c b => Gen.V22 m (outsOf m) c b) c).arrAt 3 cfg2.N := by
  rw [tc22_eq]; exact W23_arr m c
theorem tc30_eq : (fun (c : Dev nD) (b : Ref sig .tc) => Gen.V30 m (outsOf m) c b) = tc30 m :=
  funext fun c => funext fun b => congrFun (V30_eq m c) (Proc.devRef .tc b)
/-- After region 3 the unknown at `main_v122` is what pipeline 3 leaves there from the contents it is entered at. -/
theorem outs_31 (c : Dev nD) : outsOf m 31 main_v122 c = (dat3 (fun c b => Gen.V30 m (outsOf m) c b) c).arrAt 3 cfg3.N := by
  rw [tc30_eq]; exact W31_arr m c
theorem tc31_eq : (fun (c : Dev nD) (b : Ref sig .tc) => Gen.V31 m (outsOf m) c b) = tc31 m :=
  funext fun c => funext fun b => congrFun (V31_eq m c) (Proc.devRef .tc b)
/-- After region 4 the unknown at `main_v123` is what pipeline 4 leaves there from the contents it is entered at. -/
theorem outs_32 (c : Dev nD) : outsOf m 32 main_v123 c = (dat4 (fun c b => Gen.V31 m (outsOf m) c b) c).arrAt 3 cfg4.N := by
  rw [tc31_eq]; exact W32_arr m c
theorem tc39_eq : (fun (c : Dev nD) (b : Ref sig .tc) => Gen.V39 m (outsOf m) c b) = tc39 m :=
  funext fun c => funext fun b => congrFun (V39_eq m c) (Proc.devRef .tc b)
/-- After region 5 the unknown at `main_v158` is what pipeline 5 leaves there from the contents it is entered at. -/
theorem outs_40 (c : Dev nD) : outsOf m 40 main_v158 c = (dat5 (fun c b => Gen.V39 m (outsOf m) c b) c).arrAt 3 cfg5.N := by
  rw [tc39_eq]; exact W40_arr m c
theorem tc40_eq : (fun (c : Dev nD) (b : Ref sig .tc) => Gen.V40 m (outsOf m) c b) = tc40 m :=
  funext fun c => funext fun b => congrFun (V40_eq m c) (Proc.devRef .tc b)
/-- After region 6 the unknown at `main_v159` is what pipeline 6 leaves there from the contents it is entered at. -/
theorem outs_41 (c : Dev nD) : outsOf m 41 main_v159 c = (dat6 (fun c b => Gen.V40 m (outsOf m) c b) c).arrAt 3 cfg6.N := by
  rw [tc40_eq]; exact W41_arr m c
theorem tc48_eq : (fun (c : Dev nD) (b : Ref sig .tc) => Gen.V48 m (outsOf m) c b) = tc48 m :=
  funext fun c => funext fun b => congrFun (V48_eq m c) (Proc.devRef .tc b)
/-- After region 7 the unknown at `main_v194` is what pipeline 7 leaves there from the contents it is entered at. -/
theorem outs_49 (c : Dev nD) : outsOf m 49 main_v194 c = (dat7 (fun c b => Gen.V48 m (outsOf m) c b) c).arrAt 3 cfg7.N := by
  rw [tc48_eq]; exact W49_arr m c

/-! ## At a region's exit: its arrays at what the pipeline leaves, every other buffer as entered -/

/-- Region 0's arrays at its exit: an input array as entered (never written), the output array at the write-backs' fold. -/
theorem hF0 (c : Dev nD) : ∀ w : Fin cfg0.W, (dat0 (tc13 m) c).arrAt w cfg0.N = tc14 m c (Pipeline.arrRef spec0 w)
  | ⟨0, _⟩ => ((dat0 (tc13 m) c).arrAt_in 0 rfl _).trans ((A_eq0 (tc13 m) c 0).trans (W14_of_ne m c _ (by decide)).symm)
  | ⟨1, _⟩ => ((dat0 (tc13 m) c).arrAt_in 1 rfl _).trans ((A_eq0 (tc13 m) c 1).trans (W14_of_ne m c _ (by decide)).symm)
  | ⟨2, _⟩ => ((dat0 (tc13 m) c).arrAt_in 2 rfl _).trans ((A_eq0 (tc13 m) c 2).trans (W14_of_ne m c _ (by decide)).symm)
  | ⟨3, _⟩ => (W14_arr m c).symm
theorem hrest0 (c : Dev nD) : ∀ b, b ∉ Finset.univ.image (Pipeline.arrRef spec0) → tc14 m c b = tc13 m c b :=
  fun b hb => W14_of_ne m c b fun e => hb (Finset.mem_image.mpr ⟨3, Finset.mem_univ _, e.symm⟩)
/-- Region 1's arrays at its exit: an input array as entered (never written), the output array at the write-backs' fold. -/
theorem hF1 (c : Dev nD) : ∀ w : Fin cfg1.W, (dat1 (tc21 m) c).arrAt w cfg1.N = tc22 m c (Pipeline.arrRef spec1 w)
  | ⟨0, _⟩ => ((dat1 (tc21 m) c).arrAt_in 0 rfl _).trans ((A_eq1 (tc21 m) c 0).trans (W22_of_ne m c _ (by decide)).symm)
  | ⟨1, _⟩ => ((dat1 (tc21 m) c).arrAt_in 1 rfl _).trans ((A_eq1 (tc21 m) c 1).trans (W22_of_ne m c _ (by decide)).symm)
  | ⟨2, _⟩ => ((dat1 (tc21 m) c).arrAt_in 2 rfl _).trans ((A_eq1 (tc21 m) c 2).trans (W22_of_ne m c _ (by decide)).symm)
  | ⟨3, _⟩ => (W22_arr m c).symm
theorem hrest1 (c : Dev nD) : ∀ b, b ∉ Finset.univ.image (Pipeline.arrRef spec1) → tc22 m c b = tc21 m c b :=
  fun b hb => W22_of_ne m c b fun e => hb (Finset.mem_image.mpr ⟨3, Finset.mem_univ _, e.symm⟩)
/-- Region 2's arrays at its exit: an input array as entered (never written), the output array at the write-backs' fold. -/
theorem hF2 (c : Dev nD) : ∀ w : Fin cfg2.W, (dat2 (tc22 m) c).arrAt w cfg2.N = tc23 m c (Pipeline.arrRef spec2 w)
  | ⟨0, _⟩ => ((dat2 (tc22 m) c).arrAt_in 0 rfl _).trans ((A_eq2 (tc22 m) c 0).trans (W23_of_ne m c _ (by decide)).symm)
  | ⟨1, _⟩ => ((dat2 (tc22 m) c).arrAt_in 1 rfl _).trans ((A_eq2 (tc22 m) c 1).trans (W23_of_ne m c _ (by decide)).symm)
  | ⟨2, _⟩ => ((dat2 (tc22 m) c).arrAt_in 2 rfl _).trans ((A_eq2 (tc22 m) c 2).trans (W23_of_ne m c _ (by decide)).symm)
  | ⟨3, _⟩ => (W23_arr m c).symm
theorem hrest2 (c : Dev nD) : ∀ b, b ∉ Finset.univ.image (Pipeline.arrRef spec2) → tc23 m c b = tc22 m c b :=
  fun b hb => W23_of_ne m c b fun e => hb (Finset.mem_image.mpr ⟨3, Finset.mem_univ _, e.symm⟩)
/-- Region 3's arrays at its exit: an input array as entered (never written), the output array at the write-backs' fold. -/
theorem hF3 (c : Dev nD) : ∀ w : Fin cfg3.W, (dat3 (tc30 m) c).arrAt w cfg3.N = tc31 m c (Pipeline.arrRef spec3 w)
  | ⟨0, _⟩ => ((dat3 (tc30 m) c).arrAt_in 0 rfl _).trans ((A_eq3 (tc30 m) c 0).trans (W31_of_ne m c _ (by decide)).symm)
  | ⟨1, _⟩ => ((dat3 (tc30 m) c).arrAt_in 1 rfl _).trans ((A_eq3 (tc30 m) c 1).trans (W31_of_ne m c _ (by decide)).symm)
  | ⟨2, _⟩ => ((dat3 (tc30 m) c).arrAt_in 2 rfl _).trans ((A_eq3 (tc30 m) c 2).trans (W31_of_ne m c _ (by decide)).symm)
  | ⟨3, _⟩ => (W31_arr m c).symm
theorem hrest3 (c : Dev nD) : ∀ b, b ∉ Finset.univ.image (Pipeline.arrRef spec3) → tc31 m c b = tc30 m c b :=
  fun b hb => W31_of_ne m c b fun e => hb (Finset.mem_image.mpr ⟨3, Finset.mem_univ _, e.symm⟩)
/-- Region 4's arrays at its exit: an input array as entered (never written), the output array at the write-backs' fold. -/
theorem hF4 (c : Dev nD) : ∀ w : Fin cfg4.W, (dat4 (tc31 m) c).arrAt w cfg4.N = tc32 m c (Pipeline.arrRef spec4 w)
  | ⟨0, _⟩ => ((dat4 (tc31 m) c).arrAt_in 0 rfl _).trans ((A_eq4 (tc31 m) c 0).trans (W32_of_ne m c _ (by decide)).symm)
  | ⟨1, _⟩ => ((dat4 (tc31 m) c).arrAt_in 1 rfl _).trans ((A_eq4 (tc31 m) c 1).trans (W32_of_ne m c _ (by decide)).symm)
  | ⟨2, _⟩ => ((dat4 (tc31 m) c).arrAt_in 2 rfl _).trans ((A_eq4 (tc31 m) c 2).trans (W32_of_ne m c _ (by decide)).symm)
  | ⟨3, _⟩ => (W32_arr m c).symm
theorem hrest4 (c : Dev nD) : ∀ b, b ∉ Finset.univ.image (Pipeline.arrRef spec4) → tc32 m c b = tc31 m c b :=
  fun b hb => W32_of_ne m c b fun e => hb (Finset.mem_image.mpr ⟨3, Finset.mem_univ _, e.symm⟩)
/-- Region 5's arrays at its exit: an input array as entered (never written), the output array at the write-backs' fold. -/
theorem hF5 (c : Dev nD) : ∀ w : Fin cfg5.W, (dat5 (tc39 m) c).arrAt w cfg5.N = tc40 m c (Pipeline.arrRef spec5 w)
  | ⟨0, _⟩ => ((dat5 (tc39 m) c).arrAt_in 0 rfl _).trans ((A_eq5 (tc39 m) c 0).trans (W40_of_ne m c _ (by decide)).symm)
  | ⟨1, _⟩ => ((dat5 (tc39 m) c).arrAt_in 1 rfl _).trans ((A_eq5 (tc39 m) c 1).trans (W40_of_ne m c _ (by decide)).symm)
  | ⟨2, _⟩ => ((dat5 (tc39 m) c).arrAt_in 2 rfl _).trans ((A_eq5 (tc39 m) c 2).trans (W40_of_ne m c _ (by decide)).symm)
  | ⟨3, _⟩ => (W40_arr m c).symm
theorem hrest5 (c : Dev nD) : ∀ b, b ∉ Finset.univ.image (Pipeline.arrRef spec5) → tc40 m c b = tc39 m c b :=
  fun b hb => W40_of_ne m c b fun e => hb (Finset.mem_image.mpr ⟨3, Finset.mem_univ _, e.symm⟩)
/-- Region 6's arrays at its exit: an input array as entered (never written), the output array at the write-backs' fold. -/
theorem hF6 (c : Dev nD) : ∀ w : Fin cfg6.W, (dat6 (tc40 m) c).arrAt w cfg6.N = tc41 m c (Pipeline.arrRef spec6 w)
  | ⟨0, _⟩ => ((dat6 (tc40 m) c).arrAt_in 0 rfl _).trans ((A_eq6 (tc40 m) c 0).trans (W41_of_ne m c _ (by decide)).symm)
  | ⟨1, _⟩ => ((dat6 (tc40 m) c).arrAt_in 1 rfl _).trans ((A_eq6 (tc40 m) c 1).trans (W41_of_ne m c _ (by decide)).symm)
  | ⟨2, _⟩ => ((dat6 (tc40 m) c).arrAt_in 2 rfl _).trans ((A_eq6 (tc40 m) c 2).trans (W41_of_ne m c _ (by decide)).symm)
  | ⟨3, _⟩ => (W41_arr m c).symm
theorem hrest6 (c : Dev nD) : ∀ b, b ∉ Finset.univ.image (Pipeline.arrRef spec6) → tc41 m c b = tc40 m c b :=
  fun b hb => W41_of_ne m c b fun e => hb (Finset.mem_image.mpr ⟨3, Finset.mem_univ _, e.symm⟩)
/-- Region 7's arrays at its exit: an input array as entered (never written), the output array at the write-backs' fold. -/
theorem hF7 (c : Dev nD) : ∀ w : Fin cfg7.W, (dat7 (tc48 m) c).arrAt w cfg7.N = tc49 m c (Pipeline.arrRef spec7 w)
  | ⟨0, _⟩ => ((dat7 (tc48 m) c).arrAt_in 0 rfl _).trans ((A_eq7 (tc48 m) c 0).trans (W49_of_ne m c _ (by decide)).symm)
  | ⟨1, _⟩ => ((dat7 (tc48 m) c).arrAt_in 1 rfl _).trans ((A_eq7 (tc48 m) c 1).trans (W49_of_ne m c _ (by decide)).symm)
  | ⟨2, _⟩ => ((dat7 (tc48 m) c).arrAt_in 2 rfl _).trans ((A_eq7 (tc48 m) c 2).trans (W49_of_ne m c _ (by decide)).symm)
  | ⟨3, _⟩ => (W49_arr m c).symm
theorem hrest7 (c : Dev nD) : ∀ b, b ∉ Finset.univ.image (Pipeline.arrRef spec7) → tc49 m c b = tc48 m c b :=
  fun b hb => W49_of_ne m c b fun e => hb (Finset.mem_image.mpr ⟨3, Finset.mem_univ _, e.symm⟩)

/-! ## The proof data family and the thread state -/

/-- Every pipeline's proof data, each at its region's entry contents: a literal match, so that the family at a numeral
    reduces to that region's data. -/
def pdats : (p : Fin 8) → (c : Dev nD) → Dat τ (Elt F) Unit ℕ (UR sig nD τ) ℕ (cfgs p) c
  | ⟨0, _⟩ => fun c => dat0 (tc13 m) c
  | ⟨1, _⟩ => fun c => dat1 (tc21 m) c
  | ⟨2, _⟩ => fun c => dat2 (tc22 m) c
  | ⟨3, _⟩ => fun c => dat3 (tc30 m) c
  | ⟨4, _⟩ => fun c => dat4 (tc31 m) c
  | ⟨5, _⟩ => fun c => dat5 (tc39 m) c
  | ⟨6, _⟩ => fun c => dat6 (tc40 m) c
  | ⟨7, _⟩ => fun c => dat7 (tc48 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (the regions' invariant
    takes it in and gives it back) and its `owes`, at nothing. -/
abbrev R (c : Dev nD) : sProp 𝕄 := iprop((∃ r, prngReg c r) ∗ ∃ W, owes (c : Thread nD τ) (0 : CellTallies nD τ sig Unit) W)
/-- The rest beside the buffers between any two items: always `R`. -/
abbrev E : Fin 9 → Dev nD → sProp 𝕄 := fun _ c => R c

/-! ## The regions as segments -/

-- a library lemma stated over the pinned configuration unifies with the printed one only when unification may unfold
-- plain definitions in a metavariable's type
set_option backward.isDefEq.respectTransparency.types false in
/-- REGION 0 over the thread state: entered from every unscoped buffer at `W13`, left at `W14`. Its arrays are split out
    of the unscoped buffers and put back at the exit contents; the generator register goes into the region's invariant
    and comes out; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (tc13 m) c).loose
  hwaits := Pipeline.hwaits_of_owed_zero _ _ _ _ L lv 0 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec0 c (tc13 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (tc13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (tc13 m c) (tc14 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- Region 0 is entered from the conditional frame's thread state before it and left at the one after it. -/
theorem hpre0 (c : Dev nD) : iprop(StableHlo.held (c : Thread nD τ) (Pipeline.ucRefs τ sig) (Gen.V13 m c) ∗ E (F := F) 0 c) ⊢ (reg0 m).pre c := by
  rw [V13_eq]; exact .rfl
theorem hpost0 (c : Dev nD) : (reg0 m).post c ⊢ iprop(StableHlo.held (c : Thread nD τ) (Pipeline.ucRefs τ sig) (Gen.V14 m (outsOf m) c) ∗ E (F := F) 1 c) := by
  rw [V14_eq]; exact .rfl

-- a library lemma stated over the pinned configuration unifies with the printed one only when unification may unfold
-- plain definitions in a metavariable's type
set_option backward.isDefEq.respectTransparency.types false in
/-- REGION 1 over the thread state: entered from every unscoped buffer at `W21`, left at `W22`. Its arrays are split out
    of the unscoped buffers and put back at the exit contents; the generator register goes into the region's invariant
    and comes out; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (tc21 m) c).loose
  hwaits := Pipeline.hwaits_of_owed_zero _ _ _ _ L lv 1 fun _ _ => rfl
  pre c := iprop(StableHlo.held (c : Thread nD τ) (Pipeline.ucRefs τ sig) (W21 m c) ∗ R c)
  post c := iprop(StableHlo.held (c : Thread nD τ) (Pipeline.ucRefs τ sig) (W22 m c) ∗ R c)
  X c := iprop(∃ r, prngReg c r)
  Y c := iprop(∃ r, prngReg c r)
  Z c := Pipeline.unscopedRest (Ix := Unit) (Name := ℕ) (U := UR sig nD τ) (Lvl := ℕ) spec1 c (tc21 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (tc21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (tc21 m c) (tc22 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- Region 1 is entered from the conditional frame's thread state before it and left at the one after it. -/
theorem hpre1 (c : Dev nD) : iprop(StableHlo.held (c : Thread nD τ) (Pipeline.ucRefs τ sig) (Gen.V21 m (outsOf m) c) ∗ E (F := F) 1 c) ⊢ (reg1 m).pre c := by
  rw [V21_eq]; exact .rfl
theorem hpost1 (c : Dev nD) : (reg1 m).post c ⊢ iprop(StableHlo.held (c : Thread nD τ) (Pipeline.ucRefs τ sig) (Gen.V22 m (outsOf m) c) ∗ E (F := F) 2 c) := by
  rw [V22_eq]; exact .rfl

-- a library lemma stated over the pinned configuration unifies with the printed one only when unification may unfold
-- plain definitions in a metavariable's type
set_option backward.isDefEq.respectTransparency.types false in
/-- REGION 2 over the thread state: entered from every unscoped buffer at `W22`, left at `W23`. Its arrays are split out
    of the unscoped buffers and put back at the exit contents; the generator register goes into the region's invariant
    and comes out; nothing is owed; the kernel has no semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (tc22 m) c).loose
  hwaits := Pipeline.hwaits_of_owed_zero _ _ _ _ L lv 2 fun _ _ => rfl
  pre c := iprop(StableHlo.held (c : Thread nD τ) (Pipeline.ucRefs τ sig) (W22 m c) ∗ R c)
  post c := iprop(StableHlo.held (c : Thread nD τ) (Pipeline.ucRefs τ sig) (W23 m c) ∗ R c)
  X c := iprop(∃ r, prngReg c r)
  Y c := iprop(∃ r, prngReg c r)
  Z c := Pipeline.unscopedRest (Ix := Unit) (Name := ℕ) (U := UR sig nD τ) (Lvl := ℕ) spec2 c (tc22 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (tc22 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (tc22 m c) (tc23 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- Region 2 is entered from the conditional frame's thread state before it and left at the one after it. -/
theorem hpre2 (c : Dev nD) : iprop(StableHlo.held (c : Thread nD τ) (Pipeline.ucRefs τ sig) (Gen.V22 m (outsOf m) c) ∗ E (F := F) 2 c) ⊢ (reg2 m).pre c := by
  rw [V22_eq]; exact .rfl
theorem hpost2 (c : Dev nD) : (reg2 m).post c ⊢ iprop(StableHlo.held (c : Thread nD τ) (Pipeline.ucRefs τ sig) (Gen.V23 m (outsOf m) c) ∗ E (F := F) 3 c) := by
  rw [V23_eq]; exact .rfl

-- a library lemma stated over the pinned configuration unifies with the printed one only when unification may unfold
-- plain definitions in a metavariable's type
set_option backward.isDefEq.respectTransparency.types false in
/-- REGION 3 over the thread state: entered from every unscoped buffer at `W30`, left at `W31`. Its arrays are split out
    of the unscoped buffers and put back at the exit contents; the generator register goes into the region's invariant
    and comes out; nothing is owed; the kernel has no semaphore of its own. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (tc30 m) c).loose
  hwaits := Pipeline.hwaits_of_owed_zero _ _ _ _ L lv 3 fun _ _ => rfl
  pre c := iprop(StableHlo.held (c : Thread nD τ) (Pipeline.ucRefs τ sig) (W30 m c) ∗ R c)
  post c := iprop(StableHlo.held (c : Thread nD τ) (Pipeline.ucRefs τ sig) (W31 m c) ∗ R c)
  X c := iprop(∃ r, prngReg c r)
  Y c := iprop(∃ r, prngReg c r)
  Z c := Pipeline.unscopedRest (Ix := Unit) (Name := ℕ) (U := UR sig nD τ) (Lvl := ℕ) spec3 c (tc30 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (tc30 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (tc30 m c) (tc31 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- Region 3 is entered from the conditional frame's thread state before it and left at the one after it. -/
theorem hpre3 (c : Dev nD) : iprop(StableHlo.held (c : Thread nD τ) (Pipeline.ucRefs τ sig) (Gen.V30 m (outsOf m) c) ∗ E (F := F) 3 c) ⊢ (reg3 m).pre c := by
  rw [V30_eq]; exact .rfl
theorem hpost3 (c : Dev nD) : (reg3 m).post c ⊢ iprop(StableHlo.held (c : Thread nD τ) (Pipeline.ucRefs τ sig) (Gen.V31 m (outsOf m) c) ∗ E (F := F) 4 c) := by
  rw [V31_eq]; exact .rfl

-- a library lemma stated over the pinned configuration unifies with the printed one only when unification may unfold
-- plain definitions in a metavariable's type
set_option backward.isDefEq.respectTransparency.types false in
/-- REGION 4 over the thread state: entered from every unscoped buffer at `W31`, left at `W32`. Its arrays are split out
    of the unscoped buffers and put back at the exit contents; the generator register goes into the region's invariant
    and comes out; nothing is owed; the kernel has no semaphore of its own. -/
def reg4 : Pipeline.RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (tc31 m) c).loose
  hwaits := Pipeline.hwaits_of_owed_zero _ _ _ _ L lv 4 fun _ _ => rfl
  pre c := iprop(StableHlo.held (c : Thread nD τ) (Pipeline.ucRefs τ sig) (W31 m c) ∗ R c)
  post c := iprop(StableHlo.held (c : Thread nD τ) (Pipeline.ucRefs τ sig) (W32 m c) ∗ R c)
  X c := iprop(∃ r, prngReg c r)
  Y c := iprop(∃ r, prngReg c r)
  Z c := Pipeline.unscopedRest (Ix := Unit) (Name := ℕ) (U := UR sig nD τ) (Lvl := ℕ) spec4 c (tc31 m c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (tc31 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (tc31 m c) (tc32 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- Region 4 is entered from the conditional frame's thread state before it and left at the one after it. -/
theorem hpre4 (c : Dev nD) : iprop(StableHlo.held (c : Thread nD τ) (Pipeline.ucRefs τ sig) (Gen.V31 m (outsOf m) c) ∗ E (F := F) 4 c) ⊢ (reg4 m).pre c := by
  rw [V31_eq]; exact .rfl
theorem hpost4 (c : Dev nD) : (reg4 m).post c ⊢ iprop(StableHlo.held (c : Thread nD τ) (Pipeline.ucRefs τ sig) (Gen.V32 m (outsOf m) c) ∗ E (F := F) 5 c) := by
  rw [V32_eq]; exact .rfl

-- a library lemma stated over the pinned configuration unifies with the printed one only when unification may unfold
-- plain definitions in a metavariable's type
set_option backward.isDefEq.respectTransparency.types false in
/-- REGION 5 over the thread state: entered from every unscoped buffer at `W39`, left at `W40`. Its arrays are split out
    of the unscoped buffers and put back at the exit contents; the generator register goes into the region's invariant
    and comes out; nothing is owed; the kernel has no semaphore of its own. -/
def reg5 : Pipeline.RegionSeg (pcfgs (F := F)) Gen.adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (tc39 m) c).loose
  hwaits := Pipeline.hwaits_of_owed_zero _ _ _ _ L lv 5 fun _ _ => rfl
  pre c := iprop(StableHlo.held (c : Thread nD τ) (Pipeline.ucRefs τ sig) (W39 m c) ∗ R c)
  post c := iprop(StableHlo.held (c : Thread nD τ) (Pipeline.ucRefs τ sig) (W40 m c) ∗ R c)
  X c := iprop(∃ r, prngReg c r)
  Y c := iprop(∃ r, prngReg c r)
  Z c := Pipeline.unscopedRest (Ix := Unit) (Name := ℕ) (U := UR sig nD τ) (Lvl := ℕ) spec5 c (tc39 m c)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (tc39 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m) ((pdats m 5 c).share_full fun _ => rfl)
      (tc39 m c) (tc40 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- Region 5 is entered from the conditional frame's thread state before it and left at the one after it. -/
theorem hpre5 (c : Dev nD) : iprop(StableHlo.held (c : Thread nD τ) (Pipeline.ucRefs τ sig) (Gen.V39 m (outsOf m) c) ∗ E (F := F) 5 c) ⊢ (reg5 m).pre c := by
  rw [V39_eq]; exact .rfl
theorem hpost5 (c : Dev nD) : (reg5 m).post c ⊢ iprop(StableHlo.held (c : Thread nD τ) (Pipeline.ucRefs τ sig) (Gen.V40 m (outsOf m) c) ∗ E (F := F) 6 c) := by
  rw [V40_eq]; exact .rfl

-- a library lemma stated over the pinned configuration unifies with the printed one only when unification may unfold
-- plain definitions in a metavariable's type
set_option backward.isDefEq.respectTransparency.types false in
/-- REGION 6 over the thread state: entered from every unscoped buffer at `W40`, left at `W41`. Its arrays are split out
    of the unscoped buffers and put back at the exit contents; the generator register goes into the region's invariant
    and comes out; nothing is owed; the kernel has no semaphore of its own. -/
def reg6 : Pipeline.RegionSeg (pcfgs (F := F)) Gen.adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (tc40 m) c).loose
  hwaits := Pipeline.hwaits_of_owed_zero _ _ _ _ L lv 6 fun _ _ => rfl
  pre c := iprop(StableHlo.held (c : Thread nD τ) (Pipeline.ucRefs τ sig) (W40 m c) ∗ R c)
  post c := iprop(StableHlo.held (c : Thread nD τ) (Pipeline.ucRefs τ sig) (W41 m c) ∗ R c)
  X c := iprop(∃ r, prngReg c r)
  Y c := iprop(∃ r, prngReg c r)
  Z c := Pipeline.unscopedRest (Ix := Unit) (Name := ℕ) (U := UR sig nD τ) (Lvl := ℕ) spec6 c (tc40 m c)
  hentry c := by
    rw [Pipeline.ownSems0_none]
    have hsplit := Pipeline.arrays_of_unscopedBufs (p := 6) (pcfgs (F := F)) Gen.adm (pdats m) launch6.win launch6.arr_whole c
      ((pdats m 6 c).share_full fun _ => rfl) (tc40 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) Gen.adm (Ix := Unit) (Name := ℕ) (U := UR sig nD τ) (Lvl := ℕ)
      launch6.win launch6.arr_whole c (pdats m) ((pdats m 6 c).share_full fun _ => rfl)
      (tc40 m c) (tc41 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- Region 6 is entered from the conditional frame's thread state before it and left at the one after it. -/
theorem hpre6 (c : Dev nD) : iprop(StableHlo.held (c : Thread nD τ) (Pipeline.ucRefs τ sig) (Gen.V40 m (outsOf m) c) ∗ E (F := F) 6 c) ⊢ (reg6 m).pre c := by
  rw [V40_eq]; exact .rfl
theorem hpost6 (c : Dev nD) : (reg6 m).post c ⊢ iprop(StableHlo.held (c : Thread nD τ) (Pipeline.ucRefs τ sig) (Gen.V41 m (outsOf m) c) ∗ E (F := F) 7 c) := by
  rw [V41_eq]; exact .rfl

-- a library lemma stated over the pinned configuration unifies with the printed one only when unification may unfold
-- plain definitions in a metavariable's type
set_option backward.isDefEq.respectTransparency.types false in
/-- REGION 7 over the thread state: entered from every unscoped buffer at `W48`, left at `W49`. Its arrays are split out
    of the unscoped buffers and put back at the exit contents; the generator register goes into the region's invariant
    and comes out; nothing is owed; the kernel has no semaphore of its own. -/
def reg7 : Pipeline.RegionSeg (pcfgs (F := F)) Gen.adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (tc48 m) c).loose
  hwaits := Pipeline.hwaits_of_owed_zero _ _ _ _ L lv 7 fun _ _ => rfl
  pre c := iprop(StableHlo.held (c : Thread nD τ) (Pipeline.ucRefs τ sig) (W48 m c) ∗ R c)
  post c := iprop(StableHlo.held (c : Thread nD τ) (Pipeline.ucRefs τ sig) (W49 m c) ∗ R c)
  X c := iprop(∃ r, prngReg c r)
  Y c := iprop(∃ r, prngReg c r)
  Z c := Pipeline.unscopedRest (Ix := Unit) (Name := ℕ) (U := UR sig nD τ) (Lvl := ℕ) spec7 c (tc48 m c)
  hentry c := by
    rw [Pipeline.ownSems0_none]
    have hsplit := Pipeline.arrays_of_unscopedBufs (p := 7) (pcfgs (F := F)) Gen.adm (pdats m) launch7.win launch7.arr_whole c
      ((pdats m 7 c).share_full fun _ => rfl) (tc48 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) Gen.adm (Ix := Unit) (Name := ℕ) (U := UR sig nD τ) (Lvl := ℕ)
      launch7.win launch7.arr_whole c (pdats m) ((pdats m 7 c).share_full fun _ => rfl)
      (tc48 m c) (tc49 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
/-- Region 7 is entered from the conditional frame's thread state before it and left at the one after it. -/
theorem hpre7 (c : Dev nD) : iprop(StableHlo.held (c : Thread nD τ) (Pipeline.ucRefs τ sig) (Gen.V48 m (outsOf m) c) ∗ E (F := F) 7 c) ⊢ (reg7 m).pre c := by
  rw [V48_eq]; exact .rfl
theorem hpost7 (c : Dev nD) : (reg7 m).post c ⊢ iprop(StableHlo.held (c : Thread nD τ) (Pipeline.ucRefs τ sig) (Gen.V49 m (outsOf m) c) ∗ E (F := F) 8 c) := by
  rw [V49_eq]; exact .rfl

/-! ## The run -/

-- the conditional run's implicit arguments are found by unifying its conclusion with this one, which takes unfolding
-- plain definitions in a metavariable's type
set_option backward.isDefEq.respectTransparency.types false in
/-- THE RUN of @main: from any memory with zero counters every weakly fair execution on the TensorCores terminates, and every
    final memory holds the program's result (`result`: the fold's last valuation at the returned array) and each argument
    as launched. The conditional run at the eight regions' records, with no user algebra beyond the pipelines' rounds, no
    level, nothing owed at launch and no ghost resource. -/
theorem run_main (ρ : Dev nD → PrngReg) : θ_run defs (onTc (τ := τ) (main (F := F))) ⟨m, fun _ => 0, ρ⟩ (fun r => ∀ c : Dev nD,
      r.2.mem ((c.tc : Thread nD τ).loc main_v194) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  run_cond m (EP := emb₁) (ι := ()) (𝒱₀ := 𝒱₀) (L := L) (lv := lv) (hL := fun _ _ => rfl) (ρ := ρ) (outs := outsOf m) (pdats := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := E)
    (hE0 := by
      refine Pipeline.initEach L lv fun c => ?_
      iintro ⟨⟨-, HO, -, Hp, -⟩, -⟩
      imodintro
      isplitl [Hp]; · iexists _; iexact Hp
      iexists ∅; iexact HO)
    (hE8 := fun c => by iintro ⟨-, HO⟩; iexact HO)
    (R0 := reg0 m) (hpre0 := hpre0 m) (hpost0 := hpost0 m)
    (R1 := reg1 m) (hpre1 := hpre1 m) (hpost1 := hpost1 m)
    (R2 := reg2 m) (hpre2 := hpre2 m) (hpost2 := hpost2 m)
    (R3 := reg3 m) (hpre3 := hpre3 m) (hpost3 := hpost3 m)
    (R4 := reg4 m) (hpre4 := hpre4 m) (hpost4 := hpost4 m)
    (R5 := reg5 m) (hpre5 := hpre5 m) (hpost5 := hpost5 m)
    (R6 := reg6 m) (hpre6 := hpre6 m) (hpost6 := hpost6 m)
    (R7 := reg7 m) (hpre7 := hpre7 m) (hpost7 := hpost7 m)

/-- THE FRAME: every argument array ends holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run_main m ρ)

end Cert.KernelIdeal.Hand

end
-- ==== Proof.Spec.lean ====
/-
  The function both programs compute, on the extended reals.

  Per relation r (one row of the two index tables): the inverse-square-root degree of a row of indices,
  `deg` (the count of each node among the indices, clamped below by one, to the power -1/2); the transformed
  features `P` (row n of h scaled by the source-side degree factor of n, times the r-th weight matrix);
  the aggregate `agg` (the rows of P gathered at the source indices and added up at the destination
  indices). A layer is the sum over the three relations of  agg · (destination-side degree factor) + bias,
  followed by a maximum with zero except in the last layer; the network is four layers.
-/
import proofs.«408287_j3659312136510_1_alg».proof.KernelIdeal
import Idealize.ShloMosaic.PureOps.Ideal
import Idealize.ShloMosaic.Lib.ValueIdx

noncomputable section

namespace Cert.KernelIdeal.Spec

open Idealize.ShloMosaic Idealize.ShloMosaic.ValueIdx Cert.KernelIdeal

variable [Facts]
open Facts₀ Facts

/-- Row 0 of a [3, E] index table, as the [E, 1] column of start indices a gather or scatter takes. -/
def idx0 (t : IVec S3x800000 32) : IVec S800000x1 32 :=
  broadcastInDim S800000x1 ![0] bcast_S800000_S800000x1_0
    (shapeCast S800000 (extractStridedSlice S1x800000 ![0, 0] t slices_S3x800000_S1x800000_0_0) shapeCasts_S1x800000_S800000)
/-- Row 1 of a [3, E] index table. -/
def idx1 (t : IVec S3x800000 32) : IVec S800000x1 32 :=
  broadcastInDim S800000x1 ![0] bcast_S800000_S800000x1_0
    (shapeCast S800000 (extractStridedSlice S1x800000 ![1, 0] t slices_S3x800000_S1x800000_1_0) shapeCasts_S1x800000_S800000)
/-- Row 2 of a [3, E] index table. -/
def idx2 (t : IVec S3x800000 32) : IVec S800000x1 32 :=
  broadcastInDim S800000x1 ![0] bcast_S800000_S800000x1_0
    (shapeCast S800000 (extractStridedSlice S1x800000 ![2, 0] t slices_S3x800000_S1x800000_2_0) shapeCasts_S1x800000_S800000)

/-- The degree factor of every node for one row of indices: (max 1 (number of occurrences))^(-1/2). -/
def deg (i : IVec S800000x1 32) : Vec Ideal S100000 .f32 :=
  Host.rsqrt (maximumf (broadcastInDim S100000 ![] bcast_S_S100000 (id (constant (F := Ideal) S_ .f32 0x3F800000#32)))
    (Host.scatterAdd scatter_S100000_S800000x1_S800000_n_0_0_1
      (broadcastInDim S100000 ![] bcast_S_S100000 (constant (F := Ideal) S_ .f32 0x00000000#32)) i
      (broadcastInDim S800000 ![] bcast_S_S800000 (constant (F := Ideal) S_ .f32 0x3F800000#32))))

/-- Transformed features, width 64: entry (n, d) is the sum over k of (h[n,k] · s[n]) · W[r,k,d]. -/
def P64 (h : Vec Ideal S100000x64 .f32) (s : Vec Ideal S100000 .f32) (W : Vec Ideal S3x64x64 .f32) (r : Fin 3) :
    Vec Ideal S100000x64 .f32 :=
  fun i => ∑ k : Fin 64, (h (ix2 (i 0) k) * s (ix1 (i 0))) * W (ix3 r k (i 1))

/-- Transformed features, width 2. -/
def P2 (h : Vec Ideal S100000x64 .f32) (s : Vec Ideal S100000 .f32) (W : Vec Ideal S3x64x2 .f32) (r : Fin 3) :
    Vec Ideal S100000x2 .f32 :=
  fun i => ∑ k : Fin 64, (h (ix2 (i 0) k) * s (ix1 (i 0))) * W (ix3 r k (i 1))

/-- The rows of `P` gathered at the source indices and added up at the destination indices, width 64. -/
def agg64 (P : Vec Ideal S100000x64 .f32) (isrc idst : IVec S800000x1 32) : Vec Ideal S100000x64 .f32 :=
  Host.scatterAdd scatter_S100000x64_S800000x1_S800000x64_1_0_0_1
    (broadcastInDim S100000x64 ![] bcast_S_S100000x64 (constant (F := Ideal) S_ .f32 0x00000000#32)) idst
    (Host.gather gather_S100000x64_S800000x1_S800000x64_1_0_n_n_0_1_164 P isrc)

/-- The same, width 2. -/
def agg2 (P : Vec Ideal S100000x2 .f32) (isrc idst : IVec S800000x1 32) : Vec Ideal S100000x2 .f32 :=
  Host.scatterAdd scatter_S100000x2_S800000x1_S800000x2_1_0_0_1
    (broadcastInDim S100000x2 ![] bcast_S_S100000x2 (constant (F := Ideal) S_ .f32 0x00000000#32)) idst
    (Host.gather gather_S100000x2_S800000x1_S800000x2_1_0_n_n_0_1_12 P isrc)

/-- One relation's term of a layer at entry (n, d): aggregate · destination-side degree factor + bias. -/
def term64 (a : Vec Ideal S100000x64 .f32) (s : Vec Ideal S100000 .f32) (b : Vec Ideal S3x64 .f32) (r : Fin 3)
    (i : S100000x64.Idx) : EReal :=
  a i * s (ix1 (i 0)) + b (ix2 r (i 1))

def term2 (a : Vec Ideal S100000x2 .f32) (s : Vec Ideal S100000 .f32) (b : Vec Ideal S3x2 .f32) (r : Fin 3)
    (i : S100000x2.Idx) : EReal :=
  a i * s (ix1 (i 0)) + b (ix2 r (i 1))

/-- A hidden layer (width 64, with the maximum with zero). -/
def layer64 (h : Vec Ideal S100000x64 .f32) (src dst : IVec S3x800000 32) (W : Vec Ideal S3x64x64 .f32)
    (b : Vec Ideal S3x64 .f32) : Vec Ideal S100000x64 .f32 :=
  fun i => max
    (term64 (agg64 (P64 h (deg (idx0 src)) W 0) (idx0 src) (idx0 dst)) (deg (idx0 dst)) b 0 i
      + term64 (agg64 (P64 h (deg (idx1 src)) W 1) (idx1 src) (idx1 dst)) (deg (idx1 dst)) b 1 i
      + term64 (agg64 (P64 h (deg (idx2 src)) W 2) (idx2 src) (idx2 dst)) (deg (idx2 dst)) b 2 i) 0

/-- The output layer (width 2, no maximum). -/
def layer2 (h : Vec Ideal S100000x64 .f32) (src dst : IVec S3x800000 32) (W : Vec Ideal S3x64x2 .f32)
    (b : Vec Ideal S3x2 .f32) : Vec Ideal S100000x2 .f32 :=
  fun i =>
    term2 (agg2 (P2 h (deg (idx0 src)) W 0) (idx0 src) (idx0 dst)) (deg (idx0 dst)) b 0 i
      + term2 (agg2 (P2 h (deg (idx1 src)) W 1) (idx1 src) (idx1 dst)) (deg (idx1 dst)) b 1 i
      + term2 (agg2 (P2 h (deg (idx2 src)) W 2) (idx2 src) (idx2 dst)) (deg (idx2 dst)) b 2 i

/-- The network: three hidden layers and the output layer. -/
def net (x : Vec Ideal S100000x64 .f32) (src dst : IVec S3x800000 32)
    (W1 : Vec Ideal S3x64x64 .f32) (b1 : Vec Ideal S3x64 .f32) (W2 : Vec Ideal S3x64x64 .f32) (b2 : Vec Ideal S3x64 .f32)
    (W3 : Vec Ideal S3x64x64 .f32) (b3 : Vec Ideal S3x64 .f32) (W4 : Vec Ideal S3x64x2 .f32) (b4 : Vec Ideal S3x2 .f32) :
    Vec Ideal S100000x2 .f32 :=
  layer2 (layer64 (layer64 (layer64 x src dst W1 b1) src dst W2 b2) src dst W3 b3) src dst W4 b4

/-- What a pretransform region leaves, as one array [3, N, 64]: entry (r, n, d) is the sum over k of
    (h[n,k] · io[n,r]) · W[r,k,d], with `io` the [N, 3] table of source-side degree factors. -/
def preArr64 (h : Vec Ideal S100000x64 .f32) (io : Vec Ideal S100000x3 .f32) (W : Vec Ideal S3x64x64 .f32) :
    Vec Ideal S3x100000x64 .f32 :=
  fun j => ∑ k : Fin 64, (h (ix2 (j 1) k) * io (ix2 (j 1) (j 0))) * W (ix3 (j 0) k (j 2))

def preArr2 (h : Vec Ideal S100000x64 .f32) (io : Vec Ideal S100000x3 .f32) (W : Vec Ideal S3x64x2 .f32) :
    Vec Ideal S3x100000x2 .f32 :=
  fun j => ∑ k : Fin 64, (h (ix2 (j 1) k) * io (ix2 (j 1) (j 0))) * W (ix3 (j 0) k (j 2))

/-- What a postagg region leaves, as one array [N, 64]: entry (n, d) is the maximum with zero of the running sum
    ((((((0 + a[0,n,d]·ii[n,0]) + b[0,d]) + a[1,n,d]·ii[n,1]) + b[1,d]) + a[2,n,d]·ii[n,2]) + b[2,d]), in the order the
    kernel accumulates it, with `ii` the [N, 3] table of destination-side degree factors. -/
def postArr64 (a : Vec Ideal S3x100000x64 .f32) (ii : Vec Ideal S100000x3 .f32) (b : Vec Ideal S3x64 .f32) :
    Vec Ideal S100000x64 .f32 :=
  fun i => max ((((((0 + a (ix3 0 (i 0) (i 1)) * ii (ix2 (i 0) 0)) + b (ix2 0 (i 1)))
    + a (ix3 1 (i 0) (i 1)) * ii (ix2 (i 0) 1)) + b (ix2 1 (i 1)))
    + a (ix3 2 (i 0) (i 1)) * ii (ix2 (i 0) 2)) + b (ix2 2 (i 1))) 0

/-- The last postagg region: the same running sum at width 2, with no maximum. -/
def postArr2 (a : Vec Ideal S3x100000x2 .f32) (ii : Vec Ideal S100000x3 .f32) (b : Vec Ideal S3x2 .f32) :
    Vec Ideal S100000x2 .f32 :=
  fun i => (((((0 + a (ix3 0 (i 0) (i 1)) * ii (ix2 (i 0) 0)) + b (ix2 0 (i 1)))
    + a (ix3 1 (i 0) (i 1)) * ii (ix2 (i 0) 1)) + b (ix2 1 (i 1)))
    + a (ix3 2 (i 0) (i 1)) * ii (ix2 (i 0) 2)) + b (ix2 2 (i 1))

/-- The stated domain of the source indices: every entry of the table is a node number. -/
def SrcInRange (src : IVec S3x800000 32) : Prop := ∀ j : S3x800000.Idx, 0 ≤ (src j).toInt ∧ (src j).toInt < 100000

end Cert.KernelIdeal.Spec

end
-- ==== Proof.KI.PreTake.lean ====
/-
  The stated precondition read back, and the index-taking function of both programs read as a plain gather.

  * The last conjunct of the precondition says that every entry of the source-index table is a node number:
    the conjunction, over both axes, of  0 ≤ src[r, e]  and  src[r, e] < 100000  (signed comparisons) is one.
    A reduction by "and" that came out one met only ones, so both comparisons hold at every entry.
  * A row of the table (a slice of one row, then the reshape that drops the unit axis) reads the table at
    (r, e), so the rows are in range too.
  * On a row whose entries are in [0, 100000) the normalisation  i ↦ (i < 0 ? i + 100000 : i)  changes nothing,
    the validity mask  0 ≤ i ∧ i ≤ 99999  is one everywhere, and the selection against the fill value returns
    the gathered rows: the function is the gather at the row's own indices.
-/
import proofs.«408287_j3659312136510_1_alg».proof.Proof.Spec
import proofs.«408287_j3659312136510_1_alg».proof.Pre_finite_inputs
import proofs.«408287_j3659312136510_1_alg».proof.Proof.Gen.Pre_finite_inputs
import Idealize.ShloMosaic.Lib.ReduceAll
import Idealize.ShloMosaic.Lib.ValueIdx
import Idealize.ShloMosaic.Lib.ValueLayout

noncomputable section

namespace Cert.KernelIdeal.Hand

open Idealize.ShloMosaic Idealize.ShloMosaic.ValueIdx

/-! ## A reduction by "and" of ones -/

/-- A left fold by "and", started at one, over words that are all one, is one. -/
theorem foldl_andi_ones {ι : Type} (f : ι → BitVec 1) :
    ∀ l : List ι, (∀ n ∈ l, f n = 1#1) → l.foldl (fun r n => IntOp.andi r (f n)) 1#1 = 1#1
  | [], _ => rfl
  | a :: l, hf => by
    rw [List.foldl_cons, hf a (List.mem_cons_self ..), show IntOp.andi 1#1 1#1 = 1#1 from by decide]
    exact foldl_andi_ones f l (fun n hn => hf n (List.mem_cons_of_mem _ hn))

/-- A reduction by "and" from the constant one of an array of ones is one at every index of the result. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x _ (fun n _ => hx n)

theorem toInt_zero32 : (0#32 : BitVec 32).toInt = 0 := by decide
theorem toInt_99999 : (99999#32 : BitVec 32).toInt = 99999 := by decide
theorem toInt_100000 : (100000#32 : BitVec 32).toInt = 100000 := by decide

/-! ## The precondition's last conjunct -/

section Pre

/-- A rank-0 array has one index. -/
instance subsingleton_scalar_idx : Subsingleton (⟨0, ![]⟩ : Shape).Idx := ⟨fun a b => funext fun d => d.elim0⟩

/-- The precondition's last conjunct, read back: every entry of the source-index table lies in [0, 100000). -/
theorem srcInRange_of_pre [Cert.Pre_finite_inputs.Facts]
    (a0 : FVec Ideal Cert.Pre_finite_inputs.S100000x64 .f32) (a1 a2 : IVec Cert.Pre_finite_inputs.S3x800000 32)
    (a3 : FVec Ideal Cert.Pre_finite_inputs.S3x64x64 .f32) (a4 : FVec Ideal Cert.Pre_finite_inputs.S3x64 .f32)
    (a5 : FVec Ideal Cert.Pre_finite_inputs.S3x64x64 .f32) (a6 : FVec Ideal Cert.Pre_finite_inputs.S3x64 .f32)
    (a7 : FVec Ideal Cert.Pre_finite_inputs.S3x64x64 .f32) (a8 : FVec Ideal Cert.Pre_finite_inputs.S3x64 .f32)
    (a9 : FVec Ideal Cert.Pre_finite_inputs.S3x64x2 .f32) (a10 : FVec Ideal Cert.Pre_finite_inputs.S3x2 .f32)
    (h : Cert.Pre_finite_inputs.fn (F := Ideal) a0 a1 a2 a3 a4 a5 a6 a7 a8 a9 a10 = fun _ => 1#1) :
    ∀ j, 0 ≤ (a1 j).toInt ∧ (a1 j).toInt < 100000 := by
  intro j
  -- the function's value is the "and" of the float conjuncts with the reduced index mask
  have e : IntOp.andi _ (Host.reduce IntOp.andi
      (andi
        (cmpi .sge a1 (broadcastInDim Cert.Pre_finite_inputs.S3x800000 ![] Cert.Pre_finite_inputs.Facts.bcast_S_S3x800000
          (constantI Cert.Pre_finite_inputs.S_ 32 0#32)))
        (cmpi .slt a1 (broadcastInDim Cert.Pre_finite_inputs.S3x800000 ![] Cert.Pre_finite_inputs.Facts.bcast_S_S3x800000
          (constantI Cert.Pre_finite_inputs.S_ 32 100000#32))))
      (constantI Cert.Pre_finite_inputs.S_ 1 1#1) Cert.Pre_finite_inputs.Facts.reducesTo_S3x800000_S_d0_1
      Cert.Pre_finite_inputs.Facts.h_S_ ix0) = 1#1 := congrFun h ix0
  have e2 := (IntOp.andi_eq_one.1 e).2
  -- a reduction over both axes that is one met a one at every entry
  have e3 : IntOp.andi (IntOp.cmpi .sge (a1 j) 0#32) (IntOp.cmpi .slt (a1 j) 100000#32) = 1#1 :=
    Host.reduce_andi_all _ _ _ _ _ e2 j
  obtain ⟨h0, h1⟩ := IntOp.andi_eq_one.1 e3
  have g0 := IntOp.cmpi_sge.1 h0
  have g1 := IntOp.cmpi_slt.1 h1
  rw [toInt_zero32] at g0
  rw [toInt_100000] at g1
  exact ⟨g0, g1⟩

end Pre

open Cert.KernelIdeal

variable [Facts]
open Facts₀ Facts

/-- The same, as the specification's domain predicate (the two modules' [3, 800000] shapes are one literal). -/
theorem srcInRange_of_pre' [Cert.Pre_finite_inputs.Facts]
    (a0 : FVec Ideal Cert.Pre_finite_inputs.S100000x64 .f32) (a1 a2 : IVec Cert.Pre_finite_inputs.S3x800000 32)
    (a3 : FVec Ideal Cert.Pre_finite_inputs.S3x64x64 .f32) (a4 : FVec Ideal Cert.Pre_finite_inputs.S3x64 .f32)
    (a5 : FVec Ideal Cert.Pre_finite_inputs.S3x64x64 .f32) (a6 : FVec Ideal Cert.Pre_finite_inputs.S3x64 .f32)
    (a7 : FVec Ideal Cert.Pre_finite_inputs.S3x64x64 .f32) (a8 : FVec Ideal Cert.Pre_finite_inputs.S3x64 .f32)
    (a9 : FVec Ideal Cert.Pre_finite_inputs.S3x64x2 .f32) (a10 : FVec Ideal Cert.Pre_finite_inputs.S3x2 .f32)
    (h : Cert.Pre_finite_inputs.fn (F := Ideal) a0 a1 a2 a3 a4 a5 a6 a7 a8 a9 a10 = fun _ => 1#1) :
    Cert.KernelIdeal.Spec.SrcInRange a1 :=
  srcInRange_of_pre a0 a1 a2 a3 a4 a5 a6 a7 a8 a9 a10 h

/-! ## The rows of the table

Row r as a vector is the slice [r, r+1) × [0, 800000) with its unit axis dropped: at e it reads the table at (r, e). -/

theorem row_0_inRange (src : IVec S3x800000 32) (h : Spec.SrcInRange src) :
    ∀ j, 0 ≤ ((shapeCast S800000 (extractStridedSlice S1x800000 ![0, 0] src slices_S3x800000_S1x800000_0_0) shapeCasts_S1x800000_S800000) j).toInt
      ∧ ((shapeCast S800000 (extractStridedSlice S1x800000 ![0, 0] src slices_S3x800000_S1x800000_0_0) shapeCasts_S1x800000_S800000) j).toInt < 100000 := by
  intro j
  obtain ⟨k, rfl⟩ : ∃ k, j = ix1 k := ⟨j 0, eq_ix1 j⟩
  rw [shapeCast_1a_a_apply, slice2_axis0_eq]
  exact h _

theorem row_1_inRange (src : IVec S3x800000 32) (h : Spec.SrcInRange src) :
    ∀ j, 0 ≤ ((shapeCast S800000 (extractStridedSlice S1x800000 ![1, 0] src slices_S3x800000_S1x800000_1_0) shapeCasts_S1x800000_S800000) j).toInt
      ∧ ((shapeCast S800000 (extractStridedSlice S1x800000 ![1, 0] src slices_S3x800000_S1x800000_1_0) shapeCasts_S1x800000_S800000) j).toInt < 100000 := by
  intro j
  obtain ⟨k, rfl⟩ : ∃ k, j = ix1 k := ⟨j 0, eq_ix1 j⟩
  rw [shapeCast_1a_a_apply, slice2_axis0_eq]
  exact h _

theorem row_2_inRange (src : IVec S3x800000 32) (h : Spec.SrcInRange src) :
    ∀ j, 0 ≤ ((shapeCast S800000 (extractStridedSlice S1x800000 ![2, 0] src slices_S3x800000_S1x800000_2_0) shapeCasts_S1x800000_S800000) j).toInt
      ∧ ((shapeCast S800000 (extractStridedSlice S1x800000 ![2, 0] src slices_S3x800000_S1x800000_2_0) shapeCasts_S1x800000_S800000) j).toInt < 100000 := by
  intro j
  obtain ⟨k, rfl⟩ : ∃ k, j = ix1 k := ⟨j 0, eq_ix1 j⟩
  rw [shapeCast_1a_a_apply, slice2_axis0_eq]
  exact h _

/-! ## The index normalisation -/

/-- On indices in [0, 100000) the test  i < 0  fails everywhere, so the selection keeps the index. -/
theorem norm_eq (v : IVec S800000 32) (hv : ∀ j, 0 ≤ (v j).toInt ∧ (v j).toInt < 100000) :
    select (cmpi .slt v (broadcastInDim S800000 ![] bcast_S_S800000 (constantI S_ 32 0#32)))
      (addi v (broadcastInDim S800000 ![] bcast_S_S800000 (constantI S_ 32 100000#32))) v = v := by
  funext j
  show Scalar.select (IntOp.cmpi .slt (v j) 0#32) (IntOp.addi (v j) 100000#32) (v j) = v j
  have hn : ¬ IntOp.cmpi .slt (v j) 0#32 = 1#1 := by
    rw [IntOp.cmpi_slt, toInt_zero32]
    exact Int.not_lt.mpr (hv j).1
  rw [eq_zero_of_ne_one hn, select_zero]

/-- The validity mask of a column of in-range start indices: 0 ≤ i and i ≤ 99999 at every entry, so the reduction
    along the unit axis is one everywhere. -/
theorem mask_ones (v : IVec S800000 32) (hv : ∀ j, 0 ≤ (v j).toInt ∧ (v j).toInt < 100000) :
    Host.reduce IntOp.andi
      (andi
        (cmpi .sge (broadcastInDim S800000x1 ![0] bcast_S800000_S800000x1_0 v)
          (broadcastInDim S800000x1 ![] bcast_S_S800000x1 (constantI S_ 32 0#32)))
        (cmpi .sle (broadcastInDim S800000x1 ![0] bcast_S800000_S800000x1_0 v)
          (broadcastInDim S800000x1 ![0, 1] bcast_S1x1_S800000x1_0_1
            (broadcastInDim S1x1 ![1] bcast_S1_S1x1_1 (constantI S1 32 99999#32)))))
      (constantI S_ 1 1#1) reducesTo_S800000x1_S800000_d1 h_S_ = fun _ => 1#1 := by
  funext j
  have key : ∀ w : BitVec 32, 0 ≤ w.toInt ∧ w.toInt < 100000 →
      IntOp.andi (IntOp.cmpi .sge w 0#32) (IntOp.cmpi .sle w 99999#32) = 1#1 := by
    intro w hw
    rw [IntOp.andi_eq_one, IntOp.cmpi_sge, IntOp.cmpi_sle, toInt_zero32, toInt_99999]
    omega
  exact reduce_andi_ones _ _ _ _ (fun i => key _ (hv _)) (fun _ => rfl) j

/-! ## The index-taking function -/

/-- The function at width 64, operation by operation: the indices normalised, broadcast to a column of start indices,
    the validity mask of the column, the gather, and the selection of the gathered rows against the fill value. -/
def take64 (x : Vec Ideal S100000x64 .f32) (v : IVec S800000 32) : Vec Ideal S800000x64 .f32 :=
  let c : IVec S_ 32 := constantI S_ 32 0#32
  let v0 : IVec S800000 32 := broadcastInDim S800000 ![] bcast_S_S800000 c
  let v1 : IVec S800000 1 := cmpi .slt v v0
  let c_0 : IVec S_ 32 := constantI S_ 32 100000#32
  let v2 : IVec S800000 32 := broadcastInDim S800000 ![] bcast_S_S800000 c_0
  let v3 : IVec S800000 32 := addi v v2
  let v4 : IVec S800000 32 := select v1 v3 v
  let v5 : IVec S800000x1 32 := broadcastInDim S800000x1 ![0] bcast_S800000_S800000x1_0 v4
  let c_1 : IVec S1 32 := constantI S1 32 99999#32
  let c_2 : IVec S_ 32 := constantI S_ 32 0#32
  let v6 : IVec S800000x1 32 := broadcastInDim S800000x1 ![] bcast_S_S800000x1 c_2
  let v7 : IVec S800000x1 1 := cmpi .sge v5 v6
  let v8 : IVec S1x1 32 := broadcastInDim S1x1 ![1] bcast_S1_S1x1_1 c_1
  let v9 : IVec S800000x1 32 := broadcastInDim S800000x1 ![0, 1] bcast_S1x1_S800000x1_0_1 v8
  let v10 : IVec S800000x1 1 := cmpi .sle v5 v9
  let v11 : IVec S800000x1 1 := andi v7 v10
  let c_3 : IVec S_ 1 := constantI S_ 1 1#1
  let v12 : IVec S800000 1 := (fun x v => Host.reduce IntOp.andi x v reducesTo_S800000x1_S800000_d1 h_S_) v11 c_3
  let v13 : Vec Ideal S800000x64 .f32 := (fun x i => Host.gather gather_S100000x64_S800000x1_S800000x64_1_0_n_n_0_1_164 x i) x v5
  let v14 : IVec S800000x64 1 := broadcastInDim S800000x64 ![0] bcast_S800000_S800000x64_0 v12
  let cst : Vec Ideal S_ .f32 := constant (F := Ideal) S_ .f32 0x7FC00000#32
  let v15 : Vec Ideal S800000x64 .f32 := broadcastInDim S800000x64 ![] bcast_S_S800000x64 cst
  select v14 v13 v15

/-- The function at width 2: the same operations over the narrow table. -/
def take2 (x : Vec Ideal S100000x2 .f32) (v : IVec S800000 32) : Vec Ideal S800000x2 .f32 :=
  let c : IVec S_ 32 := constantI S_ 32 0#32
  let v0 : IVec S800000 32 := broadcastInDim S800000 ![] bcast_S_S800000 c
  let v1 : IVec S800000 1 := cmpi .slt v v0
  let c_0 : IVec S_ 32 := constantI S_ 32 100000#32
  let v2 : IVec S800000 32 := broadcastInDim S800000 ![] bcast_S_S800000 c_0
  let v3 : IVec S800000 32 := addi v v2
  let v4 : IVec S800000 32 := select v1 v3 v
  let v5 : IVec S800000x1 32 := broadcastInDim S800000x1 ![0] bcast_S800000_S800000x1_0 v4
  let c_1 : IVec S1 32 := constantI S1 32 99999#32
  let c_2 : IVec S_ 32 := constantI S_ 32 0#32
  let v6 : IVec S800000x1 32 := broadcastInDim S800000x1 ![] bcast_S_S800000x1 c_2
  let v7 : IVec S800000x1 1 := cmpi .sge v5 v6
  let v8 : IVec S1x1 32 := broadcastInDim S1x1 ![1] bcast_S1_S1x1_1 c_1
  let v9 : IVec S800000x1 32 := broadcastInDim S800000x1 ![0, 1] bcast_S1x1_S800000x1_0_1 v8
  let v10 : IVec S800000x1 1 := cmpi .sle v5 v9
  let v11 : IVec S800000x1 1 := andi v7 v10
  let c_3 : IVec S_ 1 := constantI S_ 1 1#1
  let v12 : IVec S800000 1 := (fun x v => Host.reduce IntOp.andi x v reducesTo_S800000x1_S800000_d1 h_S_) v11 c_3
  let v13 : Vec Ideal S800000x2 .f32 := (fun x i => Host.gather gather_S100000x2_S800000x1_S800000x2_1_0_n_n_0_1_12 x i) x v5
  let v14 : IVec S800000x2 1 := broadcastInDim S800000x2 ![0] bcast_S800000_S800000x2_0 v12
  let cst : Vec Ideal S_ .f32 := constant (F := Ideal) S_ .f32 0x7FC00000#32
  let v15 : Vec Ideal S800000x2 .f32 := broadcastInDim S800000x2 ![] bcast_S_S800000x2 cst
  select v14 v13 v15

/-- Over in-range indices the function is the gather at the row's own indices: the normalisation is the identity, the
    mask is one everywhere, and a selection under a one keeps its first operand. -/
theorem take64_eq (x : Vec Ideal S100000x64 .f32) (v : IVec S800000 32) (hv : ∀ j, 0 ≤ (v j).toInt ∧ (v j).toInt < 100000) :
    take64 x v = Host.gather gather_S100000x64_S800000x1_S800000x64_1_0_n_n_0_1_164 x
      (broadcastInDim S800000x1 ![0] bcast_S800000_S800000x1_0 v) := by
  simp only [take64]
  rw [norm_eq v hv, mask_ones v hv]
  funext i
  exact select_one _ _

theorem take2_eq (x : Vec Ideal S100000x2 .f32) (v : IVec S800000 32) (hv : ∀ j, 0 ≤ (v j).toInt ∧ (v j).toInt < 100000) :
    take2 x v = Host.gather gather_S100000x2_S800000x1_S800000x2_1_0_n_n_0_1_12 x
      (broadcastInDim S800000x1 ![0] bcast_S800000_S800000x1_0 v) := by
  simp only [take2]
  rw [norm_eq v hv, mask_ones v hv]
  funext i
  exact select_one _ _

end Cert.KernelIdeal.Hand

end
-- ==== Proof.KI.ValPreCols.lean ====
/-
  The accesses every pretransform body shares, on the extended reals, read at an index: the [5000,1] column of
  degree factors broadcast along the 64 features of the tile of `h` (entry (p, k) reads the column at row p), the
  load of the whole tile of `h`, and the load of column r of the tile of degree factors.
-/
import proofs.«408287_j3659312136510_1_alg».proof.Proof.Spec
import proofs.«408287_j3659312136510_1_alg».proof.Proof.Gen.KernelIdeal
import Idealize.ShloMosaic.Lib.Pipeline.FrameBody
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window BodyObligation cellOf)

/-! ## The layout operations shared by every width -/

/-- The [5000,1] column broadcast along the feature axis reads, at (p, k), the column at row p. -/
theorem bcastCol64_apply (v : FVec Ideal S5000x1 .f32) (p : Fin 5000) (k : Fin 64) :
    broadcastTo S5000x64 v broadcasts_S5000x1_S5000x64 (ix2 p k) = v (ix2 p (0 : Fin 1)) := by
  refine broadcastTo_apply v _ (ix2 p k) (ix2 p (0 : Fin 1)) fun ax => ?_
  match ax with
  | ⟨0, _⟩ =>
    show p.val = if (5000 : ℕ) = 1 then 0 else p.val
    rw [if_neg (by decide)]
  | ⟨1, _⟩ =>
    show (0 : ℕ) = if (1 : ℕ) = 1 then 0 else k.val
    rw [if_pos rfl]

/-- Where the body's loads land: the whole tile of `h`; column r of the degree factors. -/
theorem ld_h64 (x0 : Vec Ideal S5000x64 .f32) (inb) (p : Fin 5000) (k : Fin 64) :
    View.ld x0 (Rect.unit (s := S5000x64) ![0, 0] S5000x64.size inb) (ix2 p k) = x0 (ix2 p k) :=
  congrArg x0 (funext fun a => Fin.ext (by
    match a with
    | ⟨0, _⟩ => show 0 + 1 * p.val = p.val; omega
    | ⟨1, _⟩ => show 0 + 1 * k.val = k.val; omega))

theorem ld_deg (x1 : Vec Ideal S5000x3 .f32) (r : Fin 3) (inb) (p : Fin 5000) :
    View.ld x1 (Rect.unit (s := S5000x3) ![0, r.val] S5000x1.size inb) (ix2 p (0 : Fin 1)) = x1 (ix2 p r) :=
  congrArg x1 (funext fun a => Fin.ext (by
    match a with
    | ⟨0, _⟩ => show 0 + 1 * p.val = p.val; omega
    | ⟨1, _⟩ => show r.val + 1 * 0 = r.val; omega))

end Cert.KernelIdeal.Hand

end
-- ==== Proof.KI.ValPreW64.lean ====
/-
  Width 64: what one relation's part of a pretransform body computes, on the extended reals, index by index.

  The product of the scaled [5000,64] tile by a [64,64] weight matrix into a zero accumulator is, at (p, d), the plain
  sum over k of a[p,k] · b[k,d]; the product is stored as a [1,5000,64] slab, and the weight matrix is read off a
  [1,64,64] slab of the weight array. `preBlk64` is the whole output block as one function of the input blocks; the
  load of matrix r of the weights and the place of slab r in the output block are read at an index; and a block whose
  input blocks are row tiles of whole arrays is the same row tile of `Spec.preArr64` of those arrays.
-/
import proofs.«408287_j3659312136510_1_alg».proof.Proof.Spec
import proofs.«408287_j3659312136510_1_alg».proof.Proof.Gen.KernelIdeal
import Idealize.ShloMosaic.Lib.Pipeline.FrameBody
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window BodyObligation cellOf)

/-! ## Width 64: the product of a row tile by one weight matrix, at an index -/

theorem lhs64_0 (j : S5000x64.Idx) (k : dot_S5000x64_S64x64_S5000x64_1_0_0_1_n_n.contr.Idx) :
    (dot_S5000x64_S64x64_S5000x64_1_0_0_1_n_n.lhsIdx j k 0).val = (j 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

theorem lhs64_1 (j : S5000x64.Idx) (k : dot_S5000x64_S64x64_S5000x64_1_0_0_1_n_n.contr.Idx) :
    (dot_S5000x64_S64x64_S5000x64_1_0_0_1_n_n.lhsIdx j k 1).val = (k ⟨0, by decide⟩).val :=
  dot_S5000x64_S64x64_S5000x64_1_0_0_1_n_n.lhsIdx_val_of_single (cl := 1) rfl j k

theorem rhs64_0 (j : S5000x64.Idx) (k : dot_S5000x64_S64x64_S5000x64_1_0_0_1_n_n.contr.Idx) :
    (dot_S5000x64_S64x64_S5000x64_1_0_0_1_n_n.rhsIdx j k 0).val = (k ⟨0, by decide⟩).val :=
  dot_S5000x64_S64x64_S5000x64_1_0_0_1_n_n.rhsIdx_val_of_single (cr := 0) rfl j k

theorem rhs64_1 (j : S5000x64.Idx) (k : dot_S5000x64_S64x64_S5000x64_1_0_0_1_n_n.contr.Idx) :
    (dot_S5000x64_S64x64_S5000x64_1_0_0_1_n_n.rhsIdx j k 1).val = (j 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- A [5000,64] tile times a [64,64] matrix into a zero accumulator: entry (p, d) is the sum over k of a[p,k]·b[k,d]. -/
theorem matmul64_apply (a : FVec Ideal S5000x64 .bf16) (b : FVec Ideal S64x64 .bf16) (p : Fin 5000) (d : Fin 64) :
    matmul dot_S5000x64_S64x64_S5000x64_1_0_0_1_n_n none a b (constant (F := Ideal) S5000x64 .f32 0x00000000#32) (ix2 p d)
      = ∑ k : Fin 64, a (ix2 p k) * b (ix2 k d) := by
  show FloatOps.matmul _ none a b _ (ix2 p d) = _
  rw [Ideal.matmul_constant_zero_apply,
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have hl : dot_S5000x64_S64x64_S5000x64_1_0_0_1_n_n.lhsIdx (ix2 p d) ((contrEquiv1 dot_S5000x64_S64x64_S5000x64_1_0_0_1_n_n 64 rfl rfl).symm k) = ix2 p k := by
    funext ax; apply Fin.ext
    match ax with
    | ⟨0, _⟩ => exact lhs64_0 _ _
    | ⟨1, _⟩ => exact (lhs64_1 _ _).trans hk
  have hr : dot_S5000x64_S64x64_S5000x64_1_0_0_1_n_n.rhsIdx (ix2 p d) ((contrEquiv1 dot_S5000x64_S64x64_S5000x64_1_0_0_1_n_n 64 rfl rfl).symm k) = ix2 k d := by
    funext ax; apply Fin.ext
    match ax with
    | ⟨0, _⟩ => exact (rhs64_0 _ _).trans hk
    | ⟨1, _⟩ => exact rhs64_1 _ _
  rw [hl, hr]

/-- A [5000,64] product stored as a [1,5000,64] slab reads (u, p, d) at (p, d). -/
theorem slabOf64_apply (v : FVec Ideal S5000x64 .f32) (u : Fin 1) (p : Fin 5000) (d : Fin 64) :
    shapeCast S1x5000x64 v shapeCasts_S5000x64_S1x5000x64 (ix3 u p d) = v (ix2 p d) :=
  shapeCast_apply v _ (ix3 u p d) (ix2 p d) (by
    rw [Shape.rowMajor_val_two, Shape.rowMajor_val_three]
    have hu : u.val = 0 := by omega
    show p.val * 64 + d.val = (u.val * 5000 + p.val) * 64 + d.val
    rw [hu]; omega)

/-- One relation's [1,64,64] weight slab viewed [64,64] reads (k, d) at (0, k, d). -/
theorem matOf64_apply (w : FVec Ideal S1x64x64 .f32) (k : Fin 64) (d : Fin 64) :
    shapeCast S64x64 w shapeCasts_S1x64x64_S64x64 (ix2 k d) = w (ix3 (0 : Fin 1) k d) :=
  shapeCast_apply w _ (ix2 k d) (ix3 (0 : Fin 1) k d) (by
    rw [Shape.rowMajor_val_two, Shape.rowMajor_val_three]
    show ((0 : ℕ) * 64 + k.val) * 64 + d.val = k.val * 64 + d.val
    omega)

/-- One row tile of the result, width 64: entry (r, p, d) is the sum over k of (h[p,k] · io[p,r]) · W[r,k,d], over the
    tile's blocks of `h` and of the degree factors and the whole weight array. -/
def preBlk64 (x0 : Vec Ideal S5000x64 .f32) (x1 : Vec Ideal S5000x3 .f32) (x2 : Vec Ideal S3x64x64 .f32) :
    Vec Ideal S3x5000x64 .f32 :=
  fun y => ∑ k : Fin 64, (x0 (ix2 (y 1) k) * x1 (ix2 (y 1) (y 0))) * x2 (ix3 (y 0) k (y 2))

/-- Matrix r of the weights, and slab r of the output block, width 64. -/
theorem ld_w64 (x2 : Vec Ideal S3x64x64 .f32) (r : Fin 3) (inb) (k : Fin 64) (d : Fin 64) :
    View.ld x2 (Rect.unit (s := S3x64x64) ![r.val, 0, 0] S1x64x64.size inb) (ix3 (0 : Fin 1) k d) = x2 (ix3 r k d) :=
  congrArg x2 (funext fun a => Fin.ext (by
    match a with
    | ⟨0, _⟩ => show r.val + 1 * 0 = r.val; omega
    | ⟨1, _⟩ => show 0 + 1 * k.val = k.val; omega
    | ⟨2, _⟩ => show 0 + 1 * d.val = d.val; omega))

theorem emb_out64 (r : Fin 3) (inb) (u : Fin 1) (p : Fin 5000) (d : Fin 64) :
    (Rect.unit (s := S3x5000x64) ![r.val, 0, 0] S1x5000x64.size inb).emb (ix3 u p d) = ix3 r p d :=
  funext fun a => Fin.ext (by
    have hu : u.val = 0 := by omega
    match a with
    | ⟨0, _⟩ => show r.val + 1 * u.val = r.val; omega
    | ⟨1, _⟩ => show 0 + 1 * p.val = p.val; omega
    | ⟨2, _⟩ => show 0 + 1 * d.val = d.val; omega)

/-- A row tile of the result is the tile of the whole array's function, when the tile's input blocks are the tiles of
    the whole inputs (row p of the tile is row n of the arrays). -/
theorem preBlk64_eq_preArr64 (h : Vec Ideal S100000x64 .f32) (io : Vec Ideal S100000x3 .f32) (W : Vec Ideal S3x64x64 .f32)
    (x0 : Vec Ideal S5000x64 .f32) (x1 : Vec Ideal S5000x3 .f32) (x2 : Vec Ideal S3x64x64 .f32)
    (r : Fin 3) (p : Fin 5000) (d : Fin 64) (n : Fin 100000)
    (h0 : ∀ k : Fin 64, x0 (ix2 p k) = h (ix2 n k)) (h1 : x1 (ix2 p r) = io (ix2 n r))
    (h2 : ∀ k : Fin 64, x2 (ix3 r k d) = W (ix3 r k d)) :
    preBlk64 x0 x1 x2 (ix3 r p d) = Spec.preArr64 h io W (ix3 r n d) := by
  unfold preBlk64 Spec.preArr64
  refine Finset.sum_congr rfl fun k _ => ?_
  show (x0 (ix2 p k) * x1 (ix2 p r)) * x2 (ix3 r k d) = (h (ix2 n k) * io (ix2 n r)) * W (ix3 r k d)
  rw [h0 k, h1, h2 k]

end Cert.KernelIdeal.Hand

end
-- ==== Proof.KI.ValPre0.lean ====
/-
  The value of pretransform region 0 on the extended reals, from the blocks to the whole array.

  Per row tile of 5000 rows the body computes the block  out[r, p, :] = (h[p, :] · io[p, r]) @ W[r]  for the three
  relations r: it scales the tile of `h` by column r of the tile of degree factors, multiplies by the r-th weight
  matrix into a zero accumulator, and stores the product as slab r of the output block. On the extended reals a change
  of float format is the identity and the product is a plain finite sum, so entry (r, p, d) of the block is
  Σ_k (h[p,k] · io[p,r]) · W[r,k,d]  (`preBlk64`). Point t of the grid takes row tile t of `h`, of the degree factors
  and of the result, and the whole weight array; so the block it writes back is the tile of `Spec.preArr64` of the
  three arrays over rows 5000·t … 5000·t + 4999, and since row n lies in the tile of point n / 5000 the twenty tiles
  cover the array: the region leaves exactly that function of the three arrays it reads.
-/
import proofs.«408287_j3659312136510_1_alg».proof.Proof.Spec
import proofs.«408287_j3659312136510_1_alg».proof.Proof.KI.Reg0
import proofs.«408287_j3659312136510_1_alg».proof.Proof.KI.ValPreCols
import proofs.«408287_j3659312136510_1_alg».proof.Proof.KI.ValPreW64

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window BodyObligation cellOf)

-- the TensorCore's buffer contents when a region is entered, at the extended reals
variable (V : (c : Dev nD) → (b : Ref sig .tc) → Buf (Elt Ideal) ((c : Thread nD τ).loc b))

/-! ## Region 0: the slabs of the output block, at an index -/

/-- The slab the body stores for relation 0, from the tile of `h`, the relation's column of degree factors and the
    relation's weight matrix: entry (u, p, d) is the sum over k of (h[p,k] · col[p]) · w[k,d]. -/
theorem slab0_rel0 (x0 : Vec Ideal S5000x64 .f32) (col : Vec Ideal S5000x1 .f32) (w : Vec Ideal S1x64x64 .f32)
    (u : Fin 1) (p : Fin 5000) (d : Fin 64) :
    k0_pay2 x0 col w (ix3 u p d) = ∑ k : Fin 64, (x0 (ix2 p k) * col (ix2 p (0 : Fin 1))) * w (ix3 (0 : Fin 1) k d) := by
  unfold k0_pay2
  refine (slabOf64_apply _ u p d).trans ?_
  refine (matmul64_apply _ _ p d).trans ?_
  refine Finset.sum_congr rfl fun k _ => ?_
  show (x0 (ix2 p k) * broadcastTo S5000x64 (shapeCast S5000x1 col shapeCasts_S5000x1_S5000x1) broadcasts_S5000x1_S5000x64 (ix2 p k))
      * shapeCast S64x64 w shapeCasts_S1x64x64_S64x64 (ix2 k d) = _
  rw [bcastCol64_apply, shapeCast_self, matOf64_apply]

/-- Relation 1's slab, likewise. -/
theorem slab0_rel1 (x0 : Vec Ideal S5000x64 .f32) (col : Vec Ideal S5000x1 .f32) (w : Vec Ideal S1x64x64 .f32)
    (u : Fin 1) (p : Fin 5000) (d : Fin 64) :
    k0_pay3 x0 col w (ix3 u p d) = ∑ k : Fin 64, (x0 (ix2 p k) * col (ix2 p (0 : Fin 1))) * w (ix3 (0 : Fin 1) k d) := by
  unfold k0_pay3
  refine (slabOf64_apply _ u p d).trans ?_
  refine (matmul64_apply _ _ p d).trans ?_
  refine Finset.sum_congr rfl fun k _ => ?_
  show (x0 (ix2 p k) * broadcastTo S5000x64 (shapeCast S5000x1 col shapeCasts_S5000x1_S5000x1) broadcasts_S5000x1_S5000x64 (ix2 p k))
      * shapeCast S64x64 w shapeCasts_S1x64x64_S64x64 (ix2 k d) = _
  rw [bcastCol64_apply, shapeCast_self, matOf64_apply]

/-- Relation 2's slab: its scaled tile and its weight matrix are formed first, the product after. -/
theorem slab0_rel2 (x0 : Vec Ideal S5000x64 .f32) (col : Vec Ideal S5000x1 .f32) (w : Vec Ideal S1x64x64 .f32)
    (u : Fin 1) (p : Fin 5000) (d : Fin 64) :
    k0_pay1 (k0_pay4 x0 col) (k0_pay5 w) (ix3 u p d) = ∑ k : Fin 64, (x0 (ix2 p k) * col (ix2 p (0 : Fin 1))) * w (ix3 (0 : Fin 1) k d) := by
  unfold k0_pay1 k0_pay4 k0_pay5
  refine (slabOf64_apply _ u p d).trans ?_
  refine (matmul64_apply _ _ p d).trans ?_
  refine Finset.sum_congr rfl fun k _ => ?_
  show (x0 (ix2 p k) * broadcastTo S5000x64 (shapeCast S5000x1 col shapeCasts_S5000x1_S5000x1) broadcasts_S5000x1_S5000x64 (ix2 p k))
      * shapeCast S64x64 w shapeCasts_S1x64x64_S64x64 (ix2 k d) = _
  rw [bcastCol64_apply, shapeCast_self, matOf64_apply]

/-- What the body of region 0 leaves in the output window's buffer is `preBlk64` of the input blocks: each of its
    three stores is the slab of it that the store's rectangle names, and the three slabs cover the block. -/
theorem out0_3_eq (x0 : Vec Ideal S5000x64 .f32) (x1 : Vec Ideal S5000x3 .f32) (x2 : Vec Ideal S3x64x64 .f32) :
    out0_3 x0 x1 x2 = preBlk64 x0 x1 x2 := by
  funext y
  unfold out0_3
  refine View.canon_apply_of_pieces (preBlk64 x0 x1 x2) _ (fun q hq x => ?_) y (cover0_3 _ _ _ y)
  simp only [List.mem_cons, List.mem_nil_iff, or_false] at hq
  rcases hq with rfl | rfl | rfl
  · obtain ⟨u, p, d, rfl⟩ : ∃ (u : Fin 1) (p : Fin 5000) (d : Fin 64), x = ix3 u p d := ⟨x 0, x 1, x 2, eq_ix3 x⟩
    refine (slab0_rel2 _ _ _ u p d).trans ?_
    show _ = preBlk64 x0 x1 x2 ((Rect.unit (s := S3x5000x64) ![(2 : Fin 3).val, 0, 0] S1x5000x64.size inb_S3x5000x64_S1x5000x64_2_0_0).emb (ix3 u p d))
    rw [emb_out64 2]
    refine Finset.sum_congr rfl fun k _ => ?_
    rw [ld_h64]
    exact congrArg₂ (fun a b => (x0 (ix2 p k) * a) * b) (ld_deg x1 2 _ p) (ld_w64 x2 2 _ k d)
  · obtain ⟨u, p, d, rfl⟩ : ∃ (u : Fin 1) (p : Fin 5000) (d : Fin 64), x = ix3 u p d := ⟨x 0, x 1, x 2, eq_ix3 x⟩
    refine (slab0_rel1 _ _ _ u p d).trans ?_
    show _ = preBlk64 x0 x1 x2 ((Rect.unit (s := S3x5000x64) ![(1 : Fin 3).val, 0, 0] S1x5000x64.size inb_S3x5000x64_S1x5000x64_1_0_0).emb (ix3 u p d))
    rw [emb_out64 1]
    refine Finset.sum_congr rfl fun k _ => ?_
    rw [ld_h64]
    exact congrArg₂ (fun a b => (x0 (ix2 p k) * a) * b) (ld_deg x1 1 _ p) (ld_w64 x2 1 _ k d)
  · obtain ⟨u, p, d, rfl⟩ : ∃ (u : Fin 1) (p : Fin 5000) (d : Fin 64), x = ix3 u p d := ⟨x 0, x 1, x 2, eq_ix3 x⟩
    refine (slab0_rel0 _ _ _ u p d).trans ?_
    show _ = preBlk64 x0 x1 x2 ((Rect.unit (s := S3x5000x64) ![(0 : Fin 3).val, 0, 0] S1x5000x64.size inb_S3x5000x64_S1x5000x64_0_0_0).emb (ix3 u p d))
    rw [emb_out64 0]
    refine Finset.sum_congr rfl fun k _ => ?_
    rw [ld_h64]
    exact congrArg₂ (fun a b => (x0 (ix2 p k) * a) * b) (ld_deg x1 0 _ p) (ld_w64 x2 0 _ k d)

/-! ## Region 0: from the blocks to the array -/

/-- The printed index maps over the grid: point t takes row tile t of `h`, of the degree factors and of the result,
    and the whole weight array. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = t.val ∧ win0_3.index t (2 : Fin 3) = 0 :=
  (by decide +kernel : ∀ t : Fin grid0.N, _)

/-- WHAT POINT t WRITES BACK is row tile t of the whole array's function of the three arrays the region reads. -/
theorem flushed0_eq (c : Dev nD) (t : Fin cfg0.N) :
    (dat0 (F := Ideal) V c).flushed 3 t
      = ((cfg0.win 3).blk t).view.read (Elt Ideal) (Spec.preArr64 (V c main_arg0) (V c main_v46) (V c main_arg3)) := by
  show (cfg0.win 3).cut (grid0.coords t) ((dat0 V c).after 3 t) = _
  rw [after0_3]
  obtain ⟨e00, e01, e10, e11, e20, e21, e22, e30, e31, e32⟩ := idx_facts0 t
  have ht : t.val < 20 := t.isLt
  have key : ∀ y : S3x5000x64.Idx, out0_3 (iblk0 V c 0 t) (iblk0 V c 1 t) (iblk0 V c 2 t) y
      = Spec.preArr64 (V c main_arg0) (V c main_v46) (V c main_arg3) (((cfg0.win 3).blk t).view.emb y) := by
    intro y
    obtain ⟨r, p, d, rfl⟩ : ∃ (r : Fin 3) (p : Fin 5000) (d : Fin 64), y = ix3 r p d := ⟨y 0, y 1, y 2, eq_ix3 y⟩
    refine (congrFun (out0_3_eq (iblk0 V c 0 t) (iblk0 V c 1 t) (iblk0 V c 2 t)) (ix3 r p d)).trans ?_
    have hn : t.val * 5000 + p.val < 100000 := by have := p.isLt; omega
    have hemb : ((cfg0.win 3).blk t).view.emb (ix3 r p d) = (ix3 r (⟨t.val * 5000 + p.val, hn⟩ : Fin 100000) d : S3x100000x64.Idx) := by
      funext a; apply Fin.ext
      match a with
      | ⟨0, _⟩ => show win0_3.index t (0 : Fin 3) * 3 + 1 * r.val = r.val; omega
      | ⟨1, _⟩ => show win0_3.index t (1 : Fin 3) * 5000 + 1 * p.val = t.val * 5000 + p.val; omega
      | ⟨2, _⟩ => show win0_3.index t (2 : Fin 3) * 64 + 1 * d.val = d.val; omega
    rw [hemb]
    refine preBlk64_eq_preArr64 (V c main_arg0) (V c main_v46) (V c main_arg3) (iblk0 V c 0 t) (iblk0 V c 1 t) (iblk0 V c 2 t) r p d _ (fun k => ?_) ?_ (fun k => ?_)
    · show V c main_arg0 (((cfg0.win 0).blk t).view.emb (ix2 p k)) = V c main_arg0 _
      refine congrArg (V c main_arg0) (funext fun a => Fin.ext ?_)
      match a with
      | ⟨0, _⟩ => show win0_0.index t (0 : Fin 2) * 5000 + 1 * p.val = t.val * 5000 + p.val; omega
      | ⟨1, _⟩ => show win0_0.index t (1 : Fin 2) * 64 + 1 * k.val = k.val; omega
    · show V c main_v46 (((cfg0.win 1).blk t).view.emb (ix2 p r)) = V c main_v46 _
      refine congrArg (V c main_v46) (funext fun a => Fin.ext ?_)
      match a with
      | ⟨0, _⟩ => show win0_1.index t (0 : Fin 2) * 5000 + 1 * p.val = t.val * 5000 + p.val; omega
      | ⟨1, _⟩ => show win0_1.index t (1 : Fin 2) * 3 + 1 * r.val = r.val; omega
    · show V c main_arg3 (((cfg0.win 2).blk t).view.emb (ix3 r k d)) = V c main_arg3 _
      refine congrArg (V c main_arg3) (funext fun a => Fin.ext ?_)
      match a with
      | ⟨0, _⟩ => show win0_2.index t (0 : Fin 3) * 3 + 1 * r.val = r.val; omega
      | ⟨1, _⟩ => show win0_2.index t (1 : Fin 3) * 64 + 1 * k.val = k.val; omega
      | ⟨2, _⟩ => show win0_2.index t (2 : Fin 3) * 64 + 1 * d.val = d.val; omega
  funext j
  exact key j

/-- An index of the result array is in point t's block iff each coordinate is in the block's range on its axis. -/
theorem mem_blk0_3 (t : Fin cfg0.N) (i : S3x100000x64.Idx) :
    i ∈ ((cfg0.win 3).blk t).view.set ↔ ∀ a : Fin 3, win0_3.index t a * S3x5000x64.size a ≤ (i a).val
      ∧ (i a).val < win0_3.index t a * S3x5000x64.size a + S3x5000x64.size a := by
  show i ∈ ((View.whole main_v51).slice (win0_3.rect t)).set ↔ _
  rw [View.set_slice_whole, Rect.mem_set_unit]
  exact Iff.rfl

/-- THE ARRAY region 0 leaves: every row n is in the block of point n / 5000, so the array is the whole function. -/
theorem pre_value_0 (c : Dev nD) :
    (dat0 (F := Ideal) V c).arrAt 3 cfg0.N = Spec.preArr64 (V c main_arg0) (V c main_v46) (V c main_arg3) :=
  (dat0 (F := Ideal) V c).arrAt_eq_of_cover 3 (Spec.preArr64 (V c main_arg0) (V c main_v46) (V c main_arg3))
    (fun t _ => flushed0_eq V c t) fun (i : S3x100000x64.Idx) => by
      have hi0 : (i 0).val < 3 := (i 0).isLt
      have hi1 : (i 1).val < 100000 := (i 1).isLt
      have hi2 : (i 2).val < 64 := (i 2).isLt
      have hN : cfg0.N = 20 := N_0
      have hq : (i 1).val / 5000 < cfg0.N := by rw [hN]; omega
      obtain ⟨-, -, -, -, -, -, -, e30, e31, e32⟩ := idx_facts0 ⟨(i 1).val / 5000, hq⟩
      refine ⟨⟨(i 1).val / 5000, hq⟩, flush0_3 _, ?_⟩
      rw [mem_blk0_3]
      intro a
      match a with
      | ⟨0, _⟩ =>
        show win0_3.index ⟨(i 1).val / 5000, hq⟩ (0 : Fin 3) * 3 ≤ (i 0).val ∧ (i 0).val < win0_3.index ⟨(i 1).val / 5000, hq⟩ (0 : Fin 3) * 3 + 3
        rw [e30]; omega
      | ⟨1, _⟩ =>
        show win0_3.index ⟨(i 1).val / 5000, hq⟩ (1 : Fin 3) * 5000 ≤ (i 1).val ∧ (i 1).val < win0_3.index ⟨(i 1).val / 5000, hq⟩ (1 : Fin 3) * 5000 + 5000
        rw [e31]; show (i 1).val / 5000 * 5000 ≤ (i 1).val ∧ (i 1).val < (i 1).val / 5000 * 5000 + 5000; omega
      | ⟨2, _⟩ =>
        show win0_3.index ⟨(i 1).val / 5000, hq⟩ (2 : Fin 3) * 64 ≤ (i 2).val ∧ (i 2).val < win0_3.index ⟨(i 1).val / 5000, hq⟩ (2 : Fin 3) * 64 + 64
        rw [e32]; omega

end Cert.KernelIdeal.Hand

end
-- ==== Proof.KI.ValPre2.lean ====
/-
  The value of pretransform region 2 on the extended reals, from the blocks to the whole array.

  Per row tile of 5000 rows the body computes the block  out[r, p, :] = (h[p, :] · io[p, r]) @ W[r]  for the three
  relations r: it scales the tile of `h` by column r of the tile of degree factors, multiplies by the r-th weight
  matrix into a zero accumulator, and stores the product as slab r of the output block. On the extended reals a change
  of float format is the identity and the product is a plain finite sum, so entry (r, p, d) of the block is
  Σ_k (h[p,k] · io[p,r]) · W[r,k,d]  (`preBlk64`). Point t of the grid takes row tile t of `h`, of the degree factors
  and of the result, and the whole weight array; so the block it writes back is the tile of `Spec.preArr64` of the
  three arrays over rows 5000·t … 5000·t + 4999, and since row n lies in the tile of point n / 5000 the twenty tiles
  cover the array: the region leaves exactly that function of the three arrays it reads.
-/
import proofs.«408287_j3659312136510_1_alg».proof.Proof.Spec
import proofs.«408287_j3659312136510_1_alg».proof.Proof.KI.Reg2
import proofs.«408287_j3659312136510_1_alg».proof.Proof.KI.ValPreCols
import proofs.«408287_j3659312136510_1_alg».proof.Proof.KI.ValPreW64

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window BodyObligation cellOf)

-- the TensorCore's buffer contents when a region is entered, at the extended reals
variable (V : (c : Dev nD) → (b : Ref sig .tc) → Buf (Elt Ideal) ((c : Thread nD τ).loc b))

/-! ## Region 2: the slabs of the output block, at an index -/

/-- The slab the body stores for relation 0, from the tile of `h`, the relation's column of degree factors and the
    relation's weight matrix: entry (u, p, d) is the sum over k of (h[p,k] · col[p]) · w[k,d]. -/
theorem slab2_rel0 (x0 : Vec Ideal S5000x64 .f32) (col : Vec Ideal S5000x1 .f32) (w : Vec Ideal S1x64x64 .f32)
    (u : Fin 1) (p : Fin 5000) (d : Fin 64) :
    k2_pay3 x0 col w (ix3 u p d) = ∑ k : Fin 64, (x0 (ix2 p k) * col (ix2 p (0 : Fin 1))) * w (ix3 (0 : Fin 1) k d) := by
  unfold k2_pay3 k2_pay2
  refine (slabOf64_apply _ u p d).trans ?_
  refine (matmul64_apply _ _ p d).trans ?_
  refine Finset.sum_congr rfl fun k _ => ?_
  show (shapeCast S5000x64 x0 shapeCasts_S5000x64_S5000x64 (ix2 p k) * broadcastTo S5000x64 (shapeCast S5000x1 col shapeCasts_S5000x1_S5000x1) broadcasts_S5000x1_S5000x64 (ix2 p k))
      * shapeCast S64x64 w shapeCasts_S1x64x64_S64x64 (ix2 k d) = _
  rw [shapeCast_self, shapeCast_self, bcastCol64_apply, matOf64_apply]

/-- Relation 1's slab, likewise. -/
theorem slab2_rel1 (x0 : Vec Ideal S5000x64 .f32) (col : Vec Ideal S5000x1 .f32) (w : Vec Ideal S1x64x64 .f32)
    (u : Fin 1) (p : Fin 5000) (d : Fin 64) :
    k2_pay4 x0 col w (ix3 u p d) = ∑ k : Fin 64, (x0 (ix2 p k) * col (ix2 p (0 : Fin 1))) * w (ix3 (0 : Fin 1) k d) := by
  unfold k2_pay4 k2_pay2
  refine (slabOf64_apply _ u p d).trans ?_
  refine (matmul64_apply _ _ p d).trans ?_
  refine Finset.sum_congr rfl fun k _ => ?_
  show (shapeCast S5000x64 x0 shapeCasts_S5000x64_S5000x64 (ix2 p k) * broadcastTo S5000x64 (shapeCast S5000x1 col shapeCasts_S5000x1_S5000x1) broadcasts_S5000x1_S5000x64 (ix2 p k))
      * shapeCast S64x64 w shapeCasts_S1x64x64_S64x64 (ix2 k d) = _
  rw [shapeCast_self, shapeCast_self, bcastCol64_apply, matOf64_apply]

/-- Relation 2's slab: its scaled tile is formed first, the product after. -/
theorem slab2_rel2 (x0 : Vec Ideal S5000x64 .f32) (col : Vec Ideal S5000x1 .f32) (w : Vec Ideal S1x64x64 .f32)
    (u : Fin 1) (p : Fin 5000) (d : Fin 64) :
    k2_pay1 (k2_pay5 x0 col) w (ix3 u p d) = ∑ k : Fin 64, (x0 (ix2 p k) * col (ix2 p (0 : Fin 1))) * w (ix3 (0 : Fin 1) k d) := by
  unfold k2_pay1 k2_pay5 k2_pay2
  refine (slabOf64_apply _ u p d).trans ?_
  refine (matmul64_apply _ _ p d).trans ?_
  refine Finset.sum_congr rfl fun k _ => ?_
  show (shapeCast S5000x64 x0 shapeCasts_S5000x64_S5000x64 (ix2 p k) * broadcastTo S5000x64 (shapeCast S5000x1 col shapeCasts_S5000x1_S5000x1) broadcasts_S5000x1_S5000x64 (ix2 p k))
      * shapeCast S64x64 w shapeCasts_S1x64x64_S64x64 (ix2 k d) = _
  rw [shapeCast_self, shapeCast_self, bcastCol64_apply, matOf64_apply]

/-- What the body of region 2 leaves in the output window's buffer is `preBlk64` of the input blocks: each of its
    three stores is the slab of it that the store's rectangle names, and the three slabs cover the block. -/
theorem out2_3_eq (x0 : Vec Ideal S5000x64 .f32) (x1 : Vec Ideal S5000x3 .f32) (x2 : Vec Ideal S3x64x64 .f32) :
    out2_3 x0 x1 x2 = preBlk64 x0 x1 x2 := by
  funext y
  unfold out2_3
  refine View.canon_apply_of_pieces (preBlk64 x0 x1 x2) _ (fun q hq x => ?_) y (cover2_3 _ _ _ y)
  simp only [List.mem_cons, List.mem_nil_iff, or_false] at hq
  rcases hq with rfl | rfl | rfl
  · obtain ⟨u, p, d, rfl⟩ : ∃ (u : Fin 1) (p : Fin 5000) (d : Fin 64), x = ix3 u p d := ⟨x 0, x 1, x 2, eq_ix3 x⟩
    refine (slab2_rel2 _ _ _ u p d).trans ?_
    show _ = preBlk64 x0 x1 x2 ((Rect.unit (s := S3x5000x64) ![(2 : Fin 3).val, 0, 0] S1x5000x64.size inb_S3x5000x64_S1x5000x64_2_0_0).emb (ix3 u p d))
    rw [emb_out64 2]
    refine Finset.sum_congr rfl fun k _ => ?_
    rw [ld_h64]
    exact congrArg₂ (fun a b => (x0 (ix2 p k) * a) * b) (ld_deg x1 2 _ p) (ld_w64 x2 2 _ k d)
  · obtain ⟨u, p, d, rfl⟩ : ∃ (u : Fin 1) (p : Fin 5000) (d : Fin 64), x = ix3 u p d := ⟨x 0, x 1, x 2, eq_ix3 x⟩
    refine (slab2_rel1 _ _ _ u p d).trans ?_
    show _ = preBlk64 x0 x1 x2 ((Rect.unit (s := S3x5000x64) ![(1 : Fin 3).val, 0, 0] S1x5000x64.size inb_S3x5000x64_S1x5000x64_1_0_0).emb (ix3 u p d))
    rw [emb_out64 1]
    refine Finset.sum_congr rfl fun k _ => ?_
    rw [ld_h64]
    exact congrArg₂ (fun a b => (x0 (ix2 p k) * a) * b) (ld_deg x1 1 _ p) (ld_w64 x2 1 _ k d)
  · obtain ⟨u, p, d, rfl⟩ : ∃ (u : Fin 1) (p : Fin 5000) (d : Fin 64), x = ix3 u p d := ⟨x 0, x 1, x 2, eq_ix3 x⟩
    refine (slab2_rel0 _ _ _ u p d).trans ?_
    show _ = preBlk64 x0 x1 x2 ((Rect.unit (s := S3x5000x64) ![(0 : Fin 3).val, 0, 0] S1x5000x64.size inb_S3x5000x64_S1x5000x64_0_0_0).emb (ix3 u p d))
    rw [emb_out64 0]
    refine Finset.sum_congr rfl fun k _ => ?_
    rw [ld_h64]
    exact congrArg₂ (fun a b => (x0 (ix2 p k) * a) * b) (ld_deg x1 0 _ p) (ld_w64 x2 0 _ k d)

/-! ## Region 2: from the blocks to the array -/

/-- The printed index maps over the grid: point t takes row tile t of `h`, of the degree factors and of the result,
    and the whole weight array. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 3) = 0 ∧ win2_2.index t (1 : Fin 3) = 0 ∧ win2_2.index t (2 : Fin 3) = 0
    ∧ win2_3.index t (0 : Fin 3) = 0 ∧ win2_3.index t (1 : Fin 3) = t.val ∧ win2_3.index t (2 : Fin 3) = 0 :=
  (by decide +kernel : ∀ t : Fin grid2.N, _)

/-- WHAT POINT t WRITES BACK is row tile t of the whole array's function of the three arrays the region reads. -/
theorem flushed2_eq (c : Dev nD) (t : Fin cfg2.N) :
    (dat2 (F := Ideal) V c).flushed 3 t
      = ((cfg2.win 3).blk t).view.read (Elt Ideal) (Spec.preArr64 (V c main_v86) (V c main_v46) (V c main_arg5)) := by
  show (cfg2.win 3).cut (grid2.coords t) ((dat2 V c).after 3 t) = _
  rw [after2_3]
  obtain ⟨e00, e01, e10, e11, e20, e21, e22, e30, e31, e32⟩ := idx_facts2 t
  have ht : t.val < 20 := t.isLt
  have key : ∀ y : S3x5000x64.Idx, out2_3 (iblk2 V c 0 t) (iblk2 V c 1 t) (iblk2 V c 2 t) y
      = Spec.preArr64 (V c main_v86) (V c main_v46) (V c main_arg5) (((cfg2.win 3).blk t).view.emb y) := by
    intro y
    obtain ⟨r, p, d, rfl⟩ : ∃ (r : Fin 3) (p : Fin 5000) (d : Fin 64), y = ix3 r p d := ⟨y 0, y 1, y 2, eq_ix3 y⟩
    refine (congrFun (out2_3_eq (iblk2 V c 0 t) (iblk2 V c 1 t) (iblk2 V c 2 t)) (ix3 r p d)).trans ?_
    have hn : t.val * 5000 + p.val < 100000 := by have := p.isLt; omega
    have hemb : ((cfg2.win 3).blk t).view.emb (ix3 r p d) = (ix3 r (⟨t.val * 5000 + p.val, hn⟩ : Fin 100000) d : S3x100000x64.Idx) := by
      funext a; apply Fin.ext
      match a with
      | ⟨0, _⟩ => show win2_3.index t (0 : Fin 3) * 3 + 1 * r.val = r.val; omega
      | ⟨1, _⟩ => show win2_3.index t (1 : Fin 3) * 5000 + 1 * p.val = t.val * 5000 + p.val; omega
      | ⟨2, _⟩ => show win2_3.index t (2 : Fin 3) * 64 + 1 * d.val = d.val; omega
    rw [hemb]
    refine preBlk64_eq_preArr64 (V c main_v86) (V c main_v46) (V c main_arg5) (iblk2 V c 0 t) (iblk2 V c 1 t) (iblk2 V c 2 t) r p d _ (fun k => ?_) ?_ (fun k => ?_)
    · show V c main_v86 (((cfg2.win 0).blk t).view.emb (ix2 p k)) = V c main_v86 _
      refine congrArg (V c main_v86) (funext fun a => Fin.ext ?_)
      match a with
      | ⟨0, _⟩ => show win2_0.index t (0 : Fin 2) * 5000 + 1 * p.val = t.val * 5000 + p.val; omega
      | ⟨1, _⟩ => show win2_0.index t (1 : Fin 2) * 64 + 1 * k.val = k.val; omega
    · show V c main_v46 (((cfg2.win 1).blk t).view.emb (ix2 p r)) = V c main_v46 _
      refine congrArg (V c main_v46) (funext fun a => Fin.ext ?_)
      match a with
      | ⟨0, _⟩ => show win2_1.index t (0 : Fin 2) * 5000 + 1 * p.val = t.val * 5000 + p.val; omega
      | ⟨1, _⟩ => show win2_1.index t (1 : Fin 2) * 3 + 1 * r.val = r.val; omega
    · show V c main_arg5 (((cfg2.win 2).blk t).view.emb (ix3 r k d)) = V c main_arg5 _
      refine congrArg (V c main_arg5) (funext fun a => Fin.ext ?_)
      match a with
      | ⟨0, _⟩ => show win2_2.index t (0 : Fin 3) * 3 + 1 * r.val = r.val; omega
      | ⟨1, _⟩ => show win2_2.index t (1 : Fin 3) * 64 + 1 * k.val = k.val; omega
      | ⟨2, _⟩ => show win2_2.index t (2 : Fin 3) * 64 + 1 * d.val = d.val; omega
  funext j
  exact key j

/-- An index of the result array is in point t's block iff each coordinate is in the block's range on its axis. -/
theorem mem_blk2_3 (t : Fin cfg2.N) (i : S3x100000x64.Idx) :
    i ∈ ((cfg2.win 3).blk t).view.set ↔ ∀ a : Fin 3, win2_3.index t a * S3x5000x64.size a ≤ (i a).val
      ∧ (i a).val < win2_3.index t a * S3x5000x64.size a + S3x5000x64.size a := by
  show i ∈ ((View.whole main_v87).slice (win2_3.rect t)).set ↔ _
  rw [View.set_slice_whole, Rect.mem_set_unit]
  exact Iff.rfl

/-- THE ARRAY region 2 leaves: every row n is in the block of point n / 5000, so the array is the whole function. -/
theorem pre_value_2 (c : Dev nD) :
    (dat2 (F := Ideal) V c).arrAt 3 cfg2.N = Spec.preArr64 (V c main_v86) (V c main_v46) (V c main_arg5) :=
  (dat2 (F := Ideal) V c).arrAt_eq_of_cover 3 (Spec.preArr64 (V c main_v86) (V c main_v46) (V c main_arg5))
    (fun t _ => flushed2_eq V c t) fun (i : S3x100000x64.Idx) => by
      have hi0 : (i 0).val < 3 := (i 0).isLt
      have hi1 : (i 1).val < 100000 := (i 1).isLt
      have hi2 : (i 2).val < 64 := (i 2).isLt
      have hN : cfg2.N = 20 := N_2
      have hq : (i 1).val / 5000 < cfg2.N := by rw [hN]; omega
      obtain ⟨-, -, -, -, -, -, -, e30, e31, e32⟩ := idx_facts2 ⟨(i 1).val / 5000, hq⟩
      refine ⟨⟨(i 1).val / 5000, hq⟩, flush2_3 _, ?_⟩
      rw [mem_blk2_3]
      intro a
      match a with
      | ⟨0, _⟩ =>
        show win2_3.index ⟨(i 1).val / 5000, hq⟩ (0 : Fin 3) * 3 ≤ (i 0).val ∧ (i 0).val < win2_3.index ⟨(i 1).val / 5000, hq⟩ (0 : Fin 3) * 3 + 3
        rw [e30]; omega
      | ⟨1, _⟩ =>
        show win2_3.index ⟨(i 1).val / 5000, hq⟩ (1 : Fin 3) * 5000 ≤ (i 1).val ∧ (i 1).val < win2_3.index ⟨(i 1).val / 5000, hq⟩ (1 : Fin 3) * 5000 + 5000
        rw [e31]; show (i 1).val / 5000 * 5000 ≤ (i 1).val ∧ (i 1).val < (i 1).val / 5000 * 5000 + 5000; omega
      | ⟨2, _⟩ =>
        show win2_3.index ⟨(i 1).val / 5000, hq⟩ (2 : Fin 3) * 64 ≤ (i 2).val ∧ (i 2).val < win2_3.index ⟨(i 1).val / 5000, hq⟩ (2 : Fin 3) * 64 + 64
        rw [e32]; omega

end Cert.KernelIdeal.Hand

end
-- ==== Proof.KI.ValPre4.lean ====
/-
  The value of pretransform region 4 on the extended reals, from the blocks to the whole array.

  Per row tile of 5000 rows the body computes the block  out[r, p, :] = (h[p, :] · io[p, r]) @ W[r]  for the three
  relations r: it scales the tile of `h` by column r of the tile of degree factors, multiplies by the r-th weight
  matrix into a zero accumulator, and stores the product as slab r of the output block. On the extended reals a change
  of float format is the identity and the product is a plain finite sum, so entry (r, p, d) of the block is
  Σ_k (h[p,k] · io[p,r]) · W[r,k,d]  (`preBlk64`). Point t of the grid takes row tile t of `h`, of the degree factors
  and of the result, and the whole weight array; so the block it writes back is the tile of `Spec.preArr64` of the
  three arrays over rows 5000·t … 5000·t + 4999, and since row n lies in the tile of point n / 5000 the twenty tiles
  cover the array: the region leaves exactly that function of the three arrays it reads.
-/
import proofs.«408287_j3659312136510_1_alg».proof.Proof.Spec
import proofs.«408287_j3659312136510_1_alg».proof.Proof.KI.Reg4
import proofs.«408287_j3659312136510_1_alg».proof.Proof.KI.ValPreCols
import proofs.«408287_j3659312136510_1_alg».proof.Proof.KI.ValPreW64

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window BodyObligation cellOf)

-- the TensorCore's buffer contents when a region is entered, at the extended reals
variable (V : (c : Dev nD) → (b : Ref sig .tc) → Buf (Elt Ideal) ((c : Thread nD τ).loc b))

/-! ## Region 4: the slabs of the output block, at an index -/

/-- The slab the body stores for relation 0, from the tile of `h`, the relation's column of degree factors and the
    relation's weight matrix: entry (u, p, d) is the sum over k of (h[p,k] · col[p]) · w[k,d]. -/
theorem slab4_rel0 (x0 : Vec Ideal S5000x64 .f32) (col : Vec Ideal S5000x1 .f32) (w : Vec Ideal S1x64x64 .f32)
    (u : Fin 1) (p : Fin 5000) (d : Fin 64) :
    k4_pay3 x0 col w (ix3 u p d) = ∑ k : Fin 64, (x0 (ix2 p k) * col (ix2 p (0 : Fin 1))) * w (ix3 (0 : Fin 1) k d) := by
  unfold k4_pay3 k4_pay2
  refine (slabOf64_apply _ u p d).trans ?_
  refine (matmul64_apply _ _ p d).trans ?_
  refine Finset.sum_congr rfl fun k _ => ?_
  show (shapeCast S5000x64 x0 shapeCasts_S5000x64_S5000x64 (ix2 p k) * broadcastTo S5000x64 (shapeCast S5000x1 col shapeCasts_S5000x1_S5000x1) broadcasts_S5000x1_S5000x64 (ix2 p k))
      * shapeCast S64x64 w shapeCasts_S1x64x64_S64x64 (ix2 k d) = _
  rw [shapeCast_self, shapeCast_self, bcastCol64_apply, matOf64_apply]

/-- Relation 1's slab, likewise. -/
theorem slab4_rel1 (x0 : Vec Ideal S5000x64 .f32) (col : Vec Ideal S5000x1 .f32) (w : Vec Ideal S1x64x64 .f32)
    (u : Fin 1) (p : Fin 5000) (d : Fin 64) :
    k4_pay4 x0 col w (ix3 u p d) = ∑ k : Fin 64, (x0 (ix2 p k) * col (ix2 p (0 : Fin 1))) * w (ix3 (0 : Fin 1) k d) := by
  unfold k4_pay4 k4_pay2
  refine (slabOf64_apply _ u p d).trans ?_
  refine (matmul64_apply _ _ p d).trans ?_
  refine Finset.sum_congr rfl fun k _ => ?_
  show (shapeCast S5000x64 x0 shapeCasts_S5000x64_S5000x64 (ix2 p k) * broadcastTo S5000x64 (shapeCast S5000x1 col shapeCasts_S5000x1_S5000x1) broadcasts_S5000x1_S5000x64 (ix2 p k))
      * shapeCast S64x64 w shapeCasts_S1x64x64_S64x64 (ix2 k d) = _
  rw [shapeCast_self, shapeCast_self, bcastCol64_apply, matOf64_apply]

/-- Relation 2's slab: its scaled tile is formed first, the product after. -/
theorem slab4_rel2 (x0 : Vec Ideal S5000x64 .f32) (col : Vec Ideal S5000x1 .f32) (w : Vec Ideal S1x64x64 .f32)
    (u : Fin 1) (p : Fin 5000) (d : Fin 64) :
    k4_pay1 (k4_pay5 x0 col) w (ix3 u p d) = ∑ k : Fin 64, (x0 (ix2 p k) * col (ix2 p (0 : Fin 1))) * w (ix3 (0 : Fin 1) k d) := by
  unfold k4_pay1 k4_pay5 k4_pay2
  refine (slabOf64_apply _ u p d).trans ?_
  refine (matmul64_apply _ _ p d).trans ?_
  refine Finset.sum_congr rfl fun k _ => ?_
  show (shapeCast S5000x64 x0 shapeCasts_S5000x64_S5000x64 (ix2 p k) * broadcastTo S5000x64 (shapeCast S5000x1 col shapeCasts_S5000x1_S5000x1) broadcasts_S5000x1_S5000x64 (ix2 p k))
      * shapeCast S64x64 w shapeCasts_S1x64x64_S64x64 (ix2 k d) = _
  rw [shapeCast_self, shapeCast_self, bcastCol64_apply, matOf64_apply]

/-- What the body of region 4 leaves in the output window's buffer is `preBlk64` of the input blocks: each of its
    three stores is the slab of it that the store's rectangle names, and the three slabs cover the block. -/
theorem out4_3_eq (x0 : Vec Ideal S5000x64 .f32) (x1 : Vec Ideal S5000x3 .f32) (x2 : Vec Ideal S3x64x64 .f32) :
    out4_3 x0 x1 x2 = preBlk64 x0 x1 x2 := by
  funext y
  unfold out4_3
  refine View.canon_apply_of_pieces (preBlk64 x0 x1 x2) _ (fun q hq x => ?_) y (cover4_3 _ _ _ y)
  simp only [List.mem_cons, List.mem_nil_iff, or_false] at hq
  rcases hq with rfl | rfl | rfl
  · obtain ⟨u, p, d, rfl⟩ : ∃ (u : Fin 1) (p : Fin 5000) (d : Fin 64), x = ix3 u p d := ⟨x 0, x 1, x 2, eq_ix3 x⟩
    refine (slab4_rel2 _ _ _ u p d).trans ?_
    show _ = preBlk64 x0 x1 x2 ((Rect.unit (s := S3x5000x64) ![(2 : Fin 3).val, 0, 0] S1x5000x64.size inb_S3x5000x64_S1x5000x64_2_0_0).emb (ix3 u p d))
    rw [emb_out64 2]
    refine Finset.sum_congr rfl fun k _ => ?_
    rw [ld_h64]
    exact congrArg₂ (fun a b => (x0 (ix2 p k) * a) * b) (ld_deg x1 2 _ p) (ld_w64 x2 2 _ k d)
  · obtain ⟨u, p, d, rfl⟩ : ∃ (u : Fin 1) (p : Fin 5000) (d : Fin 64), x = ix3 u p d := ⟨x 0, x 1, x 2, eq_ix3 x⟩
    refine (slab4_rel1 _ _ _ u p d).trans ?_
    show _ = preBlk64 x0 x1 x2 ((Rect.unit (s := S3x5000x64) ![(1 : Fin 3).val, 0, 0] S1x5000x64.size inb_S3x5000x64_S1x5000x64_1_0_0).emb (ix3 u p d))
    rw [emb_out64 1]
    refine Finset.sum_congr rfl fun k _ => ?_
    rw [ld_h64]
    exact congrArg₂ (fun a b => (x0 (ix2 p k) * a) * b) (ld_deg x1 1 _ p) (ld_w64 x2 1 _ k d)
  · obtain ⟨u, p, d, rfl⟩ : ∃ (u : Fin 1) (p : Fin 5000) (d : Fin 64), x = ix3 u p d := ⟨x 0, x 1, x 2, eq_ix3 x⟩
    refine (slab4_rel0 _ _ _ u p d).trans ?_
    show _ = preBlk64 x0 x1 x2 ((Rect.unit (s := S3x5000x64) ![(0 : Fin 3).val, 0, 0] S1x5000x64.size inb_S3x5000x64_S1x5000x64_0_0_0).emb (ix3 u p d))
    rw [emb_out64 0]
    refine Finset.sum_congr rfl fun k _ => ?_
    rw [ld_h64]
    exact congrArg₂ (fun a b => (x0 (ix2 p k) * a) * b) (ld_deg x1 0 _ p) (ld_w64 x2 0 _ k d)

/-! ## Region 4: from the blocks to the array -/

/-- The printed index maps over the grid: point t takes row tile t of `h`, of the degree factors and of the result,
    and the whole weight array. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 3) = 0 ∧ win4_2.index t (1 : Fin 3) = 0 ∧ win4_2.index t (2 : Fin 3) = 0
    ∧ win4_3.index t (0 : Fin 3) = 0 ∧ win4_3.index t (1 : Fin 3) = t.val ∧ win4_3.index t (2 : Fin 3) = 0 :=
  (by decide +kernel : ∀ t : Fin grid4.N, _)

/-- WHAT POINT t WRITES BACK is row tile t of the whole array's function of the three arrays the region reads. -/
theorem flushed4_eq (c : Dev nD) (t : Fin cfg4.N) :
    (dat4 (F := Ideal) V c).flushed 3 t
      = ((cfg4.win 3).blk t).view.read (Elt Ideal) (Spec.preArr64 (V c main_v122) (V c main_v46) (V c main_arg7)) := by
  show (cfg4.win 3).cut (grid4.coords t) ((dat4 V c).after 3 t) = _
  rw [after4_3]
  obtain ⟨e00, e01, e10, e11, e20, e21, e22, e30, e31, e32⟩ := idx_facts4 t
  have ht : t.val < 20 := t.isLt
  have key : ∀ y : S3x5000x64.Idx, out4_3 (iblk4 V c 0 t) (iblk4 V c 1 t) (iblk4 V c 2 t) y
      = Spec.preArr64 (V c main_v122) (V c main_v46) (V c main_arg7) (((cfg4.win 3).blk t).view.emb y) := by
    intro y
    obtain ⟨r, p, d, rfl⟩ : ∃ (r : Fin 3) (p : Fin 5000) (d : Fin 64), y = ix3 r p d := ⟨y 0, y 1, y 2, eq_ix3 y⟩
    refine (congrFun (out4_3_eq (iblk4 V c 0 t) (iblk4 V c 1 t) (iblk4 V c 2 t)) (ix3 r p d)).trans ?_
    have hn : t.val * 5000 + p.val < 100000 := by have := p.isLt; omega
    have hemb : ((cfg4.win 3).blk t).view.emb (ix3 r p d) = (ix3 r (⟨t.val * 5000 + p.val, hn⟩ : Fin 100000) d : S3x100000x64.Idx) := by
      funext a; apply Fin.ext
      match a with
      | ⟨0, _⟩ => show win4_3.index t (0 : Fin 3) * 3 + 1 * r.val = r.val; omega
      | ⟨1, _⟩ => show win4_3.index t (1 : Fin 3) * 5000 + 1 * p.val = t.val * 5000 + p.val; omega
      | ⟨2, _⟩ => show win4_3.index t (2 : Fin 3) * 64 + 1 * d.val = d.val; omega
    rw [hemb]
    refine preBlk64_eq_preArr64 (V c main_v122) (V c main_v46) (V c main_arg7) (iblk4 V c 0 t) (iblk4 V c 1 t) (iblk4 V c 2 t) r p d _ (fun k => ?_) ?_ (fun k => ?_)
    · show V c main_v122 (((cfg4.win 0).blk t).view.emb (ix2 p k)) = V c main_v122 _
      refine congrArg (V c main_v122) (funext fun a => Fin.ext ?_)
      match a with
      | ⟨0, _⟩ => show win4_0.index t (0 : Fin 2) * 5000 + 1 * p.val = t.val * 5000 + p.val; omega
      | ⟨1, _⟩ => show win4_0.index t (1 : Fin 2) * 64 + 1 * k.val = k.val; omega
    · show V c main_v46 (((cfg4.win 1).blk t).view.emb (ix2 p r)) = V c main_v46 _
      refine congrArg (V c main_v46) (funext fun a => Fin.ext ?_)
      match a with
      | ⟨0, _⟩ => show win4_1.index t (0 : Fin 2) * 5000 + 1 * p.val = t.val * 5000 + p.val; omega
      | ⟨1, _⟩ => show win4_1.index t (1 : Fin 2) * 3 + 1 * r.val = r.val; omega
    · show V c main_arg7 (((cfg4.win 2).blk t).view.emb (ix3 r k d)) = V c main_arg7 _
      refine congrArg (V c main_arg7) (funext fun a => Fin.ext ?_)
      match a with
      | ⟨0, _⟩ => show win4_2.index t (0 : Fin 3) * 3 + 1 * r.val = r.val; omega
      | ⟨1, _⟩ => show win4_2.index t (1 : Fin 3) * 64 + 1 * k.val = k.val; omega
      | ⟨2, _⟩ => show win4_2.index t (2 : Fin 3) * 64 + 1 * d.val = d.val; omega
  funext j
  exact key j

/-- An index of the result array is in point t's block iff each coordinate is in the block's range on its axis. -/
theorem mem_blk4_3 (t : Fin cfg4.N) (i : S3x100000x64.Idx) :
    i ∈ ((cfg4.win 3).blk t).view.set ↔ ∀ a : Fin 3, win4_3.index t a * S3x5000x64.size a ≤ (i a).val
      ∧ (i a).val < win4_3.index t a * S3x5000x64.size a + S3x5000x64.size a := by
  show i ∈ ((View.whole main_v123).slice (win4_3.rect t)).set ↔ _
  rw [View.set_slice_whole, Rect.mem_set_unit]
  exact Iff.rfl

/-- THE ARRAY region 4 leaves: every row n is in the block of point n / 5000, so the array is the whole function. -/
theorem pre_value_4 (c : Dev nD) :
    (dat4 (F := Ideal) V c).arrAt 3 cfg4.N = Spec.preArr64 (V c main_v122) (V c main_v46) (V c main_arg7) :=
  (dat4 (F := Ideal) V c).arrAt_eq_of_cover 3 (Spec.preArr64 (V c main_v122) (V c main_v46) (V c main_arg7))
    (fun t _ => flushed4_eq V c t) fun (i : S3x100000x64.Idx) => by
      have hi0 : (i 0).val < 3 := (i 0).isLt
      have hi1 : (i 1).val < 100000 := (i 1).isLt
      have hi2 : (i 2).val < 64 := (i 2).isLt
      have hN : cfg4.N = 20 := N_4
      have hq : (i 1).val / 5000 < cfg4.N := by rw [hN]; omega
      obtain ⟨-, -, -, -, -, -, -, e30, e31, e32⟩ := idx_facts4 ⟨(i 1).val / 5000, hq⟩
      refine ⟨⟨(i 1).val / 5000, hq⟩, flush4_3 _, ?_⟩
      rw [mem_blk4_3]
      intro a
      match a with
      | ⟨0, _⟩ =>
        show win4_3.index ⟨(i 1).val / 5000, hq⟩ (0 : Fin 3) * 3 ≤ (i 0).val ∧ (i 0).val < win4_3.index ⟨(i 1).val / 5000, hq⟩ (0 : Fin 3) * 3 + 3
        rw [e30]; omega
      | ⟨1, _⟩ =>
        show win4_3.index ⟨(i 1).val / 5000, hq⟩ (1 : Fin 3) * 5000 ≤ (i 1).val ∧ (i 1).val < win4_3.index ⟨(i 1).val / 5000, hq⟩ (1 : Fin 3) * 5000 + 5000
        rw [e31]; show (i 1).val / 5000 * 5000 ≤ (i 1).val ∧ (i 1).val < (i 1).val / 5000 * 5000 + 5000; omega
      | ⟨2, _⟩ =>
        show win4_3.index ⟨(i 1).val / 5000, hq⟩ (2 : Fin 3) * 64 ≤ (i 2).val ∧ (i 2).val < win4_3.index ⟨(i 1).val / 5000, hq⟩ (2 : Fin 3) * 64 + 64
        rw [e32]; omega

end Cert.KernelIdeal.Hand

end
-- ==== Proof.KI.ValPreW2.lean ====
/-
  Width 2: what one relation's part of a pretransform body computes, on the extended reals, index by index.

  The product of the scaled [5000,64] tile by a [64,2] weight matrix into a zero accumulator is, at (p, d), the plain
  sum over k of a[p,k] · b[k,d]; the product is stored as a [1,5000,2] slab, and the weight matrix is read off a
  [1,64,2] slab of the weight array. `preBlk2` is the whole output block as one function of the input blocks; the
  load of matrix r of the weights and the place of slab r in the output block are read at an index; and a block whose
  input blocks are row tiles of whole arrays is the same row tile of `Spec.preArr2` of those arrays.
-/
import proofs.«408287_j3659312136510_1_alg».proof.Proof.Spec
import proofs.«408287_j3659312136510_1_alg».proof.Proof.Gen.KernelIdeal
import Idealize.ShloMosaic.Lib.Pipeline.FrameBody
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window BodyObligation cellOf)

/-! ## Width 2: the product of a row tile by one weight matrix, at an index -/

theorem lhs2_0 (j : S5000x2.Idx) (k : dot_S5000x64_S64x2_S5000x2_1_0_0_1_n_n.contr.Idx) :
    (dot_S5000x64_S64x2_S5000x2_1_0_0_1_n_n.lhsIdx j k 0).val = (j 0).val := by
  unfold DotDims.lhsIdx
  rw [dif_neg (show ¬(0 : Fin S5000x64.rank) ∈ dot_S5000x64_S64x2_S5000x2_1_0_0_1_n_n.lhsBatch by decide),
    dif_pos (show (0 : Fin S5000x64.rank) ∈ dot_S5000x64_S64x2_S5000x2_1_0_0_1_n_n.lhsNonContracting by decide)]
  rfl

theorem lhs2_1 (j : S5000x2.Idx) (k : dot_S5000x64_S64x2_S5000x2_1_0_0_1_n_n.contr.Idx) :
    (dot_S5000x64_S64x2_S5000x2_1_0_0_1_n_n.lhsIdx j k 1).val = (k ⟨0, by decide⟩).val :=
  dot_S5000x64_S64x2_S5000x2_1_0_0_1_n_n.lhsIdx_val_of_single (cl := 1) rfl j k

theorem rhs2_0 (j : S5000x2.Idx) (k : dot_S5000x64_S64x2_S5000x2_1_0_0_1_n_n.contr.Idx) :
    (dot_S5000x64_S64x2_S5000x2_1_0_0_1_n_n.rhsIdx j k 0).val = (k ⟨0, by decide⟩).val :=
  dot_S5000x64_S64x2_S5000x2_1_0_0_1_n_n.rhsIdx_val_of_single (cr := 0) rfl j k

theorem rhs2_1 (j : S5000x2.Idx) (k : dot_S5000x64_S64x2_S5000x2_1_0_0_1_n_n.contr.Idx) :
    (dot_S5000x64_S64x2_S5000x2_1_0_0_1_n_n.rhsIdx j k 1).val = (j 1).val := by
  unfold DotDims.rhsIdx
  rw [dif_neg (show ¬(1 : Fin S64x2.rank) ∈ dot_S5000x64_S64x2_S5000x2_1_0_0_1_n_n.rhsBatch by decide),
    dif_pos (show (1 : Fin S64x2.rank) ∈ dot_S5000x64_S64x2_S5000x2_1_0_0_1_n_n.rhsNonContracting by decide)]
  rfl

/-- A [5000,64] tile times a [64,2] matrix into a zero accumulator: entry (p, d) is the sum over k of a[p,k]·b[k,d]. -/
theorem matmul2_apply (a : FVec Ideal S5000x64 .bf16) (b : FVec Ideal S64x2 .bf16) (p : Fin 5000) (d : Fin 2) :
    matmul dot_S5000x64_S64x2_S5000x2_1_0_0_1_n_n none a b (constant (F := Ideal) S5000x2 .f32 0x00000000#32) (ix2 p d)
      = ∑ k : Fin 64, a (ix2 p k) * b (ix2 k d) := by
  show FloatOps.matmul _ none a b _ (ix2 p d) = _
  rw [Ideal.matmul_constant_zero_apply,
    ← Equiv.sum_comp (contrEquiv1 dot_S5000x64_S64x2_S5000x2_1_0_0_1_n_n 64 rfl rfl).symm]
  refine Finset.sum_congr rfl fun k _ => ?_
  have hk := contrEquiv1_symm_val dot_S5000x64_S64x2_S5000x2_1_0_0_1_n_n 64 rfl rfl k
  have hl : dot_S5000x64_S64x2_S5000x2_1_0_0_1_n_n.lhsIdx (ix2 p d) ((contrEquiv1 dot_S5000x64_S64x2_S5000x2_1_0_0_1_n_n 64 rfl rfl).symm k) = ix2 p k := by
    funext ax; apply Fin.ext
    match ax with
    | ⟨0, _⟩ => exact lhs2_0 _ _
    | ⟨1, _⟩ => exact (lhs2_1 _ _).trans hk
  have hr : dot_S5000x64_S64x2_S5000x2_1_0_0_1_n_n.rhsIdx (ix2 p d) ((contrEquiv1 dot_S5000x64_S64x2_S5000x2_1_0_0_1_n_n 64 rfl rfl).symm k) = ix2 k d := by
    funext ax; apply Fin.ext
    match ax with
    | ⟨0, _⟩ => exact (rhs2_0 _ _).trans hk
    | ⟨1, _⟩ => exact rhs2_1 _ _
  rw [hl, hr]

/-- A [5000,2] product stored as a [1,5000,2] slab reads (u, p, d) at (p, d). -/
theorem slabOf2_apply (v : FVec Ideal S5000x2 .f32) (u : Fin 1) (p : Fin 5000) (d : Fin 2) :
    shapeCast S1x5000x2 v shapeCasts_S5000x2_S1x5000x2 (ix3 u p d) = v (ix2 p d) :=
  shapeCast_apply v _ (ix3 u p d) (ix2 p d) (by
    rw [Shape.rowMajor_val_two, Shape.rowMajor_val_three]
    have hu : u.val = 0 := by omega
    show p.val * 2 + d.val = (u.val * 5000 + p.val) * 2 + d.val
    rw [hu]; omega)

/-- One relation's [1,64,2] weight slab viewed [64,2] reads (k, d) at (0, k, d). -/
theorem matOf2_apply (w : FVec Ideal S1x64x2 .f32) (k : Fin 64) (d : Fin 2) :
    shapeCast S64x2 w shapeCasts_S1x64x2_S64x2 (ix2 k d) = w (ix3 (0 : Fin 1) k d) :=
  shapeCast_apply w _ (ix2 k d) (ix3 (0 : Fin 1) k d) (by
    rw [Shape.rowMajor_val_two, Shape.rowMajor_val_three]
    show ((0 : ℕ) * 64 + k.val) * 2 + d.val = k.val * 2 + d.val
    omega)

/-- One row tile of the result, width 2: entry (r, p, d) is the sum over k of (h[p,k] · io[p,r]) · W[r,k,d], over the
    tile's blocks of `h` and of the degree factors and the whole weight array. -/
def preBlk2 (x0 : Vec Ideal S5000x64 .f32) (x1 : Vec Ideal S5000x3 .f32) (x2 : Vec Ideal S3x64x2 .f32) :
    Vec Ideal S3x5000x2 .f32 :=
  fun y => ∑ k : Fin 64, (x0 (ix2 (y 1) k) * x1 (ix2 (y 1) (y 0))) * x2 (ix3 (y 0) k (y 2))

/-- Matrix r of the weights, and slab r of the output block, width 2. -/
theorem ld_w2 (x2 : Vec Ideal S3x64x2 .f32) (r : Fin 3) (inb) (k : Fin 64) (d : Fin 2) :
    View.ld x2 (Rect.unit (s := S3x64x2) ![r.val, 0, 0] S1x64x2.size inb) (ix3 (0 : Fin 1) k d) = x2 (ix3 r k d) :=
  congrArg x2 (funext fun a => Fin.ext (by
    match a with
    | ⟨0, _⟩ => show r.val + 1 * 0 = r.val; omega
    | ⟨1, _⟩ => show 0 + 1 * k.val = k.val; omega
    | ⟨2, _⟩ => show 0 + 1 * d.val = d.val; omega))

theorem emb_out2 (r : Fin 3) (inb) (u : Fin 1) (p : Fin 5000) (d : Fin 2) :
    (Rect.unit (s := S3x5000x2) ![r.val, 0, 0] S1x5000x2.size inb).emb (ix3 u p d) = ix3 r p d :=
  funext fun a => Fin.ext (by
    have hu : u.val = 0 := by omega
    match a with
    | ⟨0, _⟩ => show r.val + 1 * u.val = r.val; omega
    | ⟨1, _⟩ => show 0 + 1 * p.val = p.val; omega
    | ⟨2, _⟩ => show 0 + 1 * d.val = d.val; omega)

/-- A row tile of the result is the tile of the whole array's function, when the tile's input blocks are the tiles of
    the whole inputs (row p of the tile is row n of the arrays). -/
theorem preBlk2_eq_preArr2 (h : Vec Ideal S100000x64 .f32) (io : Vec Ideal S100000x3 .f32) (W : Vec Ideal S3x64x2 .f32)
    (x0 : Vec Ideal S5000x64 .f32) (x1 : Vec Ideal S5000x3 .f32) (x2 : Vec Ideal S3x64x2 .f32)
    (r : Fin 3) (p : Fin 5000) (d : Fin 2) (n : Fin 100000)
    (h0 : ∀ k : Fin 64, x0 (ix2 p k) = h (ix2 n k)) (h1 : x1 (ix2 p r) = io (ix2 n r))
    (h2 : ∀ k : Fin 64, x2 (ix3 r k d) = W (ix3 r k d)) :
    preBlk2 x0 x1 x2 (ix3 r p d) = Spec.preArr2 h io W (ix3 r n d) := by
  unfold preBlk2 Spec.preArr2
  refine Finset.sum_congr rfl fun k _ => ?_
  show (x0 (ix2 p k) * x1 (ix2 p r)) * x2 (ix3 r k d) = (h (ix2 n k) * io (ix2 n r)) * W (ix3 r k d)
  rw [h0 k, h1, h2 k]

end Cert.KernelIdeal.Hand

end
-- ==== Proof.KI.ValPre6.lean ====
/-
  The value of pretransform region 6 on the extended reals, from the blocks to the whole array.

  Per row tile of 5000 rows the body computes the block  out[r, p, :] = (h[p, :] · io[p, r]) @ W[r]  for the three
  relations r: it scales the tile of `h` by column r of the tile of degree factors, multiplies by the r-th weight
  matrix into a zero accumulator, and stores the product as slab r of the output block. On the extended reals a change
  of float format is the identity and the product is a plain finite sum, so entry (r, p, d) of the block is
  Σ_k (h[p,k] · io[p,r]) · W[r,k,d]  (`preBlk2`). Point t of the grid takes row tile t of `h`, of the degree factors
  and of the result, and the whole weight array; so the block it writes back is the tile of `Spec.preArr2` of the
  three arrays over rows 5000·t … 5000·t + 4999, and since row n lies in the tile of point n / 5000 the twenty tiles
  cover the array: the region leaves exactly that function of the three arrays it reads.
-/
import proofs.«408287_j3659312136510_1_alg».proof.Proof.Spec
import proofs.«408287_j3659312136510_1_alg».proof.Proof.KI.Reg6
import proofs.«408287_j3659312136510_1_alg».proof.Proof.KI.ValPreCols
import proofs.«408287_j3659312136510_1_alg».proof.Proof.KI.ValPreW2

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window BodyObligation cellOf)

-- the TensorCore's buffer contents when a region is entered, at the extended reals
variable (V : (c : Dev nD) → (b : Ref sig .tc) → Buf (Elt Ideal) ((c : Thread nD τ).loc b))

/-! ## Region 6: the slabs of the output block, at an index -/

/-- The slab the body stores for relation 0, from the tile of `h`, the relation's column of degree factors and the
    relation's weight matrix: entry (u, p, d) is the sum over k of (h[p,k] · col[p]) · w[k,d]. -/
theorem slab6_rel0 (x0 : Vec Ideal S5000x64 .f32) (col : Vec Ideal S5000x1 .f32) (w : Vec Ideal S1x64x2 .f32)
    (u : Fin 1) (p : Fin 5000) (d : Fin 2) :
    k6_pay3 x0 col w (ix3 u p d) = ∑ k : Fin 64, (x0 (ix2 p k) * col (ix2 p (0 : Fin 1))) * w (ix3 (0 : Fin 1) k d) := by
  unfold k6_pay3 k6_pay2
  refine (slabOf2_apply _ u p d).trans ?_
  refine (matmul2_apply _ _ p d).trans ?_
  refine Finset.sum_congr rfl fun k _ => ?_
  show (shapeCast S5000x64 x0 shapeCasts_S5000x64_S5000x64 (ix2 p k) * broadcastTo S5000x64 (shapeCast S5000x1 col shapeCasts_S5000x1_S5000x1) broadcasts_S5000x1_S5000x64 (ix2 p k))
      * shapeCast S64x2 w shapeCasts_S1x64x2_S64x2 (ix2 k d) = _
  rw [shapeCast_self, shapeCast_self, bcastCol64_apply, matOf2_apply]

/-- Relation 1's slab, likewise. -/
theorem slab6_rel1 (x0 : Vec Ideal S5000x64 .f32) (col : Vec Ideal S5000x1 .f32) (w : Vec Ideal S1x64x2 .f32)
    (u : Fin 1) (p : Fin 5000) (d : Fin 2) :
    k6_pay4 x0 col w (ix3 u p d) = ∑ k : Fin 64, (x0 (ix2 p k) * col (ix2 p (0 : Fin 1))) * w (ix3 (0 : Fin 1) k d) := by
  unfold k6_pay4 k6_pay2
  refine (slabOf2_apply _ u p d).trans ?_
  refine (matmul2_apply _ _ p d).trans ?_
  refine Finset.sum_congr rfl fun k _ => ?_
  show (shapeCast S5000x64 x0 shapeCasts_S5000x64_S5000x64 (ix2 p k) * broadcastTo S5000x64 (shapeCast S5000x1 col shapeCasts_S5000x1_S5000x1) broadcasts_S5000x1_S5000x64 (ix2 p k))
      * shapeCast S64x2 w shapeCasts_S1x64x2_S64x2 (ix2 k d) = _
  rw [shapeCast_self, shapeCast_self, bcastCol64_apply, matOf2_apply]

/-- Relation 2's slab: its scaled tile is formed first, the product after. -/
theorem slab6_rel2 (x0 : Vec Ideal S5000x64 .f32) (col : Vec Ideal S5000x1 .f32) (w : Vec Ideal S1x64x2 .f32)
    (u : Fin 1) (p : Fin 5000) (d : Fin 2) :
    k6_pay1 (k6_pay5 x0 col) w (ix3 u p d) = ∑ k : Fin 64, (x0 (ix2 p k) * col (ix2 p (0 : Fin 1))) * w (ix3 (0 : Fin 1) k d) := by
  unfold k6_pay1 k6_pay5 k6_pay2
  refine (slabOf2_apply _ u p d).trans ?_
  refine (matmul2_apply _ _ p d).trans ?_
  refine Finset.sum_congr rfl fun k _ => ?_
  show (shapeCast S5000x64 x0 shapeCasts_S5000x64_S5000x64 (ix2 p k) * broadcastTo S5000x64 (shapeCast S5000x1 col shapeCasts_S5000x1_S5000x1) broadcasts_S5000x1_S5000x64 (ix2 p k))
      * shapeCast S64x2 w shapeCasts_S1x64x2_S64x2 (ix2 k d) = _
  rw [shapeCast_self, shapeCast_self, bcastCol64_apply, matOf2_apply]

/-- What the body of region 6 leaves in the output window's buffer is `preBlk2` of the input blocks: each of its
    three stores is the slab of it that the store's rectangle names, and the three slabs cover the block. -/
theorem out6_3_eq (x0 : Vec Ideal S5000x64 .f32) (x1 : Vec Ideal S5000x3 .f32) (x2 : Vec Ideal S3x64x2 .f32) :
    out6_3 x0 x1 x2 = preBlk2 x0 x1 x2 := by
  funext y
  unfold out6_3
  refine View.canon_apply_of_pieces (preBlk2 x0 x1 x2) _ (fun q hq x => ?_) y (cover6_3 _ _ _ y)
  simp only [List.mem_cons, List.mem_nil_iff, or_false] at hq
  rcases hq with rfl | rfl | rfl
  · obtain ⟨u, p, d, rfl⟩ : ∃ (u : Fin 1) (p : Fin 5000) (d : Fin 2), x = ix3 u p d := ⟨x 0, x 1, x 2, eq_ix3 x⟩
    refine (slab6_rel2 _ _ _ u p d).trans ?_
    show _ = preBlk2 x0 x1 x2 ((Rect.unit (s := S3x5000x2) ![(2 : Fin 3).val, 0, 0] S1x5000x2.size inb_S3x5000x2_S1x5000x2_2_0_0).emb (ix3 u p d))
    rw [emb_out2 2]
    refine Finset.sum_congr rfl fun k _ => ?_
    rw [ld_h64]
    exact congrArg₂ (fun a b => (x0 (ix2 p k) * a) * b) (ld_deg x1 2 _ p) (ld_w2 x2 2 _ k d)
  · obtain ⟨u, p, d, rfl⟩ : ∃ (u : Fin 1) (p : Fin 5000) (d : Fin 2), x = ix3 u p d := ⟨x 0, x 1, x 2, eq_ix3 x⟩
    refine (slab6_rel1 _ _ _ u p d).trans ?_
    show _ = preBlk2 x0 x1 x2 ((Rect.unit (s := S3x5000x2) ![(1 : Fin 3).val, 0, 0] S1x5000x2.size inb_S3x5000x2_S1x5000x2_1_0_0).emb (ix3 u p d))
    rw [emb_out2 1]
    refine Finset.sum_congr rfl fun k _ => ?_
    rw [ld_h64]
    exact congrArg₂ (fun a b => (x0 (ix2 p k) * a) * b) (ld_deg x1 1 _ p) (ld_w2 x2 1 _ k d)
  · obtain ⟨u, p, d, rfl⟩ : ∃ (u : Fin 1) (p : Fin 5000) (d : Fin 2), x = ix3 u p d := ⟨x 0, x 1, x 2, eq_ix3 x⟩
    refine (slab6_rel0 _ _ _ u p d).trans ?_
    show _ = preBlk2 x0 x1 x2 ((Rect.unit (s := S3x5000x2) ![(0 : Fin 3).val, 0, 0] S1x5000x2.size inb_S3x5000x2_S1x5000x2_0_0_0).emb (ix3 u p d))
    rw [emb_out2 0]
    refine Finset.sum_congr rfl fun k _ => ?_
    rw [ld_h64]
    exact congrArg₂ (fun a b => (x0 (ix2 p k) * a) * b) (ld_deg x1 0 _ p) (ld_w2 x2 0 _ k d)

/-! ## Region 6: from the blocks to the array -/

/-- The printed index maps over the grid: point t takes row tile t of `h`, of the degree factors and of the result,
    and the whole weight array. -/
theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 3) = 0 ∧ win6_2.index t (1 : Fin 3) = 0 ∧ win6_2.index t (2 : Fin 3) = 0
    ∧ win6_3.index t (0 : Fin 3) = 0 ∧ win6_3.index t (1 : Fin 3) = t.val ∧ win6_3.index t (2 : Fin 3) = 0 :=
  (by decide +kernel : ∀ t : Fin grid6.N, _)

/-- WHAT POINT t WRITES BACK is row tile t of the whole array's function of the three arrays the region reads. -/
theorem flushed6_eq (c : Dev nD) (t : Fin cfg6.N) :
    (dat6 (F := Ideal) V c).flushed 3 t
      = ((cfg6.win 3).blk t).view.read (Elt Ideal) (Spec.preArr2 (V c main_v158) (V c main_v46) (V c main_arg9)) := by
  show (cfg6.win 3).cut (grid6.coords t) ((dat6 V c).after 3 t) = _
  rw [after6_3]
  obtain ⟨e00, e01, e10, e11, e20, e21, e22, e30, e31, e32⟩ := idx_facts6 t
  have ht : t.val < 20 := t.isLt
  have key : ∀ y : S3x5000x2.Idx, out6_3 (iblk6 V c 0 t) (iblk6 V c 1 t) (iblk6 V c 2 t) y
      = Spec.preArr2 (V c main_v158) (V c main_v46) (V c main_arg9) (((cfg6.win 3).blk t).view.emb y) := by
    intro y
    obtain ⟨r, p, d, rfl⟩ : ∃ (r : Fin 3) (p : Fin 5000) (d : Fin 2), y = ix3 r p d := ⟨y 0, y 1, y 2, eq_ix3 y⟩
    refine (congrFun (out6_3_eq (iblk6 V c 0 t) (iblk6 V c 1 t) (iblk6 V c 2 t)) (ix3 r p d)).trans ?_
    have hn : t.val * 5000 + p.val < 100000 := by have := p.isLt; omega
    have hemb : ((cfg6.win 3).blk t).view.emb (ix3 r p d) = (ix3 r (⟨t.val * 5000 + p.val, hn⟩ : Fin 100000) d : S3x100000x2.Idx) := by
      funext a; apply Fin.ext
      match a with
      | ⟨0, _⟩ => show win6_3.index t (0 : Fin 3) * 3 + 1 * r.val = r.val; omega
      | ⟨1, _⟩ => show win6_3.index t (1 : Fin 3) * 5000 + 1 * p.val = t.val * 5000 + p.val; omega
      | ⟨2, _⟩ => show win6_3.index t (2 : Fin 3) * 2 + 1 * d.val = d.val; omega
    rw [hemb]
    refine preBlk2_eq_preArr2 (V c main_v158) (V c main_v46) (V c main_arg9) (iblk6 V c 0 t) (iblk6 V c 1 t) (iblk6 V c 2 t) r p d _ (fun k => ?_) ?_ (fun k => ?_)
    · show V c main_v158 (((cfg6.win 0).blk t).view.emb (ix2 p k)) = V c main_v158 _
      refine congrArg (V c main_v158) (funext fun a => Fin.ext ?_)
      match a with
      | ⟨0, _⟩ => show win6_0.index t (0 : Fin 2) * 5000 + 1 * p.val = t.val * 5000 + p.val; omega
      | ⟨1, _⟩ => show win6_0.index t (1 : Fin 2) * 64 + 1 * k.val = k.val; omega
    · show V c main_v46 (((cfg6.win 1).blk t).view.emb (ix2 p r)) = V c main_v46 _
      refine congrArg (V c main_v46) (funext fun a => Fin.ext ?_)
      match a with
      | ⟨0, _⟩ => show win6_1.index t (0 : Fin 2) * 5000 + 1 * p.val = t.val * 5000 + p.val; omega
      | ⟨1, _⟩ => show win6_1.index t (1 : Fin 2) * 3 + 1 * r.val = r.val; omega
    · show V c main_arg9 (((cfg6.win 2).blk t).view.emb (ix3 r k d)) = V c main_arg9 _
      refine congrArg (V c main_arg9) (funext fun a => Fin.ext ?_)
      match a with
      | ⟨0, _⟩ => show win6_2.index t (0 : Fin 3) * 3 + 1 * r.val = r.val; omega
      | ⟨1, _⟩ => show win6_2.index t (1 : Fin 3) * 64 + 1 * k.val = k.val; omega
      | ⟨2, _⟩ => show win6_2.index t (2 : Fin 3) * 2 + 1 * d.val = d.val; omega
  funext j
  exact key j

/-- An index of the result array is in point t's block iff each coordinate is in the block's range on its axis. -/
theorem mem_blk6_3 (t : Fin cfg6.N) (i : S3x100000x2.Idx) :
    i ∈ ((cfg6.win 3).blk t).view.set ↔ ∀ a : Fin 3, win6_3.index t a * S3x5000x2.size a ≤ (i a).val
      ∧ (i a).val < win6_3.index t a * S3x5000x2.size a + S3x5000x2.size a := by
  show i ∈ ((View.whole main_v159).slice (win6_3.rect t)).set ↔ _
  rw [View.set_slice_whole, Rect.mem_set_unit]
  exact Iff.rfl

/-- THE ARRAY region 6 leaves: every row n is in the block of point n / 5000, so the array is the whole function. -/
theorem pre_value_6 (c : Dev nD) :
    (dat6 (F := Ideal) V c).arrAt 3 cfg6.N = Spec.preArr2 (V c main_v158) (V c main_v46) (V c main_arg9) :=
  (dat6 (F := Ideal) V c).arrAt_eq_of_cover 3 (Spec.preArr2 (V c main_v158) (V c main_v46) (V c main_arg9))
    (fun t _ => flushed6_eq V c t) fun (i : S3x100000x2.Idx) => by
      have hi0 : (i 0).val < 3 := (i 0).isLt
      have hi1 : (i 1).val < 100000 := (i 1).isLt
      have hi2 : (i 2).val < 2 := (i 2).isLt
      have hN : cfg6.N = 20 := N_6
      have hq : (i 1).val / 5000 < cfg6.N := by rw [hN]; omega
      obtain ⟨-, -, -, -, -, -, -, e30, e31, e32⟩ := idx_facts6 ⟨(i 1).val / 5000, hq⟩
      refine ⟨⟨(i 1).val / 5000, hq⟩, flush6_3 _, ?_⟩
      rw [mem_blk6_3]
      intro a
      match a with
      | ⟨0, _⟩ =>
        show win6_3.index ⟨(i 1).val / 5000, hq⟩ (0 : Fin 3) * 3 ≤ (i 0).val ∧ (i 0).val < win6_3.index ⟨(i 1).val / 5000, hq⟩ (0 : Fin 3) * 3 + 3
        rw [e30]; omega
      | ⟨1, _⟩ =>
        show win6_3.index ⟨(i 1).val / 5000, hq⟩ (1 : Fin 3) * 5000 ≤ (i 1).val ∧ (i 1).val < win6_3.index ⟨(i 1).val / 5000, hq⟩ (1 : Fin 3) * 5000 + 5000
        rw [e31]; show (i 1).val / 5000 * 5000 ≤ (i 1).val ∧ (i 1).val < (i 1).val / 5000 * 5000 + 5000; omega
      | ⟨2, _⟩ =>
        show win6_3.index ⟨(i 1).val / 5000, hq⟩ (2 : Fin 3) * 2 ≤ (i 2).val ∧ (i 2).val < win6_3.index ⟨(i 1).val / 5000, hq⟩ (2 : Fin 3) * 2 + 2
        rw [e32]; omega

end Cert.KernelIdeal.Hand

end
-- ==== Proof.KI.ValPre.lean ====
/-
  The value of the four pretransform regions on the extended reals: each leaves, as one array [3, N, width], the
  function  (r, n, d) ↦ Σ_k (h[n,k] · io[n,r]) · W[r,k,d]  of the three arrays it reads (`pre_value_0`, `pre_value_2`,
  `pre_value_4` at width 64 against `Spec.preArr64`; `pre_value_6` at width 2 against `Spec.preArr2`).
-/
import proofs.«408287_j3659312136510_1_alg».proof.Proof.KI.ValPre0
import proofs.«408287_j3659312136510_1_alg».proof.Proof.KI.ValPre2
import proofs.«408287_j3659312136510_1_alg».proof.Proof.KI.ValPre4
import proofs.«408287_j3659312136510_1_alg».proof.Proof.KI.ValPre6
-- ==== Proof.KI.ValPost1.lean ====
import proofs.«408287_j3659312136510_1_alg».proof.Proof.Spec
import proofs.«408287_j3659312136510_1_alg».proof.Proof.KI.Reg1
import Idealize.ShloMosaic.Lib.Pipeline.Value
import Idealize.ShloMosaic.Lib.ValueLayout
import Idealize.ShloMosaic.Lib.ValueIdx
import Idealize.ShloMosaic.PureOps.Ideal
import Idealize.ShloMosaic.PureOps.Ideal.Laws

/-! # The first aggregation pipeline on the extended reals: the array it leaves

Pipeline 1 reads, at each of twenty row tiles, a block of three slabs of aggregated messages, a block of
destination-side degree factors and the whole bias table, and writes one block of rows. This module reads the value
the body stores at an entry (p, d) of its block — the running sum over the three relations of slab entry times degree
factor plus bias, in the body's own order of accumulation, then the maximum with zero —, shows that the block point t
writes back is rows 5000 t … 5000 t + 4999 of ONE function of the arrays the region finds (`Spec.postArr64`), that
row n is covered by point n / 5000, and so that the output array ends holding that function. The layout operations the
body uses, read at an index, come first, at both widths (64 and 2) the four aggregation pipelines have. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## Layout operations read at an index -/

/-- A column [a,1] spread over b lanes reads, at (p, c), the column's entry at p. -/
theorem colSpread_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row [1,b] taken down to [b] and back up to [1,b] is itself at (0, c). -/
theorem rowRecast_apply {α : Type} {b : ℕ} (v : (⟨2, ![1, b]⟩ : Shape).Idx → α) (h : (⟨2, ![1, b]⟩ : Shape).ShapeCasts ⟨1, ![b]⟩)
    (h' : (⟨1, ![b]⟩ : Shape).ShapeCasts ⟨2, ![1, b]⟩) (c : Fin b) :
    shapeCast ⟨2, ![1, b]⟩ (shapeCast ⟨1, ![b]⟩ v h) h' (ix2 (0 : Fin 1) c) = v (ix2 (0 : Fin 1) c) :=
  (shapeCast_a_1a_apply _ h' 0 c).trans (shapeCast_1a_a_apply v h c)

/-- The zero offsets of a rank-2 rectangle, as a constant function. -/
theorem zeros2 : (![0, 0] : Fin 2 → Nat) = fun _ => 0 := funext fun a => match a with | ⟨0, _⟩ => rfl | ⟨1, _⟩ => rfl

/-- One relation's product term at width 64: the slab times the spread degree column, at (p, d). -/
theorem prod64_apply (s : FVec Ideal S1x5000x64 .f32) (cl : FVec Ideal S5000x1 .f32) (p : Fin 5000) (d : Fin 64) :
    (mulf (shapeCast S5000x64 s shapeCasts_S1x5000x64_S5000x64 : FVec Ideal S5000x64 .f32)
      (broadcastTo S5000x64 (shapeCast S5000x1 cl shapeCasts_S5000x1_S5000x1) broadcasts_S5000x1_S5000x64)) (ix2 p d)
      = s (ix3 (0 : Fin 1) p d) * cl (ix2 p (0 : Fin 1)) := by
  rw [mulf_apply, shapeCast_self]
  exact congrArg₂ (· * ·) (shapeCast_1ab_ab_apply s _ p d) (colSpread_apply cl _ p d)

/-- One relation's bias term at width 64: the row recast and spread over the rows, at (p, d). -/
theorem bias64_apply (bs : FVec Ideal S1x64 .f32) (p : Fin 5000) (d : Fin 64) :
    broadcastTo S5000x64 (shapeCast S1x64 (shapeCast S64 bs shapeCasts_S1x64_S64) shapeCasts_S64_S1x64) broadcasts_S1x64_S5000x64 (ix2 p d)
      = bs (ix2 (0 : Fin 1) d) :=
  (broadcastTo_1b_ab_apply _ _ p d).trans (rowRecast_apply bs _ _ d)

/-- One relation's product term at width 2: the slab times the spread degree column, at (p, d). -/
theorem prod2_apply (s : FVec Ideal S1x5000x2 .f32) (cl : FVec Ideal S5000x1 .f32) (p : Fin 5000) (d : Fin 2) :
    (mulf (shapeCast S5000x2 s shapeCasts_S1x5000x2_S5000x2 : FVec Ideal S5000x2 .f32)
      (broadcastTo S5000x2 (shapeCast S5000x1 cl shapeCasts_S5000x1_S5000x1) broadcasts_S5000x1_S5000x2)) (ix2 p d)
      = s (ix3 (0 : Fin 1) p d) * cl (ix2 p (0 : Fin 1)) := by
  rw [mulf_apply, shapeCast_self]
  exact congrArg₂ (· * ·) (shapeCast_1ab_ab_apply s _ p d) (colSpread_apply cl _ p d)

/-- One relation's bias term at width 2: the row recast and spread over the rows, at (p, d). -/
theorem bias2_apply (bs : FVec Ideal S1x2 .f32) (p : Fin 5000) (d : Fin 2) :
    broadcastTo S5000x2 (shapeCast S1x2 (shapeCast S2 bs shapeCasts_S1x2_S2) shapeCasts_S2_S1x2) broadcasts_S1x2_S5000x2 (ix2 p d)
      = bs (ix2 (0 : Fin 1) d) :=
  (broadcastTo_1b_ab_apply _ _ p d).trans (rowRecast_apply bs _ _ d)

-- the TensorCore's buffer contents when a region is entered
variable (V : (c : Dev nD) → (b : Ref sig .tc) → Buf (Elt Ideal) ((c : Thread nD τ).loc b))

/-! ## Pipeline 1: the body's loads at an index -/

/-- Slab r of the aggregate block, loaded as [1,5000,64], reads at (0, p, d) the block at (r, p, d). -/
theorem slab1_0_apply (x0 : Vec Ideal S3x5000x64 .f32) (p : Fin 5000) (d : Fin 64) :
    View.ld x0 slab1_0 (ix3 (0 : Fin 1) p d) = x0 (ix3 (0 : Fin 3) p d) := by
  show x0 _ = x0 _
  refine congrArg x0 (funext fun a => Fin.ext ?_)
  match a with
  | ⟨0, _⟩ => rfl
  | ⟨1, _⟩ => show 0 + 1 * p.val = p.val; omega
  | ⟨2, _⟩ => show 0 + 1 * d.val = d.val; omega
theorem slab1_1_apply (x0 : Vec Ideal S3x5000x64 .f32) (p : Fin 5000) (d : Fin 64) :
    View.ld x0 slab1_1 (ix3 (0 : Fin 1) p d) = x0 (ix3 (1 : Fin 3) p d) := by
  show x0 _ = x0 _
  refine congrArg x0 (funext fun a => Fin.ext ?_)
  match a with
  | ⟨0, _⟩ => rfl
  | ⟨1, _⟩ => show 0 + 1 * p.val = p.val; omega
  | ⟨2, _⟩ => show 0 + 1 * d.val = d.val; omega
theorem slab1_2_apply (x0 : Vec Ideal S3x5000x64 .f32) (p : Fin 5000) (d : Fin 64) :
    View.ld x0 slab1_2 (ix3 (0 : Fin 1) p d) = x0 (ix3 (2 : Fin 3) p d) := by
  show x0 _ = x0 _
  refine congrArg x0 (funext fun a => Fin.ext ?_)
  match a with
  | ⟨0, _⟩ => rfl
  | ⟨1, _⟩ => show 0 + 1 * p.val = p.val; omega
  | ⟨2, _⟩ => show 0 + 1 * d.val = d.val; omega

/-- Column r of the degree block, loaded as [5000,1], reads at (p, 0) the block at (p, r). -/
theorem col1_0_apply (x1 : Vec Ideal S5000x3 .f32) (p : Fin 5000) :
    View.ld x1 col1_0 (ix2 p (0 : Fin 1)) = x1 (ix2 p (0 : Fin 3)) := by
  show x1 _ = x1 _
  refine congrArg x1 (funext fun a => Fin.ext ?_)
  match a with
  | ⟨0, _⟩ => show 0 + 1 * p.val = p.val; omega
  | ⟨1, _⟩ => rfl
theorem col1_1_apply (x1 : Vec Ideal S5000x3 .f32) (p : Fin 5000) :
    View.ld x1 col1_1 (ix2 p (0 : Fin 1)) = x1 (ix2 p (1 : Fin 3)) := by
  show x1 _ = x1 _
  refine congrArg x1 (funext fun a => Fin.ext ?_)
  match a with
  | ⟨0, _⟩ => show 0 + 1 * p.val = p.val; omega
  | ⟨1, _⟩ => rfl
theorem col1_2_apply (x1 : Vec Ideal S5000x3 .f32) (p : Fin 5000) :
    View.ld x1 col1_2 (ix2 p (0 : Fin 1)) = x1 (ix2 p (2 : Fin 3)) := by
  show x1 _ = x1 _
  refine congrArg x1 (funext fun a => Fin.ext ?_)
  match a with
  | ⟨0, _⟩ => show 0 + 1 * p.val = p.val; omega
  | ⟨1, _⟩ => rfl

/-- Row r of the bias table, loaded as [1,64], reads at (0, d) the table at (r, d). -/
theorem row1_0_apply (x2 : Vec Ideal S3x64 .f32) (d : Fin 64) :
    View.ld x2 row1_0 (ix2 (0 : Fin 1) d) = x2 (ix2 (0 : Fin 3) d) := by
  show x2 _ = x2 _
  refine congrArg x2 (funext fun a => Fin.ext ?_)
  match a with
  | ⟨0, _⟩ => rfl
  | ⟨1, _⟩ => show 0 + 1 * d.val = d.val; omega
theorem row1_1_apply (x2 : Vec Ideal S3x64 .f32) (d : Fin 64) :
    View.ld x2 row1_1 (ix2 (0 : Fin 1) d) = x2 (ix2 (1 : Fin 3) d) := by
  show x2 _ = x2 _
  refine congrArg x2 (funext fun a => Fin.ext ?_)
  match a with
  | ⟨0, _⟩ => rfl
  | ⟨1, _⟩ => show 0 + 1 * d.val = d.val; omega
theorem row1_2_apply (x2 : Vec Ideal S3x64 .f32) (d : Fin 64) :
    View.ld x2 row1_2 (ix2 (0 : Fin 1) d) = x2 (ix2 (2 : Fin 3) d) := by
  show x2 _ = x2 _
  refine congrArg x2 (funext fun a => Fin.ext ?_)
  match a with
  | ⟨0, _⟩ => rfl
  | ⟨1, _⟩ => show 0 + 1 * d.val = d.val; omega

/-- The stored value at (p, d): the running sum over the three relations of slab entry times degree factor plus bias,
    in the order the body accumulates it, then the maximum with zero. -/
theorem val1_apply (x0 : Vec Ideal S3x5000x64 .f32) (x1 : Vec Ideal S5000x3 .f32) (x2 : Vec Ideal S3x64 .f32) (p : Fin 5000) (d : Fin 64) :
    val1 x0 x1 x2 (ix2 p d)
      = max ((((((0 + x0 (ix3 0 p d) * x1 (ix2 p 0)) + x2 (ix2 0 d))
          + x0 (ix3 1 p d) * x1 (ix2 p 1)) + x2 (ix2 1 d))
          + x0 (ix3 2 p d) * x1 (ix2 p 2)) + x2 (ix2 2 d)) 0 := by
  unfold val1 k1_pay1 k1_pay2
  simp only [maximumf_apply, addf_apply, broadcast_apply]
  rw [prod64_apply, prod64_apply, prod64_apply, bias64_apply, bias64_apply, bias64_apply,
    slab1_0_apply, slab1_1_apply, slab1_2_apply, col1_0_apply, col1_1_apply, col1_2_apply,
    row1_0_apply, row1_1_apply, row1_2_apply]
  have hz : (FloatOps.ofBits (F := Ideal) .f32 0x00000000#32) = (0 : EReal) := Ideal.ofBits_zero_f32
  rw [hz]

/-! ## Pipeline 1: from the blocks to the array -/

/-- The index maps of pipeline 1, decided over its twenty points: the aggregate's block moves along the rows (axis 1),
    the degree block and the output block along the rows (axis 0), the bias table stays. -/
theorem idx_facts1 : ∀ t : Fin cfg1.N, win1_0.index t (0 : Fin 3) = 0 ∧ win1_0.index t (1 : Fin 3) = t.val ∧ win1_0.index t (2 : Fin 3) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The aggregate's block at point t is rows 5000 t … 5000 t + 4999 of each of the three slabs. -/
theorem iblk1_0_apply (c : Dev nD) (t : Fin cfg1.N) (r : Fin 3) (p : Fin 5000) (d : Fin 64) (n : Fin 100000)
    (hn : n.val = t.val * 5000 + p.val) :
    (iblk1 V c 0 t : Vec Ideal S3x5000x64 .f32) (ix3 r p d) = (V c main_v85 : Vec Ideal S3x100000x64 .f32) (ix3 r n d) := by
  obtain ⟨e0, e1, e2, -⟩ := idx_facts1 t
  show V c main_v85 (((cfg1.win 0).blk t).view.emb (ix3 r p d)) = _
  refine congrArg (V c main_v85) (funext fun a => Fin.ext ?_)
  match a with
  | ⟨0, _⟩ => show win1_0.index t (0 : Fin 3) * 3 + 1 * r.val = r.val; rw [e0]; omega
  | ⟨1, _⟩ => show win1_0.index t (1 : Fin 3) * 5000 + 1 * p.val = n.val; rw [e1, hn]; omega
  | ⟨2, _⟩ => show win1_0.index t (2 : Fin 3) * 64 + 1 * d.val = d.val; rw [e2]; omega

/-- The degree block at point t is rows 5000 t … 5000 t + 4999 of the degree table. -/
theorem iblk1_1_apply (c : Dev nD) (t : Fin cfg1.N) (p : Fin 5000) (r : Fin 3) (n : Fin 100000)
    (hn : n.val = t.val * 5000 + p.val) :
    (iblk1 V c 1 t : Vec Ideal S5000x3 .f32) (ix2 p r) = (V c main_v50 : Vec Ideal S100000x3 .f32) (ix2 n r) := by
  obtain ⟨-, -, -, e0, e1, -⟩ := idx_facts1 t
  show V c main_v50 (((cfg1.win 1).blk t).view.emb (ix2 p r)) = _
  refine congrArg (V c main_v50) (funext fun a => Fin.ext ?_)
  match a with
  | ⟨0, _⟩ => show win1_1.index t (0 : Fin 2) * 5000 + 1 * p.val = n.val; rw [e0, hn]; omega
  | ⟨1, _⟩ => show win1_1.index t (1 : Fin 2) * 3 + 1 * r.val = r.val; rw [e1]; omega

/-- The bias block at every point is the whole bias table. -/
theorem iblk1_2_apply (c : Dev nD) (t : Fin cfg1.N) (r : Fin 3) (d : Fin 64) :
    (iblk1 V c 2 t : Vec Ideal S3x64 .f32) (ix2 r d) = (V c main_arg4 : Vec Ideal S3x64 .f32) (ix2 r d) := by
  obtain ⟨-, -, -, -, -, e0, e1, -⟩ := idx_facts1 t
  show V c main_arg4 (((cfg1.win 2).blk t).view.emb (ix2 r d)) = _
  refine congrArg (V c main_arg4) (funext fun a => Fin.ext ?_)
  match a with
  | ⟨0, _⟩ => show win1_2.index t (0 : Fin 2) * 3 + 1 * r.val = r.val; rw [e0]; omega
  | ⟨1, _⟩ => show win1_2.index t (1 : Fin 2) * 64 + 1 * d.val = d.val; rw [e1]; omega

/-- The stored value of point T, from blocks that are the rows 5000 T … of the arrays, is the array function at those rows. -/
theorem block1_eq (a : Vec Ideal S3x100000x64 .f32) (ii : Vec Ideal S100000x3 .f32) (b : Vec Ideal S3x64 .f32)
    (x0 : Vec Ideal S3x5000x64 .f32) (x1 : Vec Ideal S5000x3 .f32) (x2 : Vec Ideal S3x64 .f32) (T : ℕ)
    (h0 : ∀ (r : Fin 3) (p : Fin 5000) (d : Fin 64) (n : Fin 100000), n.val = T * 5000 + p.val → x0 (ix3 r p d) = a (ix3 r n d))
    (h1 : ∀ (p : Fin 5000) (r : Fin 3) (n : Fin 100000), n.val = T * 5000 + p.val → x1 (ix2 p r) = ii (ix2 n r))
    (h2 : ∀ (r : Fin 3) (d : Fin 64), x2 (ix2 r d) = b (ix2 r d))
    (j : S5000x64.Idx) (i : S100000x64.Idx) (hi0 : (i 0).val = T * 5000 + (j 0).val) (hi1 : (i 1).val = (j 1).val) :
    val1 x0 x1 x2 j = Spec.postArr64 a ii b i := by
  obtain ⟨p, d, rfl⟩ : ∃ (p : Fin 5000) (d : Fin 64), j = ix2 p d := ⟨j 0, j 1, eq_ix2 j⟩
  obtain ⟨n, d', rfl⟩ : ∃ (n : Fin 100000) (d' : Fin 64), i = ix2 n d' := ⟨i 0, i 1, eq_ix2 i⟩
  obtain rfl : d' = d := Fin.ext hi1
  rw [val1_apply, h0 0 p _ n hi0, h0 1 p _ n hi0, h0 2 p _ n hi0, h1 p 0 n hi0, h1 p 1 n hi0, h1 p 2 n hi0, h2, h2, h2]
  rfl

/-- What point t writes back is block t of the array function of the arrays the region finds. -/
theorem flushed1_eq (c : Dev nD) (t : Fin cfg1.N) :
    (dat1 (F := Ideal) V c).flushed 3 t
      = ((cfg1.win 3).blk t).view.read (Elt Ideal) (Spec.postArr64 (V c main_v85) (V c main_v50) (V c main_arg4)) := by
  show (cfg1.win 3).cut (grid1.coords t) ((dat1 V c).after 3 t) = _
  rw [after1_3]
  unfold out1_3
  rw [View.canon_unit_zero zeros2]
  obtain ⟨-, -, -, -, -, -, -, e0, e1⟩ := idx_facts1 t
  funext j
  refine block1_eq (V c main_v85) (V c main_v50) (V c main_arg4) (iblk1 V c 0 t) (iblk1 V c 1 t) (iblk1 V c 2 t) t.val
    (fun r p d n hn => iblk1_0_apply V c t r p d n hn) (fun p r n hn => iblk1_1_apply V c t p r n hn)
    (fun r d => iblk1_2_apply V c t r d) j (((cfg1.win 3).blk t).view.emb j) ?_ ?_
  · show win1_3.index t (0 : Fin 2) * 5000 + 1 * (j 0).val = _; rw [e0]; omega
  · show win1_3.index t (1 : Fin 2) * 64 + 1 * (j 1).val = _; rw [e1]; omega

/-- An index of the output array is in point t's block iff each coordinate is in the block's range on its axis. -/
theorem mem_blk1 (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v86).slice (win1_3.rect t)).set ↔ _
  rw [View.set_slice_whole, Rect.mem_set_unit]
  exact Iff.rfl

/-- Row n of the output array is written back by point n / 5000. -/
theorem cover1 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨-, -, -, -, -, -, -, e0, e1⟩ := idx_facts1 t
  have ht : t.val = (i 0).val / 5000 := rfl
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; rw [e0, ht]; omega
  | ⟨1, _⟩ => show win1_3.index t (1 : Fin 2) * 64 ≤ (i 1).val ∧ (i 1).val < win1_3.index t (1 : Fin 2) * 64 + 64; rw [e1]; omega

/-- THE ARRAY pipeline 1 leaves: at (n, d) the running sum over the three relations of aggregate times destination-side
    degree factor plus bias, cut below at zero, of the arrays as the region finds them. -/
theorem post_value_1 (c : Dev nD) :
    (dat1 (F := Ideal) V c).arrAt 3 cfg1.N = Spec.postArr64 (V c main_v85) (V c main_v50) (V c main_arg4) :=
  (dat1 V c).arrAt_eq_of_cover 3 (Spec.postArr64 (V c main_v85) (V c main_v50) (V c main_arg4))
    (fun t _ => flushed1_eq V c t) cover1

end Cert.KernelIdeal.Hand

end
-- ==== Proof.KI.ValPost3.lean ====
import proofs.«408287_j3659312136510_1_alg».proof.Proof.Spec
import proofs.«408287_j3659312136510_1_alg».proof.Proof.KI.Reg3
import proofs.«408287_j3659312136510_1_alg».proof.Proof.KI.ValPost1
import Idealize.ShloMosaic.Lib.Pipeline.Value
import Idealize.ShloMosaic.Lib.ValueLayout
import Idealize.ShloMosaic.Lib.ValueIdx
import Idealize.ShloMosaic.PureOps.Ideal
import Idealize.ShloMosaic.PureOps.Ideal.Laws

/-! # Aggregation pipeline 3 on the extended reals: the array it leaves

Pipeline 3 reads, at each of twenty row tiles, a block of three slabs of aggregated messages, a block of
destination-side degree factors and the whole bias table, and writes one block of rows. This module reads the value
the body stores at an entry (p, d) of its block — the running sum over the three relations of slab entry times degree
factor plus bias, in the body's own order of accumulation, then the maximum with zero —, shows that the block point t
writes back is rows 5000 t … 5000 t + 4999 of ONE function of the arrays the region finds (`Spec.postArr64`), that
row n is covered by point n / 5000, and so that the output array ends holding that function. The layout operations
read at an index are those of the module of pipeline 1. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-! ## Pipeline 3: the body's loads at an index -/

/-- Slab r of the aggregate block, loaded as [1,5000,64], reads at (0, p, d) the block at (r, p, d). -/
theorem slab3_0_apply (x0 : Vec Ideal S3x5000x64 .f32) (p : Fin 5000) (d : Fin 64) :
    View.ld x0 slab3_0 (ix3 (0 : Fin 1) p d) = x0 (ix3 (0 : Fin 3) p d) := by
  show x0 _ = x0 _
  refine congrArg x0 (funext fun a => Fin.ext ?_)
  match a with
  | ⟨0, _⟩ => rfl
  | ⟨1, _⟩ => show 0 + 1 * p.val = p.val; omega
  | ⟨2, _⟩ => show 0 + 1 * d.val = d.val; omega
theorem slab3_1_apply (x0 : Vec Ideal S3x5000x64 .f32) (p : Fin 5000) (d : Fin 64) :
    View.ld x0 slab3_1 (ix3 (0 : Fin 1) p d) = x0 (ix3 (1 : Fin 3) p d) := by
  show x0 _ = x0 _
  refine congrArg x0 (funext fun a => Fin.ext ?_)
  match a with
  | ⟨0, _⟩ => rfl
  | ⟨1, _⟩ => show 0 + 1 * p.val = p.val; omega
  | ⟨2, _⟩ => show 0 + 1 * d.val = d.val; omega
theorem slab3_2_apply (x0 : Vec Ideal S3x5000x64 .f32) (p : Fin 5000) (d : Fin 64) :
    View.ld x0 slab3_2 (ix3 (0 : Fin 1) p d) = x0 (ix3 (2 : Fin 3) p d) := by
  show x0 _ = x0 _
  refine congrArg x0 (funext fun a => Fin.ext ?_)
  match a with
  | ⟨0, _⟩ => rfl
  | ⟨1, _⟩ => show 0 + 1 * p.val = p.val; omega
  | ⟨2, _⟩ => show 0 + 1 * d.val = d.val; omega

/-- Column r of the degree block, loaded as [5000,1], reads at (p, 0) the block at (p, r). -/
theorem col3_0_apply (x1 : Vec Ideal S5000x3 .f32) (p : Fin 5000) :
    View.ld x1 col3_0 (ix2 p (0 : Fin 1)) = x1 (ix2 p (0 : Fin 3)) := by
  show x1 _ = x1 _
  refine congrArg x1 (funext fun a => Fin.ext ?_)
  match a with
  | ⟨0, _⟩ => show 0 + 1 * p.val = p.val; omega
  | ⟨1, _⟩ => rfl
theorem col3_1_apply (x1 : Vec Ideal S5000x3 .f32) (p : Fin 5000) :
    View.ld x1 col3_1 (ix2 p (0 : Fin 1)) = x1 (ix2 p (1 : Fin 3)) := by
  show x1 _ = x1 _
  refine congrArg x1 (funext fun a => Fin.ext ?_)
  match a with
  | ⟨0, _⟩ => show 0 + 1 * p.val = p.val; omega
  | ⟨1, _⟩ => rfl
theorem col3_2_apply (x1 : Vec Ideal S5000x3 .f32) (p : Fin 5000) :
    View.ld x1 col3_2 (ix2 p (0 : Fin 1)) = x1 (ix2 p (2 : Fin 3)) := by
  show x1 _ = x1 _
  refine congrArg x1 (funext fun a => Fin.ext ?_)
  match a with
  | ⟨0, _⟩ => show 0 + 1 * p.val = p.val; omega
  | ⟨1, _⟩ => rfl

/-- Row r of the bias table, loaded as [1,64], reads at (0, d) the table at (r, d). -/
theorem row3_0_apply (x2 : Vec Ideal S3x64 .f32) (d : Fin 64) :
    View.ld x2 row3_0 (ix2 (0 : Fin 1) d) = x2 (ix2 (0 : Fin 3) d) := by
  show x2 _ = x2 _
  refine congrArg x2 (funext fun a => Fin.ext ?_)
  match a with
  | ⟨0, _⟩ => rfl
  | ⟨1, _⟩ => show 0 + 1 * d.val = d.val; omega
theorem row3_1_apply (x2 : Vec Ideal S3x64 .f32) (d : Fin 64) :
    View.ld x2 row3_1 (ix2 (0 : Fin 1) d) = x2 (ix2 (1 : Fin 3) d) := by
  show x2 _ = x2 _
  refine congrArg x2 (funext fun a => Fin.ext ?_)
  match a with
  | ⟨0, _⟩ => rfl
  | ⟨1, _⟩ => show 0 + 1 * d.val = d.val; omega
theorem row3_2_apply (x2 : Vec Ideal S3x64 .f32) (d : Fin 64) :
    View.ld x2 row3_2 (ix2 (0 : Fin 1) d) = x2 (ix2 (2 : Fin 3) d) := by
  show x2 _ = x2 _
  refine congrArg x2 (funext fun a => Fin.ext ?_)
  match a with
  | ⟨0, _⟩ => rfl
  | ⟨1, _⟩ => show 0 + 1 * d.val = d.val; omega

/-- The stored value at (p, d): the running sum over the three relations of slab entry times degree factor plus bias,
    in the order the body accumulates it, then the maximum with zero. -/
theorem val3_apply (x0 : Vec Ideal S3x5000x64 .f32) (x1 : Vec Ideal S5000x3 .f32) (x2 : Vec Ideal S3x64 .f32) (p : Fin 5000) (d : Fin 64) :
    val3 x0 x1 x2 (ix2 p d)
      = max ((((((0 + x0 (ix3 0 p d) * x1 (ix2 p 0)) + x2 (ix2 0 d))
          + x0 (ix3 1 p d) * x1 (ix2 p 1)) + x2 (ix2 1 d))
          + x0 (ix3 2 p d) * x1 (ix2 p 2)) + x2 (ix2 2 d)) 0 := by
  unfold val3 k3_pay1 k3_pay2
  simp only [maximumf_apply, addf_apply, broadcast_apply]
  rw [prod64_apply, prod64_apply, prod64_apply, bias64_apply, bias64_apply, bias64_apply,
    slab3_0_apply, slab3_1_apply, slab3_2_apply, col3_0_apply, col3_1_apply, col3_2_apply,
    row3_0_apply, row3_1_apply, row3_2_apply]
  have hz : (FloatOps.ofBits (F := Ideal) .f32 0x00000000#32) = (0 : EReal) := Ideal.ofBits_zero_f32
  rw [hz]

/-! ## Pipeline 3: from the blocks to the array -/

/-- The index maps of pipeline 3, decided over its twenty points: the aggregate's block moves along the rows (axis 1),
    the degree block and the output block along the rows (axis 0), the bias table stays. -/
theorem idx_facts3 : ∀ t : Fin cfg3.N, win3_0.index t (0 : Fin 3) = 0 ∧ win3_0.index t (1 : Fin 3) = t.val ∧ win3_0.index t (2 : Fin 3) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The aggregate's block at point t is rows 5000 t … 5000 t + 4999 of each of the three slabs. -/
theorem iblk3_0_apply (c : Dev nD) (t : Fin cfg3.N) (r : Fin 3) (p : Fin 5000) (d : Fin 64) (n : Fin 100000)
    (hn : n.val = t.val * 5000 + p.val) :
    (iblk3 V c 0 t : Vec Ideal S3x5000x64 .f32) (ix3 r p d) = (V c main_v121 : Vec Ideal S3x100000x64 .f32) (ix3 r n d) := by
  obtain ⟨e0, e1, e2, -⟩ := idx_facts3 t
  show V c main_v121 (((cfg3.win 0).blk t).view.emb (ix3 r p d)) = _
  refine congrArg (V c main_v121) (funext fun a => Fin.ext ?_)
  match a with
  | ⟨0, _⟩ => show win3_0.index t (0 : Fin 3) * 3 + 1 * r.val = r.val; rw [e0]; omega
  | ⟨1, _⟩ => show win3_0.index t (1 : Fin 3) * 5000 + 1 * p.val = n.val; rw [e1, hn]; omega
  | ⟨2, _⟩ => show win3_0.index t (2 : Fin 3) * 64 + 1 * d.val = d.val; rw [e2]; omega

/-- The degree block at point t is rows 5000 t … 5000 t + 4999 of the degree table. -/
theorem iblk3_1_apply (c : Dev nD) (t : Fin cfg3.N) (p : Fin 5000) (r : Fin 3) (n : Fin 100000)
    (hn : n.val = t.val * 5000 + p.val) :
    (iblk3 V c 1 t : Vec Ideal S5000x3 .f32) (ix2 p r) = (V c main_v50 : Vec Ideal S100000x3 .f32) (ix2 n r) := by
  obtain ⟨-, -, -, e0, e1, -⟩ := idx_facts3 t
  show V c main_v50 (((cfg3.win 1).blk t).view.emb (ix2 p r)) = _
  refine congrArg (V c main_v50) (funext fun a => Fin.ext ?_)
  match a with
  | ⟨0, _⟩ => show win3_1.index t (0 : Fin 2) * 5000 + 1 * p.val = n.val; rw [e0, hn]; omega
  | ⟨1, _⟩ => show win3_1.index t (1 : Fin 2) * 3 + 1 * r.val = r.val; rw [e1]; omega

/-- The bias block at every point is the whole bias table. -/
theorem iblk3_2_apply (c : Dev nD) (t : Fin cfg3.N) (r : Fin 3) (d : Fin 64) :
    (iblk3 V c 2 t : Vec Ideal S3x64 .f32) (ix2 r d) = (V c main_arg6 : Vec Ideal S3x64 .f32) (ix2 r d) := by
  obtain ⟨-, -, -, -, -, e0, e1, -⟩ := idx_facts3 t
  show V c main_arg6 (((cfg3.win 2).blk t).view.emb (ix2 r d)) = _
  refine congrArg (V c main_arg6) (funext fun a => Fin.ext ?_)
  match a with
  | ⟨0, _⟩ => show win3_2.index t (0 : Fin 2) * 3 + 1 * r.val = r.val; rw [e0]; omega
  | ⟨1, _⟩ => show win3_2.index t (1 : Fin 2) * 64 + 1 * d.val = d.val; rw [e1]; omega

/-- The stored value of point T, from blocks that are the rows 5000 T … of the arrays, is the array function at those rows. -/
theorem block3_eq (a : Vec Ideal S3x100000x64 .f32) (ii : Vec Ideal S100000x3 .f32) (b : Vec Ideal S3x64 .f32)
    (x0 : Vec Ideal S3x5000x64 .f32) (x1 : Vec Ideal S5000x3 .f32) (x2 : Vec Ideal S3x64 .f32) (T : ℕ)
    (h0 : ∀ (r : Fin 3) (p : Fin 5000) (d : Fin 64) (n : Fin 100000), n.val = T * 5000 + p.val → x0 (ix3 r p d) = a (ix3 r n d))
    (h1 : ∀ (p : Fin 5000) (r : Fin 3) (n : Fin 100000), n.val = T * 5000 + p.val → x1 (ix2 p r) = ii (ix2 n r))
    (h2 : ∀ (r : Fin 3) (d : Fin 64), x2 (ix2 r d) = b (ix2 r d))
    (j : S5000x64.Idx) (i : S100000x64.Idx) (hi0 : (i 0).val = T * 5000 + (j 0).val) (hi1 : (i 1).val = (j 1).val) :
    val3 x0 x1 x2 j = Spec.postArr64 a ii b i := by
  obtain ⟨p, d, rfl⟩ : ∃ (p : Fin 5000) (d : Fin 64), j = ix2 p d := ⟨j 0, j 1, eq_ix2 j⟩
  obtain ⟨n, d', rfl⟩ : ∃ (n : Fin 100000) (d' : Fin 64), i = ix2 n d' := ⟨i 0, i 1, eq_ix2 i⟩
  obtain rfl : d' = d := Fin.ext hi1
  rw [val3_apply, h0 0 p _ n hi0, h0 1 p _ n hi0, h0 2 p _ n hi0, h1 p 0 n hi0, h1 p 1 n hi0, h1 p 2 n hi0, h2, h2, h2]
  rfl

/-- What point t writes back is block t of the array function of the arrays the region finds. -/
theorem flushed3_eq (c : Dev nD) (t : Fin cfg3.N) :
    (dat3 (F := Ideal) V c).flushed 3 t
      = ((cfg3.win 3).blk t).view.read (Elt Ideal) (Spec.postArr64 (V c main_v121) (V c main_v50) (V c main_arg6)) := by
  show (cfg3.win 3).cut (grid3.coords t) ((dat3 V c).after 3 t) = _
  rw [after3_3]
  unfold out3_3
  rw [View.canon_unit_zero zeros2]
  obtain ⟨-, -, -, -, -, -, -, e0, e1⟩ := idx_facts3 t
  funext j
  refine block3_eq (V c main_v121) (V c main_v50) (V c main_arg6) (iblk3 V c 0 t) (iblk3 V c 1 t) (iblk3 V c 2 t) t.val
    (fun r p d n hn => iblk3_0_apply V c t r p d n hn) (fun p r n hn => iblk3_1_apply V c t p r n hn)
    (fun r d => iblk3_2_apply V c t r d) j (((cfg3.win 3).blk t).view.emb j) ?_ ?_
  · show win3_3.index t (0 : Fin 2) * 5000 + 1 * (j 0).val = _; rw [e0]; omega
  · show win3_3.index t (1 : Fin 2) * 64 + 1 * (j 1).val = _; rw [e1]; omega

/-- An index of the output array is in point t's block iff each coordinate is in the block's range on its axis. -/
theorem mem_blk3 (t : Fin cfg3.N) (i : S100000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v122).slice (win3_3.rect t)).set ↔ _
  rw [View.set_slice_whole, Rect.mem_set_unit]
  exact Iff.rfl

/-- Row n of the output array is written back by point n / 5000. -/
theorem cover3 (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 20 := N_3
  let t : Fin cfg3.N := ⟨(i 0).val / 5000, by rw [hN]; omega⟩
  obtain ⟨-, -, -, -, -, -, -, e0, e1⟩ := idx_facts3 t
  have ht : t.val = (i 0).val / 5000 := rfl
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; rw [e0, ht]; omega
  | ⟨1, _⟩ => show win3_3.index t (1 : Fin 2) * 64 ≤ (i 1).val ∧ (i 1).val < win3_3.index t (1 : Fin 2) * 64 + 64; rw [e1]; omega

/-- THE ARRAY pipeline 3 leaves: at (n, d) the running sum over the three relations of aggregate times destination-side
    degree factor plus bias, cut below at zero, of the arrays as the region finds them. -/
theorem post_value_3 (c : Dev nD) :
    (dat3 (F := Ideal) V c).arrAt 3 cfg3.N = Spec.postArr64 (V c main_v121) (V c main_v50) (V c main_arg6) :=
  (dat3 V c).arrAt_eq_of_cover 3 (Spec.postArr64 (V c main_v121) (V c main_v50) (V c main_arg6))
    (fun t _ => flushed3_eq V c t) cover3

end Cert.KernelIdeal.Hand

end
-- ==== Proof.KI.ValPost5.lean ====
import proofs.«408287_j3659312136510_1_alg».proof.Proof.Spec
import proofs.«408287_j3659312136510_1_alg».proof.Proof.KI.Reg5
import proofs.«408287_j3659312136510_1_alg».proof.Proof.KI.ValPost1
import Idealize.ShloMosaic.Lib.Pipeline.Value
import Idealize.ShloMosaic.Lib.ValueLayout
import Idealize.ShloMosaic.Lib.ValueIdx
import Idealize.ShloMosaic.PureOps.Ideal
import Idealize.ShloMosaic.PureOps.Ideal.Laws

/-! # Aggregation pipeline 5 on the extended reals: the array it leaves

Pipeline 5 reads, at each of twenty row tiles, a block of three slabs of aggregated messages, a block of
destination-side degree factors and the whole bias table, and writes one block of rows. This module reads the value
the body stores at an entry (p, d) of its block — the running sum over the three relations of slab entry times degree
factor plus bias, in the body's own order of accumulation, then the maximum with zero —, shows that the block point t
writes back is rows 5000 t … 5000 t + 4999 of ONE function of the arrays the region finds (`Spec.postArr64`), that
row n is covered by point n / 5000, and so that the output array ends holding that function. The layout operations
read at an index are those of the module of pipeline 1. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-! ## Pipeline 5: the body's loads at an index -/

/-- Slab r of the aggregate block, loaded as [1,5000,64], reads at (0, p, d) the block at (r, p, d). -/
theorem slab5_0_apply (x0 : Vec Ideal S3x5000x64 .f32) (p : Fin 5000) (d : Fin 64) :
    View.ld x0 slab5_0 (ix3 (0 : Fin 1) p d) = x0 (ix3 (0 : Fin 3) p d) := by
  show x0 _ = x0 _
  refine congrArg x0 (funext fun a => Fin.ext ?_)
  match a with
  | ⟨0, _⟩ => rfl
  | ⟨1, _⟩ => show 0 + 1 * p.val = p.val; omega
  | ⟨2, _⟩ => show 0 + 1 * d.val = d.val; omega
theorem slab5_1_apply (x0 : Vec Ideal S3x5000x64 .f32) (p : Fin 5000) (d : Fin 64) :
    View.ld x0 slab5_1 (ix3 (0 : Fin 1) p d) = x0 (ix3 (1 : Fin 3) p d) := by
  show x0 _ = x0 _
  refine congrArg x0 (funext fun a => Fin.ext ?_)
  match a with
  | ⟨0, _⟩ => rfl
  | ⟨1, _⟩ => show 0 + 1 * p.val = p.val; omega
  | ⟨2, _⟩ => show 0 + 1 * d.val = d.val; omega
theorem slab5_2_apply (x0 : Vec Ideal S3x5000x64 .f32) (p : Fin 5000) (d : Fin 64) :
    View.ld x0 slab5_2 (ix3 (0 : Fin 1) p d) = x0 (ix3 (2 : Fin 3) p d) := by
  show x0 _ = x0 _
  refine congrArg x0 (funext fun a => Fin.ext ?_)
  match a with
  | ⟨0, _⟩ => rfl
  | ⟨1, _⟩ => show 0 + 1 * p.val = p.val; omega
  | ⟨2, _⟩ => show 0 + 1 * d.val = d.val; omega

/-- Column r of the degree block, loaded as [5000,1], reads at (p, 0) the block at (p, r). -/
theorem col5_0_apply (x1 : Vec Ideal S5000x3 .f32) (p : Fin 5000) :
    View.ld x1 col5_0 (ix2 p (0 : Fin 1)) = x1 (ix2 p (0 : Fin 3)) := by
  show x1 _ = x1 _
  refine congrArg x1 (funext fun a => Fin.ext ?_)
  match a with
  | ⟨0, _⟩ => show 0 + 1 * p.val = p.val; omega
  | ⟨1, _⟩ => rfl
theorem col5_1_apply (x1 : Vec Ideal S5000x3 .f32) (p : Fin 5000) :
    View.ld x1 col5_1 (ix2 p (0 : Fin 1)) = x1 (ix2 p (1 : Fin 3)) := by
  show x1 _ = x1 _
  refine congrArg x1 (funext fun a => Fin.ext ?_)
  match a with
  | ⟨0, _⟩ => show 0 + 1 * p.val = p.val; omega
  | ⟨1, _⟩ => rfl
theorem col5_2_apply (x1 : Vec Ideal S5000x3 .f32) (p : Fin 5000) :
    View.ld x1 col5_2 (ix2 p (0 : Fin 1)) = x1 (ix2 p (2 : Fin 3)) := by
  show x1 _ = x1 _
  refine congrArg x1 (funext fun a => Fin.ext ?_)
  match a with
  | ⟨0, _⟩ => show 0 + 1 * p.val = p.val; omega
  | ⟨1, _⟩ => rfl

/-- Row r of the bias table, loaded as [1,64], reads at (0, d) the table at (r, d). -/
theorem row5_0_apply (x2 : Vec Ideal S3x64 .f32) (d : Fin 64) :
    View.ld x2 row5_0 (ix2 (0 : Fin 1) d) = x2 (ix2 (0 : Fin 3) d) := by
  show x2 _ = x2 _
  refine congrArg x2 (funext fun a => Fin.ext ?_)
  match a with
  | ⟨0, _⟩ => rfl
  | ⟨1, _⟩ => show 0 + 1 * d.val = d.val; omega
theorem row5_1_apply (x2 : Vec Ideal S3x64 .f32) (d : Fin 64) :
    View.ld x2 row5_1 (ix2 (0 : Fin 1) d) = x2 (ix2 (1 : Fin 3) d) := by
  show x2 _ = x2 _
  refine congrArg x2 (funext fun a => Fin.ext ?_)
  match a with
  | ⟨0, _⟩ => rfl
  | ⟨1, _⟩ => show 0 + 1 * d.val = d.val; omega
theorem row5_2_apply (x2 : Vec Ideal S3x64 .f32) (d : Fin 64) :
    View.ld x2 row5_2 (ix2 (0 : Fin 1) d) = x2 (ix2 (2 : Fin 3) d) := by
  show x2 _ = x2 _
  refine congrArg x2 (funext fun a => Fin.ext ?_)
  match a with
  | ⟨0, _⟩ => rfl
  | ⟨1, _⟩ => show 0 + 1 * d.val = d.val; omega

/-- The stored value at (p, d): the running sum over the three relations of slab entry times degree factor plus bias,
    in the order the body accumulates it, then the maximum with zero. -/
theorem val5_apply (x0 : Vec Ideal S3x5000x64 .f32) (x1 : Vec Ideal S5000x3 .f32) (x2 : Vec Ideal S3x64 .f32) (p : Fin 5000) (d : Fin 64) :
    val5 x0 x1 x2 (ix2 p d)
      = max ((((((0 + x0 (ix3 0 p d) * x1 (ix2 p 0)) + x2 (ix2 0 d))
          + x0 (ix3 1 p d) * x1 (ix2 p 1)) + x2 (ix2 1 d))
          + x0 (ix3 2 p d) * x1 (ix2 p 2)) + x2 (ix2 2 d)) 0 := by
  unfold val5 k5_pay1 k5_pay2
  simp only [maximumf_apply, addf_apply, broadcast_apply]
  rw [prod64_apply, prod64_apply, prod64_apply, bias64_apply, bias64_apply, bias64_apply,
    slab5_0_apply, slab5_1_apply, slab5_2_apply, col5_0_apply, col5_1_apply, col5_2_apply,
    row5_0_apply, row5_1_apply, row5_2_apply]
  have hz : (FloatOps.ofBits (F := Ideal) .f32 0x00000000#32) = (0 : EReal) := Ideal.ofBits_zero_f32
  rw [hz]

/-! ## Pipeline 5: from the blocks to the array -/

/-- The index maps of pipeline 5, decided over its twenty points: the aggregate's block moves along the rows (axis 1),
    the degree block and the output block along the rows (axis 0), the bias table stays. -/
theorem idx_facts5 : ∀ t : Fin cfg5.N, win5_0.index t (0 : Fin 3) = 0 ∧ win5_0.index t (1 : Fin 3) = t.val ∧ win5_0.index t (2 : Fin 3) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The aggregate's block at point t is rows 5000 t … 5000 t + 4999 of each of the three slabs. -/
theorem iblk5_0_apply (c : Dev nD) (t : Fin cfg5.N) (r : Fin 3) (p : Fin 5000) (d : Fin 64) (n : Fin 100000)
    (hn : n.val = t.val * 5000 + p.val) :
    (iblk5 V c 0 t : Vec Ideal S3x5000x64 .f32) (ix3 r p d) = (V c main_v157 : Vec Ideal S3x100000x64 .f32) (ix3 r n d) := by
  obtain ⟨e0, e1, e2, -⟩ := idx_facts5 t
  show V c main_v157 (((cfg5.win 0).blk t).view.emb (ix3 r p d)) = _
  refine congrArg (V c main_v157) (funext fun a => Fin.ext ?_)
  match a with
  | ⟨0, _⟩ => show win5_0.index t (0 : Fin 3) * 3 + 1 * r.val = r.val; rw [e0]; omega
  | ⟨1, _⟩ => show win5_0.index t (1 : Fin 3) * 5000 + 1 * p.val = n.val; rw [e1, hn]; omega
  | ⟨2, _⟩ => show win5_0.index t (2 : Fin 3) * 64 + 1 * d.val = d.val; rw [e2]; omega

/-- The degree block at point t is rows 5000 t … 5000 t + 4999 of the degree table. -/
theorem iblk5_1_apply (c : Dev nD) (t : Fin cfg5.N) (p : Fin 5000) (r : Fin 3) (n : Fin 100000)
    (hn : n.val = t.val * 5000 + p.val) :
    (iblk5 V c 1 t : Vec Ideal S5000x3 .f32) (ix2 p r) = (V c main_v50 : Vec Ideal S100000x3 .f32) (ix2 n r) := by
  obtain ⟨-, -, -, e0, e1, -⟩ := idx_facts5 t
  show V c main_v50 (((cfg5.win 1).blk t).view.emb (ix2 p r)) = _
  refine congrArg (V c main_v50) (funext fun a => Fin.ext ?_)
  match a with
  | ⟨0, _⟩ => show win5_1.index t (0 : Fin 2) * 5000 + 1 * p.val = n.val; rw [e0, hn]; omega
  | ⟨1, _⟩ => show win5_1.index t (1 : Fin 2) * 3 + 1 * r.val = r.val; rw [e1]; omega

/-- The bias block at every point is the whole bias table. -/
theorem iblk5_2_apply (c : Dev nD) (t : Fin cfg5.N) (r : Fin 3) (d : Fin 64) :
    (iblk5 V c 2 t : Vec Ideal S3x64 .f32) (ix2 r d) = (V c main_arg8 : Vec Ideal S3x64 .f32) (ix2 r d) := by
  obtain ⟨-, -, -, -, -, e0, e1, -⟩ := idx_facts5 t
  show V c main_arg8 (((cfg5.win 2).blk t).view.emb (ix2 r d)) = _
  refine congrArg (V c main_arg8) (funext fun a => Fin.ext ?_)
  match a with
  | ⟨0, _⟩ => show win5_2.index t (0 : Fin 2) * 3 + 1 * r.val = r.val; rw [e0]; omega
  | ⟨1, _⟩ => show win5_2.index t (1 : Fin 2) * 64 + 1 * d.val = d.val; rw [e1]; omega

/-- The stored value of point T, from blocks that are the rows 5000 T … of the arrays, is the array function at those rows. -/
theorem block5_eq (a : Vec Ideal S3x100000x64 .f32) (ii : Vec Ideal S100000x3 .f32) (b : Vec Ideal S3x64 .f32)
    (x0 : Vec Ideal S3x5000x64 .f32) (x1 : Vec Ideal S5000x3 .f32) (x2 : Vec Ideal S3x64 .f32) (T : ℕ)
    (h0 : ∀ (r : Fin 3) (p : Fin 5000) (d : Fin 64) (n : Fin 100000), n.val = T * 5000 + p.val → x0 (ix3 r p d) = a (ix3 r n d))
    (h1 : ∀ (p : Fin 5000) (r : Fin 3) (n : Fin 100000), n.val = T * 5000 + p.val → x1 (ix2 p r) = ii (ix2 n r))
    (h2 : ∀ (r : Fin 3) (d : Fin 64), x2 (ix2 r d) = b (ix2 r d))
    (j : S5000x64.Idx) (i : S100000x64.Idx) (hi0 : (i 0).val = T * 5000 + (j 0).val) (hi1 : (i 1).val = (j 1).val) :
    val5 x0 x1 x2 j = Spec.postArr64 a ii b i := by
  obtain ⟨p, d, rfl⟩ : ∃ (p : Fin 5000) (d : Fin 64), j = ix2 p d := ⟨j 0, j 1, eq_ix2 j⟩
  obtain ⟨n, d', rfl⟩ : ∃ (n : Fin 100000) (d' : Fin 64), i = ix2 n d' := ⟨i 0, i 1, eq_ix2 i⟩
  obtain rfl : d' = d := Fin.ext hi1
  rw [val5_apply, h0 0 p _ n hi0, h0 1 p _ n hi0, h0 2 p _ n hi0, h1 p 0 n hi0, h1 p 1 n hi0, h1 p 2 n hi0, h2, h2, h2]
  rfl

/-- What point t writes back is block t of the array function of the arrays the region finds. -/
theorem flushed5_eq (c : Dev nD) (t : Fin cfg5.N) :
    (dat5 (F := Ideal) V c).flushed 3 t
      = ((cfg5.win 3).blk t).view.read (Elt Ideal) (Spec.postArr64 (V c main_v157) (V c main_v50) (V c main_arg8)) := by
  show (cfg5.win 3).cut (grid5.coords t) ((dat5 V c).after 3 t) = _
  rw [after5_3]
  unfold out5_3
  rw [View.canon_unit_zero zeros2]
  obtain ⟨-, -, -, -, -, -, -, e0, e1⟩ := idx_facts5 t
  funext j
  refine block5_eq (V c main_v157) (V c main_v50) (V c main_arg8) (iblk5 V c 0 t) (iblk5 V c 1 t) (iblk5 V c 2 t) t.val
    (fun r p d n hn => iblk5_0_apply V c t r p d n hn) (fun p r n hn => iblk5_1_apply V c t p r n hn)
    (fun r d => iblk5_2_apply V c t r d) j (((cfg5.win 3).blk t).view.emb j) ?_ ?_
  · show win5_3.index t (0 : Fin 2) * 5000 + 1 * (j 0).val = _; rw [e0]; omega
  · show win5_3.index t (1 : Fin 2) * 64 + 1 * (j 1).val = _; rw [e1]; omega

/-- An index of the output array is in point t's block iff each coordinate is in the block's range on its axis. -/
theorem mem_blk5 (t : Fin cfg5.N) (i : S100000x64.Idx) :
    i ∈ ((cfg5.win 3).blk t).view.set ↔ ∀ a : Fin 2, win5_3.index t a * S5000x64.size a ≤ (i a).val ∧ (i a).val < win5_3.index t a * S5000x64.size a + S5000x64.size a := by
  show i ∈ ((View.whole main_v158).slice (win5_3.rect t)).set ↔ _
  rw [View.set_slice_whole, Rect.mem_set_unit]
  exact Iff.rfl

/-- Row n of the output array is written back by point n / 5000. -/
theorem cover5 (i : S100000x64.Idx) : ∃ t : Fin cfg5.N, (cfg5.win 3).flush t = true ∧ i ∈ ((cfg5.win 3).blk t).view.set := by
  have hi0 : (i 0).val < 100000 := (i 0).isLt
  have hi1 : (i 1).val < 64 := (i 1).isLt
  have hN : cfg5.N = 20 := N_5
  let t : Fin cfg5.N := ⟨(i 0).val / 5000, by rw [hN]; omega⟩
  obtain ⟨-, -, -, -, -, -, -, e0, e1⟩ := idx_facts5 t
  have ht : t.val = (i 0).val / 5000 := rfl
  refine ⟨t, flush5_3 t, ?_⟩
  rw [mem_blk5]
  intro a
  match a with
  | ⟨0, _⟩ => show win5_3.index t (0 : Fin 2) * 5000 ≤ (i 0).val ∧ (i 0).val < win5_3.index t (0 : Fin 2) * 5000 + 5000; rw [e0, ht]; omega
  | ⟨1, _⟩ => show win5_3.index t (1 : Fin 2) * 64 ≤ (i 1).val ∧ (i 1).val < win5_3.index t (1 : Fin 2) * 64 + 64; rw [e1]; omega

/-- THE ARRAY pipeline 5 leaves: at (n, d) the running sum over the three relations of aggregate times destination-side
    degree factor plus bias, cut below at zero, of the arrays as the region finds them. -/
theorem post_value_5 (c : Dev nD) :
    (dat5 (F := Ideal) V c).arrAt 3 cfg5.N = Spec.postArr64 (V c main_v157) (V c main_v50) (V c main_arg8) :=
  (dat5 V c).arrAt_eq_of_cover 3 (Spec.postArr64 (V c main_v157) (V c main_v50) (V c main_arg8))
    (fun t _ => flushed5_eq V c t) cover5

end Cert.KernelIdeal.Hand

end
-- ==== Proof.KI.ValPost7.lean ====
import proofs.«408287_j3659312136510_1_alg».proof.Proof.Spec
import proofs.«408287_j3659312136510_1_alg».proof.Proof.KI.Reg7
import proofs.«408287_j3659312136510_1_alg».proof.Proof.KI.ValPost1
import Idealize.ShloMosaic.Lib.Pipeline.Value
import Idealize.ShloMosaic.Lib.ValueLayout
import Idealize.ShloMosaic.Lib.ValueIdx
import Idealize.ShloMosaic.PureOps.Ideal
import Idealize.ShloMosaic.PureOps.Ideal.Laws

/-! # Aggregation pipeline 7 on the extended reals: the array it leaves

Pipeline 7 reads, at each of twenty row tiles, a block of three slabs of aggregated messages, a block of
destination-side degree factors and the whole bias table, and writes one block of rows. This module reads the value
the body stores at an entry (p, d) of its block — the running sum over the three relations of slab entry times degree
factor plus bias, in the body's own order of accumulation (the last layer takes no maximum) —, shows that the block point t
writes back is rows 5000 t … 5000 t + 4999 of ONE function of the arrays the region finds (`Spec.postArr2`), that
row n is covered by point n / 5000, and so that the output array ends holding that function. The layout operations
read at an index are those of the module of pipeline 1. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-! ## Pipeline 7: the body's loads at an index -/

/-- Slab r of the aggregate block, loaded as [1,5000,2], reads at (0, p, d) the block at (r, p, d). -/
theorem slab7_0_apply (x0 : Vec Ideal S3x5000x2 .f32) (p : Fin 5000) (d : Fin 2) :
    View.ld x0 slab7_0 (ix3 (0 : Fin 1) p d) = x0 (ix3 (0 : Fin 3) p d) := by
  show x0 _ = x0 _
  refine congrArg x0 (funext fun a => Fin.ext ?_)
  match a with
  | ⟨0, _⟩ => rfl
  | ⟨1, _⟩ => show 0 + 1 * p.val = p.val; omega
  | ⟨2, _⟩ => show 0 + 1 * d.val = d.val; omega
theorem slab7_1_apply (x0 : Vec Ideal S3x5000x2 .f32) (p : Fin 5000) (d : Fin 2) :
    View.ld x0 slab7_1 (ix3 (0 : Fin 1) p d) = x0 (ix3 (1 : Fin 3) p d) := by
  show x0 _ = x0 _
  refine congrArg x0 (funext fun a => Fin.ext ?_)
  match a with
  | ⟨0, _⟩ => rfl
  | ⟨1, _⟩ => show 0 + 1 * p.val = p.val; omega
  | ⟨2, _⟩ => show 0 + 1 * d.val = d.val; omega
theorem slab7_2_apply (x0 : Vec Ideal S3x5000x2 .f32) (p : Fin 5000) (d : Fin 2) :
    View.ld x0 slab7_2 (ix3 (0 : Fin 1) p d) = x0 (ix3 (2 : Fin 3) p d) := by
  show x0 _ = x0 _
  refine congrArg x0 (funext fun a => Fin.ext ?_)
  match a with
  | ⟨0, _⟩ => rfl
  | ⟨1, _⟩ => show 0 + 1 * p.val = p.val; omega
  | ⟨2, _⟩ => show 0 + 1 * d.val = d.val; omega

/-- Column r of the degree block, loaded as [5000,1], reads at (p, 0) the block at (p, r). -/
theorem col7_0_apply (x1 : Vec Ideal S5000x3 .f32) (p : Fin 5000) :
    View.ld x1 col7_0 (ix2 p (0 : Fin 1)) = x1 (ix2 p (0 : Fin 3)) := by
  show x1 _ = x1 _
  refine congrArg x1 (funext fun a => Fin.ext ?_)
  match a with
  | ⟨0, _⟩ => show 0 + 1 * p.val = p.val; omega
  | ⟨1, _⟩ => rfl
theorem col7_1_apply (x1 : Vec Ideal S5000x3 .f32) (p : Fin 5000) :
    View.ld x1 col7_1 (ix2 p (0 : Fin 1)) = x1 (ix2 p (1 : Fin 3)) := by
  show x1 _ = x1 _
  refine congrArg x1 (funext fun a => Fin.ext ?_)
  match a with
  | ⟨0, _⟩ => show 0 + 1 * p.val = p.val; omega
  | ⟨1, _⟩ => rfl
theorem col7_2_apply (x1 : Vec Ideal S5000x3 .f32) (p : Fin 5000) :
    View.ld x1 col7_2 (ix2 p (0 : Fin 1)) = x1 (ix2 p (2 : Fin 3)) := by
  show x1 _ = x1 _
  refine congrArg x1 (funext fun a => Fin.ext ?_)
  match a with
  | ⟨0, _⟩ => show 0 + 1 * p.val = p.val; omega
  | ⟨1, _⟩ => rfl

/-- Row r of the bias table, loaded as [1,2], reads at (0, d) the table at (r, d). -/
theorem row7_0_apply (x2 : Vec Ideal S3x2 .f32) (d : Fin 2) :
    View.ld x2 row7_0 (ix2 (0 : Fin 1) d) = x2 (ix2 (0 : Fin 3) d) := by
  show x2 _ = x2 _
  refine congrArg x2 (funext fun a => Fin.ext ?_)
  match a with
  | ⟨0, _⟩ => rfl
  | ⟨1, _⟩ => show 0 + 1 * d.val = d.val; omega
theorem row7_1_apply (x2 : Vec Ideal S3x2 .f32) (d : Fin 2) :
    View.ld x2 row7_1 (ix2 (0 : Fin 1) d) = x2 (ix2 (1 : Fin 3) d) := by
  show x2 _ = x2 _
  refine congrArg x2 (funext fun a => Fin.ext ?_)
  match a with
  | ⟨0, _⟩ => rfl
  | ⟨1, _⟩ => show 0 + 1 * d.val = d.val; omega
theorem row7_2_apply (x2 : Vec Ideal S3x2 .f32) (d : Fin 2) :
    View.ld x2 row7_2 (ix2 (0 : Fin 1) d) = x2 (ix2 (2 : Fin 3) d) := by
  show x2 _ = x2 _
  refine congrArg x2 (funext fun a => Fin.ext ?_)
  match a with
  | ⟨0, _⟩ => rfl
  | ⟨1, _⟩ => show 0 + 1 * d.val = d.val; omega

/-- The stored value at (p, d): the running sum over the three relations of slab entry times degree factor plus bias,
    in the order the body accumulates it. -/
theorem val7_apply (x0 : Vec Ideal S3x5000x2 .f32) (x1 : Vec Ideal S5000x3 .f32) (x2 : Vec Ideal S3x2 .f32) (p : Fin 5000) (d : Fin 2) :
    val7 x0 x1 x2 (ix2 p d)
      = (((((0 + x0 (ix3 0 p d) * x1 (ix2 p 0)) + x2 (ix2 0 d))
          + x0 (ix3 1 p d) * x1 (ix2 p 1)) + x2 (ix2 1 d))
          + x0 (ix3 2 p d) * x1 (ix2 p 2)) + x2 (ix2 2 d) := by
  unfold val7 k7_pay1
  simp only [addf_apply, broadcast_apply]
  rw [prod2_apply, prod2_apply, prod2_apply, bias2_apply, bias2_apply, bias2_apply,
    slab7_0_apply, slab7_1_apply, slab7_2_apply, col7_0_apply, col7_1_apply, col7_2_apply,
    row7_0_apply, row7_1_apply, row7_2_apply]
  have hz : (FloatOps.ofBits (F := Ideal) .f32 0x00000000#32) = (0 : EReal) := Ideal.ofBits_zero_f32
  rw [hz]

/-! ## Pipeline 7: from the blocks to the array -/

/-- The index maps of pipeline 7, decided over its twenty points: the aggregate's block moves along the rows (axis 1),
    the degree block and the output block along the rows (axis 0), the bias table stays. -/
theorem idx_facts7 : ∀ t : Fin cfg7.N, win7_0.index t (0 : Fin 3) = 0 ∧ win7_0.index t (1 : Fin 3) = t.val ∧ win7_0.index t (2 : Fin 3) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- The aggregate's block at point t is rows 5000 t … 5000 t + 4999 of each of the three slabs. -/
theorem iblk7_0_apply (c : Dev nD) (t : Fin cfg7.N) (r : Fin 3) (p : Fin 5000) (d : Fin 2) (n : Fin 100000)
    (hn : n.val = t.val * 5000 + p.val) :
    (iblk7 V c 0 t : Vec Ideal S3x5000x2 .f32) (ix3 r p d) = (V c main_v193 : Vec Ideal S3x100000x2 .f32) (ix3 r n d) := by
  obtain ⟨e0, e1, e2, -⟩ := idx_facts7 t
  show V c main_v193 (((cfg7.win 0).blk t).view.emb (ix3 r p d)) = _
  refine congrArg (V c main_v193) (funext fun a => Fin.ext ?_)
  match a with
  | ⟨0, _⟩ => show win7_0.index t (0 : Fin 3) * 3 + 1 * r.val = r.val; rw [e0]; omega
  | ⟨1, _⟩ => show win7_0.index t (1 : Fin 3) * 5000 + 1 * p.val = n.val; rw [e1, hn]; omega
  | ⟨2, _⟩ => show win7_0.index t (2 : Fin 3) * 2 + 1 * d.val = d.val; rw [e2]; omega

/-- The degree block at point t is rows 5000 t … 5000 t + 4999 of the degree table. -/
theorem iblk7_1_apply (c : Dev nD) (t : Fin cfg7.N) (p : Fin 5000) (r : Fin 3) (n : Fin 100000)
    (hn : n.val = t.val * 5000 + p.val) :
    (iblk7 V c 1 t : Vec Ideal S5000x3 .f32) (ix2 p r) = (V c main_v50 : Vec Ideal S100000x3 .f32) (ix2 n r) := by
  obtain ⟨-, -, -, e0, e1, -⟩ := idx_facts7 t
  show V c main_v50 (((cfg7.win 1).blk t).view.emb (ix2 p r)) = _
  refine congrArg (V c main_v50) (funext fun a => Fin.ext ?_)
  match a with
  | ⟨0, _⟩ => show win7_1.index t (0 : Fin 2) * 5000 + 1 * p.val = n.val; rw [e0, hn]; omega
  | ⟨1, _⟩ => show win7_1.index t (1 : Fin 2) * 3 + 1 * r.val = r.val; rw [e1]; omega

/-- The bias block at every point is the whole bias table. -/
theorem iblk7_2_apply (c : Dev nD) (t : Fin cfg7.N) (r : Fin 3) (d : Fin 2) :
    (iblk7 V c 2 t : Vec Ideal S3x2 .f32) (ix2 r d) = (V c main_arg10 : Vec Ideal S3x2 .f32) (ix2 r d) := by
  obtain ⟨-, -, -, -, -, e0, e1, -⟩ := idx_facts7 t
  show V c main_arg10 (((cfg7.win 2).blk t).view.emb (ix2 r d)) = _
  refine congrArg (V c main_arg10) (funext fun a => Fin.ext ?_)
  match a with
  | ⟨0, _⟩ => show win7_2.index t (0 : Fin 2) * 3 + 1 * r.val = r.val; rw [e0]; omega
  | ⟨1, _⟩ => show win7_2.index t (1 : Fin 2) * 2 + 1 * d.val = d.val; rw [e1]; omega

/-- The stored value of point T, from blocks that are the rows 5000 T … of the arrays, is the array function at those rows. -/
theorem block7_eq (a : Vec Ideal S3x100000x2 .f32) (ii : Vec Ideal S100000x3 .f32) (b : Vec Ideal S3x2 .f32)
    (x0 : Vec Ideal S3x5000x2 .f32) (x1 : Vec Ideal S5000x3 .f32) (x2 : Vec Ideal S3x2 .f32) (T : ℕ)
    (h0 : ∀ (r : Fin 3) (p : Fin 5000) (d : Fin 2) (n : Fin 100000), n.val = T * 5000 + p.val → x0 (ix3 r p d) = a (ix3 r n d))
    (h1 : ∀ (p : Fin 5000) (r : Fin 3) (n : Fin 100000), n.val = T * 5000 + p.val → x1 (ix2 p r) = ii (ix2 n r))
    (h2 : ∀ (r : Fin 3) (d : Fin 2), x2 (ix2 r d) = b (ix2 r d))
    (j : S5000x2.Idx) (i : S100000x2.Idx) (hi0 : (i 0).val = T * 5000 + (j 0).val) (hi1 : (i 1).val = (j 1).val) :
    val7 x0 x1 x2 j = Spec.postArr2 a ii b i := by
  obtain ⟨p, d, rfl⟩ : ∃ (p : Fin 5000) (d : Fin 2), j = ix2 p d := ⟨j 0, j 1, eq_ix2 j⟩
  obtain ⟨n, d', rfl⟩ : ∃ (n : Fin 100000) (d' : Fin 2), i = ix2 n d' := ⟨i 0, i 1, eq_ix2 i⟩
  obtain rfl : d' = d := Fin.ext hi1
  rw [val7_apply, h0 0 p _ n hi0, h0 1 p _ n hi0, h0 2 p _ n hi0, h1 p 0 n hi0, h1 p 1 n hi0, h1 p 2 n hi0, h2, h2, h2]
  rfl

/-- What point t writes back is block t of the array function of the arrays the region finds. -/
theorem flushed7_eq (c : Dev nD) (t : Fin cfg7.N) :
    (dat7 (F := Ideal) V c).flushed 3 t
      = ((cfg7.win 3).blk t).view.read (Elt Ideal) (Spec.postArr2 (V c main_v193) (V c main_v50) (V c main_arg10)) := by
  show (cfg7.win 3).cut (grid7.coords t) ((dat7 V c).after 3 t) = _
  rw [after7_3]
  unfold out7_3
  rw [View.canon_unit_zero zeros2]
  obtain ⟨-, -, -, -, -, -, -, e0, e1⟩ := idx_facts7 t
  funext j
  refine block7_eq (V c main_v193) (V c main_v50) (V c main_arg10) (iblk7 V c 0 t) (iblk7 V c 1 t) (iblk7 V c 2 t) t.val
    (fun r p d n hn => iblk7_0_apply V c t r p d n hn) (fun p r n hn => iblk7_1_apply V c t p r n hn)
    (fun r d => iblk7_2_apply V c t r d) j (((cfg7.win 3).blk t).view.emb j) ?_ ?_
  · show win7_3.index t (0 : Fin 2) * 5000 + 1 * (j 0).val = _; rw [e0]; omega
  · show win7_3.index t (1 : Fin 2) * 2 + 1 * (j 1).val = _; rw [e1]; omega

/-- An index of the output array is in point t's block iff each coordinate is in the block's range on its axis. -/
theorem mem_blk7 (t : Fin cfg7.N) (i : S100000x2.Idx) :
    i ∈ ((cfg7.win 3).blk t).view.set ↔ ∀ a : Fin 2, win7_3.index t a * S5000x2.size a ≤ (i a).val ∧ (i a).val < win7_3.index t a * S5000x2.size a + S5000x2.size a := by
  show i ∈ ((View.whole main_v194).slice (win7_3.rect t)).set ↔ _
  rw [View.set_slice_whole, Rect.mem_set_unit]
  exact Iff.rfl

/-- Row n of the output array is written back by point n / 5000. -/
theorem cover7 (i : S100000x2.Idx) : ∃ t : Fin cfg7.N, (cfg7.win 3).flush t = true ∧ i ∈ ((cfg7.win 3).blk t).view.set := by
  have hi0 : (i 0).val < 100000 := (i 0).isLt
  have hi1 : (i 1).val < 2 := (i 1).isLt
  have hN : cfg7.N = 20 := N_7
  let t : Fin cfg7.N := ⟨(i 0).val / 5000, by rw [hN]; omega⟩
  obtain ⟨-, -, -, -, -, -, -, e0, e1⟩ := idx_facts7 t
  have ht : t.val = (i 0).val / 5000 := rfl
  refine ⟨t, flush7_3 t, ?_⟩
  rw [mem_blk7]
  intro a
  match a with
  | ⟨0, _⟩ => show win7_3.index t (0 : Fin 2) * 5000 ≤ (i 0).val ∧ (i 0).val < win7_3.index t (0 : Fin 2) * 5000 + 5000; rw [e0, ht]; omega
  | ⟨1, _⟩ => show win7_3.index t (1 : Fin 2) * 2 ≤ (i 1).val ∧ (i 1).val < win7_3.index t (1 : Fin 2) * 2 + 2; rw [e1]; omega

/-- THE ARRAY pipeline 7 leaves: at (n, d) the running sum over the three relations of aggregate times destination-side
    degree factor plus bias, of the arrays as the region finds them. -/
theorem post_value_7 (c : Dev nD) :
    (dat7 (F := Ideal) V c).arrAt 3 cfg7.N = Spec.postArr2 (V c main_v193) (V c main_v50) (V c main_arg10) :=
  (dat7 V c).arrAt_eq_of_cover 3 (Spec.postArr2 (V c main_v193) (V c main_v50) (V c main_arg10))
    (fun t _ => flushed7_eq V c t) cover7

end Cert.KernelIdeal.Hand

end
-- ==== Proof.KI.ValPost.lean ====
import proofs.«408287_j3659312136510_1_alg».proof.Proof.KI.ValPost1
import proofs.«408287_j3659312136510_1_alg».proof.Proof.KI.ValPost3
import proofs.«408287_j3659312136510_1_alg».proof.Proof.KI.ValPost5
import proofs.«408287_j3659312136510_1_alg».proof.Proof.KI.ValPost7

/-! # The four aggregation pipelines on the extended reals: the array each leaves

Pipelines 1, 3, 5 and 7 each leave, as one whole array, the running sum over the three relations of aggregate times
destination-side degree factor plus bias — cut below at zero in the hidden layers (1, 3, 5: `Spec.postArr64`), as it
is in the last (7: `Spec.postArr2`) — of the arrays their region finds: `post_value_1`, `post_value_3`,
`post_value_5`, `post_value_7`, one module each; this module gathers them. -/
-- ==== Proof.KI.LayerAlg.lean ====
/- Pure mathematics over the specification (extended reals), no program involved.
   (1) A pretransform array [3, N, D] whose table of source-side degree factors has column r equal to a vector s is, on
       relation r's slab, the transformed features P of s (`P64_of_table`, `P2_of_table`).
   (2) A postagg array over aggregates A and a table ii of destination-side degree factors is the layer, when column r of
       ii is the degree factor of the destination indices of relation r and slab r of A is the aggregate of relation r:
       the running sum ((((((0 + a0·s0) + b0) + a1·s1) + b1) + a2·s2) + b2) is (a0·s0 + b0) + (a1·s1 + b1) + (a2·s2 + b2)
       by zero_add and add_assoc in an additive monoid — no finiteness, nothing cancelled — under the maximum with zero for
       width 64 (`layer64_of_parts`) and bare for width 2 (`layer2_of_parts`). -/
import proofs.«408287_j3659312136510_1_alg».proof.Proof.Spec
import Idealize.ShloMosaic.PureOps.Ideal
import Idealize.ShloMosaic.Lib.ValueIdx
import Mathlib.Algebra.BigOperators.Group.Finset.Basic

noncomputable section

namespace Cert.KernelIdeal.Hand

open Idealize.ShloMosaic Idealize.ShloMosaic.ValueIdx Cert.KernelIdeal

variable [Facts]
open Facts₀ Facts

/-- Row `r` of a [3, E] index table as the [E, 1] column of start indices: `Spec.idx0`, `Spec.idx1`, `Spec.idx2`. -/
def idxr (r : Fin 3) (t : IVec S3x800000 32) : IVec S800000x1 32 :=
  match r with
  | ⟨0, _⟩ => Spec.idx0 t
  | ⟨1, _⟩ => Spec.idx1 t
  | ⟨2, _⟩ => Spec.idx2 t

theorem idxr_zero (t : IVec S3x800000 32) : idxr 0 t = Spec.idx0 t := rfl
theorem idxr_one (t : IVec S3x800000 32) : idxr 1 t = Spec.idx1 t := rfl
theorem idxr_two (t : IVec S3x800000 32) : idxr 2 t = Spec.idx2 t := rfl

/-! ## The pretransform array, slab by slab -/

/-- Slab `r` of the pretransform array is `P64` of the vector the table's column `r` is. -/
theorem P64_of_table (h : Vec Ideal S100000x64 .f32) (io : Vec Ideal S100000x3 .f32) (W : Vec Ideal S3x64x64 .f32)
    (s : Vec Ideal S100000 .f32) (r : Fin 3) (hio : ∀ n : Fin 100000, io (ix2 n r) = s (ix1 n)) :
    (fun i : S100000x64.Idx => Spec.preArr64 h io W (ix3 r (i 0) (i 1))) = Spec.P64 h s W r := by
  funext i
  simp only [Spec.preArr64, Spec.P64]
  refine Finset.sum_congr rfl fun k _ => ?_
  show (h (ix2 (i 0) k) * io (ix2 (i 0) r)) * W (ix3 r k (i 1)) = (h (ix2 (i 0) k) * s (ix1 (i 0))) * W (ix3 r k (i 1))
  rw [hio (i 0)]

/-- The same at width 2. -/
theorem P2_of_table (h : Vec Ideal S100000x64 .f32) (io : Vec Ideal S100000x3 .f32) (W : Vec Ideal S3x64x2 .f32)
    (s : Vec Ideal S100000 .f32) (r : Fin 3) (hio : ∀ n : Fin 100000, io (ix2 n r) = s (ix1 n)) :
    (fun i : S100000x2.Idx => Spec.preArr2 h io W (ix3 r (i 0) (i 1))) = Spec.P2 h s W r := by
  funext i
  simp only [Spec.preArr2, Spec.P2]
  refine Finset.sum_congr rfl fun k _ => ?_
  show (h (ix2 (i 0) k) * io (ix2 (i 0) r)) * W (ix3 r k (i 1)) = (h (ix2 (i 0) k) * s (ix1 (i 0))) * W (ix3 r k (i 1))
  rw [hio (i 0)]

/-! ## The running sum is the sum of the three terms -/

/-- In an additive monoid: the sum accumulated from zero, term by term, is the sum of the three bracketed terms. -/
theorem running_sum_eq {M : Type*} [AddMonoid M] (p0 b0 p1 b1 p2 b2 : M) :
    ((((((0 + p0) + b0) + p1) + b1) + p2) + b2) = (p0 + b0) + (p1 + b1) + (p2 + b2) := by
  simp only [zero_add, add_assoc]

/-! ## The postagg array is the layer -/

/-- Width 64: the maximum with zero of the running sum over the three relations is the hidden layer. -/
theorem layer64_of_parts (h : Vec Ideal S100000x64 .f32) (src dst : IVec S3x800000 32) (W : Vec Ideal S3x64x64 .f32)
    (b : Vec Ideal S3x64 .f32) (A : Vec Ideal S3x100000x64 .f32) (ii : Vec Ideal S100000x3 .f32)
    (hii : ∀ (n : Fin 100000) (r : Fin 3), ii (ix2 n r) = Spec.deg (idxr r dst) (ix1 n))
    (hA : ∀ (r : Fin 3) (n : Fin 100000) (d : Fin 64),
      A (ix3 r n d) = Spec.agg64 (Spec.P64 h (Spec.deg (idxr r src)) W r) (idxr r src) (idxr r dst) (ix2 n d)) :
    Spec.postArr64 A ii b = Spec.layer64 h src dst W b := by
  funext i
  have e0 : A (ix3 0 (i 0) (i 1)) = Spec.agg64 (Spec.P64 h (Spec.deg (Spec.idx0 src)) W 0) (Spec.idx0 src) (Spec.idx0 dst) i :=
    (hA 0 (i 0) (i 1)).trans (congrArg (Spec.agg64 _ _ _) (eq_ix2 i).symm)
  have e1 : A (ix3 1 (i 0) (i 1)) = Spec.agg64 (Spec.P64 h (Spec.deg (Spec.idx1 src)) W 1) (Spec.idx1 src) (Spec.idx1 dst) i :=
    (hA 1 (i 0) (i 1)).trans (congrArg (Spec.agg64 _ _ _) (eq_ix2 i).symm)
  have e2 : A (ix3 2 (i 0) (i 1)) = Spec.agg64 (Spec.P64 h (Spec.deg (Spec.idx2 src)) W 2) (Spec.idx2 src) (Spec.idx2 dst) i :=
    (hA 2 (i 0) (i 1)).trans (congrArg (Spec.agg64 _ _ _) (eq_ix2 i).symm)
  have s0 : ii (ix2 (i 0) 0) = Spec.deg (Spec.idx0 dst) (ix1 (i 0)) := hii (i 0) 0
  have s1 : ii (ix2 (i 0) 1) = Spec.deg (Spec.idx1 dst) (ix1 (i 0)) := hii (i 0) 1
  have s2 : ii (ix2 (i 0) 2) = Spec.deg (Spec.idx2 dst) (ix1 (i 0)) := hii (i 0) 2
  simp only [Spec.postArr64, Spec.layer64, Spec.term64]
  rw [e0, e1, e2, s0, s1, s2, running_sum_eq]

/-- Width 2: the running sum itself is the output layer. -/
theorem layer2_of_parts (h : Vec Ideal S100000x64 .f32) (src dst : IVec S3x800000 32) (W : Vec Ideal S3x64x2 .f32)
    (b : Vec Ideal S3x2 .f32) (A : Vec Ideal S3x100000x2 .f32) (ii : Vec Ideal S100000x3 .f32)
    (hii : ∀ (n : Fin 100000) (r : Fin 3), ii (ix2 n r) = Spec.deg (idxr r dst) (ix1 n))
    (hA : ∀ (r : Fin 3) (n : Fin 100000) (d : Fin 2),
      A (ix3 r n d) = Spec.agg2 (Spec.P2 h (Spec.deg (idxr r src)) W r) (idxr r src) (idxr r dst) (ix2 n d)) :
    Spec.postArr2 A ii b = Spec.layer2 h src dst W b := by
  funext i
  have e0 : A (ix3 0 (i 0) (i 1)) = Spec.agg2 (Spec.P2 h (Spec.deg (Spec.idx0 src)) W 0) (Spec.idx0 src) (Spec.idx0 dst) i :=
    (hA 0 (i 0) (i 1)).trans (congrArg (Spec.agg2 _ _ _) (eq_ix2 i).symm)
  have e1 : A (ix3 1 (i 0) (i 1)) = Spec.agg2 (Spec.P2 h (Spec.deg (Spec.idx1 src)) W 1) (Spec.idx1 src) (Spec.idx1 dst) i :=
    (hA 1 (i 0) (i 1)).trans (congrArg (Spec.agg2 _ _ _) (eq_ix2 i).symm)
  have e2 : A (ix3 2 (i 0) (i 1)) = Spec.agg2 (Spec.P2 h (Spec.deg (Spec.idx2 src)) W 2) (Spec.idx2 src) (Spec.idx2 dst) i :=
    (hA 2 (i 0) (i 1)).trans (congrArg (Spec.agg2 _ _ _) (eq_ix2 i).symm)
  have s0 : ii (ix2 (i 0) 0) = Spec.deg (Spec.idx0 dst) (ix1 (i 0)) := hii (i 0) 0
  have s1 : ii (ix2 (i 0) 1) = Spec.deg (Spec.idx1 dst) (ix1 (i 0)) := hii (i 0) 1
  have s2 : ii (ix2 (i 0) 2) = Spec.deg (Spec.idx2 dst) (ix1 (i 0)) := hii (i 0) 2
  simp only [Spec.postArr2, Spec.layer2, Spec.term2]
  rw [e0, e1, e2, s0, s1, s2, running_sum_eq]

end Cert.KernelIdeal.Hand

end
-- ==== Proof.LibNary3.lean ====
/-
  A result lemma for an operation over a literal family of THREE references.

  An operation built over a family of operand references leaves, at its result reference, its function applied to the
  family of the operands' contents. Stated with the family under a binder, the operands' own references are no longer
  literal, and nothing further can be said of their contents by rewriting. For a literal family of three references the
  same result is stated here with each operand's contents at its own reference, so that the contents can be rewritten in
  turn. (The library states this for four references; this is the same statement for three.)
-/
import Idealize.ShloMosaic.Lib.StableHlo.Run

noncomputable section

namespace Cert.Lib

open Idealize.ShloMosaic Idealize.ShloMosaic.StableHlo Idealize.SL.Sem

variable {τ : Topo} {sig : RefSig} {Val : EltTy → Type}
variable {x a b y : Ref sig .tc}

/-- An operation over the literal family of three references `![x, a, b]`: at its result reference it leaves its
    function applied to the three operands' contents, each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.Lib

end
-- ==== Proof.LibConcat.lean ====
/-
  A concatenation of three pieces of one shape, each of extent one along the concatenated axis, read at an index.

  The library reads a concatenation of N pieces of one shape and unit extent, given as a list built from a function of
  the piece number, at an index: the piece the axis coordinate names, at the index with the same other coordinates.
  A printed concatenation lists its pieces one by one; for three pieces the two lists are the same list, and the
  statement below is the library's for a list written out. It holds at any rank and along any axis.
-/
import Idealize.ShloMosaic.Lib.Pipeline.Value

noncomputable section

namespace Cert.Lib

open Idealize.ShloMosaic

variable {α : Type}

/-- A concatenation of three pieces `x₀, x₁, x₂` of one shape `s₁` whose extent along the axis `a` is one, read at an
    index `j`: piece `n`, where `n` is `j`'s coordinate on `a`, at the index `i` that has `j`'s coordinates on every
    other axis (and, having extent one there, 0 on `a`). -/
theorem concatenate3_unit_apply {t s₁ : Shape} (a : Fin t.rank) (x₀ x₁ x₂ : s₁.Idx → α)
    (h : Shape.Concatenates (([⟨s₁, x₀⟩, ⟨s₁, x₁⟩, ⟨s₁, x₂⟩] : List ((s : Shape) × (s.Idx → α))).map (·.1)) t a)
    (hr : s₁.rank = t.rank) (h1 : s₁.size (a.cast hr.symm) = 1) (j : t.Idx) (n : Fin 3) (hn : (j a).val = n.val)
    (i : s₁.Idx) (hi : ∀ b : Fin s₁.rank, b.cast hr ≠ a → (i b).val = (j (b.cast hr)).val) :
    concatenate t a [⟨s₁, x₀⟩, ⟨s₁, x₁⟩, ⟨s₁, x₂⟩] h j = (![x₀, x₁, x₂] : Fin 3 → s₁.Idx → α) n i :=
  concatenate_ofFn_unit_apply a (![x₀, x₁, x₂] : Fin 3 → s₁.Idx → α) h hr h1 j n hn i hi

end Cert.Lib

end
-- ==== Proof.KI.DegTables.lean ====
/-
  The two tables of degree factors the kernel regions read, as the specification's degree factors.

  Before the first kernel region @main computes, on the host, for each of the three relations r and for both index
  tables, the vector  (max 1 (number of occurrences of each node in row r))^(-1/2)  — ones added up at the row's indices
  from zero, clamped below by one, the inverse square root taken —, and lays the three vectors of a table side by side as
  the three columns of an [N, 3] array. Read at (n, r), that array is the degree factor of row r of the table at node n.

  The host operations are opened ONE STRETCH AT A TIME, each from arbitrary earlier contents, so that no statement
  unfolds more than one stretch; what a later stretch reads of an earlier one is carried across the stretches between
  by the fact that they do not write it.
-/
import proofs.«408287_j3659312136510_1_alg».proof.Proof.Spec
import proofs.«408287_j3659312136510_1_alg».proof.Proof.KernelIdealRegions
import proofs.«408287_j3659312136510_1_alg».proof.Proof.KI.LayerAlg
import proofs.«408287_j3659312136510_1_alg».proof.Proof.LibNary3
import proofs.«408287_j3659312136510_1_alg».proof.Proof.LibConcat
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

/-- The results of a literal list of operations, one rewrite per operation and reference: the library's loop, with the
    result lemma for a literal family of three operand references beside the one for four. -/
macro "after_results3" : tactic =>
  `(tactic| (simp only [StableHlo.after_cons, StableHlo.after_nil]
             repeat (first
               | rw [StableHlo.nullary_result] | rw [StableHlo.unary_result] | rw [StableHlo.binary_result] | rw [StableHlo.ternary_result] | rw [StableHlo.quaternary_result]
               | rw [StableHlo.reshape_result] | rw [StableHlo.binaryIndexed_result] | rw [StableHlo.nary4_result] | rw [Cert.Lib.nary3_result] | rw [StableHlo.nary_result] | rw [StableHlo.unaryIndexed_result]
               | (rw [StableHlo.nullary_result_ne]; rotate_left; decide)
               | (rw [StableHlo.unary_result_ne]; rotate_left; decide)
               | (rw [StableHlo.binary_result_ne]; rotate_left; decide)
               | (rw [StableHlo.ternary_result_ne]; rotate_left; decide)
               | (rw [StableHlo.quaternary_result_ne]; rotate_left; decide)
               | (rw [StableHlo.reshape_result_ne]; rotate_left; decide)
               | (rw [StableHlo.binaryIndexed_result_ne]; rotate_left; decide)
               | (rw [StableHlo.nary_result_ne]; rotate_left; decide)
               | (rw [StableHlo.unaryIndexed_result_ne]; rotate_left; decide))))

/-! ## One stretch at a time, from any contents

Each statement says what one stretch of host operations leaves in one of its results, as the operations' functions of
what the buffers held BEFORE the stretch (an arbitrary valuation `V`): nothing earlier is opened. -/

section Stretches

variable (V : Valuation τ sig (Elt Ideal))

/-- The vector of ones the counts add up. -/
theorem after_hostOps0_main_v0 :
    @Eq (Vec Ideal S800000 .f32) (StableHlo.after Gen.hostOps0 V main_v0) (broadcastInDim S800000 ![] bcast_S_S800000 (constant (F := Ideal) S_ .f32 0x3F800000#32)) := by
  dsimp only [Gen.hostOps0]
  after_results
  try simp only [TRef.ofBuf, TRef.toBuf, cast_eq]
  try rfl

/-- The count of each node among row 0 of `main_arg1`: ones added up at the row's indices, from zero. -/
theorem after_hostOps0_main_v5 :
    @Eq (Vec Ideal S100000 .f32) (StableHlo.after Gen.hostOps0 V main_v5)
      (Host.scatterAdd scatter_S100000_S800000x1_S800000_n_0_0_1 (broadcastInDim S100000 ![] bcast_S_S100000 (constant (F := Ideal) S_ .f32 0x00000000#32))
        (Spec.idx0 (V main_arg1 : IVec S3x800000 32)) (broadcastInDim S800000 ![] bcast_S_S800000 (constant (F := Ideal) S_ .f32 0x3F800000#32))) := by
  dsimp only [Gen.hostOps0]
  after_results
  try simp only [TRef.ofBuf, TRef.toBuf, cast_eq]
  try rfl

/-- The bound the count is clamped below by: one. -/
theorem after_hostOps0_main_cst_1 :
    @Eq (Vec Ideal S_ .f32) (StableHlo.after Gen.hostOps0 V main_cst_1) (constant (F := Ideal) S_ .f32 0x3F800000#32) := by
  dsimp only [Gen.hostOps0]
  after_results
  try simp only [TRef.ofBuf, TRef.toBuf, cast_eq]
  try rfl

/-- The clamp: the maximum of the broadcast bound and the count. -/
theorem after_hostOps0_1_main_v6 :
    @Eq (Vec Ideal S100000 .f32) (StableHlo.after Gen.hostOps0_1 V main_v6)
      (maximumf (F := Ideal) (φ := .f32) (broadcastInDim S100000 ![] bcast_S_S100000 (id (V main_cst_1 : Vec Ideal S_ .f32)))
        (V main_v5 : Vec Ideal S100000 .f32)) := by
  dsimp only [Gen.hostOps0_1]
  after_results
  try simp only [TRef.ofBuf, TRef.toBuf, cast_eq]
  try rfl

/-- The inverse square root of the clamped count. -/
theorem after_hostOps0_4_main_v13 :
    @Eq (Vec Ideal S100000 .f32) (StableHlo.after Gen.hostOps0_4 V main_v13) (Host.rsqrt (F := Ideal) (φ := .f32) (V main_v6 : Vec Ideal S100000 .f32)) := by
  dsimp only [Gen.hostOps0_4]
  after_results
  try simp only [TRef.ofBuf, TRef.toBuf, cast_eq]
  try rfl

/-- The count of each node among row 0 of `main_arg2`: ones added up at the row's indices, from zero. -/
theorem after_hostOps0_2_main_v11 :
    @Eq (Vec Ideal S100000 .f32) (StableHlo.after Gen.hostOps0_2 V main_v11)
      (Host.scatterAdd scatter_S100000_S800000x1_S800000_n_0_0_1 (broadcastInDim S100000 ![] bcast_S_S100000 (constant (F := Ideal) S_ .f32 0x00000000#32))
        (Spec.idx0 (V main_arg2 : IVec S3x800000 32)) (V main_v0 : Vec Ideal S800000 .f32)) := by
  dsimp only [Gen.hostOps0_2]
  after_results
  try simp only [TRef.ofBuf, TRef.toBuf, cast_eq]
  try rfl

/-- The bound the count is clamped below by: one. -/
theorem after_hostOps0_2_main_cst_3 :
    @Eq (Vec Ideal S_ .f32) (StableHlo.after Gen.hostOps0_2 V main_cst_3) (constant (F := Ideal) S_ .f32 0x3F800000#32) := by
  dsimp only [Gen.hostOps0_2]
  after_results
  try simp only [TRef.ofBuf, TRef.toBuf, cast_eq]
  try rfl

/-- The clamp: the maximum of the broadcast bound and the count. -/
theorem after_hostOps0_3_main_v12 :
    @Eq (Vec Ideal S100000 .f32) (StableHlo.after Gen.hostOps0_3 V main_v12)
      (maximumf (F := Ideal) (φ := .f32) (broadcastInDim S100000 ![] bcast_S_S100000 (id (V main_cst_3 : Vec Ideal S_ .f32)))
        (V main_v11 : Vec Ideal S100000 .f32)) := by
  dsimp only [Gen.hostOps0_3]
  after_results
  try simp only [TRef.ofBuf, TRef.toBuf, cast_eq]
  try rfl

/-- The inverse square root of the clamped count. -/
theorem after_hostOps0_4_main_v14 :
    @Eq (Vec Ideal S100000 .f32) (StableHlo.after Gen.hostOps0_4 V main_v14) (Host.rsqrt (F := Ideal) (φ := .f32) (V main_v12 : Vec Ideal S100000 .f32)) := by
  dsimp only [Gen.hostOps0_4]
  after_results
  try simp only [TRef.ofBuf, TRef.toBuf, cast_eq]
  try rfl

/-- The count of each node among row 1 of `main_arg1`: ones added up at the row's indices, from zero. -/
theorem after_hostOps0_4_main_v19 :
    @Eq (Vec Ideal S100000 .f32) (StableHlo.after Gen.hostOps0_4 V main_v19)
      (Host.scatterAdd scatter_S100000_S800000x1_S800000_n_0_0_1 (broadcastInDim S100000 ![] bcast_S_S100000 (constant (F := Ideal) S_ .f32 0x00000000#32))
        (Spec.idx1 (V main_arg1 : IVec S3x800000 32)) (V main_v0 : Vec Ideal S800000 .f32)) := by
  dsimp only [Gen.hostOps0_4]
  after_results
  try simp only [TRef.ofBuf, TRef.toBuf, cast_eq]
  try rfl

/-- The bound the count is clamped below by: one. -/
theorem after_hostOps0_4_main_cst_5 :
    @Eq (Vec Ideal S_ .f32) (StableHlo.after Gen.hostOps0_4 V main_cst_5) (constant (F := Ideal) S_ .f32 0x3F800000#32) := by
  dsimp only [Gen.hostOps0_4]
  after_results
  try simp only [TRef.ofBuf, TRef.toBuf, cast_eq]
  try rfl

/-- The clamp: the maximum of the broadcast bound and the count. -/
theorem after_hostOps0_5_main_v20 :
    @Eq (Vec Ideal S100000 .f32) (StableHlo.after Gen.hostOps0_5 V main_v20)
      (maximumf (F := Ideal) (φ := .f32) (broadcastInDim S100000 ![] bcast_S_S100000 (id (V main_cst_5 : Vec Ideal S_ .f32)))
        (V main_v19 : Vec Ideal S100000 .f32)) := by
  dsimp only [Gen.hostOps0_5]
  after_results
  try simp only [TRef.ofBuf, TRef.toBuf, cast_eq]
  try rfl

/-- The inverse square root of the clamped count. -/
theorem after_hostOps0_8_main_v27 :
    @Eq (Vec Ideal S100000 .f32) (StableHlo.after Gen.hostOps0_8 V main_v27) (Host.rsqrt (F := Ideal) (φ := .f32) (V main_v20 : Vec Ideal S100000 .f32)) := by
  dsimp only [Gen.hostOps0_8]
  after_results
  try simp only [TRef.ofBuf, TRef.toBuf, cast_eq]
  try rfl

/-- The count of each node among row 1 of `main_arg2`: ones added up at the row's indices, from zero. -/
theorem after_hostOps0_6_main_v25 :
    @Eq (Vec Ideal S100000 .f32) (StableHlo.after Gen.hostOps0_6 V main_v25)
      (Host.scatterAdd scatter_S100000_S800000x1_S800000_n_0_0_1 (broadcastInDim S100000 ![] bcast_S_S100000 (constant (F := Ideal) S_ .f32 0x00000000#32))
        (Spec.idx1 (V main_arg2 : IVec S3x800000 32)) (V main_v0 : Vec Ideal S800000 .f32)) := by
  dsimp only [Gen.hostOps0_6]
  after_results
  try simp only [TRef.ofBuf, TRef.toBuf, cast_eq]
  try rfl

/-- The bound the count is clamped below by: one. -/
theorem after_hostOps0_6_main_cst_7 :
    @Eq (Vec Ideal S_ .f32) (StableHlo.after Gen.hostOps0_6 V main_cst_7) (constant (F := Ideal) S_ .f32 0x3F800000#32) := by
  dsimp only [Gen.hostOps0_6]
  after_results
  try simp only [TRef.ofBuf, TRef.toBuf, cast_eq]
  try rfl

/-- The clamp: the maximum of the broadcast bound and the count. -/
theorem after_hostOps0_7_main_v26 :
    @Eq (Vec Ideal S100000 .f32) (StableHlo.after Gen.hostOps0_7 V main_v26)
      (maximumf (F := Ideal) (φ := .f32) (broadcastInDim S100000 ![] bcast_S_S100000 (id (V main_cst_7 : Vec Ideal S_ .f32)))
        (V main_v25 : Vec Ideal S100000 .f32)) := by
  dsimp only [Gen.hostOps0_7]
  after_results
  try simp only [TRef.ofBuf, TRef.toBuf, cast_eq]
  try rfl

/-- The inverse square root of the clamped count. -/
theorem after_hostOps0_8_main_v28 :
    @Eq (Vec Ideal S100000 .f32) (StableHlo.after Gen.hostOps0_8 V main_v28) (Host.rsqrt (F := Ideal) (φ := .f32) (V main_v26 : Vec Ideal S100000 .f32)) := by
  dsimp only [Gen.hostOps0_8]
  after_results
  try simp only [TRef.ofBuf, TRef.toBuf, cast_eq]
  try rfl

/-- The count of each node among row 2 of `main_arg1`: ones added up at the row's indices, from zero. -/
theorem after_hostOps0_8_main_v33 :
    @Eq (Vec Ideal S100000 .f32) (StableHlo.after Gen.hostOps0_8 V main_v33)
      (Host.scatterAdd scatter_S100000_S800000x1_S800000_n_0_0_1 (broadcastInDim S100000 ![] bcast_S_S100000 (constant (F := Ideal) S_ .f32 0x00000000#32))
        (Spec.idx2 (V main_arg1 : IVec S3x800000 32)) (V main_v0 : Vec Ideal S800000 .f32)) := by
  dsimp only [Gen.hostOps0_8]
  after_results
  try simp only [TRef.ofBuf, TRef.toBuf, cast_eq]
  try rfl

/-- The bound the count is clamped below by: one. -/
theorem after_hostOps0_8_main_cst_9 :
    @Eq (Vec Ideal S_ .f32) (StableHlo.after Gen.hostOps0_8 V main_cst_9) (constant (F := Ideal) S_ .f32 0x3F800000#32) := by
  dsimp only [Gen.hostOps0_8]
  after_results
  try simp only [TRef.ofBuf, TRef.toBuf, cast_eq]
  try rfl

/-- The clamp: the maximum of the broadcast bound and the count. -/
theorem after_hostOps0_9_main_v34 :
    @Eq (Vec Ideal S100000 .f32) (StableHlo.after Gen.hostOps0_9 V main_v34)
      (maximumf (F := Ideal) (φ := .f32) (broadcastInDim S100000 ![] bcast_S_S100000 (id (V main_cst_9 : Vec Ideal S_ .f32)))
        (V main_v33 : Vec Ideal S100000 .f32)) := by
  dsimp only [Gen.hostOps0_9]
  after_results
  try simp only [TRef.ofBuf, TRef.toBuf, cast_eq]
  try rfl

/-- The count of each node among row 2 of `main_arg2`: ones added up at the row's indices, from zero. -/
theorem after_hostOps0_10_main_v39 :
    @Eq (Vec Ideal S100000 .f32) (StableHlo.after Gen.hostOps0_10 V main_v39)
      (Host.scatterAdd scatter_S100000_S800000x1_S800000_n_0_0_1 (broadcastInDim S100000 ![] bcast_S_S100000 (constant (F := Ideal) S_ .f32 0x00000000#32))
        (Spec.idx2 (V main_arg2 : IVec S3x800000 32)) (V main_v0 : Vec Ideal S800000 .f32)) := by
  dsimp only [Gen.hostOps0_10]
  after_results
  try simp only [TRef.ofBuf, TRef.toBuf, cast_eq]
  try rfl

/-- The bound the count is clamped below by: one. -/
theorem after_hostOps0_10_main_cst_11 :
    @Eq (Vec Ideal S_ .f32) (StableHlo.after Gen.hostOps0_10 V main_cst_11) (constant (F := Ideal) S_ .f32 0x3F800000#32) := by
  dsimp only [Gen.hostOps0_10]
  after_results
  try simp only [TRef.ofBuf, TRef.toBuf, cast_eq]
  try rfl

/-- The clamp: the maximum of the broadcast bound and the count. -/
theorem after_hostOps0_11_main_v40 :
    @Eq (Vec Ideal S100000 .f32) (StableHlo.after Gen.hostOps0_11 V main_v40)
      (maximumf (F := Ideal) (φ := .f32) (broadcastInDim S100000 ![] bcast_S_S100000 (id (V main_cst_11 : Vec Ideal S_ .f32)))
        (V main_v39 : Vec Ideal S100000 .f32)) := by
  dsimp only [Gen.hostOps0_11]
  after_results
  try simp only [TRef.ofBuf, TRef.toBuf, cast_eq]
  try rfl

set_option maxHeartbeats 4000000 in
/-- The table of source-side factors: the three relations' vectors as the three columns of an [N, 3] array. -/
theorem after_hostOps0_12_main_v46 :
    @Eq (Vec Ideal S100000x3 .f32) (StableHlo.after Gen.hostOps0_12 V main_v46)
      (concatenate S100000x3 1
        [⟨S100000x1, broadcastInDim S100000x1 ![0] bcast_S100000_S100000x1_0 (V main_v13 : Vec Ideal S100000 .f32)⟩,
         ⟨S100000x1, broadcastInDim S100000x1 ![0] bcast_S100000_S100000x1_0 (V main_v27 : Vec Ideal S100000 .f32)⟩,
         ⟨S100000x1, broadcastInDim S100000x1 ![0] bcast_S100000_S100000x1_0 (Host.rsqrt (F := Ideal) (φ := .f32) (V main_v34 : Vec Ideal S100000 .f32) : Vec Ideal S100000 .f32)⟩]
        concatenates_S100000x1_S100000x1_S100000x1_S100000x3_d1) := by
  dsimp only [Gen.hostOps0_12]
  after_results3
  try simp only [TRef.ofBuf, TRef.toBuf, cast_eq]
  try rfl

set_option maxHeartbeats 4000000 in
/-- The table of destination-side factors, likewise. -/
theorem after_hostOps0_12_main_v50 :
    @Eq (Vec Ideal S100000x3 .f32) (StableHlo.after Gen.hostOps0_12 V main_v50)
      (concatenate S100000x3 1
        [⟨S100000x1, broadcastInDim S100000x1 ![0] bcast_S100000_S100000x1_0 (V main_v14 : Vec Ideal S100000 .f32)⟩,
         ⟨S100000x1, broadcastInDim S100000x1 ![0] bcast_S100000_S100000x1_0 (V main_v28 : Vec Ideal S100000 .f32)⟩,
         ⟨S100000x1, broadcastInDim S100000x1 ![0] bcast_S100000_S100000x1_0 (Host.rsqrt (F := Ideal) (φ := .f32) (V main_v40 : Vec Ideal S100000 .f32) : Vec Ideal S100000 .f32)⟩]
        concatenates_S100000x1_S100000x1_S100000x1_S100000x3_d1) := by
  dsimp only [Gen.hostOps0_12]
  after_results3
  try simp only [TRef.ofBuf, TRef.toBuf, cast_eq]
  try rfl

end Stretches

/-! ## The same, at the contents between @main's items -/

section Items

variable (m : (ℓ : Loc nD τ sig) → Buf (Elt Ideal) ℓ) (c : Dev nD)

/-- The clamped count of a column of indices: what the degree factor is the inverse square root of. -/
def clampedCount (i : IVec S800000x1 32) : Vec Ideal S100000 .f32 :=
  maximumf (F := Ideal) (φ := .f32) (broadcastInDim S100000 ![] bcast_S_S100000 (id (constant (F := Ideal) S_ .f32 0x3F800000#32)))
    (Host.scatterAdd scatter_S100000_S800000x1_S800000_n_0_0_1 (broadcastInDim S100000 ![] bcast_S_S100000 (constant (F := Ideal) S_ .f32 0x00000000#32)) i (broadcastInDim S800000 ![] bcast_S_S800000 (constant (F := Ideal) S_ .f32 0x3F800000#32)))

theorem deg_eq_rsqrt (i : IVec S800000x1 32) : Spec.deg i = Host.rsqrt (F := Ideal) (φ := .f32) (clampedCount i) := rfl

/-- No item writes the source table before the stretch that reads it. -/
theorem V0_main_arg1 : @Eq (IVec S3x800000 32) (Gen.V0 m c main_arg1) (m ((c : Thread nD τ).loc main_arg1)) := rfl
theorem V0_main_arg2 : @Eq (IVec S3x800000 32) (Gen.V0 m c main_arg2) (m ((c : Thread nD τ).loc main_arg2)) := rfl
theorem V4_main_arg1 : @Eq (IVec S3x800000 32) (Gen.V4 m c main_arg1) (m ((c : Thread nD τ).loc main_arg1)) :=
  (Gen.V4_of m c main_arg1 (by decide)).trans <| (Gen.V3_of m c main_arg1 (by decide)).trans <| (Gen.V2_of m c main_arg1 (by decide)).trans <| (Gen.V1_of m c main_arg1 (by decide))
theorem V8_main_arg1 : @Eq (IVec S3x800000 32) (Gen.V8 m c main_arg1) (m ((c : Thread nD τ).loc main_arg1)) :=
  (Gen.V8_of m c main_arg1 (by decide)).trans <| (Gen.V7_of m c main_arg1 (by decide)).trans <| (Gen.V6_of m c main_arg1 (by decide)).trans <| (Gen.V5_of m c main_arg1 (by decide)).trans <| (Gen.V4_of m c main_arg1 (by decide)).trans <| (Gen.V3_of m c main_arg1 (by decide)).trans <| (Gen.V2_of m c main_arg1 (by decide)).trans <| (Gen.V1_of m c main_arg1 (by decide))
theorem V2_main_arg2 : @Eq (IVec S3x800000 32) (Gen.V2 m c main_arg2) (m ((c : Thread nD τ).loc main_arg2)) :=
  (Gen.V2_of m c main_arg2 (by decide)).trans <| (Gen.V1_of m c main_arg2 (by decide))
theorem V6_main_arg2 : @Eq (IVec S3x800000 32) (Gen.V6 m c main_arg2) (m ((c : Thread nD τ).loc main_arg2)) :=
  (Gen.V6_of m c main_arg2 (by decide)).trans <| (Gen.V5_of m c main_arg2 (by decide)).trans <| (Gen.V4_of m c main_arg2 (by decide)).trans <| (Gen.V3_of m c main_arg2 (by decide)).trans <| (Gen.V2_of m c main_arg2 (by decide)).trans <| (Gen.V1_of m c main_arg2 (by decide))
theorem V10_main_arg2 : @Eq (IVec S3x800000 32) (Gen.V10 m c main_arg2) (m ((c : Thread nD τ).loc main_arg2)) :=
  (Gen.V10_of m c main_arg2 (by decide)).trans <| (Gen.V9_of m c main_arg2 (by decide)).trans <| (Gen.V8_of m c main_arg2 (by decide)).trans <| (Gen.V7_of m c main_arg2 (by decide)).trans <| (Gen.V6_of m c main_arg2 (by decide)).trans <| (Gen.V5_of m c main_arg2 (by decide)).trans <| (Gen.V4_of m c main_arg2 (by decide)).trans <| (Gen.V3_of m c main_arg2 (by decide)).trans <| (Gen.V2_of m c main_arg2 (by decide)).trans <| (Gen.V1_of m c main_arg2 (by decide))

/-- The vector of ones, written by the first stretch and by no later one. -/
theorem V1_main_v0 : @Eq (Vec Ideal S800000 .f32) (Gen.V1 m c main_v0) (broadcastInDim S800000 ![] bcast_S_S800000 (constant (F := Ideal) S_ .f32 0x3F800000#32)) :=
  after_hostOps0_main_v0 (Gen.V0 m c)
theorem V2_main_v0 : @Eq (Vec Ideal S800000 .f32) (Gen.V2 m c main_v0) (broadcastInDim S800000 ![] bcast_S_S800000 (constant (F := Ideal) S_ .f32 0x3F800000#32)) :=
  ((Gen.V2_of m c main_v0 (by decide))).trans (V1_main_v0 m c)
theorem V4_main_v0 : @Eq (Vec Ideal S800000 .f32) (Gen.V4 m c main_v0) (broadcastInDim S800000 ![] bcast_S_S800000 (constant (F := Ideal) S_ .f32 0x3F800000#32)) :=
  ((Gen.V4_of m c main_v0 (by decide)).trans <| (Gen.V3_of m c main_v0 (by decide)).trans <| (Gen.V2_of m c main_v0 (by decide))).trans (V1_main_v0 m c)
theorem V6_main_v0 : @Eq (Vec Ideal S800000 .f32) (Gen.V6 m c main_v0) (broadcastInDim S800000 ![] bcast_S_S800000 (constant (F := Ideal) S_ .f32 0x3F800000#32)) :=
  ((Gen.V6_of m c main_v0 (by decide)).trans <| (Gen.V5_of m c main_v0 (by decide)).trans <| (Gen.V4_of m c main_v0 (by decide)).trans <| (Gen.V3_of m c main_v0 (by decide)).trans <| (Gen.V2_of m c main_v0 (by decide))).trans (V1_main_v0 m c)
theorem V8_main_v0 : @Eq (Vec Ideal S800000 .f32) (Gen.V8 m c main_v0) (broadcastInDim S800000 ![] bcast_S_S800000 (constant (F := Ideal) S_ .f32 0x3F800000#32)) :=
  ((Gen.V8_of m c main_v0 (by decide)).trans <| (Gen.V7_of m c main_v0 (by decide)).trans <| (Gen.V6_of m c main_v0 (by decide)).trans <| (Gen.V5_of m c main_v0 (by decide)).trans <| (Gen.V4_of m c main_v0 (by decide)).trans <| (Gen.V3_of m c main_v0 (by decide)).trans <| (Gen.V2_of m c main_v0 (by decide))).trans (V1_main_v0 m c)
theorem V10_main_v0 : @Eq (Vec Ideal S800000 .f32) (Gen.V10 m c main_v0) (broadcastInDim S800000 ![] bcast_S_S800000 (constant (F := Ideal) S_ .f32 0x3F800000#32)) :=
  ((Gen.V10_of m c main_v0 (by decide)).trans <| (Gen.V9_of m c main_v0 (by decide)).trans <| (Gen.V8_of m c main_v0 (by decide)).trans <| (Gen.V7_of m c main_v0 (by decide)).trans <| (Gen.V6_of m c main_v0 (by decide)).trans <| (Gen.V5_of m c main_v0 (by decide)).trans <| (Gen.V4_of m c main_v0 (by decide)).trans <| (Gen.V3_of m c main_v0 (by decide)).trans <| (Gen.V2_of m c main_v0 (by decide))).trans (V1_main_v0 m c)

/-! ### Relation 0, `main_arg1` -/

theorem V1_main_v5 :
    @Eq (Vec Ideal S100000 .f32) (Gen.V1 m c main_v5)
      (Host.scatterAdd scatter_S100000_S800000x1_S800000_n_0_0_1 (broadcastInDim S100000 ![] bcast_S_S100000 (constant (F := Ideal) S_ .f32 0x00000000#32))
        (Spec.idx0 (m ((c : Thread nD τ).loc main_arg1))) (broadcastInDim S800000 ![] bcast_S_S800000 (constant (F := Ideal) S_ .f32 0x3F800000#32))) := by
  have h := after_hostOps0_main_v5 (Gen.V0 m c)
  rw [V0_main_arg1 m c] at h
  exact h

theorem V1_main_cst_1 : @Eq (Vec Ideal S_ .f32) (Gen.V1 m c main_cst_1) (constant (F := Ideal) S_ .f32 0x3F800000#32) :=
  after_hostOps0_main_cst_1 (Gen.V0 m c)

/-- The clamped count of row 0 of `main_arg1`. -/
theorem V2_main_v6 :
    @Eq (Vec Ideal S100000 .f32) (Gen.V2 m c main_v6) (clampedCount (Spec.idx0 (m ((c : Thread nD τ).loc main_arg1)))) := by
  have h := after_hostOps0_1_main_v6 (Gen.V1 m c)
  rw [V1_main_cst_1 m c, V1_main_v5 m c] at h
  exact h

/-- The degree factor of row 0 of `main_arg1`, as the last stretch finds it. -/
theorem V12_main_v13 :
    @Eq (Vec Ideal S100000 .f32) (Gen.V12 m c main_v13) (Spec.deg (Spec.idx0 (m ((c : Thread nD τ).loc main_arg1)))) := by
  have h0 : Gen.V12 m c main_v13 = Gen.V5 m c main_v13 := (Gen.V12_of m c main_v13 (by decide)).trans <| (Gen.V11_of m c main_v13 (by decide)).trans <| (Gen.V10_of m c main_v13 (by decide)).trans <| (Gen.V9_of m c main_v13 (by decide)).trans <| (Gen.V8_of m c main_v13 (by decide)).trans <| (Gen.V7_of m c main_v13 (by decide)).trans <| (Gen.V6_of m c main_v13 (by decide))
  have h1 := after_hostOps0_4_main_v13 (Gen.V4 m c)
  have h2 : @Eq (Vec Ideal S100000 .f32) (Gen.V4 m c main_v6) (clampedCount (Spec.idx0 (m ((c : Thread nD τ).loc main_arg1)))) :=
    ((Gen.V4_of m c main_v6 (by decide)).trans <| (Gen.V3_of m c main_v6 (by decide))).trans (V2_main_v6 m c)
  rw [h2] at h1
  rw [deg_eq_rsqrt]
  exact h0.trans h1

/-! ### Relation 0, `main_arg2` -/

theorem V3_main_v11 :
    @Eq (Vec Ideal S100000 .f32) (Gen.V3 m c main_v11)
      (Host.scatterAdd scatter_S100000_S800000x1_S800000_n_0_0_1 (broadcastInDim S100000 ![] bcast_S_S100000 (constant (F := Ideal) S_ .f32 0x00000000#32))
        (Spec.idx0 (m ((c : Thread nD τ).loc main_arg2))) (broadcastInDim S800000 ![] bcast_S_S800000 (constant (F := Ideal) S_ .f32 0x3F800000#32))) := by
  have h := after_hostOps0_2_main_v11 (Gen.V2 m c)
  rw [V2_main_arg2 m c, V2_main_v0 m c] at h
  exact h

theorem V3_main_cst_3 : @Eq (Vec Ideal S_ .f32) (Gen.V3 m c main_cst_3) (constant (F := Ideal) S_ .f32 0x3F800000#32) :=
  after_hostOps0_2_main_cst_3 (Gen.V2 m c)

/-- The clamped count of row 0 of `main_arg2`. -/
theorem V4_main_v12 :
    @Eq (Vec Ideal S100000 .f32) (Gen.V4 m c main_v12) (clampedCount (Spec.idx0 (m ((c : Thread nD τ).loc main_arg2)))) := by
  have h := after_hostOps0_3_main_v12 (Gen.V3 m c)
  rw [V3_main_cst_3 m c, V3_main_v11 m c] at h
  exact h

/-- The degree factor of row 0 of `main_arg2`, as the last stretch finds it. -/
theorem V12_main_v14 :
    @Eq (Vec Ideal S100000 .f32) (Gen.V12 m c main_v14) (Spec.deg (Spec.idx0 (m ((c : Thread nD τ).loc main_arg2)))) := by
  have h0 : Gen.V12 m c main_v14 = Gen.V5 m c main_v14 := (Gen.V12_of m c main_v14 (by decide)).trans <| (Gen.V11_of m c main_v14 (by decide)).trans <| (Gen.V10_of m c main_v14 (by decide)).trans <| (Gen.V9_of m c main_v14 (by decide)).trans <| (Gen.V8_of m c main_v14 (by decide)).trans <| (Gen.V7_of m c main_v14 (by decide)).trans <| (Gen.V6_of m c main_v14 (by decide))
  have h1 := after_hostOps0_4_main_v14 (Gen.V4 m c)
  have h2 : @Eq (Vec Ideal S100000 .f32) (Gen.V4 m c main_v12) (clampedCount (Spec.idx0 (m ((c : Thread nD τ).loc main_arg2)))) :=
    (V4_main_v12 m c)
  rw [h2] at h1
  rw [deg_eq_rsqrt]
  exact h0.trans h1

/-! ### Relation 1, `main_arg1` -/

theorem V5_main_v19 :
    @Eq (Vec Ideal S100000 .f32) (Gen.V5 m c main_v19)
      (Host.scatterAdd scatter_S100000_S800000x1_S800000_n_0_0_1 (broadcastInDim S100000 ![] bcast_S_S100000 (constant (F := Ideal) S_ .f32 0x00000000#32))
        (Spec.idx1 (m ((c : Thread nD τ).loc main_arg1))) (broadcastInDim S800000 ![] bcast_S_S800000 (constant (F := Ideal) S_ .f32 0x3F800000#32))) := by
  have h := after_hostOps0_4_main_v19 (Gen.V4 m c)
  rw [V4_main_arg1 m c, V4_main_v0 m c] at h
  exact h

theorem V5_main_cst_5 : @Eq (Vec Ideal S_ .f32) (Gen.V5 m c main_cst_5) (constant (F := Ideal) S_ .f32 0x3F800000#32) :=
  after_hostOps0_4_main_cst_5 (Gen.V4 m c)

/-- The clamped count of row 1 of `main_arg1`. -/
theorem V6_main_v20 :
    @Eq (Vec Ideal S100000 .f32) (Gen.V6 m c main_v20) (clampedCount (Spec.idx1 (m ((c : Thread nD τ).loc main_arg1)))) := by
  have h := after_hostOps0_5_main_v20 (Gen.V5 m c)
  rw [V5_main_cst_5 m c, V5_main_v19 m c] at h
  exact h

/-- The degree factor of row 1 of `main_arg1`, as the last stretch finds it. -/
theorem V12_main_v27 :
    @Eq (Vec Ideal S100000 .f32) (Gen.V12 m c main_v27) (Spec.deg (Spec.idx1 (m ((c : Thread nD τ).loc main_arg1)))) := by
  have h0 : Gen.V12 m c main_v27 = Gen.V9 m c main_v27 := (Gen.V12_of m c main_v27 (by decide)).trans <| (Gen.V11_of m c main_v27 (by decide)).trans <| (Gen.V10_of m c main_v27 (by decide))
  have h1 := after_hostOps0_8_main_v27 (Gen.V8 m c)
  have h2 : @Eq (Vec Ideal S100000 .f32) (Gen.V8 m c main_v20) (clampedCount (Spec.idx1 (m ((c : Thread nD τ).loc main_arg1)))) :=
    ((Gen.V8_of m c main_v20 (by decide)).trans <| (Gen.V7_of m c main_v20 (by decide))).trans (V6_main_v20 m c)
  rw [h2] at h1
  rw [deg_eq_rsqrt]
  exact h0.trans h1

/-! ### Relation 1, `main_arg2` -/

theorem V7_main_v25 :
    @Eq (Vec Ideal S100000 .f32) (Gen.V7 m c main_v25)
      (Host.scatterAdd scatter_S100000_S800000x1_S800000_n_0_0_1 (broadcastInDim S100000 ![] bcast_S_S100000 (constant (F := Ideal) S_ .f32 0x00000000#32))
        (Spec.idx1 (m ((c : Thread nD τ).loc main_arg2))) (broadcastInDim S800000 ![] bcast_S_S800000 (constant (F := Ideal) S_ .f32 0x3F800000#32))) := by
  have h := after_hostOps0_6_main_v25 (Gen.V6 m c)
  rw [V6_main_arg2 m c, V6_main_v0 m c] at h
  exact h

theorem V7_main_cst_7 : @Eq (Vec Ideal S_ .f32) (Gen.V7 m c main_cst_7) (constant (F := Ideal) S_ .f32 0x3F800000#32) :=
  after_hostOps0_6_main_cst_7 (Gen.V6 m c)

/-- The clamped count of row 1 of `main_arg2`. -/
theorem V8_main_v26 :
    @Eq (Vec Ideal S100000 .f32) (Gen.V8 m c main_v26) (clampedCount (Spec.idx1 (m ((c : Thread nD τ).loc main_arg2)))) := by
  have h := after_hostOps0_7_main_v26 (Gen.V7 m c)
  rw [V7_main_cst_7 m c, V7_main_v25 m c] at h
  exact h

/-- The degree factor of row 1 of `main_arg2`, as the last stretch finds it. -/
theorem V12_main_v28 :
    @Eq (Vec Ideal S100000 .f32) (Gen.V12 m c main_v28) (Spec.deg (Spec.idx1 (m ((c : Thread nD τ).loc main_arg2)))) := by
  have h0 : Gen.V12 m c main_v28 = Gen.V9 m c main_v28 := (Gen.V12_of m c main_v28 (by decide)).trans <| (Gen.V11_of m c main_v28 (by decide)).trans <| (Gen.V10_of m c main_v28 (by decide))
  have h1 := after_hostOps0_8_main_v28 (Gen.V8 m c)
  have h2 : @Eq (Vec Ideal S100000 .f32) (Gen.V8 m c main_v26) (clampedCount (Spec.idx1 (m ((c : Thread nD τ).loc main_arg2)))) :=
    (V8_main_v26 m c)
  rw [h2] at h1
  rw [deg_eq_rsqrt]
  exact h0.trans h1

/-! ### Relation 2, `main_arg1` -/

theorem V9_main_v33 :
    @Eq (Vec Ideal S100000 .f32) (Gen.V9 m c main_v33)
      (Host.scatterAdd scatter_S100000_S800000x1_S800000_n_0_0_1 (broadcastInDim S100000 ![] bcast_S_S100000 (constant (F := Ideal) S_ .f32 0x00000000#32))
        (Spec.idx2 (m ((c : Thread nD τ).loc main_arg1))) (broadcastInDim S800000 ![] bcast_S_S800000 (constant (F := Ideal) S_ .f32 0x3F800000#32))) := by
  have h := after_hostOps0_8_main_v33 (Gen.V8 m c)
  rw [V8_main_arg1 m c, V8_main_v0 m c] at h
  exact h

theorem V9_main_cst_9 : @Eq (Vec Ideal S_ .f32) (Gen.V9 m c main_cst_9) (constant (F := Ideal) S_ .f32 0x3F800000#32) :=
  after_hostOps0_8_main_cst_9 (Gen.V8 m c)

/-- The clamped count of row 2 of `main_arg1`. -/
theorem V10_main_v34 :
    @Eq (Vec Ideal S100000 .f32) (Gen.V10 m c main_v34) (clampedCount (Spec.idx2 (m ((c : Thread nD τ).loc main_arg1)))) := by
  have h := after_hostOps0_9_main_v34 (Gen.V9 m c)
  rw [V9_main_cst_9 m c, V9_main_v33 m c] at h
  exact h

/-- The degree factor of row 2 of `main_arg1`: the last stretch takes the inverse square root itself. -/
theorem rsqrt_V12_main_v34 :
    @Eq (Vec Ideal S100000 .f32) (Host.rsqrt (F := Ideal) (φ := .f32) (Gen.V12 m c main_v34 : Vec Ideal S100000 .f32))
      (Spec.deg (Spec.idx2 (m ((c : Thread nD τ).loc main_arg1)))) := by
  have h2 : @Eq (Vec Ideal S100000 .f32) (Gen.V12 m c main_v34) (clampedCount (Spec.idx2 (m ((c : Thread nD τ).loc main_arg1)))) :=
    ((Gen.V12_of m c main_v34 (by decide)).trans <| (Gen.V11_of m c main_v34 (by decide))).trans (V10_main_v34 m c)
  rw [h2, deg_eq_rsqrt]

/-! ### Relation 2, `main_arg2` -/

theorem V11_main_v39 :
    @Eq (Vec Ideal S100000 .f32) (Gen.V11 m c main_v39)
      (Host.scatterAdd scatter_S100000_S800000x1_S800000_n_0_0_1 (broadcastInDim S100000 ![] bcast_S_S100000 (constant (F := Ideal) S_ .f32 0x00000000#32))
        (Spec.idx2 (m ((c : Thread nD τ).loc main_arg2))) (broadcastInDim S800000 ![] bcast_S_S800000 (constant (F := Ideal) S_ .f32 0x3F800000#32))) := by
  have h := after_hostOps0_10_main_v39 (Gen.V10 m c)
  rw [V10_main_arg2 m c, V10_main_v0 m c] at h
  exact h

theorem V11_main_cst_11 : @Eq (Vec Ideal S_ .f32) (Gen.V11 m c main_cst_11) (constant (F := Ideal) S_ .f32 0x3F800000#32) :=
  after_hostOps0_10_main_cst_11 (Gen.V10 m c)

/-- The clamped count of row 2 of `main_arg2`. -/
theorem V12_main_v40 :
    @Eq (Vec Ideal S100000 .f32) (Gen.V12 m c main_v40) (clampedCount (Spec.idx2 (m ((c : Thread nD τ).loc main_arg2)))) := by
  have h := after_hostOps0_11_main_v40 (Gen.V11 m c)
  rw [V11_main_cst_11 m c, V11_main_v39 m c] at h
  exact h

/-- The degree factor of row 2 of `main_arg2`: the last stretch takes the inverse square root itself. -/
theorem rsqrt_V12_main_v40 :
    @Eq (Vec Ideal S100000 .f32) (Host.rsqrt (F := Ideal) (φ := .f32) (Gen.V12 m c main_v40 : Vec Ideal S100000 .f32))
      (Spec.deg (Spec.idx2 (m ((c : Thread nD τ).loc main_arg2)))) := by
  have h2 : @Eq (Vec Ideal S100000 .f32) (Gen.V12 m c main_v40) (clampedCount (Spec.idx2 (m ((c : Thread nD τ).loc main_arg2)))) :=
    (V12_main_v40 m c)
  rw [h2, deg_eq_rsqrt]

/-! ### The two tables -/

/-- The table of source-side factors when region 0 is entered: column r is the degree factor of row r of `main_arg1`. -/
theorem V13_main_v46 :
    @Eq (Vec Ideal S100000x3 .f32) (Gen.V13 m c main_v46)
      (concatenate S100000x3 1
        [⟨S100000x1, broadcastInDim S100000x1 ![0] bcast_S100000_S100000x1_0 (Spec.deg (Spec.idx0 (m ((c : Thread nD τ).loc main_arg1))))⟩,
         ⟨S100000x1, broadcastInDim S100000x1 ![0] bcast_S100000_S100000x1_0 (Spec.deg (Spec.idx1 (m ((c : Thread nD τ).loc main_arg1))))⟩,
         ⟨S100000x1, broadcastInDim S100000x1 ![0] bcast_S100000_S100000x1_0 (Spec.deg (Spec.idx2 (m ((c : Thread nD τ).loc main_arg1))))⟩]
        concatenates_S100000x1_S100000x1_S100000x1_S100000x3_d1) := by
  have h := after_hostOps0_12_main_v46 (Gen.V12 m c)
  rw [V12_main_v13 m c, V12_main_v27 m c, rsqrt_V12_main_v34 m c] at h
  exact h

/-- The table of destination-side factors, likewise over `main_arg2`. -/
theorem V13_main_v50 :
    @Eq (Vec Ideal S100000x3 .f32) (Gen.V13 m c main_v50)
      (concatenate S100000x3 1
        [⟨S100000x1, broadcastInDim S100000x1 ![0] bcast_S100000_S100000x1_0 (Spec.deg (Spec.idx0 (m ((c : Thread nD τ).loc main_arg2))))⟩,
         ⟨S100000x1, broadcastInDim S100000x1 ![0] bcast_S100000_S100000x1_0 (Spec.deg (Spec.idx1 (m ((c : Thread nD τ).loc main_arg2))))⟩,
         ⟨S100000x1, broadcastInDim S100000x1 ![0] bcast_S100000_S100000x1_0 (Spec.deg (Spec.idx2 (m ((c : Thread nD τ).loc main_arg2))))⟩]
        concatenates_S100000x1_S100000x1_S100000x1_S100000x3_d1) := by
  have h := after_hostOps0_12_main_v50 (Gen.V12 m c)
  rw [V12_main_v14 m c, V12_main_v28 m c, rsqrt_V12_main_v40 m c] at h
  exact h

end Items

/-! ## The tables read at an index -/

/-- A vector as an [N, 1] column reads, at (n, 0), the vector at n. -/
theorem column_apply (D : Vec Ideal S100000 .f32) (n : Fin 100000) :
    broadcastInDim S100000x1 ![0] bcast_S100000_S100000x1_0 D (ix2 n (0 : Fin 1)) = D (ix1 n) :=
  broadcastInDim_apply _ _ _ _ _ (fun a => by
    match a with
    | ⟨0, _⟩ => show n.val = if (100000 : Nat) = 1 then 0 else n.val; rw [if_neg (by decide)])

/-- An [N, 3] array made of three columns reads, at (n, 0), column 0 at n. -/
theorem table_apply_0 (D₀ D₁ D₂ : Vec Ideal S100000 .f32) (n : Fin 100000) :
    (concatenate S100000x3 1
        [⟨S100000x1, broadcastInDim S100000x1 ![0] bcast_S100000_S100000x1_0 D₀⟩, ⟨S100000x1, broadcastInDim S100000x1 ![0] bcast_S100000_S100000x1_0 D₁⟩, ⟨S100000x1, broadcastInDim S100000x1 ![0] bcast_S100000_S100000x1_0 D₂⟩]
        concatenates_S100000x1_S100000x1_S100000x1_S100000x3_d1) (ix2 n (0 : Fin 3)) = D₀ (ix1 n) := by
  have h := Cert.Lib.concatenate3_unit_apply (t := S100000x3) (s₁ := S100000x1) (1 : Fin 2)
      (broadcastInDim S100000x1 ![0] bcast_S100000_S100000x1_0 D₀) (broadcastInDim S100000x1 ![0] bcast_S100000_S100000x1_0 D₁)
      (broadcastInDim S100000x1 ![0] bcast_S100000_S100000x1_0 D₂)
      concatenates_S100000x1_S100000x1_S100000x1_S100000x3_d1 rfl rfl (ix2 n (0 : Fin 3)) (0 : Fin 3) rfl (ix2 n (0 : Fin 1))
      (fun b hb => by
      match b with
      | ⟨0, _⟩ => rfl
      | ⟨1, _⟩ => exact absurd rfl hb)
  exact h.trans (column_apply D₀ n)

/-- An [N, 3] array made of three columns reads, at (n, 1), column 1 at n. -/
theorem table_apply_1 (D₀ D₁ D₂ : Vec Ideal S100000 .f32) (n : Fin 100000) :
    (concatenate S100000x3 1
        [⟨S100000x1, broadcastInDim S100000x1 ![0] bcast_S100000_S100000x1_0 D₀⟩, ⟨S100000x1, broadcastInDim S100000x1 ![0] bcast_S100000_S100000x1_0 D₁⟩, ⟨S100000x1, broadcastInDim S100000x1 ![0] bcast_S100000_S100000x1_0 D₂⟩]
        concatenates_S100000x1_S100000x1_S100000x1_S100000x3_d1) (ix2 n (1 : Fin 3)) = D₁ (ix1 n) := by
  have h := Cert.Lib.concatenate3_unit_apply (t := S100000x3) (s₁ := S100000x1) (1 : Fin 2)
      (broadcastInDim S100000x1 ![0] bcast_S100000_S100000x1_0 D₀) (broadcastInDim S100000x1 ![0] bcast_S100000_S100000x1_0 D₁)
      (broadcastInDim S100000x1 ![0] bcast_S100000_S100000x1_0 D₂)
      concatenates_S100000x1_S100000x1_S100000x1_S100000x3_d1 rfl rfl (ix2 n (1 : Fin 3)) (1 : Fin 3) rfl (ix2 n (0 : Fin 1))
      (fun b hb => by
      match b with
      | ⟨0, _⟩ => rfl
      | ⟨1, _⟩ => exact absurd rfl hb)
  exact h.trans (column_apply D₁ n)

/-- An [N, 3] array made of three columns reads, at (n, 2), column 2 at n. -/
theorem table_apply_2 (D₀ D₁ D₂ : Vec Ideal S100000 .f32) (n : Fin 100000) :
    (concatenate S100000x3 1
        [⟨S100000x1, broadcastInDim S100000x1 ![0] bcast_S100000_S100000x1_0 D₀⟩, ⟨S100000x1, broadcastInDim S100000x1 ![0] bcast_S100000_S100000x1_0 D₁⟩, ⟨S100000x1, broadcastInDim S100000x1 ![0] bcast_S100000_S100000x1_0 D₂⟩]
        concatenates_S100000x1_S100000x1_S100000x1_S100000x3_d1) (ix2 n (2 : Fin 3)) = D₂ (ix1 n) := by
  have h := Cert.Lib.concatenate3_unit_apply (t := S100000x3) (s₁ := S100000x1) (1 : Fin 2)
      (broadcastInDim S100000x1 ![0] bcast_S100000_S100000x1_0 D₀) (broadcastInDim S100000x1 ![0] bcast_S100000_S100000x1_0 D₁)
      (broadcastInDim S100000x1 ![0] bcast_S100000_S100000x1_0 D₂)
      concatenates_S100000x1_S100000x1_S100000x1_S100000x3_d1 rfl rfl (ix2 n (2 : Fin 3)) (2 : Fin 3) rfl (ix2 n (0 : Fin 1))
      (fun b hb => by
      match b with
      | ⟨0, _⟩ => rfl
      | ⟨1, _⟩ => exact absurd rfl hb)
  exact h.trans (column_apply D₂ n)

section Apply

variable (m : (ℓ : Loc nD τ sig) → Buf (Elt Ideal) ℓ) (c : Dev nD) (n : Fin 100000)

theorem invdeg_out_apply_0 :
    (Gen.V13 m c main_v46 : Vec Ideal S100000x3 .f32) (ix2 n (0 : Fin 3)) = Spec.deg (Spec.idx0 (m ((c : Thread nD τ).loc main_arg1))) (ix1 n) := by
  have h := congrFun (V13_main_v46 m c) (ix2 n (0 : Fin 3))
  exact h.trans (table_apply_0 (Spec.deg (Spec.idx0 (m ((c : Thread nD τ).loc main_arg1)))) (Spec.deg (Spec.idx1 (m ((c : Thread nD τ).loc main_arg1)))) (Spec.deg (Spec.idx2 (m ((c : Thread nD τ).loc main_arg1)))) n)

theorem invdeg_out_apply_1 :
    (Gen.V13 m c main_v46 : Vec Ideal S100000x3 .f32) (ix2 n (1 : Fin 3)) = Spec.deg (Spec.idx1 (m ((c : Thread nD τ).loc main_arg1))) (ix1 n) := by
  have h := congrFun (V13_main_v46 m c) (ix2 n (1 : Fin 3))
  exact h.trans (table_apply_1 (Spec.deg (Spec.idx0 (m ((c : Thread nD τ).loc main_arg1)))) (Spec.deg (Spec.idx1 (m ((c : Thread nD τ).loc main_arg1)))) (Spec.deg (Spec.idx2 (m ((c : Thread nD τ).loc main_arg1)))) n)

theorem invdeg_out_apply_2 :
    (Gen.V13 m c main_v46 : Vec Ideal S100000x3 .f32) (ix2 n (2 : Fin 3)) = Spec.deg (Spec.idx2 (m ((c : Thread nD τ).loc main_arg1))) (ix1 n) := by
  have h := congrFun (V13_main_v46 m c) (ix2 n (2 : Fin 3))
  exact h.trans (table_apply_2 (Spec.deg (Spec.idx0 (m ((c : Thread nD τ).loc main_arg1)))) (Spec.deg (Spec.idx1 (m ((c : Thread nD τ).loc main_arg1)))) (Spec.deg (Spec.idx2 (m ((c : Thread nD τ).loc main_arg1)))) n)

theorem invdeg_in_apply_0 :
    (Gen.V13 m c main_v50 : Vec Ideal S100000x3 .f32) (ix2 n (0 : Fin 3)) = Spec.deg (Spec.idx0 (m ((c : Thread nD τ).loc main_arg2))) (ix1 n) := by
  have h := congrFun (V13_main_v50 m c) (ix2 n (0 : Fin 3))
  exact h.trans (table_apply_0 (Spec.deg (Spec.idx0 (m ((c : Thread nD τ).loc main_arg2)))) (Spec.deg (Spec.idx1 (m ((c : Thread nD τ).loc main_arg2)))) (Spec.deg (Spec.idx2 (m ((c : Thread nD τ).loc main_arg2)))) n)

theorem invdeg_in_apply_1 :
    (Gen.V13 m c main_v50 : Vec Ideal S100000x3 .f32) (ix2 n (1 : Fin 3)) = Spec.deg (Spec.idx1 (m ((c : Thread nD τ).loc main_arg2))) (ix1 n) := by
  have h := congrFun (V13_main_v50 m c) (ix2 n (1 : Fin 3))
  exact h.trans (table_apply_1 (Spec.deg (Spec.idx0 (m ((c : Thread nD τ).loc main_arg2)))) (Spec.deg (Spec.idx1 (m ((c : Thread nD τ).loc main_arg2)))) (Spec.deg (Spec.idx2 (m ((c : Thread nD τ).loc main_arg2)))) n)

theorem invdeg_in_apply_2 :
    (Gen.V13 m c main_v50 : Vec Ideal S100000x3 .f32) (ix2 n (2 : Fin 3)) = Spec.deg (Spec.idx2 (m ((c : Thread nD τ).loc main_arg2))) (ix1 n) := by
  have h := congrFun (V13_main_v50 m c) (ix2 n (2 : Fin 3))
  exact h.trans (table_apply_2 (Spec.deg (Spec.idx0 (m ((c : Thread nD τ).loc main_arg2)))) (Spec.deg (Spec.idx1 (m ((c : Thread nD τ).loc main_arg2)))) (Spec.deg (Spec.idx2 (m ((c : Thread nD τ).loc main_arg2)))) n)

/-- Column r of the table of source-side factors is the degree factor of row r of the source table. -/
theorem invdeg_out_apply (r : Fin 3) :
    (Gen.V13 m c main_v46 : Vec Ideal S100000x3 .f32) (ix2 n r) = Spec.deg (idxr r (m ((c : Thread nD τ).loc main_arg1))) (ix1 n) := by
  match r with
  | ⟨0, _⟩ => exact invdeg_out_apply_0 m c n
  | ⟨1, _⟩ => exact invdeg_out_apply_1 m c n
  | ⟨2, _⟩ => exact invdeg_out_apply_2 m c n

/-- Column r of the table of destination-side factors is the degree factor of row r of the destination table. -/
theorem invdeg_in_apply (r : Fin 3) :
    (Gen.V13 m c main_v50 : Vec Ideal S100000x3 .f32) (ix2 n r) = Spec.deg (idxr r (m ((c : Thread nD τ).loc main_arg2))) (ix1 n) := by
  match r with
  | ⟨0, _⟩ => exact invdeg_in_apply_0 m c n
  | ⟨1, _⟩ => exact invdeg_in_apply_1 m c n
  | ⟨2, _⟩ => exact invdeg_in_apply_2 m c n

end Apply

end Cert.KernelIdeal.Hand

end
-- ==== Proof.KI.Stack1.lean ====
/-
  The host operations between the pretransform kernel and the aggregation kernel, layers 1 and 2.

  Between the two kernels of a layer the host slices the pretransform's output [3, N, 64] into its three slabs, takes
  the rows of each slab at a row of the source index table, adds them up at the same row of the destination index
  table, and stacks the three results again as [3, N, 64]. This module reads that stack at an index (r, n, d), from
  ANY contents of the buffers at the first of these operations: it is the specification's aggregate of slab r, at
  (n, d), provided every source index is a node number (then the row-taking function is the plain gather).

  Road: each of the seven stretches of host operations read off on its own, over an arbitrary valuation (a stretch's
  results as functions of what it finds; what it does not write it leaves alone); the stretches composed by rewriting;
  the stack's three pieces read at an index; the scatter of a gather matched with the specification's aggregate with
  both sides spelt out, never by unfolding a scatter at an index.
-/
import proofs.«408287_j3659312136510_1_alg».proof.Proof.KernelIdealRegions
import proofs.«408287_j3659312136510_1_alg».proof.Proof.Spec
import proofs.«408287_j3659312136510_1_alg».proof.Proof.KI.PreTake
import proofs.«408287_j3659312136510_1_alg».proof.Proof.KI.LayerAlg
import proofs.«408287_j3659312136510_1_alg».proof.Proof.LibConcat
import Idealize.ShloMosaic.Lib.Pipeline.Value
import Idealize.ShloMosaic.Lib.StableHlo.Run
import Idealize.ShloMosaic.Lib.ValueLayout
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo

/-! ## Rows of an index table, slabs of a stacked array -/

/-- Row 0 of a [3, E] index table as a vector of E indices. -/
abbrev s12_rowv0 (t : IVec S3x800000 32) : IVec S800000 32 :=
  shapeCast S800000 (extractStridedSlice S1x800000 ![0, 0] t slices_S3x800000_S1x800000_0_0) shapeCasts_S1x800000_S800000
abbrev s12_rowv1 (t : IVec S3x800000 32) : IVec S800000 32 :=
  shapeCast S800000 (extractStridedSlice S1x800000 ![1, 0] t slices_S3x800000_S1x800000_1_0) shapeCasts_S1x800000_S800000
abbrev s12_rowv2 (t : IVec S3x800000 32) : IVec S800000 32 :=
  shapeCast S800000 (extractStridedSlice S1x800000 ![2, 0] t slices_S3x800000_S1x800000_2_0) shapeCasts_S1x800000_S800000

/-- Slab r of a [3, N, 64] array as an [N, 64] array. -/
abbrev s12_slab64_0 (p : Vec Ideal S3x100000x64 .f32) : Vec Ideal S100000x64 .f32 :=
  shapeCast S100000x64 (extractStridedSlice S1x100000x64 ![0, 0, 0] p slices_S3x100000x64_S1x100000x64_0_0_0) shapeCasts_S1x100000x64_S100000x64
abbrev s12_slab64_1 (p : Vec Ideal S3x100000x64 .f32) : Vec Ideal S100000x64 .f32 :=
  shapeCast S100000x64 (extractStridedSlice S1x100000x64 ![1, 0, 0] p slices_S3x100000x64_S1x100000x64_1_0_0) shapeCasts_S1x100000x64_S100000x64
abbrev s12_slab64_2 (p : Vec Ideal S3x100000x64 .f32) : Vec Ideal S100000x64 .f32 :=
  shapeCast S100000x64 (extractStridedSlice S1x100000x64 ![2, 0, 0] p slices_S3x100000x64_S1x100000x64_2_0_0) shapeCasts_S1x100000x64_S100000x64

/-- The rows taken at the indices `v` and added up at the start indices `i`, from zero. -/
abbrev s12_scat64 (i : IVec S800000x1 32) (u : Vec Ideal S800000x64 .f32) : Vec Ideal S100000x64 .f32 :=
  Host.scatterAdd scatter_S100000x64_S800000x1_S800000x64_1_0_0_1
    (broadcastInDim S100000x64 ![] bcast_S_S100000x64 (constant (F := Ideal) S_ .f32 0x00000000#32)) i u

/-- The three aggregates stacked: slab r is the r-th slab of `pre` taken at row r of `src` and added up at row r of `dst`. -/
def s12_aggStack64 (pre : Vec Ideal S3x100000x64 .f32) (src dst : IVec S3x800000 32) : Vec Ideal S3x100000x64 .f32 :=
  concatenate S3x100000x64 0
    [⟨S1x100000x64, broadcastInDim S1x100000x64 ![1, 2] bcast_S100000x64_S1x100000x64_1_2 (s12_scat64 (Spec.idx0 dst) (take64 (s12_slab64_0 pre) (s12_rowv0 src)))⟩,
     ⟨S1x100000x64, broadcastInDim S1x100000x64 ![1, 2] bcast_S100000x64_S1x100000x64_1_2 (s12_scat64 (Spec.idx1 dst) (take64 (s12_slab64_1 pre) (s12_rowv1 src)))⟩,
     ⟨S1x100000x64, broadcastInDim S1x100000x64 ![1, 2] bcast_S100000x64_S1x100000x64_1_2 (s12_scat64 (Spec.idx2 dst) (take64 (s12_slab64_2 pre) (s12_rowv2 src)))⟩]
    concatenates_S1x100000x64_S1x100000x64_S1x100000x64_S3x100000x64_d0

/-- A three-operand operation's result, each operand's contents at its own reference. -/
theorem s12_nary3_result_at {x a b y : Ref sig .tc}
    (f : ((k : Fin 3) → ((![x, a, b] : Fin 3 → Ref sig .tc) k).ty.Contents (Elt Ideal)) → y.ty.Contents (Elt Ideal)) (hxs hy)
    (G : Valuation τ sig (Elt Ideal)) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

open Idealize.ShloMosaic.StableHlo in
/-- The results of a literal list of host operations, one rewrite per operation and reference; a three-operand
    operation's result is taken with each operand at its own reference. -/
macro "s12_after_results" : tactic =>
  `(tactic| (simp only [StableHlo.after_cons, StableHlo.after_nil]
             repeat (first
               | rw [StableHlo.nullary_result] | rw [StableHlo.unary_result] | rw [StableHlo.binary_result] | rw [StableHlo.ternary_result]
               | rw [StableHlo.reshape_result] | rw [s12_nary3_result_at]
               | (rw [StableHlo.nullary_result_ne]; rotate_left; decide)
               | (rw [StableHlo.unary_result_ne]; rotate_left; decide)
               | (rw [StableHlo.binary_result_ne]; rotate_left; decide)
               | (rw [StableHlo.ternary_result_ne]; rotate_left; decide)
               | (rw [StableHlo.reshape_result_ne]; rotate_left; decide)
               | (rw [StableHlo.nary_result_ne]; rotate_left; decide))))

/-- Contents moved to a typed reference's buffer type and back are the contents. -/
theorem s12_tref_ofBuf_toBuf {T : BufTy} (x : StableHlo.TRef sig T) (v : T.Contents (Elt Ideal)) : x.ofBuf (x.toBuf v) = v := by
  obtain ⟨r, h, h2, h3⟩ := x; subst h; rfl

/-! ## The stack read at an index -/

theorem s12_slab64_0_apply (p : Vec Ideal S3x100000x64 .f32) (i : S100000x64.Idx) : s12_slab64_0 p i = p (ix3 0 (i 0) (i 1)) := by
  obtain ⟨a, b, rfl⟩ : ∃ a b, i = ix2 a b := ⟨i 0, i 1, eq_ix2 i⟩
  show shapeCast S100000x64 _ _ (ix2 a b) = p (ix3 0 a b)
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)
theorem s12_slab64_1_apply (p : Vec Ideal S3x100000x64 .f32) (i : S100000x64.Idx) : s12_slab64_1 p i = p (ix3 1 (i 0) (i 1)) := by
  obtain ⟨a, b, rfl⟩ : ∃ a b, i = ix2 a b := ⟨i 0, i 1, eq_ix2 i⟩
  show shapeCast S100000x64 _ _ (ix2 a b) = p (ix3 1 a b)
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)
theorem s12_slab64_2_apply (p : Vec Ideal S3x100000x64 .f32) (i : S100000x64.Idx) : s12_slab64_2 p i = p (ix3 2 (i 0) (i 1)) := by
  obtain ⟨a, b, rfl⟩ : ∃ a b, i = ix2 a b := ⟨i 0, i 1, eq_ix2 i⟩
  show shapeCast S100000x64 _ _ (ix2 a b) = p (ix3 2 a b)
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

/-- A slab broadcast to a leading unit axis reads, at (0, n, d), the slab at (n, d). -/
theorem s12_lead64_apply (x : Vec Ideal S100000x64 .f32) (n : Fin 100000) (d : Fin 64) :
    broadcastInDim S1x100000x64 ![1, 2] bcast_S100000x64_S1x100000x64_1_2 x (ix3 0 n d) = x (ix2 n d) :=
  broadcastInDim_apply _ _ _ _ (ix2 n d) (fun a => by
    match a with
    | ⟨0, _⟩ => rfl
    | ⟨1, _⟩ => rfl)

/-- One of three functions picked by an index and applied, against a family given at the three indices. -/
theorem s12_pick3_apply {ι β : Type} (x0 x1 x2 : ι → β) (f : Fin 3 → β) (r : Fin 3) (j : ι)
    (h0 : x0 j = f 0) (h1 : x1 j = f 1) (h2 : x2 j = f 2) : (![x0, x1, x2] : Fin 3 → ι → β) r j = f r := by
  match r with
  | ⟨0, _⟩ => exact h0
  | ⟨1, _⟩ => exact h1
  | ⟨2, _⟩ => exact h2

/-- Relation 0's piece of the stack at (0, n, d) is the specification's aggregate of slab 0 at (n, d): the row-taking function is the
    gather on in-range indices, and the scatter of a gather is the aggregate, both sides spelt out. -/
theorem s12_agg_rel0 (pre : Vec Ideal S3x100000x64 .f32) (src dst : IVec S3x800000 32) (hs : Spec.SrcInRange src)
    (n : Fin 100000) (d : Fin 64) :
    broadcastInDim S1x100000x64 ![1, 2] bcast_S100000x64_S1x100000x64_1_2 (s12_scat64 (Spec.idx0 dst) (take64 (s12_slab64_0 pre) (s12_rowv0 src))) (ix3 0 n d)
      = Spec.agg64 (fun i => pre (ix3 0 (i 0) (i 1))) (idxr 0 src) (idxr 0 dst) (ix2 n d) := by
  rw [idxr_zero, idxr_zero, s12_lead64_apply, take64_eq _ _ (row_0_inRange src hs), show s12_slab64_0 pre = fun i => pre (ix3 0 (i 0) (i 1)) from funext (s12_slab64_0_apply pre)]
  unfold Spec.agg64 Spec.idx0
  with_reducible rfl
theorem s12_agg_rel1 (pre : Vec Ideal S3x100000x64 .f32) (src dst : IVec S3x800000 32) (hs : Spec.SrcInRange src)
    (n : Fin 100000) (d : Fin 64) :
    broadcastInDim S1x100000x64 ![1, 2] bcast_S100000x64_S1x100000x64_1_2 (s12_scat64 (Spec.idx1 dst) (take64 (s12_slab64_1 pre) (s12_rowv1 src))) (ix3 0 n d)
      = Spec.agg64 (fun i => pre (ix3 1 (i 0) (i 1))) (idxr 1 src) (idxr 1 dst) (ix2 n d) := by
  rw [idxr_one, idxr_one, s12_lead64_apply, take64_eq _ _ (row_1_inRange src hs), show s12_slab64_1 pre = fun i => pre (ix3 1 (i 0) (i 1)) from funext (s12_slab64_1_apply pre)]
  unfold Spec.agg64 Spec.idx1
  with_reducible rfl
theorem s12_agg_rel2 (pre : Vec Ideal S3x100000x64 .f32) (src dst : IVec S3x800000 32) (hs : Spec.SrcInRange src)
    (n : Fin 100000) (d : Fin 64) :
    broadcastInDim S1x100000x64 ![1, 2] bcast_S100000x64_S1x100000x64_1_2 (s12_scat64 (Spec.idx2 dst) (take64 (s12_slab64_2 pre) (s12_rowv2 src))) (ix3 0 n d)
      = Spec.agg64 (fun i => pre (ix3 2 (i 0) (i 1))) (idxr 2 src) (idxr 2 dst) (ix2 n d) := by
  rw [idxr_two, idxr_two, s12_lead64_apply, take64_eq _ _ (row_2_inRange src hs), show s12_slab64_2 pre = fun i => pre (ix3 2 (i 0) (i 1)) from funext (s12_slab64_2_apply pre)]
  unfold Spec.agg64 Spec.idx2
  with_reducible rfl

/-- The stack at (r, n, d), the source indices in range: the r-th slab of `pre` gathered at row r of `src` and added
    up at row r of `dst`, at (n, d). -/
theorem s12_aggStack64_apply (pre : Vec Ideal S3x100000x64 .f32) (src dst : IVec S3x800000 32) (hs : Spec.SrcInRange src)
    (r : Fin 3) (n : Fin 100000) (d : Fin 64) :
    s12_aggStack64 pre src dst (ix3 r n d)
      = Spec.agg64 (fun i => pre (ix3 r (i 0) (i 1))) (idxr r src) (idxr r dst) (ix2 n d) := by
  unfold s12_aggStack64
  rw [Cert.Lib.concatenate3_unit_apply (t := S3x100000x64) (s₁ := S1x100000x64) 0 _ _ _ _ rfl rfl (ix3 r n d) r rfl (ix3 0 n d)
    (fun b hb => by
      match b with
      | ⟨0, _⟩ => exact absurd rfl hb
      | ⟨1, _⟩ => rfl
      | ⟨2, _⟩ => rfl)]
  refine s12_pick3_apply _ _ _ (fun r => Spec.agg64 (fun i => pre (ix3 r (i 0) (i 1))) (idxr r src) (idxr r dst) (ix2 n d)) r (ix3 0 n d) ?_ ?_ ?_
  · exact s12_agg_rel0 pre src dst hs n d
  · exact s12_agg_rel1 pre src dst hs n d
  · exact s12_agg_rel2 pre src dst hs n d

variable (W : Valuation τ sig (Elt Ideal))

/-! ## Layer 1: the host operations between the two kernels, stretch by stretch, from any entry contents `W` -/

theorem s12_l1_s0_a : StableHlo.after (hostOps1 (F := Ideal)) W (Proc.devRef .tc main_v53) = s12_slab64_0 (W (Proc.devRef .tc main_v51)) := by
  after_results; rfl
theorem s12_l1_s0_b : StableHlo.after (hostOps1 (F := Ideal)) W (Proc.devRef .tc main_v55) = s12_rowv0 (W (Proc.devRef .tc main_arg1)) := by
  after_results; rfl

theorem s12_l1_s2_a : StableHlo.after (hostOps1_2 (F := Ideal)) W (Proc.devRef .tc main_v61) = s12_scat64 (Spec.idx0 (W (Proc.devRef .tc main_arg2))) (W (Proc.devRef .tc main_v56)) := by
  after_results; rfl
theorem s12_l1_s2_b : StableHlo.after (hostOps1_2 (F := Ideal)) W (Proc.devRef .tc main_v63) = s12_slab64_1 (W (Proc.devRef .tc main_v51)) := by
  after_results; rfl
theorem s12_l1_s2_c : StableHlo.after (hostOps1_2 (F := Ideal)) W (Proc.devRef .tc main_v65) = s12_rowv1 (W (Proc.devRef .tc main_arg1)) := by
  after_results; rfl

theorem s12_l1_s4_a : StableHlo.after (hostOps1_4 (F := Ideal)) W (Proc.devRef .tc main_v71) = s12_scat64 (Spec.idx1 (W (Proc.devRef .tc main_arg2))) (W (Proc.devRef .tc main_v66)) := by
  after_results; rfl
theorem s12_l1_s4_b : StableHlo.after (hostOps1_4 (F := Ideal)) W (Proc.devRef .tc main_v73) = s12_slab64_2 (W (Proc.devRef .tc main_v51)) := by
  after_results; rfl
theorem s12_l1_s4_c : StableHlo.after (hostOps1_4 (F := Ideal)) W (Proc.devRef .tc main_v75) = s12_rowv2 (W (Proc.devRef .tc main_arg1)) := by
  after_results; rfl

theorem s12_l1_s6 : StableHlo.after (hostOps1_6 (F := Ideal)) W (Proc.devRef .tc main_v85) =
    concatenate S3x100000x64 0
    [⟨S1x100000x64, broadcastInDim S1x100000x64 ![1, 2] bcast_S100000x64_S1x100000x64_1_2 (W (Proc.devRef .tc main_v61))⟩,
     ⟨S1x100000x64, broadcastInDim S1x100000x64 ![1, 2] bcast_S100000x64_S1x100000x64_1_2 (W (Proc.devRef .tc main_v71))⟩,
     ⟨S1x100000x64, broadcastInDim S1x100000x64 ![1, 2] bcast_S100000x64_S1x100000x64_1_2 (s12_scat64 (Spec.idx2 (W (Proc.devRef .tc main_arg2))) (W (Proc.devRef .tc main_v76)))⟩]
    concatenates_S1x100000x64_S1x100000x64_S1x100000x64_S3x100000x64_d0 := by
  s12_after_results; rfl

/-- The buffer types of the row-taking function's operands and result are their tensor types: the transports are identities. -/
theorem s12_l1_c1_out (x : Vec Ideal S800000x64 .f32) :
    (StableHlo.TRef.of main_v56 : StableHlo.TRef sig ⟨S800000x64, .f32⟩).toBuf x = x := rfl
theorem s12_l1_c1_a (x : main_v53.ty.Contents (Elt Ideal)) :
    (StableHlo.TRef.of main_v53 : StableHlo.TRef sig ⟨S100000x64, .f32⟩).ofBuf x = x := rfl
theorem s12_l1_c1_b (x : main_v55.ty.Contents (Elt Ideal)) :
    (StableHlo.TRef.of main_v55 : StableHlo.TRef sig ⟨S800000, .i32⟩).ofBuf x = x := rfl

set_option maxHeartbeats 1000000 in
theorem s12_l1_s1 : StableHlo.after (hostOps1_1 (F := Ideal)) W (Proc.devRef .tc main_v56) = take64 (W (Proc.devRef .tc main_v53)) (W (Proc.devRef .tc main_v55)) := by
  after_results
  repeat rw [s12_tref_ofBuf_toBuf]
  rw [s12_l1_c1_out, s12_l1_c1_a, s12_l1_c1_b]
  unfold take64
  rfl

/-- The buffer types of the row-taking function's operands and result are their tensor types: the transports are identities. -/
theorem s12_l1_c3_out (x : Vec Ideal S800000x64 .f32) :
    (StableHlo.TRef.of main_v66 : StableHlo.TRef sig ⟨S800000x64, .f32⟩).toBuf x = x := rfl
theorem s12_l1_c3_a (x : main_v63.ty.Contents (Elt Ideal)) :
    (StableHlo.TRef.of main_v63 : StableHlo.TRef sig ⟨S100000x64, .f32⟩).ofBuf x = x := rfl
theorem s12_l1_c3_b (x : main_v65.ty.Contents (Elt Ideal)) :
    (StableHlo.TRef.of main_v65 : StableHlo.TRef sig ⟨S800000, .i32⟩).ofBuf x = x := rfl

set_option maxHeartbeats 1000000 in
theorem s12_l1_s3 : StableHlo.after (hostOps1_3 (F := Ideal)) W (Proc.devRef .tc main_v66) = take64 (W (Proc.devRef .tc main_v63)) (W (Proc.devRef .tc main_v65)) := by
  after_results
  repeat rw [s12_tref_ofBuf_toBuf]
  rw [s12_l1_c3_out, s12_l1_c3_a, s12_l1_c3_b]
  unfold take64
  rfl

/-- The buffer types of the row-taking function's operands and result are their tensor types: the transports are identities. -/
theorem s12_l1_c5_out (x : Vec Ideal S800000x64 .f32) :
    (StableHlo.TRef.of main_v76 : StableHlo.TRef sig ⟨S800000x64, .f32⟩).toBuf x = x := rfl
theorem s12_l1_c5_a (x : main_v73.ty.Contents (Elt Ideal)) :
    (StableHlo.TRef.of main_v73 : StableHlo.TRef sig ⟨S100000x64, .f32⟩).ofBuf x = x := rfl
theorem s12_l1_c5_b (x : main_v75.ty.Contents (Elt Ideal)) :
    (StableHlo.TRef.of main_v75 : StableHlo.TRef sig ⟨S800000, .i32⟩).ofBuf x = x := rfl

set_option maxHeartbeats 1000000 in
theorem s12_l1_s5 : StableHlo.after (hostOps1_5 (F := Ideal)) W (Proc.devRef .tc main_v76) = take64 (W (Proc.devRef .tc main_v73)) (W (Proc.devRef .tc main_v75)) := by
  after_results
  repeat rw [s12_tref_ofBuf_toBuf]
  rw [s12_l1_c5_out, s12_l1_c5_a, s12_l1_c5_b]
  unfold take64
  rfl

/-! What a stretch leaves alone. -/
theorem s12_l1_u0 (r : Ref sig .tc) (h : r ∉ hostOps1_W) : StableHlo.after (hostOps1 (F := Ideal)) W (Proc.devRef .tc r) = W (Proc.devRef .tc r) :=
  StableHlo.after_of_writes_sub hostOps1 W hostOps1_writes h
theorem s12_l1_u1 (r : Ref sig .tc) (h : r ∉ hostOps1_1_W) : StableHlo.after (hostOps1_1 (F := Ideal)) W (Proc.devRef .tc r) = W (Proc.devRef .tc r) :=
  StableHlo.after_of_writes_sub hostOps1_1 W hostOps1_1_writes h
theorem s12_l1_u2 (r : Ref sig .tc) (h : r ∉ hostOps1_2_W) : StableHlo.after (hostOps1_2 (F := Ideal)) W (Proc.devRef .tc r) = W (Proc.devRef .tc r) :=
  StableHlo.after_of_writes_sub hostOps1_2 W hostOps1_2_writes h
theorem s12_l1_u3 (r : Ref sig .tc) (h : r ∉ hostOps1_3_W) : StableHlo.after (hostOps1_3 (F := Ideal)) W (Proc.devRef .tc r) = W (Proc.devRef .tc r) :=
  StableHlo.after_of_writes_sub hostOps1_3 W hostOps1_3_writes h
theorem s12_l1_u4 (r : Ref sig .tc) (h : r ∉ hostOps1_4_W) : StableHlo.after (hostOps1_4 (F := Ideal)) W (Proc.devRef .tc r) = W (Proc.devRef .tc r) :=
  StableHlo.after_of_writes_sub hostOps1_4 W hostOps1_4_writes h
theorem s12_l1_u5 (r : Ref sig .tc) (h : r ∉ hostOps1_5_W) : StableHlo.after (hostOps1_5 (F := Ideal)) W (Proc.devRef .tc r) = W (Proc.devRef .tc r) :=
  StableHlo.after_of_writes_sub hostOps1_5 W hostOps1_5_writes h
theorem s12_l1_u6 (r : Ref sig .tc) (h : r ∉ hostOps1_6_W) : StableHlo.after (hostOps1_6 (F := Ideal)) W (Proc.devRef .tc r) = W (Proc.devRef .tc r) :=
  StableHlo.after_of_writes_sub hostOps1_6 W hostOps1_6_writes h

/-- The seven stretches of layer 1 together: the stacked array is `s12_aggStack64` of the entry contents of the
    pretransform's output and of the two index tables. -/
theorem s12_stack1_eq :
    StableHlo.after (hostOps1_6 (F := Ideal)) (StableHlo.after hostOps1_5 (StableHlo.after hostOps1_4 (StableHlo.after hostOps1_3
      (StableHlo.after hostOps1_2 (StableHlo.after hostOps1_1 (StableHlo.after hostOps1 W)))))) (Proc.devRef .tc main_v85)
      = s12_aggStack64 (W (Proc.devRef .tc main_v51)) (W (Proc.devRef .tc main_arg1)) (W (Proc.devRef .tc main_arg2)) := by
  rw [s12_l1_s6]
  -- relation 0
  rw [s12_l1_u5 _ main_v61 (by decide), s12_l1_u4 _ main_v61 (by decide), s12_l1_u3 _ main_v61 (by decide), s12_l1_s2_a,
    s12_l1_u1 _ main_arg2 (by decide), s12_l1_u0 _ main_arg2 (by decide), s12_l1_s1, s12_l1_s0_a, s12_l1_s0_b]
  -- relation 1
  rw [s12_l1_u5 _ main_v71 (by decide), s12_l1_s4_a, s12_l1_u3 _ main_arg2 (by decide), s12_l1_u2 _ main_arg2 (by decide), s12_l1_u1 _ main_arg2 (by decide), s12_l1_u0 _ main_arg2 (by decide),
    s12_l1_s3, s12_l1_s2_b, s12_l1_s2_c, s12_l1_u1 _ main_v51 (by decide), s12_l1_u0 _ main_v51 (by decide), s12_l1_u1 _ main_arg1 (by decide), s12_l1_u0 _ main_arg1 (by decide)]
  -- relation 2
  rw [s12_l1_u5 _ main_arg2 (by decide), s12_l1_u4 _ main_arg2 (by decide), s12_l1_u3 _ main_arg2 (by decide), s12_l1_u2 _ main_arg2 (by decide), s12_l1_u1 _ main_arg2 (by decide), s12_l1_u0 _ main_arg2 (by decide),
    s12_l1_s5, s12_l1_s4_b, s12_l1_s4_c, s12_l1_u3 _ main_v51 (by decide), s12_l1_u2 _ main_v51 (by decide), s12_l1_u1 _ main_v51 (by decide), s12_l1_u0 _ main_v51 (by decide),
    s12_l1_u3 _ main_arg1 (by decide), s12_l1_u2 _ main_arg1 (by decide), s12_l1_u1 _ main_arg1 (by decide), s12_l1_u0 _ main_arg1 (by decide)]
  unfold s12_aggStack64
  with_reducible rfl

/-- Layer 1's stacked aggregates after the seven stretches, from any entry contents `W` whose source table is in
    range, read at (r, n, d). -/
theorem stack1_apply (W : Valuation τ sig (Elt Ideal)) (hs : Spec.SrcInRange (W main_arg1)) (r : Fin 3) (n : Fin 100000) (d : Fin 64) :
    (StableHlo.after hostOps1_6 (StableHlo.after hostOps1_5 (StableHlo.after hostOps1_4 (StableHlo.after hostOps1_3
      (StableHlo.after hostOps1_2 (StableHlo.after hostOps1_1 (StableHlo.after hostOps1 W)))))) main_v85 : Vec Ideal S3x100000x64 .f32) (ix3 r n d)
      = Spec.agg64 (fun i => (W main_v51 : Vec Ideal S3x100000x64 .f32) (ix3 r (i 0) (i 1))) (idxr r (W main_arg1)) (idxr r (W main_arg2)) (ix2 n d) :=
  (congrFun (s12_stack1_eq W) (ix3 r n d)).trans (s12_aggStack64_apply _ _ _ hs r n d)

end Cert.KernelIdeal.Hand
-- ==== Proof.KI.Stack12.lean ====
/-
  The host operations between the pretransform kernel and the aggregation kernel, layers 1 and 2.

  Between the two kernels of a layer the host slices the pretransform's output [3, N, 64] into its three slabs, takes
  the rows of each slab at a row of the source index table, adds them up at the same row of the destination index
  table, and stacks the three results again as [3, N, 64]. This module reads that stack at an index (r, n, d), from
  ANY contents of the buffers at the first of these operations: it is the specification's aggregate of slab r, at
  (n, d), provided every source index is a node number (then the row-taking function is the plain gather).

  Road: each of the seven stretches of host operations read off on its own, over an arbitrary valuation (a stretch's
  results as functions of what it finds; what it does not write it leaves alone); the stretches composed by rewriting;
  the stack's three pieces read at an index; the scatter of a gather matched with the specification's aggregate with
  both sides spelt out, never by unfolding a scatter at an index.
-/
import proofs.«408287_j3659312136510_1_alg».proof.Proof.KernelIdealRegions
import proofs.«408287_j3659312136510_1_alg».proof.Proof.Spec
import proofs.«408287_j3659312136510_1_alg».proof.Proof.KI.PreTake
import proofs.«408287_j3659312136510_1_alg».proof.Proof.KI.LayerAlg
import proofs.«408287_j3659312136510_1_alg».proof.Proof.LibConcat
import proofs.«408287_j3659312136510_1_alg».proof.Proof.KI.Stack1
import Idealize.ShloMosaic.Lib.Pipeline.Value
import Idealize.ShloMosaic.Lib.StableHlo.Run
import Idealize.ShloMosaic.Lib.ValueLayout
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo

variable (W : Valuation τ sig (Elt Ideal))

/-! ## Layer 2: the host operations between the two kernels, stretch by stretch, from any entry contents `W` -/

theorem s12_l2_s0_a : StableHlo.after (hostOps3 (F := Ideal)) W (Proc.devRef .tc main_v89) = s12_slab64_0 (W (Proc.devRef .tc main_v87)) := by
  after_results; rfl
theorem s12_l2_s0_b : StableHlo.after (hostOps3 (F := Ideal)) W (Proc.devRef .tc main_v91) = s12_rowv0 (W (Proc.devRef .tc main_arg1)) := by
  after_results; rfl

theorem s12_l2_s2_a : StableHlo.after (hostOps3_2 (F := Ideal)) W (Proc.devRef .tc main_v97) = s12_scat64 (Spec.idx0 (W (Proc.devRef .tc main_arg2))) (W (Proc.devRef .tc main_v92)) := by
  after_results; rfl
theorem s12_l2_s2_b : StableHlo.after (hostOps3_2 (F := Ideal)) W (Proc.devRef .tc main_v99) = s12_slab64_1 (W (Proc.devRef .tc main_v87)) := by
  after_results; rfl
theorem s12_l2_s2_c : StableHlo.after (hostOps3_2 (F := Ideal)) W (Proc.devRef .tc main_v101) = s12_rowv1 (W (Proc.devRef .tc main_arg1)) := by
  after_results; rfl

theorem s12_l2_s4_a : StableHlo.after (hostOps3_4 (F := Ideal)) W (Proc.devRef .tc main_v107) = s12_scat64 (Spec.idx1 (W (Proc.devRef .tc main_arg2))) (W (Proc.devRef .tc main_v102)) := by
  after_results; rfl
theorem s12_l2_s4_b : StableHlo.after (hostOps3_4 (F := Ideal)) W (Proc.devRef .tc main_v109) = s12_slab64_2 (W (Proc.devRef .tc main_v87)) := by
  after_results; rfl
theorem s12_l2_s4_c : StableHlo.after (hostOps3_4 (F := Ideal)) W (Proc.devRef .tc main_v111) = s12_rowv2 (W (Proc.devRef .tc main_arg1)) := by
  after_results; rfl

theorem s12_l2_s6 : StableHlo.after (hostOps3_6 (F := Ideal)) W (Proc.devRef .tc main_v121) =
    concatenate S3x100000x64 0
    [⟨S1x100000x64, broadcastInDim S1x100000x64 ![1, 2] bcast_S100000x64_S1x100000x64_1_2 (W (Proc.devRef .tc main_v97))⟩,
     ⟨S1x100000x64, broadcastInDim S1x100000x64 ![1, 2] bcast_S100000x64_S1x100000x64_1_2 (W (Proc.devRef .tc main_v107))⟩,
     ⟨S1x100000x64, broadcastInDim S1x100000x64 ![1, 2] bcast_S100000x64_S1x100000x64_1_2 (s12_scat64 (Spec.idx2 (W (Proc.devRef .tc main_arg2))) (W (Proc.devRef .tc main_v112)))⟩]
    concatenates_S1x100000x64_S1x100000x64_S1x100000x64_S3x100000x64_d0 := by
  s12_after_results; rfl

/-- The buffer types of the row-taking function's operands and result are their tensor types: the transports are identities. -/
theorem s12_l2_c1_out (x : Vec Ideal S800000x64 .f32) :
    (StableHlo.TRef.of main_v92 : StableHlo.TRef sig ⟨S800000x64, .f32⟩).toBuf x = x := rfl
theorem s12_l2_c1_a (x : main_v89.ty.Contents (Elt Ideal)) :
    (StableHlo.TRef.of main_v89 : StableHlo.TRef sig ⟨S100000x64, .f32⟩).ofBuf x = x := rfl
theorem s12_l2_c1_b (x : main_v91.ty.Contents (Elt Ideal)) :
    (StableHlo.TRef.of main_v91 : StableHlo.TRef sig ⟨S800000, .i32⟩).ofBuf x = x := rfl

set_option maxHeartbeats 1000000 in
theorem s12_l2_s1 : StableHlo.after (hostOps3_1 (F := Ideal)) W (Proc.devRef .tc main_v92) = take64 (W (Proc.devRef .tc main_v89)) (W (Proc.devRef .tc main_v91)) := by
  after_results
  repeat rw [s12_tref_ofBuf_toBuf]
  rw [s12_l2_c1_out, s12_l2_c1_a, s12_l2_c1_b]
  unfold take64
  rfl

/-- The buffer types of the row-taking function's operands and result are their tensor types: the transports are identities. -/
theorem s12_l2_c3_out (x : Vec Ideal S800000x64 .f32) :
    (StableHlo.TRef.of main_v102 : StableHlo.TRef sig ⟨S800000x64, .f32⟩).toBuf x = x := rfl
theorem s12_l2_c3_a (x : main_v99.ty.Contents (Elt Ideal)) :
    (StableHlo.TRef.of main_v99 : StableHlo.TRef sig ⟨S100000x64, .f32⟩).ofBuf x = x := rfl
theorem s12_l2_c3_b (x : main_v101.ty.Contents (Elt Ideal)) :
    (StableHlo.TRef.of main_v101 : StableHlo.TRef sig ⟨S800000, .i32⟩).ofBuf x = x := rfl

set_option maxHeartbeats 1000000 in
theorem s12_l2_s3 : StableHlo.after (hostOps3_3 (F := Ideal)) W (Proc.devRef .tc main_v102) = take64 (W (Proc.devRef .tc main_v99)) (W (Proc.devRef .tc main_v101)) := by
  after_results
  repeat rw [s12_tref_ofBuf_toBuf]
  rw [s12_l2_c3_out, s12_l2_c3_a, s12_l2_c3_b]
  unfold take64
  rfl

/-- The buffer types of the row-taking function's operands and result are their tensor types: the transports are identities. -/
theorem s12_l2_c5_out (x : Vec Ideal S800000x64 .f32) :
    (StableHlo.TRef.of main_v112 : StableHlo.TRef sig ⟨S800000x64, .f32⟩).toBuf x = x := rfl
theorem s12_l2_c5_a (x : main_v109.ty.Contents (Elt Ideal)) :
    (StableHlo.TRef.of main_v109 : StableHlo.TRef sig ⟨S100000x64, .f32⟩).ofBuf x = x := rfl
theorem s12_l2_c5_b (x : main_v111.ty.Contents (Elt Ideal)) :
    (StableHlo.TRef.of main_v111 : StableHlo.TRef sig ⟨S800000, .i32⟩).ofBuf x = x := rfl

set_option maxHeartbeats 1000000 in
theorem s12_l2_s5 : StableHlo.after (hostOps3_5 (F := Ideal)) W (Proc.devRef .tc main_v112) = take64 (W (Proc.devRef .tc main_v109)) (W (Proc.devRef .tc main_v111)) := by
  after_results
  repeat rw [s12_tref_ofBuf_toBuf]
  rw [s12_l2_c5_out, s12_l2_c5_a, s12_l2_c5_b]
  unfold take64
  rfl

/-! What a stretch leaves alone. -/
theorem s12_l2_u0 (r : Ref sig .tc) (h : r ∉ hostOps3_W) : StableHlo.after (hostOps3 (F := Ideal)) W (Proc.devRef .tc r) = W (Proc.devRef .tc r) :=
  StableHlo.after_of_writes_sub hostOps3 W hostOps3_writes h
theorem s12_l2_u1 (r : Ref sig .tc) (h : r ∉ hostOps3_1_W) : StableHlo.after (hostOps3_1 (F := Ideal)) W (Proc.devRef .tc r) = W (Proc.devRef .tc r) :=
  StableHlo.after_of_writes_sub hostOps3_1 W hostOps3_1_writes h
theorem s12_l2_u2 (r : Ref sig .tc) (h : r ∉ hostOps3_2_W) : StableHlo.after (hostOps3_2 (F := Ideal)) W (Proc.devRef .tc r) = W (Proc.devRef .tc r) :=
  StableHlo.after_of_writes_sub hostOps3_2 W hostOps3_2_writes h
theorem s12_l2_u3 (r : Ref sig .tc) (h : r ∉ hostOps3_3_W) : StableHlo.after (hostOps3_3 (F := Ideal)) W (Proc.devRef .tc r) = W (Proc.devRef .tc r) :=
  StableHlo.after_of_writes_sub hostOps3_3 W hostOps3_3_writes h
theorem s12_l2_u4 (r : Ref sig .tc) (h : r ∉ hostOps3_4_W) : StableHlo.after (hostOps3_4 (F := Ideal)) W (Proc.devRef .tc r) = W (Proc.devRef .tc r) :=
  StableHlo.after_of_writes_sub hostOps3_4 W hostOps3_4_writes h
theorem s12_l2_u5 (r : Ref sig .tc) (h : r ∉ hostOps3_5_W) : StableHlo.after (hostOps3_5 (F := Ideal)) W (Proc.devRef .tc r) = W (Proc.devRef .tc r) :=
  StableHlo.after_of_writes_sub hostOps3_5 W hostOps3_5_writes h
theorem s12_l2_u6 (r : Ref sig .tc) (h : r ∉ hostOps3_6_W) : StableHlo.after (hostOps3_6 (F := Ideal)) W (Proc.devRef .tc r) = W (Proc.devRef .tc r) :=
  StableHlo.after_of_writes_sub hostOps3_6 W hostOps3_6_writes h

/-- The seven stretches of layer 2 together: the stacked array is `s12_aggStack64` of the entry contents of the
    pretransform's output and of the two index tables. -/
theorem s12_stack2_eq :
    StableHlo.after (hostOps3_6 (F := Ideal)) (StableHlo.after hostOps3_5 (StableHlo.after hostOps3_4 (StableHlo.after hostOps3_3
      (StableHlo.after hostOps3_2 (StableHlo.after hostOps3_1 (StableHlo.after hostOps3 W)))))) (Proc.devRef .tc main_v121)
      = s12_aggStack64 (W (Proc.devRef .tc main_v87)) (W (Proc.devRef .tc main_arg1)) (W (Proc.devRef .tc main_arg2)) := by
  rw [s12_l2_s6]
  -- relation 0
  rw [s12_l2_u5 _ main_v97 (by decide), s12_l2_u4 _ main_v97 (by decide), s12_l2_u3 _ main_v97 (by decide), s12_l2_s2_a,
    s12_l2_u1 _ main_arg2 (by decide), s12_l2_u0 _ main_arg2 (by decide), s12_l2_s1, s12_l2_s0_a, s12_l2_s0_b]
  -- relation 1
  rw [s12_l2_u5 _ main_v107 (by decide), s12_l2_s4_a, s12_l2_u3 _ main_arg2 (by decide), s12_l2_u2 _ main_arg2 (by decide), s12_l2_u1 _ main_arg2 (by decide), s12_l2_u0 _ main_arg2 (by decide),
    s12_l2_s3, s12_l2_s2_b, s12_l2_s2_c, s12_l2_u1 _ main_v87 (by decide), s12_l2_u0 _ main_v87 (by decide), s12_l2_u1 _ main_arg1 (by decide), s12_l2_u0 _ main_arg1 (by decide)]
  -- relation 2
  rw [s12_l2_u5 _ main_arg2 (by decide), s12_l2_u4 _ main_arg2 (by decide), s12_l2_u3 _ main_arg2 (by decide), s12_l2_u2 _ main_arg2 (by decide), s12_l2_u1 _ main_arg2 (by decide), s12_l2_u0 _ main_arg2 (by decide),
    s12_l2_s5, s12_l2_s4_b, s12_l2_s4_c, s12_l2_u3 _ main_v87 (by decide), s12_l2_u2 _ main_v87 (by decide), s12_l2_u1 _ main_v87 (by decide), s12_l2_u0 _ main_v87 (by decide),
    s12_l2_u3 _ main_arg1 (by decide), s12_l2_u2 _ main_arg1 (by decide), s12_l2_u1 _ main_arg1 (by decide), s12_l2_u0 _ main_arg1 (by decide)]
  unfold s12_aggStack64
  with_reducible rfl

/-- Layer 2's stacked aggregates after the seven stretches, from any entry contents `W` whose source table is in
    range, read at (r, n, d). -/
theorem stack2_apply (W : Valuation τ sig (Elt Ideal)) (hs : Spec.SrcInRange (W main_arg1)) (r : Fin 3) (n : Fin 100000) (d : Fin 64) :
    (StableHlo.after hostOps3_6 (StableHlo.after hostOps3_5 (StableHlo.after hostOps3_4 (StableHlo.after hostOps3_3
      (StableHlo.after hostOps3_2 (StableHlo.after hostOps3_1 (StableHlo.after hostOps3 W)))))) main_v121 : Vec Ideal S3x100000x64 .f32) (ix3 r n d)
      = Spec.agg64 (fun i => (W main_v87 : Vec Ideal S3x100000x64 .f32) (ix3 r (i 0) (i 1))) (idxr r (W main_arg1)) (idxr r (W main_arg2)) (ix2 n d) :=
  (congrFun (s12_stack2_eq W) (ix3 r n d)).trans (s12_aggStack64_apply _ _ _ hs r n d)

end Cert.KernelIdeal.Hand
-- ==== Proof.KI.Stack34.lean ====
/-
  Between a layer's pretransform region and its postagg region the host, for each of the three relations, takes the
  relation's slab of the pretransform's [3, N, D] array, gathers its rows at the relation's source indices and adds
  them up at the relation's destination indices, and then stacks the three [N, D] results along a new leading axis.
  Read at (r, n, d) the stack is therefore the aggregate of relation r's slab at (n, d).

  The gather is written in the program as an index-taking function of twenty-odd operations (indices wrapped, a validity
  mask, a selection against a fill value); on source indices that are node numbers it is the plain gather. Each
  stretch of host operations is read over arbitrary contents before it: what it writes as its operations' term, and
  everything else left as it was.
-/
import proofs.«408287_j3659312136510_1_alg».proof.Proof.Spec
import proofs.«408287_j3659312136510_1_alg».proof.Proof.KI.PreTake
import proofs.«408287_j3659312136510_1_alg».proof.Proof.KI.LayerAlg
import proofs.«408287_j3659312136510_1_alg».proof.Proof.LibConcat
import proofs.«408287_j3659312136510_1_alg».proof.Proof.LibNary3
import proofs.«408287_j3659312136510_1_alg».proof.Proof.Gen.KernelIdeal.Launch
import proofs.«408287_j3659312136510_1_alg».proof.Proof.KernelIdealRegions
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo Idealize.SL.Sem

/-- Contents moved to a reference's own buffer type and back are the contents. -/
theorem s34_ofBuf_toBuf {T : BufTy} (x : StableHlo.TRef sig T) (v : T.Contents (Elt Ideal)) : x.ofBuf (x.toBuf v) = v := by
  obtain ⟨r, h, _, _⟩ := x
  subst h
  rfl

/-- Operations run with one more after them: the last one's result over what the others leave. -/
theorem s34_after_concat (l : List (HloOp τ sig (Elt Ideal))) (op : HloOp τ sig (Elt Ideal)) (V : Valuation τ sig (Elt Ideal)) :
    StableHlo.after (l ++ [op]) V = op.result (StableHlo.after l V) := by
  induction l generalizing V with
  | nil => rfl
  | cons a l ih => exact ih _

/-- A literal family of three functions at its k-th member. -/
theorem s34_pick0 {α β : Type} (x₀ x₁ x₂ : β → α) (i : β) : (![x₀, x₁, x₂] : Fin 3 → β → α) 0 i = x₀ i := rfl
theorem s34_pick1 {α β : Type} (x₀ x₁ x₂ : β → α) (i : β) : (![x₀, x₁, x₂] : Fin 3 → β → α) 1 i = x₁ i := rfl
theorem s34_pick2 {α β : Type} (x₀ x₁ x₂ : β → α) (i : β) : (![x₀, x₁, x₂] : Fin 3 → β → α) 2 i = x₂ i := rfl

/-! ## Layout operations at width 64 read at an index -/

/-- A [1, N, 64] slice of a [3, N, 64] array starting at (r, 0, 0), with the unit axis dropped, is slab r. -/
theorem s34_slab64_eq {α : Type} (r : Fin 3) (off : Fin 3 → Nat) (hoff : off = ![r.val, 0, 0]) (A : S3x100000x64.Idx → α)
    (hsl : S3x100000x64.Slices off S1x100000x64) :
    shapeCast S100000x64 (extractStridedSlice S1x100000x64 off A hsl) shapeCasts_S1x100000x64_S100000x64 = fun i => A (ix3 r (i 0) (i 1)) := by
  subst hoff
  funext i
  obtain ⟨n, d, rfl⟩ : ∃ (n : Fin 100000) (d : Fin 64), i = ix2 n d := ⟨i 0, i 1, eq_ix2 i⟩
  show _ = A (ix3 r n d)
  rw [shapeCast_apply _ shapeCasts_S1x100000x64_S100000x64 (ix2 n d) (ix3 0 n d) (by
    rw [Shape.rowMajor_val_three, Shape.rowMajor_val_two]
    show (0 * 100000 + n.val) * 64 + d.val = n.val * 64 + d.val
    omega)]
  exact extractStridedSlice_apply _ A hsl (ix3 0 n d) (ix3 r n d) (fun a => match a with
    | ⟨0, _⟩ => by show r.val = r.val + 0; omega
    | ⟨1, _⟩ => by show n.val = 0 + n.val; omega
    | ⟨2, _⟩ => by show d.val = 0 + d.val; omega)

theorem s34_slab64_0 (A : Vec Ideal S3x100000x64 .f32) :
    shapeCast S100000x64 (extractStridedSlice S1x100000x64 ![0, 0, 0] A slices_S3x100000x64_S1x100000x64_0_0_0) shapeCasts_S1x100000x64_S100000x64
      = fun i => A (ix3 0 (i 0) (i 1)) :=
  s34_slab64_eq 0 _ rfl A _

theorem s34_slab64_1 (A : Vec Ideal S3x100000x64 .f32) :
    shapeCast S100000x64 (extractStridedSlice S1x100000x64 ![1, 0, 0] A slices_S3x100000x64_S1x100000x64_1_0_0) shapeCasts_S1x100000x64_S100000x64
      = fun i => A (ix3 1 (i 0) (i 1)) :=
  s34_slab64_eq 1 _ rfl A _

theorem s34_slab64_2 (A : Vec Ideal S3x100000x64 .f32) :
    shapeCast S100000x64 (extractStridedSlice S1x100000x64 ![2, 0, 0] A slices_S3x100000x64_S1x100000x64_2_0_0) shapeCasts_S1x100000x64_S100000x64
      = fun i => A (ix3 2 (i 0) (i 1)) :=
  s34_slab64_eq 2 _ rfl A _

/-- An [N, 64] array given a leading unit axis, read at (0, n, d). -/
theorem s34_lift64_apply {α : Type} (A : S100000x64.Idx → α) (n : Fin 100000) (d : Fin 64) :
    broadcastInDim S1x100000x64 ![1, 2] bcast_S100000x64_S1x100000x64_1_2 A (ix3 0 n d) = A (ix2 n d) :=
  broadcastInDim_apply _ bcast_S100000x64_S1x100000x64_1_2 A (ix3 0 n d) (ix2 n d) (fun a => match a with
    | ⟨0, _⟩ => by show n.val = if (100000 : Nat) = 1 then 0 else n.val; rw [if_neg (by decide)]
    | ⟨1, _⟩ => by show d.val = if (64 : Nat) = 1 then 0 else d.val; rw [if_neg (by decide)])

/-! ## Layout operations at width 2 read at an index -/

/-- A [1, N, 2] slice of a [3, N, 2] array starting at (r, 0, 0), with the unit axis dropped, is slab r. -/
theorem s34_slab2_eq {α : Type} (r : Fin 3) (off : Fin 3 → Nat) (hoff : off = ![r.val, 0, 0]) (A : S3x100000x2.Idx → α)
    (hsl : S3x100000x2.Slices off S1x100000x2) :
    shapeCast S100000x2 (extractStridedSlice S1x100000x2 off A hsl) shapeCasts_S1x100000x2_S100000x2 = fun i => A (ix3 r (i 0) (i 1)) := by
  subst hoff
  funext i
  obtain ⟨n, d, rfl⟩ : ∃ (n : Fin 100000) (d : Fin 2), i = ix2 n d := ⟨i 0, i 1, eq_ix2 i⟩
  show _ = A (ix3 r n d)
  rw [shapeCast_apply _ shapeCasts_S1x100000x2_S100000x2 (ix2 n d) (ix3 0 n d) (by
    rw [Shape.rowMajor_val_three, Shape.rowMajor_val_two]
    show (0 * 100000 + n.val) * 2 + d.val = n.val * 2 + d.val
    omega)]
  exact extractStridedSlice_apply _ A hsl (ix3 0 n d) (ix3 r n d) (fun a => match a with
    | ⟨0, _⟩ => by show r.val = r.val + 0; omega
    | ⟨1, _⟩ => by show n.val = 0 + n.val; omega
    | ⟨2, _⟩ => by show d.val = 0 + d.val; omega)

theorem s34_slab2_0 (A : Vec Ideal S3x100000x2 .f32) :
    shapeCast S100000x2 (extractStridedSlice S1x100000x2 ![0, 0, 0] A slices_S3x100000x2_S1x100000x2_0_0_0) shapeCasts_S1x100000x2_S100000x2
      = fun i => A (ix3 0 (i 0) (i 1)) :=
  s34_slab2_eq 0 _ rfl A _

theorem s34_slab2_1 (A : Vec Ideal S3x100000x2 .f32) :
    shapeCast S100000x2 (extractStridedSlice S1x100000x2 ![1, 0, 0] A slices_S3x100000x2_S1x100000x2_1_0_0) shapeCasts_S1x100000x2_S100000x2
      = fun i => A (ix3 1 (i 0) (i 1)) :=
  s34_slab2_eq 1 _ rfl A _

theorem s34_slab2_2 (A : Vec Ideal S3x100000x2 .f32) :
    shapeCast S100000x2 (extractStridedSlice S1x100000x2 ![2, 0, 0] A slices_S3x100000x2_S1x100000x2_2_0_0) shapeCasts_S1x100000x2_S100000x2
      = fun i => A (ix3 2 (i 0) (i 1)) :=
  s34_slab2_eq 2 _ rfl A _

/-- An [N, 2] array given a leading unit axis, read at (0, n, d). -/
theorem s34_lift2_apply {α : Type} (A : S100000x2.Idx → α) (n : Fin 100000) (d : Fin 2) :
    broadcastInDim S1x100000x2 ![1, 2] bcast_S100000x2_S1x100000x2_1_2 A (ix3 0 n d) = A (ix2 n d) :=
  broadcastInDim_apply _ bcast_S100000x2_S1x100000x2_1_2 A (ix3 0 n d) (ix2 n d) (fun a => match a with
    | ⟨0, _⟩ => by show n.val = if (100000 : Nat) = 1 then 0 else n.val; rw [if_neg (by decide)]
    | ⟨1, _⟩ => by show d.val = if (2 : Nat) = 1 then 0 else d.val; rw [if_neg (by decide)])

/-! # Layer 3: the glue between the pretransform's [3, N, 64] array and the postagg's -/

/-! ## What each stretch leaves, over any contents before it -/

theorem s34_h5_0_keep (V : Valuation τ sig (Elt Ideal)) (r : Ref sig .tc) (h : r ∉ hostOps5_W) :
    StableHlo.after hostOps5 V (Proc.devRef .tc r) = V (Proc.devRef .tc r) :=
  StableHlo.after_of_writes_sub hostOps5 V hostOps5_writes h

theorem s34_h5_1_keep (V : Valuation τ sig (Elt Ideal)) (r : Ref sig .tc) (h : r ∉ hostOps5_1_W) :
    StableHlo.after hostOps5_1 V (Proc.devRef .tc r) = V (Proc.devRef .tc r) :=
  StableHlo.after_of_writes_sub hostOps5_1 V hostOps5_1_writes h

theorem s34_h5_2_keep (V : Valuation τ sig (Elt Ideal)) (r : Ref sig .tc) (h : r ∉ hostOps5_2_W) :
    StableHlo.after hostOps5_2 V (Proc.devRef .tc r) = V (Proc.devRef .tc r) :=
  StableHlo.after_of_writes_sub hostOps5_2 V hostOps5_2_writes h

theorem s34_h5_3_keep (V : Valuation τ sig (Elt Ideal)) (r : Ref sig .tc) (h : r ∉ hostOps5_3_W) :
    StableHlo.after hostOps5_3 V (Proc.devRef .tc r) = V (Proc.devRef .tc r) :=
  StableHlo.after_of_writes_sub hostOps5_3 V hostOps5_3_writes h

theorem s34_h5_4_keep (V : Valuation τ sig (Elt Ideal)) (r : Ref sig .tc) (h : r ∉ hostOps5_4_W) :
    StableHlo.after hostOps5_4 V (Proc.devRef .tc r) = V (Proc.devRef .tc r) :=
  StableHlo.after_of_writes_sub hostOps5_4 V hostOps5_4_writes h

theorem s34_h5_5_keep (V : Valuation τ sig (Elt Ideal)) (r : Ref sig .tc) (h : r ∉ hostOps5_5_W) :
    StableHlo.after hostOps5_5 V (Proc.devRef .tc r) = V (Proc.devRef .tc r) :=
  StableHlo.after_of_writes_sub hostOps5_5 V hostOps5_5_writes h

theorem s34_h5_6_keep (V : Valuation τ sig (Elt Ideal)) (r : Ref sig .tc) (h : r ∉ hostOps5_6_W) :
    StableHlo.after hostOps5_6 V (Proc.devRef .tc r) = V (Proc.devRef .tc r) :=
  StableHlo.after_of_writes_sub hostOps5_6 V hostOps5_6_writes h

/-- Relation 0's slab of the pretransform's array, with the unit axis dropped. -/
theorem s34_h5_0_x0 (V : Valuation τ sig (Elt Ideal)) :
    (StableHlo.after hostOps5 V main_v125 : Vec Ideal S100000x64 .f32) = (shapeCast S100000x64 (extractStridedSlice S1x100000x64 ![0, 0, 0] (V main_v123 : Vec Ideal S3x100000x64 .f32) slices_S3x100000x64_S1x100000x64_0_0_0) shapeCasts_S1x100000x64_S100000x64) := by
  show StableHlo.after hostOps5 V (Proc.devRef .tc main_v125) = _
  after_results
  rfl

/-- Relation 0's row of the source-index table. -/
theorem s34_h5_0_v0 (V : Valuation τ sig (Elt Ideal)) :
    (StableHlo.after hostOps5 V main_v127 : IVec S800000 32) = (shapeCast S800000 (extractStridedSlice S1x800000 ![0, 0] (V main_arg1 : IVec S3x800000 32) slices_S3x800000_S1x800000_0_0) shapeCasts_S1x800000_S800000) := by
  show StableHlo.after hostOps5 V (Proc.devRef .tc main_v127) = _
  after_results
  rfl

/-- Relation 1's slab of the pretransform's array, with the unit axis dropped. -/
theorem s34_h5_2_x1 (V : Valuation τ sig (Elt Ideal)) :
    (StableHlo.after hostOps5_2 V main_v135 : Vec Ideal S100000x64 .f32) = (shapeCast S100000x64 (extractStridedSlice S1x100000x64 ![1, 0, 0] (V main_v123 : Vec Ideal S3x100000x64 .f32) slices_S3x100000x64_S1x100000x64_1_0_0) shapeCasts_S1x100000x64_S100000x64) := by
  show StableHlo.after hostOps5_2 V (Proc.devRef .tc main_v135) = _
  after_results
  rfl

/-- Relation 1's row of the source-index table. -/
theorem s34_h5_2_v1 (V : Valuation τ sig (Elt Ideal)) :
    (StableHlo.after hostOps5_2 V main_v137 : IVec S800000 32) = (shapeCast S800000 (extractStridedSlice S1x800000 ![1, 0] (V main_arg1 : IVec S3x800000 32) slices_S3x800000_S1x800000_1_0) shapeCasts_S1x800000_S800000) := by
  show StableHlo.after hostOps5_2 V (Proc.devRef .tc main_v137) = _
  after_results
  rfl

/-- Relation 2's slab of the pretransform's array, with the unit axis dropped. -/
theorem s34_h5_4_x2 (V : Valuation τ sig (Elt Ideal)) :
    (StableHlo.after hostOps5_4 V main_v145 : Vec Ideal S100000x64 .f32) = (shapeCast S100000x64 (extractStridedSlice S1x100000x64 ![2, 0, 0] (V main_v123 : Vec Ideal S3x100000x64 .f32) slices_S3x100000x64_S1x100000x64_2_0_0) shapeCasts_S1x100000x64_S100000x64) := by
  show StableHlo.after hostOps5_4 V (Proc.devRef .tc main_v145) = _
  after_results
  rfl

/-- Relation 2's row of the source-index table. -/
theorem s34_h5_4_v2 (V : Valuation τ sig (Elt Ideal)) :
    (StableHlo.after hostOps5_4 V main_v147 : IVec S800000 32) = (shapeCast S800000 (extractStridedSlice S1x800000 ![2, 0] (V main_arg1 : IVec S3x800000 32) slices_S3x800000_S1x800000_2_0) shapeCasts_S1x800000_S800000) := by
  show StableHlo.after hostOps5_4 V (Proc.devRef .tc main_v147) = _
  after_results
  rfl

/-- Relation 0's index-taking function: its operations in order are take64. -/
theorem s34_h5_1_t0 (V : Valuation τ sig (Elt Ideal)) :
    (StableHlo.after hostOps5_1 V main_v128 : Vec Ideal S800000x64 .f32)
      = take64 (V main_v125 : Vec Ideal S100000x64 .f32) (V main_v127 : IVec S800000 32) := by
  have ev : (TRef.of main_v127 : TRef sig ⟨S800000, .i32⟩).ofBuf (V (Proc.devRef .tc main_v127)) = (V main_v127 : IVec S800000 32) := rfl
  have ex : (TRef.of main_v125 : TRef sig ⟨S100000x64, .f32⟩).ofBuf (V (Proc.devRef .tc main_v125)) = (V main_v125 : Vec Ideal S100000x64 .f32) := rfl
  have et : ∀ y : Vec Ideal S800000x64 .f32, (TRef.of main_v128 : TRef sig ⟨S800000x64, .f32⟩).toBuf (Val := Elt Ideal) y = y := fun _ => rfl
  show StableHlo.after hostOps5_1 V (Proc.devRef .tc main_v128) = _
  after_results_simp
  simp only [s34_ofBuf_toBuf]
  rw [ev, ex, et]
  rfl

/-- Relation 1's index-taking function: its operations in order are take64. -/
theorem s34_h5_3_t1 (V : Valuation τ sig (Elt Ideal)) :
    (StableHlo.after hostOps5_3 V main_v138 : Vec Ideal S800000x64 .f32)
      = take64 (V main_v135 : Vec Ideal S100000x64 .f32) (V main_v137 : IVec S800000 32) := by
  have ev : (TRef.of main_v137 : TRef sig ⟨S800000, .i32⟩).ofBuf (V (Proc.devRef .tc main_v137)) = (V main_v137 : IVec S800000 32) := rfl
  have ex : (TRef.of main_v135 : TRef sig ⟨S100000x64, .f32⟩).ofBuf (V (Proc.devRef .tc main_v135)) = (V main_v135 : Vec Ideal S100000x64 .f32) := rfl
  have et : ∀ y : Vec Ideal S800000x64 .f32, (TRef.of main_v138 : TRef sig ⟨S800000x64, .f32⟩).toBuf (Val := Elt Ideal) y = y := fun _ => rfl
  show StableHlo.after hostOps5_3 V (Proc.devRef .tc main_v138) = _
  after_results_simp
  simp only [s34_ofBuf_toBuf]
  rw [ev, ex, et]
  rfl

/-- Relation 2's index-taking function: its operations in order are take64. -/
theorem s34_h5_5_t2 (V : Valuation τ sig (Elt Ideal)) :
    (StableHlo.after hostOps5_5 V main_v148 : Vec Ideal S800000x64 .f32)
      = take64 (V main_v145 : Vec Ideal S100000x64 .f32) (V main_v147 : IVec S800000 32) := by
  have ev : (TRef.of main_v147 : TRef sig ⟨S800000, .i32⟩).ofBuf (V (Proc.devRef .tc main_v147)) = (V main_v147 : IVec S800000 32) := rfl
  have ex : (TRef.of main_v145 : TRef sig ⟨S100000x64, .f32⟩).ofBuf (V (Proc.devRef .tc main_v145)) = (V main_v145 : Vec Ideal S100000x64 .f32) := rfl
  have et : ∀ y : Vec Ideal S800000x64 .f32, (TRef.of main_v148 : TRef sig ⟨S800000x64, .f32⟩).toBuf (Val := Elt Ideal) y = y := fun _ => rfl
  show StableHlo.after hostOps5_5 V (Proc.devRef .tc main_v148) = _
  after_results_simp
  simp only [s34_ofBuf_toBuf]
  rw [ev, ex, et]
  rfl

/-- Relation 0's scatter-add: zeros, the destination column, the taken rows. -/
theorem s34_h5_2_s0 (V : Valuation τ sig (Elt Ideal)) :
    (StableHlo.after hostOps5_2 V main_v133 : Vec Ideal S100000x64 .f32)
      = Host.scatterAdd scatter_S100000x64_S800000x1_S800000x64_1_0_0_1 (broadcastInDim S100000x64 ![] bcast_S_S100000x64 (constant (F := Ideal) S_ .f32 0x00000000#32))
          (Spec.idx0 (V main_arg2 : IVec S3x800000 32)) (V main_v128 : Vec Ideal S800000x64 .f32) := by
  show StableHlo.after hostOps5_2 V (Proc.devRef .tc main_v133) = _
  after_results
  rfl

/-- Relation 1's scatter-add: zeros, the destination column, the taken rows. -/
theorem s34_h5_4_s1 (V : Valuation τ sig (Elt Ideal)) :
    (StableHlo.after hostOps5_4 V main_v143 : Vec Ideal S100000x64 .f32)
      = Host.scatterAdd scatter_S100000x64_S800000x1_S800000x64_1_0_0_1 (broadcastInDim S100000x64 ![] bcast_S_S100000x64 (constant (F := Ideal) S_ .f32 0x00000000#32))
          (Spec.idx1 (V main_arg2 : IVec S3x800000 32)) (V main_v138 : Vec Ideal S800000x64 .f32) := by
  show StableHlo.after hostOps5_4 V (Proc.devRef .tc main_v143) = _
  after_results
  rfl

/-! ## The last stretch: relation 2's scatter-add, the three results given a leading unit axis, and the stack -/

theorem s34_h5_6_pre0 (V : Valuation τ sig (Elt Ideal)) :
    (StableHlo.after hostOps5_6.dropLast V main_v154 : Vec Ideal S1x100000x64 .f32) = (broadcastInDim S1x100000x64 ![1, 2] bcast_S100000x64_S1x100000x64_1_2 (V main_v133 : Vec Ideal S100000x64 .f32)) := by
  show StableHlo.after hostOps5_6.dropLast V (Proc.devRef .tc main_v154) = _
  simp (disch := decide) only [List.dropLast, StableHlo.after_cons, StableHlo.after_nil, nullary_result', unary_result', ternary_result', reshape_result',
    nullary_result_ne', unary_result_ne', ternary_result_ne', reshape_result_ne']

theorem s34_h5_6_pre1 (V : Valuation τ sig (Elt Ideal)) :
    (StableHlo.after hostOps5_6.dropLast V main_v155 : Vec Ideal S1x100000x64 .f32) = (broadcastInDim S1x100000x64 ![1, 2] bcast_S100000x64_S1x100000x64_1_2 (V main_v143 : Vec Ideal S100000x64 .f32)) := by
  show StableHlo.after hostOps5_6.dropLast V (Proc.devRef .tc main_v155) = _
  simp (disch := decide) only [List.dropLast, StableHlo.after_cons, StableHlo.after_nil, nullary_result', unary_result', ternary_result', reshape_result',
    nullary_result_ne', unary_result_ne', ternary_result_ne', reshape_result_ne']

theorem s34_h5_6_pre2 (V : Valuation τ sig (Elt Ideal)) :
    (StableHlo.after hostOps5_6.dropLast V main_v156 : Vec Ideal S1x100000x64 .f32) = (broadcastInDim S1x100000x64 ![1, 2] bcast_S100000x64_S1x100000x64_1_2 (Host.scatterAdd scatter_S100000x64_S800000x1_S800000x64_1_0_0_1 (broadcastInDim S100000x64 ![] bcast_S_S100000x64 (constant (F := Ideal) S_ .f32 0x00000000#32))
              (Spec.idx2 (V main_arg2 : IVec S3x800000 32)) (V main_v148 : Vec Ideal S800000x64 .f32))) := by
  show StableHlo.after hostOps5_6.dropLast V (Proc.devRef .tc main_v156) = _
  simp (disch := decide) only [List.dropLast, StableHlo.after_cons, StableHlo.after_nil, nullary_result', unary_result', ternary_result', reshape_result',
    nullary_result_ne', unary_result_ne', ternary_result_ne', reshape_result_ne']
  rfl

/-- The stack as a whole array: the concatenation along a new leading axis of the three relations' results. -/
theorem s34_h5_6_outA (V : Valuation τ sig (Elt Ideal)) :
    (StableHlo.after hostOps5_6 V main_v157 : Vec Ideal S3x100000x64 .f32)
      = concatenate S3x100000x64 0
          [⟨S1x100000x64, (broadcastInDim S1x100000x64 ![1, 2] bcast_S100000x64_S1x100000x64_1_2 (V main_v133 : Vec Ideal S100000x64 .f32))⟩,
           ⟨S1x100000x64, (broadcastInDim S1x100000x64 ![1, 2] bcast_S100000x64_S1x100000x64_1_2 (V main_v143 : Vec Ideal S100000x64 .f32))⟩,
           ⟨S1x100000x64, (broadcastInDim S1x100000x64 ![1, 2] bcast_S100000x64_S1x100000x64_1_2 (Host.scatterAdd scatter_S100000x64_S800000x1_S800000x64_1_0_0_1 (broadcastInDim S100000x64 ![] bcast_S_S100000x64 (constant (F := Ideal) S_ .f32 0x00000000#32))
              (Spec.idx2 (V main_arg2 : IVec S3x800000 32)) (V main_v148 : Vec Ideal S800000x64 .f32)))⟩]
          concatenates_S1x100000x64_S1x100000x64_S1x100000x64_S3x100000x64_d0 := by
  show StableHlo.after (hostOps5_6.dropLast ++ [StableHlo.nary ![main_v154, main_v155, main_v156] main_v157
      (fun u => concatenate S3x100000x64 0 [⟨S1x100000x64, u 0⟩, ⟨S1x100000x64, u 1⟩, ⟨S1x100000x64, u 2⟩] concatenates_S1x100000x64_S1x100000x64_S1x100000x64_S3x100000x64_d0) _ _]) V (Proc.devRef .tc main_v157) = _
  rw [s34_after_concat, Cert.Lib.nary3_result, s34_h5_6_pre0, s34_h5_6_pre1, s34_h5_6_pre2]
  rfl

/-- The same, read at an index. -/
theorem s34_h5_6_out (V : Valuation τ sig (Elt Ideal)) (j : S3x100000x64.Idx) :
    (StableHlo.after hostOps5_6 V main_v157 : Vec Ideal S3x100000x64 .f32) j
      = concatenate S3x100000x64 0
          [⟨S1x100000x64, (broadcastInDim S1x100000x64 ![1, 2] bcast_S100000x64_S1x100000x64_1_2 (V main_v133 : Vec Ideal S100000x64 .f32))⟩,
           ⟨S1x100000x64, (broadcastInDim S1x100000x64 ![1, 2] bcast_S100000x64_S1x100000x64_1_2 (V main_v143 : Vec Ideal S100000x64 .f32))⟩,
           ⟨S1x100000x64, (broadcastInDim S1x100000x64 ![1, 2] bcast_S100000x64_S1x100000x64_1_2 (Host.scatterAdd scatter_S100000x64_S800000x1_S800000x64_1_0_0_1 (broadcastInDim S100000x64 ![] bcast_S_S100000x64 (constant (F := Ideal) S_ .f32 0x00000000#32))
              (Spec.idx2 (V main_arg2 : IVec S3x800000 32)) (V main_v148 : Vec Ideal S800000x64 .f32)))⟩]
          concatenates_S1x100000x64_S1x100000x64_S1x100000x64_S3x100000x64_d0 j :=
  congrFun (s34_h5_6_outA V) j

/-! ## The three relations' aggregates of layer 3, from the contents before the glue -/

/-- Relation 0's aggregate: slab 0 gathered at row 0 of the source indices, added up at row 0 of the destination indices. -/
theorem s34_agg3_0 (W : Valuation τ sig (Elt Ideal)) (hs : Spec.SrcInRange (W main_arg1 : IVec S3x800000 32)) :
    ((StableHlo.after hostOps5_2 (StableHlo.after hostOps5_1 (StableHlo.after hostOps5 W))) main_v133 : Vec Ideal S100000x64 .f32)
      = Spec.agg64 (fun i => (W main_v123 : Vec Ideal S3x100000x64 .f32) (ix3 0 (i 0) (i 1))) (Spec.idx0 (W main_arg1 : IVec S3x800000 32)) (Spec.idx0 (W main_arg2 : IVec S3x800000 32)) := by
  rw [s34_h5_2_s0,
    s34_h5_1_keep _ main_arg2 (by decide),
    s34_h5_0_keep _ main_arg2 (by decide),
    s34_h5_1_t0,
    s34_h5_0_x0,
    s34_h5_0_v0,
    take64_eq _ _ (row_0_inRange _ hs),
    s34_slab64_0]
  rfl

/-- Relation 1's aggregate: slab 1 gathered at row 1 of the source indices, added up at row 1 of the destination indices. -/
theorem s34_agg3_1 (W : Valuation τ sig (Elt Ideal)) (hs : Spec.SrcInRange (W main_arg1 : IVec S3x800000 32)) :
    ((StableHlo.after hostOps5_4 (StableHlo.after hostOps5_3 (StableHlo.after hostOps5_2 (StableHlo.after hostOps5_1 (StableHlo.after hostOps5 W))))) main_v143 : Vec Ideal S100000x64 .f32)
      = Spec.agg64 (fun i => (W main_v123 : Vec Ideal S3x100000x64 .f32) (ix3 1 (i 0) (i 1))) (Spec.idx1 (W main_arg1 : IVec S3x800000 32)) (Spec.idx1 (W main_arg2 : IVec S3x800000 32)) := by
  rw [s34_h5_4_s1,
    s34_h5_3_keep _ main_arg2 (by decide),
    s34_h5_2_keep _ main_arg2 (by decide),
    s34_h5_1_keep _ main_arg2 (by decide),
    s34_h5_0_keep _ main_arg2 (by decide),
    s34_h5_3_t1,
    s34_h5_2_x1,
    s34_h5_2_v1,
    s34_h5_1_keep _ main_v123 (by decide),
    s34_h5_0_keep _ main_v123 (by decide),
    s34_h5_1_keep _ main_arg1 (by decide),
    s34_h5_0_keep _ main_arg1 (by decide),
    take64_eq _ _ (row_1_inRange _ hs),
    s34_slab64_1]
  rfl

/-- Relation 2's aggregate: slab 2 gathered at row 2 of the source indices, added up at row 2 of the destination indices. -/
theorem s34_agg3_2 (W : Valuation τ sig (Elt Ideal)) (hs : Spec.SrcInRange (W main_arg1 : IVec S3x800000 32)) :
    Host.scatterAdd scatter_S100000x64_S800000x1_S800000x64_1_0_0_1 (broadcastInDim S100000x64 ![] bcast_S_S100000x64 (constant (F := Ideal) S_ .f32 0x00000000#32))
              (Spec.idx2 ((StableHlo.after hostOps5_5 (StableHlo.after hostOps5_4 (StableHlo.after hostOps5_3 (StableHlo.after hostOps5_2 (StableHlo.after hostOps5_1 (StableHlo.after hostOps5 W)))))) main_arg2 : IVec S3x800000 32)) ((StableHlo.after hostOps5_5 (StableHlo.after hostOps5_4 (StableHlo.after hostOps5_3 (StableHlo.after hostOps5_2 (StableHlo.after hostOps5_1 (StableHlo.after hostOps5 W)))))) main_v148 : Vec Ideal S800000x64 .f32)
      = Spec.agg64 (fun i => (W main_v123 : Vec Ideal S3x100000x64 .f32) (ix3 2 (i 0) (i 1))) (Spec.idx2 (W main_arg1 : IVec S3x800000 32)) (Spec.idx2 (W main_arg2 : IVec S3x800000 32)) := by
  rw [s34_h5_5_keep _ main_arg2 (by decide),
    s34_h5_4_keep _ main_arg2 (by decide),
    s34_h5_3_keep _ main_arg2 (by decide),
    s34_h5_2_keep _ main_arg2 (by decide),
    s34_h5_1_keep _ main_arg2 (by decide),
    s34_h5_0_keep _ main_arg2 (by decide),
    s34_h5_5_t2,
    s34_h5_4_x2,
    s34_h5_4_v2,
    s34_h5_3_keep _ main_v123 (by decide),
    s34_h5_2_keep _ main_v123 (by decide),
    s34_h5_1_keep _ main_v123 (by decide),
    s34_h5_0_keep _ main_v123 (by decide),
    s34_h5_3_keep _ main_arg1 (by decide),
    s34_h5_2_keep _ main_arg1 (by decide),
    s34_h5_1_keep _ main_arg1 (by decide),
    s34_h5_0_keep _ main_arg1 (by decide),
    take64_eq _ _ (row_2_inRange _ hs),
    s34_slab64_2]
  rfl

/-! ## The stack of layer 3 read at an index -/

theorem s34_stack3_0 (W : Valuation τ sig (Elt Ideal)) (hs : Spec.SrcInRange (W main_arg1 : IVec S3x800000 32))
    (n : Fin 100000) (d : Fin 64) :
    ((StableHlo.after hostOps5_6 (StableHlo.after hostOps5_5 (StableHlo.after hostOps5_4 (StableHlo.after hostOps5_3 (StableHlo.after hostOps5_2 (StableHlo.after hostOps5_1 (StableHlo.after hostOps5 W))))))) main_v157 : Vec Ideal S3x100000x64 .f32) (ix3 0 n d)
      = Spec.agg64 (fun i => (W main_v123 : Vec Ideal S3x100000x64 .f32) (ix3 0 (i 0) (i 1))) (Spec.idx0 (W main_arg1 : IVec S3x800000 32)) (Spec.idx0 (W main_arg2 : IVec S3x800000 32)) (ix2 n d) := by
  rw [s34_h5_6_out]
  rw [Cert.Lib.concatenate3_unit_apply (t := S3x100000x64) (s₁ := S1x100000x64) 0 _ _ _ _ rfl rfl (ix3 0 n d) 0 rfl (ix3 0 n d) (fun b hb => match b with
      | ⟨0, _⟩ => absurd rfl hb
      | ⟨1, _⟩ => rfl
      | ⟨2, _⟩ => rfl)]
  rw [s34_pick0]
  rw [s34_lift64_apply, s34_h5_5_keep _ main_v133 (by decide), s34_h5_4_keep _ main_v133 (by decide), s34_h5_3_keep _ main_v133 (by decide), s34_agg3_0 W hs]

theorem s34_stack3_1 (W : Valuation τ sig (Elt Ideal)) (hs : Spec.SrcInRange (W main_arg1 : IVec S3x800000 32))
    (n : Fin 100000) (d : Fin 64) :
    ((StableHlo.after hostOps5_6 (StableHlo.after hostOps5_5 (StableHlo.after hostOps5_4 (StableHlo.after hostOps5_3 (StableHlo.after hostOps5_2 (StableHlo.after hostOps5_1 (StableHlo.after hostOps5 W))))))) main_v157 : Vec Ideal S3x100000x64 .f32) (ix3 1 n d)
      = Spec.agg64 (fun i => (W main_v123 : Vec Ideal S3x100000x64 .f32) (ix3 1 (i 0) (i 1))) (Spec.idx1 (W main_arg1 : IVec S3x800000 32)) (Spec.idx1 (W main_arg2 : IVec S3x800000 32)) (ix2 n d) := by
  rw [s34_h5_6_out]
  rw [Cert.Lib.concatenate3_unit_apply (t := S3x100000x64) (s₁ := S1x100000x64) 0 _ _ _ _ rfl rfl (ix3 1 n d) 1 rfl (ix3 0 n d) (fun b hb => match b with
      | ⟨0, _⟩ => absurd rfl hb
      | ⟨1, _⟩ => rfl
      | ⟨2, _⟩ => rfl)]
  rw [s34_pick1]
  rw [s34_lift64_apply, s34_h5_5_keep _ main_v143 (by decide), s34_agg3_1 W hs]

theorem s34_stack3_2 (W : Valuation τ sig (Elt Ideal)) (hs : Spec.SrcInRange (W main_arg1 : IVec S3x800000 32))
    (n : Fin 100000) (d : Fin 64) :
    ((StableHlo.after hostOps5_6 (StableHlo.after hostOps5_5 (StableHlo.after hostOps5_4 (StableHlo.after hostOps5_3 (StableHlo.after hostOps5_2 (StableHlo.after hostOps5_1 (StableHlo.after hostOps5 W))))))) main_v157 : Vec Ideal S3x100000x64 .f32) (ix3 2 n d)
      = Spec.agg64 (fun i => (W main_v123 : Vec Ideal S3x100000x64 .f32) (ix3 2 (i 0) (i 1))) (Spec.idx2 (W main_arg1 : IVec S3x800000 32)) (Spec.idx2 (W main_arg2 : IVec S3x800000 32)) (ix2 n d) := by
  rw [s34_h5_6_out]
  rw [Cert.Lib.concatenate3_unit_apply (t := S3x100000x64) (s₁ := S1x100000x64) 0 _ _ _ _ rfl rfl (ix3 2 n d) 2 rfl (ix3 0 n d) (fun b hb => match b with
      | ⟨0, _⟩ => absurd rfl hb
      | ⟨1, _⟩ => rfl
      | ⟨2, _⟩ => rfl)]
  rw [s34_pick2]
  rw [s34_lift64_apply, s34_agg3_2 W hs]

/-- The stack of layer 3 read at (r, n, d): relation r's aggregate of slab r at (n, d). -/
theorem stack3_apply (W : Valuation τ sig (Elt Ideal)) (hs : Spec.SrcInRange (W main_arg1 : IVec S3x800000 32))
    (r : Fin 3) (n : Fin 100000) (d : Fin 64) :
    ((StableHlo.after hostOps5_6 (StableHlo.after hostOps5_5 (StableHlo.after hostOps5_4 (StableHlo.after hostOps5_3 (StableHlo.after hostOps5_2 (StableHlo.after hostOps5_1 (StableHlo.after hostOps5 W))))))) main_v157 : Vec Ideal S3x100000x64 .f32) (ix3 r n d)
      = Spec.agg64 (fun i => (W main_v123 : Vec Ideal S3x100000x64 .f32) (ix3 r (i 0) (i 1))) (idxr r (W main_arg1 : IVec S3x800000 32))
          (idxr r (W main_arg2 : IVec S3x800000 32)) (ix2 n d) :=
  match r with
  | ⟨0, _⟩ => s34_stack3_0 W hs n d
  | ⟨1, _⟩ => s34_stack3_1 W hs n d
  | ⟨2, _⟩ => s34_stack3_2 W hs n d

/-! # Layer 4: the glue between the pretransform's [3, N, 2] array and the postagg's -/

/-! ## What each stretch leaves, over any contents before it -/

theorem s34_h7_0_keep (V : Valuation τ sig (Elt Ideal)) (r : Ref sig .tc) (h : r ∉ hostOps7_W) :
    StableHlo.after hostOps7 V (Proc.devRef .tc r) = V (Proc.devRef .tc r) :=
  StableHlo.after_of_writes_sub hostOps7 V hostOps7_writes h

theorem s34_h7_1_keep (V : Valuation τ sig (Elt Ideal)) (r : Ref sig .tc) (h : r ∉ hostOps7_1_W) :
    StableHlo.after hostOps7_1 V (Proc.devRef .tc r) = V (Proc.devRef .tc r) :=
  StableHlo.after_of_writes_sub hostOps7_1 V hostOps7_1_writes h

theorem s34_h7_2_keep (V : Valuation τ sig (Elt Ideal)) (r : Ref sig .tc) (h : r ∉ hostOps7_2_W) :
    StableHlo.after hostOps7_2 V (Proc.devRef .tc r) = V (Proc.devRef .tc r) :=
  StableHlo.after_of_writes_sub hostOps7_2 V hostOps7_2_writes h

theorem s34_h7_3_keep (V : Valuation τ sig (Elt Ideal)) (r : Ref sig .tc) (h : r ∉ hostOps7_3_W) :
    StableHlo.after hostOps7_3 V (Proc.devRef .tc r) = V (Proc.devRef .tc r) :=
  StableHlo.after_of_writes_sub hostOps7_3 V hostOps7_3_writes h

theorem s34_h7_4_keep (V : Valuation τ sig (Elt Ideal)) (r : Ref sig .tc) (h : r ∉ hostOps7_4_W) :
    StableHlo.after hostOps7_4 V (Proc.devRef .tc r) = V (Proc.devRef .tc r) :=
  StableHlo.after_of_writes_sub hostOps7_4 V hostOps7_4_writes h

theorem s34_h7_5_keep (V : Valuation τ sig (Elt Ideal)) (r : Ref sig .tc) (h : r ∉ hostOps7_5_W) :
    StableHlo.after hostOps7_5 V (Proc.devRef .tc r) = V (Proc.devRef .tc r) :=
  StableHlo.after_of_writes_sub hostOps7_5 V hostOps7_5_writes h

theorem s34_h7_6_keep (V : Valuation τ sig (Elt Ideal)) (r : Ref sig .tc) (h : r ∉ hostOps7_6_W) :
    StableHlo.after hostOps7_6 V (Proc.devRef .tc r) = V (Proc.devRef .tc r) :=
  StableHlo.after_of_writes_sub hostOps7_6 V hostOps7_6_writes h

/-- Relation 0's slab of the pretransform's array, with the unit axis dropped. -/
theorem s34_h7_0_x0 (V : Valuation τ sig (Elt Ideal)) :
    (StableHlo.after hostOps7 V main_v161 : Vec Ideal S100000x2 .f32) = (shapeCast S100000x2 (extractStridedSlice S1x100000x2 ![0, 0, 0] (V main_v159 : Vec Ideal S3x100000x2 .f32) slices_S3x100000x2_S1x100000x2_0_0_0) shapeCasts_S1x100000x2_S100000x2) := by
  show StableHlo.after hostOps7 V (Proc.devRef .tc main_v161) = _
  after_results
  rfl

/-- Relation 0's row of the source-index table. -/
theorem s34_h7_0_v0 (V : Valuation τ sig (Elt Ideal)) :
    (StableHlo.after hostOps7 V main_v163 : IVec S800000 32) = (shapeCast S800000 (extractStridedSlice S1x800000 ![0, 0] (V main_arg1 : IVec S3x800000 32) slices_S3x800000_S1x800000_0_0) shapeCasts_S1x800000_S800000) := by
  show StableHlo.after hostOps7 V (Proc.devRef .tc main_v163) = _
  after_results
  rfl

/-- Relation 1's slab of the pretransform's array, with the unit axis dropped. -/
theorem s34_h7_2_x1 (V : Valuation τ sig (Elt Ideal)) :
    (StableHlo.after hostOps7_2 V main_v171 : Vec Ideal S100000x2 .f32) = (shapeCast S100000x2 (extractStridedSlice S1x100000x2 ![1, 0, 0] (V main_v159 : Vec Ideal S3x100000x2 .f32) slices_S3x100000x2_S1x100000x2_1_0_0) shapeCasts_S1x100000x2_S100000x2) := by
  show StableHlo.after hostOps7_2 V (Proc.devRef .tc main_v171) = _
  after_results
  rfl

/-- Relation 1's row of the source-index table. -/
theorem s34_h7_2_v1 (V : Valuation τ sig (Elt Ideal)) :
    (StableHlo.after hostOps7_2 V main_v173 : IVec S800000 32) = (shapeCast S800000 (extractStridedSlice S1x800000 ![1, 0] (V main_arg1 : IVec S3x800000 32) slices_S3x800000_S1x800000_1_0) shapeCasts_S1x800000_S800000) := by
  show StableHlo.after hostOps7_2 V (Proc.devRef .tc main_v173) = _
  after_results
  rfl

/-- Relation 2's slab of the pretransform's array, with the unit axis dropped. -/
theorem s34_h7_4_x2 (V : Valuation τ sig (Elt Ideal)) :
    (StableHlo.after hostOps7_4 V main_v181 : Vec Ideal S100000x2 .f32) = (shapeCast S100000x2 (extractStridedSlice S1x100000x2 ![2, 0, 0] (V main_v159 : Vec Ideal S3x100000x2 .f32) slices_S3x100000x2_S1x100000x2_2_0_0) shapeCasts_S1x100000x2_S100000x2) := by
  show StableHlo.after hostOps7_4 V (Proc.devRef .tc main_v181) = _
  after_results
  rfl

/-- Relation 2's row of the source-index table. -/
theorem s34_h7_4_v2 (V : Valuation τ sig (Elt Ideal)) :
    (StableHlo.after hostOps7_4 V main_v183 : IVec S800000 32) = (shapeCast S800000 (extractStridedSlice S1x800000 ![2, 0] (V main_arg1 : IVec S3x800000 32) slices_S3x800000_S1x800000_2_0) shapeCasts_S1x800000_S800000) := by
  show StableHlo.after hostOps7_4 V (Proc.devRef .tc main_v183) = _
  after_results
  rfl

/-- Relation 0's index-taking function: its operations in order are take2. -/
theorem s34_h7_1_t0 (V : Valuation τ sig (Elt Ideal)) :
    (StableHlo.after hostOps7_1 V main_v164 : Vec Ideal S800000x2 .f32)
      = take2 (V main_v161 : Vec Ideal S100000x2 .f32) (V main_v163 : IVec S800000 32) := by
  have ev : (TRef.of main_v163 : TRef sig ⟨S800000, .i32⟩).ofBuf (V (Proc.devRef .tc main_v163)) = (V main_v163 : IVec S800000 32) := rfl
  have ex : (TRef.of main_v161 : TRef sig ⟨S100000x2, .f32⟩).ofBuf (V (Proc.devRef .tc main_v161)) = (V main_v161 : Vec Ideal S100000x2 .f32) := rfl
  have et : ∀ y : Vec Ideal S800000x2 .f32, (TRef.of main_v164 : TRef sig ⟨S800000x2, .f32⟩).toBuf (Val := Elt Ideal) y = y := fun _ => rfl
  show StableHlo.after hostOps7_1 V (Proc.devRef .tc main_v164) = _
  after_results_simp
  simp only [s34_ofBuf_toBuf]
  rw [ev, ex, et]
  rfl

/-- Relation 1's index-taking function: its operations in order are take2. -/
theorem s34_h7_3_t1 (V : Valuation τ sig (Elt Ideal)) :
    (StableHlo.after hostOps7_3 V main_v174 : Vec Ideal S800000x2 .f32)
      = take2 (V main_v171 : Vec Ideal S100000x2 .f32) (V main_v173 : IVec S800000 32) := by
  have ev : (TRef.of main_v173 : TRef sig ⟨S800000, .i32⟩).ofBuf (V (Proc.devRef .tc main_v173)) = (V main_v173 : IVec S800000 32) := rfl
  have ex : (TRef.of main_v171 : TRef sig ⟨S100000x2, .f32⟩).ofBuf (V (Proc.devRef .tc main_v171)) = (V main_v171 : Vec Ideal S100000x2 .f32) := rfl
  have et : ∀ y : Vec Ideal S800000x2 .f32, (TRef.of main_v174 : TRef sig ⟨S800000x2, .f32⟩).toBuf (Val := Elt Ideal) y = y := fun _ => rfl
  show StableHlo.after hostOps7_3 V (Proc.devRef .tc main_v174) = _
  after_results_simp
  simp only [s34_ofBuf_toBuf]
  rw [ev, ex, et]
  rfl

/-- Relation 2's index-taking function: its operations in order are take2. -/
theorem s34_h7_5_t2 (V : Valuation τ sig (Elt Ideal)) :
    (StableHlo.after hostOps7_5 V main_v184 : Vec Ideal S800000x2 .f32)
      = take2 (V main_v181 : Vec Ideal S100000x2 .f32) (V main_v183 : IVec S800000 32) := by
  have ev : (TRef.of main_v183 : TRef sig ⟨S800000, .i32⟩).ofBuf (V (Proc.devRef .tc main_v183)) = (V main_v183 : IVec S800000 32) := rfl
  have ex : (TRef.of main_v181 : TRef sig ⟨S100000x2, .f32⟩).ofBuf (V (Proc.devRef .tc main_v181)) = (V main_v181 : Vec Ideal S100000x2 .f32) := rfl
  have et : ∀ y : Vec Ideal S800000x2 .f32, (TRef.of main_v184 : TRef sig ⟨S800000x2, .f32⟩).toBuf (Val := Elt Ideal) y = y := fun _ => rfl
  show StableHlo.after hostOps7_5 V (Proc.devRef .tc main_v184) = _
  after_results_simp
  simp only [s34_ofBuf_toBuf]
  rw [ev, ex, et]
  rfl

/-- Relation 0's scatter-add: zeros, the destination column, the taken rows. -/
theorem s34_h7_2_s0 (V : Valuation τ sig (Elt Ideal)) :
    (StableHlo.after hostOps7_2 V main_v169 : Vec Ideal S100000x2 .f32)
      = Host.scatterAdd scatter_S100000x2_S800000x1_S800000x2_1_0_0_1 (broadcastInDim S100000x2 ![] bcast_S_S100000x2 (constant (F := Ideal) S_ .f32 0x00000000#32))
          (Spec.idx0 (V main_arg2 : IVec S3x800000 32)) (V main_v164 : Vec Ideal S800000x2 .f32) := by
  show StableHlo.after hostOps7_2 V (Proc.devRef .tc main_v169) = _
  after_results
  rfl

/-- Relation 1's scatter-add: zeros, the destination column, the taken rows. -/
theorem s34_h7_4_s1 (V : Valuation τ sig (Elt Ideal)) :
    (StableHlo.after hostOps7_4 V main_v179 : Vec Ideal S100000x2 .f32)
      = Host.scatterAdd scatter_S100000x2_S800000x1_S800000x2_1_0_0_1 (broadcastInDim S100000x2 ![] bcast_S_S100000x2 (constant (F := Ideal) S_ .f32 0x00000000#32))
          (Spec.idx1 (V main_arg2 : IVec S3x800000 32)) (V main_v174 : Vec Ideal S800000x2 .f32) := by
  show StableHlo.after hostOps7_4 V (Proc.devRef .tc main_v179) = _
  after_results
  rfl

/-! ## The last stretch: relation 2's scatter-add, the three results given a leading unit axis, and the stack -/

theorem s34_h7_6_pre0 (V : Valuation τ sig (Elt Ideal)) :
    (StableHlo.after hostOps7_6.dropLast V main_v190 : Vec Ideal S1x100000x2 .f32) = (broadcastInDim S1x100000x2 ![1, 2] bcast_S100000x2_S1x100000x2_1_2 (V main_v169 : Vec Ideal S100000x2 .f32)) := by
  show StableHlo.after hostOps7_6.dropLast V (Proc.devRef .tc main_v190) = _
  simp (disch := decide) only [List.dropLast, StableHlo.after_cons, StableHlo.after_nil, nullary_result', unary_result', ternary_result', reshape_result',
    nullary_result_ne', unary_result_ne', ternary_result_ne', reshape_result_ne']

theorem s34_h7_6_pre1 (V : Valuation τ sig (Elt Ideal)) :
    (StableHlo.after hostOps7_6.dropLast V main_v191 : Vec Ideal S1x100000x2 .f32) = (broadcastInDim S1x100000x2 ![1, 2] bcast_S100000x2_S1x100000x2_1_2 (V main_v179 : Vec Ideal S100000x2 .f32)) := by
  show StableHlo.after hostOps7_6.dropLast V (Proc.devRef .tc main_v191) = _
  simp (disch := decide) only [List.dropLast, StableHlo.after_cons, StableHlo.after_nil, nullary_result', unary_result', ternary_result', reshape_result',
    nullary_result_ne', unary_result_ne', ternary_result_ne', reshape_result_ne']

theorem s34_h7_6_pre2 (V : Valuation τ sig (Elt Ideal)) :
    (StableHlo.after hostOps7_6.dropLast V main_v192 : Vec Ideal S1x100000x2 .f32) = (broadcastInDim S1x100000x2 ![1, 2] bcast_S100000x2_S1x100000x2_1_2 (Host.scatterAdd scatter_S100000x2_S800000x1_S800000x2_1_0_0_1 (broadcastInDim S100000x2 ![] bcast_S_S100000x2 (constant (F := Ideal) S_ .f32 0x00000000#32))
              (Spec.idx2 (V main_arg2 : IVec S3x800000 32)) (V main_v184 : Vec Ideal S800000x2 .f32))) := by
  show StableHlo.after hostOps7_6.dropLast V (Proc.devRef .tc main_v192) = _
  simp (disch := decide) only [List.dropLast, StableHlo.after_cons, StableHlo.after_nil, nullary_result', unary_result', ternary_result', reshape_result',
    nullary_result_ne', unary_result_ne', ternary_result_ne', reshape_result_ne']
  rfl

/-- The stack as a whole array: the concatenation along a new leading axis of the three relations' results. -/
theorem s34_h7_6_outA (V : Valuation τ sig (Elt Ideal)) :
    (StableHlo.after hostOps7_6 V main_v193 : Vec Ideal S3x100000x2 .f32)
      = concatenate S3x100000x2 0
          [⟨S1x100000x2, (broadcastInDim S1x100000x2 ![1, 2] bcast_S100000x2_S1x100000x2_1_2 (V main_v169 : Vec Ideal S100000x2 .f32))⟩,
           ⟨S1x100000x2, (broadcastInDim S1x100000x2 ![1, 2] bcast_S100000x2_S1x100000x2_1_2 (V main_v179 : Vec Ideal S100000x2 .f32))⟩,
           ⟨S1x100000x2, (broadcastInDim S1x100000x2 ![1, 2] bcast_S100000x2_S1x100000x2_1_2 (Host.scatterAdd scatter_S100000x2_S800000x1_S800000x2_1_0_0_1 (broadcastInDim S100000x2 ![] bcast_S_S100000x2 (constant (F := Ideal) S_ .f32 0x00000000#32))
              (Spec.idx2 (V main_arg2 : IVec S3x800000 32)) (V main_v184 : Vec Ideal S800000x2 .f32)))⟩]
          concatenates_S1x100000x2_S1x100000x2_S1x100000x2_S3x100000x2_d0 := by
  show StableHlo.after (hostOps7_6.dropLast ++ [StableHlo.nary ![main_v190, main_v191, main_v192] main_v193
      (fun u => concatenate S3x100000x2 0 [⟨S1x100000x2, u 0⟩, ⟨S1x100000x2, u 1⟩, ⟨S1x100000x2, u 2⟩] concatenates_S1x100000x2_S1x100000x2_S1x100000x2_S3x100000x2_d0) _ _]) V (Proc.devRef .tc main_v193) = _
  rw [s34_after_concat, Cert.Lib.nary3_result, s34_h7_6_pre0, s34_h7_6_pre1, s34_h7_6_pre2]
  rfl

/-- The same, read at an index. -/
theorem s34_h7_6_out (V : Valuation τ sig (Elt Ideal)) (j : S3x100000x2.Idx) :
    (StableHlo.after hostOps7_6 V main_v193 : Vec Ideal S3x100000x2 .f32) j
      = concatenate S3x100000x2 0
          [⟨S1x100000x2, (broadcastInDim S1x100000x2 ![1, 2] bcast_S100000x2_S1x100000x2_1_2 (V main_v169 : Vec Ideal S100000x2 .f32))⟩,
           ⟨S1x100000x2, (broadcastInDim S1x100000x2 ![1, 2] bcast_S100000x2_S1x100000x2_1_2 (V main_v179 : Vec Ideal S100000x2 .f32))⟩,
           ⟨S1x100000x2, (broadcastInDim S1x100000x2 ![1, 2] bcast_S100000x2_S1x100000x2_1_2 (Host.scatterAdd scatter_S100000x2_S800000x1_S800000x2_1_0_0_1 (broadcastInDim S100000x2 ![] bcast_S_S100000x2 (constant (F := Ideal) S_ .f32 0x00000000#32))
              (Spec.idx2 (V main_arg2 : IVec S3x800000 32)) (V main_v184 : Vec Ideal S800000x2 .f32)))⟩]
          concatenates_S1x100000x2_S1x100000x2_S1x100000x2_S3x100000x2_d0 j :=
  congrFun (s34_h7_6_outA V) j

/-! ## The three relations' aggregates of layer 4, from the contents before the glue -/

/-- Relation 0's aggregate: slab 0 gathered at row 0 of the source indices, added up at row 0 of the destination indices. -/
theorem s34_agg4_0 (W : Valuation τ sig (Elt Ideal)) (hs : Spec.SrcInRange (W main_arg1 : IVec S3x800000 32)) :
    ((StableHlo.after hostOps7_2 (StableHlo.after hostOps7_1 (StableHlo.after hostOps7 W))) main_v169 : Vec Ideal S100000x2 .f32)
      = Spec.agg2 (fun i => (W main_v159 : Vec Ideal S3x100000x2 .f32) (ix3 0 (i 0) (i 1))) (Spec.idx0 (W main_arg1 : IVec S3x800000 32)) (Spec.idx0 (W main_arg2 : IVec S3x800000 32)) := by
  rw [s34_h7_2_s0,
    s34_h7_1_keep _ main_arg2 (by decide),
    s34_h7_0_keep _ main_arg2 (by decide),
    s34_h7_1_t0,
    s34_h7_0_x0,
    s34_h7_0_v0,
    take2_eq _ _ (row_0_inRange _ hs),
    s34_slab2_0]
  rfl

/-- Relation 1's aggregate: slab 1 gathered at row 1 of the source indices, added up at row 1 of the destination indices. -/
theorem s34_agg4_1 (W : Valuation τ sig (Elt Ideal)) (hs : Spec.SrcInRange (W main_arg1 : IVec S3x800000 32)) :
    ((StableHlo.after hostOps7_4 (StableHlo.after hostOps7_3 (StableHlo.after hostOps7_2 (StableHlo.after hostOps7_1 (StableHlo.after hostOps7 W))))) main_v179 : Vec Ideal S100000x2 .f32)
      = Spec.agg2 (fun i => (W main_v159 : Vec Ideal S3x100000x2 .f32) (ix3 1 (i 0) (i 1))) (Spec.idx1 (W main_arg1 : IVec S3x800000 32)) (Spec.idx1 (W main_arg2 : IVec S3x800000 32)) := by
  rw [s34_h7_4_s1,
    s34_h7_3_keep _ main_arg2 (by decide),
    s34_h7_2_keep _ main_arg2 (by decide),
    s34_h7_1_keep _ main_arg2 (by decide),
    s34_h7_0_keep _ main_arg2 (by decide),
    s34_h7_3_t1,
    s34_h7_2_x1,
    s34_h7_2_v1,
    s34_h7_1_keep _ main_v159 (by decide),
    s34_h7_0_keep _ main_v159 (by decide),
    s34_h7_1_keep _ main_arg1 (by decide),
    s34_h7_0_keep _ main_arg1 (by decide),
    take2_eq _ _ (row_1_inRange _ hs),
    s34_slab2_1]
  rfl

/-- Relation 2's aggregate: slab 2 gathered at row 2 of the source indices, added up at row 2 of the destination indices. -/
theorem s34_agg4_2 (W : Valuation τ sig (Elt Ideal)) (hs : Spec.SrcInRange (W main_arg1 : IVec S3x800000 32)) :
    Host.scatterAdd scatter_S100000x2_S800000x1_S800000x2_1_0_0_1 (broadcastInDim S100000x2 ![] bcast_S_S100000x2 (constant (F := Ideal) S_ .f32 0x00000000#32))
              (Spec.idx2 ((StableHlo.after hostOps7_5 (StableHlo.after hostOps7_4 (StableHlo.after hostOps7_3 (StableHlo.after hostOps7_2 (StableHlo.after hostOps7_1 (StableHlo.after hostOps7 W)))))) main_arg2 : IVec S3x800000 32)) ((StableHlo.after hostOps7_5 (StableHlo.after hostOps7_4 (StableHlo.after hostOps7_3 (StableHlo.after hostOps7_2 (StableHlo.after hostOps7_1 (StableHlo.after hostOps7 W)))))) main_v184 : Vec Ideal S800000x2 .f32)
      = Spec.agg2 (fun i => (W main_v159 : Vec Ideal S3x100000x2 .f32) (ix3 2 (i 0) (i 1))) (Spec.idx2 (W main_arg1 : IVec S3x800000 32)) (Spec.idx2 (W main_arg2 : IVec S3x800000 32)) := by
  rw [s34_h7_5_keep _ main_arg2 (by decide),
    s34_h7_4_keep _ main_arg2 (by decide),
    s34_h7_3_keep _ main_arg2 (by decide),
    s34_h7_2_keep _ main_arg2 (by decide),
    s34_h7_1_keep _ main_arg2 (by decide),
    s34_h7_0_keep _ main_arg2 (by decide),
    s34_h7_5_t2,
    s34_h7_4_x2,
    s34_h7_4_v2,
    s34_h7_3_keep _ main_v159 (by decide),
    s34_h7_2_keep _ main_v159 (by decide),
    s34_h7_1_keep _ main_v159 (by decide),
    s34_h7_0_keep _ main_v159 (by decide),
    s34_h7_3_keep _ main_arg1 (by decide),
    s34_h7_2_keep _ main_arg1 (by decide),
    s34_h7_1_keep _ main_arg1 (by decide),
    s34_h7_0_keep _ main_arg1 (by decide),
    take2_eq _ _ (row_2_inRange _ hs),
    s34_slab2_2]
  rfl

/-! ## The stack of layer 4 read at an index -/

theorem s34_stack4_0 (W : Valuation τ sig (Elt Ideal)) (hs : Spec.SrcInRange (W main_arg1 : IVec S3x800000 32))
    (n : Fin 100000) (d : Fin 2) :
    ((StableHlo.after hostOps7_6 (StableHlo.after hostOps7_5 (StableHlo.after hostOps7_4 (StableHlo.after hostOps7_3 (StableHlo.after hostOps7_2 (StableHlo.after hostOps7_1 (StableHlo.after hostOps7 W))))))) main_v193 : Vec Ideal S3x100000x2 .f32) (ix3 0 n d)
      = Spec.agg2 (fun i => (W main_v159 : Vec Ideal S3x100000x2 .f32) (ix3 0 (i 0) (i 1))) (Spec.idx0 (W main_arg1 : IVec S3x800000 32)) (Spec.idx0 (W main_arg2 : IVec S3x800000 32)) (ix2 n d) := by
  rw [s34_h7_6_out]
  rw [Cert.Lib.concatenate3_unit_apply (t := S3x100000x2) (s₁ := S1x100000x2) 0 _ _ _ _ rfl rfl (ix3 0 n d) 0 rfl (ix3 0 n d) (fun b hb => match b with
      | ⟨0, _⟩ => absurd rfl hb
      | ⟨1, _⟩ => rfl
      | ⟨2, _⟩ => rfl)]
  rw [s34_pick0]
  rw [s34_lift2_apply, s34_h7_5_keep _ main_v169 (by decide), s34_h7_4_keep _ main_v169 (by decide), s34_h7_3_keep _ main_v169 (by decide), s34_agg4_0 W hs]

theorem s34_stack4_1 (W : Valuation τ sig (Elt Ideal)) (hs : Spec.SrcInRange (W main_arg1 : IVec S3x800000 32))
    (n : Fin 100000) (d : Fin 2) :
    ((StableHlo.after hostOps7_6 (StableHlo.after hostOps7_5 (StableHlo.after hostOps7_4 (StableHlo.after hostOps7_3 (StableHlo.after hostOps7_2 (StableHlo.after hostOps7_1 (StableHlo.after hostOps7 W))))))) main_v193 : Vec Ideal S3x100000x2 .f32) (ix3 1 n d)
      = Spec.agg2 (fun i => (W main_v159 : Vec Ideal S3x100000x2 .f32) (ix3 1 (i 0) (i 1))) (Spec.idx1 (W main_arg1 : IVec S3x800000 32)) (Spec.idx1 (W main_arg2 : IVec S3x800000 32)) (ix2 n d) := by
  rw [s34_h7_6_out]
  rw [Cert.Lib.concatenate3_unit_apply (t := S3x100000x2) (s₁ := S1x100000x2) 0 _ _ _ _ rfl rfl (ix3 1 n d) 1 rfl (ix3 0 n d) (fun b hb => match b with
      | ⟨0, _⟩ => absurd rfl hb
      | ⟨1, _⟩ => rfl
      | ⟨2, _⟩ => rfl)]
  rw [s34_pick1]
  rw [s34_lift2_apply, s34_h7_5_keep _ main_v179 (by decide), s34_agg4_1 W hs]

theorem s34_stack4_2 (W : Valuation τ sig (Elt Ideal)) (hs : Spec.SrcInRange (W main_arg1 : IVec S3x800000 32))
    (n : Fin 100000) (d : Fin 2) :
    ((StableHlo.after hostOps7_6 (StableHlo.after hostOps7_5 (StableHlo.after hostOps7_4 (StableHlo.after hostOps7_3 (StableHlo.after hostOps7_2 (StableHlo.after hostOps7_1 (StableHlo.after hostOps7 W))))))) main_v193 : Vec Ideal S3x100000x2 .f32) (ix3 2 n d)
      = Spec.agg2 (fun i => (W main_v159 : Vec Ideal S3x100000x2 .f32) (ix3 2 (i 0) (i 1))) (Spec.idx2 (W main_arg1 : IVec S3x800000 32)) (Spec.idx2 (W main_arg2 : IVec S3x800000 32)) (ix2 n d) := by
  rw [s34_h7_6_out]
  rw [Cert.Lib.concatenate3_unit_apply (t := S3x100000x2) (s₁ := S1x100000x2) 0 _ _ _ _ rfl rfl (ix3 2 n d) 2 rfl (ix3 0 n d) (fun b hb => match b with
      | ⟨0, _⟩ => absurd rfl hb
      | ⟨1, _⟩ => rfl
      | ⟨2, _⟩ => rfl)]
  rw [s34_pick2]
  rw [s34_lift2_apply, s34_agg4_2 W hs]

/-- The stack of layer 4 read at (r, n, d): relation r's aggregate of slab r at (n, d). -/
theorem stack4_apply (W : Valuation τ sig (Elt Ideal)) (hs : Spec.SrcInRange (W main_arg1 : IVec S3x800000 32))
    (r : Fin 3) (n : Fin 100000) (d : Fin 2) :
    ((StableHlo.after hostOps7_6 (StableHlo.after hostOps7_5 (StableHlo.after hostOps7_4 (StableHlo.after hostOps7_3 (StableHlo.after hostOps7_2 (StableHlo.after hostOps7_1 (StableHlo.after hostOps7 W))))))) main_v193 : Vec Ideal S3x100000x2 .f32) (ix3 r n d)
      = Spec.agg2 (fun i => (W main_v159 : Vec Ideal S3x100000x2 .f32) (ix3 r (i 0) (i 1))) (idxr r (W main_arg1 : IVec S3x800000 32))
          (idxr r (W main_arg2 : IVec S3x800000 32)) (ix2 n d) :=
  match r with
  | ⟨0, _⟩ => s34_stack4_0 W hs n d
  | ⟨1, _⟩ => s34_stack4_1 W hs n d
  | ⟨2, _⟩ => s34_stack4_2 W hs n d

end Cert.KernelIdeal.Hand

end
-- ==== Proof.KI.KernelValue.lean ====
/- THE VALUE of @main's run on the extended reals: the array the run leaves in the returned buffer is the four-layer network
   of the specification at the launch contents of the eleven arguments, when every source index is a node number.
   Along the fold of buffer contents: each argument and the two tables of degree factors are what they were at launch or
   when the first region is entered (no item in between writes them); a pretransform region leaves the array of transformed
   features of what it reads; the host stretch after it gathers and adds that array up per relation; the aggregation
   region after that leaves the running sum, which is the layer. Four layers chained give the network. -/
import proofs.«408287_j3659312136510_1_alg».proof.Proof.Spec
import proofs.«408287_j3659312136510_1_alg».proof.Proof.KI.RunMain
import proofs.«408287_j3659312136510_1_alg».proof.Proof.KI.ValPre
import proofs.«408287_j3659312136510_1_alg».proof.Proof.KI.ValPost
import proofs.«408287_j3659312136510_1_alg».proof.Proof.KI.LayerAlg
import proofs.«408287_j3659312136510_1_alg».proof.Proof.KI.DegTables
import proofs.«408287_j3659312136510_1_alg».proof.Proof.KI.Stack12
import proofs.«408287_j3659312136510_1_alg».proof.Proof.KI.Stack34
import Idealize.ShloMosaic.Lib.StableHlo.Run
import Idealize.ShloMosaic.Lib.ValueIdx

-- decided non-memberships among the program's 563 references recurse past the default depth
set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

/-! ## One layer from its parts, the pretransform array not yet read slab by slab -/

/-- Width 64: the aggregation region's array over aggregates `A` is the layer, when the two tables' columns are the degree
    factors and slab `r` of `A` is the aggregate of slab `r` of the pretransform array. -/
theorem layer64_step (h : Vec Ideal S100000x64 .f32) (src dst : IVec S3x800000 32) (W : Vec Ideal S3x64x64 .f32) (b : Vec Ideal S3x64 .f32)
    (io ii : Vec Ideal S100000x3 .f32) (A : Vec Ideal S3x100000x64 .f32)
    (hio : ∀ (n : Fin 100000) (r : Fin 3), io (ix2 n r) = Spec.deg (idxr r src) (ix1 n))
    (hii : ∀ (n : Fin 100000) (r : Fin 3), ii (ix2 n r) = Spec.deg (idxr r dst) (ix1 n))
    (hA : ∀ (r : Fin 3) (n : Fin 100000) (d : Fin 64), A (ix3 r n d)
      = Spec.agg64 (fun i : S100000x64.Idx => Spec.preArr64 h io W (ix3 r (i 0) (i 1))) (idxr r src) (idxr r dst) (ix2 n d)) :
    Spec.postArr64 A ii b = Spec.layer64 h src dst W b :=
  layer64_of_parts h src dst W b A ii hii fun r n d =>
    (hA r n d).trans (congrArg (fun P => Spec.agg64 P (idxr r src) (idxr r dst) (ix2 n d))
      (P64_of_table h io W (Spec.deg (idxr r src)) r fun n => hio n r))
/-- Width 2: the aggregation region's array over aggregates `A` is the layer, when the two tables' columns are the degree
    factors and slab `r` of `A` is the aggregate of slab `r` of the pretransform array. -/
theorem layer2_step (h : Vec Ideal S100000x64 .f32) (src dst : IVec S3x800000 32) (W : Vec Ideal S3x64x2 .f32) (b : Vec Ideal S3x2 .f32)
    (io ii : Vec Ideal S100000x3 .f32) (A : Vec Ideal S3x100000x2 .f32)
    (hio : ∀ (n : Fin 100000) (r : Fin 3), io (ix2 n r) = Spec.deg (idxr r src) (ix1 n))
    (hii : ∀ (n : Fin 100000) (r : Fin 3), ii (ix2 n r) = Spec.deg (idxr r dst) (ix1 n))
    (hA : ∀ (r : Fin 3) (n : Fin 100000) (d : Fin 2), A (ix3 r n d)
      = Spec.agg2 (fun i : S100000x2.Idx => Spec.preArr2 h io W (ix3 r (i 0) (i 1))) (idxr r src) (idxr r dst) (ix2 n d)) :
    Spec.postArr2 A ii b = Spec.layer2 h src dst W b :=
  layer2_of_parts h src dst W b A ii hii fun r n d =>
    (hA r n d).trans (congrArg (fun P => Spec.agg2 P (idxr r src) (idxr r dst) (ix2 n d))
      (P2_of_table h io W (Spec.deg (idxr r src)) r fun n => hio n r))

variable (m : (ℓ : Loc nD τ sig) → Buf (Elt Ideal) ℓ)

/-! ## What no item writes, along the fold -/

/-- A host stretch leaves a reference it does not write as it found it. -/
theorem W15_of (c : Dev nD) (r : Ref sig .tc) (h : r ∉ hostOps1_W) : W15 m c r = W14 m c r :=
  StableHlo.after_of_writes_sub hostOps1 _ hostOps1_writes h
theorem W16_of (c : Dev nD) (r : Ref sig .tc) (h : r ∉ hostOps1_1_W) : W16 m c r = W15 m c r :=
  StableHlo.after_of_writes_sub hostOps1_1 _ hostOps1_1_writes h
theorem W17_of (c : Dev nD) (r : Ref sig .tc) (h : r ∉ hostOps1_2_W) : W17 m c r = W16 m c r :=
  StableHlo.after_of_writes_sub hostOps1_2 _ hostOps1_2_writes h
theorem W18_of (c : Dev nD) (r : Ref sig .tc) (h : r ∉ hostOps1_3_W) : W18 m c r = W17 m c r :=
  StableHlo.after_of_writes_sub hostOps1_3 _ hostOps1_3_writes h
theorem W19_of (c : Dev nD) (r : Ref sig .tc) (h : r ∉ hostOps1_4_W) : W19 m c r = W18 m c r :=
  StableHlo.after_of_writes_sub hostOps1_4 _ hostOps1_4_writes h
theorem W20_of (c : Dev nD) (r : Ref sig .tc) (h : r ∉ hostOps1_5_W) : W20 m c r = W19 m c r :=
  StableHlo.after_of_writes_sub hostOps1_5 _ hostOps1_5_writes h
theorem W21_of (c : Dev nD) (r : Ref sig .tc) (h : r ∉ hostOps1_6_W) : W21 m c r = W20 m c r :=
  StableHlo.after_of_writes_sub hostOps1_6 _ hostOps1_6_writes h
theorem W24_of (c : Dev nD) (r : Ref sig .tc) (h : r ∉ hostOps3_W) : W24 m c r = W23 m c r :=
  StableHlo.after_of_writes_sub hostOps3 _ hostOps3_writes h
theorem W25_of (c : Dev nD) (r : Ref sig .tc) (h : r ∉ hostOps3_1_W) : W25 m c r = W24 m c r :=
  StableHlo.after_of_writes_sub hostOps3_1 _ hostOps3_1_writes h
theorem W26_of (c : Dev nD) (r : Ref sig .tc) (h : r ∉ hostOps3_2_W) : W26 m c r = W25 m c r :=
  StableHlo.after_of_writes_sub hostOps3_2 _ hostOps3_2_writes h
theorem W27_of (c : Dev nD) (r : Ref sig .tc) (h : r ∉ hostOps3_3_W) : W27 m c r = W26 m c r :=
  StableHlo.after_of_writes_sub hostOps3_3 _ hostOps3_3_writes h
theorem W28_of (c : Dev nD) (r : Ref sig .tc) (h : r ∉ hostOps3_4_W) : W28 m c r = W27 m c r :=
  StableHlo.after_of_writes_sub hostOps3_4 _ hostOps3_4_writes h
theorem W29_of (c : Dev nD) (r : Ref sig .tc) (h : r ∉ hostOps3_5_W) : W29 m c r = W28 m c r :=
  StableHlo.after_of_writes_sub hostOps3_5 _ hostOps3_5_writes h
theorem W30_of (c : Dev nD) (r : Ref sig .tc) (h : r ∉ hostOps3_6_W) : W30 m c r = W29 m c r :=
  StableHlo.after_of_writes_sub hostOps3_6 _ hostOps3_6_writes h
theorem W33_of (c : Dev nD) (r : Ref sig .tc) (h : r ∉ hostOps5_W) : W33 m c r = W32 m c r :=
  StableHlo.after_of_writes_sub hostOps5 _ hostOps5_writes h
theorem W34_of (c : Dev nD) (r : Ref sig .tc) (h : r ∉ hostOps5_1_W) : W34 m c r = W33 m c r :=
  StableHlo.after_of_writes_sub hostOps5_1 _ hostOps5_1_writes h
theorem W35_of (c : Dev nD) (r : Ref sig .tc) (h : r ∉ hostOps5_2_W) : W35 m c r = W34 m c r :=
  StableHlo.after_of_writes_sub hostOps5_2 _ hostOps5_2_writes h
theorem W36_of (c : Dev nD) (r : Ref sig .tc) (h : r ∉ hostOps5_3_W) : W36 m c r = W35 m c r :=
  StableHlo.after_of_writes_sub hostOps5_3 _ hostOps5_3_writes h
theorem W37_of (c : Dev nD) (r : Ref sig .tc) (h : r ∉ hostOps5_4_W) : W37 m c r = W36 m c r :=
  StableHlo.after_of_writes_sub hostOps5_4 _ hostOps5_4_writes h
theorem W38_of (c : Dev nD) (r : Ref sig .tc) (h : r ∉ hostOps5_5_W) : W38 m c r = W37 m c r :=
  StableHlo.after_of_writes_sub hostOps5_5 _ hostOps5_5_writes h
theorem W39_of (c : Dev nD) (r : Ref sig .tc) (h : r ∉ hostOps5_6_W) : W39 m c r = W38 m c r :=
  StableHlo.after_of_writes_sub hostOps5_6 _ hostOps5_6_writes h
theorem W42_of (c : Dev nD) (r : Ref sig .tc) (h : r ∉ hostOps7_W) : W42 m c r = W41 m c r :=
  StableHlo.after_of_writes_sub hostOps7 _ hostOps7_writes h
theorem W43_of (c : Dev nD) (r : Ref sig .tc) (h : r ∉ hostOps7_1_W) : W43 m c r = W42 m c r :=
  StableHlo.after_of_writes_sub hostOps7_1 _ hostOps7_1_writes h
theorem W44_of (c : Dev nD) (r : Ref sig .tc) (h : r ∉ hostOps7_2_W) : W44 m c r = W43 m c r :=
  StableHlo.after_of_writes_sub hostOps7_2 _ hostOps7_2_writes h
theorem W45_of (c : Dev nD) (r : Ref sig .tc) (h : r ∉ hostOps7_3_W) : W45 m c r = W44 m c r :=
  StableHlo.after_of_writes_sub hostOps7_3 _ hostOps7_3_writes h
theorem W46_of (c : Dev nD) (r : Ref sig .tc) (h : r ∉ hostOps7_4_W) : W46 m c r = W45 m c r :=
  StableHlo.after_of_writes_sub hostOps7_4 _ hostOps7_4_writes h
theorem W47_of (c : Dev nD) (r : Ref sig .tc) (h : r ∉ hostOps7_5_W) : W47 m c r = W46 m c r :=
  StableHlo.after_of_writes_sub hostOps7_5 _ hostOps7_5_writes h
theorem W48_of (c : Dev nD) (r : Ref sig .tc) (h : r ∉ hostOps7_6_W) : W48 m c r = W47 m c r :=
  StableHlo.after_of_writes_sub hostOps7_6 _ hostOps7_6_writes h

/-- Every argument is, when the first region is entered, what it was at launch: none of the first thirteen host stretches writes it. -/
theorem W13_main_arg0 (c : Dev nD) : W13 m c main_arg0 = m ((c : Thread nD τ).loc main_arg0) :=
  (Gen.V13_of m c main_arg0 (by decide)).trans <| (Gen.V12_of m c main_arg0 (by decide)).trans <| (Gen.V11_of m c main_arg0 (by decide)).trans <| (Gen.V10_of m c main_arg0 (by decide)).trans <| (Gen.V9_of m c main_arg0 (by decide)).trans <| (Gen.V8_of m c main_arg0 (by decide)).trans <| (Gen.V7_of m c main_arg0 (by decide)).trans <| (Gen.V6_of m c main_arg0 (by decide)).trans <| (Gen.V5_of m c main_arg0 (by decide)).trans <| (Gen.V4_of m c main_arg0 (by decide)).trans <| (Gen.V3_of m c main_arg0 (by decide)).trans <| (Gen.V2_of m c main_arg0 (by decide)).trans <| (Gen.V1_of m c main_arg0 (by decide)).trans rfl
theorem W13_main_arg1 (c : Dev nD) : W13 m c main_arg1 = m ((c : Thread nD τ).loc main_arg1) :=
  (Gen.V13_of m c main_arg1 (by decide)).trans <| (Gen.V12_of m c main_arg1 (by decide)).trans <| (Gen.V11_of m c main_arg1 (by decide)).trans <| (Gen.V10_of m c main_arg1 (by decide)).trans <| (Gen.V9_of m c main_arg1 (by decide)).trans <| (Gen.V8_of m c main_arg1 (by decide)).trans <| (Gen.V7_of m c main_arg1 (by decide)).trans <| (Gen.V6_of m c main_arg1 (by decide)).trans <| (Gen.V5_of m c main_arg1 (by decide)).trans <| (Gen.V4_of m c main_arg1 (by decide)).trans <| (Gen.V3_of m c main_arg1 (by decide)).trans <| (Gen.V2_of m c main_arg1 (by decide)).trans <| (Gen.V1_of m c main_arg1 (by decide)).trans rfl
theorem W13_main_arg2 (c : Dev nD) : W13 m c main_arg2 = m ((c : Thread nD τ).loc main_arg2) :=
  (Gen.V13_of m c main_arg2 (by decide)).trans <| (Gen.V12_of m c main_arg2 (by decide)).trans <| (Gen.V11_of m c main_arg2 (by decide)).trans <| (Gen.V10_of m c main_arg2 (by decide)).trans <| (Gen.V9_of m c main_arg2 (by decide)).trans <| (Gen.V8_of m c main_arg2 (by decide)).trans <| (Gen.V7_of m c main_arg2 (by decide)).trans <| (Gen.V6_of m c main_arg2 (by decide)).trans <| (Gen.V5_of m c main_arg2 (by decide)).trans <| (Gen.V4_of m c main_arg2 (by decide)).trans <| (Gen.V3_of m c main_arg2 (by decide)).trans <| (Gen.V2_of m c main_arg2 (by decide)).trans <| (Gen.V1_of m c main_arg2 (by decide)).trans rfl
theorem W13_main_arg3 (c : Dev nD) : W13 m c main_arg3 = m ((c : Thread nD τ).loc main_arg3) :=
  (Gen.V13_of m c main_arg3 (by decide)).trans <| (Gen.V12_of m c main_arg3 (by decide)).trans <| (Gen.V11_of m c main_arg3 (by decide)).trans <| (Gen.V10_of m c main_arg3 (by decide)).trans <| (Gen.V9_of m c main_arg3 (by decide)).trans <| (Gen.V8_of m c main_arg3 (by decide)).trans <| (Gen.V7_of m c main_arg3 (by decide)).trans <| (Gen.V6_of m c main_arg3 (by decide)).trans <| (Gen.V5_of m c main_arg3 (by decide)).trans <| (Gen.V4_of m c main_arg3 (by decide)).trans <| (Gen.V3_of m c main_arg3 (by decide)).trans <| (Gen.V2_of m c main_arg3 (by decide)).trans <| (Gen.V1_of m c main_arg3 (by decide)).trans rfl
theorem W13_main_arg4 (c : Dev nD) : W13 m c main_arg4 = m ((c : Thread nD τ).loc main_arg4) :=
  (Gen.V13_of m c main_arg4 (by decide)).trans <| (Gen.V12_of m c main_arg4 (by decide)).trans <| (Gen.V11_of m c main_arg4 (by decide)).trans <| (Gen.V10_of m c main_arg4 (by decide)).trans <| (Gen.V9_of m c main_arg4 (by decide)).trans <| (Gen.V8_of m c main_arg4 (by decide)).trans <| (Gen.V7_of m c main_arg4 (by decide)).trans <| (Gen.V6_of m c main_arg4 (by decide)).trans <| (Gen.V5_of m c main_arg4 (by decide)).trans <| (Gen.V4_of m c main_arg4 (by decide)).trans <| (Gen.V3_of m c main_arg4 (by decide)).trans <| (Gen.V2_of m c main_arg4 (by decide)).trans <| (Gen.V1_of m c main_arg4 (by decide)).trans rfl
theorem W13_main_arg5 (c : Dev nD) : W13 m c main_arg5 = m ((c : Thread nD τ).loc main_arg5) :=
  (Gen.V13_of m c main_arg5 (by decide)).trans <| (Gen.V12_of m c main_arg5 (by decide)).trans <| (Gen.V11_of m c main_arg5 (by decide)).trans <| (Gen.V10_of m c main_arg5 (by decide)).trans <| (Gen.V9_of m c main_arg5 (by decide)).trans <| (Gen.V8_of m c main_arg5 (by decide)).trans <| (Gen.V7_of m c main_arg5 (by decide)).trans <| (Gen.V6_of m c main_arg5 (by decide)).trans <| (Gen.V5_of m c main_arg5 (by decide)).trans <| (Gen.V4_of m c main_arg5 (by decide)).trans <| (Gen.V3_of m c main_arg5 (by decide)).trans <| (Gen.V2_of m c main_arg5 (by decide)).trans <| (Gen.V1_of m c main_arg5 (by decide)).trans rfl
theorem W13_main_arg6 (c : Dev nD) : W13 m c main_arg6 = m ((c : Thread nD τ).loc main_arg6) :=
  (Gen.V13_of m c main_arg6 (by decide)).trans <| (Gen.V12_of m c main_arg6 (by decide)).trans <| (Gen.V11_of m c main_arg6 (by decide)).trans <| (Gen.V10_of m c main_arg6 (by decide)).trans <| (Gen.V9_of m c main_arg6 (by decide)).trans <| (Gen.V8_of m c main_arg6 (by decide)).trans <| (Gen.V7_of m c main_arg6 (by decide)).trans <| (Gen.V6_of m c main_arg6 (by decide)).trans <| (Gen.V5_of m c main_arg6 (by decide)).trans <| (Gen.V4_of m c main_arg6 (by decide)).trans <| (Gen.V3_of m c main_arg6 (by decide)).trans <| (Gen.V2_of m c main_arg6 (by decide)).trans <| (Gen.V1_of m c main_arg6 (by decide)).trans rfl
theorem W13_main_arg7 (c : Dev nD) : W13 m c main_arg7 = m ((c : Thread nD τ).loc main_arg7) :=
  (Gen.V13_of m c main_arg7 (by decide)).trans <| (Gen.V12_of m c main_arg7 (by decide)).trans <| (Gen.V11_of m c main_arg7 (by decide)).trans <| (Gen.V10_of m c main_arg7 (by decide)).trans <| (Gen.V9_of m c main_arg7 (by decide)).trans <| (Gen.V8_of m c main_arg7 (by decide)).trans <| (Gen.V7_of m c main_arg7 (by decide)).trans <| (Gen.V6_of m c main_arg7 (by decide)).trans <| (Gen.V5_of m c main_arg7 (by decide)).trans <| (Gen.V4_of m c main_arg7 (by decide)).trans <| (Gen.V3_of m c main_arg7 (by decide)).trans <| (Gen.V2_of m c main_arg7 (by decide)).trans <| (Gen.V1_of m c main_arg7 (by decide)).trans rfl
theorem W13_main_arg8 (c : Dev nD) : W13 m c main_arg8 = m ((c : Thread nD τ).loc main_arg8) :=
  (Gen.V13_of m c main_arg8 (by decide)).trans <| (Gen.V12_of m c main_arg8 (by decide)).trans <| (Gen.V11_of m c main_arg8 (by decide)).trans <| (Gen.V10_of m c main_arg8 (by decide)).trans <| (Gen.V9_of m c main_arg8 (by decide)).trans <| (Gen.V8_of m c main_arg8 (by decide)).trans <| (Gen.V7_of m c main_arg8 (by decide)).trans <| (Gen.V6_of m c main_arg8 (by decide)).trans <| (Gen.V5_of m c main_arg8 (by decide)).trans <| (Gen.V4_of m c main_arg8 (by decide)).trans <| (Gen.V3_of m c main_arg8 (by decide)).trans <| (Gen.V2_of m c main_arg8 (by decide)).trans <| (Gen.V1_of m c main_arg8 (by decide)).trans rfl
theorem W13_main_arg9 (c : Dev nD) : W13 m c main_arg9 = m ((c : Thread nD τ).loc main_arg9) :=
  (Gen.V13_of m c main_arg9 (by decide)).trans <| (Gen.V12_of m c main_arg9 (by decide)).trans <| (Gen.V11_of m c main_arg9 (by decide)).trans <| (Gen.V10_of m c main_arg9 (by decide)).trans <| (Gen.V9_of m c main_arg9 (by decide)).trans <| (Gen.V8_of m c main_arg9 (by decide)).trans <| (Gen.V7_of m c main_arg9 (by decide)).trans <| (Gen.V6_of m c main_arg9 (by decide)).trans <| (Gen.V5_of m c main_arg9 (by decide)).trans <| (Gen.V4_of m c main_arg9 (by decide)).trans <| (Gen.V3_of m c main_arg9 (by decide)).trans <| (Gen.V2_of m c main_arg9 (by decide)).trans <| (Gen.V1_of m c main_arg9 (by decide)).trans rfl
theorem W13_main_arg10 (c : Dev nD) : W13 m c main_arg10 = m ((c : Thread nD τ).loc main_arg10) :=
  (Gen.V13_of m c main_arg10 (by decide)).trans <| (Gen.V12_of m c main_arg10 (by decide)).trans <| (Gen.V11_of m c main_arg10 (by decide)).trans <| (Gen.V10_of m c main_arg10 (by decide)).trans <| (Gen.V9_of m c main_arg10 (by decide)).trans <| (Gen.V8_of m c main_arg10 (by decide)).trans <| (Gen.V7_of m c main_arg10 (by decide)).trans <| (Gen.V6_of m c main_arg10 (by decide)).trans <| (Gen.V5_of m c main_arg10 (by decide)).trans <| (Gen.V4_of m c main_arg10 (by decide)).trans <| (Gen.V3_of m c main_arg10 (by decide)).trans <| (Gen.V2_of m c main_arg10 (by decide)).trans <| (Gen.V1_of m c main_arg10 (by decide)).trans rfl

/-- Later along the fold, where a region or a host stretch reads them: the arguments as at launch, the two tables of degree
    factors as when the first region is entered. -/
theorem W14_main_arg1 (c : Dev nD) : W14 m c main_arg1 = m ((c : Thread nD τ).loc main_arg1) :=
  (W14_of_ne m c main_arg1 (by decide)).trans (W13_main_arg1 m c)
theorem W23_main_arg1 (c : Dev nD) : W23 m c main_arg1 = m ((c : Thread nD τ).loc main_arg1) :=
  (W23_of_ne m c main_arg1 (by decide)).trans <| (W22_of_ne m c main_arg1 (by decide)).trans <| (W21_of m c main_arg1 (by decide)).trans <| (W20_of m c main_arg1 (by decide)).trans <| (W19_of m c main_arg1 (by decide)).trans <| (W18_of m c main_arg1 (by decide)).trans <| (W17_of m c main_arg1 (by decide)).trans <| (W16_of m c main_arg1 (by decide)).trans <| (W15_of m c main_arg1 (by decide)).trans (W14_main_arg1 m c)
theorem W32_main_arg1 (c : Dev nD) : W32 m c main_arg1 = m ((c : Thread nD τ).loc main_arg1) :=
  (W32_of_ne m c main_arg1 (by decide)).trans <| (W31_of_ne m c main_arg1 (by decide)).trans <| (W30_of m c main_arg1 (by decide)).trans <| (W29_of m c main_arg1 (by decide)).trans <| (W28_of m c main_arg1 (by decide)).trans <| (W27_of m c main_arg1 (by decide)).trans <| (W26_of m c main_arg1 (by decide)).trans <| (W25_of m c main_arg1 (by decide)).trans <| (W24_of m c main_arg1 (by decide)).trans (W23_main_arg1 m c)
theorem W41_main_arg1 (c : Dev nD) : W41 m c main_arg1 = m ((c : Thread nD τ).loc main_arg1) :=
  (W41_of_ne m c main_arg1 (by decide)).trans <| (W40_of_ne m c main_arg1 (by decide)).trans <| (W39_of m c main_arg1 (by decide)).trans <| (W38_of m c main_arg1 (by decide)).trans <| (W37_of m c main_arg1 (by decide)).trans <| (W36_of m c main_arg1 (by decide)).trans <| (W35_of m c main_arg1 (by decide)).trans <| (W34_of m c main_arg1 (by decide)).trans <| (W33_of m c main_arg1 (by decide)).trans (W32_main_arg1 m c)
theorem W14_main_arg2 (c : Dev nD) : W14 m c main_arg2 = m ((c : Thread nD τ).loc main_arg2) :=
  (W14_of_ne m c main_arg2 (by decide)).trans (W13_main_arg2 m c)
theorem W23_main_arg2 (c : Dev nD) : W23 m c main_arg2 = m ((c : Thread nD τ).loc main_arg2) :=
  (W23_of_ne m c main_arg2 (by decide)).trans <| (W22_of_ne m c main_arg2 (by decide)).trans <| (W21_of m c main_arg2 (by decide)).trans <| (W20_of m c main_arg2 (by decide)).trans <| (W19_of m c main_arg2 (by decide)).trans <| (W18_of m c main_arg2 (by decide)).trans <| (W17_of m c main_arg2 (by decide)).trans <| (W16_of m c main_arg2 (by decide)).trans <| (W15_of m c main_arg2 (by decide)).trans (W14_main_arg2 m c)
theorem W32_main_arg2 (c : Dev nD) : W32 m c main_arg2 = m ((c : Thread nD τ).loc main_arg2) :=
  (W32_of_ne m c main_arg2 (by decide)).trans <| (W31_of_ne m c main_arg2 (by decide)).trans <| (W30_of m c main_arg2 (by decide)).trans <| (W29_of m c main_arg2 (by decide)).trans <| (W28_of m c main_arg2 (by decide)).trans <| (W27_of m c main_arg2 (by decide)).trans <| (W26_of m c main_arg2 (by decide)).trans <| (W25_of m c main_arg2 (by decide)).trans <| (W24_of m c main_arg2 (by decide)).trans (W23_main_arg2 m c)
theorem W41_main_arg2 (c : Dev nD) : W41 m c main_arg2 = m ((c : Thread nD τ).loc main_arg2) :=
  (W41_of_ne m c main_arg2 (by decide)).trans <| (W40_of_ne m c main_arg2 (by decide)).trans <| (W39_of m c main_arg2 (by decide)).trans <| (W38_of m c main_arg2 (by decide)).trans <| (W37_of m c main_arg2 (by decide)).trans <| (W36_of m c main_arg2 (by decide)).trans <| (W35_of m c main_arg2 (by decide)).trans <| (W34_of m c main_arg2 (by decide)).trans <| (W33_of m c main_arg2 (by decide)).trans (W32_main_arg2 m c)
theorem W21_main_arg4 (c : Dev nD) : W21 m c main_arg4 = m ((c : Thread nD τ).loc main_arg4) :=
  (W21_of m c main_arg4 (by decide)).trans <| (W20_of m c main_arg4 (by decide)).trans <| (W19_of m c main_arg4 (by decide)).trans <| (W18_of m c main_arg4 (by decide)).trans <| (W17_of m c main_arg4 (by decide)).trans <| (W16_of m c main_arg4 (by decide)).trans <| (W15_of m c main_arg4 (by decide)).trans <| (W14_of_ne m c main_arg4 (by decide)).trans (W13_main_arg4 m c)
theorem W22_main_arg5 (c : Dev nD) : W22 m c main_arg5 = m ((c : Thread nD τ).loc main_arg5) :=
  (W22_of_ne m c main_arg5 (by decide)).trans <| (W21_of m c main_arg5 (by decide)).trans <| (W20_of m c main_arg5 (by decide)).trans <| (W19_of m c main_arg5 (by decide)).trans <| (W18_of m c main_arg5 (by decide)).trans <| (W17_of m c main_arg5 (by decide)).trans <| (W16_of m c main_arg5 (by decide)).trans <| (W15_of m c main_arg5 (by decide)).trans <| (W14_of_ne m c main_arg5 (by decide)).trans (W13_main_arg5 m c)
theorem W30_main_arg6 (c : Dev nD) : W30 m c main_arg6 = m ((c : Thread nD τ).loc main_arg6) :=
  (W30_of m c main_arg6 (by decide)).trans <| (W29_of m c main_arg6 (by decide)).trans <| (W28_of m c main_arg6 (by decide)).trans <| (W27_of m c main_arg6 (by decide)).trans <| (W26_of m c main_arg6 (by decide)).trans <| (W25_of m c main_arg6 (by decide)).trans <| (W24_of m c main_arg6 (by decide)).trans <| (W23_of_ne m c main_arg6 (by decide)).trans <| (W22_of_ne m c main_arg6 (by decide)).trans <| (W21_of m c main_arg6 (by decide)).trans <| (W20_of m c main_arg6 (by decide)).trans <| (W19_of m c main_arg6 (by decide)).trans <| (W18_of m c main_arg6 (by decide)).trans <| (W17_of m c main_arg6 (by decide)).trans <| (W16_of m c main_arg6 (by decide)).trans <| (W15_of m c main_arg6 (by decide)).trans <| (W14_of_ne m c main_arg6 (by decide)).trans (W13_main_arg6 m c)
theorem W31_main_arg7 (c : Dev nD) : W31 m c main_arg7 = m ((c : Thread nD τ).loc main_arg7) :=
  (W31_of_ne m c main_arg7 (by decide)).trans <| (W30_of m c main_arg7 (by decide)).trans <| (W29_of m c main_arg7 (by decide)).trans <| (W28_of m c main_arg7 (by decide)).trans <| (W27_of m c main_arg7 (by decide)).trans <| (W26_of m c main_arg7 (by decide)).trans <| (W25_of m c main_arg7 (by decide)).trans <| (W24_of m c main_arg7 (by decide)).trans <| (W23_of_ne m c main_arg7 (by decide)).trans <| (W22_of_ne m c main_arg7 (by decide)).trans <| (W21_of m c main_arg7 (by decide)).trans <| (W20_of m c main_arg7 (by decide)).trans <| (W19_of m c main_arg7 (by decide)).trans <| (W18_of m c main_arg7 (by decide)).trans <| (W17_of m c main_arg7 (by decide)).trans <| (W16_of m c main_arg7 (by decide)).trans <| (W15_of m c main_arg7 (by decide)).trans <| (W14_of_ne m c main_arg7 (by decide)).trans (W13_main_arg7 m c)
theorem W39_main_arg8 (c : Dev nD) : W39 m c main_arg8 = m ((c : Thread nD τ).loc main_arg8) :=
  (W39_of m c main_arg8 (by decide)).trans <| (W38_of m c main_arg8 (by decide)).trans <| (W37_of m c main_arg8 (by decide)).trans <| (W36_of m c main_arg8 (by decide)).trans <| (W35_of m c main_arg8 (by decide)).trans <| (W34_of m c main_arg8 (by decide)).trans <| (W33_of m c main_arg8 (by decide)).trans <| (W32_of_ne m c main_arg8 (by decide)).trans <| (W31_of_ne m c main_arg8 (by decide)).trans <| (W30_of m c main_arg8 (by decide)).trans <| (W29_of m c main_arg8 (by decide)).trans <| (W28_of m c main_arg8 (by decide)).trans <| (W27_of m c main_arg8 (by decide)).trans <| (W26_of m c main_arg8 (by decide)).trans <| (W25_of m c main_arg8 (by decide)).trans <| (W24_of m c main_arg8 (by decide)).trans <| (W23_of_ne m c main_arg8 (by decide)).trans <| (W22_of_ne m c main_arg8 (by decide)).trans <| (W21_of m c main_arg8 (by decide)).trans <| (W20_of m c main_arg8 (by decide)).trans <| (W19_of m c main_arg8 (by decide)).trans <| (W18_of m c main_arg8 (by decide)).trans <| (W17_of m c main_arg8 (by decide)).trans <| (W16_of m c main_arg8 (by decide)).trans <| (W15_of m c main_arg8 (by decide)).trans <| (W14_of_ne m c main_arg8 (by decide)).trans (W13_main_arg8 m c)
theorem W40_main_arg9 (c : Dev nD) : W40 m c main_arg9 = m ((c : Thread nD τ).loc main_arg9) :=
  (W40_of_ne m c main_arg9 (by decide)).trans <| (W39_of m c main_arg9 (by decide)).trans <| (W38_of m c main_arg9 (by decide)).trans <| (W37_of m c main_arg9 (by decide)).trans <| (W36_of m c main_arg9 (by decide)).trans <| (W35_of m c main_arg9 (by decide)).trans <| (W34_of m c main_arg9 (by decide)).trans <| (W33_of m c main_arg9 (by decide)).trans <| (W32_of_ne m c main_arg9 (by decide)).trans <| (W31_of_ne m c main_arg9 (by decide)).trans <| (W30_of m c main_arg9 (by decide)).trans <| (W29_of m c main_arg9 (by decide)).trans <| (W28_of m c main_arg9 (by decide)).trans <| (W27_of m c main_arg9 (by decide)).trans <| (W26_of m c main_arg9 (by decide)).trans <| (W25_of m c main_arg9 (by decide)).trans <| (W24_of m c main_arg9 (by decide)).trans <| (W23_of_ne m c main_arg9 (by decide)).trans <| (W22_of_ne m c main_arg9 (by decide)).trans <| (W21_of m c main_arg9 (by decide)).trans <| (W20_of m c main_arg9 (by decide)).trans <| (W19_of m c main_arg9 (by decide)).trans <| (W18_of m c main_arg9 (by decide)).trans <| (W17_of m c main_arg9 (by decide)).trans <| (W16_of m c main_arg9 (by decide)).trans <| (W15_of m c main_arg9 (by decide)).trans <| (W14_of_ne m c main_arg9 (by decide)).trans (W13_main_arg9 m c)
theorem W48_main_arg10 (c : Dev nD) : W48 m c main_arg10 = m ((c : Thread nD τ).loc main_arg10) :=
  (W48_of m c main_arg10 (by decide)).trans <| (W47_of m c main_arg10 (by decide)).trans <| (W46_of m c main_arg10 (by decide)).trans <| (W45_of m c main_arg10 (by decide)).trans <| (W44_of m c main_arg10 (by decide)).trans <| (W43_of m c main_arg10 (by decide)).trans <| (W42_of m c main_arg10 (by decide)).trans <| (W41_of_ne m c main_arg10 (by decide)).trans <| (W40_of_ne m c main_arg10 (by decide)).trans <| (W39_of m c main_arg10 (by decide)).trans <| (W38_of m c main_arg10 (by decide)).trans <| (W37_of m c main_arg10 (by decide)).trans <| (W36_of m c main_arg10 (by decide)).trans <| (W35_of m c main_arg10 (by decide)).trans <| (W34_of m c main_arg10 (by decide)).trans <| (W33_of m c main_arg10 (by decide)).trans <| (W32_of_ne m c main_arg10 (by decide)).trans <| (W31_of_ne m c main_arg10 (by decide)).trans <| (W30_of m c main_arg10 (by decide)).trans <| (W29_of m c main_arg10 (by decide)).trans <| (W28_of m c main_arg10 (by decide)).trans <| (W27_of m c main_arg10 (by decide)).trans <| (W26_of m c main_arg10 (by decide)).trans <| (W25_of m c main_arg10 (by decide)).trans <| (W24_of m c main_arg10 (by decide)).trans <| (W23_of_ne m c main_arg10 (by decide)).trans <| (W22_of_ne m c main_arg10 (by decide)).trans <| (W21_of m c main_arg10 (by decide)).trans <| (W20_of m c main_arg10 (by decide)).trans <| (W19_of m c main_arg10 (by decide)).trans <| (W18_of m c main_arg10 (by decide)).trans <| (W17_of m c main_arg10 (by decide)).trans <| (W16_of m c main_arg10 (by decide)).trans <| (W15_of m c main_arg10 (by decide)).trans <| (W14_of_ne m c main_arg10 (by decide)).trans (W13_main_arg10 m c)
theorem W22_main_v46 (c : Dev nD) : W22 m c main_v46 = W13 m c main_v46 :=
  (W22_of_ne m c main_v46 (by decide)).trans <| (W21_of m c main_v46 (by decide)).trans <| (W20_of m c main_v46 (by decide)).trans <| (W19_of m c main_v46 (by decide)).trans <| (W18_of m c main_v46 (by decide)).trans <| (W17_of m c main_v46 (by decide)).trans <| (W16_of m c main_v46 (by decide)).trans <| (W15_of m c main_v46 (by decide)).trans <| (W14_of_ne m c main_v46 (by decide)).trans rfl
theorem W31_main_v46 (c : Dev nD) : W31 m c main_v46 = W13 m c main_v46 :=
  (W31_of_ne m c main_v46 (by decide)).trans <| (W30_of m c main_v46 (by decide)).trans <| (W29_of m c main_v46 (by decide)).trans <| (W28_of m c main_v46 (by decide)).trans <| (W27_of m c main_v46 (by decide)).trans <| (W26_of m c main_v46 (by decide)).trans <| (W25_of m c main_v46 (by decide)).trans <| (W24_of m c main_v46 (by decide)).trans <| (W23_of_ne m c main_v46 (by decide)).trans (W22_main_v46 m c)
theorem W40_main_v46 (c : Dev nD) : W40 m c main_v46 = W13 m c main_v46 :=
  (W40_of_ne m c main_v46 (by decide)).trans <| (W39_of m c main_v46 (by decide)).trans <| (W38_of m c main_v46 (by decide)).trans <| (W37_of m c main_v46 (by decide)).trans <| (W36_of m c main_v46 (by decide)).trans <| (W35_of m c main_v46 (by decide)).trans <| (W34_of m c main_v46 (by decide)).trans <| (W33_of m c main_v46 (by decide)).trans <| (W32_of_ne m c main_v46 (by decide)).trans (W31_main_v46 m c)
theorem W21_main_v50 (c : Dev nD) : W21 m c main_v50 = W13 m c main_v50 :=
  (W21_of m c main_v50 (by decide)).trans <| (W20_of m c main_v50 (by decide)).trans <| (W19_of m c main_v50 (by decide)).trans <| (W18_of m c main_v50 (by decide)).trans <| (W17_of m c main_v50 (by decide)).trans <| (W16_of m c main_v50 (by decide)).trans <| (W15_of m c main_v50 (by decide)).trans <| (W14_of_ne m c main_v50 (by decide)).trans rfl
theorem W30_main_v50 (c : Dev nD) : W30 m c main_v50 = W13 m c main_v50 :=
  (W30_of m c main_v50 (by decide)).trans <| (W29_of m c main_v50 (by decide)).trans <| (W28_of m c main_v50 (by decide)).trans <| (W27_of m c main_v50 (by decide)).trans <| (W26_of m c main_v50 (by decide)).trans <| (W25_of m c main_v50 (by decide)).trans <| (W24_of m c main_v50 (by decide)).trans <| (W23_of_ne m c main_v50 (by decide)).trans <| (W22_of_ne m c main_v50 (by decide)).trans (W21_main_v50 m c)
theorem W39_main_v50 (c : Dev nD) : W39 m c main_v50 = W13 m c main_v50 :=
  (W39_of m c main_v50 (by decide)).trans <| (W38_of m c main_v50 (by decide)).trans <| (W37_of m c main_v50 (by decide)).trans <| (W36_of m c main_v50 (by decide)).trans <| (W35_of m c main_v50 (by decide)).trans <| (W34_of m c main_v50 (by decide)).trans <| (W33_of m c main_v50 (by decide)).trans <| (W32_of_ne m c main_v50 (by decide)).trans <| (W31_of_ne m c main_v50 (by decide)).trans (W30_main_v50 m c)
theorem W48_main_v50 (c : Dev nD) : W48 m c main_v50 = W13 m c main_v50 :=
  (W48_of m c main_v50 (by decide)).trans <| (W47_of m c main_v50 (by decide)).trans <| (W46_of m c main_v50 (by decide)).trans <| (W45_of m c main_v50 (by decide)).trans <| (W44_of m c main_v50 (by decide)).trans <| (W43_of m c main_v50 (by decide)).trans <| (W42_of m c main_v50 (by decide)).trans <| (W41_of_ne m c main_v50 (by decide)).trans <| (W40_of_ne m c main_v50 (by decide)).trans (W39_main_v50 m c)

/-! ## The four layers along the fold -/

/-- LAYER 1: what region 1 leaves in `main_v86` is the hidden layer of the input features, at the launch contents of the index tables, the
    layer's weights and its biases. Region 0 leaves in `main_v51` the pretransform array of what it reads; the host stretch after it
    leaves in `main_v85`, per relation, that array's slab gathered at the source indices and added up at the destination indices;
    region 1 leaves the running sum over the relations, which is the layer. -/
theorem layer1_eq (c : Dev nD) (hs : Spec.SrcInRange (m ((c : Thread nD τ).loc main_arg1))) :
    (o22 m c : Vec Ideal S100000x64 .f32) = Spec.layer64 (m ((c : Thread nD τ).loc main_arg0)) (m ((c : Thread nD τ).loc main_arg1)) (m ((c : Thread nD τ).loc main_arg2)) (m ((c : Thread nD τ).loc main_arg3)) (m ((c : Thread nD τ).loc main_arg4)) := by
  have hpre : (W14 m c main_v51 : Vec Ideal S3x100000x64 .f32) = Spec.preArr64 (m ((c : Thread nD τ).loc main_arg0)) (W13 m c main_v46) (m ((c : Thread nD τ).loc main_arg3)) := by
    rw [W14_arr]
    refine (pre_value_0 (tc13 m) c).trans ?_
    show Spec.preArr64 (W13 m c main_arg0) (W13 m c main_v46) (W13 m c main_arg3) = _
    rw [W13_main_arg0, W13_main_arg3]
  have hs' : Spec.SrcInRange (W14 m c main_arg1) := by rw [W14_main_arg1]; exact hs
  have hst : ∀ (r : Fin 3) (n : Fin 100000) (d : Fin 64), (W21 m c main_v85 : Vec Ideal S3x100000x64 .f32) (ix3 r n d)
      = Spec.agg64 (fun i : S100000x64.Idx => Spec.preArr64 (m ((c : Thread nD τ).loc main_arg0)) (W13 m c main_v46) (m ((c : Thread nD τ).loc main_arg3)) (ix3 r (i 0) (i 1)))
          (idxr r (m ((c : Thread nD τ).loc main_arg1))) (idxr r (m ((c : Thread nD τ).loc main_arg2))) (ix2 n d) := fun r n d => by
    have h0 := stack1_apply (W14 m c) hs' r n d
    rw [hpre, W14_main_arg1, W14_main_arg2] at h0
    exact h0
  have hpost : (o22 m c : Vec Ideal S100000x64 .f32) = Spec.postArr64 (W21 m c main_v85) (W21 m c main_v50) (W21 m c main_arg4) :=
    post_value_1 (tc21 m) c
  rw [hpost, W21_main_arg4]
  exact layer64_step (m ((c : Thread nD τ).loc main_arg0)) (m ((c : Thread nD τ).loc main_arg1)) (m ((c : Thread nD τ).loc main_arg2)) (m ((c : Thread nD τ).loc main_arg3)) (m ((c : Thread nD τ).loc main_arg4)) (W13 m c main_v46) (W21 m c main_v50) (W21 m c main_v85)
    (fun n r => invdeg_out_apply m c n r)
    (fun n r => by rw [W21_main_v50]; exact invdeg_in_apply m c n r)
    hst

/-- LAYER 2: what region 3 leaves in `main_v122` is the hidden layer of layer 1's output, at the launch contents of the index tables, the
    layer's weights and its biases. Region 2 leaves in `main_v87` the pretransform array of what it reads; the host stretch after it
    leaves in `main_v121`, per relation, that array's slab gathered at the source indices and added up at the destination indices;
    region 3 leaves the running sum over the relations, which is the layer. -/
theorem layer2_eq (c : Dev nD) (hs : Spec.SrcInRange (m ((c : Thread nD τ).loc main_arg1))) :
    (o31 m c : Vec Ideal S100000x64 .f32) = Spec.layer64 (o22 m c) (m ((c : Thread nD τ).loc main_arg1)) (m ((c : Thread nD τ).loc main_arg2)) (m ((c : Thread nD τ).loc main_arg5)) (m ((c : Thread nD τ).loc main_arg6)) := by
  have hpre : (W23 m c main_v87 : Vec Ideal S3x100000x64 .f32) = Spec.preArr64 (o22 m c) (W13 m c main_v46) (m ((c : Thread nD τ).loc main_arg5)) := by
    rw [W23_arr]
    refine (pre_value_2 (tc22 m) c).trans ?_
    show Spec.preArr64 (W22 m c main_v86) (W22 m c main_v46) (W22 m c main_arg5) = _
    rw [W22_arr, W22_main_v46, W22_main_arg5]
  have hs' : Spec.SrcInRange (W23 m c main_arg1) := by rw [W23_main_arg1]; exact hs
  have hst : ∀ (r : Fin 3) (n : Fin 100000) (d : Fin 64), (W30 m c main_v121 : Vec Ideal S3x100000x64 .f32) (ix3 r n d)
      = Spec.agg64 (fun i : S100000x64.Idx => Spec.preArr64 (o22 m c) (W13 m c main_v46) (m ((c : Thread nD τ).loc main_arg5)) (ix3 r (i 0) (i 1)))
          (idxr r (m ((c : Thread nD τ).loc main_arg1))) (idxr r (m ((c : Thread nD τ).loc main_arg2))) (ix2 n d) := fun r n d => by
    have h0 := stack2_apply (W23 m c) hs' r n d
    rw [hpre, W23_main_arg1, W23_main_arg2] at h0
    exact h0
  have hpost : (o31 m c : Vec Ideal S100000x64 .f32) = Spec.postArr64 (W30 m c main_v121) (W30 m c main_v50) (W30 m c main_arg6) :=
    post_value_3 (tc30 m) c
  rw [hpost, W30_main_arg6]
  exact layer64_step (o22 m c) (m ((c : Thread nD τ).loc main_arg1)) (m ((c : Thread nD τ).loc main_arg2)) (m ((c : Thread nD τ).loc main_arg5)) (m ((c : Thread nD τ).loc main_arg6)) (W13 m c main_v46) (W30 m c main_v50) (W30 m c main_v121)
    (fun n r => invdeg_out_apply m c n r)
    (fun n r => by rw [W30_main_v50]; exact invdeg_in_apply m c n r)
    hst

/-- LAYER 3: what region 5 leaves in `main_v158` is the hidden layer of layer 2's output, at the launch contents of the index tables, the
    layer's weights and its biases. Region 4 leaves in `main_v123` the pretransform array of what it reads; the host stretch after it
    leaves in `main_v157`, per relation, that array's slab gathered at the source indices and added up at the destination indices;
    region 5 leaves the running sum over the relations, which is the layer. -/
theorem layer3_eq (c : Dev nD) (hs : Spec.SrcInRange (m ((c : Thread nD τ).loc main_arg1))) :
    (o40 m c : Vec Ideal S100000x64 .f32) = Spec.layer64 (o31 m c) (m ((c : Thread nD τ).loc main_arg1)) (m ((c : Thread nD τ).loc main_arg2)) (m ((c : Thread nD τ).loc main_arg7)) (m ((c : Thread nD τ).loc main_arg8)) := by
  have hpre : (W32 m c main_v123 : Vec Ideal S3x100000x64 .f32) = Spec.preArr64 (o31 m c) (W13 m c main_v46) (m ((c : Thread nD τ).loc main_arg7)) := by
    rw [W32_arr]
    refine (pre_value_4 (tc31 m) c).trans ?_
    show Spec.preArr64 (W31 m c main_v122) (W31 m c main_v46) (W31 m c main_arg7) = _
    rw [W31_arr, W31_main_v46, W31_main_arg7]
  have hs' : Spec.SrcInRange (W32 m c main_arg1) := by rw [W32_main_arg1]; exact hs
  have hst : ∀ (r : Fin 3) (n : Fin 100000) (d : Fin 64), (W39 m c main_v157 : Vec Ideal S3x100000x64 .f32) (ix3 r n d)
      = Spec.agg64 (fun i : S100000x64.Idx => Spec.preArr64 (o31 m c) (W13 m c main_v46) (m ((c : Thread nD τ).loc main_arg7)) (ix3 r (i 0) (i 1)))
          (idxr r (m ((c : Thread nD τ).loc main_arg1))) (idxr r (m ((c : Thread nD τ).loc main_arg2))) (ix2 n d) := fun r n d => by
    have h0 := stack3_apply (W32 m c) hs' r n d
    rw [hpre, W32_main_arg1, W32_main_arg2] at h0
    exact h0
  have hpost : (o40 m c : Vec Ideal S100000x64 .f32) = Spec.postArr64 (W39 m c main_v157) (W39 m c main_v50) (W39 m c main_arg8) :=
    post_value_5 (tc39 m) c
  rw [hpost, W39_main_arg8]
  exact layer64_step (o31 m c) (m ((c : Thread nD τ).loc main_arg1)) (m ((c : Thread nD τ).loc main_arg2)) (m ((c : Thread nD τ).loc main_arg7)) (m ((c : Thread nD τ).loc main_arg8)) (W13 m c main_v46) (W39 m c main_v50) (W39 m c main_v157)
    (fun n r => invdeg_out_apply m c n r)
    (fun n r => by rw [W39_main_v50]; exact invdeg_in_apply m c n r)
    hst

/-- LAYER 4: what region 7 leaves in `main_v194` is the output layer of layer 3's output, at the launch contents of the index tables, the
    layer's weights and its biases. Region 6 leaves in `main_v159` the pretransform array of what it reads; the host stretch after it
    leaves in `main_v193`, per relation, that array's slab gathered at the source indices and added up at the destination indices;
    region 7 leaves the running sum over the relations, which is the layer. -/
theorem layer4_eq (c : Dev nD) (hs : Spec.SrcInRange (m ((c : Thread nD τ).loc main_arg1))) :
    (o49 m c : Vec Ideal S100000x2 .f32) = Spec.layer2 (o40 m c) (m ((c : Thread nD τ).loc main_arg1)) (m ((c : Thread nD τ).loc main_arg2)) (m ((c : Thread nD τ).loc main_arg9)) (m ((c : Thread nD τ).loc main_arg10)) := by
  have hpre : (W41 m c main_v159 : Vec Ideal S3x100000x2 .f32) = Spec.preArr2 (o40 m c) (W13 m c main_v46) (m ((c : Thread nD τ).loc main_arg9)) := by
    rw [W41_arr]
    refine (pre_value_6 (tc40 m) c).trans ?_
    show Spec.preArr2 (W40 m c main_v158) (W40 m c main_v46) (W40 m c main_arg9) = _
    rw [W40_arr, W40_main_v46, W40_main_arg9]
  have hs' : Spec.SrcInRange (W41 m c main_arg1) := by rw [W41_main_arg1]; exact hs
  have hst : ∀ (r : Fin 3) (n : Fin 100000) (d : Fin 2), (W48 m c main_v193 : Vec Ideal S3x100000x2 .f32) (ix3 r n d)
      = Spec.agg2 (fun i : S100000x2.Idx => Spec.preArr2 (o40 m c) (W13 m c main_v46) (m ((c : Thread nD τ).loc main_arg9)) (ix3 r (i 0) (i 1)))
          (idxr r (m ((c : Thread nD τ).loc main_arg1))) (idxr r (m ((c : Thread nD τ).loc main_arg2))) (ix2 n d) := fun r n d => by
    have h0 := stack4_apply (W41 m c) hs' r n d
    rw [hpre, W41_main_arg1, W41_main_arg2] at h0
    exact h0
  have hpost : (o49 m c : Vec Ideal S100000x2 .f32) = Spec.postArr2 (W48 m c main_v193) (W48 m c main_v50) (W48 m c main_arg10) :=
    post_value_7 (tc48 m) c
  rw [hpost, W48_main_arg10]
  exact layer2_step (o40 m c) (m ((c : Thread nD τ).loc main_arg1)) (m ((c : Thread nD τ).loc main_arg2)) (m ((c : Thread nD τ).loc main_arg9)) (m ((c : Thread nD τ).loc main_arg10)) (W13 m c main_v46) (W48 m c main_v50) (W48 m c main_v193)
    (fun n r => invdeg_out_apply m c n r)
    (fun n r => by rw [W48_main_v50]; exact invdeg_in_apply m c n r)
    hst

/-! ## The result -/

/-- THE VALUE of the run: the returned array is the specification's network of the launch contents of the arguments, when every
    source index is a node number. -/
theorem result_eq (c : Dev nD) (hs : Spec.SrcInRange (m ((c.tc : Thread nD τ).loc main_arg1))) :
    result (F := Ideal) m c = Spec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  have e : result (F := Ideal) m c = o49 m c := (congrFun (V49_eq m c) (Proc.devRef .tc main_v194)).trans (W49_arr m c)
  rw [e, layer4_eq m c hs, layer3_eq m c hs, layer2_eq m c hs, layer1_eq m c hs]
  rfl

end Cert.KernelIdeal.Hand

end
-- ==== Proof.Ref.RSpec.lean ====
/-
  The reference program's own composition, named piece by piece, at any reading of the floats: for one relation
  (one row of each index table, one weight matrix, one bias row) the term it adds to a layer's running sum,
  spelt with the operations of its @main in their order; a layer as the sum of the three relations' terms
  (and the maximum with zero for a hidden layer); the network as four layers.
-/
import proofs.«408287_j3659312136510_1_alg».proof.ReferenceIdeal
import Idealize.ShloMosaic.PureOps.Ideal

noncomputable section

namespace Cert.ReferenceIdeal.RSpec

open Idealize.ShloMosaic Cert.ReferenceIdeal

variable [Facts]
open Facts₀ Facts

variable {F : FTy → Type} [FloatOps F]

/-- Row r of a [3, E] index table as an [E] vector (r = 0, 1, 2). -/
def row0 (t : IVec S3x800000 32) : IVec S800000 32 :=
  shapeCast S800000 (extractStridedSlice S1x800000 ![0, 0] t slices_S3x800000_S1x800000_0_0) shapeCasts_S1x800000_S800000
def row1 (t : IVec S3x800000 32) : IVec S800000 32 :=
  shapeCast S800000 (extractStridedSlice S1x800000 ![1, 0] t slices_S3x800000_S1x800000_1_0) shapeCasts_S1x800000_S800000
def row2 (t : IVec S3x800000 32) : IVec S800000 32 :=
  shapeCast S800000 (extractStridedSlice S1x800000 ![2, 0] t slices_S3x800000_S1x800000_2_0) shapeCasts_S1x800000_S800000

/-- An [E] vector of indices as the [E, 1] column of start indices. -/
def col (v : IVec S800000 32) : IVec S800000x1 32 := broadcastInDim S800000x1 ![0] bcast_S800000_S800000x1_0 v

/-- The degree factor of every node for one row of indices. -/
def deg (v : IVec S800000 32) : FVec F S100000 .f32 :=
  Host.rsqrt (maximumf (broadcastInDim S100000 ![] bcast_S_S100000 (id (constant (F := F) S_ .f32 0x3F800000#32)))
    (Host.scatterAdd scatter_S100000_S800000x1_S800000_n_0_0_1
      (broadcastInDim S100000 ![] bcast_S_S100000 (constant (F := F) S_ .f32 0x00000000#32)) (col v)
      (broadcastInDim S800000 ![] bcast_S_S800000 (constant (F := F) S_ .f32 0x3F800000#32))))

/-- Negative indices wrapped once by the table's length, as the reference's indexing does. -/
def norm (v : IVec S800000 32) : IVec S800000 32 :=
  select (cmpi .slt v (broadcastInDim S800000 ![] bcast_S_S800000 (constantI S_ 32 0#32)))
    (addi v (broadcastInDim S800000 ![] bcast_S_S800000 (constantI S_ 32 100000#32))) v

/-- One relation's term, width 64, of the rows h, the relation's source and destination rows, its weight matrix and bias row. -/
def rel64 (h : FVec F S100000x64 .f32) (rowS rowD : IVec S800000 32) (Wr : FVec F S64x64 .f32) (br : FVec F S64 .f32) :
    FVec F S100000x64 .f32 :=
  addf
    (mulf
      (Host.scatterAdd scatter_S100000x64_S800000x1_S800000x64_1_0_0_1
        (broadcastInDim S100000x64 ![] bcast_S_S100000x64 (constant (F := F) S_ .f32 0x00000000#32)) (col rowD)
        (Host.gather gather_S100000x64_S800000x1_S800000x64_1_0_n_n_0_1_164
          (Host.dotGeneral dot_S100000x64_S64x64_S100000x64_1_0_0_1_n_n none
            (mulf h (broadcastInDim S100000x64 ![0, 1] bcast_S100000x1_S100000x64_0_1
              (broadcastInDim S100000x1 ![0] bcast_S100000_S100000x1_0 (deg rowS)))) Wr)
          (col (norm rowS))))
      (broadcastInDim S100000x64 ![0, 1] bcast_S100000x1_S100000x64_0_1
        (broadcastInDim S100000x1 ![0] bcast_S100000_S100000x1_0 (deg rowD))))
    (broadcastInDim S100000x64 ![0, 1] bcast_S1x64_S100000x64_0_1 (broadcastInDim S1x64 ![1] bcast_S64_S1x64_1 br))

/-- One relation's term, width 2. -/
def rel2 (h : FVec F S100000x64 .f32) (rowS rowD : IVec S800000 32) (Wr : FVec F S64x2 .f32) (br : FVec F S2 .f32) :
    FVec F S100000x2 .f32 :=
  addf
    (mulf
      (Host.scatterAdd scatter_S100000x2_S800000x1_S800000x2_1_0_0_1
        (broadcastInDim S100000x2 ![] bcast_S_S100000x2 (constant (F := F) S_ .f32 0x00000000#32)) (col rowD)
        (Host.gather gather_S100000x2_S800000x1_S800000x2_1_0_n_n_0_1_12
          (Host.dotGeneral dot_S100000x64_S64x2_S100000x2_1_0_0_1_n_n none
            (mulf h (broadcastInDim S100000x64 ![0, 1] bcast_S100000x1_S100000x64_0_1
              (broadcastInDim S100000x1 ![0] bcast_S100000_S100000x1_0 (deg rowS)))) Wr)
          (col (norm rowS))))
      (broadcastInDim S100000x2 ![0, 1] bcast_S100000x1_S100000x2_0_1
        (broadcastInDim S100000x1 ![0] bcast_S100000_S100000x1_0 (deg rowD))))
    (broadcastInDim S100000x2 ![0, 1] bcast_S1x2_S100000x2_0_1 (broadcastInDim S1x2 ![1] bcast_S2_S1x2_1 br))

/-- The r-th weight matrix and bias row of a layer's parameters. -/
def W64_0 (W : FVec F S3x64x64 .f32) : FVec F S64x64 .f32 := shapeCast S64x64 (extractStridedSlice S1x64x64 ![0, 0, 0] W slices_S3x64x64_S1x64x64_0_0_0) shapeCasts_S1x64x64_S64x64
def W64_1 (W : FVec F S3x64x64 .f32) : FVec F S64x64 .f32 := shapeCast S64x64 (extractStridedSlice S1x64x64 ![1, 0, 0] W slices_S3x64x64_S1x64x64_1_0_0) shapeCasts_S1x64x64_S64x64
def W64_2 (W : FVec F S3x64x64 .f32) : FVec F S64x64 .f32 := shapeCast S64x64 (extractStridedSlice S1x64x64 ![2, 0, 0] W slices_S3x64x64_S1x64x64_2_0_0) shapeCasts_S1x64x64_S64x64
def b64_0 (b : FVec F S3x64 .f32) : FVec F S64 .f32 := shapeCast S64 (extractStridedSlice S1x64 ![0, 0] b slices_S3x64_S1x64_0_0) shapeCasts_S1x64_S64
def b64_1 (b : FVec F S3x64 .f32) : FVec F S64 .f32 := shapeCast S64 (extractStridedSlice S1x64 ![1, 0] b slices_S3x64_S1x64_1_0) shapeCasts_S1x64_S64
def b64_2 (b : FVec F S3x64 .f32) : FVec F S64 .f32 := shapeCast S64 (extractStridedSlice S1x64 ![2, 0] b slices_S3x64_S1x64_2_0) shapeCasts_S1x64_S64
def W2_0 (W : FVec F S3x64x2 .f32) : FVec F S64x2 .f32 := shapeCast S64x2 (extractStridedSlice S1x64x2 ![0, 0, 0] W slices_S3x64x2_S1x64x2_0_0_0) shapeCasts_S1x64x2_S64x2
def W2_1 (W : FVec F S3x64x2 .f32) : FVec F S64x2 .f32 := shapeCast S64x2 (extractStridedSlice S1x64x2 ![1, 0, 0] W slices_S3x64x2_S1x64x2_1_0_0) shapeCasts_S1x64x2_S64x2
def W2_2 (W : FVec F S3x64x2 .f32) : FVec F S64x2 .f32 := shapeCast S64x2 (extractStridedSlice S1x64x2 ![2, 0, 0] W slices_S3x64x2_S1x64x2_2_0_0) shapeCasts_S1x64x2_S64x2
def b2_0 (b : FVec F S3x2 .f32) : FVec F S2 .f32 := shapeCast S2 (extractStridedSlice S1x2 ![0, 0] b slices_S3x2_S1x2_0_0) shapeCasts_S1x2_S2
def b2_1 (b : FVec F S3x2 .f32) : FVec F S2 .f32 := shapeCast S2 (extractStridedSlice S1x2 ![1, 0] b slices_S3x2_S1x2_1_0) shapeCasts_S1x2_S2
def b2_2 (b : FVec F S3x2 .f32) : FVec F S2 .f32 := shapeCast S2 (extractStridedSlice S1x2 ![2, 0] b slices_S3x2_S1x2_2_0) shapeCasts_S1x2_S2

/-- A layer before its maximum: the three relations' terms added in the reference's order. -/
def sum64 (h : FVec F S100000x64 .f32) (src dst : IVec S3x800000 32) (W : FVec F S3x64x64 .f32) (b : FVec F S3x64 .f32) :
    FVec F S100000x64 .f32 :=
  addf (addf (rel64 h (row0 src) (row0 dst) (W64_0 W) (b64_0 b)) (rel64 h (row1 src) (row1 dst) (W64_1 W) (b64_1 b)))
    (rel64 h (row2 src) (row2 dst) (W64_2 W) (b64_2 b))

/-- A hidden layer: the sum followed by the maximum with zero. -/
def layer64 (h : FVec F S100000x64 .f32) (src dst : IVec S3x800000 32) (W : FVec F S3x64x64 .f32) (b : FVec F S3x64 .f32) :
    FVec F S100000x64 .f32 :=
  maximumf (sum64 h src dst W b) (broadcastInDim S100000x64 ![] bcast_S_S100000x64 (constant (F := F) S_ .f32 0x00000000#32))

/-- The output layer. -/
def layer2 (h : FVec F S100000x64 .f32) (src dst : IVec S3x800000 32) (W : FVec F S3x64x2 .f32) (b : FVec F S3x2 .f32) :
    FVec F S100000x2 .f32 :=
  addf (addf (rel2 h (row0 src) (row0 dst) (W2_0 W) (b2_0 b)) (rel2 h (row1 src) (row1 dst) (W2_1 W) (b2_1 b)))
    (rel2 h (row2 src) (row2 dst) (W2_2 W) (b2_2 b))

/-- The reference's network. -/
def net (x : FVec F S100000x64 .f32) (src dst : IVec S3x800000 32)
    (W1 : FVec F S3x64x64 .f32) (b1 : FVec F S3x64 .f32) (W2 : FVec F S3x64x64 .f32) (b2 : FVec F S3x64 .f32)
    (W3 : FVec F S3x64x64 .f32) (b3 : FVec F S3x64 .f32) (W4 : FVec F S3x64x2 .f32) (b4 : FVec F S3x2 .f32) :
    FVec F S100000x2 .f32 :=
  layer2 (layer64 (layer64 (layer64 x src dst W1 b1) src dst W2 b2) src dst W3 b3) src dst W4 b4

end Cert.ReferenceIdeal.RSpec

end
-- ==== Proof.Ref.RefValue.lean ====
/-
  The reference's composition is the specification.

  Both are the same four layers. One relation's term of a layer is, in the reference, a composition of whole-array
  operations: the features scaled row by row with the source-side degree factor, a matrix product with the
  relation's weight matrix, the rows gathered at the source indices and added up at the destination indices, a
  scaling row by row with the destination-side degree factor, and the relation's bias row added to every row. The
  specification writes the matrix product and the last two steps index by index. Read at an index the two agree:
  the broadcast of a length-N vector along the rows is its entry at the row number, the broadcast of a length-D
  vector along the columns is its entry at the column number, the r-th slice of a stack is the stack at first
  coordinate r, and the matrix product at (n, d) is the sum over k of lhs[n, k] · rhs[k, d]. The gather and the
  scatter-add are applied to equal arrays at equal indices, so they are never opened. The reference wraps a
  negative source index once by the table's length; on indices that are node numbers this changes nothing.
-/
import proofs.«408287_j3659312136510_1_alg».proof.Proof.Ref.RSpec
import proofs.«408287_j3659312136510_1_alg».proof.Proof.Spec
import proofs.«408287_j3659312136510_1_alg».proof.Proof.KI.PreTake
import Idealize.ShloMosaic.Lib.Pipeline.Value
import Idealize.ShloMosaic.Lib.ValueIdx
import Idealize.ShloMosaic.PureOps.Ideal.Laws

noncomputable section

namespace Cert.ReferenceIdeal.Hand

open Idealize.ShloMosaic Idealize.ShloMosaic.ValueIdx Cert.ReferenceIdeal

variable [Cert.ReferenceIdeal.Facts] [Cert.KernelIdeal.Facts]
open Cert.ReferenceIdeal.Facts₀ Cert.ReferenceIdeal.Facts

/-! ## The two programs' dimension records are the same records -/

theorem scatter_count_eq :
    Cert.ReferenceIdeal.scatter_S100000_S800000x1_S800000_n_0_0_1 = Cert.KernelIdeal.scatter_S100000_S800000x1_S800000_n_0_0_1 := rfl
theorem gather64_eq :
    Cert.ReferenceIdeal.gather_S100000x64_S800000x1_S800000x64_1_0_n_n_0_1_164 = Cert.KernelIdeal.gather_S100000x64_S800000x1_S800000x64_1_0_n_n_0_1_164 := rfl
theorem scatter64_eq :
    Cert.ReferenceIdeal.scatter_S100000x64_S800000x1_S800000x64_1_0_0_1 = Cert.KernelIdeal.scatter_S100000x64_S800000x1_S800000x64_1_0_0_1 := rfl
theorem gather2_eq :
    Cert.ReferenceIdeal.gather_S100000x2_S800000x1_S800000x2_1_0_n_n_0_1_12 = Cert.KernelIdeal.gather_S100000x2_S800000x1_S800000x2_1_0_n_n_0_1_12 := rfl
theorem scatter2_eq :
    Cert.ReferenceIdeal.scatter_S100000x2_S800000x1_S800000x2_1_0_0_1 = Cert.KernelIdeal.scatter_S100000x2_S800000x1_S800000x2_1_0_0_1 := rfl

/-! ## Rows, columns and degree factors: the same operations over the other program's constants -/

theorem col_row0 (t : IVec S3x800000 32) : RSpec.col (RSpec.row0 t) = Cert.KernelIdeal.Spec.idx0 t := rfl
theorem col_row1 (t : IVec S3x800000 32) : RSpec.col (RSpec.row1 t) = Cert.KernelIdeal.Spec.idx1 t := rfl
theorem col_row2 (t : IVec S3x800000 32) : RSpec.col (RSpec.row2 t) = Cert.KernelIdeal.Spec.idx2 t := rfl

theorem deg_eq (v : IVec S800000 32) : RSpec.deg (F := Ideal) v = Cert.KernelIdeal.Spec.deg (RSpec.col v) := rfl

/-! ## Layout operations read at an index -/

section Layout
variable {α : Type}

/-- A length-N vector broadcast along the rows of an [N, 64] array: entry (n, d) is the vector's entry n. -/
theorem rows64_apply (s : S100000.Idx → α) (n : Fin 100000) (d : Fin 64) :
    broadcastInDim S100000x64 ![0, 1] bcast_S100000x1_S100000x64_0_1
      (broadcastInDim S100000x1 ![0] bcast_S100000_S100000x1_0 s) (ix2 n d) = s (ix1 n) := by
  rw [broadcastInDim_apply _ bcast_S100000x1_S100000x64_0_1 _ (ix2 n d) (ix2 n 0) (fun a => match a with
      | ⟨0, _⟩ => by show n.val = if (100000 : Nat) = 1 then 0 else n.val; rw [if_neg (by decide)]
      | ⟨1, _⟩ => by show 0 = if (1 : Nat) = 1 then 0 else d.val; rw [if_pos rfl])]
  exact broadcastInDim_apply _ bcast_S100000_S100000x1_0 s (ix2 n 0) (ix1 n) (fun a => match a with
      | ⟨0, _⟩ => by show n.val = if (100000 : Nat) = 1 then 0 else n.val; rw [if_neg (by decide)])

/-- A length-64 vector broadcast along the columns of an [N, 64] array: entry (n, d) is the vector's entry d. -/
theorem cols64_apply (v : S64.Idx → α) (n : Fin 100000) (d : Fin 64) :
    broadcastInDim S100000x64 ![0, 1] bcast_S1x64_S100000x64_0_1
      (broadcastInDim S1x64 ![1] bcast_S64_S1x64_1 v) (ix2 n d) = v (ix1 d) := by
  rw [broadcastInDim_apply _ bcast_S1x64_S100000x64_0_1 _ (ix2 n d) (ix2 0 d) (fun a => match a with
      | ⟨0, _⟩ => by show 0 = if (1 : Nat) = 1 then 0 else n.val; rw [if_pos rfl]
      | ⟨1, _⟩ => by show d.val = if (64 : Nat) = 1 then 0 else d.val; rw [if_neg (by decide)])]
  exact broadcastInDim_apply _ bcast_S64_S1x64_1 v (ix2 0 d) (ix1 d) (fun a => match a with
      | ⟨0, _⟩ => by show d.val = if (64 : Nat) = 1 then 0 else d.val; rw [if_neg (by decide)])

end Layout

/-! ## The r-th weight matrix and bias row -/

/-- A [1, 64, 64] slice of the weight stack starting at (r, 0, 0), with the unit axis dropped, read at (k, d). -/
theorem slice_W64_apply {α : Type} (r : Fin 3) (off : Fin 3 → Nat) (hoff : off = ![r.val, 0, 0]) (W : S3x64x64.Idx → α)
    (hsl : S3x64x64.Slices off S1x64x64) (k : Fin 64) (d : Fin 64) :
    shapeCast S64x64 (extractStridedSlice S1x64x64 off W hsl) shapeCasts_S1x64x64_S64x64 (ix2 k d) = W (ix3 r k d) := by
  subst hoff
  rw [shapeCast_apply _ shapeCasts_S1x64x64_S64x64 (ix2 k d) (ix3 0 k d) (by
    rw [Shape.rowMajor_val_three, Shape.rowMajor_val_two]
    show (0 * 64 + k.val) * 64 + d.val = k.val * 64 + d.val
    omega)]
  exact extractStridedSlice_apply _ W hsl (ix3 0 k d) (ix3 r k d) (fun a => match a with
    | ⟨0, _⟩ => by show r.val = r.val + 0; omega
    | ⟨1, _⟩ => by show k.val = 0 + k.val; omega
    | ⟨2, _⟩ => by show d.val = 0 + d.val; omega)

theorem W64_0_apply (W : FVec Ideal S3x64x64 .f32) (k : Fin 64) (d : Fin 64) : RSpec.W64_0 W (ix2 k d) = W (ix3 0 k d) :=
  slice_W64_apply 0 _ rfl W _ k d
theorem W64_1_apply (W : FVec Ideal S3x64x64 .f32) (k : Fin 64) (d : Fin 64) : RSpec.W64_1 W (ix2 k d) = W (ix3 1 k d) :=
  slice_W64_apply 1 _ rfl W _ k d
theorem W64_2_apply (W : FVec Ideal S3x64x64 .f32) (k : Fin 64) (d : Fin 64) : RSpec.W64_2 W (ix2 k d) = W (ix3 2 k d) :=
  slice_W64_apply 2 _ rfl W _ k d

/-- A [1, 64] slice of the bias table starting at (r, 0), with the unit axis dropped, read at d. -/
theorem slice_b64_apply {α : Type} (r : Fin 3) (off : Fin 2 → Nat) (hoff : off = ![r.val, 0]) (b : S3x64.Idx → α)
    (hsl : S3x64.Slices off S1x64) (d : Fin 64) :
    shapeCast S64 (extractStridedSlice S1x64 off b hsl) shapeCasts_S1x64_S64 (ix1 d) = b (ix2 r d) := by
  subst hoff
  rw [shapeCast_apply _ shapeCasts_S1x64_S64 (ix1 d) (ix2 0 d) (by
    rw [Shape.rowMajor_val_two, Shape.rowMajor_val_one]
    show 0 * 64 + d.val = d.val
    omega)]
  exact extractStridedSlice_apply _ b hsl (ix2 0 d) (ix2 r d) (fun a => match a with
    | ⟨0, _⟩ => by show r.val = r.val + 0; omega
    | ⟨1, _⟩ => by show d.val = 0 + d.val; omega)

theorem b64_0_apply (b : FVec Ideal S3x64 .f32) (d : Fin 64) : RSpec.b64_0 b (ix1 d) = b (ix2 0 d) :=
  slice_b64_apply 0 _ rfl b _ d
theorem b64_1_apply (b : FVec Ideal S3x64 .f32) (d : Fin 64) : RSpec.b64_1 b (ix1 d) = b (ix2 1 d) :=
  slice_b64_apply 1 _ rfl b _ d
theorem b64_2_apply (b : FVec Ideal S3x64 .f32) (d : Fin 64) : RSpec.b64_2 b (ix1 d) = b (ix2 2 d) :=
  slice_b64_apply 2 _ rfl b _ d

/-! ## The matrix product at an index -/

theorem lhs_dot64_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch from List.not_mem_nil), dif_pos (show (0 : Fin S100000x64.rank) ∈ dot_S100000x64_S64x64_S100000x64_1_0_0_1_n_n.lhsNonContracting from List.mem_singleton.mpr rfl)]
  rfl
theorem lhs_dot64_1 (i : S100000x64.Idx) (q : dot_S100000x64_S64x64_S100000x64_1_0_0_1_n_n.contr.Idx)
    (h0 : 0 < dot_S100000x64_S64x64_S100000x64_1_0_0_1_n_n.contr.rank) :
    (dot_S100000x64_S64x64_S100000x64_1_0_0_1_n_n.lhsIdx i q 1).val = (q ⟨0, h0⟩).val :=
  dot_S100000x64_S64x64_S100000x64_1_0_0_1_n_n.lhsIdx_val_of_single rfl i q
theorem rhs_dot64_0 (i : S100000x64.Idx) (q : dot_S100000x64_S64x64_S100000x64_1_0_0_1_n_n.contr.Idx)
    (h0 : 0 < dot_S100000x64_S64x64_S100000x64_1_0_0_1_n_n.contr.rank) :
    (dot_S100000x64_S64x64_S100000x64_1_0_0_1_n_n.rhsIdx i q 0).val = (q ⟨0, h0⟩).val :=
  dot_S100000x64_S64x64_S100000x64_1_0_0_1_n_n.rhsIdx_val_of_single rfl i q
theorem rhs_dot64_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch from List.not_mem_nil), dif_pos (show (1 : Fin S64x64.rank) ∈ dot_S100000x64_S64x64_S100000x64_1_0_0_1_n_n.rhsNonContracting from List.mem_singleton.mpr rfl)]
  rfl

/-- The [N, 64] × [64, 64] product at (n, d): the sum over k of lhs[n, k] · rhs[k, d]. -/
theorem dot64_apply (y0 : FVec Ideal S100000x64 .f32) (y1 : FVec Ideal S64x64 .f32) (n : Fin 100000) (d : Fin 64) :
    Host.dotGeneral dot_S100000x64_S64x64_S100000x64_1_0_0_1_n_n none y0 y1 (ix2 n d)
      = ∑ k : Fin 64, y0 (ix2 n k) * y1 (ix2 k d) := by
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx (ix2 n d) ((ValueIdx.contrEquiv1 dot_S100000x64_S64x64_S100000x64_1_0_0_1_n_n 64 rfl rfl).symm k) = ix2 n k := funext fun a => Fin.ext (by
    match a with
    | ⟨0, _⟩ => exact lhs_dot64_0 _ _
    | ⟨1, _⟩ => exact (lhs_dot64_1 _ _ _).trans hk)
  have er : dot_S100000x64_S64x64_S100000x64_1_0_0_1_n_n.rhsIdx (ix2 n d) ((ValueIdx.contrEquiv1 dot_S100000x64_S64x64_S100000x64_1_0_0_1_n_n 64 rfl rfl).symm k) = ix2 k d := funext fun a => Fin.ext (by
    match a with
    | ⟨0, _⟩ => exact (rhs_dot64_0 _ _ _).trans hk
    | ⟨1, _⟩ => exact rhs_dot64_1 _ _)
  rw [el, er]

/-! ## One relation's term -/

/-- The scaled features times a weight matrix, index by index. -/
theorem pre64_eq (h : FVec Ideal S100000x64 .f32) (s : FVec Ideal S100000 .f32) (Wr : FVec Ideal S64x64 .f32) :
    Host.dotGeneral dot_S100000x64_S64x64_S100000x64_1_0_0_1_n_n none
        (mulf h (broadcastInDim S100000x64 ![0, 1] bcast_S100000x1_S100000x64_0_1
          (broadcastInDim S100000x1 ![0] bcast_S100000_S100000x1_0 s))) Wr
      = fun i => ∑ k : Fin 64, (h (ix2 (i 0) k) * s (ix1 (i 0))) * Wr (ix2 k (i 1)) := by
  funext i
  obtain ⟨n, d, rfl⟩ : ∃ (n : Fin 100000) (d : Fin 64), i = ix2 n d := ⟨i 0, i 1, eq_ix2 i⟩
  show _ = ∑ k : Fin 64, (h (ix2 n k) * s (ix1 n)) * Wr (ix2 k d)
  rw [dot64_apply]
  refine Finset.sum_congr rfl fun k _ => ?_
  rw [mulf_apply, rows64_apply]

/-- One relation's term of a hidden layer: the reference's composition read as the specification's term, for any
    source row the wrap of negative indices leaves alone, a weight matrix that is the r-th of a stack and a bias
    row that is the r-th of a table. -/
theorem rel64_eq (h : FVec Ideal S100000x64 .f32) (rowS rowD : IVec S800000 32)
    (Wr : FVec Ideal S64x64 .f32) (br : FVec Ideal S64 .f32)
    (W : FVec Ideal S3x64x64 .f32) (b : FVec Ideal S3x64 .f32) (r : Fin 3)
    (hn : RSpec.norm rowS = rowS)
    (hW : ∀ (k : Fin 64) (d : Fin 64), Wr (ix2 k d) = W (ix3 r k d)) (hb : ∀ d : Fin 64, br (ix1 d) = b (ix2 r d)) :
    RSpec.rel64 (F := Ideal) h rowS rowD Wr br
      = fun i => Cert.KernelIdeal.Spec.term64
          (Cert.KernelIdeal.Spec.agg64
            (Cert.KernelIdeal.Spec.P64 h (Cert.KernelIdeal.Spec.deg (RSpec.col rowS)) W r) (RSpec.col rowS) (RSpec.col rowD))
          (Cert.KernelIdeal.Spec.deg (RSpec.col rowD)) b r i := by
  have hP : Host.dotGeneral dot_S100000x64_S64x64_S100000x64_1_0_0_1_n_n none
        (mulf h (broadcastInDim S100000x64 ![0, 1] bcast_S100000x1_S100000x64_0_1
          (broadcastInDim S100000x1 ![0] bcast_S100000_S100000x1_0 (RSpec.deg (F := Ideal) rowS)))) Wr
      = Cert.KernelIdeal.Spec.P64 h (Cert.KernelIdeal.Spec.deg (RSpec.col rowS)) W r := by
    rw [pre64_eq]
    funext i
    obtain ⟨n, d, rfl⟩ : ∃ (n : Fin 100000) (d : Fin 64), i = ix2 n d := ⟨i 0, i 1, eq_ix2 i⟩
    show (∑ k : Fin 64, (h (ix2 n k) * RSpec.deg (F := Ideal) rowS (ix1 n)) * Wr (ix2 k d))
      = ∑ k : Fin 64, (h (ix2 n k) * Cert.KernelIdeal.Spec.deg (RSpec.col rowS) (ix1 n)) * W (ix3 r k d)
    refine Finset.sum_congr rfl fun k _ => ?_
    rw [hW, deg_eq]
  funext i
  obtain ⟨n, d, rfl⟩ : ∃ (n : Fin 100000) (d : Fin 64), i = ix2 n d := ⟨i 0, i 1, eq_ix2 i⟩
  unfold RSpec.rel64
  rw [hn, hP, addf_apply, mulf_apply, rows64_apply, cols64_apply, hb, deg_eq]
  rfl

/-! # Width 2: the output layer's relation term, by the same steps -/

/-- A length-N vector broadcast along the rows of an [N, 2] array: entry (n, d) is the vector's entry n. -/
theorem rows2_apply {α : Type} (s : S100000.Idx → α) (n : Fin 100000) (d : Fin 2) :
    broadcastInDim S100000x2 ![0, 1] bcast_S100000x1_S100000x2_0_1
      (broadcastInDim S100000x1 ![0] bcast_S100000_S100000x1_0 s) (ix2 n d) = s (ix1 n) := by
  rw [broadcastInDim_apply _ bcast_S100000x1_S100000x2_0_1 _ (ix2 n d) (ix2 n 0) (fun a => match a with
      | ⟨0, _⟩ => by show n.val = if (100000 : Nat) = 1 then 0 else n.val; rw [if_neg (by decide)]
      | ⟨1, _⟩ => by show 0 = if (1 : Nat) = 1 then 0 else d.val; rw [if_pos rfl])]
  exact broadcastInDim_apply _ bcast_S100000_S100000x1_0 s (ix2 n 0) (ix1 n) (fun a => match a with
      | ⟨0, _⟩ => by show n.val = if (100000 : Nat) = 1 then 0 else n.val; rw [if_neg (by decide)])

/-- A length-2 vector broadcast along the columns of an [N, 2] array: entry (n, d) is the vector's entry d. -/
theorem cols2_apply {α : Type} (v : S2.Idx → α) (n : Fin 100000) (d : Fin 2) :
    broadcastInDim S100000x2 ![0, 1] bcast_S1x2_S100000x2_0_1
      (broadcastInDim S1x2 ![1] bcast_S2_S1x2_1 v) (ix2 n d) = v (ix1 d) := by
  rw [broadcastInDim_apply _ bcast_S1x2_S100000x2_0_1 _ (ix2 n d) (ix2 0 d) (fun a => match a with
      | ⟨0, _⟩ => by show 0 = if (1 : Nat) = 1 then 0 else n.val; rw [if_pos rfl]
      | ⟨1, _⟩ => by show d.val = if (2 : Nat) = 1 then 0 else d.val; rw [if_neg (by decide)])]
  exact broadcastInDim_apply _ bcast_S2_S1x2_1 v (ix2 0 d) (ix1 d) (fun a => match a with
      | ⟨0, _⟩ => by show d.val = if (2 : Nat) = 1 then 0 else d.val; rw [if_neg (by decide)])

/-! ## The r-th weight matrix and bias row, width 2 -/

/-- A [1, 64, 2] slice of the weight stack starting at (r, 0, 0), with the unit axis dropped, read at (k, d). -/
theorem slice_W2_apply {α : Type} (r : Fin 3) (off : Fin 3 → Nat) (hoff : off = ![r.val, 0, 0]) (W : S3x64x2.Idx → α)
    (hsl : S3x64x2.Slices off S1x64x2) (k : Fin 64) (d : Fin 2) :
    shapeCast S64x2 (extractStridedSlice S1x64x2 off W hsl) shapeCasts_S1x64x2_S64x2 (ix2 k d) = W (ix3 r k d) := by
  subst hoff
  rw [shapeCast_apply _ shapeCasts_S1x64x2_S64x2 (ix2 k d) (ix3 0 k d) (by
    rw [Shape.rowMajor_val_three, Shape.rowMajor_val_two]
    show (0 * 64 + k.val) * 2 + d.val = k.val * 2 + d.val
    omega)]
  exact extractStridedSlice_apply _ W hsl (ix3 0 k d) (ix3 r k d) (fun a => match a with
    | ⟨0, _⟩ => by show r.val = r.val + 0; omega
    | ⟨1, _⟩ => by show k.val = 0 + k.val; omega
    | ⟨2, _⟩ => by show d.val = 0 + d.val; omega)

theorem W2_0_apply (W : FVec Ideal S3x64x2 .f32) (k : Fin 64) (d : Fin 2) : RSpec.W2_0 W (ix2 k d) = W (ix3 0 k d) :=
  slice_W2_apply 0 _ rfl W _ k d
theorem W2_1_apply (W : FVec Ideal S3x64x2 .f32) (k : Fin 64) (d : Fin 2) : RSpec.W2_1 W (ix2 k d) = W (ix3 1 k d) :=
  slice_W2_apply 1 _ rfl W _ k d
theorem W2_2_apply (W : FVec Ideal S3x64x2 .f32) (k : Fin 64) (d : Fin 2) : RSpec.W2_2 W (ix2 k d) = W (ix3 2 k d) :=
  slice_W2_apply 2 _ rfl W _ k d

/-- A [1, 2] slice of the bias table starting at (r, 0), with the unit axis dropped, read at d. -/
theorem slice_b2_apply {α : Type} (r : Fin 3) (off : Fin 2 → Nat) (hoff : off = ![r.val, 0]) (b : S3x2.Idx → α)
    (hsl : S3x2.Slices off S1x2) (d : Fin 2) :
    shapeCast S2 (extractStridedSlice S1x2 off b hsl) shapeCasts_S1x2_S2 (ix1 d) = b (ix2 r d) := by
  subst hoff
  rw [shapeCast_apply _ shapeCasts_S1x2_S2 (ix1 d) (ix2 0 d) (by
    rw [Shape.rowMajor_val_two, Shape.rowMajor_val_one]
    show 0 * 2 + d.val = d.val
    omega)]
  exact extractStridedSlice_apply _ b hsl (ix2 0 d) (ix2 r d) (fun a => match a with
    | ⟨0, _⟩ => by show r.val = r.val + 0; omega
    | ⟨1, _⟩ => by show d.val = 0 + d.val; omega)

theorem b2_0_apply (b : FVec Ideal S3x2 .f32) (d : Fin 2) : RSpec.b2_0 b (ix1 d) = b (ix2 0 d) :=
  slice_b2_apply 0 _ rfl b _ d
theorem b2_1_apply (b : FVec Ideal S3x2 .f32) (d : Fin 2) : RSpec.b2_1 b (ix1 d) = b (ix2 1 d) :=
  slice_b2_apply 1 _ rfl b _ d
theorem b2_2_apply (b : FVec Ideal S3x2 .f32) (d : Fin 2) : RSpec.b2_2 b (ix1 d) = b (ix2 2 d) :=
  slice_b2_apply 2 _ rfl b _ d

/-! ## The matrix product at an index, width 2 -/

theorem lhs_dot2_0 (i : S100000x2.Idx) (q : dot_S100000x64_S64x2_S100000x2_1_0_0_1_n_n.contr.Idx) :
    (dot_S100000x64_S64x2_S100000x2_1_0_0_1_n_n.lhsIdx i q 0).val = (i 0).val := by
  unfold DotDims.lhsIdx
  rw [dif_neg (show ¬(0 : Fin S100000x64.rank) ∈ dot_S100000x64_S64x2_S100000x2_1_0_0_1_n_n.lhsBatch from List.not_mem_nil), dif_pos (show (0 : Fin S100000x64.rank) ∈ dot_S100000x64_S64x2_S100000x2_1_0_0_1_n_n.lhsNonContracting from List.mem_singleton.mpr rfl)]
  rfl
theorem lhs_dot2_1 (i : S100000x2.Idx) (q : dot_S100000x64_S64x2_S100000x2_1_0_0_1_n_n.contr.Idx)
    (h0 : 0 < dot_S100000x64_S64x2_S100000x2_1_0_0_1_n_n.contr.rank) :
    (dot_S100000x64_S64x2_S100000x2_1_0_0_1_n_n.lhsIdx i q 1).val = (q ⟨0, h0⟩).val :=
  dot_S100000x64_S64x2_S100000x2_1_0_0_1_n_n.lhsIdx_val_of_single rfl i q
theorem rhs_dot2_0 (i : S100000x2.Idx) (q : dot_S100000x64_S64x2_S100000x2_1_0_0_1_n_n.contr.Idx)
    (h0 : 0 < dot_S100000x64_S64x2_S100000x2_1_0_0_1_n_n.contr.rank) :
    (dot_S100000x64_S64x2_S100000x2_1_0_0_1_n_n.rhsIdx i q 0).val = (q ⟨0, h0⟩).val :=
  dot_S100000x64_S64x2_S100000x2_1_0_0_1_n_n.rhsIdx_val_of_single rfl i q
theorem rhs_dot2_1 (i : S100000x2.Idx) (q : dot_S100000x64_S64x2_S100000x2_1_0_0_1_n_n.contr.Idx) :
    (dot_S100000x64_S64x2_S100000x2_1_0_0_1_n_n.rhsIdx i q 1).val = (i 1).val := by
  unfold DotDims.rhsIdx
  rw [dif_neg (show ¬(1 : Fin S64x2.rank) ∈ dot_S100000x64_S64x2_S100000x2_1_0_0_1_n_n.rhsBatch from List.not_mem_nil), dif_pos (show (1 : Fin S64x2.rank) ∈ dot_S100000x64_S64x2_S100000x2_1_0_0_1_n_n.rhsNonContracting from List.mem_singleton.mpr rfl)]
  rfl

/-- The [N, 64] × [64, 2] product at (n, d): the sum over k of lhs[n, k] · rhs[k, d]. -/
theorem dot2_apply (y0 : FVec Ideal S100000x64 .f32) (y1 : FVec Ideal S64x2 .f32) (n : Fin 100000) (d : Fin 2) :
    Host.dotGeneral dot_S100000x64_S64x2_S100000x2_1_0_0_1_n_n none y0 y1 (ix2 n d)
      = ∑ k : Fin 64, y0 (ix2 n k) * y1 (ix2 k d) := by
  simp only [Host.dotGeneral]
  rw [Ideal.dotGeneral_apply, ← Equiv.sum_comp (ValueIdx.contrEquiv1 dot_S100000x64_S64x2_S100000x2_1_0_0_1_n_n 64 rfl rfl).symm]
  refine Finset.sum_congr rfl fun k _ => ?_
  have hk := ValueIdx.contrEquiv1_symm_val dot_S100000x64_S64x2_S100000x2_1_0_0_1_n_n 64 rfl rfl k
  have el : dot_S100000x64_S64x2_S100000x2_1_0_0_1_n_n.lhsIdx (ix2 n d) ((ValueIdx.contrEquiv1 dot_S100000x64_S64x2_S100000x2_1_0_0_1_n_n 64 rfl rfl).symm k) = ix2 n k := funext fun a => Fin.ext (by
    match a with
    | ⟨0, _⟩ => exact lhs_dot2_0 _ _
    | ⟨1, _⟩ => exact (lhs_dot2_1 _ _ _).trans hk)
  have er : dot_S100000x64_S64x2_S100000x2_1_0_0_1_n_n.rhsIdx (ix2 n d) ((ValueIdx.contrEquiv1 dot_S100000x64_S64x2_S100000x2_1_0_0_1_n_n 64 rfl rfl).symm k) = ix2 k d := funext fun a => Fin.ext (by
    match a with
    | ⟨0, _⟩ => exact (rhs_dot2_0 _ _ _).trans hk
    | ⟨1, _⟩ => exact rhs_dot2_1 _ _)
  rw [el, er]

/-! ## One relation's term, width 2 -/

/-- The scaled features times a weight matrix, index by index. -/
theorem pre2_eq (h : FVec Ideal S100000x64 .f32) (s : FVec Ideal S100000 .f32) (Wr : FVec Ideal S64x2 .f32) :
    Host.dotGeneral dot_S100000x64_S64x2_S100000x2_1_0_0_1_n_n none
        (mulf h (broadcastInDim S100000x64 ![0, 1] bcast_S100000x1_S100000x64_0_1
          (broadcastInDim S100000x1 ![0] bcast_S100000_S100000x1_0 s))) Wr
      = fun i => ∑ k : Fin 64, (h (ix2 (i 0) k) * s (ix1 (i 0))) * Wr (ix2 k (i 1)) := by
  funext i
  obtain ⟨n, d, rfl⟩ : ∃ (n : Fin 100000) (d : Fin 2), i = ix2 n d := ⟨i 0, i 1, eq_ix2 i⟩
  show _ = ∑ k : Fin 64, (h (ix2 n k) * s (ix1 n)) * Wr (ix2 k d)
  rw [dot2_apply]
  refine Finset.sum_congr rfl fun k _ => ?_
  rw [mulf_apply, rows64_apply]

/-- One relation's term of the output layer: the reference's composition read as the specification's term, for any
    source row the wrap of negative indices leaves alone, a weight matrix that is the r-th of a stack and a bias
    row that is the r-th of a table. -/
theorem rel2_eq (h : FVec Ideal S100000x64 .f32) (rowS rowD : IVec S800000 32)
    (Wr : FVec Ideal S64x2 .f32) (br : FVec Ideal S2 .f32)
    (W : FVec Ideal S3x64x2 .f32) (b : FVec Ideal S3x2 .f32) (r : Fin 3)
    (hn : RSpec.norm rowS = rowS)
    (hW : ∀ (k : Fin 64) (d : Fin 2), Wr (ix2 k d) = W (ix3 r k d)) (hb : ∀ d : Fin 2, br (ix1 d) = b (ix2 r d)) :
    RSpec.rel2 (F := Ideal) h rowS rowD Wr br
      = fun i => Cert.KernelIdeal.Spec.term2
          (Cert.KernelIdeal.Spec.agg2
            (Cert.KernelIdeal.Spec.P2 h (Cert.KernelIdeal.Spec.deg (RSpec.col rowS)) W r) (RSpec.col rowS) (RSpec.col rowD))
          (Cert.KernelIdeal.Spec.deg (RSpec.col rowD)) b r i := by
  have hP : Host.dotGeneral dot_S100000x64_S64x2_S100000x2_1_0_0_1_n_n none
        (mulf h (broadcastInDim S100000x64 ![0, 1] bcast_S100000x1_S100000x64_0_1
          (broadcastInDim S100000x1 ![0] bcast_S100000_S100000x1_0 (RSpec.deg (F := Ideal) rowS)))) Wr
      = Cert.KernelIdeal.Spec.P2 h (Cert.KernelIdeal.Spec.deg (RSpec.col rowS)) W r := by
    rw [pre2_eq]
    funext i
    obtain ⟨n, d, rfl⟩ : ∃ (n : Fin 100000) (d : Fin 2), i = ix2 n d := ⟨i 0, i 1, eq_ix2 i⟩
    show (∑ k : Fin 64, (h (ix2 n k) * RSpec.deg (F := Ideal) rowS (ix1 n)) * Wr (ix2 k d))
      = ∑ k : Fin 64, (h (ix2 n k) * Cert.KernelIdeal.Spec.deg (RSpec.col rowS) (ix1 n)) * W (ix3 r k d)
    refine Finset.sum_congr rfl fun k _ => ?_
    rw [hW, deg_eq]
  funext i
  obtain ⟨n, d, rfl⟩ : ∃ (n : Fin 100000) (d : Fin 2), i = ix2 n d := ⟨i 0, i 1, eq_ix2 i⟩
  unfold RSpec.rel2
  rw [hn, hP, addf_apply, mulf_apply, rows2_apply, cols2_apply, hb, deg_eq]
  rfl

/-! # Layers and the network -/

/-- The zero splat of a hidden layer's maximum, read at an index. -/
theorem zeros64_apply (i : S100000x64.Idx) :
    broadcastInDim S100000x64 ![] bcast_S_S100000x64 (constant (F := Ideal) S_ .f32 0x00000000#32) i = 0 := by
  rw [broadcastInDim_apply _ bcast_S_S100000x64 _ i ix0 (fun a => a.elim0), constant_apply, Ideal.ofBits_zero_f32]

/-- A hidden layer: the three relations' terms added in the reference's order, then the maximum with zero. -/
theorem layer64_eq (h : FVec Ideal S100000x64 .f32) (src dst : IVec S3x800000 32)
    (W : FVec Ideal S3x64x64 .f32) (b : FVec Ideal S3x64 .f32)
    (hn0 : RSpec.norm (RSpec.row0 src) = RSpec.row0 src) (hn1 : RSpec.norm (RSpec.row1 src) = RSpec.row1 src)
    (hn2 : RSpec.norm (RSpec.row2 src) = RSpec.row2 src) :
    RSpec.layer64 (F := Ideal) h src dst W b = Cert.KernelIdeal.Spec.layer64 h src dst W b := by
  funext i
  unfold RSpec.layer64 RSpec.sum64
  rw [maximumf_apply, addf_apply, addf_apply,
    rel64_eq h (RSpec.row0 src) (RSpec.row0 dst) (RSpec.W64_0 W) (RSpec.b64_0 b) W b 0 hn0 (W64_0_apply W) (b64_0_apply b),
    rel64_eq h (RSpec.row1 src) (RSpec.row1 dst) (RSpec.W64_1 W) (RSpec.b64_1 b) W b 1 hn1 (W64_1_apply W) (b64_1_apply b),
    rel64_eq h (RSpec.row2 src) (RSpec.row2 dst) (RSpec.W64_2 W) (RSpec.b64_2 b) W b 2 hn2 (W64_2_apply W) (b64_2_apply b),
    zeros64_apply]
  simp only [col_row0, col_row1, col_row2]
  rfl

/-- The output layer: the three relations' terms added in the reference's order. -/
theorem layer2_eq (h : FVec Ideal S100000x64 .f32) (src dst : IVec S3x800000 32)
    (W : FVec Ideal S3x64x2 .f32) (b : FVec Ideal S3x2 .f32)
    (hn0 : RSpec.norm (RSpec.row0 src) = RSpec.row0 src) (hn1 : RSpec.norm (RSpec.row1 src) = RSpec.row1 src)
    (hn2 : RSpec.norm (RSpec.row2 src) = RSpec.row2 src) :
    RSpec.layer2 (F := Ideal) h src dst W b = Cert.KernelIdeal.Spec.layer2 h src dst W b := by
  funext i
  unfold RSpec.layer2
  rw [addf_apply, addf_apply,
    rel2_eq h (RSpec.row0 src) (RSpec.row0 dst) (RSpec.W2_0 W) (RSpec.b2_0 b) W b 0 hn0 (W2_0_apply W) (b2_0_apply b),
    rel2_eq h (RSpec.row1 src) (RSpec.row1 dst) (RSpec.W2_1 W) (RSpec.b2_1 b) W b 1 hn1 (W2_1_apply W) (b2_1_apply b),
    rel2_eq h (RSpec.row2 src) (RSpec.row2 dst) (RSpec.W2_2 W) (RSpec.b2_2 b) W b 2 hn2 (W2_2_apply W) (b2_2_apply b)]
  simp only [col_row0, col_row1, col_row2]
  rfl

/-- The network, for source rows the wrap of negative indices leaves alone. -/
theorem net_eq_of_norm (x : FVec Ideal S100000x64 .f32) (src dst : IVec S3x800000 32)
    (W1 : FVec Ideal S3x64x64 .f32) (b1 : FVec Ideal S3x64 .f32) (W2 : FVec Ideal S3x64x64 .f32) (b2 : FVec Ideal S3x64 .f32)
    (W3 : FVec Ideal S3x64x64 .f32) (b3 : FVec Ideal S3x64 .f32) (W4 : FVec Ideal S3x64x2 .f32) (b4 : FVec Ideal S3x2 .f32)
    (hn0 : RSpec.norm (RSpec.row0 src) = RSpec.row0 src) (hn1 : RSpec.norm (RSpec.row1 src) = RSpec.row1 src)
    (hn2 : RSpec.norm (RSpec.row2 src) = RSpec.row2 src) :
    RSpec.net (F := Ideal) x src dst W1 b1 W2 b2 W3 b3 W4 b4 = Cert.KernelIdeal.Spec.net x src dst W1 b1 W2 b2 W3 b3 W4 b4 := by
  unfold RSpec.net Cert.KernelIdeal.Spec.net
  rw [layer64_eq x src dst W1 b1 hn0 hn1 hn2, layer64_eq _ src dst W2 b2 hn0 hn1 hn2, layer64_eq _ src dst W3 b3 hn0 hn1 hn2,
    layer2_eq _ src dst W4 b4 hn0 hn1 hn2]

/-! ## Under the stated domain of the source indices the wrap changes nothing -/

theorem norm_row0 (src : IVec S3x800000 32) (hs : Cert.KernelIdeal.Spec.SrcInRange src) :
    RSpec.norm (RSpec.row0 src) = RSpec.row0 src :=
  Cert.KernelIdeal.Hand.norm_eq _ (Cert.KernelIdeal.Hand.row_0_inRange src hs)
theorem norm_row1 (src : IVec S3x800000 32) (hs : Cert.KernelIdeal.Spec.SrcInRange src) :
    RSpec.norm (RSpec.row1 src) = RSpec.row1 src :=
  Cert.KernelIdeal.Hand.norm_eq _ (Cert.KernelIdeal.Hand.row_1_inRange src hs)
theorem norm_row2 (src : IVec S3x800000 32) (hs : Cert.KernelIdeal.Spec.SrcInRange src) :
    RSpec.norm (RSpec.row2 src) = RSpec.row2 src :=
  Cert.KernelIdeal.Hand.norm_eq _ (Cert.KernelIdeal.Hand.row_2_inRange src hs)

/-- The reference's network is the specification's network. -/
theorem net_eq (x : FVec Ideal S100000x64 .f32) (src dst : IVec S3x800000 32)
    (W1 : FVec Ideal S3x64x64 .f32) (b1 : FVec Ideal S3x64 .f32) (W2 : FVec Ideal S3x64x64 .f32) (b2 : FVec Ideal S3x64 .f32)
    (W3 : FVec Ideal S3x64x64 .f32) (b3 : FVec Ideal S3x64 .f32) (W4 : FVec Ideal S3x64x2 .f32) (b4 : FVec Ideal S3x2 .f32)
    (hs : Cert.KernelIdeal.Spec.SrcInRange src) :
    RSpec.net (F := Ideal) x src dst W1 b1 W2 b2 W3 b3 W4 b4 = Cert.KernelIdeal.Spec.net x src dst W1 b1 W2 b2 W3 b3 W4 b4 :=
  net_eq_of_norm x src dst W1 b1 W2 b2 W3 b3 W4 b4 (norm_row0 src hs) (norm_row1 src hs) (norm_row2 src hs)

end Cert.ReferenceIdeal.Hand

end
-- ==== Proof.lean ====
/-
  The certificate of a four-layer heterogeneous graph network: the Pallas program (per layer a row-tiled
  pretransform kernel, out[r,n,:] = (h[n,:] · s_out[n,r]) W[r], then a gather at the source indices and a
  scatter-add at the destination indices on the host, then a row-tiled postagg kernel,
  out[n,:] = max (Σ_r agg[r,n,:] · s_in[n,r] + b[r,:]) 0, no maximum in the last layer) against the plain
  jnp reference, which computes relation by relation (x · s_out)[:, None] @ W[r], gathers, scatter-adds,
  scales, adds the bias and sums.

  On the extended reals both are one function of the inputs, `Spec.net`: the degree factors s_out, s_in are
  the same host composition in both programs; the kernels' matrix products into a zero accumulator and the
  reference's dot_general are the same finite sums; a change of float format is the identity; the kernel's
  running sum (((((0 + t0a) + b0) + t1a) + b1) + t2a) + b2 and the reference's (t0 + t1) + t2 differ by
  associativity of + and 0 + x = x only, so no finiteness of the inputs is used. The two programs DO differ
  on a source index outside [0, N): the kernel's jnp.take fills such a row with a NaN word while the
  reference's h[s] clamps the index; the statement's precondition therefore says that every source index is a
  node number (0 ≤ src < N), under which the take's mask is all ones and the index normalisation of both
  programs is the identity. Destination indices need no condition: both programs hand them to the same
  scatter-add.

  The frames: the word-level program and its idealization run to the end over their eight kernel regions
  (the regions' bodies step by step, the host stretches as the library's segments) and leave the eleven
  argument arrays as launched; the reference is a host program whose run is read operation by operation.
-/
import proofs.«408287_j3659312136510_1_alg».proof.Defs
import proofs.«408287_j3659312136510_1_alg».proof.Proof.Gen.Kernel
import proofs.«408287_j3659312136510_1_alg».proof.Proof.Gen.KernelIdeal
import proofs.«408287_j3659312136510_1_alg».proof.Proof.Gen.ReferenceIdeal
import proofs.«408287_j3659312136510_1_alg».proof.Proof.Gen.Pre_finite_inputs
import proofs.«408287_j3659312136510_1_alg».proof.Proof.K.RunMain
import proofs.«408287_j3659312136510_1_alg».proof.Proof.KI.RunMain
import proofs.«408287_j3659312136510_1_alg».proof.Proof.KI.PreTake
import proofs.«408287_j3659312136510_1_alg».proof.Proof.KI.KernelValue
import proofs.«408287_j3659312136510_1_alg».proof.Proof.Ref.Run
import proofs.«408287_j3659312136510_1_alg».proof.Proof.Ref.RefValue

noncomputable section

namespace Cert.Proof

open Idealize.ShloMosaic Idealize.SL.Sem

/-- The word-level program runs to the end and leaves its arguments as launched. -/
theorem frame_k : Cert.frame_Kernel (hKernel := Cert.Kernel.Gen.facts) (hPre_finite_inputs := Cert.Pre_finite_inputs.Gen.facts) :=
  fun m ρ _ => Cert.Kernel.Hand.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run (F := Ideal) m ρ)

/-- Both idealized programs end with `Spec.net` of the (agreeing) arguments: the kernel by its run over the
    regions and the value of each region and host stretch, the reference by its run and the bridge from its
    own composition to the specification; the source indices are in range by the precondition. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hs : ∀ c : Dev Cert.KernelIdeal.nD, Cert.KernelIdeal.Spec.SrcInRange
      (m ((c.tc : Thread Cert.KernelIdeal.nD Cert.KernelIdeal.τ).loc Cert.KernelIdeal.main_arg1)) :=
    fun c => Cert.KernelIdeal.Hand.srcInRange_of_pre' _ _ _ _ _ _ _ _ _ _ _ (hpre c)
  refine ⟨fun c => Cert.KernelIdeal.Hand.result (F := Ideal) m c, ?_, ?_⟩
  · exact (θ_run Cert.KernelIdeal.defs _ _).mono (fun _ h c => h c) (Cert.KernelIdeal.Hand.run_main (F := Ideal) m ρ)
  · refine (θ_run Cert.ReferenceIdeal.defs _ _).mono (fun _ h c => ⟨(h c).1.trans ?_, (h c).2⟩)
      (Cert.ReferenceIdeal.Hand.run (F := Ideal) m' ρ')
    refine Eq.trans ?_ (Cert.KernelIdeal.Hand.result_eq m c (hs c)).symm
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2]
    exact Cert.ReferenceIdeal.Hand.net_eq _ _ _ _ _ _ _ _ _ _ _ (hs c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
